-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v197)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v197) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x300000 : Shape := ⟨2, ![2, 300000]⟩
abbrev S2x1797685 : Shape := ⟨2, ![2, 1797685]⟩
abbrev S512x64 : Shape := ⟨2, ![512, 64]⟩
abbrev S64 : Shape := ⟨1, ![64]⟩
abbrev S128x16 : Shape := ⟨2, ![128, 16]⟩
abbrev S16 : Shape := ⟨1, ![16]⟩
abbrev S32x16 : Shape := ⟨2, ![32, 16]⟩
abbrev S_ : Shape := ⟨0, ![]⟩
abbrev S1x300000 : Shape := ⟨2, ![1, 300000]⟩
abbrev S300000 : Shape := ⟨1, ![300000]⟩
abbrev S1x1797685 : Shape := ⟨2, ![1, 1797685]⟩
abbrev S1797685 : Shape := ⟨1, ![1797685]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  reducesTo_S300000_S_d0 : S300000.ReducesTo [0] S_
  slices_S2x1797685_S1x1797685_0_0 : S2x1797685.Slices ![0, 0] S1x1797685
  shapeCasts_S1x1797685_S1797685 : S1x1797685.ShapeCasts S1797685
  bcast_S_S1797685 : S_.BroadcastsInDim S1797685 (![] : Fin 0 → Fin S1797685.rank)
  reducesTo_S1797685_S_d0 : S1797685.ReducesTo [0] S_

variable [Facts]

def fn_part3 {F : FTy → Type} [FloatOps F] (main_v44 : IVec S_ 1) (main_v48 : IVec S1797685 1) (main_v52 : IVec S1797685 1) : IVec S_ 1 :=
  let main_v53 : IVec S1797685 1 := andi main_v48 main_v52
  let main_c_17 : IVec S_ 1 := constantI S_ 1 1#1
  let main_v54 : IVec S_ 1 := (fun x v => Host.reduce IntOp.andi x v reducesTo_S1797685_S_d0 h_S_) main_v53 main_c_17
  let main_v55 : IVec S_ 1 := andi main_v44 main_v54
  main_v55

def fn_part2 {F : FTy → Type} [FloatOps F] (main_arg1 : IVec S2x300000 32) (main_arg2 : IVec S2x1797685 32) (main_v33 : IVec S_ 1) : IVec S_ 1 :=
  let main_v34 : IVec S1x300000 32 := (extractStridedSlice S1x300000 ![0, 0] · slices_S2x300000_S1x300000_0_0) main_arg1
  let main_v35 : IVec S300000 32 := shapeCast S300000 main_v34 shapeCasts_S1x300000_S300000
  let main_c_12 : IVec S_ 32 := constantI S_ 32 0#32
  let main_v36 : IVec S300000 32 := broadcastInDim S300000 ![] bcast_S_S300000 main_c_12
  let main_v37 : IVec S300000 1 := cmpi .sge main_v35 main_v36
  let main_v38 : IVec S1x300000 32 := (extractStridedSlice S1x300000 ![0, 0] · slices_S2x300000_S1x300000_0_0) main_arg1
  let main_v39 : IVec S300000 32 := shapeCast S300000 main_v38 shapeCasts_S1x300000_S300000
  let main_c_13 : IVec S_ 32 := constantI S_ 32 50000#32
  let main_v40 : IVec S300000 32 := broadcastInDim S300000 ![] bcast_S_S300000 main_c_13
  let main_v41 : IVec S300000 1 := cmpi .slt main_v39 main_v40
  let main_v42 : IVec S300000 1 := andi main_v37 main_v41
  let main_c_14 : IVec S_ 1 := constantI S_ 1 1#1
  let main_v43 : IVec S_ 1 := (fun x v => Host.reduce IntOp.andi x v reducesTo_S300000_S_d0 h_S_) main_v42 main_c_14
  let main_v44 : IVec S_ 1 := andi main_v33 main_v43
  let main_v45 : IVec S1x1797685 32 := (extractStridedSlice S1x1797685 ![0, 0] · slices_S2x1797685_S1x1797685_0_0) main_arg2
  let main_v46 : IVec S1797685 32 := shapeCast S1797685 main_v45 shapeCasts_S1x1797685_S1797685
  let main_c_15 : IVec S_ 32 := constantI S_ 32 0#32
  let main_v47 : IVec S1797685 32 := broadcastInDim S1797685 ![] bcast_S_S1797685 main_c_15
  let main_v48 : IVec S1797685 1 := cmpi .sge main_v46 main_v47
  let main_v49 : IVec S1x1797685 32 := (extractStridedSlice S1x1797685 ![0, 0] · slices_S2x1797685_S1x1797685_0_0) main_arg2
  let main_v50 : IVec S1797685 32 := shapeCast S1797685 main_v49 shapeCasts_S1x1797685_S1797685
  let main_c_16 : IVec S_ 32 := constantI S_ 32 50000#32
  let main_v51 : IVec S1797685 32 := broadcastInDim S1797685 ![] bcast_S_S1797685 main_c_16
  let main_v52 : IVec S1797685 1 := cmpi .slt main_v50 main_v51
  fn_part3 (F := F) main_v44 main_v48 main_v52

def fn_part1 {F : FTy → Type} [FloatOps F] (main_arg1 : IVec S2x300000 32) (main_arg2 : IVec S2x1797685 32) (main_arg6 : FVec F S16 .f32) (main_arg7 : FVec F S32x16 .f32) (main_arg8 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg2 main_v33

def fn {F : FTy → Type} [FloatOps F] (main_arg0 : FVec F S50000x512 .f32) (main_arg1 : IVec S2x300000 32) (main_arg2 : IVec S2x1797685 32) (main_arg3 : FVec F S512x64 .f32) (main_arg4 : FVec F S64 .f32) (main_arg5 : FVec F S128x16 .f32) (main_arg6 : FVec F S16 .f32) (main_arg7 : FVec F S32x16 .f32) (main_arg8 : FVec F S16 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x64 .f32 := Host.absf main_arg3
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x16 .f32 := Host.absf main_arg5
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg1 main_arg2 main_arg6 main_arg7 main_arg8 main_v13 main_v16
-- ==== Kernel.lean ====
abbrev S50000x512 : Shape := ⟨2, ![50000, 512]⟩
abbrev S2x300000 : Shape := ⟨2, ![2, 300000]⟩
abbrev S2x1797685 : Shape := ⟨2, ![2, 1797685]⟩
abbrev S512x64 : Shape := ⟨2, ![512, 64]⟩
abbrev S64 : Shape := ⟨1, ![64]⟩
abbrev S128x16 : Shape := ⟨2, ![128, 16]⟩
abbrev S16 : Shape := ⟨1, ![16]⟩
abbrev S32x16 : Shape := ⟨2, ![32, 16]⟩
abbrev S50000 : Shape := ⟨1, ![50000]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S352256 : Shape := ⟨1, ![352256]⟩
abbrev S172x2048 : Shape := ⟨2, ![172, 2048]⟩
abbrev S172x1 : Shape := ⟨2, ![172, 1]⟩
abbrev S172 : Shape := ⟨1, ![172]⟩
abbrev S1x352256 : Shape := ⟨2, ![1, 352256]⟩
abbrev S1x1797685 : Shape := ⟨2, ![1, 1797685]⟩
abbrev S1797685 : Shape := ⟨1, ![1797685]⟩
abbrev S1847685 : Shape := ⟨1, ![1847685]⟩
abbrev S1847685x1 : Shape := ⟨2, ![1847685, 1]⟩
abbrev S1851392 : Shape := ⟨1, ![1851392]⟩
abbrev S904x2048 : Shape := ⟨2, ![904, 2048]⟩
abbrev S904x1 : Shape := ⟨2, ![904, 1]⟩
abbrev S904 : Shape := ⟨1, ![904]⟩
abbrev S1x1851392 : Shape := ⟨2, ![1, 1851392]⟩
abbrev S1x64 : Shape := ⟨2, ![1, 64]⟩
abbrev S50000x64 : Shape := ⟨2, ![50000, 64]⟩
abbrev S5000x512 : Shape := ⟨2, ![5000, 512]⟩
abbrev S5000x64 : Shape := ⟨2, ![5000, 64]⟩
abbrev S352256x1 : Shape := ⟨2, ![352256, 1]⟩
abbrev S1 : Shape := ⟨1, ![1]⟩
abbrev S1x1 : Shape := ⟨2, ![1, 1]⟩
abbrev S352256x64 : Shape := ⟨2, ![352256, 64]⟩
abbrev S2x50000x64 : Shape := ⟨3, ![2, 50000, 64]⟩
abbrev S2048x64 : Shape := ⟨2, ![2048, 64]⟩
abbrev S1x2048 : Shape := ⟨2, ![1, 2048]⟩
abbrev S1x50000x64 : Shape := ⟨3, ![1, 50000, 64]⟩
abbrev S2056x2048 : Shape := ⟨2, ![2056, 2048]⟩
abbrev S2056x64 : Shape := ⟨2, ![2056, 64]⟩
abbrev S1x2056x64 : Shape := ⟨3, ![1, 2056, 64]⟩
abbrev S1851392x1 : Shape := ⟨2, ![1851392, 1]⟩
abbrev S1851392x64 : Shape := ⟨2, ![1851392, 64]⟩
abbrev S50000x128 : Shape := ⟨2, ![50000, 128]⟩
abbrev S1x16 : Shape := ⟨2, ![1, 16]⟩
abbrev S50000x16 : Shape := ⟨2, ![50000, 16]⟩
abbrev S5000x128 : Shape := ⟨2, ![5000, 128]⟩
abbrev S5000x16 : Shape := ⟨2, ![5000, 16]⟩
abbrev S352256x16 : Shape := ⟨2, ![352256, 16]⟩
abbrev S2x50000x16 : Shape := ⟨3, ![2, 50000, 16]⟩
abbrev S2048x16 : Shape := ⟨2, ![2048, 16]⟩
abbrev S1x50000x16 : Shape := ⟨3, ![1, 50000, 16]⟩
abbrev S2056x16 : Shape := ⟨2, ![2056, 16]⟩
abbrev S1x2056x16 : Shape := ⟨3, ![1, 2056, 16]⟩
abbrev S1851392x16 : Shape := ⟨2, ![1851392, 16]⟩
abbrev S50000x32 : Shape := ⟨2, ![50000, 32]⟩
abbrev S5000x32 : Shape := ⟨2, ![5000, 32]⟩
abbrev S50000x1 : Shape := ⟨2, ![50000, 1]⟩

abbrev nBuf : Space → Nat
  | .hbm => 411
  | .vmem => 38
  | .smem => 2
  | _ => 0

abbrev hbmTy0_0 (i : Nat) : BufTy := match i % 128 with
  | 0 => ⟨S50000x512, .f32⟩
  | 1 => ⟨S2x300000, .i32⟩
  | 2 => ⟨S2x1797685, .i32⟩
  | 3 => ⟨S512x64, .f32⟩
  | 4 => ⟨S64, .f32⟩
  | 5 => ⟨S128x16, .f32⟩
  | 6 => ⟨S16, .f32⟩
  | 7 => ⟨S32x16, .f32⟩
  | 8 => ⟨S16, .f32⟩
  | 9 => ⟨S50000, .i32⟩
  | 10 => ⟨S1x300000, .i32⟩
  | 11 => ⟨S300000, .i32⟩
  | 12 => ⟨S350000, .i32⟩
  | 13 => ⟨S1x300000, .i32⟩
  | 14 => ⟨S300000, .i32⟩
  | 15 => ⟨S350000, .i32⟩
  | 16 => ⟨S_, .f32⟩
  | 17 => ⟨S350000, .f32⟩
  | 18 => ⟨S_, .f32⟩
  | 19 => ⟨S50000, .f32⟩
  | 20 => ⟨S350000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S350000, .i32⟩
  | 35 => ⟨S350000, .i1⟩
  | 36 => ⟨S_, .i32⟩
  | 37 => ⟨S350000, .i32⟩
  | 38 => ⟨S350000, .i32⟩
  | 39 => ⟨S350000, .i32⟩
  | 40 => ⟨S350000x1, .i32⟩
  | 41 => ⟨S350000, .f32⟩
  | 42 => ⟨S_, .i32⟩
  | 43 => ⟨S350000, .i32⟩
  | 44 => ⟨S350000, .i1⟩
  | 45 => ⟨S_, .i32⟩
  | 46 => ⟨S350000, .i32⟩
  | 47 => ⟨S350000, .i32⟩
  | 48 => ⟨S350000, .i32⟩
  | 49 => ⟨S350000x1, .i32⟩
  | 50 => ⟨S350000, .f32⟩
  | 51 => ⟨S350000, .f32⟩
  | 52 => ⟨S350000, .i32⟩
  | 53 => ⟨S350000, .i32⟩
  | 54 => ⟨S350000, .i32⟩
  | 55 => ⟨S_, .i32⟩
  | 56 => ⟨S350000, .i32⟩
  | 57 => ⟨S350000, .i1⟩
  | 58 => ⟨S_, .i32⟩
  | 59 => ⟨S350000, .i32⟩
  | 60 => ⟨S350000, .i32⟩
  | 61 => ⟨S350000, .i32⟩
  | 62 => ⟨S350000x1, .i32⟩
  | 63 => ⟨S350000, .i32⟩
  | 64 => ⟨S_, .i32⟩
  | 65 => ⟨S350000, .i32⟩
  | 66 => ⟨S350000, .i1⟩
  | 67 => ⟨S_, .i32⟩
  | 68 => ⟨S350000, .i32⟩
  | 69 => ⟨S350000, .i32⟩
  | 70 => ⟨S350000, .i32⟩
  | 71 => ⟨S350000x1, .i32⟩
  | 72 => ⟨S350000, .i32⟩
  | 73 => ⟨S_, .i32⟩
  | 74 => ⟨S350000, .i32⟩
  | 75 => ⟨S350000, .i1⟩
  | 76 => ⟨S_, .i32⟩
  | 77 => ⟨S350000, .i32⟩
  | 78 => ⟨S350000, .i32⟩
  | 79 => ⟨S350000, .i32⟩
  | 80 => ⟨S350000x1, .i32⟩
  | 81 => ⟨S350000, .f32⟩
  | 82 => ⟨S_, .i32⟩
  | 83 => ⟨S_, .i32⟩
  | 84 => ⟨S352256, .i32⟩
  | 85 => ⟨S_, .i32⟩
  | 86 => ⟨S_, .i32⟩
  | 87 => ⟨S352256, .i32⟩
  | 88 => ⟨S_, .i32⟩
  | 89 => ⟨S_, .f32⟩
  | 90 => ⟨S352256, .f32⟩
  | 91 => ⟨S172x2048, .i32⟩
  | 92 => ⟨S172x1, .i32⟩
  | 93 => ⟨S172, .i32⟩
  | 94 => ⟨S_, .i32⟩
  | 95 => ⟨S_, .i32⟩
  | 96 => ⟨S172, .i32⟩
  | 97 => ⟨S172, .i32⟩
  | 98 => ⟨S172, .i32⟩
  | 99 => ⟨S_, .i32⟩
  | 100 => ⟨S172, .i32⟩
  | 101 => ⟨S172, .i1⟩
  | 102 => ⟨S172, .i32⟩
  | 103 => ⟨S172, .i32⟩
  | 104 => ⟨S_, .i32⟩
  | 105 => ⟨S172, .i32⟩
  | 106 => ⟨S172, .i1⟩
  | 107 => ⟨S172, .i1⟩
  | 108 => ⟨S_, .i32⟩
  | 109 => ⟨S172, .i32⟩
  | 110 => ⟨S172, .i32⟩
  | 111 => ⟨S172, .i32⟩
  | 112 => ⟨S_, .i32⟩
  | 113 => ⟨S172, .i32⟩
  | 114 => ⟨S172, .i32⟩
  | 115 => ⟨S_, .i32⟩
  | 116 => ⟨S_, .i32⟩
  | 117 => ⟨S_, .i32⟩
  | 118 => ⟨S172, .i32⟩
  | 119 => ⟨S172, .i32⟩
  | 120 => ⟨S_, .i32⟩
  | 121 => ⟨S172, .i32⟩
  | 122 => ⟨S1x352256, .i32⟩
  | 123 => ⟨S50000, .i32⟩
  | 124 => ⟨S1x1797685, .i32⟩
  | 125 => ⟨S1797685, .i32⟩
  | 126 => ⟨S1847685, .i32⟩
  | 127 => ⟨S1x1797685, .i32⟩
  | _ => ⟨S50000x512, .f32⟩

abbrev hbmTy0_1 (i : Nat) : BufTy := match i % 128 with
  | 0 => ⟨S1797685, .i32⟩
  | 1 => ⟨S1847685, .i32⟩
  | 2 => ⟨S_, .f32⟩
  | 3 => ⟨S1847685, .f32⟩
  | 4 => ⟨S_, .f32⟩
  | 5 => ⟨S50000, .f32⟩
  | 6 => ⟨S1847685x1, .i32⟩
  | 7 => ⟨S50000, .f32⟩
  | 8 => ⟨S_, .f32⟩
  | 9 => ⟨S50000, .f32⟩
  | 10 => ⟨S50000, .i1⟩
  | 11 => ⟨S_, .f32⟩
  | 12 => ⟨S50000, .f32⟩
  | 13 => ⟨S50000, .f32⟩
  | 14 => ⟨S50000, .f32⟩
  | 15 => ⟨S_, .f32⟩
  | 16 => ⟨S_, .f32⟩
  | 17 => ⟨S50000, .f32⟩
  | 18 => ⟨S50000, .f32⟩
  | 19 => ⟨S_, .i32⟩
  | 20 => ⟨S1847685, .i32⟩
  | 21 => ⟨S1847685, .i1⟩
  | 22 => ⟨S_, .i32⟩
  | 23 => ⟨S1847685, .i32⟩
  | 24 => ⟨S1847685, .i32⟩
  | 25 => ⟨S1847685, .i32⟩
  | 26 => ⟨S1847685x1, .i32⟩
  | 27 => ⟨S1847685, .f32⟩
  | 28 => ⟨S_, .i32⟩
  | 29 => ⟨S1847685, .i32⟩
  | 30 => ⟨S1847685, .i1⟩
  | 31 => ⟨S_, .i32⟩
  | 32 => ⟨S1847685, .i32⟩
  | 33 => ⟨S1847685, .i32⟩
  | 34 => ⟨S1847685, .i32⟩
  | 35 => ⟨S1847685x1, .i32⟩
  | 36 => ⟨S1847685, .f32⟩
  | 37 => ⟨S1847685, .f32⟩
  | 38 => ⟨S1847685, .i32⟩
  | 39 => ⟨S1847685, .i32⟩
  | 40 => ⟨S1847685, .i32⟩
  | 41 => ⟨S_, .i32⟩
  | 42 => ⟨S1847685, .i32⟩
  | 43 => ⟨S1847685, .i1⟩
  | 44 => ⟨S_, .i32⟩
  | 45 => ⟨S1847685, .i32⟩
  | 46 => ⟨S1847685, .i32⟩
  | 47 => ⟨S1847685, .i32⟩
  | 48 => ⟨S1847685x1, .i32⟩
  | 49 => ⟨S1847685, .i32⟩
  | 50 => ⟨S_, .i32⟩
  | 51 => ⟨S1847685, .i32⟩
  | 52 => ⟨S1847685, .i1⟩
  | 53 => ⟨S_, .i32⟩
  | 54 => ⟨S1847685, .i32⟩
  | 55 => ⟨S1847685, .i32⟩
  | 56 => ⟨S1847685, .i32⟩
  | 57 => ⟨S1847685x1, .i32⟩
  | 58 => ⟨S1847685, .i32⟩
  | 59 => ⟨S_, .i32⟩
  | 60 => ⟨S1847685, .i32⟩
  | 61 => ⟨S1847685, .i1⟩
  | 62 => ⟨S_, .i32⟩
  | 63 => ⟨S1847685, .i32⟩
  | 64 => ⟨S1847685, .i32⟩
  | 65 => ⟨S1847685, .i32⟩
  | 66 => ⟨S1847685x1, .i32⟩
  | 67 => ⟨S1847685, .f32⟩
  | 68 => ⟨S_, .i32⟩
  | 69 => ⟨S_, .i32⟩
  | 70 => ⟨S1851392, .i32⟩
  | 71 => ⟨S_, .i32⟩
  | 72 => ⟨S_, .i32⟩
  | 73 => ⟨S1851392, .i32⟩
  | 74 => ⟨S_, .i32⟩
  | 75 => ⟨S_, .f32⟩
  | 76 => ⟨S1851392, .f32⟩
  | 77 => ⟨S904x2048, .i32⟩
  | 78 => ⟨S904x1, .i32⟩
  | 79 => ⟨S904, .i32⟩
  | 80 => ⟨S_, .i32⟩
  | 81 => ⟨S_, .i32⟩
  | 82 => ⟨S904, .i32⟩
  | 83 => ⟨S904, .i32⟩
  | 84 => ⟨S904, .i32⟩
  | 85 => ⟨S_, .i32⟩
  | 86 => ⟨S904, .i32⟩
  | 87 => ⟨S904, .i1⟩
  | 88 => ⟨S904, .i32⟩
  | 89 => ⟨S904, .i32⟩
  | 90 => ⟨S_, .i32⟩
  | 91 => ⟨S904, .i32⟩
  | 92 => ⟨S904, .i1⟩
  | 93 => ⟨S904, .i1⟩
  | 94 => ⟨S_, .i32⟩
  | 95 => ⟨S904, .i32⟩
  | 96 => ⟨S904, .i32⟩
  | 97 => ⟨S904, .i32⟩
  | 98 => ⟨S_, .i32⟩
  | 99 => ⟨S904, .i32⟩
  | 100 => ⟨S904, .i32⟩
  | 101 => ⟨S_, .i32⟩
  | 102 => ⟨S_, .i32⟩
  | 103 => ⟨S_, .i32⟩
  | 104 => ⟨S904, .i32⟩
  | 105 => ⟨S904, .i32⟩
  | 106 => ⟨S_, .i32⟩
  | 107 => ⟨S904, .i32⟩
  | 108 => ⟨S1x1851392, .i32⟩
  | 109 => ⟨S_, .f32⟩
  | 110 => ⟨S64, .f32⟩
  | 111 => ⟨S1x64, .f32⟩
  | 112 => ⟨S50000x64, .f32⟩
  | 113 => ⟨S_, .i32⟩
  | 114 => ⟨S352256, .i32⟩
  | 115 => ⟨S352256, .i1⟩
  | 116 => ⟨S_, .i32⟩
  | 117 => ⟨S352256, .i32⟩
  | 118 => ⟨S352256, .i32⟩
  | 119 => ⟨S352256, .i32⟩
  | 120 => ⟨S352256x1, .i32⟩
  | 121 => ⟨S1, .i32⟩
  | 122 => ⟨S_, .i32⟩
  | 123 => ⟨S352256x1, .i32⟩
  | 124 => ⟨S352256x1, .i1⟩
  | 125 => ⟨S1x1, .i32⟩
  | 126 => ⟨S352256x1, .i32⟩
  | 127 => ⟨S352256x1, .i1⟩
  | _ => ⟨S50000x512, .f32⟩

abbrev hbmTy0_2 (i : Nat) : BufTy := match i % 128 with
  | 0 => ⟨S352256x1, .i1⟩
  | 1 => ⟨S_, .i1⟩
  | 2 => ⟨S352256, .i1⟩
  | 3 => ⟨S352256x64, .f32⟩
  | 4 => ⟨S352256x64, .i1⟩
  | 5 => ⟨S_, .f32⟩
  | 6 => ⟨S352256x64, .f32⟩
  | 7 => ⟨S352256x64, .f32⟩
  | 8 => ⟨S352256x1, .f32⟩
  | 9 => ⟨S352256x64, .f32⟩
  | 10 => ⟨S352256x64, .f32⟩
  | 11 => ⟨S352256x64, .bf16⟩
  | 12 => ⟨S2x50000x64, .f32⟩
  | 13 => ⟨S1x50000x64, .f32⟩
  | 14 => ⟨S50000x64, .f32⟩
  | 15 => ⟨S1x50000x64, .f32⟩
  | 16 => ⟨S50000x64, .f32⟩
  | 17 => ⟨S50000x64, .f32⟩
  | 18 => ⟨S1x64, .f32⟩
  | 19 => ⟨S50000x64, .f32⟩
  | 20 => ⟨S50000x64, .f32⟩
  | 21 => ⟨S_, .i32⟩
  | 22 => ⟨S1851392, .i32⟩
  | 23 => ⟨S1851392, .i1⟩
  | 24 => ⟨S_, .i32⟩
  | 25 => ⟨S1851392, .i32⟩
  | 26 => ⟨S1851392, .i32⟩
  | 27 => ⟨S1851392, .i32⟩
  | 28 => ⟨S1851392x1, .i32⟩
  | 29 => ⟨S1, .i32⟩
  | 30 => ⟨S_, .i32⟩
  | 31 => ⟨S1851392x1, .i32⟩
  | 32 => ⟨S1851392x1, .i1⟩
  | 33 => ⟨S1x1, .i32⟩
  | 34 => ⟨S1851392x1, .i32⟩
  | 35 => ⟨S1851392x1, .i1⟩
  | 36 => ⟨S1851392x1, .i1⟩
  | 37 => ⟨S_, .i1⟩
  | 38 => ⟨S1851392, .i1⟩
  | 39 => ⟨S1851392x64, .f32⟩
  | 40 => ⟨S1851392x64, .i1⟩
  | 41 => ⟨S_, .f32⟩
  | 42 => ⟨S1851392x64, .f32⟩
  | 43 => ⟨S1851392x64, .f32⟩
  | 44 => ⟨S1851392x1, .f32⟩
  | 45 => ⟨S1851392x64, .f32⟩
  | 46 => ⟨S1851392x64, .f32⟩
  | 47 => ⟨S1851392x64, .bf16⟩
  | 48 => ⟨S2x50000x64, .f32⟩
  | 49 => ⟨S1x50000x64, .f32⟩
  | 50 => ⟨S50000x64, .f32⟩
  | 51 => ⟨S1x50000x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S50000x128, .f32⟩
  | 58 => ⟨S_, .f32⟩
  | 59 => ⟨S50000x128, .f32⟩
  | 60 => ⟨S50000x128, .f32⟩
  | 61 => ⟨S_, .f32⟩
  | 62 => ⟨S16, .f32⟩
  | 63 => ⟨S1x16, .f32⟩
  | 64 => ⟨S50000x16, .f32⟩
  | 65 => ⟨S_, .i32⟩
  | 66 => ⟨S352256, .i32⟩
  | 67 => ⟨S352256, .i1⟩
  | 68 => ⟨S_, .i32⟩
  | 69 => ⟨S352256, .i32⟩
  | 70 => ⟨S352256, .i32⟩
  | 71 => ⟨S352256, .i32⟩
  | 72 => ⟨S352256x1, .i32⟩
  | 73 => ⟨S1, .i32⟩
  | 74 => ⟨S_, .i32⟩
  | 75 => ⟨S352256x1, .i32⟩
  | 76 => ⟨S352256x1, .i1⟩
  | 77 => ⟨S1x1, .i32⟩
  | 78 => ⟨S352256x1, .i32⟩
  | 79 => ⟨S352256x1, .i1⟩
  | 80 => ⟨S352256x1, .i1⟩
  | 81 => ⟨S_, .i1⟩
  | 82 => ⟨S352256, .i1⟩
  | 83 => ⟨S352256x16, .f32⟩
  | 84 => ⟨S352256x16, .i1⟩
  | 85 => ⟨S_, .f32⟩
  | 86 => ⟨S352256x16, .f32⟩
  | 87 => ⟨S352256x16, .f32⟩
  | 88 => ⟨S352256x1, .f32⟩
  | 89 => ⟨S352256x16, .f32⟩
  | 90 => ⟨S352256x16, .f32⟩
  | 91 => ⟨S352256x16, .bf16⟩
  | 92 => ⟨S2x50000x16, .f32⟩
  | 93 => ⟨S1x50000x16, .f32⟩
  | 94 => ⟨S50000x16, .f32⟩
  | 95 => ⟨S1x50000x16, .f32⟩
  | 96 => ⟨S50000x16, .f32⟩
  | 97 => ⟨S50000x16, .f32⟩
  | 98 => ⟨S1x16, .f32⟩
  | 99 => ⟨S50000x16, .f32⟩
  | 100 => ⟨S50000x16, .f32⟩
  | 101 => ⟨S_, .i32⟩
  | 102 => ⟨S1851392, .i32⟩
  | 103 => ⟨S1851392, .i1⟩
  | 104 => ⟨S_, .i32⟩
  | 105 => ⟨S1851392, .i32⟩
  | 106 => ⟨S1851392, .i32⟩
  | 107 => ⟨S1851392, .i32⟩
  | 108 => ⟨S1851392x1, .i32⟩
  | 109 => ⟨S1, .i32⟩
  | 110 => ⟨S_, .i32⟩
  | 111 => ⟨S1851392x1, .i32⟩
  | 112 => ⟨S1851392x1, .i1⟩
  | 113 => ⟨S1x1, .i32⟩
  | 114 => ⟨S1851392x1, .i32⟩
  | 115 => ⟨S1851392x1, .i1⟩
  | 116 => ⟨S1851392x1, .i1⟩
  | 117 => ⟨S_, .i1⟩
  | 118 => ⟨S1851392, .i1⟩
  | 119 => ⟨S1851392x16, .f32⟩
  | 120 => ⟨S1851392x16, .i1⟩
  | 121 => ⟨S_, .f32⟩
  | 122 => ⟨S1851392x16, .f32⟩
  | 123 => ⟨S1851392x16, .f32⟩
  | 124 => ⟨S1851392x1, .f32⟩
  | 125 => ⟨S1851392x16, .f32⟩
  | 126 => ⟨S1851392x16, .f32⟩
  | 127 => ⟨S1851392x16, .bf16⟩
  | _ => ⟨S50000x512, .f32⟩

abbrev hbmTy0_3 (i : Nat) : BufTy := match i % 128 with
  | 0 => ⟨S2x50000x16, .f32⟩
  | 1 => ⟨S1x50000x16, .f32⟩
  | 2 => ⟨S50000x16, .f32⟩
  | 3 => ⟨S1x50000x16, .f32⟩
  | 4 => ⟨S50000x16, .f32⟩
  | 5 => ⟨S50000x16, .f32⟩
  | 6 => ⟨S1x16, .f32⟩
  | 7 => ⟨S50000x16, .f32⟩
  | 8 => ⟨S50000x16, .f32⟩
  | 9 => ⟨S50000x32, .f32⟩
  | 10 => ⟨S1x16, .f32⟩
  | 11 => ⟨S50000x16, .f32⟩
  | 12 => ⟨S_, .f32⟩
  | 13 => ⟨S50000, .f32⟩
  | 14 => ⟨S_, .f32⟩
  | 15 => ⟨S50000, .f32⟩
  | 16 => ⟨S50000, .f32⟩
  | 17 => ⟨S50000x1, .f32⟩
  | 18 => ⟨S50000x16, .f32⟩
  | 19 => ⟨S50000x16, .f32⟩
  | 20 => ⟨S50000x16, .f32⟩
  | 21 => ⟨S_, .f32⟩
  | 22 => ⟨S50000, .f32⟩
  | 23 => ⟨S50000x1, .f32⟩
  | 24 => ⟨S50000x1, .f32⟩
  | 25 => ⟨S50000x16, .f32⟩
  | 26 => ⟨S50000x16, .f32⟩
  | _ => ⟨S50000x512, .f32⟩

abbrev hbmTy (i : Nat) : BufTy := match i / 128 with
  | 0 => hbmTy0_0 i
  | 1 => hbmTy0_1 i
  | 2 => hbmTy0_2 i
  | 3 => hbmTy0_3 i
  | _ => ⟨S50000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S2048x64, .bf16⟩
  | .local _ .vmem, ⟨7, _⟩ => ⟨S2048x64, .bf16⟩
  | .local _ .vmem, ⟨8, _⟩ => ⟨S1x2048, .i32⟩
  | .local _ .vmem, ⟨9, _⟩ => ⟨S1x2048, .i32⟩
  | .local _ .vmem, ⟨10, _⟩ => ⟨S1x50000x64, .f32⟩
  | .local _ .vmem, ⟨11, _⟩ => ⟨S2048x64, .bf16⟩
  | .local _ .vmem, ⟨12, _⟩ => ⟨S2048x64, .bf16⟩
  | .local _ .vmem, ⟨13, _⟩ => ⟨S1x2048, .i32⟩
  | .local _ .vmem, ⟨14, _⟩ => ⟨S1x2048, .i32⟩
  | .local _ .vmem, ⟨15, _⟩ => ⟨S1x50000x64, .f32⟩
  | .local _ .vmem, ⟨16, _⟩ => ⟨S5000x128, .f32⟩
  | .local _ .vmem, ⟨17, _⟩ => ⟨S5000x128, .f32⟩
  | .local _ .vmem, ⟨18, _⟩ => ⟨S128x16, .f32⟩
  | .local _ .vmem, ⟨19, _⟩ => ⟨S1x16, .f32⟩
  | .local _ .vmem, ⟨20, _⟩ => ⟨S5000x16, .f32⟩
  | .local _ .vmem, ⟨21, _⟩ => ⟨S5000x16, .f32⟩
  | .local _ .vmem, ⟨22, _⟩ => ⟨S2048x16, .bf16⟩
  | .local _ .vmem, ⟨23, _⟩ => ⟨S2048x16, .bf16⟩
  | .local _ .vmem, ⟨24, _⟩ => ⟨S1x2048, .i32⟩
  | .local _ .vmem, ⟨25, _⟩ => ⟨S1x2048, .i32⟩
  | .local _ .vmem, ⟨26, _⟩ => ⟨S1x50000x16, .f32⟩
  | .local _ .vmem, ⟨27, _⟩ => ⟨S2048x16, .bf16⟩
  | .local _ .vmem, ⟨28, _⟩ => ⟨S2048x16, .bf16⟩
  | .local _ .vmem, ⟨29, _⟩ => ⟨S1x2048, .i32⟩
  | .local _ .vmem, ⟨30, _⟩ => ⟨S1x2048, .i32⟩
  | .local _ .vmem, ⟨31, _⟩ => ⟨S1x50000x16, .f32⟩
  | .local _ .vmem, ⟨32, _⟩ => ⟨S5000x32, .f32⟩
  | .local _ .vmem, ⟨33, _⟩ => ⟨S5000x32, .f32⟩
  | .local _ .vmem, ⟨34, _⟩ => ⟨S32x16, .f32⟩
  | .local _ .vmem, ⟨35, _⟩ => ⟨S1x16, .f32⟩
  | .local _ .vmem, ⟨36, _⟩ => ⟨S5000x16, .f32⟩
  | .local _ .vmem, ⟨37, _⟩ => ⟨S5000x16, .f32⟩
  | .local _ .smem, ⟨0, _⟩ => ⟨S172, .i32⟩
  | .local _ .smem, ⟨1, _⟩ => ⟨S904, .i32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_v0 : Ref sig .tc := ⟨.hbm, 52, rfl⟩
abbrev main_call1_v1_0 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_13 : Ref sig .tc := ⟨.hbm, 82, rfl⟩
abbrev main_call2_v0 : Ref sig .tc := ⟨.hbm, 83, rfl⟩
abbrev main_v54 : Ref sig .tc := ⟨.hbm, 84, rfl⟩
abbrev main_c_14 : Ref sig .tc := ⟨.hbm, 85, rfl⟩
abbrev main_call3_v0 : Ref sig .tc := ⟨.hbm, 86, rfl⟩
abbrev main_v55 : Ref sig .tc := ⟨.hbm, 87, rfl⟩
abbrev main_c_15 : Ref sig .tc := ⟨.hbm, 88, rfl⟩
abbrev main_call4_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_16 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_call5_v5 : Ref sig .tc := ⟨.hbm, 100, rfl⟩
abbrev main_call5_v6 : Ref sig .tc := ⟨.hbm, 101, rfl⟩
abbrev main_call5_v7 : Ref sig .tc := ⟨.hbm, 102, rfl⟩
abbrev main_call5_v8 : Ref sig .tc := ⟨.hbm, 103, rfl⟩
abbrev main_call5_c : Ref sig .tc := ⟨.hbm, 104, rfl⟩
abbrev main_call5_v9 : Ref sig .tc := ⟨.hbm, 105, rfl⟩
abbrev main_call5_v10 : Ref sig .tc := ⟨.hbm, 106, rfl⟩
abbrev main_call5_v11 : Ref sig .tc := ⟨.hbm, 107, rfl⟩
abbrev main_call5_c_0 : Ref sig .tc := ⟨.hbm, 108, rfl⟩
abbrev main_call5_v12 : Ref sig .tc := ⟨.hbm, 109, rfl⟩
abbrev main_call5_v13 : Ref sig .tc := ⟨.hbm, 110, rfl⟩
abbrev main_v60 : Ref sig .tc := ⟨.hbm, 111, rfl⟩
abbrev main_c_17 : Ref sig .tc := ⟨.hbm, 112, rfl⟩
abbrev main_v61 : Ref sig .tc := ⟨.hbm, 113, rfl⟩
abbrev main_v62 : Ref sig .tc := ⟨.hbm, 114, rfl⟩
abbrev main_c_18 : Ref sig .tc := ⟨.hbm, 115, rfl⟩
abbrev main_c_19 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_cst_20 : Ref sig .tc := ⟨.hbm, 130, rfl⟩
abbrev main_v72 : Ref sig .tc := ⟨.hbm, 131, rfl⟩
abbrev main_cst_21 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_cst_22 : Ref sig .tc := ⟨.hbm, 136, rfl⟩
abbrev main_v76 : Ref sig .tc := ⟨.hbm, 137, rfl⟩
abbrev main_v77 : Ref sig .tc := ⟨.hbm, 138, rfl⟩
abbrev main_cst_23 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_cst_24 : Ref sig .tc := ⟨.hbm, 143, rfl⟩
abbrev main_call7_v0 : Ref sig .tc := ⟨.hbm, 144, rfl⟩
abbrev main_call7_v1 : Ref sig .tc := ⟨.hbm, 145, rfl⟩
abbrev main_v81 : Ref sig .tc := ⟨.hbm, 146, rfl⟩
abbrev main_c_25 : Ref sig .tc := ⟨.hbm, 147, rfl⟩
abbrev main_v82 : Ref sig .tc := ⟨.hbm, 148, rfl⟩
abbrev main_v83 : Ref sig .tc := ⟨.hbm, 149, rfl⟩
abbrev main_c_26 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_c_27 : Ref sig .tc := ⟨.hbm, 156, rfl⟩
abbrev main_v89 : Ref sig .tc := ⟨.hbm, 157, rfl⟩
abbrev main_v90 : Ref sig .tc := ⟨.hbm, 158, rfl⟩
abbrev main_c_28 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_call8_v0 : Ref sig .tc := ⟨.hbm, 166, rfl⟩
abbrev main_call8_v1_0 : Ref sig .tc := ⟨.hbm, 167, rfl⟩
abbrev main_v97 : Ref sig .tc := ⟨.hbm, 168, rfl⟩
abbrev main_c_29 : Ref sig .tc := ⟨.hbm, 169, rfl⟩
abbrev main_v98 : Ref sig .tc := ⟨.hbm, 170, rfl⟩
abbrev main_v99 : Ref sig .tc := ⟨.hbm, 171, rfl⟩
abbrev main_c_30 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_c_31 : Ref sig .tc := ⟨.hbm, 178, rfl⟩
abbrev main_v105 : Ref sig .tc := ⟨.hbm, 179, rfl⟩
abbrev main_v106 : Ref sig .tc := ⟨.hbm, 180, rfl⟩
abbrev main_c_32 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_c_33 : Ref sig .tc := ⟨.hbm, 187, rfl⟩
abbrev main_v112 : Ref sig .tc := ⟨.hbm, 188, rfl⟩
abbrev main_v113 : Ref sig .tc := ⟨.hbm, 189, rfl⟩
abbrev main_c_34 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_c_35 : Ref sig .tc := ⟨.hbm, 196, rfl⟩
abbrev main_call9_v0 : Ref sig .tc := ⟨.hbm, 197, rfl⟩
abbrev main_v119 : Ref sig .tc := ⟨.hbm, 198, rfl⟩
abbrev main_c_36 : Ref sig .tc := ⟨.hbm, 199, rfl⟩
abbrev main_call10_v0 : Ref sig .tc := ⟨.hbm, 200, rfl⟩
abbrev main_v120 : Ref sig .tc := ⟨.hbm, 201, rfl⟩
abbrev main_c_37 : Ref sig .tc := ⟨.hbm, 202, rfl⟩
abbrev main_call11_v0 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_c_38 : Ref sig .tc := ⟨.hbm, 208, rfl⟩
abbrev main_call12_v0 : Ref sig .tc := ⟨.hbm, 209, rfl⟩
abbrev main_call12_v1 : Ref sig .tc := ⟨.hbm, 210, rfl⟩
abbrev main_call12_v2 : Ref sig .tc := ⟨.hbm, 211, rfl⟩
abbrev main_call12_v3 : Ref sig .tc := ⟨.hbm, 212, rfl⟩
abbrev main_call12_v4 : Ref sig .tc := ⟨.hbm, 213, rfl⟩
abbrev main_call12_v5 : Ref sig .tc := ⟨.hbm, 214, rfl⟩
abbrev main_call12_v6 : Ref sig .tc := ⟨.hbm, 215, rfl⟩
abbrev main_call12_v7 : Ref sig .tc := ⟨.hbm, 216, rfl⟩
abbrev main_call12_v8 : Ref sig .tc := ⟨.hbm, 217, rfl⟩
abbrev main_call12_c : Ref sig .tc := ⟨.hbm, 218, rfl⟩
abbrev main_call12_v9 : Ref sig .tc := ⟨.hbm, 219, rfl⟩
abbrev main_call12_v10 : Ref sig .tc := ⟨.hbm, 220, rfl⟩
abbrev main_call12_v11 : Ref sig .tc := ⟨.hbm, 221, rfl⟩
abbrev main_call12_c_0 : Ref sig .tc := ⟨.hbm, 222, rfl⟩
abbrev main_call12_v12 : Ref sig .tc := ⟨.hbm, 223, rfl⟩
abbrev main_call12_v13 : Ref sig .tc := ⟨.hbm, 224, rfl⟩
abbrev main_v125 : Ref sig .tc := ⟨.hbm, 225, rfl⟩
abbrev main_c_39 : Ref sig .tc := ⟨.hbm, 226, rfl⟩
abbrev main_v126 : Ref sig .tc := ⟨.hbm, 227, rfl⟩
abbrev main_v127 : Ref sig .tc := ⟨.hbm, 228, rfl⟩
abbrev main_c_40 : Ref sig .tc := ⟨.hbm, 229, rfl⟩
abbrev main_c_41 : Ref sig .tc := ⟨.hbm, 230, rfl⟩
abbrev main_call13_v0 : Ref sig .tc := ⟨.hbm, 231, rfl⟩
abbrev main_call13_v1 : Ref sig .tc := ⟨.hbm, 232, rfl⟩
abbrev main_call13_v2 : Ref sig .tc := ⟨.hbm, 233, rfl⟩
abbrev main_call13_v3 : Ref sig .tc := ⟨.hbm, 234, rfl⟩
abbrev main_call13_v4 : Ref sig .tc := ⟨.hbm, 235, rfl⟩
abbrev main_v129 : Ref sig .tc := ⟨.hbm, 236, rfl⟩
abbrev main_cst_42 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_call14_c : Ref sig .tc := ⟨.hbm, 241, rfl⟩
abbrev main_call14_v0 : Ref sig .tc := ⟨.hbm, 242, rfl⟩
abbrev main_call14_v1 : Ref sig .tc := ⟨.hbm, 243, rfl⟩
abbrev main_call14_c_0 : Ref sig .tc := ⟨.hbm, 244, rfl⟩
abbrev main_call14_v2 : Ref sig .tc := ⟨.hbm, 245, rfl⟩
abbrev main_call14_v3 : Ref sig .tc := ⟨.hbm, 246, rfl⟩
abbrev main_call14_v4 : Ref sig .tc := ⟨.hbm, 247, rfl⟩
abbrev main_call14_v5 : Ref sig .tc := ⟨.hbm, 248, rfl⟩
abbrev main_call14_c_1 : Ref sig .tc := ⟨.hbm, 249, rfl⟩
abbrev main_call14_c_2 : Ref sig .tc := ⟨.hbm, 250, rfl⟩
abbrev main_call14_v6 : Ref sig .tc := ⟨.hbm, 251, rfl⟩
abbrev main_call14_v7 : Ref sig .tc := ⟨.hbm, 252, rfl⟩
abbrev main_call14_v8 : Ref sig .tc := ⟨.hbm, 253, rfl⟩
abbrev main_call14_v9 : Ref sig .tc := ⟨.hbm, 254, rfl⟩
abbrev main_call14_v10 : Ref sig .tc := ⟨.hbm, 255, rfl⟩
abbrev main_call14_v11 : Ref sig .tc := ⟨.hbm, 256, rfl⟩
abbrev main_call14_c_3 : Ref sig .tc := ⟨.hbm, 257, rfl⟩
abbrev main_call14_v12 : Ref sig .tc := ⟨.hbm, 258, rfl⟩
abbrev main_call14_v13 : Ref sig .tc := ⟨.hbm, 259, rfl⟩
abbrev main_call14_v14 : Ref sig .tc := ⟨.hbm, 260, rfl⟩
abbrev main_call14_cst : Ref sig .tc := ⟨.hbm, 261, rfl⟩
abbrev main_call14_v15 : Ref sig .tc := ⟨.hbm, 262, rfl⟩
abbrev main_v133 : Ref sig .tc := ⟨.hbm, 263, rfl⟩
abbrev main_v134 : Ref sig .tc := ⟨.hbm, 264, rfl⟩
abbrev main_v135 : Ref sig .tc := ⟨.hbm, 265, rfl⟩
abbrev main_v136 : Ref sig .tc := ⟨.hbm, 266, rfl⟩
abbrev main_v137 : Ref sig .tc := ⟨.hbm, 267, rfl⟩
abbrev main_v138 : Ref sig .tc := ⟨.hbm, 268, rfl⟩
abbrev main_v139 : Ref sig .tc := ⟨.hbm, 269, rfl⟩
abbrev main_v140 : Ref sig .tc := ⟨.hbm, 270, rfl⟩
abbrev main_v141 : Ref sig .tc := ⟨.hbm, 271, rfl⟩
abbrev main_v142 : Ref sig .tc := ⟨.hbm, 272, rfl⟩
abbrev main_v143 : Ref sig .tc := ⟨.hbm, 273, rfl⟩
abbrev main_v144 : Ref sig .tc := ⟨.hbm, 274, rfl⟩
abbrev main_v145 : Ref sig .tc := ⟨.hbm, 275, rfl⟩
abbrev main_v146 : Ref sig .tc := ⟨.hbm, 276, rfl⟩
abbrev main_call15_c : Ref sig .tc := ⟨.hbm, 277, rfl⟩
abbrev main_call15_v0 : Ref sig .tc := ⟨.hbm, 278, rfl⟩
abbrev main_call15_v1 : Ref sig .tc := ⟨.hbm, 279, rfl⟩
abbrev main_call15_c_0 : Ref sig .tc := ⟨.hbm, 280, rfl⟩
abbrev main_call15_v2 : Ref sig .tc := ⟨.hbm, 281, rfl⟩
abbrev main_call15_v3 : Ref sig .tc := ⟨.hbm, 282, rfl⟩
abbrev main_call15_v4 : Ref sig .tc := ⟨.hbm, 283, rfl⟩
abbrev main_call15_v5 : Ref sig .tc := ⟨.hbm, 284, rfl⟩
abbrev main_call15_c_1 : Ref sig .tc := ⟨.hbm, 285, rfl⟩
abbrev main_call15_c_2 : Ref sig .tc := ⟨.hbm, 286, rfl⟩
abbrev main_call15_v6 : Ref sig .tc := ⟨.hbm, 287, rfl⟩
abbrev main_call15_v7 : Ref sig .tc := ⟨.hbm, 288, rfl⟩
abbrev main_call15_v8 : Ref sig .tc := ⟨.hbm, 289, rfl⟩
abbrev main_call15_v9 : Ref sig .tc := ⟨.hbm, 290, rfl⟩
abbrev main_call15_v10 : Ref sig .tc := ⟨.hbm, 291, rfl⟩
abbrev main_call15_v11 : Ref sig .tc := ⟨.hbm, 292, rfl⟩
abbrev main_call15_c_3 : Ref sig .tc := ⟨.hbm, 293, rfl⟩
abbrev main_call15_v12 : Ref sig .tc := ⟨.hbm, 294, rfl⟩
abbrev main_call15_v13 : Ref sig .tc := ⟨.hbm, 295, rfl⟩
abbrev main_call15_v14 : Ref sig .tc := ⟨.hbm, 296, rfl⟩
abbrev main_call15_cst : Ref sig .tc := ⟨.hbm, 297, rfl⟩
abbrev main_call15_v15 : Ref sig .tc := ⟨.hbm, 298, rfl⟩
abbrev main_v147 : Ref sig .tc := ⟨.hbm, 299, rfl⟩
abbrev main_v148 : Ref sig .tc := ⟨.hbm, 300, rfl⟩
abbrev main_v149 : Ref sig .tc := ⟨.hbm, 301, rfl⟩
abbrev main_v150 : Ref sig .tc := ⟨.hbm, 302, rfl⟩
abbrev main_v151 : Ref sig .tc := ⟨.hbm, 303, rfl⟩
abbrev main_v152 : Ref sig .tc := ⟨.hbm, 304, rfl⟩
abbrev main_v153 : Ref sig .tc := ⟨.hbm, 305, rfl⟩
abbrev main_v154 : Ref sig .tc := ⟨.hbm, 306, rfl⟩
abbrev main_v155 : Ref sig .tc := ⟨.hbm, 307, rfl⟩
abbrev main_v156 : Ref sig .tc := ⟨.hbm, 308, rfl⟩
abbrev main_v157 : Ref sig .tc := ⟨.hbm, 309, rfl⟩
abbrev main_v158 : Ref sig .tc := ⟨.hbm, 310, rfl⟩
abbrev main_v159 : Ref sig .tc := ⟨.hbm, 311, rfl⟩
abbrev main_v160 : Ref sig .tc := ⟨.hbm, 312, rfl⟩
abbrev main_v161 : Ref sig .tc := ⟨.hbm, 313, rfl⟩
abbrev main_call16_cst : Ref sig .tc := ⟨.hbm, 314, rfl⟩
abbrev main_call16_v0 : Ref sig .tc := ⟨.hbm, 315, rfl⟩
abbrev main_v162 : Ref sig .tc := ⟨.hbm, 316, rfl⟩
abbrev main_cst_43 : Ref sig .tc := ⟨.hbm, 317, rfl⟩
abbrev main_v163 : Ref sig .tc := ⟨.hbm, 318, rfl⟩
abbrev main_v164 : Ref sig .tc := ⟨.hbm, 319, rfl⟩
abbrev main_v165 : Ref sig .tc := ⟨.hbm, 320, rfl⟩
abbrev main_call17_c : Ref sig .tc := ⟨.hbm, 321, rfl⟩
abbrev main_call17_v0 : Ref sig .tc := ⟨.hbm, 322, rfl⟩
abbrev main_call17_v1 : Ref sig .tc := ⟨.hbm, 323, rfl⟩
abbrev main_call17_c_0 : Ref sig .tc := ⟨.hbm, 324, rfl⟩
abbrev main_call17_v2 : Ref sig .tc := ⟨.hbm, 325, rfl⟩
abbrev main_call17_v3 : Ref sig .tc := ⟨.hbm, 326, rfl⟩
abbrev main_call17_v4 : Ref sig .tc := ⟨.hbm, 327, rfl⟩
abbrev main_call17_v5 : Ref sig .tc := ⟨.hbm, 328, rfl⟩
abbrev main_call17_c_1 : Ref sig .tc := ⟨.hbm, 329, rfl⟩
abbrev main_call17_c_2 : Ref sig .tc := ⟨.hbm, 330, rfl⟩
abbrev main_call17_v6 : Ref sig .tc := ⟨.hbm, 331, rfl⟩
abbrev main_call17_v7 : Ref sig .tc := ⟨.hbm, 332, rfl⟩
abbrev main_call17_v8 : Ref sig .tc := ⟨.hbm, 333, rfl⟩
abbrev main_call17_v9 : Ref sig .tc := ⟨.hbm, 334, rfl⟩
abbrev main_call17_v10 : Ref sig .tc := ⟨.hbm, 335, rfl⟩
abbrev main_call17_v11 : Ref sig .tc := ⟨.hbm, 336, rfl⟩
abbrev main_call17_c_3 : Ref sig .tc := ⟨.hbm, 337, rfl⟩
abbrev main_call17_v12 : Ref sig .tc := ⟨.hbm, 338, rfl⟩
abbrev main_call17_v13 : Ref sig .tc := ⟨.hbm, 339, rfl⟩
abbrev main_call17_v14 : Ref sig .tc := ⟨.hbm, 340, rfl⟩
abbrev main_call17_cst : Ref sig .tc := ⟨.hbm, 341, rfl⟩
abbrev main_call17_v15 : Ref sig .tc := ⟨.hbm, 342, rfl⟩
abbrev main_v166 : Ref sig .tc := ⟨.hbm, 343, rfl⟩
abbrev main_v167 : Ref sig .tc := ⟨.hbm, 344, rfl⟩
abbrev main_v168 : Ref sig .tc := ⟨.hbm, 345, rfl⟩
abbrev main_v169 : Ref sig .tc := ⟨.hbm, 346, rfl⟩
abbrev main_v170 : Ref sig .tc := ⟨.hbm, 347, rfl⟩
abbrev main_v171 : Ref sig .tc := ⟨.hbm, 348, rfl⟩
abbrev main_v172 : Ref sig .tc := ⟨.hbm, 349, rfl⟩
abbrev main_v173 : Ref sig .tc := ⟨.hbm, 350, rfl⟩
abbrev main_v174 : Ref sig .tc := ⟨.hbm, 351, rfl⟩
abbrev main_v175 : Ref sig .tc := ⟨.hbm, 352, rfl⟩
abbrev main_v176 : Ref sig .tc := ⟨.hbm, 353, rfl⟩
abbrev main_v177 : Ref sig .tc := ⟨.hbm, 354, rfl⟩
abbrev main_v178 : Ref sig .tc := ⟨.hbm, 355, rfl⟩
abbrev main_v179 : Ref sig .tc := ⟨.hbm, 356, rfl⟩
abbrev main_call18_c : Ref sig .tc := ⟨.hbm, 357, rfl⟩
abbrev main_call18_v0 : Ref sig .tc := ⟨.hbm, 358, rfl⟩
abbrev main_call18_v1 : Ref sig .tc := ⟨.hbm, 359, rfl⟩
abbrev main_call18_c_0 : Ref sig .tc := ⟨.hbm, 360, rfl⟩
abbrev main_call18_v2 : Ref sig .tc := ⟨.hbm, 361, rfl⟩
abbrev main_call18_v3 : Ref sig .tc := ⟨.hbm, 362, rfl⟩
abbrev main_call18_v4 : Ref sig .tc := ⟨.hbm, 363, rfl⟩
abbrev main_call18_v5 : Ref sig .tc := ⟨.hbm, 364, rfl⟩
abbrev main_call18_c_1 : Ref sig .tc := ⟨.hbm, 365, rfl⟩
abbrev main_call18_c_2 : Ref sig .tc := ⟨.hbm, 366, rfl⟩
abbrev main_call18_v6 : Ref sig .tc := ⟨.hbm, 367, rfl⟩
abbrev main_call18_v7 : Ref sig .tc := ⟨.hbm, 368, rfl⟩
abbrev main_call18_v8 : Ref sig .tc := ⟨.hbm, 369, rfl⟩
abbrev main_call18_v9 : Ref sig .tc := ⟨.hbm, 370, rfl⟩
abbrev main_call18_v10 : Ref sig .tc := ⟨.hbm, 371, rfl⟩
abbrev main_call18_v11 : Ref sig .tc := ⟨.hbm, 372, rfl⟩
abbrev main_call18_c_3 : Ref sig .tc := ⟨.hbm, 373, rfl⟩
abbrev main_call18_v12 : Ref sig .tc := ⟨.hbm, 374, rfl⟩
abbrev main_call18_v13 : Ref sig .tc := ⟨.hbm, 375, rfl⟩
abbrev main_call18_v14 : Ref sig .tc := ⟨.hbm, 376, rfl⟩
abbrev main_call18_cst : Ref sig .tc := ⟨.hbm, 377, rfl⟩
abbrev main_call18_v15 : Ref sig .tc := ⟨.hbm, 378, rfl⟩
abbrev main_v180 : Ref sig .tc := ⟨.hbm, 379, rfl⟩
abbrev main_v181 : Ref sig .tc := ⟨.hbm, 380, rfl⟩
abbrev main_v182 : Ref sig .tc := ⟨.hbm, 381, rfl⟩
abbrev main_v183 : Ref sig .tc := ⟨.hbm, 382, rfl⟩
abbrev main_v184 : Ref sig .tc := ⟨.hbm, 383, rfl⟩
abbrev main_v185 : Ref sig .tc := ⟨.hbm, 384, rfl⟩
abbrev main_v186 : Ref sig .tc := ⟨.hbm, 385, rfl⟩
abbrev main_v187 : Ref sig .tc := ⟨.hbm, 386, rfl⟩
abbrev main_v188 : Ref sig .tc := ⟨.hbm, 387, rfl⟩
abbrev main_v189 : Ref sig .tc := ⟨.hbm, 388, rfl⟩
abbrev main_v190 : Ref sig .tc := ⟨.hbm, 389, rfl⟩
abbrev main_v191 : Ref sig .tc := ⟨.hbm, 390, rfl⟩
abbrev main_v192 : Ref sig .tc := ⟨.hbm, 391, rfl⟩
abbrev main_v193 : Ref sig .tc := ⟨.hbm, 392, rfl⟩
abbrev main_v194 : Ref sig .tc := ⟨.hbm, 393, rfl⟩
abbrev main_v195 : Ref sig .tc := ⟨.hbm, 394, rfl⟩
abbrev main_v196 : Ref sig .tc := ⟨.hbm, 395, rfl⟩
abbrev main_call19_cst : Ref sig .tc := ⟨.hbm, 396, rfl⟩
abbrev main_call19_v0 : Ref sig .tc := ⟨.hbm, 397, rfl⟩
abbrev main_call19_cst_0 : Ref sig .tc := ⟨.hbm, 398, rfl⟩
abbrev main_call19_v1 : Ref sig .tc := ⟨.hbm, 399, rfl⟩
abbrev main_call19_v2 : Ref sig .tc := ⟨.hbm, 400, rfl⟩
abbrev main_call19_v3 : Ref sig .tc := ⟨.hbm, 401, rfl⟩
abbrev main_call19_v4 : Ref sig .tc := ⟨.hbm, 402, rfl⟩
abbrev main_call19_v5 : Ref sig .tc := ⟨.hbm, 403, rfl⟩
abbrev main_call19_v6 : Ref sig .tc := ⟨.hbm, 404, rfl⟩
abbrev main_call19_cst_1 : Ref sig .tc := ⟨.hbm, 405, rfl⟩
abbrev main_call19_v7 : Ref sig .tc := ⟨.hbm, 406, rfl⟩
abbrev main_call19_v8 : Ref sig .tc := ⟨.hbm, 407, rfl⟩
abbrev main_call19_v9 : Ref sig .tc := ⟨.hbm, 408, rfl⟩
abbrev main_call19_v10 : Ref sig .tc := ⟨.hbm, 409, rfl⟩
abbrev main_v197 : Ref sig .tc := ⟨.hbm, 410, rfl⟩
abbrev main_v63 : Ref sig .tc := ⟨.smem, 0, rfl⟩
abbrev main_v128 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 86], ![false, false]⟩

abbrev pre1 : Pipeline.Prefetch sig := ⟨1, ![main_v63.idx], fun | 0 => main_v63.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c86_i32 : BitVec 32 := 86#32
  let v3 : BitVec 32 := Scalar.muli arg0 c86_i32
  let arg1 : BitVec 32 := BitVec.ofNat 32 (i 1).val
  let v4 : BitVec 32 := Scalar.addi v3 arg1
  let v5 : Index := Scalar.indexCast v4
  ![v5.toNat]
def k1_mult1 (v6 : BitVec 32) : BitVec 32 :=
  v6

def k1_off2 (v6 : BitVec 32) : Fin 3 → Nat :=
  let c0_4 : Index := 0#32
  let v7 : BitVec 32 := v6
  let v21 : Index := Scalar.indexCast v7
  let c0_5 : Index := 0#32
  ![0, v21.toNat, 0]

def k1_chk1 (v6 : BitVec 32) : Prop :=
  (8 ∣ (k1_mult1 v6).toNat) ∧
  (∀ a, (k1_off2 v6) a + S1x2056x64.size a ≤ S1x50000x64.size a)
instance k1_chk1.dec : ∀ (v6 : BitVec 32), Decidable (k1_chk1 v6) := fun v6 => decidable_of_iff' _ (Iff.of_eq (k1_chk1.eq_1 v6))
theorem k1_mult1_dvd : ∀ (v6 : BitVec 32) (k1_hw1 : k1_chk1 v6), 8 ∣ (k1_mult1 v6).toNat := fun v6 k1_hw1 => k1_hw1.1
theorem k1_off2_inb : ∀ (v6 : BitVec 32) (k1_hw1 : k1_chk1 v6), ∀ a, (k1_off2 v6) a + S1x2056x64.size a ≤ S1x50000x64.size a := fun v6 k1_hw1 => k1_hw1.2

def cc1_transform_0 (i : grid1.Coords) : Fin 2 → Nat :=
  let arg0 : BitVec 32 := BitVec.ofNat 32 (i 0).val
  let arg1 : BitVec 32 := BitVec.ofNat 32 (i 1).val
  let c86_i32 : BitVec 32 := 86#32
  let v0 : BitVec 32 := Scalar.muli arg0 c86_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c86_i32 : BitVec 32 := 86#32
  let v0 : BitVec 32 := Scalar.muli arg0 c86_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x50000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev grid2 : Pipeline.Grid := ⟨2, ![2, 452], ![false, false]⟩

abbrev pre2 : Pipeline.Prefetch sig := ⟨1, ![main_v128.idx], fun | 0 => main_v128.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c452_i32 : BitVec 32 := 452#32
  let v3 : BitVec 32 := Scalar.muli arg0 c452_i32
  let arg1 : BitVec 32 := BitVec.ofNat 32 (i 1).val
  let v4 : BitVec 32 := Scalar.addi v3 arg1
  let v5 : Index := Scalar.indexCast v4
  ![v5.toNat]
def k2_mult1 (v6 : BitVec 32) : BitVec 32 :=
  v6

def k2_off2 (v6 : BitVec 32) : Fin 3 → Nat :=
  let c0_4 : Index := 0#32
  let v7 : BitVec 32 := v6
  let v21 : Index := Scalar.indexCast v7
  let c0_5 : Index := 0#32
  ![0, v21.toNat, 0]

def k2_chk1 (v6 : BitVec 32) : Prop :=
  (8 ∣ (k2_mult1 v6).toNat) ∧
  (∀ a, (k2_off2 v6) a + S1x2056x64.size a ≤ S1x50000x64.size a)
instance k2_chk1.dec : ∀ (v6 : BitVec 32), Decidable (k2_chk1 v6) := fun v6 => decidable_of_iff' _ (Iff.of_eq (k2_chk1.eq_1 v6))
theorem k2_mult1_dvd : ∀ (v6 : BitVec 32) (k2_hw1 : k2_chk1 v6), 8 ∣ (k2_mult1 v6).toNat := fun v6 k2_hw1 => k2_hw1.1
theorem k2_off2_inb : ∀ (v6 : BitVec 32) (k2_hw1 : k2_chk1 v6), ∀ a, (k2_off2 v6) a + S1x2056x64.size a ≤ S1x50000x64.size a := fun v6 k2_hw1 => k2_hw1.2

def cc2_transform_0 (i : grid2.Coords) : Fin 2 → Nat :=
  let arg0 : BitVec 32 := BitVec.ofNat 32 (i 0).val
  let arg1 : BitVec 32 := BitVec.ofNat 32 (i 1).val
  let c452_i32 : BitVec 32 := 452#32
  let v0 : BitVec 32 := Scalar.muli arg0 c452_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c452_i32 : BitVec 32 := 452#32
  let v0 : BitVec 32 := Scalar.muli arg0 c452_i32
  let v1 : BitVec 32 := Scalar.addi v0 arg1
  let c0_i32 : BitVec 32 := 0#32
  let c0_i32_0 : BitVec 32 := 0#32
  ![c0_i32.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x50000x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![2, 86], ![false, false]⟩

abbrev pre4 : Pipeline.Prefetch sig := ⟨1, ![main_v63.idx], fun | 0 => main_v63.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c86_i32 : BitVec 32 := 86#32
  let v3 : BitVec 32 := Scalar.muli arg0 c86_i32
  let arg1 : BitVec 32 := BitVec.ofNat 32 (i 1).val
  let v4 : BitVec 32 := Scalar.addi v3 arg1
  let v5 : Index := Scalar.indexCast v4
  ![v5.toNat]
def k4_mult1 (v6 : BitVec 32) : BitVec 32 :=
  v6

def k4_off2 (v6 : BitVec 32) : Fin 3 → Nat :=
  let c0_4 : Index := 0#32
  let v7 : BitVec 32 := v6
  let v21 : Index := Scalar.indexCast v7
  let c0_5 : Index := 0#32
  ![0, v21.toNat, 0]

def k4_chk1 (v6 : BitVec 32) : Prop :=
  (8 ∣ (k4_mult1 v6).toNat) ∧
  (∀ a, (k4_off2 v6) a + S1x2056x16.size a ≤ S1x50000x16.size a)
instance k4_chk1.dec : ∀ (v6 : BitVec 32), Decidable (k4_chk1 v6) := fun v6 => decidable_of_iff' _ (Iff.of_eq (k4_chk1.eq_1 v6))
theorem k4_mult1_dvd : ∀ (v6 : BitVec 32) (k4_hw1 : k4_chk1 v6), 8 ∣ (k4_mult1 v6).toNat := fun v6 k4_hw1 => k4_hw1.1
theorem k4_off2_inb : ∀ (v6 : BitVec 32) (k4_hw1 : k4_chk1 v6), ∀ a, (k4_off2 v6) a + S1x2056x16.size a ≤ S1x50000x16.size a := fun v6 k4_hw1 => k4_hw1.2

def cc4_transform_0 (i : grid4.Coords) : Fin 2 → Nat :=
  let arg0 : BitVec 32 := BitVec.ofNat 32 (i 0).val
  let arg1 : BitVec 32 := BitVec.ofNat 32 (i 1).val
  let c86_i32 : BitVec 32 := 86#32
  let v0 : BitVec 32 := Scalar.muli arg0 c86_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c86_i32 : BitVec 32 := 86#32
  let v0 : BitVec 32 := Scalar.muli arg0 c86_i32
  let v1 : BitVec 32 := Scalar.addi v0 arg1
  let c0_i32 : BitVec 32 := 0#32
  let c0_i32_0 : BitVec 32 := 0#32
  ![c0_i32.toNat, v1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2048x16 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1x50000x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev grid5 : Pipeline.Grid := ⟨2, ![2, 452], ![false, false]⟩

abbrev pre5 : Pipeline.Prefetch sig := ⟨1, ![main_v128.idx], fun | 0 => main_v128.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let c452_i32 : BitVec 32 := 452#32
  let v3 : BitVec 32 := Scalar.muli arg0 c452_i32
  let arg1 : BitVec 32 := BitVec.ofNat 32 (i 1).val
  let v4 : BitVec 32 := Scalar.addi v3 arg1
  let v5 : Index := Scalar.indexCast v4
  ![v5.toNat]
def k5_mult1 (v6 : BitVec 32) : BitVec 32 :=
  v6

def k5_off2 (v6 : BitVec 32) : Fin 3 → Nat :=
  let c0_4 : Index := 0#32
  let v7 : BitVec 32 := v6
  let v21 : Index := Scalar.indexCast v7
  let c0_5 : Index := 0#32
  ![0, v21.toNat, 0]

def k5_chk1 (v6 : BitVec 32) : Prop :=
  (8 ∣ (k5_mult1 v6).toNat) ∧
  (∀ a, (k5_off2 v6) a + S1x2056x16.size a ≤ S1x50000x16.size a)
instance k5_chk1.dec : ∀ (v6 : BitVec 32), Decidable (k5_chk1 v6) := fun v6 => decidable_of_iff' _ (Iff.of_eq (k5_chk1.eq_1 v6))
theorem k5_mult1_dvd : ∀ (v6 : BitVec 32) (k5_hw1 : k5_chk1 v6), 8 ∣ (k5_mult1 v6).toNat := fun v6 k5_hw1 => k5_hw1.1
theorem k5_off2_inb : ∀ (v6 : BitVec 32) (k5_hw1 : k5_chk1 v6), ∀ a, (k5_off2 v6) a + S1x2056x16.size a ≤ S1x50000x16.size a := fun v6 k5_hw1 => k5_hw1.2

def cc5_transform_0 (i : grid5.Coords) : Fin 2 → Nat :=
  let arg0 : BitVec 32 := BitVec.ofNat 32 (i 0).val
  let arg1 : BitVec 32 := BitVec.ofNat 32 (i 1).val
  let c452_i32 : BitVec 32 := 452#32
  let v0 : BitVec 32 := Scalar.muli arg0 c452_i32
  let v1 : BitVec 32 := Scalar.addi v0 arg1
  let c0_i32 : BitVec 32 := 0#32
  let c0_i32_0 : BitVec 32 := 0#32
  ![v1.toNat, c0_i32.toNat]

def cc5_transform_1 (i : grid5.Coords) : Fin 2 → Nat :=
  let arg0 : BitVec 32 := BitVec.ofNat 32 (i 0).val
  let arg1 : BitVec 32 := BitVec.ofNat 32 (i 1).val
  let c452_i32 : BitVec 32 := 452#32
  let v0 : BitVec 32 := Scalar.muli arg0 c452_i32
  let v1 : BitVec 32 := Scalar.addi v0 arg1
  let c0_i32 : BitVec 32 := 0#32
  let c0_i32_0 : BitVec 32 := 0#32
  ![c0_i32.toNat, v1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S2048x16 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x2048 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S1x50000x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  pads_S350000_S352256_022560 : S350000.Pads (![0] : Fin 1 → Nat) ![2256] ![0] S352256
  h_S_ : 0 < S_.numel
  shapeCasts_S352256_S172x2048 : S352256.ShapeCasts S172x2048
  slices_S172x2048_S172x1_0_0 : S172x2048.Slices ![0, 0] S172x1
  shapeCasts_S172x1_S172 : S172x1.ShapeCasts S172
  bcast_S_S172 : S_.BroadcastsInDim S172 (![] : Fin 0 → Fin S172.rank)
  shapeCasts_S352256_S1x352256 : S352256.ShapeCasts S1x352256
  slices_S2x1797685_S1x1797685_0_0 : S2x1797685.Slices ![0, 0] S1x1797685
  shapeCasts_S1x1797685_S1797685 : S1x1797685.ShapeCasts S1797685
  concatenates_S1797685_S50000_S1847685_d0 : Shape.Concatenates [S1797685, S50000] S1847685 0
  slices_S2x1797685_S1x1797685_1_0 : S2x1797685.Slices ![1, 0] S1x1797685
  bcast_S_S1847685 : S_.BroadcastsInDim S1847685 (![] : Fin 0 → Fin S1847685.rank)
  bcast_S1847685_S1847685x1_0 : S1847685.BroadcastsInDim S1847685x1 (![0] : Fin 1 → Fin S1847685x1.rank)
  pads_S1847685_S1851392_037070 : S1847685.Pads (![0] : Fin 1 → Nat) ![3707] ![0] S1851392
  shapeCasts_S1851392_S904x2048 : S1851392.ShapeCasts S904x2048
  slices_S904x2048_S904x1_0_0 : S904x2048.Slices ![0, 0] S904x1
  shapeCasts_S904x1_S904 : S904x1.ShapeCasts S904
  bcast_S_S904 : S_.BroadcastsInDim S904 (![] : Fin 0 → Fin S904.rank)
  shapeCasts_S1851392_S1x1851392 : S1851392.ShapeCasts S1x1851392
  bcast_S_S64 : S_.BroadcastsInDim S64 (![] : Fin 0 → Fin S64.rank)
  shapeCasts_S64_S1x64 : S64.ShapeCasts S1x64
  inb_S5000x512_S5000x512_0_0 : ∀ a, (![0, 0] : Fin 2 → Nat) a + S5000x512.size a ≤ S5000x512.size a
  h_S5000x512 : 0 < S5000x512.numel
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S352256 : S_.BroadcastsInDim S352256 (![] : Fin 0 → Fin S352256.rank)
  bcast_S352256_S352256x1_0 : S352256.BroadcastsInDim S352256x1 (![0] : Fin 1 → Fin S352256x1.rank)
  bcast_S_S352256x1 : S_.BroadcastsInDim S352256x1 (![] : Fin 0 → Fin S352256x1.rank)
  bcast_S1_S1x1_1 : S1.BroadcastsInDim S1x1 (![1] : Fin 1 → Fin S1x1.rank)
  bcast_S1x1_S352256x1_0_1 : S1x1.BroadcastsInDim S352256x1 (![0, 1] : Fin 2 → Fin S352256x1.rank)
  reducesTo_S352256x1_S352256_d1 : S352256x1.ReducesTo [1] S352256
  bcast_S352256_S352256x64_0 : S352256.BroadcastsInDim S352256x64 (![0] : Fin 1 → Fin S352256x64.rank)
  bcast_S_S352256x64 : S_.BroadcastsInDim S352256x64 (![] : Fin 0 → Fin S352256x64.rank)
  bcast_S352256x1_S352256x64_0_1 : S352256x1.BroadcastsInDim S352256x64 (![0, 1] : Fin 2 → Fin S352256x64.rank)
  bitsLt_bf16_f32 : FTy.bits .bf16 < FTy.bits .f32
  inb_S1x50000x64_S1x50000x64_0_0_0 : ∀ a, (![0, 0, 0] : Fin 3 → Nat) a + S1x50000x64.size a ≤ S1x50000x64.size a
  h_S1x50000x64 : 0 < S1x50000x64.numel
  shapeCasts_S1x50000x64_S50000x64 : S1x50000x64.ShapeCasts S50000x64
  shapeCasts_S50000x64_S1x50000x64 : S50000x64.ShapeCasts S1x50000x64
  numel1_S1 : S1.numel = 1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S2056x2048_d0_w32 : S2056x2048.Iotas .tc 32 [0]
  broadcasts_S1x2048_S2056x2048 : S1x2048.Broadcasts S2056x2048
  natLt_1_32 : 1 < 32
  h_S1x2056x64 : 0 < S1x2056x64.numel
  shapeCasts_S1x2056x64_S2056x64 : S1x2056x64.ShapeCasts S2056x64
  shapeCasts_S2056x64_S1x2056x64 : S2056x64.ShapeCasts S1x2056x64
  slices_S2x50000x64_S1x50000x64_0_0_0 : S2x50000x64.Slices ![0, 0, 0] S1x50000x64
  slices_S2x50000x64_S1x50000x64_1_0_0 : S2x50000x64.Slices ![1, 0, 0] S1x50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S1851392 : S_.BroadcastsInDim S1851392 (![] : Fin 0 → Fin S1851392.rank)
  bcast_S1851392_S1851392x1_0 : S1851392.BroadcastsInDim S1851392x1 (![0] : Fin 1 → Fin S1851392x1.rank)
  bcast_S_S1851392x1 : S_.BroadcastsInDim S1851392x1 (![] : Fin 0 → Fin S1851392x1.rank)
  bcast_S1x1_S1851392x1_0_1 : S1x1.BroadcastsInDim S1851392x1 (![0, 1] : Fin 2 → Fin S1851392x1.rank)
  reducesTo_S1851392x1_S1851392_d1 : S1851392x1.ReducesTo [1] S1851392
  bcast_S1851392_S1851392x64_0 : S1851392.BroadcastsInDim S1851392x64 (![0] : Fin 1 → Fin S1851392x64.rank)
  bcast_S_S1851392x64 : S_.BroadcastsInDim S1851392x64 (![] : Fin 0 → Fin S1851392x64.rank)
  bcast_S1851392x1_S1851392x64_0_1 : S1851392x1.BroadcastsInDim S1851392x64 (![0, 1] : Fin 2 → Fin S1851392x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S_S16 : S_.BroadcastsInDim S16 (![] : Fin 0 → Fin S16.rank)
  shapeCasts_S16_S1x16 : S16.ShapeCasts S1x16
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S352256_S352256x16_0 : S352256.BroadcastsInDim S352256x16 (![0] : Fin 1 → Fin S352256x16.rank)
  bcast_S_S352256x16 : S_.BroadcastsInDim S352256x16 (![] : Fin 0 → Fin S352256x16.rank)
  bcast_S352256x1_S352256x16_0_1 : S352256x1.BroadcastsInDim S352256x16 (![0, 1] : Fin 2 → Fin S352256x16.rank)
  inb_S1x50000x16_S1x50000x16_0_0_0 : ∀ a, (![0, 0, 0] : Fin 3 → Nat) a + S1x50000x16.size a ≤ S1x50000x16.size a
  h_S1x50000x16 : 0 < S1x50000x16.numel
  shapeCasts_S1x50000x16_S50000x16 : S1x50000x16.ShapeCasts S50000x16
  shapeCasts_S50000x16_S1x50000x16 : S50000x16.ShapeCasts S1x50000x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  h_S1x2056x16 : 0 < S1x2056x16.numel
  shapeCasts_S1x2056x16_S2056x16 : S1x2056x16.ShapeCasts S2056x16
  shapeCasts_S2056x16_S1x2056x16 : S2056x16.ShapeCasts S1x2056x16
  slices_S2x50000x16_S1x50000x16_0_0_0 : S2x50000x16.Slices ![0, 0, 0] S1x50000x16
  slices_S2x50000x16_S1x50000x16_1_0_0 : S2x50000x16.Slices ![1, 0, 0] S1x50000x16
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S1851392_S1851392x16_0 : S1851392.BroadcastsInDim S1851392x16 (![0] : Fin 1 → Fin S1851392x16.rank)
  bcast_S_S1851392x16 : S_.BroadcastsInDim S1851392x16 (![] : Fin 0 → Fin S1851392x16.rank)
  bcast_S1851392x1_S1851392x16_0_1 : S1851392x1.BroadcastsInDim S1851392x16 (![0, 1] : Fin 2 → Fin S1851392x16.rank)
  concatenates_S50000x16_S50000x16_S50000x32_d1 : Shape.Concatenates [S50000x16, S50000x16] S50000x32 1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  reducesTo_S50000x16_S50000_d1 : S50000x16.ReducesTo [1] S50000
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  gather_S350000_S350000x1_S350000_n_0_n_n_0_1_1_wf : GatherDims.WF S350000 S350000x1 S350000 [] [0] [] [0] [] 1 ![1]
  scatter_S50000_S1847685x1_S1847685_n_0_0_1_wf : ScatterDims.WF S50000 S1847685x1 S1847685 [] [0] [0] 1
  gather_S50000_S1847685x1_S1847685_n_0_n_n_0_1_1_wf : GatherDims.WF S50000 S1847685x1 S1847685 [] [0] [] [0] [] 1 ![1]
  gather_S1847685_S1847685x1_S1847685_n_0_n_n_0_1_1_wf : GatherDims.WF S1847685 S1847685x1 S1847685 [] [0] [] [0] [] 1 ![1]
  dot_S5000x512_S512x64_S5000x64_1_0_0_1_n_n_wf : DotDims.WF S5000x512 S512x64 S5000x64 [1] [0] [0] [1] [] []
  gather_S50000x64_S352256x1_S352256x64_1_0_n_n_0_1_164_wf : GatherDims.WF S50000x64 S352256x1 S352256x64 [1] [0] [] [0] [] 1 ![1, 64]
  dot_S2056x2048_S2048x64_S2056x64_1_0_0_1_n_n_wf : DotDims.WF S2056x2048 S2048x64 S2056x64 [1] [0] [0] [1] [] []
  gather_S50000x64_S1851392x1_S1851392x64_1_0_n_n_0_1_164_wf : GatherDims.WF S50000x64 S1851392x1 S1851392x64 [1] [0] [] [0] [] 1 ![1, 64]
  dot_S5000x128_S128x16_S5000x16_1_0_0_1_n_n_wf : DotDims.WF S5000x128 S128x16 S5000x16 [1] [0] [0] [1] [] []
  gather_S50000x16_S352256x1_S352256x16_1_0_n_n_0_1_116_wf : GatherDims.WF S50000x16 S352256x1 S352256x16 [1] [0] [] [0] [] 1 ![1, 16]
  dot_S2056x2048_S2048x16_S2056x16_1_0_0_1_n_n_wf : DotDims.WF S2056x2048 S2048x16 S2056x16 [1] [0] [0] [1] [] []
  gather_S50000x16_S1851392x1_S1851392x16_1_0_n_n_0_1_116_wf : GatherDims.WF S50000x16 S1851392x1 S1851392x16 [1] [0] [] [0] [] 1 ![1, 16]
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  k1_off1_inb : ∀ i : grid1.Coords, ∀ a, (k1_off1 i) a + S1.size a ≤ S172.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S352256x64.size a
  hwx1_0 : ∀ i : grid1.Coords, EltTy.bits .bf16 = 32 ∨ (Rect.block (s := S352256x64) S2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x352256.size a
  hwx1_1 : ∀ i : grid1.Coords, EltTy.bits .i32 = 32 ∨ (Rect.block (s := S1x352256) S1x2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x50000x64.size a ≤ S2x50000x64.size a
  hwx1_2 : ∀ i : grid1.Coords, EltTy.bits .f32 = 32 ∨ (Rect.block (s := S2x50000x64) S1x50000x64.size (cc1_transform_2 i) (hinb1_2 i)).WholeWords (EltTy.packing .f32)
  hrank2 : 0 < grid2.rank
  k2_off1_inb : ∀ i : grid2.Coords, ∀ a, (k2_off1 i) a + S1.size a ≤ S904.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S1851392x64.size a
  hwx2_0 : ∀ i : grid2.Coords, EltTy.bits .bf16 = 32 ∨ (Rect.block (s := S1851392x64) S2048x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x1851392.size a
  hwx2_1 : ∀ i : grid2.Coords, EltTy.bits .i32 = 32 ∨ (Rect.block (s := S1x1851392) S1x2048.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x50000x64.size a ≤ S2x50000x64.size a
  hwx2_2 : ∀ i : grid2.Coords, EltTy.bits .f32 = 32 ∨ (Rect.block (s := S2x50000x64) S1x50000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x16.size a ≤ S128x16.size a
  hwx3_1 : ∀ i : grid3.Coords, EltTy.bits .f32 = 32 ∨ (Rect.block (s := S128x16) S128x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x16.size a ≤ S50000x16.size a
  hwx3_3 : ∀ i : grid3.Coords, EltTy.bits .f32 = 32 ∨ (Rect.block (s := S50000x16) S5000x16.size (cc3_transform_3 i) (hinb3_3 i)).WholeWords (EltTy.packing .f32)
  hrank4 : 0 < grid4.rank
  k4_off1_inb : ∀ i : grid4.Coords, ∀ a, (k4_off1 i) a + S1.size a ≤ S172.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x16.size a ≤ S352256x16.size a
  hwx4_0 : ∀ i : grid4.Coords, EltTy.bits .bf16 = 32 ∨ (Rect.block (s := S352256x16) S2048x16.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x352256.size a
  hwx4_1 : ∀ i : grid4.Coords, EltTy.bits .i32 = 32 ∨ (Rect.block (s := S1x352256) S1x2048.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x50000x16.size a ≤ S2x50000x16.size a
  hwx4_2 : ∀ i : grid4.Coords, EltTy.bits .f32 = 32 ∨ (Rect.block (s := S2x50000x16) S1x50000x16.size (cc4_transform_2 i) (hinb4_2 i)).WholeWords (EltTy.packing .f32)
  hrank5 : 0 < grid5.rank
  k5_off1_inb : ∀ i : grid5.Coords, ∀ a, (k5_off1 i) a + S1.size a ≤ S904.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x16.size a ≤ S1851392x16.size a
  hwx5_0 : ∀ i : grid5.Coords, EltTy.bits .bf16 = 32 ∨ (Rect.block (s := S1851392x16) S2048x16.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x2048.size a ≤ S1x1851392.size a
  hwx5_1 : ∀ i : grid5.Coords, EltTy.bits .i32 = 32 ∨ (Rect.block (s := S1x1851392) S1x2048.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x50000x16.size a ≤ S2x50000x16.size a
  hwx5_2 : ∀ i : grid5.Coords, EltTy.bits .f32 = 32 ∨ (Rect.block (s := S2x50000x16) S1x50000x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S50000x32.size a
  hwx6_0 : ∀ i : grid6.Coords, EltTy.bits .f32 = 32 ∨ (Rect.block (s := S50000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x16.size a ≤ S32x16.size a
  hwx6_1 : ∀ i : grid6.Coords, EltTy.bits .f32 = 32 ∨ (Rect.block (s := S32x16) S32x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x16.size a ≤ S1x16.size a
  hwx6_2 : ∀ i : grid6.Coords, EltTy.bits .f32 = 32 ∨ (Rect.block (s := S1x16) S1x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x16.size a ≤ S50000x16.size a
  hwx6_3 : ∀ i : grid6.Coords, EltTy.bits .f32 = 32 ∨ (Rect.block (s := S50000x16) S5000x16.size (cc6_transform_3 i) (hinb6_3 i)).WholeWords (EltTy.packing .f32)

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def comparator_i32_i32_d0 : BitVec 32 × BitVec 32 → BitVec 32 × BitVec 32 → BitVec 1 :=
  fun l r =>
    let v2 := IntOp.cmpi .slt l.1 r.1
    v2
def gather_S350000_S350000x1_S350000_n_0_n_n_0_1_1 : GatherDims S350000 S350000x1 S350000 where
  offsetDims := []
  collapsedSliceDims := [0]
  operandBatchingDims := []
  startIndicesBatchingDims := []
  startIndexMap := [0]
  indexVectorDim := 1
  sliceSizes := ![1]
  wf := gather_S350000_S350000x1_S350000_n_0_n_n_0_1_1_wf
def scatter_S50000_S1847685x1_S1847685_n_0_0_1 : ScatterDims S50000 S1847685x1 S1847685 where
  updateWindowDims := []
  insertedWindowDims := [0]
  scatterDimsToOperandDims := [0]
  indexVectorDim := 1
  wf := scatter_S50000_S1847685x1_S1847685_n_0_0_1_wf
def gather_S50000_S1847685x1_S1847685_n_0_n_n_0_1_1 : GatherDims S50000 S1847685x1 S1847685 where
  offsetDims := []
  collapsedSliceDims := [0]
  operandBatchingDims := []
  startIndicesBatchingDims := []
  startIndexMap := [0]
  indexVectorDim := 1
  sliceSizes := ![1]
  wf := gather_S50000_S1847685x1_S1847685_n_0_n_n_0_1_1_wf
def gather_S1847685_S1847685x1_S1847685_n_0_n_n_0_1_1 : GatherDims S1847685 S1847685x1 S1847685 where
  offsetDims := []
  collapsedSliceDims := [0]
  operandBatchingDims := []
  startIndicesBatchingDims := []
  startIndexMap := [0]
  indexVectorDim := 1
  sliceSizes := ![1]
  wf := gather_S1847685_S1847685x1_S1847685_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S50000x64_S352256x1_S352256x64_1_0_n_n_0_1_164 : GatherDims S50000x64 S352256x1 S352256x64 where
  offsetDims := [1]
  collapsedSliceDims := [0]
  operandBatchingDims := []
  startIndicesBatchingDims := []
  startIndexMap := [0]
  indexVectorDim := 1
  sliceSizes := ![1, 64]
  wf := gather_S50000x64_S352256x1_S352256x64_1_0_n_n_0_1_164_wf
def dot_S2056x2048_S2048x64_S2056x64_1_0_0_1_n_n : DotDims S2056x2048 S2048x64 S2056x64 where
  lhsContracting := [1]
  rhsContracting := [0]
  lhsNonContracting := [0]
  rhsNonContracting := [1]
  lhsBatch := []
  rhsBatch := []
  wf := dot_S2056x2048_S2048x64_S2056x64_1_0_0_1_n_n_wf
def gather_S50000x64_S1851392x1_S1851392x64_1_0_n_n_0_1_164 : GatherDims S50000x64 S1851392x1 S1851392x64 where
  offsetDims := [1]
  collapsedSliceDims := [0]
  operandBatchingDims := []
  startIndicesBatchingDims := []
  startIndexMap := [0]
  indexVectorDim := 1
  sliceSizes := ![1, 64]
  wf := gather_S50000x64_S1851392x1_S1851392x64_1_0_n_n_0_1_164_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S352256x1_S352256x16_1_0_n_n_0_1_116 : GatherDims S50000x16 S352256x1 S352256x16 where
  offsetDims := [1]
  collapsedSliceDims := [0]
  operandBatchingDims := []
  startIndicesBatchingDims := []
  startIndexMap := [0]
  indexVectorDim := 1
  sliceSizes := ![1, 16]
  wf := gather_S50000x16_S352256x1_S352256x16_1_0_n_n_0_1_116_wf
def dot_S2056x2048_S2048x16_S2056x16_1_0_0_1_n_n : DotDims S2056x2048 S2048x16 S2056x16 where
  lhsContracting := [1]
  rhsContracting := [0]
  lhsNonContracting := [0]
  rhsNonContracting := [1]
  lhsBatch := []
  rhsBatch := []
  wf := dot_S2056x2048_S2048x16_S2056x16_1_0_0_1_n_n_wf
def gather_S50000x16_S1851392x1_S1851392x16_1_0_n_n_0_1_116 : GatherDims S50000x16 S1851392x1 S1851392x16 where
  offsetDims := [1]
  collapsedSliceDims := [0]
  operandBatchingDims := []
  startIndicesBatchingDims := []
  startIndexMap := [0]
  indexVectorDim := 1
  sliceSizes := ![1, 16]
  wf := gather_S50000x16_S1851392x1_S1851392x16_1_0_n_n_0_1_116_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v131) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v132) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev spec1_0 : Pipeline.WinSpec sig grid1.rank :=
  Pipeline.WinSpec.ofSpec (Memref.whole main_v137) S2048x64.size reads1_0 false false 2 stage1_0 sem1_0 nbuf1_0 hstage1_0

abbrev spec1_1 : Pipeline.WinSpec sig grid1.rank :=
  Pipeline.WinSpec.ofSpec (Memref.whole main_v64) S1x2048.size reads1_1 false false 2 stage1_1 sem1_1 nbuf1_1 hstage1_1

abbrev spec1_2 : Pipeline.WinSpec sig grid1.rank :=
  Pipeline.WinSpec.ofSpec (Memref.whole main_v138) S1x50000x64.size reads1_2 true true 1 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev spec2_0 : Pipeline.WinSpec sig grid2.rank :=
  Pipeline.WinSpec.ofSpec (Memref.whole main_v151) S2048x64.size reads2_0 false false 2 stage2_0 sem2_0 nbuf2_0 hstage2_0

abbrev spec2_1 : Pipeline.WinSpec sig grid2.rank :=
  Pipeline.WinSpec.ofSpec (Memref.whole main_v129) S1x2048.size reads2_1 false false 2 stage2_1 sem2_1 nbuf2_1 hstage2_1

abbrev spec2_2 : Pipeline.WinSpec sig grid2.rank :=
  Pipeline.WinSpec.ofSpec (Memref.whole main_v152) S1x50000x64.size reads2_2 true true 1 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_0 | 1 => cc2_transform_1 | 2 => cc2_transform_2 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | ⟨_ + 3, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | 2 => hwx2_2 | ⟨_ + 3, h⟩ => absurd h (Nat.not_lt.2 (Nat.le_add_left _ _))
abbrev win3_0 : Pipeline.Window sig grid3 :=
  Pipeline.Window.ofSpec (Memref.whole main_v162) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v164) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v165) S5000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev spec4_0 : Pipeline.WinSpec sig grid4.rank :=
  Pipeline.WinSpec.ofSpec (Memref.whole main_v170) S2048x16.size reads4_0 false false 2 stage4_0 sem4_0 nbuf4_0 hstage4_0

abbrev spec4_1 : Pipeline.WinSpec sig grid4.rank :=
  Pipeline.WinSpec.ofSpec (Memref.whole main_v64) S1x2048.size reads4_1 false false 2 stage4_1 sem4_1 nbuf4_1 hstage4_1

abbrev spec4_2 : Pipeline.WinSpec sig grid4.rank :=
  Pipeline.WinSpec.ofSpec (Memref.whole main_v171) S1x50000x16.size reads4_2 true true 1 stage4_2 sem4_2 nbuf4_2 hstage4_2

abbrev spec4 : Fin 3 → Pipeline.WinSpec sig grid4.rank := fun | 0 => spec4_0 | 1 => spec4_1 | 2 => spec4_2 | ⟨_ + 3, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | ⟨_ + 3, h⟩ => absurd h (Nat.not_lt.2 (Nat.le_add_left _ _))
abbrev ix4 (pf : pre4.Contents (Elt F)) : (w : Fin 3) → grid4.Coords → Fin (spec4 w).shape.rank → Nat := fun | 0 => cc4_transform_0 | 1 => cc4_transform_1 | 2 => cc4_transform_2 | ⟨_ + 3, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | 2 => hreads4_2 | ⟨_ + 3, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | 2 => hinb4_2 | ⟨_ + 3, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | 2 => hwx4_2 | ⟨_ + 3, h⟩ => absurd h (Nat.not_lt.2 (Nat.le_add_left _ _))
abbrev spec5_0 : Pipeline.WinSpec sig grid5.rank :=
  Pipeline.WinSpec.ofSpec (Memref.whole main_v184) S2048x16.size reads5_0 false false 2 stage5_0 sem5_0 nbuf5_0 hstage5_0

abbrev spec5_1 : Pipeline.WinSpec sig grid5.rank :=
  Pipeline.WinSpec.ofSpec (Memref.whole main_v129) S1x2048.size reads5_1 false false 2 stage5_1 sem5_1 nbuf5_1 hstage5_1

abbrev spec5_2 : Pipeline.WinSpec sig grid5.rank :=
  Pipeline.WinSpec.ofSpec (Memref.whole main_v185) S1x50000x16.size reads5_2 true true 1 stage5_2 sem5_2 nbuf5_2 hstage5_2

abbrev spec5 : Fin 3 → Pipeline.WinSpec sig grid5.rank := fun | 0 => spec5_0 | 1 => spec5_1 | 2 => spec5_2 | ⟨_ + 3, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | ⟨_ + 3, h⟩ => absurd h (Nat.not_lt.2 (Nat.le_add_left _ _))
abbrev ix5 (pf : pre5.Contents (Elt F)) : (w : Fin 3) → grid5.Coords → Fin (spec5 w).shape.rank → Nat := fun | 0 => cc5_transform_0 | 1 => cc5_transform_1 | 2 => cc5_transform_2 | ⟨_ + 3, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | 2 => hreads5_2 | ⟨_ + 3, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | 2 => hinb5_2 | ⟨_ + 3, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | 2 => hwx5_2 | ⟨_ + 3, h⟩ => absurd h (Nat.not_lt.2 (Nat.le_add_left _ _))
abbrev win6_0 : Pipeline.Window sig grid6 :=
  Pipeline.Window.ofSpec (Memref.whole main_v194) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S32x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v195) S1x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v196) S5000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where
  harr1 : ∀ w, (spec1 w).arr.IsWhole
  harr2 : ∀ w, (spec2 w).arr.IsWhole
  harr4 : ∀ w, (spec4 w).arr.IsWhole
  harr5 : ∀ w, (spec5 w).arr.IsWhole

variable [Facts]
-- ==== ReferenceIdeal.lean ====
abbrev S50000x512 : Shape := ⟨2, ![50000, 512]⟩
abbrev S2x300000 : Shape := ⟨2, ![2, 300000]⟩
abbrev S2x1797685 : Shape := ⟨2, ![2, 1797685]⟩
abbrev S512x64 : Shape := ⟨2, ![512, 64]⟩
abbrev S64 : Shape := ⟨1, ![64]⟩
abbrev S128x16 : Shape := ⟨2, ![128, 16]⟩
abbrev S16 : Shape := ⟨1, ![16]⟩
abbrev S32x16 : Shape := ⟨2, ![32, 16]⟩
abbrev S50000x64 : Shape := ⟨2, ![50000, 64]⟩
abbrev S50000 : Shape := ⟨1, ![50000]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S350000x64 : Shape := ⟨2, ![350000, 64]⟩
abbrev S1x64 : Shape := ⟨2, ![1, 64]⟩
abbrev S1x1797685 : Shape := ⟨2, ![1, 1797685]⟩
abbrev S1797685 : Shape := ⟨1, ![1797685]⟩
abbrev S1847685 : Shape := ⟨1, ![1847685]⟩
abbrev S1847685x1 : Shape := ⟨2, ![1847685, 1]⟩
abbrev S1847685x64 : Shape := ⟨2, ![1847685, 64]⟩
abbrev S50000x128 : Shape := ⟨2, ![50000, 128]⟩
abbrev S50000x16 : Shape := ⟨2, ![50000, 16]⟩
abbrev S350000x16 : Shape := ⟨2, ![350000, 16]⟩
abbrev S1x16 : Shape := ⟨2, ![1, 16]⟩
abbrev S1847685x16 : Shape := ⟨2, ![1847685, 16]⟩
abbrev S50000x32 : Shape := ⟨2, ![50000, 32]⟩
abbrev S50000x1 : Shape := ⟨2, ![50000, 1]⟩

abbrev nBuf : Space → Nat
  | .hbm => 285
  | .vmem => 0
  | .smem => 0
  | _ => 0

abbrev hbmTy0_0 (i : Nat) : BufTy := match i % 128 with
  | 0 => ⟨S50000x512, .f32⟩
  | 1 => ⟨S2x300000, .i32⟩
  | 2 => ⟨S2x1797685, .i32⟩
  | 3 => ⟨S512x64, .f32⟩
  | 4 => ⟨S64, .f32⟩
  | 5 => ⟨S128x16, .f32⟩
  | 6 => ⟨S16, .f32⟩
  | 7 => ⟨S32x16, .f32⟩
  | 8 => ⟨S16, .f32⟩
  | 9 => ⟨S50000x64, .f32⟩
  | 10 => ⟨S50000, .i32⟩
  | 11 => ⟨S1x300000, .i32⟩
  | 12 => ⟨S300000, .i32⟩
  | 13 => ⟨S350000, .i32⟩
  | 14 => ⟨S1x300000, .i32⟩
  | 15 => ⟨S300000, .i32⟩
  | 16 => ⟨S350000, .i32⟩
  | 17 => ⟨S_, .f32⟩
  | 18 => ⟨S350000, .f32⟩
  | 19 => ⟨S_, .f32⟩
  | 20 => ⟨S50000, .f32⟩
  | 21 => ⟨S350000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S350000, .i32⟩
  | 36 => ⟨S350000, .i1⟩
  | 37 => ⟨S_, .i32⟩
  | 38 => ⟨S350000, .i32⟩
  | 39 => ⟨S350000, .i32⟩
  | 40 => ⟨S350000, .i32⟩
  | 41 => ⟨S350000x1, .i32⟩
  | 42 => ⟨S350000, .f32⟩
  | 43 => ⟨S_, .i32⟩
  | 44 => ⟨S350000, .i32⟩
  | 45 => ⟨S350000, .i1⟩
  | 46 => ⟨S_, .i32⟩
  | 47 => ⟨S350000, .i32⟩
  | 48 => ⟨S350000, .i32⟩
  | 49 => ⟨S350000, .i32⟩
  | 50 => ⟨S350000x1, .i32⟩
  | 51 => ⟨S350000, .f32⟩
  | 52 => ⟨S350000, .f32⟩
  | 53 => ⟨S_, .i32⟩
  | 54 => ⟨S350000, .i32⟩
  | 55 => ⟨S350000, .i1⟩
  | 56 => ⟨S_, .i32⟩
  | 57 => ⟨S350000, .i32⟩
  | 58 => ⟨S350000, .i32⟩
  | 59 => ⟨S350000, .i32⟩
  | 60 => ⟨S350000x1, .i32⟩
  | 61 => ⟨S350000x64, .f32⟩
  | 62 => ⟨S350000x1, .f32⟩
  | 63 => ⟨S350000x64, .f32⟩
  | 64 => ⟨S350000x64, .f32⟩
  | 65 => ⟨S_, .f32⟩
  | 66 => ⟨S50000x64, .f32⟩
  | 67 => ⟨S350000x1, .i32⟩
  | 68 => ⟨S50000x64, .f32⟩
  | 69 => ⟨S1x64, .f32⟩
  | 70 => ⟨S50000x64, .f32⟩
  | 71 => ⟨S50000x64, .f32⟩
  | 72 => ⟨S50000x64, .f32⟩
  | 73 => ⟨S50000, .i32⟩
  | 74 => ⟨S1x1797685, .i32⟩
  | 75 => ⟨S1797685, .i32⟩
  | 76 => ⟨S1847685, .i32⟩
  | 77 => ⟨S1x1797685, .i32⟩
  | 78 => ⟨S1797685, .i32⟩
  | 79 => ⟨S1847685, .i32⟩
  | 80 => ⟨S_, .f32⟩
  | 81 => ⟨S1847685, .f32⟩
  | 82 => ⟨S_, .f32⟩
  | 83 => ⟨S50000, .f32⟩
  | 84 => ⟨S1847685x1, .i32⟩
  | 85 => ⟨S50000, .f32⟩
  | 86 => ⟨S_, .f32⟩
  | 87 => ⟨S50000, .f32⟩
  | 88 => ⟨S50000, .i1⟩
  | 89 => ⟨S_, .f32⟩
  | 90 => ⟨S50000, .f32⟩
  | 91 => ⟨S50000, .f32⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S1847685, .i32⟩
  | 99 => ⟨S1847685, .i1⟩
  | 100 => ⟨S_, .i32⟩
  | 101 => ⟨S1847685, .i32⟩
  | 102 => ⟨S1847685, .i32⟩
  | 103 => ⟨S1847685, .i32⟩
  | 104 => ⟨S1847685x1, .i32⟩
  | 105 => ⟨S1847685, .f32⟩
  | 106 => ⟨S_, .i32⟩
  | 107 => ⟨S1847685, .i32⟩
  | 108 => ⟨S1847685, .i1⟩
  | 109 => ⟨S_, .i32⟩
  | 110 => ⟨S1847685, .i32⟩
  | 111 => ⟨S1847685, .i32⟩
  | 112 => ⟨S1847685, .i32⟩
  | 113 => ⟨S1847685x1, .i32⟩
  | 114 => ⟨S1847685, .f32⟩
  | 115 => ⟨S1847685, .f32⟩
  | 116 => ⟨S_, .i32⟩
  | 117 => ⟨S1847685, .i32⟩
  | 118 => ⟨S1847685, .i1⟩
  | 119 => ⟨S_, .i32⟩
  | 120 => ⟨S1847685, .i32⟩
  | 121 => ⟨S1847685, .i32⟩
  | 122 => ⟨S1847685, .i32⟩
  | 123 => ⟨S1847685x1, .i32⟩
  | 124 => ⟨S1847685x64, .f32⟩
  | 125 => ⟨S1847685x1, .f32⟩
  | 126 => ⟨S1847685x64, .f32⟩
  | 127 => ⟨S1847685x64, .f32⟩
  | _ => ⟨S50000x512, .f32⟩

abbrev hbmTy0_1 (i : Nat) : BufTy := match i % 128 with
  | 0 => ⟨S_, .f32⟩
  | 1 => ⟨S50000x64, .f32⟩
  | 2 => ⟨S1847685x1, .i32⟩
  | 3 => ⟨S50000x64, .f32⟩
  | 4 => ⟨S1x64, .f32⟩
  | 5 => ⟨S50000x64, .f32⟩
  | 6 => ⟨S50000x64, .f32⟩
  | 7 => ⟨S50000x128, .f32⟩
  | 8 => ⟨S_, .f32⟩
  | 9 => ⟨S50000x128, .f32⟩
  | 10 => ⟨S50000x128, .f32⟩
  | 11 => ⟨S50000x16, .f32⟩
  | 12 => ⟨S50000, .i32⟩
  | 13 => ⟨S1x300000, .i32⟩
  | 14 => ⟨S300000, .i32⟩
  | 15 => ⟨S350000, .i32⟩
  | 16 => ⟨S1x300000, .i32⟩
  | 17 => ⟨S300000, .i32⟩
  | 18 => ⟨S350000, .i32⟩
  | 19 => ⟨S_, .f32⟩
  | 20 => ⟨S350000, .f32⟩
  | 21 => ⟨S_, .f32⟩
  | 22 => ⟨S50000, .f32⟩
  | 23 => ⟨S350000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S350000, .i32⟩
  | 38 => ⟨S350000, .i1⟩
  | 39 => ⟨S_, .i32⟩
  | 40 => ⟨S350000, .i32⟩
  | 41 => ⟨S350000, .i32⟩
  | 42 => ⟨S350000, .i32⟩
  | 43 => ⟨S350000x1, .i32⟩
  | 44 => ⟨S350000, .f32⟩
  | 45 => ⟨S_, .i32⟩
  | 46 => ⟨S350000, .i32⟩
  | 47 => ⟨S350000, .i1⟩
  | 48 => ⟨S_, .i32⟩
  | 49 => ⟨S350000, .i32⟩
  | 50 => ⟨S350000, .i32⟩
  | 51 => ⟨S350000, .i32⟩
  | 52 => ⟨S350000x1, .i32⟩
  | 53 => ⟨S350000, .f32⟩
  | 54 => ⟨S350000, .f32⟩
  | 55 => ⟨S_, .i32⟩
  | 56 => ⟨S350000, .i32⟩
  | 57 => ⟨S350000, .i1⟩
  | 58 => ⟨S_, .i32⟩
  | 59 => ⟨S350000, .i32⟩
  | 60 => ⟨S350000, .i32⟩
  | 61 => ⟨S350000, .i32⟩
  | 62 => ⟨S350000x1, .i32⟩
  | 63 => ⟨S350000x16, .f32⟩
  | 64 => ⟨S350000x1, .f32⟩
  | 65 => ⟨S350000x16, .f32⟩
  | 66 => ⟨S350000x16, .f32⟩
  | 67 => ⟨S_, .f32⟩
  | 68 => ⟨S50000x16, .f32⟩
  | 69 => ⟨S350000x1, .i32⟩
  | 70 => ⟨S50000x16, .f32⟩
  | 71 => ⟨S1x16, .f32⟩
  | 72 => ⟨S50000x16, .f32⟩
  | 73 => ⟨S50000x16, .f32⟩
  | 74 => ⟨S50000x16, .f32⟩
  | 75 => ⟨S50000, .i32⟩
  | 76 => ⟨S1x1797685, .i32⟩
  | 77 => ⟨S1797685, .i32⟩
  | 78 => ⟨S1847685, .i32⟩
  | 79 => ⟨S1x1797685, .i32⟩
  | 80 => ⟨S1797685, .i32⟩
  | 81 => ⟨S1847685, .i32⟩
  | 82 => ⟨S_, .f32⟩
  | 83 => ⟨S1847685, .f32⟩
  | 84 => ⟨S_, .f32⟩
  | 85 => ⟨S50000, .f32⟩
  | 86 => ⟨S1847685x1, .i32⟩
  | 87 => ⟨S50000, .f32⟩
  | 88 => ⟨S_, .f32⟩
  | 89 => ⟨S50000, .f32⟩
  | 90 => ⟨S50000, .i1⟩
  | 91 => ⟨S_, .f32⟩
  | 92 => ⟨S50000, .f32⟩
  | 93 => ⟨S50000, .f32⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S1847685, .i32⟩
  | 101 => ⟨S1847685, .i1⟩
  | 102 => ⟨S_, .i32⟩
  | 103 => ⟨S1847685, .i32⟩
  | 104 => ⟨S1847685, .i32⟩
  | 105 => ⟨S1847685, .i32⟩
  | 106 => ⟨S1847685x1, .i32⟩
  | 107 => ⟨S1847685, .f32⟩
  | 108 => ⟨S_, .i32⟩
  | 109 => ⟨S1847685, .i32⟩
  | 110 => ⟨S1847685, .i1⟩
  | 111 => ⟨S_, .i32⟩
  | 112 => ⟨S1847685, .i32⟩
  | 113 => ⟨S1847685, .i32⟩
  | 114 => ⟨S1847685, .i32⟩
  | 115 => ⟨S1847685x1, .i32⟩
  | 116 => ⟨S1847685, .f32⟩
  | 117 => ⟨S1847685, .f32⟩
  | 118 => ⟨S_, .i32⟩
  | 119 => ⟨S1847685, .i32⟩
  | 120 => ⟨S1847685, .i1⟩
  | 121 => ⟨S_, .i32⟩
  | 122 => ⟨S1847685, .i32⟩
  | 123 => ⟨S1847685, .i32⟩
  | 124 => ⟨S1847685, .i32⟩
  | 125 => ⟨S1847685x1, .i32⟩
  | 126 => ⟨S1847685x16, .f32⟩
  | 127 => ⟨S1847685x1, .f32⟩
  | _ => ⟨S50000x512, .f32⟩

abbrev hbmTy0_2 (i : Nat) : BufTy := match i % 128 with
  | 0 => ⟨S1847685x16, .f32⟩
  | 1 => ⟨S1847685x16, .f32⟩
  | 2 => ⟨S_, .f32⟩
  | 3 => ⟨S50000x16, .f32⟩
  | 4 => ⟨S1847685x1, .i32⟩
  | 5 => ⟨S50000x16, .f32⟩
  | 6 => ⟨S1x16, .f32⟩
  | 7 => ⟨S50000x16, .f32⟩
  | 8 => ⟨S50000x16, .f32⟩
  | 9 => ⟨S50000x32, .f32⟩
  | 10 => ⟨S50000x16, .f32⟩
  | 11 => ⟨S1x16, .f32⟩
  | 12 => ⟨S50000x16, .f32⟩
  | 13 => ⟨S50000x16, .f32⟩
  | 14 => ⟨S_, .f32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x16, .f32⟩
  | 21 => ⟨S50000x16, .f32⟩
  | 22 => ⟨S50000x16, .f32⟩
  | 23 => ⟨S_, .f32⟩
  | 24 => ⟨S50000, .f32⟩
  | 25 => ⟨S50000x1, .f32⟩
  | 26 => ⟨S50000x1, .f32⟩
  | 27 => ⟨S50000x16, .f32⟩
  | 28 => ⟨S50000x16, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_call1_v0 : Ref sig .tc := ⟨.hbm, 94, rfl⟩
abbrev main_call1_v1 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_19 : Ref sig .tc := ⟨.hbm, 116, rfl⟩
abbrev main_v82 : Ref sig .tc := ⟨.hbm, 117, rfl⟩
abbrev main_v83 : Ref sig .tc := ⟨.hbm, 118, rfl⟩
abbrev main_c_20 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_21 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call2_cst : Ref sig .tc := ⟨.hbm, 136, rfl⟩
abbrev main_call2_v0 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_22 : Ref sig .tc := ⟨.hbm, 147, rfl⟩
abbrev main_v108 : Ref sig .tc := ⟨.hbm, 148, rfl⟩
abbrev main_cst_23 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_24 : Ref sig .tc := ⟨.hbm, 153, rfl⟩
abbrev main_v112 : Ref sig .tc := ⟨.hbm, 154, rfl⟩
abbrev main_v113 : Ref sig .tc := ⟨.hbm, 155, rfl⟩
abbrev main_cst_25 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_26 : Ref sig .tc := ⟨.hbm, 160, rfl⟩
abbrev main_call3_v0 : Ref sig .tc := ⟨.hbm, 161, rfl⟩
abbrev main_call3_v1 : Ref sig .tc := ⟨.hbm, 162, rfl⟩
abbrev main_v117 : Ref sig .tc := ⟨.hbm, 163, rfl⟩
abbrev main_c_27 : Ref sig .tc := ⟨.hbm, 164, rfl⟩
abbrev main_v118 : Ref sig .tc := ⟨.hbm, 165, rfl⟩
abbrev main_v119 : Ref sig .tc := ⟨.hbm, 166, rfl⟩
abbrev main_c_28 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_c_29 : Ref sig .tc := ⟨.hbm, 173, rfl⟩
abbrev main_v125 : Ref sig .tc := ⟨.hbm, 174, rfl⟩
abbrev main_v126 : Ref sig .tc := ⟨.hbm, 175, rfl⟩
abbrev main_c_30 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_c_31 : Ref sig .tc := ⟨.hbm, 183, rfl⟩
abbrev main_v133 : Ref sig .tc := ⟨.hbm, 184, rfl⟩
abbrev main_v134 : Ref sig .tc := ⟨.hbm, 185, rfl⟩
abbrev main_c_32 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_33 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_cst_34 : Ref sig .tc := ⟨.hbm, 210, rfl⟩
abbrev main_v157 : Ref sig .tc := ⟨.hbm, 211, rfl⟩
abbrev main_cst_35 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_36 : Ref sig .tc := ⟨.hbm, 216, rfl⟩
abbrev main_v161 : Ref sig .tc := ⟨.hbm, 217, rfl⟩
abbrev main_v162 : Ref sig .tc := ⟨.hbm, 218, rfl⟩
abbrev main_cst_37 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_cst_38 : Ref sig .tc := ⟨.hbm, 223, rfl⟩
abbrev main_call4_v0 : Ref sig .tc := ⟨.hbm, 224, rfl⟩
abbrev main_call4_v1 : Ref sig .tc := ⟨.hbm, 225, rfl⟩
abbrev main_v166 : Ref sig .tc := ⟨.hbm, 226, rfl⟩
abbrev main_c_39 : Ref sig .tc := ⟨.hbm, 227, rfl⟩
abbrev main_v167 : Ref sig .tc := ⟨.hbm, 228, rfl⟩
abbrev main_v168 : Ref sig .tc := ⟨.hbm, 229, rfl⟩
abbrev main_c_40 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_c_41 : Ref sig .tc := ⟨.hbm, 236, rfl⟩
abbrev main_v174 : Ref sig .tc := ⟨.hbm, 237, rfl⟩
abbrev main_v175 : Ref sig .tc := ⟨.hbm, 238, rfl⟩
abbrev main_c_42 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_c_43 : Ref sig .tc := ⟨.hbm, 246, rfl⟩
abbrev main_v182 : Ref sig .tc := ⟨.hbm, 247, rfl⟩
abbrev main_v183 : Ref sig .tc := ⟨.hbm, 248, rfl⟩
abbrev main_c_44 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_cst_45 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_call5_cst : Ref sig .tc := ⟨.hbm, 270, rfl⟩
abbrev main_call5_v0 : Ref sig .tc := ⟨.hbm, 271, rfl⟩
abbrev main_call5_cst_0 : Ref sig .tc := ⟨.hbm, 272, rfl⟩
abbrev main_call5_v1 : Ref sig .tc := ⟨.hbm, 273, rfl⟩
abbrev main_call5_v2 : Ref sig .tc := ⟨.hbm, 274, rfl⟩
abbrev main_call5_v3 : Ref sig .tc := ⟨.hbm, 275, rfl⟩
abbrev main_call5_v4 : Ref sig .tc := ⟨.hbm, 276, rfl⟩
abbrev main_call5_v5 : Ref sig .tc := ⟨.hbm, 277, rfl⟩
abbrev main_call5_v6 : Ref sig .tc := ⟨.hbm, 278, rfl⟩
abbrev main_call5_cst_1 : Ref sig .tc := ⟨.hbm, 279, rfl⟩
abbrev main_call5_v7 : Ref sig .tc := ⟨.hbm, 280, rfl⟩
abbrev main_call5_v8 : Ref sig .tc := ⟨.hbm, 281, rfl⟩
abbrev main_call5_v9 : Ref sig .tc := ⟨.hbm, 282, rfl⟩
abbrev main_call5_v10 : Ref sig .tc := ⟨.hbm, 283, rfl⟩
abbrev main_v203 : Ref sig .tc := ⟨.hbm, 284, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  bcast_S350000x1_S350000x64_0_1 : S350000x1.BroadcastsInDim S350000x64 (![0, 1] : Fin 2 → Fin S350000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x1797685_S1x1797685_0_0 : S2x1797685.Slices ![0, 0] S1x1797685
  shapeCasts_S1x1797685_S1797685 : S1x1797685.ShapeCasts S1797685
  concatenates_S1797685_S50000_S1847685_d0 : Shape.Concatenates [S1797685, S50000] S1847685 0
  slices_S2x1797685_S1x1797685_1_0 : S2x1797685.Slices ![1, 0] S1x1797685
  bcast_S_S1847685 : S_.BroadcastsInDim S1847685 (![] : Fin 0 → Fin S1847685.rank)
  bcast_S1847685_S1847685x1_0 : S1847685.BroadcastsInDim S1847685x1 (![0] : Fin 1 → Fin S1847685x1.rank)
  bcast_S1847685x1_S1847685x64_0_1 : S1847685x1.BroadcastsInDim S1847685x64 (![0, 1] : Fin 2 → Fin S1847685x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S350000x1_S350000x16_0_1 : S350000x1.BroadcastsInDim S350000x16 (![0, 1] : Fin 2 → Fin S350000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S1847685x1_S1847685x16_0_1 : S1847685x1.BroadcastsInDim S1847685x16 (![0, 1] : Fin 2 → Fin S1847685x16.rank)
  concatenates_S50000x16_S50000x16_S50000x32_d1 : Shape.Concatenates [S50000x16, S50000x16] S50000x32 1
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x512_S512x64_S50000x64_1_0_0_1_n_n_wf : DotDims.WF S50000x512 S512x64 S50000x64 [1] [0] [0] [1] [] []
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  gather_S50000x64_S350000x1_S350000x64_1_0_n_n_0_1_164_wf : GatherDims.WF S50000x64 S350000x1 S350000x64 [1] [0] [] [0] [] 1 ![1, 64]
  scatter_S50000x64_S350000x1_S350000x64_1_0_0_1_wf : ScatterDims.WF S50000x64 S350000x1 S350000x64 [1] [0] [0] 1
  scatter_S50000_S1847685x1_S1847685_n_0_0_1_wf : ScatterDims.WF S50000 S1847685x1 S1847685 [] [0] [0] 1
  gather_S50000_S1847685x1_S1847685_n_0_n_n_0_1_1_wf : GatherDims.WF S50000 S1847685x1 S1847685 [] [0] [] [0] [] 1 ![1]
  gather_S50000x64_S1847685x1_S1847685x64_1_0_n_n_0_1_164_wf : GatherDims.WF S50000x64 S1847685x1 S1847685x64 [1] [0] [] [0] [] 1 ![1, 64]
  scatter_S50000x64_S1847685x1_S1847685x64_1_0_0_1_wf : ScatterDims.WF S50000x64 S1847685x1 S1847685x64 [1] [0] [0] 1
  dot_S50000x128_S128x16_S50000x16_1_0_0_1_n_n_wf : DotDims.WF S50000x128 S128x16 S50000x16 [1] [0] [0] [1] [] []
  gather_S50000x16_S350000x1_S350000x16_1_0_n_n_0_1_116_wf : GatherDims.WF S50000x16 S350000x1 S350000x16 [1] [0] [] [0] [] 1 ![1, 16]
  scatter_S50000x16_S350000x1_S350000x16_1_0_0_1_wf : ScatterDims.WF S50000x16 S350000x1 S350000x16 [1] [0] [0] 1
  gather_S50000x16_S1847685x1_S1847685x16_1_0_n_n_0_1_116_wf : GatherDims.WF S50000x16 S1847685x1 S1847685x16 [1] [0] [] [0] [] 1 ![1, 16]
  scatter_S50000x16_S1847685x1_S1847685x16_1_0_0_1_wf : ScatterDims.WF S50000x16 S1847685x1 S1847685x16 [1] [0] [0] 1
  dot_S50000x32_S32x16_S50000x16_1_0_0_1_n_n_wf : DotDims.WF S50000x32 S32x16 S50000x16 [1] [0] [0] [1] [] []

variable [Facts₀]

def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def gather_S50000x64_S350000x1_S350000x64_1_0_n_n_0_1_164 : GatherDims S50000x64 S350000x1 S350000x64 where
  offsetDims := [1]
  collapsedSliceDims := [0]
  operandBatchingDims := []
  startIndicesBatchingDims := []
  startIndexMap := [0]
  indexVectorDim := 1
  sliceSizes := ![1, 64]
  wf := gather_S50000x64_S350000x1_S350000x64_1_0_n_n_0_1_164_wf
def scatter_S50000x64_S350000x1_S350000x64_1_0_0_1 : ScatterDims S50000x64 S350000x1 S350000x64 where
  updateWindowDims := [1]
  insertedWindowDims := [0]
  scatterDimsToOperandDims := [0]
  indexVectorDim := 1
  wf := scatter_S50000x64_S350000x1_S350000x64_1_0_0_1_wf
def scatter_S50000_S1847685x1_S1847685_n_0_0_1 : ScatterDims S50000 S1847685x1 S1847685 where
  updateWindowDims := []
  insertedWindowDims := [0]
  scatterDimsToOperandDims := [0]
  indexVectorDim := 1
  wf := scatter_S50000_S1847685x1_S1847685_n_0_0_1_wf
def gather_S50000_S1847685x1_S1847685_n_0_n_n_0_1_1 : GatherDims S50000 S1847685x1 S1847685 where
  offsetDims := []
  collapsedSliceDims := [0]
  operandBatchingDims := []
  startIndicesBatchingDims := []
  startIndexMap := [0]
  indexVectorDim := 1
  sliceSizes := ![1]
  wf := gather_S50000_S1847685x1_S1847685_n_0_n_n_0_1_1_wf
def gather_S50000x64_S1847685x1_S1847685x64_1_0_n_n_0_1_164 : GatherDims S50000x64 S1847685x1 S1847685x64 where
  offsetDims := [1]
  collapsedSliceDims := [0]
  operandBatchingDims := []
  startIndicesBatchingDims := []
  startIndexMap := [0]
  indexVectorDim := 1
  sliceSizes := ![1, 64]
  wf := gather_S50000x64_S1847685x1_S1847685x64_1_0_n_n_0_1_164_wf
def scatter_S50000x64_S1847685x1_S1847685x64_1_0_0_1 : ScatterDims S50000x64 S1847685x1 S1847685x64 where
  updateWindowDims := [1]
  insertedWindowDims := [0]
  scatterDimsToOperandDims := [0]
  indexVectorDim := 1
  wf := scatter_S50000x64_S1847685x1_S1847685x64_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S350000x1_S350000x16_1_0_n_n_0_1_116 : GatherDims S50000x16 S350000x1 S350000x16 where
  offsetDims := [1]
  collapsedSliceDims := [0]
  operandBatchingDims := []
  startIndicesBatchingDims := []
  startIndexMap := [0]
  indexVectorDim := 1
  sliceSizes := ![1, 16]
  wf := gather_S50000x16_S350000x1_S350000x16_1_0_n_n_0_1_116_wf
def scatter_S50000x16_S350000x1_S350000x16_1_0_0_1 : ScatterDims S50000x16 S350000x1 S350000x16 where
  updateWindowDims := [1]
  insertedWindowDims := [0]
  scatterDimsToOperandDims := [0]
  indexVectorDim := 1
  wf := scatter_S50000x16_S350000x1_S350000x16_1_0_0_1_wf
def gather_S50000x16_S1847685x1_S1847685x16_1_0_n_n_0_1_116 : GatherDims S50000x16 S1847685x1 S1847685x16 where
  offsetDims := [1]
  collapsedSliceDims := [0]
  operandBatchingDims := []
  startIndicesBatchingDims := []
  startIndexMap := [0]
  indexVectorDim := 1
  sliceSizes := ![1, 16]
  wf := gather_S50000x16_S1847685x1_S1847685x16_1_0_n_n_0_1_116_wf
def scatter_S50000x16_S1847685x1_S1847685x16_1_0_0_1 : ScatterDims S50000x16 S1847685x1 S1847685x16 where
  updateWindowDims := [1]
  insertedWindowDims := [0]
  scatterDimsToOperandDims := [0]
  indexVectorDim := 1
  wf := scatter_S50000x16_S1847685x1_S1847685x16_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf

class Facts : Prop extends Facts₀ where

variable [Facts]
-- ==== Proof.K.Mm.lean ====
/- The three matrix-product regions of @main (pallas_calls 0, 3 and 6), each at a parameter `V`, the TensorCore's buffer
   contents when the region is entered. Each is a grid of 10 points; at point `t` the body reads block row `t` of the left
   factor, the whole right factor and the whole bias row, and writes block row `t` of the result: the product plus the
   bias row on every row. Per region: each window's block at a point, what the body leaves in the output buffer, the
   body's triple, the pipeline's proof data and its body obligation. -/
import proofs.«402757_j20469814133395_4_alg».proof.Proof.Gen.Kernel.Launch
import proofs.«402757_j20469814133395_4_alg».proof.Proof.Gen.Kernel.Skeleton
import proofs.«402757_j20469814133395_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # REGION 0 of @main: custom_call 0, `cc0__matmul_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left factor's block row `t`): its current staging buffer holds its block at every point, for
    any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the right factor, whole; its block index never moves, so it is fetched at the first point only and
    found unmoved afterwards): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias row, whole; fetched at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x512 := Rect.unit (s := S5000x512) ![0, 0] S5000x512.size inb_S5000x512_S5000x512_0_0
abbrev r0_1 : Rect S512x64 := Rect.unit (s := S512x64) ![0, 0] S512x64.size inb_S512x64_S512x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

/-! ## What the body leaves in the output window's buffer -/

/-- Window 3's staging buffer after the body, from the input windows' blocks: the one store, of the product of the
    left block row and the right factor plus the bias row on every row. -/
def out0_3 (x0 : Vec F S5000x512 .f32) (x1 : Vec F S512x64 .f32) (x2 : Vec F S1x64 .f32) : Vec F S5000x64 .f32 :=
  View.canon [⟨r0_3, k0_pay1 (View.ld x0 r0_0) (View.ld x1 r0_1) (View.ld x2 r0_2)⟩]

/-- The store is of the whole buffer, so it covers it. -/
theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's triple -/

set_option maxHeartbeats 1000000 in
/-- The kernel body on whole staging memrefs, the inputs' at read contents `x0 x1 x2` and the output's at anything (the
    body reads it once before the store; nothing depends on what it reads), runs to the continuation holding the inputs'
    as they were and the output's at `out0_3` of the inputs'. -/
theorem sound_kernel0 (c : Dev nD) (E : Set ℕ) (i : grid0.Coords)
    (arg1 : Memref sig .tc .vmem S5000x512 .f32) (harg1 : arg1.IsWhole) (arg2 : Memref sig .tc .vmem S512x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x512 .f32) (x1 : Vec F S512x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 3 of @main: custom_call 3, `cc3__matmul_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the left factor's block row `t`): its current staging buffer holds its block at every point, for
    any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (the right factor, whole; its block index never moves, so it is fetched at the first point only and
    found unmoved afterwards): the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 (the bias row, whole; fetched at the first point only): the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S5000x128 := Rect.unit (s := S5000x128) ![0, 0] S5000x128.size inb_S5000x128_S5000x128_0_0
abbrev r3_1 : Rect S128x16 := Rect.unit (s := S128x16) ![0, 0] S128x16.size inb_S128x16_S128x16_0_0
abbrev r3_2 : Rect S1x16 := Rect.unit (s := S1x16) ![0, 0] S1x16.size inb_S1x16_S1x16_0_0
abbrev r3_3 : Rect S5000x16 := Rect.unit (s := S5000x16) ![0, 0] S5000x16.size inb_S5000x16_S5000x16_0_0

/-! ## What the body leaves in the output window's buffer -/

/-- Window 3's staging buffer after the body, from the input windows' blocks: the one store, of the product of the
    left block row and the right factor plus the bias row on every row. -/
def out3_3 (x0 : Vec F S5000x128 .f32) (x1 : Vec F S128x16 .f32) (x2 : Vec F S1x16 .f32) : Vec F S5000x16 .f32 :=
  View.canon [⟨r3_3, k3_pay1 (View.ld x0 r3_0) (View.ld x1 r3_1) (View.ld x2 r3_2)⟩]

/-- The store is of the whole buffer, so it covers it. -/
theorem cover3_3 (p0 : Vec F S5000x16 .f32) (y : S5000x16.Idx) :
    ∃ pc ∈ ([⟨r3_3, p0⟩] : List (View.Piece (Elt F) S5000x16 .f32)), y ∈ pc.1.set :=
  View.cover_of_tiled [⟨r3_3, p0⟩] S5000x16.size (by rfl) y

/-! ## The body's triple -/

set_option maxHeartbeats 1000000 in
/-- The kernel body on whole staging memrefs, the inputs' at read contents `x0 x1 x2` and the output's at anything (the
    body reads it once before the store; nothing depends on what it reads), runs to the continuation holding the inputs'
    as they were and the output's at `out3_3` of the inputs'. -/
theorem sound_kernel3 (c : Dev nD) (E : Set ℕ) (i : grid3.Coords)
    (arg1 : Memref sig .tc .vmem S5000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S5000x16 .f32) (harg4 : arg4.IsWhole)
    (x0 : Vec F S5000x128 .f32) (x1 : Vec F S128x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__matmul_kernel i arg1 harg1 arg2 harg2 arg3 harg3 arg4 harg4) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! # REGION 6 of @main: custom_call 6, `cc6__matmul_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the left factor's block row `t`): its current staging buffer holds its block at every point, for
    any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 (the right factor, whole; its block index never moves, so it is fetched at the first point only and
    found unmoved afterwards): the same. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2 (the bias row, whole; fetched at the first point only): the same. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S5000x32 := Rect.unit (s := S5000x32) ![0, 0] S5000x32.size inb_S5000x32_S5000x32_0_0
abbrev r6_1 : Rect S32x16 := Rect.unit (s := S32x16) ![0, 0] S32x16.size inb_S32x16_S32x16_0_0
abbrev r6_2 : Rect S1x16 := Rect.unit (s := S1x16) ![0, 0] S1x16.size inb_S1x16_S1x16_0_0
abbrev r6_3 : Rect S5000x16 := Rect.unit (s := S5000x16) ![0, 0] S5000x16.size inb_S5000x16_S5000x16_0_0

/-! ## What the body leaves in the output window's buffer -/

/-- Window 3's staging buffer after the body, from the input windows' blocks: the one store, of the product of the
    left block row and the right factor plus the bias row on every row. -/
def out6_3 (x0 : Vec F S5000x32 .f32) (x1 : Vec F S32x16 .f32) (x2 : Vec F S1x16 .f32) : Vec F S5000x16 .f32 :=
  View.canon [⟨r6_3, k6_pay1 (View.ld x0 r6_0) (View.ld x1 r6_1) (View.ld x2 r6_2)⟩]

/-- The store is of the whole buffer, so it covers it. -/
theorem cover6_3 (p0 : Vec F S5000x16 .f32) (y : S5000x16.Idx) :
    ∃ pc ∈ ([⟨r6_3, p0⟩] : List (View.Piece (Elt F) S5000x16 .f32)), y ∈ pc.1.set :=
  View.cover_of_tiled [⟨r6_3, p0⟩] S5000x16.size (by rfl) y

/-! ## The body's triple -/

set_option maxHeartbeats 1000000 in
/-- The kernel body on whole staging memrefs, the inputs' at read contents `x0 x1 x2` and the output's at anything (the
    body reads it once before the store; nothing depends on what it reads), runs to the continuation holding the inputs'
    as they were and the output's at `out6_3` of the inputs'. -/
theorem sound_kernel6 (c : Dev nD) (E : Set ℕ) (i : grid6.Coords)
    (arg1 : Memref sig .tc .vmem S5000x32 .f32) (harg1 : arg1.IsWhole) (arg2 : Memref sig .tc .vmem S32x16 .f32) (harg2 : arg2.IsWhole)
    (arg3 : Memref sig .tc .vmem S1x16 .f32) (harg3 : arg3.IsWhole) (arg4 : Memref sig .tc .vmem S5000x16 .f32) (harg4 : arg4.IsWhole)
    (x0 : Vec F S5000x32 .f32) (x1 : Vec F S32x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__matmul_kernel i arg1 harg1 arg2 harg2 arg3 harg3 arg4 harg4) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at point `t`
    each input's buffer at its block and the output's at `out6_3` of the input blocks; the invariant the scoped rest and
    the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.Kernel.Hand

end
-- ==== Proof.K.SegRunCommon.lean ====
/- Facts the four segment-sum body runs share: the branch condition in closed form, a buffer's contents after a last
   write as an overlay, and a whole-shape write read back. None mentions the program. -/
import Idealize.ShloMosaic.Lib.Pipeline.FrameBody
import Idealize.ShloMosaic.Lib.Pipeline.Value

namespace Cert.Kernel.Hand.Seg

open Idealize.ShloMosaic

/-- The branch condition the segment-sum bodies compute from a grid coordinate `n` (an `i32` compare with zero, widened,
    compared with zero again) holds exactly when `n = 0`. -/
theorem cond_iff (n : Nat) (hn : n < 2 ^ 32) :
    (Scalar.cmpi .ne (Scalar.extui (Scalar.cmpi .eq (BitVec.ofNat 32 n) 0#32)) 0#32) = 1#1 ↔ n = 0 := by
  constructor
  · intro h
    by_contra hne
    have hx : BitVec.ofNat 32 n ≠ 0#32 := by
      intro e
      have e' := congrArg BitVec.toNat e
      rw [BitVec.toNat_ofNat, Nat.mod_eq_of_lt hn] at e'
      exact hne e'
    have h0 : Scalar.cmpi .eq (BitVec.ofNat 32 n) 0#32 = 0#1 := by
      have hb : (BitVec.ofNat 32 n == 0#32) = false := beq_eq_false_iff_ne.mpr hx
      unfold Scalar.cmpi IntOp.cmpi
      show BitVec.ofBool (BitVec.ofNat 32 n == 0#32) = 0#1
      rw [hb]; rfl
    rw [h0] at h
    exact absurd h (by decide)
  · rintro rfl; decide

/-- After a last write through `r`, a view reads what it read before with `r`'s part replaced by the payload. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons, View.read_slice_write_of_not_mem r _ _ _ (by rw [Rect.map_emb_univ]; exact hy)]

/-- One write through the whole shape leaves its payload, whatever the buffer held. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

theorem hz2 : (![0, 0] : Fin 2 → Nat) = fun _ => 0 := funext fun a => by fin_cases a <;> rfl
theorem hz3 : (![0, 0, 0] : Fin 3 → Nat) = fun _ => 0 := funext fun a => by fin_cases a <;> rfl

end Cert.Kernel.Hand.Seg
-- ==== Proof.K.SegRun1.lean ====
/- The body of segment-sum launch 1 run once per control case: at a grid point whose second coordinate is zero the
   slab is first stored zero; in both cases the rows `[w, w + 2056)` of the slab (`w` the table word of the point)
   are replaced by themselves plus the product of the one-hot matrix of the segment ids with the values. `slab1`
   names what is left; `sound_kernel1` is the body's triple at any point. -/
import proofs.«402757_j20469814133395_4_alg».proof.Proof.Gen.Kernel.Launch
import proofs.«402757_j20469814133395_4_alg».proof.Proof.Gen.Kernel.Skeleton
import proofs.«402757_j20469814133395_4_alg».proof.Proof.Gen.Kernel.Points
import proofs.«402757_j20469814133395_4_alg».proof.Proof.K.SegRunCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the second coordinate is zero. -/
abbrev cond1 (i : grid1.Coords) : Prop := (Scalar.cmpi .ne (Scalar.extui (Scalar.cmpi .eq (BitVec.ofNat 32 (i 1).val) 0#32)) 0#32) = 1#1

theorem cond1_iff : ∀ i : grid1.Coords, cond1 i ↔ (i 1).val = 0 := fun i =>
  Seg.cond_iff _ (Nat.lt_trans (show (i 1).val < 86 from (i 1).isLt) (by decide))

/-- The table word the body reads at point `i` — the first row of the slab's rows it adds to —, through the table's
    memref at its held contents. -/
abbrev word1 (c : Dev nD) (i : grid1.Coords) (arg2 : Memref sig .tc .smem S172 .i32) (xt : Buf (Elt F) (arg2.view.loc (c : Thread nD τ))) : Elt F .i32 :=
  arg2.view.readAt (Elt F) (Rect.unit (s := S172) (k1_off1 i) S1.size (k1_off1_inb i)).toLoadRect xt (Shape.Idx.first (numel1_S1.symm ▸ Nat.one_pos))

/-- The rows `[w, w + 2056)` of the slab. -/
abbrev rect1 (w : BitVec 32) (hchk : k1_chk1 w) : Rect S1x50000x64 := Rect.unit (s := S1x50000x64) (k1_off2 w) S1x2056x64.size (k1_off2_inb w hchk)

/-- What the body leaves in the slab: the slab as it was (all zero when the second coordinate is zero), its rows
    `[w, w + 2056)` replaced by themselves plus the product of the one-hot matrix of the segment ids (row `r`, column
    `k`: is id `k` equal to `w + r`) with the values. -/
def slab1 (j0 : Bool) (w : BitVec 32) (hchk : k1_chk1 w) (tb : Vec F S1x2048 .i32) (vb : Vec F S2048x64 .bf16) (prev : Vec F S1x50000x64 .f32) : Vec F S1x50000x64 .f32 :=
  let base : Vec F S1x50000x64 .f32 := if j0 then k1_pay1 else prev
  (rect1 w hchk).overlay base (k1_pay2 w tb vb (View.ld base (rect1 w hchk)))

/-- The slab left at a point whose second coordinate is zero does not depend on what it held. -/
theorem slab1_true (w : BitVec 32) (hchk : k1_chk1 w) (tb : Vec F S1x2048 .i32) (vb : Vec F S2048x64 .bf16) (prev : Vec F S1x50000x64 .f32) :
    slab1 true w hchk tb vb prev = (rect1 w hchk).overlay k1_pay1 (k1_pay2 w tb vb (View.ld k1_pay1 (rect1 w hchk))) := by
  unfold slab1; rw [if_pos rfl]

theorem slab1_false (w : BitVec 32) (hchk : k1_chk1 w) (tb : Vec F S1x2048 .i32) (vb : Vec F S2048x64 .bf16) (prev : Vec F S1x50000x64 .f32) :
    slab1 false w hchk tb vb prev = (rect1 w hchk).overlay prev (k1_pay2 w tb vb (View.ld prev (rect1 w hchk))) := by
  unfold slab1; rw [if_neg Bool.false_ne_true]

set_option maxHeartbeats 1000000 in
/-- The body at a point whose second coordinate is zero: the slab is zeroed, then its rows `[w, w + 2056)` are read
    back, added to and stored. -/
theorem sound_kernel1_A (c : Dev nD) (E : Set ℕ) (i : grid1.Coords) (arg2 : Memref sig .tc .smem S172 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole) (hc0 : cond1 i)
    (q : PosShare TreeShare) (xt : Buf (Elt F) (arg2.view.loc (c : Thread nD τ))) (hchk : k1_chk1 (word1 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab1 true (word1 c i arg2 xt) hchk tb vb prev) ∗ (arg2.view.loc (c : Thread nD τ) ↦{q} xt)) -∗ K ⟨⟩))
      ⊢ wp frame (wpE (defs₀ (F := F)) Variants.none c none) E (cc1__segsum_kernel i arg2 harg2 arg3 harg3 arg4 harg4 arg5 harg5) K := by
  simp only [cc1__segsum_kernel_eq_skeleton]; unfold cc1__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab1_true, Seg.read_writes_cons_overlay]
    sl_unfold_words
    simp only [View.readAt_eq_ld, harg3.read_unread, harg4.read_unread, Seg.read_writes_unit_zero (S := S1x50000x64) _ _ Seg.hz3]
    rw [View.ld_unit_zero (S := S1x2048) Seg.hz2, View.ld_unit_zero (S := S2048x64) Seg.hz2]
    rfl
  iexact HT

set_option maxHeartbeats 1000000 in
/-- The body at a point whose second coordinate is not zero: the slab's rows `[w, w + 2056)` are read, added to and
    stored; the rest stays. -/
theorem sound_kernel1_B (c : Dev nD) (E : Set ℕ) (i : grid1.Coords) (arg2 : Memref sig .tc .smem S172 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole) (hc0 : ¬cond1 i)
    (q : PosShare TreeShare) (xt : Buf (Elt F) (arg2.view.loc (c : Thread nD τ))) (hchk : k1_chk1 (word1 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab1 false (word1 c i arg2 xt) hchk tb vb prev) ∗ (arg2.view.loc (c : Thread nD τ) ↦{q} xt)) -∗ K ⟨⟩))
      ⊢ wp frame (wpE (defs₀ (F := F)) Variants.none c none) E (cc1__segsum_kernel i arg2 harg2 arg3 harg3 arg4 harg4 arg5 harg5) K := by
  simp only [cc1__segsum_kernel_eq_skeleton]; unfold cc1__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab1_false, Seg.read_writes_cons_overlay, View.writes_nil, harg5.read_unread]
    sl_unfold_words
    simp only [View.readAt_eq_ld, harg3.read_unread, harg4.read_unread, harg5.read_unread]
    rw [View.ld_unit_zero (S := S1x2048) Seg.hz2, View.ld_unit_zero (S := S2048x64) Seg.hz2]
    rfl
  iexact HT

/-- The body at any point: from the windows' staging buffers held whole (the values, the segment ids, the slab at
    `prev`) and any share of the table, under the side condition of the table word it reads, it leaves the slab at
    `slab1` and everything else as it was. -/
theorem sound_kernel1 (c : Dev nD) (E : Set ℕ) (i : grid1.Coords) (arg2 : Memref sig .tc .smem S172 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole)
    (q : PosShare TreeShare) (xt : Buf (Elt F) (arg2.view.loc (c : Thread nD τ))) (hchk : k1_chk1 (word1 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab1 (decide ((i 1).val = 0)) (word1 c i arg2 xt) hchk tb vb prev) ∗ (arg2.view.loc (c : Thread nD τ) ↦{q} xt)) -∗ K ⟨⟩))
      ⊢ wp frame (wpE (defs₀ (F := F)) Variants.none c none) E (cc1__segsum_kernel i arg2 harg2 arg3 harg3 arg4 harg4 arg5 harg5) K := by
  by_cases h : cond1 i
  · have hd : decide ((i 1).val = 0) = true := decide_eq_true ((cond1_iff i).1 h)
    rw [hd]
    exact sound_kernel1_A c E i arg2 harg2 arg3 harg3 arg4 harg4 arg5 harg5 h q xt hchk vb tb prev K
  · have hd : decide ((i 1).val = 0) = false := decide_eq_false (fun e => h ((cond1_iff i).2 e))
    rw [hd]
    exact sound_kernel1_B c E i arg2 harg2 arg3 harg3 arg4 harg4 arg5 harg5 h q xt hchk vb tb prev K

end Cert.Kernel.Hand

end
-- ==== Proof.K.SegDat1.lean ====
/- The proof data and the body obligation of segment-sum call 1 (grid (2, 86), 172 points): its output slab is
   carried in one staging buffer across the 86 points of a row of the grid and written back when the row ends. -/
import proofs.«402757_j20469814133395_4_alg».proof.Proof.Gen.Kernel.Launch
import proofs.«402757_j20469814133395_4_alg».proof.Proof.Gen.Kernel.Skeleton
import proofs.«402757_j20469814133395_4_alg».proof.Proof.Gen.Kernel.Points
import proofs.«402757_j20469814133395_4_alg».proof.Proof.K.SegRun1
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table of window starts, as the body is handed it -/

/-- The table's buffer as a memref: the whole buffer. -/
abbrev tbM1 : Memref sig .tc .smem S172 .i32 := Memref.whole main_v63
abbrev htbM1 : tbM1.IsWhole := Memref.isWhole_whole _

/-- At a row's first point the slab is reset before it is read: what the buffer held does not matter. -/
theorem slab1_reset (w : BitVec 32) (hchk : k1_chk1 w) (tb : Vec F S1x2048 .i32) (vb : Vec F S2048x64 .bf16) (prev prev' : Vec F S1x50000x64 .f32) :
    slab1 true w hchk tb vb prev = slab1 true w hchk tb vb prev' := by
  rw [slab1_true, slab1_true]

/-! ## The schedule of the grid: (p, j) = (t / 86, t % 86); the slab is written back when a row ends -/

theorem coords1_0 : ∀ t : Fin grid1.N, ((grid1.coords t) 0).val = t.val / 86 := by decide +kernel
theorem coords1_1 : ∀ t : Fin grid1.N, ((grid1.coords t) 1).val = t.val % 86 := by decide +kernel

section Data

variable (V : (c : Dev nD) → (b : Ref sig .tc) → Buf (Elt F) ((c : Thread nD τ).loc b))
variable (a : (pcfg1 (F := F)).Adm)

/-- The slab window is written back at the last point of each row, at any contents of the table (its index map reads none). -/
theorem flush1_2 : ∀ t : Fin (cfg1 a).N, ((cfg1 a).win 2).flush t = true ↔ t.val % 86 = 85 :=
  (by decide +kernel : ∀ t : Fin grid1.N, Pipeline.Window.flushOf grid1 true cc1_transform_2 t = true ↔ t.val % 86 = 85)

/-- The current staging memref of each window at point t. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)

/-- The kernel body at point t, on what the pipeline calls it with. -/
abbrev bodyAt1 (t : Fin (cfg1 a).N) : Prog (TpuEff nD τ sig (Elt F) Λ₀ .tc) PUnit :=
  cc1__segsum_kernel (grid1.coords t) (Memref.whole main_v63) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2))

/-- The table's contents, as the buffer's on core c. -/
abbrev tbl1 (c : Dev nD) : Buf (Elt F) (tbM1.view.loc (c : Thread nD τ)) := a.1 0

/-- The tables the region holds are the one table, at its contents. -/
theorem prefHeld1_eq (c : Dev nD) (q : PosShare TreeShare) :
    (Pipeline.prefHeld (Ix := Unit) (Name := ℕ) (U := UR sig nD τ) (Lvl := ℕ) pre1 c (fun _ => q) a.1 : sProp 𝕄)
      = (tbM1.view.loc (c : Thread nD τ) ↦{q} tbl1 a c) := by
  unfold Pipeline.prefHeld
  rw [show (Finset.univ : Finset (Fin 1)) = {(0 : Fin 1)} from by decide, bigSep_singleton]
  rfl

/-- Window w's block at point t, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- An input window's current staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

variable (htbl : ∀ (c : Dev nD) (i : grid1.Coords), k1_chk1 (word1 c i tbM1 (tbl1 a c)))

/-- One point's step on the slab: the body at point t from the slab prev. -/
def stepAt1 (c : Dev nD) (t : Fin (cfg1 a).N) (prev : Vec F S1x50000x64 .f32) : Vec F S1x50000x64 .f32 :=
  slab1 (decide (((grid1.coords t) 1).val = 0)) (word1 c (grid1.coords t) tbM1 (tbl1 a c)) (htbl c (grid1.coords t))
    (iblk1 V a c 1 t) (iblk1 V a c 0 t) prev

/-- THE ACCUMULATION. What the slab's staging buffer holds after the body at position n: the step at n over what
    the position before left (at a row's first point the step resets the slab, so what it starts from does not matter). -/
def outsAt1 (c : Dev nD) : (n : ℕ) → n < (cfg1 a).N → Vec F S1x50000x64 .f32
  | 0, hn => stepAt1 V a htbl c ⟨0, hn⟩ k1_pay1
  | n + 1, hn => stepAt1 V a htbl c ⟨n + 1, hn⟩ (outsAt1 c n (Nat.lt_of_succ_lt hn))

/-- The accumulation at a point, over any slab that is what the point before left — or over anything at a row's first point. -/
theorem outsAt1_eq (c : Dev nD) (t : Fin (cfg1 a).N) (prev : Vec F S1x50000x64 .f32)
    (h : t.val % 86 = 0 ∨ ∃ ht : t.val ≠ 0, prev = outsAt1 V a htbl c (t.val - 1) (Nat.lt_of_le_of_lt (Nat.sub_le _ _) t.isLt)) :
    outsAt1 V a htbl c t.val t.isLt = stepAt1 V a htbl c t prev := by
  obtain ⟨n, hn⟩ := t
  rcases h with h0 | ⟨ht, rfl⟩
  · have hd : decide (((grid1.coords ⟨n, hn⟩) 1).val = 0) = true := decide_eq_true (by rw [coords1_1]; exact h0)
    cases n with
    | zero => unfold outsAt1 stepAt1; rw [hd]; exact slab1_reset _ _ _ _ _ _
    | succ n => unfold outsAt1 stepAt1; rw [hd]; exact slab1_reset _ _ _ _ _ _
  · cases n with
    | zero => exact absurd rfl ht
    | succ n => rfl

/-! ## The pipeline's proof data -/

/-- The proof data of the pipeline on core c, at the region-entry contents V and the table's contents a: the arrays as the
    region finds them; after the body at point t each input's buffer at its block and the slab's at the accumulation; the
    invariant the scoped rest, the generator register and the table held whole; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => outsAt1 V a htbl c t.val t.isLt
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a htbl c).A w = V c (Pipeline.arrRef spec1 w) := by
  dsimp only [dat1]

theorem after1_0 (c : Dev nD) (t : Fin (cfg1 a).N) : (dat1 V a htbl c).after 0 t = iblk1 V a c 0 t := by dsimp only [dat1]; try rfl
theorem after1_1 (c : Dev nD) (t : Fin (cfg1 a).N) : (dat1 V a htbl c).after 1 t = iblk1 V a c 1 t := by dsimp only [dat1]; try rfl
theorem after1_2 (c : Dev nD) (t : Fin (cfg1 a).N) : (dat1 V a htbl c).after 2 t = outsAt1 V a htbl c t.val t.isLt := by dsimp only [dat1]; try rfl

theorem Phi1_eq (c : Dev nD) (n : Fin ((cfg1 a).N + 1)) :
    (dat1 V a htbl c).Φ n = iprop(Pipeline.ΦA spec1 c ∗ (tbM1.view.loc (c : Thread nD τ) ↦{fullShare} tbl1 a c)) := by
  rw [← prefHeld1_eq a c fullShare]; rfl

theorem before1_0 (c : Dev nD) (t : Fin (cfg1 a).N) (d) : (dat1 V a htbl c).before 0 t d = iblk1 V a c 0 t :=
  before1_0_of V a (dat1 V a htbl c) (A_eq1 V a htbl c 0) (after1_0 V a htbl c) t d
theorem before1_1 (c : Dev nD) (t : Fin (cfg1 a).N) (d) : (dat1 V a htbl c).before 1 t d = iblk1 V a c 1 t :=
  before1_1_of V a (dat1 V a htbl c) (A_eq1 V a htbl c 1) (after1_1 V a htbl c) t d

/-- Inside a row the slab's staging buffer holds what the body left at the point before: the point is not the first,
    the buffer was not written back between, the window is never idle and never cut. -/
theorem before1_2_kept (c : Dev nD) (t : Fin (cfg1 a).N) (h0 : ¬t.val % 86 = 0) (d) :
    (dat1 V a htbl c).before 2 t d = outsAt1 V a htbl c (t.val - 1) (Nat.lt_of_le_of_lt (Nat.sub_le _ _) t.isLt) := by
  have hN : t.val < 172 := lt_of_lt_of_eq t.isLt (show (cfg1 a).N = 172 from N_1)
  rw [Dat.before_out_kept _ 2 rfl t (by omega) (Bool.eq_false_iff.mpr fun h => by have := (flush1_2 a _).mp h; dsimp only at this; omega)
    (fun _ => rfl) (fun _ _ => rfl)]
  exact after1_2 V a htbl c _

/-! ## The body obligation, at a generic point -/

def bodyPre1 (c : Dev nD) (t : Fin (cfg1 a).N) : sProp 𝕄 :=
  iprop((dat1 V a htbl c).Φ t.castSucc ∗ (dat1 V a htbl c).owesAt () t.castSucc
    ∗ (∃ d, owns (c : Thread nD τ) (st1_0 a t) fullShare ((dat1 V a htbl c).before 0 t d))
    ∗ (∃ d, owns (c : Thread nD τ) (st1_1 a t) fullShare ((dat1 V a htbl c).before 1 t d))
    ∗ (∃ d, owns (c : Thread nD τ) (st1_2 a t) fullShare ((dat1 V a htbl c).before 2 t d)))

def bodyPost1 (c : Dev nD) (t : Fin (cfg1 a).N) : sProp 𝕄 :=
  iprop((dat1 V a htbl c).Φ t.succ ∗ (dat1 V a htbl c).owesAt () t.succ
    ∗ owns (c : Thread nD τ) (st1_0 a t) fullShare ((dat1 V a htbl c).after 0 t)
    ∗ owns (c : Thread nD τ) (st1_1 a t) fullShare ((dat1 V a htbl c).after 1 t)
    ∗ owns (c : Thread nD τ) (st1_2 a t) fullShare ((dat1 V a htbl c).after 2 t))

set_option maxHeartbeats 800000 in
/-- The body at any point: the inputs' memrefs hold their blocks; inside a row the slab's holds what the point before left,
    at a row's first point anything (the body resets it); so the body's run applies, the table lent from the invariant and
    taken back; the core owes nothing throughout. -/
theorem sound_body1 (c : Dev nD) (t : Fin (cfg1 a).N) :
    bodyPre1 V a htbl c t ⊢ wp frame (wpE (defs₀ (F := F)) Variants.none c none) Set.univ (bodyAt1 a t) (fun _ => bodyPost1 V a htbl c t) := by
  unfold bodyPre1 bodyPost1 bodyAt1
  simp only [before1_0, before1_1]
  rw [show (dat1 V a htbl c).owesAt () t.succ = (dat1 V a htbl c).owesAt () t.castSucc from rfl,
    after1_0, after1_1, after1_2, Phi1_eq, Phi1_eq]
  iintro ⟨⟨HΦ, HT⟩, Ho, ⟨%d0, H0⟩, ⟨%d1, H1⟩, ⟨%d2, H2⟩⟩
  have hstep : outsAt1 V a htbl c t.val t.isLt = stepAt1 V a htbl c t ((dat1 V a htbl c).before 2 t d2) := by
    refine outsAt1_eq V a htbl c t _ ?_
    by_cases h0 : t.val % 86 = 0
    · exact .inl h0
    · exact .inr ⟨fun h => h0 (by rw [h]), before1_2_kept V a htbl c t h0 d2⟩
  rw [hstep]; unfold stepAt1
  iapply (sound_kernel1 c Set.univ (grid1.coords t) tbM1 htbM1 _ _ _ _ _ _ fullShare (tbl1 a c) (htbl c (grid1.coords t))
    (iblk1 V a c 0 t) (iblk1 V a c 1 t) ((dat1 V a htbl c).before 2 t d2) _)
  isplitl [H0]; · iexact H0
  isplitl [H1]; · iexact H1
  isplitl [H2]; · iexact H2
  isplitl [HT]; · iexact HT
  iintro ⟨H0, H1, H2, HT⟩
  isplitl [HΦ HT]
  · isplitl [HΦ]; · iexact HΦ
    iexact HT
  isplitl [Ho]; · iexact Ho
  isplitl [H0]; · iexact H0
  isplitl [H1]; · iexact H1
  iexact H2

/-- The library's body obligation, at every point. -/
theorem body_obligation1 (c : Dev nD) : BodyObligation (dat1 (F := F) V a htbl c) (defs₀ (F := F)) Variants.none () Set.univ := fun t => by
  rw [bigSep_W1, bigSep_W1]
  exact sound_body1 V a htbl c t

/-- The word the body reads through the table's memref is one of the table's words: a condition on every word of the
    table gives the condition at every point. -/
theorem htbl1_of (a : (pcfg1 (F := F)).Adm) (h : ∀ k : S172.Idx, k1_chk1 ((a.1 0 : S172.Idx → BitVec 32) k)) :
    ∀ (c : Dev nD) (i : grid1.Coords), k1_chk1 (word1 c i tbM1 (tbl1 a c)) :=
  fun c i => h ((Rect.unit (s := S172) (k1_off1 i) S1.size (k1_off1_inb i)).emb (Shape.Idx.first (numel1_S1.symm ▸ Nat.one_pos)))

/-- The word read at grid point i is the table's element at 86 * i 0 + i 1. -/
theorem word1_eq (c : Dev nD) (i : grid1.Coords) (f : Buf (Elt F) (tbM1.view.loc (c : Thread nD τ))) (x : S172.Idx)
    (hx : (x 0).val = 86 * (i 0).val + (i 1).val) : word1 c i tbM1 f = (f : S172.Idx → BitVec 32) x := by
  show (f : S172.Idx → BitVec 32) ((Rect.unit (s := S172) (k1_off1 i) S1.size (k1_off1_inb i)).emb (Shape.Idx.first (numel1_S1.symm ▸ Nat.one_pos))) = _
  refine congrArg _ (funext fun b => Fin.ext ?_)
  obtain rfl : b = 0 := Subsingleton.elim _ _
  rw [Rect.emb_apply, hx]
  show k1_off1 i 0 + 1 * 0 = _
  rw [k1_off1_eq]; rfl

end Data

end Cert.Kernel.Hand

end
-- ==== Proof.K.SegRun2.lean ====
/- The body of segment-sum launch 2 run once per control case: at a grid point whose second coordinate is zero the
   slab is first stored zero; in both cases the rows `[w, w + 2056)` of the slab (`w` the table word of the point)
   are replaced by themselves plus the product of the one-hot matrix of the segment ids with the values. `slab2`
   names what is left; `sound_kernel2` is the body's triple at any point. -/
import proofs.«402757_j20469814133395_4_alg».proof.Proof.Gen.Kernel.Launch
import proofs.«402757_j20469814133395_4_alg».proof.Proof.Gen.Kernel.Skeleton
import proofs.«402757_j20469814133395_4_alg».proof.Proof.Gen.Kernel.Points
import proofs.«402757_j20469814133395_4_alg».proof.Proof.K.SegRunCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the second coordinate is zero. -/
abbrev cond2 (i : grid2.Coords) : Prop := (Scalar.cmpi .ne (Scalar.extui (Scalar.cmpi .eq (BitVec.ofNat 32 (i 1).val) 0#32)) 0#32) = 1#1

theorem cond2_iff : ∀ i : grid2.Coords, cond2 i ↔ (i 1).val = 0 := fun i =>
  Seg.cond_iff _ (Nat.lt_trans (show (i 1).val < 452 from (i 1).isLt) (by decide))

/-- The table word the body reads at point `i` — the first row of the slab's rows it adds to —, through the table's
    memref at its held contents. -/
abbrev word2 (c : Dev nD) (i : grid2.Coords) (arg2 : Memref sig .tc .smem S904 .i32) (xt : Buf (Elt F) (arg2.view.loc (c : Thread nD τ))) : Elt F .i32 :=
  arg2.view.readAt (Elt F) (Rect.unit (s := S904) (k2_off1 i) S1.size (k2_off1_inb i)).toLoadRect xt (Shape.Idx.first (numel1_S1.symm ▸ Nat.one_pos))

/-- The rows `[w, w + 2056)` of the slab. -/
abbrev rect2 (w : BitVec 32) (hchk : k2_chk1 w) : Rect S1x50000x64 := Rect.unit (s := S1x50000x64) (k2_off2 w) S1x2056x64.size (k2_off2_inb w hchk)

/-- What the body leaves in the slab: the slab as it was (all zero when the second coordinate is zero), its rows
    `[w, w + 2056)` replaced by themselves plus the product of the one-hot matrix of the segment ids (row `r`, column
    `k`: is id `k` equal to `w + r`) with the values. -/
def slab2 (j0 : Bool) (w : BitVec 32) (hchk : k2_chk1 w) (tb : Vec F S1x2048 .i32) (vb : Vec F S2048x64 .bf16) (prev : Vec F S1x50000x64 .f32) : Vec F S1x50000x64 .f32 :=
  let base : Vec F S1x50000x64 .f32 := if j0 then k2_pay1 else prev
  (rect2 w hchk).overlay base (k2_pay2 w tb vb (View.ld base (rect2 w hchk)))

/-- The slab left at a point whose second coordinate is zero does not depend on what it held. -/
theorem slab2_true (w : BitVec 32) (hchk : k2_chk1 w) (tb : Vec F S1x2048 .i32) (vb : Vec F S2048x64 .bf16) (prev : Vec F S1x50000x64 .f32) :
    slab2 true w hchk tb vb prev = (rect2 w hchk).overlay k2_pay1 (k2_pay2 w tb vb (View.ld k2_pay1 (rect2 w hchk))) := by
  unfold slab2; rw [if_pos rfl]

theorem slab2_false (w : BitVec 32) (hchk : k2_chk1 w) (tb : Vec F S1x2048 .i32) (vb : Vec F S2048x64 .bf16) (prev : Vec F S1x50000x64 .f32) :
    slab2 false w hchk tb vb prev = (rect2 w hchk).overlay prev (k2_pay2 w tb vb (View.ld prev (rect2 w hchk))) := by
  unfold slab2; rw [if_neg Bool.false_ne_true]

set_option maxHeartbeats 1000000 in
/-- The body at a point whose second coordinate is zero: the slab is zeroed, then its rows `[w, w + 2056)` are read
    back, added to and stored. -/
theorem sound_kernel2_A (c : Dev nD) (E : Set ℕ) (i : grid2.Coords) (arg2 : Memref sig .tc .smem S904 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole) (hc0 : cond2 i)
    (q : PosShare TreeShare) (xt : Buf (Elt F) (arg2.view.loc (c : Thread nD τ))) (hchk : k2_chk1 (word2 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab2 true (word2 c i arg2 xt) hchk tb vb prev) ∗ (arg2.view.loc (c : Thread nD τ) ↦{q} xt)) -∗ K ⟨⟩))
      ⊢ wp frame (wpE (defs₀ (F := F)) Variants.none c none) E (cc2__segsum_kernel i arg2 harg2 arg3 harg3 arg4 harg4 arg5 harg5) K := by
  simp only [cc2__segsum_kernel_eq_skeleton]; unfold cc2__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab2_true, Seg.read_writes_cons_overlay]
    sl_unfold_words
    simp only [View.readAt_eq_ld, harg3.read_unread, harg4.read_unread, Seg.read_writes_unit_zero (S := S1x50000x64) _ _ Seg.hz3]
    rw [View.ld_unit_zero (S := S1x2048) Seg.hz2, View.ld_unit_zero (S := S2048x64) Seg.hz2]
    rfl
  iexact HT

set_option maxHeartbeats 1000000 in
/-- The body at a point whose second coordinate is not zero: the slab's rows `[w, w + 2056)` are read, added to and
    stored; the rest stays. -/
theorem sound_kernel2_B (c : Dev nD) (E : Set ℕ) (i : grid2.Coords) (arg2 : Memref sig .tc .smem S904 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole) (hc0 : ¬cond2 i)
    (q : PosShare TreeShare) (xt : Buf (Elt F) (arg2.view.loc (c : Thread nD τ))) (hchk : k2_chk1 (word2 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab2 false (word2 c i arg2 xt) hchk tb vb prev) ∗ (arg2.view.loc (c : Thread nD τ) ↦{q} xt)) -∗ K ⟨⟩))
      ⊢ wp frame (wpE (defs₀ (F := F)) Variants.none c none) E (cc2__segsum_kernel i arg2 harg2 arg3 harg3 arg4 harg4 arg5 harg5) K := by
  simp only [cc2__segsum_kernel_eq_skeleton]; unfold cc2__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab2_false, Seg.read_writes_cons_overlay, View.writes_nil, harg5.read_unread]
    sl_unfold_words
    simp only [View.readAt_eq_ld, harg3.read_unread, harg4.read_unread, harg5.read_unread]
    rw [View.ld_unit_zero (S := S1x2048) Seg.hz2, View.ld_unit_zero (S := S2048x64) Seg.hz2]
    rfl
  iexact HT

/-- The body at any point: from the windows' staging buffers held whole (the values, the segment ids, the slab at
    `prev`) and any share of the table, under the side condition of the table word it reads, it leaves the slab at
    `slab2` and everything else as it was. -/
theorem sound_kernel2 (c : Dev nD) (E : Set ℕ) (i : grid2.Coords) (arg2 : Memref sig .tc .smem S904 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole)
    (q : PosShare TreeShare) (xt : Buf (Elt F) (arg2.view.loc (c : Thread nD τ))) (hchk : k2_chk1 (word2 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab2 (decide ((i 1).val = 0)) (word2 c i arg2 xt) hchk tb vb prev) ∗ (arg2.view.loc (c : Thread nD τ) ↦{q} xt)) -∗ K ⟨⟩))
      ⊢ wp frame (wpE (defs₀ (F := F)) Variants.none c none) E (cc2__segsum_kernel i arg2 harg2 arg3 harg3 arg4 harg4 arg5 harg5) K := by
  by_cases h : cond2 i
  · have hd : decide ((i 1).val = 0) = true := decide_eq_true ((cond2_iff i).1 h)
    rw [hd]
    exact sound_kernel2_A c E i arg2 harg2 arg3 harg3 arg4 harg4 arg5 harg5 h q xt hchk vb tb prev K
  · have hd : decide ((i 1).val = 0) = false := decide_eq_false (fun e => h ((cond2_iff i).2 e))
    rw [hd]
    exact sound_kernel2_B c E i arg2 harg2 arg3 harg3 arg4 harg4 arg5 harg5 h q xt hchk vb tb prev K

end Cert.Kernel.Hand

end
-- ==== Proof.K.SegDat2.lean ====
/- The proof data and the body obligation of segment-sum call 2 (grid (2, 452), 904 points): its output slab is
   carried in one staging buffer across the 452 points of a row of the grid and written back when the row ends. -/
import proofs.«402757_j20469814133395_4_alg».proof.Proof.Gen.Kernel.Launch
import proofs.«402757_j20469814133395_4_alg».proof.Proof.Gen.Kernel.Skeleton
import proofs.«402757_j20469814133395_4_alg».proof.Proof.Gen.Kernel.Points
import proofs.«402757_j20469814133395_4_alg».proof.Proof.K.SegRun2
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table of window starts, as the body is handed it -/

/-- The table's buffer as a memref: the whole buffer. -/
abbrev tbM2 : Memref sig .tc .smem S904 .i32 := Memref.whole main_v128
abbrev htbM2 : tbM2.IsWhole := Memref.isWhole_whole _

/-- At a row's first point the slab is reset before it is read: what the buffer held does not matter. -/
theorem slab2_reset (w : BitVec 32) (hchk : k2_chk1 w) (tb : Vec F S1x2048 .i32) (vb : Vec F S2048x64 .bf16) (prev prev' : Vec F S1x50000x64 .f32) :
    slab2 true w hchk tb vb prev = slab2 true w hchk tb vb prev' := by
  rw [slab2_true, slab2_true]

/-! ## The schedule of the grid: (p, j) = (t / 452, t % 452); the slab is written back when a row ends -/

theorem coords2_0 : ∀ t : Fin grid2.N, ((grid2.coords t) 0).val = t.val / 452 := by decide +kernel
theorem coords2_1 : ∀ t : Fin grid2.N, ((grid2.coords t) 1).val = t.val % 452 := by decide +kernel

section Data

variable (V : (c : Dev nD) → (b : Ref sig .tc) → Buf (Elt F) ((c : Thread nD τ).loc b))
variable (a : (pcfg2 (F := F)).Adm)

/-- The slab window is written back at the last point of each row, at any contents of the table (its index map reads none). -/
theorem flush2_2 : ∀ t : Fin (cfg2 a).N, ((cfg2 a).win 2).flush t = true ↔ t.val % 452 = 451 :=
  (by decide +kernel : ∀ t : Fin grid2.N, Pipeline.Window.flushOf grid2 true cc2_transform_2 t = true ↔ t.val % 452 = 451)

/-- The current staging memref of each window at point t. -/
abbrev st2_0 (t : Fin (cfg2 a).N) := ((cfg2 a).win 0).stage ((cfg2 a).slots t 0)
abbrev st2_1 (t : Fin (cfg2 a).N) := ((cfg2 a).win 1).stage ((cfg2 a).slots t 1)
abbrev st2_2 (t : Fin (cfg2 a).N) := ((cfg2 a).win 2).stage ((cfg2 a).slots t 2)

/-- The kernel body at point t, on what the pipeline calls it with. -/
abbrev bodyAt2 (t : Fin (cfg2 a).N) : Prog (TpuEff nD τ sig (Elt F) Λ₀ .tc) PUnit :=
  cc2__segsum_kernel (grid2.coords t) (Memref.whole main_v128) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2))

/-- The table's contents, as the buffer's on core c. -/
abbrev tbl2 (c : Dev nD) : Buf (Elt F) (tbM2.view.loc (c : Thread nD τ)) := a.1 0

/-- The tables the region holds are the one table, at its contents. -/
theorem prefHeld2_eq (c : Dev nD) (q : PosShare TreeShare) :
    (Pipeline.prefHeld (Ix := Unit) (Name := ℕ) (U := UR sig nD τ) (Lvl := ℕ) pre2 c (fun _ => q) a.1 : sProp 𝕄)
      = (tbM2.view.loc (c : Thread nD τ) ↦{q} tbl2 a c) := by
  unfold Pipeline.prefHeld
  rw [show (Finset.univ : Finset (Fin 1)) = {(0 : Fin 1)} from by decide, bigSep_singleton]
  rfl

/-- Window w's block at point t, read off its array as the region finds it. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- An input window's current staging buffer holds its block at every point, fetched there or not. -/
theorem before2_0_of {c : Dev nD} (dat : Dat τ (Elt F) Unit ℕ (UR sig nD τ) ℕ (cfg2 a) c) (hA : dat.A 0 = V c (Pipeline.arrRef spec2 0))
    (hafter : ∀ t, dat.after 0 t = iblk2 V a c 0 t) (t : Fin (cfg2 a).N) (d) : dat.before 0 t d = iblk2 V a c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ (cfg2 a) c) (hA : dat.A 1 = V c (Pipeline.arrRef spec2 1))
    (hafter : ∀ t, dat.after 1 t = iblk2 V a c 1 t) (t : Fin (cfg2 a).N) (d) : dat.before 1 t d = iblk2 V a c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

variable (htbl : ∀ (c : Dev nD) (i : grid2.Coords), k2_chk1 (word2 c i tbM2 (tbl2 a c)))

/-- One point's step on the slab: the body at point t from the slab prev. -/
def stepAt2 (c : Dev nD) (t : Fin (cfg2 a).N) (prev : Vec F S1x50000x64 .f32) : Vec F S1x50000x64 .f32 :=
  slab2 (decide (((grid2.coords t) 1).val = 0)) (word2 c (grid2.coords t) tbM2 (tbl2 a c)) (htbl c (grid2.coords t))
    (iblk2 V a c 1 t) (iblk2 V a c 0 t) prev

/-- THE ACCUMULATION. What the slab's staging buffer holds after the body at position n: the step at n over what
    the position before left (at a row's first point the step resets the slab, so what it starts from does not matter). -/
def outsAt2 (c : Dev nD) : (n : ℕ) → n < (cfg2 a).N → Vec F S1x50000x64 .f32
  | 0, hn => stepAt2 V a htbl c ⟨0, hn⟩ k2_pay1
  | n + 1, hn => stepAt2 V a htbl c ⟨n + 1, hn⟩ (outsAt2 c n (Nat.lt_of_succ_lt hn))

/-- The accumulation at a point, over any slab that is what the point before left — or over anything at a row's first point. -/
theorem outsAt2_eq (c : Dev nD) (t : Fin (cfg2 a).N) (prev : Vec F S1x50000x64 .f32)
    (h : t.val % 452 = 0 ∨ ∃ ht : t.val ≠ 0, prev = outsAt2 V a htbl c (t.val - 1) (Nat.lt_of_le_of_lt (Nat.sub_le _ _) t.isLt)) :
    outsAt2 V a htbl c t.val t.isLt = stepAt2 V a htbl c t prev := by
  obtain ⟨n, hn⟩ := t
  rcases h with h0 | ⟨ht, rfl⟩
  · have hd : decide (((grid2.coords ⟨n, hn⟩) 1).val = 0) = true := decide_eq_true (by rw [coords2_1]; exact h0)
    cases n with
    | zero => unfold outsAt2 stepAt2; rw [hd]; exact slab2_reset _ _ _ _ _ _
    | succ n => unfold outsAt2 stepAt2; rw [hd]; exact slab2_reset _ _ _ _ _ _
  · cases n with
    | zero => exact absurd rfl ht
    | succ n => rfl

/-! ## The pipeline's proof data -/

/-- The proof data of the pipeline on core c, at the region-entry contents V and the table's contents a: the arrays as the
    region finds them; after the body at point t each input's buffer at its block and the slab's at the accumulation; the
    invariant the scoped rest, the generator register and the table held whole; nothing owed; full shares. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => outsAt2 V a htbl c t.val t.isLt
  Φ _ := iprop(Pipeline.ΦA spec2 c ∗ Pipeline.prefHeld (Ix := Unit) (Name := ℕ) (U := UR sig nD τ) (Lvl := ℕ) pre2 c (fun _ => fullShare) a.1)
  q _ := fullShare
  owed _ := 0

theorem A_eq2 (c : Dev nD) (w : Fin (cfg2 a).W) : (dat2 V a htbl c).A w = V c (Pipeline.arrRef spec2 w) := by
  dsimp only [dat2]

theorem after2_0 (c : Dev nD) (t : Fin (cfg2 a).N) : (dat2 V a htbl c).after 0 t = iblk2 V a c 0 t := by dsimp only [dat2]; try rfl
theorem after2_1 (c : Dev nD) (t : Fin (cfg2 a).N) : (dat2 V a htbl c).after 1 t = iblk2 V a c 1 t := by dsimp only [dat2]; try rfl
theorem after2_2 (c : Dev nD) (t : Fin (cfg2 a).N) : (dat2 V a htbl c).after 2 t = outsAt2 V a htbl c t.val t.isLt := by dsimp only [dat2]; try rfl

theorem Phi2_eq (c : Dev nD) (n : Fin ((cfg2 a).N + 1)) :
    (dat2 V a htbl c).Φ n = iprop(Pipeline.ΦA spec2 c ∗ (tbM2.view.loc (c : Thread nD τ) ↦{fullShare} tbl2 a c)) := by
  rw [← prefHeld2_eq a c fullShare]; rfl

theorem before2_0 (c : Dev nD) (t : Fin (cfg2 a).N) (d) : (dat2 V a htbl c).before 0 t d = iblk2 V a c 0 t :=
  before2_0_of V a (dat2 V a htbl c) (A_eq2 V a htbl c 0) (after2_0 V a htbl c) t d
theorem before2_1 (c : Dev nD) (t : Fin (cfg2 a).N) (d) : (dat2 V a htbl c).before 1 t d = iblk2 V a c 1 t :=
  before2_1_of V a (dat2 V a htbl c) (A_eq2 V a htbl c 1) (after2_1 V a htbl c) t d

/-- Inside a row the slab's staging buffer holds what the body left at the point before: the point is not the first,
    the buffer was not written back between, the window is never idle and never cut. -/
theorem before2_2_kept (c : Dev nD) (t : Fin (cfg2 a).N) (h0 : ¬t.val % 452 = 0) (d) :
    (dat2 V a htbl c).before 2 t d = outsAt2 V a htbl c (t.val - 1) (Nat.lt_of_le_of_lt (Nat.sub_le _ _) t.isLt) := by
  have hN : t.val < 904 := lt_of_lt_of_eq t.isLt (show (cfg2 a).N = 904 from N_2)
  rw [Dat.before_out_kept _ 2 rfl t (by omega) (Bool.eq_false_iff.mpr fun h => by have := (flush2_2 a _).mp h; dsimp only at this; omega)
    (fun _ => rfl) (fun _ _ => rfl)]
  exact after2_2 V a htbl c _

/-! ## The body obligation, at a generic point -/

def bodyPre2 (c : Dev nD) (t : Fin (cfg2 a).N) : sProp 𝕄 :=
  iprop((dat2 V a htbl c).Φ t.castSucc ∗ (dat2 V a htbl c).owesAt () t.castSucc
    ∗ (∃ d, owns (c : Thread nD τ) (st2_0 a t) fullShare ((dat2 V a htbl c).before 0 t d))
    ∗ (∃ d, owns (c : Thread nD τ) (st2_1 a t) fullShare ((dat2 V a htbl c).before 1 t d))
    ∗ (∃ d, owns (c : Thread nD τ) (st2_2 a t) fullShare ((dat2 V a htbl c).before 2 t d)))

def bodyPost2 (c : Dev nD) (t : Fin (cfg2 a).N) : sProp 𝕄 :=
  iprop((dat2 V a htbl c).Φ t.succ ∗ (dat2 V a htbl c).owesAt () t.succ
    ∗ owns (c : Thread nD τ) (st2_0 a t) fullShare ((dat2 V a htbl c).after 0 t)
    ∗ owns (c : Thread nD τ) (st2_1 a t) fullShare ((dat2 V a htbl c).after 1 t)
    ∗ owns (c : Thread nD τ) (st2_2 a t) fullShare ((dat2 V a htbl c).after 2 t))

set_option maxHeartbeats 800000 in
/-- The body at any point: the inputs' memrefs hold their blocks; inside a row the slab's holds what the point before left,
    at a row's first point anything (the body resets it); so the body's run applies, the table lent from the invariant and
    taken back; the core owes nothing throughout. -/
theorem sound_body2 (c : Dev nD) (t : Fin (cfg2 a).N) :
    bodyPre2 V a htbl c t ⊢ wp frame (wpE (defs₀ (F := F)) Variants.none c none) Set.univ (bodyAt2 a t) (fun _ => bodyPost2 V a htbl c t) := by
  unfold bodyPre2 bodyPost2 bodyAt2
  simp only [before2_0, before2_1]
  rw [show (dat2 V a htbl c).owesAt () t.succ = (dat2 V a htbl c).owesAt () t.castSucc from rfl,
    after2_0, after2_1, after2_2, Phi2_eq, Phi2_eq]
  iintro ⟨⟨HΦ, HT⟩, Ho, ⟨%d0, H0⟩, ⟨%d1, H1⟩, ⟨%d2, H2⟩⟩
  have hstep : outsAt2 V a htbl c t.val t.isLt = stepAt2 V a htbl c t ((dat2 V a htbl c).before 2 t d2) := by
    refine outsAt2_eq V a htbl c t _ ?_
    by_cases h0 : t.val % 452 = 0
    · exact .inl h0
    · exact .inr ⟨fun h => h0 (by rw [h]), before2_2_kept V a htbl c t h0 d2⟩
  rw [hstep]; unfold stepAt2
  iapply (sound_kernel2 c Set.univ (grid2.coords t) tbM2 htbM2 _ _ _ _ _ _ fullShare (tbl2 a c) (htbl c (grid2.coords t))
    (iblk2 V a c 0 t) (iblk2 V a c 1 t) ((dat2 V a htbl c).before 2 t d2) _)
  isplitl [H0]; · iexact H0
  isplitl [H1]; · iexact H1
  isplitl [H2]; · iexact H2
  isplitl [HT]; · iexact HT
  iintro ⟨H0, H1, H2, HT⟩
  isplitl [HΦ HT]
  · isplitl [HΦ]; · iexact HΦ
    iexact HT
  isplitl [Ho]; · iexact Ho
  isplitl [H0]; · iexact H0
  isplitl [H1]; · iexact H1
  iexact H2

/-- The library's body obligation, at every point. -/
theorem body_obligation2 (c : Dev nD) : BodyObligation (dat2 (F := F) V a htbl c) (defs₀ (F := F)) Variants.none () Set.univ := fun t => by
  rw [bigSep_W2, bigSep_W2]
  exact sound_body2 V a htbl c t

/-- The word the body reads through the table's memref is one of the table's words: a condition on every word of the
    table gives the condition at every point. -/
theorem htbl2_of (a : (pcfg2 (F := F)).Adm) (h : ∀ k : S904.Idx, k2_chk1 ((a.1 0 : S904.Idx → BitVec 32) k)) :
    ∀ (c : Dev nD) (i : grid2.Coords), k2_chk1 (word2 c i tbM2 (tbl2 a c)) :=
  fun c i => h ((Rect.unit (s := S904) (k2_off1 i) S1.size (k2_off1_inb i)).emb (Shape.Idx.first (numel1_S1.symm ▸ Nat.one_pos)))

/-- The word read at grid point i is the table's element at 452 * i 0 + i 1. -/
theorem word2_eq (c : Dev nD) (i : grid2.Coords) (f : Buf (Elt F) (tbM2.view.loc (c : Thread nD τ))) (x : S904.Idx)
    (hx : (x 0).val = 452 * (i 0).val + (i 1).val) : word2 c i tbM2 f = (f : S904.Idx → BitVec 32) x := by
  show (f : S904.Idx → BitVec 32) ((Rect.unit (s := S904) (k2_off1 i) S1.size (k2_off1_inb i)).emb (Shape.Idx.first (numel1_S1.symm ▸ Nat.one_pos))) = _
  refine congrArg _ (funext fun b => Fin.ext ?_)
  obtain rfl : b = 0 := Subsingleton.elim _ _
  rw [Rect.emb_apply, hx]
  show k2_off1 i 0 + 1 * 0 = _
  rw [k2_off1_eq]; rfl

end Data

end Cert.Kernel.Hand

end
-- ==== Proof.K.SegRun4.lean ====
/- The body of segment-sum launch 4 run once per control case: at a grid point whose second coordinate is zero the
   slab is first stored zero; in both cases the rows `[w, w + 2056)` of the slab (`w` the table word of the point)
   are replaced by themselves plus the product of the one-hot matrix of the segment ids with the values. `slab4`
   names what is left; `sound_kernel4` is the body's triple at any point. -/
import proofs.«402757_j20469814133395_4_alg».proof.Proof.Gen.Kernel.Launch
import proofs.«402757_j20469814133395_4_alg».proof.Proof.Gen.Kernel.Skeleton
import proofs.«402757_j20469814133395_4_alg».proof.Proof.Gen.Kernel.Points
import proofs.«402757_j20469814133395_4_alg».proof.Proof.K.SegRunCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the second coordinate is zero. -/
abbrev cond4 (i : grid4.Coords) : Prop := (Scalar.cmpi .ne (Scalar.extui (Scalar.cmpi .eq (BitVec.ofNat 32 (i 1).val) 0#32)) 0#32) = 1#1

theorem cond4_iff : ∀ i : grid4.Coords, cond4 i ↔ (i 1).val = 0 := fun i =>
  Seg.cond_iff _ (Nat.lt_trans (show (i 1).val < 86 from (i 1).isLt) (by decide))

/-- The table word the body reads at point `i` — the first row of the slab's rows it adds to —, through the table's
    memref at its held contents. -/
abbrev word4 (c : Dev nD) (i : grid4.Coords) (arg2 : Memref sig .tc .smem S172 .i32) (xt : Buf (Elt F) (arg2.view.loc (c : Thread nD τ))) : Elt F .i32 :=
  arg2.view.readAt (Elt F) (Rect.unit (s := S172) (k4_off1 i) S1.size (k4_off1_inb i)).toLoadRect xt (Shape.Idx.first (numel1_S1.symm ▸ Nat.one_pos))

/-- The rows `[w, w + 2056)` of the slab. -/
abbrev rect4 (w : BitVec 32) (hchk : k4_chk1 w) : Rect S1x50000x16 := Rect.unit (s := S1x50000x16) (k4_off2 w) S1x2056x16.size (k4_off2_inb w hchk)

/-- What the body leaves in the slab: the slab as it was (all zero when the second coordinate is zero), its rows
    `[w, w + 2056)` replaced by themselves plus the product of the one-hot matrix of the segment ids (row `r`, column
    `k`: is id `k` equal to `w + r`) with the values. -/
def slab4 (j0 : Bool) (w : BitVec 32) (hchk : k4_chk1 w) (tb : Vec F S1x2048 .i32) (vb : Vec F S2048x16 .bf16) (prev : Vec F S1x50000x16 .f32) : Vec F S1x50000x16 .f32 :=
  let base : Vec F S1x50000x16 .f32 := if j0 then k4_pay1 else prev
  (rect4 w hchk).overlay base (k4_pay2 w tb vb (View.ld base (rect4 w hchk)))

/-- The slab left at a point whose second coordinate is zero does not depend on what it held. -/
theorem slab4_true (w : BitVec 32) (hchk : k4_chk1 w) (tb : Vec F S1x2048 .i32) (vb : Vec F S2048x16 .bf16) (prev : Vec F S1x50000x16 .f32) :
    slab4 true w hchk tb vb prev = (rect4 w hchk).overlay k4_pay1 (k4_pay2 w tb vb (View.ld k4_pay1 (rect4 w hchk))) := by
  unfold slab4; rw [if_pos rfl]

theorem slab4_false (w : BitVec 32) (hchk : k4_chk1 w) (tb : Vec F S1x2048 .i32) (vb : Vec F S2048x16 .bf16) (prev : Vec F S1x50000x16 .f32) :
    slab4 false w hchk tb vb prev = (rect4 w hchk).overlay prev (k4_pay2 w tb vb (View.ld prev (rect4 w hchk))) := by
  unfold slab4; rw [if_neg Bool.false_ne_true]

set_option maxHeartbeats 1000000 in
/-- The body at a point whose second coordinate is zero: the slab is zeroed, then its rows `[w, w + 2056)` are read
    back, added to and stored. -/
theorem sound_kernel4_A (c : Dev nD) (E : Set ℕ) (i : grid4.Coords) (arg2 : Memref sig .tc .smem S172 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole) (hc0 : cond4 i)
    (q : PosShare TreeShare) (xt : Buf (Elt F) (arg2.view.loc (c : Thread nD τ))) (hchk : k4_chk1 (word4 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab4 true (word4 c i arg2 xt) hchk tb vb prev) ∗ (arg2.view.loc (c : Thread nD τ) ↦{q} xt)) -∗ K ⟨⟩))
      ⊢ wp frame (wpE (defs₀ (F := F)) Variants.none c none) E (cc4__segsum_kernel i arg2 harg2 arg3 harg3 arg4 harg4 arg5 harg5) K := by
  simp only [cc4__segsum_kernel_eq_skeleton]; unfold cc4__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab4_true, Seg.read_writes_cons_overlay]
    sl_unfold_words
    simp only [View.readAt_eq_ld, harg3.read_unread, harg4.read_unread, Seg.read_writes_unit_zero (S := S1x50000x16) _ _ Seg.hz3]
    rw [View.ld_unit_zero (S := S1x2048) Seg.hz2, View.ld_unit_zero (S := S2048x16) Seg.hz2]
    rfl
  iexact HT

set_option maxHeartbeats 1000000 in
/-- The body at a point whose second coordinate is not zero: the slab's rows `[w, w + 2056)` are read, added to and
    stored; the rest stays. -/
theorem sound_kernel4_B (c : Dev nD) (E : Set ℕ) (i : grid4.Coords) (arg2 : Memref sig .tc .smem S172 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole) (hc0 : ¬cond4 i)
    (q : PosShare TreeShare) (xt : Buf (Elt F) (arg2.view.loc (c : Thread nD τ))) (hchk : k4_chk1 (word4 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab4 false (word4 c i arg2 xt) hchk tb vb prev) ∗ (arg2.view.loc (c : Thread nD τ) ↦{q} xt)) -∗ K ⟨⟩))
      ⊢ wp frame (wpE (defs₀ (F := F)) Variants.none c none) E (cc4__segsum_kernel i arg2 harg2 arg3 harg3 arg4 harg4 arg5 harg5) K := by
  simp only [cc4__segsum_kernel_eq_skeleton]; unfold cc4__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab4_false, Seg.read_writes_cons_overlay, View.writes_nil, harg5.read_unread]
    sl_unfold_words
    simp only [View.readAt_eq_ld, harg3.read_unread, harg4.read_unread, harg5.read_unread]
    rw [View.ld_unit_zero (S := S1x2048) Seg.hz2, View.ld_unit_zero (S := S2048x16) Seg.hz2]
    rfl
  iexact HT

/-- The body at any point: from the windows' staging buffers held whole (the values, the segment ids, the slab at
    `prev`) and any share of the table, under the side condition of the table word it reads, it leaves the slab at
    `slab4` and everything else as it was. -/
theorem sound_kernel4 (c : Dev nD) (E : Set ℕ) (i : grid4.Coords) (arg2 : Memref sig .tc .smem S172 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole)
    (q : PosShare TreeShare) (xt : Buf (Elt F) (arg2.view.loc (c : Thread nD τ))) (hchk : k4_chk1 (word4 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab4 (decide ((i 1).val = 0)) (word4 c i arg2 xt) hchk tb vb prev) ∗ (arg2.view.loc (c : Thread nD τ) ↦{q} xt)) -∗ K ⟨⟩))
      ⊢ wp frame (wpE (defs₀ (F := F)) Variants.none c none) E (cc4__segsum_kernel i arg2 harg2 arg3 harg3 arg4 harg4 arg5 harg5) K := by
  by_cases h : cond4 i
  · have hd : decide ((i 1).val = 0) = true := decide_eq_true ((cond4_iff i).1 h)
    rw [hd]
    exact sound_kernel4_A c E i arg2 harg2 arg3 harg3 arg4 harg4 arg5 harg5 h q xt hchk vb tb prev K
  · have hd : decide ((i 1).val = 0) = false := decide_eq_false (fun e => h ((cond4_iff i).2 e))
    rw [hd]
    exact sound_kernel4_B c E i arg2 harg2 arg3 harg3 arg4 harg4 arg5 harg5 h q xt hchk vb tb prev K

end Cert.Kernel.Hand

end
-- ==== Proof.K.SegDat4.lean ====
/- The proof data and the body obligation of segment-sum call 4 (grid (2, 86), 172 points): its output slab is
   carried in one staging buffer across the 86 points of a row of the grid and written back when the row ends. -/
import proofs.«402757_j20469814133395_4_alg».proof.Proof.Gen.Kernel.Launch
import proofs.«402757_j20469814133395_4_alg».proof.Proof.Gen.Kernel.Skeleton
import proofs.«402757_j20469814133395_4_alg».proof.Proof.Gen.Kernel.Points
import proofs.«402757_j20469814133395_4_alg».proof.Proof.K.SegRun4
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table of window starts, as the body is handed it -/

/-- The table's buffer as a memref: the whole buffer. -/
abbrev tbM4 : Memref sig .tc .smem S172 .i32 := Memref.whole main_v63
abbrev htbM4 : tbM4.IsWhole := Memref.isWhole_whole _

/-- At a row's first point the slab is reset before it is read: what the buffer held does not matter. -/
theorem slab4_reset (w : BitVec 32) (hchk : k4_chk1 w) (tb : Vec F S1x2048 .i32) (vb : Vec F S2048x16 .bf16) (prev prev' : Vec F S1x50000x16 .f32) :
    slab4 true w hchk tb vb prev = slab4 true w hchk tb vb prev' := by
  rw [slab4_true, slab4_true]

/-! ## The schedule of the grid: (p, j) = (t / 86, t % 86); the slab is written back when a row ends -/

theorem coords4_0 : ∀ t : Fin grid4.N, ((grid4.coords t) 0).val = t.val / 86 := by decide +kernel
theorem coords4_1 : ∀ t : Fin grid4.N, ((grid4.coords t) 1).val = t.val % 86 := by decide +kernel

section Data

variable (V : (c : Dev nD) → (b : Ref sig .tc) → Buf (Elt F) ((c : Thread nD τ).loc b))
variable (a : (pcfg4 (F := F)).Adm)

/-- The slab window is written back at the last point of each row, at any contents of the table (its index map reads none). -/
theorem flush4_2 : ∀ t : Fin (cfg4 a).N, ((cfg4 a).win 2).flush t = true ↔ t.val % 86 = 85 :=
  (by decide +kernel : ∀ t : Fin grid4.N, Pipeline.Window.flushOf grid4 true cc4_transform_2 t = true ↔ t.val % 86 = 85)

/-- The current staging memref of each window at point t. -/
abbrev st4_0 (t : Fin (cfg4 a).N) := ((cfg4 a).win 0).stage ((cfg4 a).slots t 0)
abbrev st4_1 (t : Fin (cfg4 a).N) := ((cfg4 a).win 1).stage ((cfg4 a).slots t 1)
abbrev st4_2 (t : Fin (cfg4 a).N) := ((cfg4 a).win 2).stage ((cfg4 a).slots t 2)

/-- The kernel body at point t, on what the pipeline calls it with. -/
abbrev bodyAt4 (t : Fin (cfg4 a).N) : Prog (TpuEff nD τ sig (Elt F) Λ₀ .tc) PUnit :=
  cc4__segsum_kernel (grid4.coords t) (Memref.whole main_v63) (Memref.isWhole_whole _) (spec4_0.stage ((cfg4 a).slots t 0)) (hstage4_0 (((cfg4 a).slots t 0).cast nbuf4_0)) (spec4_1.stage ((cfg4 a).slots t 1)) (hstage4_1 (((cfg4 a).slots t 1).cast nbuf4_1)) (spec4_2.stage ((cfg4 a).slots t 2)) (hstage4_2 (((cfg4 a).slots t 2).cast nbuf4_2))

/-- The table's contents, as the buffer's on core c. -/
abbrev tbl4 (c : Dev nD) : Buf (Elt F) (tbM4.view.loc (c : Thread nD τ)) := a.1 0

/-- The tables the region holds are the one table, at its contents. -/
theorem prefHeld4_eq (c : Dev nD) (q : PosShare TreeShare) :
    (Pipeline.prefHeld (Ix := Unit) (Name := ℕ) (U := UR sig nD τ) (Lvl := ℕ) pre4 c (fun _ => q) a.1 : sProp 𝕄)
      = (tbM4.view.loc (c : Thread nD τ) ↦{q} tbl4 a c) := by
  unfold Pipeline.prefHeld
  rw [show (Finset.univ : Finset (Fin 1)) = {(0 : Fin 1)} from by decide, bigSep_singleton]
  rfl

/-- Window w's block at point t, read off its array as the region finds it. -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- An input window's current staging buffer holds its block at every point, fetched there or not. -/
theorem before4_0_of {c : Dev nD} (dat : Dat τ (Elt F) Unit ℕ (UR sig nD τ) ℕ (cfg4 a) c) (hA : dat.A 0 = V c (Pipeline.arrRef spec4 0))
    (hafter : ∀ t, dat.after 0 t = iblk4 V a c 0 t) (t : Fin (cfg4 a).N) (d) : dat.before 0 t d = iblk4 V a c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ (cfg4 a) c) (hA : dat.A 1 = V c (Pipeline.arrRef spec4 1))
    (hafter : ∀ t, dat.after 1 t = iblk4 V a c 1 t) (t : Fin (cfg4 a).N) (d) : dat.before 1 t d = iblk4 V a c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

variable (htbl : ∀ (c : Dev nD) (i : grid4.Coords), k4_chk1 (word4 c i tbM4 (tbl4 a c)))

/-- One point's step on the slab: the body at point t from the slab prev. -/
def stepAt4 (c : Dev nD) (t : Fin (cfg4 a).N) (prev : Vec F S1x50000x16 .f32) : Vec F S1x50000x16 .f32 :=
  slab4 (decide (((grid4.coords t) 1).val = 0)) (word4 c (grid4.coords t) tbM4 (tbl4 a c)) (htbl c (grid4.coords t))
    (iblk4 V a c 1 t) (iblk4 V a c 0 t) prev

/-- THE ACCUMULATION. What the slab's staging buffer holds after the body at position n: the step at n over what
    the position before left (at a row's first point the step resets the slab, so what it starts from does not matter). -/
def outsAt4 (c : Dev nD) : (n : ℕ) → n < (cfg4 a).N → Vec F S1x50000x16 .f32
  | 0, hn => stepAt4 V a htbl c ⟨0, hn⟩ k4_pay1
  | n + 1, hn => stepAt4 V a htbl c ⟨n + 1, hn⟩ (outsAt4 c n (Nat.lt_of_succ_lt hn))

/-- The accumulation at a point, over any slab that is what the point before left — or over anything at a row's first point. -/
theorem outsAt4_eq (c : Dev nD) (t : Fin (cfg4 a).N) (prev : Vec F S1x50000x16 .f32)
    (h : t.val % 86 = 0 ∨ ∃ ht : t.val ≠ 0, prev = outsAt4 V a htbl c (t.val - 1) (Nat.lt_of_le_of_lt (Nat.sub_le _ _) t.isLt)) :
    outsAt4 V a htbl c t.val t.isLt = stepAt4 V a htbl c t prev := by
  obtain ⟨n, hn⟩ := t
  rcases h with h0 | ⟨ht, rfl⟩
  · have hd : decide (((grid4.coords ⟨n, hn⟩) 1).val = 0) = true := decide_eq_true (by rw [coords4_1]; exact h0)
    cases n with
    | zero => unfold outsAt4 stepAt4; rw [hd]; exact slab4_reset _ _ _ _ _ _
    | succ n => unfold outsAt4 stepAt4; rw [hd]; exact slab4_reset _ _ _ _ _ _
  · cases n with
    | zero => exact absurd rfl ht
    | succ n => rfl

/-! ## The pipeline's proof data -/

/-- The proof data of the pipeline on core c, at the region-entry contents V and the table's contents a: the arrays as the
    region finds them; after the body at point t each input's buffer at its block and the slab's at the accumulation; the
    invariant the scoped rest, the generator register and the table held whole; nothing owed; full shares. -/
def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => outsAt4 V a htbl c t.val t.isLt
  Φ _ := iprop(Pipeline.ΦA spec4 c ∗ Pipeline.prefHeld (Ix := Unit) (Name := ℕ) (U := UR sig nD τ) (Lvl := ℕ) pre4 c (fun _ => fullShare) a.1)
  q _ := fullShare
  owed _ := 0

theorem A_eq4 (c : Dev nD) (w : Fin (cfg4 a).W) : (dat4 V a htbl c).A w = V c (Pipeline.arrRef spec4 w) := by
  dsimp only [dat4]

theorem after4_0 (c : Dev nD) (t : Fin (cfg4 a).N) : (dat4 V a htbl c).after 0 t = iblk4 V a c 0 t := by dsimp only [dat4]; try rfl
theorem after4_1 (c : Dev nD) (t : Fin (cfg4 a).N) : (dat4 V a htbl c).after 1 t = iblk4 V a c 1 t := by dsimp only [dat4]; try rfl
theorem after4_2 (c : Dev nD) (t : Fin (cfg4 a).N) : (dat4 V a htbl c).after 2 t = outsAt4 V a htbl c t.val t.isLt := by dsimp only [dat4]; try rfl

theorem Phi4_eq (c : Dev nD) (n : Fin ((cfg4 a).N + 1)) :
    (dat4 V a htbl c).Φ n = iprop(Pipeline.ΦA spec4 c ∗ (tbM4.view.loc (c : Thread nD τ) ↦{fullShare} tbl4 a c)) := by
  rw [← prefHeld4_eq a c fullShare]; rfl

theorem before4_0 (c : Dev nD) (t : Fin (cfg4 a).N) (d) : (dat4 V a htbl c).before 0 t d = iblk4 V a c 0 t :=
  before4_0_of V a (dat4 V a htbl c) (A_eq4 V a htbl c 0) (after4_0 V a htbl c) t d
theorem before4_1 (c : Dev nD) (t : Fin (cfg4 a).N) (d) : (dat4 V a htbl c).before 1 t d = iblk4 V a c 1 t :=
  before4_1_of V a (dat4 V a htbl c) (A_eq4 V a htbl c 1) (after4_1 V a htbl c) t d

/-- Inside a row the slab's staging buffer holds what the body left at the point before: the point is not the first,
    the buffer was not written back between, the window is never idle and never cut. -/
theorem before4_2_kept (c : Dev nD) (t : Fin (cfg4 a).N) (h0 : ¬t.val % 86 = 0) (d) :
    (dat4 V a htbl c).before 2 t d = outsAt4 V a htbl c (t.val - 1) (Nat.lt_of_le_of_lt (Nat.sub_le _ _) t.isLt) := by
  have hN : t.val < 172 := lt_of_lt_of_eq t.isLt (show (cfg4 a).N = 172 from N_4)
  rw [Dat.before_out_kept _ 2 rfl t (by omega) (Bool.eq_false_iff.mpr fun h => by have := (flush4_2 a _).mp h; dsimp only at this; omega)
    (fun _ => rfl) (fun _ _ => rfl)]
  exact after4_2 V a htbl c _

/-! ## The body obligation, at a generic point -/

def bodyPre4 (c : Dev nD) (t : Fin (cfg4 a).N) : sProp 𝕄 :=
  iprop((dat4 V a htbl c).Φ t.castSucc ∗ (dat4 V a htbl c).owesAt () t.castSucc
    ∗ (∃ d, owns (c : Thread nD τ) (st4_0 a t) fullShare ((dat4 V a htbl c).before 0 t d))
    ∗ (∃ d, owns (c : Thread nD τ) (st4_1 a t) fullShare ((dat4 V a htbl c).before 1 t d))
    ∗ (∃ d, owns (c : Thread nD τ) (st4_2 a t) fullShare ((dat4 V a htbl c).before 2 t d)))

def bodyPost4 (c : Dev nD) (t : Fin (cfg4 a).N) : sProp 𝕄 :=
  iprop((dat4 V a htbl c).Φ t.succ ∗ (dat4 V a htbl c).owesAt () t.succ
    ∗ owns (c : Thread nD τ) (st4_0 a t) fullShare ((dat4 V a htbl c).after 0 t)
    ∗ owns (c : Thread nD τ) (st4_1 a t) fullShare ((dat4 V a htbl c).after 1 t)
    ∗ owns (c : Thread nD τ) (st4_2 a t) fullShare ((dat4 V a htbl c).after 2 t))

set_option maxHeartbeats 800000 in
/-- The body at any point: the inputs' memrefs hold their blocks; inside a row the slab's holds what the point before left,
    at a row's first point anything (the body resets it); so the body's run applies, the table lent from the invariant and
    taken back; the core owes nothing throughout. -/
theorem sound_body4 (c : Dev nD) (t : Fin (cfg4 a).N) :
    bodyPre4 V a htbl c t ⊢ wp frame (wpE (defs₀ (F := F)) Variants.none c none) Set.univ (bodyAt4 a t) (fun _ => bodyPost4 V a htbl c t) := by
  unfold bodyPre4 bodyPost4 bodyAt4
  simp only [before4_0, before4_1]
  rw [show (dat4 V a htbl c).owesAt () t.succ = (dat4 V a htbl c).owesAt () t.castSucc from rfl,
    after4_0, after4_1, after4_2, Phi4_eq, Phi4_eq]
  iintro ⟨⟨HΦ, HT⟩, Ho, ⟨%d0, H0⟩, ⟨%d1, H1⟩, ⟨%d2, H2⟩⟩
  have hstep : outsAt4 V a htbl c t.val t.isLt = stepAt4 V a htbl c t ((dat4 V a htbl c).before 2 t d2) := by
    refine outsAt4_eq V a htbl c t _ ?_
    by_cases h0 : t.val % 86 = 0
    · exact .inl h0
    · exact .inr ⟨fun h => h0 (by rw [h]), before4_2_kept V a htbl c t h0 d2⟩
  rw [hstep]; unfold stepAt4
  iapply (sound_kernel4 c Set.univ (grid4.coords t) tbM4 htbM4 _ _ _ _ _ _ fullShare (tbl4 a c) (htbl c (grid4.coords t))
    (iblk4 V a c 0 t) (iblk4 V a c 1 t) ((dat4 V a htbl c).before 2 t d2) _)
  isplitl [H0]; · iexact H0
  isplitl [H1]; · iexact H1
  isplitl [H2]; · iexact H2
  isplitl [HT]; · iexact HT
  iintro ⟨H0, H1, H2, HT⟩
  isplitl [HΦ HT]
  · isplitl [HΦ]; · iexact HΦ
    iexact HT
  isplitl [Ho]; · iexact Ho
  isplitl [H0]; · iexact H0
  isplitl [H1]; · iexact H1
  iexact H2

/-- The library's body obligation, at every point. -/
theorem body_obligation4 (c : Dev nD) : BodyObligation (dat4 (F := F) V a htbl c) (defs₀ (F := F)) Variants.none () Set.univ := fun t => by
  rw [bigSep_W4, bigSep_W4]
  exact sound_body4 V a htbl c t

/-- The word the body reads through the table's memref is one of the table's words: a condition on every word of the
    table gives the condition at every point. -/
theorem htbl4_of (a : (pcfg4 (F := F)).Adm) (h : ∀ k : S172.Idx, k4_chk1 ((a.1 0 : S172.Idx → BitVec 32) k)) :
    ∀ (c : Dev nD) (i : grid4.Coords), k4_chk1 (word4 c i tbM4 (tbl4 a c)) :=
  fun c i => h ((Rect.unit (s := S172) (k4_off1 i) S1.size (k4_off1_inb i)).emb (Shape.Idx.first (numel1_S1.symm ▸ Nat.one_pos)))

/-- The word read at grid point i is the table's element at 86 * i 0 + i 1. -/
theorem word4_eq (c : Dev nD) (i : grid4.Coords) (f : Buf (Elt F) (tbM4.view.loc (c : Thread nD τ))) (x : S172.Idx)
    (hx : (x 0).val = 86 * (i 0).val + (i 1).val) : word4 c i tbM4 f = (f : S172.Idx → BitVec 32) x := by
  show (f : S172.Idx → BitVec 32) ((Rect.unit (s := S172) (k4_off1 i) S1.size (k4_off1_inb i)).emb (Shape.Idx.first (numel1_S1.symm ▸ Nat.one_pos))) = _
  refine congrArg _ (funext fun b => Fin.ext ?_)
  obtain rfl : b = 0 := Subsingleton.elim _ _
  rw [Rect.emb_apply, hx]
  show k4_off1 i 0 + 1 * 0 = _
  rw [k4_off1_eq]; rfl

end Data

end Cert.Kernel.Hand

end
-- ==== Proof.K.SegRun5.lean ====
/- The body of segment-sum launch 5 run once per control case: at a grid point whose second coordinate is zero the
   slab is first stored zero; in both cases the rows `[w, w + 2056)` of the slab (`w` the table word of the point)
   are replaced by themselves plus the product of the one-hot matrix of the segment ids with the values. `slab5`
   names what is left; `sound_kernel5` is the body's triple at any point. -/
import proofs.«402757_j20469814133395_4_alg».proof.Proof.Gen.Kernel.Launch
import proofs.«402757_j20469814133395_4_alg».proof.Proof.Gen.Kernel.Skeleton
import proofs.«402757_j20469814133395_4_alg».proof.Proof.Gen.Kernel.Points
import proofs.«402757_j20469814133395_4_alg».proof.Proof.K.SegRunCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the second coordinate is zero. -/
abbrev cond5 (i : grid5.Coords) : Prop := (Scalar.cmpi .ne (Scalar.extui (Scalar.cmpi .eq (BitVec.ofNat 32 (i 1).val) 0#32)) 0#32) = 1#1

theorem cond5_iff : ∀ i : grid5.Coords, cond5 i ↔ (i 1).val = 0 := fun i =>
  Seg.cond_iff _ (Nat.lt_trans (show (i 1).val < 452 from (i 1).isLt) (by decide))

/-- The table word the body reads at point `i` — the first row of the slab's rows it adds to —, through the table's
    memref at its held contents. -/
abbrev word5 (c : Dev nD) (i : grid5.Coords) (arg2 : Memref sig .tc .smem S904 .i32) (xt : Buf (Elt F) (arg2.view.loc (c : Thread nD τ))) : Elt F .i32 :=
  arg2.view.readAt (Elt F) (Rect.unit (s := S904) (k5_off1 i) S1.size (k5_off1_inb i)).toLoadRect xt (Shape.Idx.first (numel1_S1.symm ▸ Nat.one_pos))

/-- The rows `[w, w + 2056)` of the slab. -/
abbrev rect5 (w : BitVec 32) (hchk : k5_chk1 w) : Rect S1x50000x16 := Rect.unit (s := S1x50000x16) (k5_off2 w) S1x2056x16.size (k5_off2_inb w hchk)

/-- What the body leaves in the slab: the slab as it was (all zero when the second coordinate is zero), its rows
    `[w, w + 2056)` replaced by themselves plus the product of the one-hot matrix of the segment ids (row `r`, column
    `k`: is id `k` equal to `w + r`) with the values. -/
def slab5 (j0 : Bool) (w : BitVec 32) (hchk : k5_chk1 w) (tb : Vec F S1x2048 .i32) (vb : Vec F S2048x16 .bf16) (prev : Vec F S1x50000x16 .f32) : Vec F S1x50000x16 .f32 :=
  let base : Vec F S1x50000x16 .f32 := if j0 then k5_pay1 else prev
  (rect5 w hchk).overlay base (k5_pay2 w tb vb (View.ld base (rect5 w hchk)))

/-- The slab left at a point whose second coordinate is zero does not depend on what it held. -/
theorem slab5_true (w : BitVec 32) (hchk : k5_chk1 w) (tb : Vec F S1x2048 .i32) (vb : Vec F S2048x16 .bf16) (prev : Vec F S1x50000x16 .f32) :
    slab5 true w hchk tb vb prev = (rect5 w hchk).overlay k5_pay1 (k5_pay2 w tb vb (View.ld k5_pay1 (rect5 w hchk))) := by
  unfold slab5; rw [if_pos rfl]

theorem slab5_false (w : BitVec 32) (hchk : k5_chk1 w) (tb : Vec F S1x2048 .i32) (vb : Vec F S2048x16 .bf16) (prev : Vec F S1x50000x16 .f32) :
    slab5 false w hchk tb vb prev = (rect5 w hchk).overlay prev (k5_pay2 w tb vb (View.ld prev (rect5 w hchk))) := by
  unfold slab5; rw [if_neg Bool.false_ne_true]

set_option maxHeartbeats 1000000 in
/-- The body at a point whose second coordinate is zero: the slab is zeroed, then its rows `[w, w + 2056)` are read
    back, added to and stored. -/
theorem sound_kernel5_A (c : Dev nD) (E : Set ℕ) (i : grid5.Coords) (arg2 : Memref sig .tc .smem S904 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole) (hc0 : cond5 i)
    (q : PosShare TreeShare) (xt : Buf (Elt F) (arg2.view.loc (c : Thread nD τ))) (hchk : k5_chk1 (word5 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab5 true (word5 c i arg2 xt) hchk tb vb prev) ∗ (arg2.view.loc (c : Thread nD τ) ↦{q} xt)) -∗ K ⟨⟩))
      ⊢ wp frame (wpE (defs₀ (F := F)) Variants.none c none) E (cc5__segsum_kernel i arg2 harg2 arg3 harg3 arg4 harg4 arg5 harg5) K := by
  simp only [cc5__segsum_kernel_eq_skeleton]; unfold cc5__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab5_true, Seg.read_writes_cons_overlay]
    sl_unfold_words
    simp only [View.readAt_eq_ld, harg3.read_unread, harg4.read_unread, Seg.read_writes_unit_zero (S := S1x50000x16) _ _ Seg.hz3]
    rw [View.ld_unit_zero (S := S1x2048) Seg.hz2, View.ld_unit_zero (S := S2048x16) Seg.hz2]
    rfl
  iexact HT

set_option maxHeartbeats 1000000 in
/-- The body at a point whose second coordinate is not zero: the slab's rows `[w, w + 2056)` are read, added to and
    stored; the rest stays. -/
theorem sound_kernel5_B (c : Dev nD) (E : Set ℕ) (i : grid5.Coords) (arg2 : Memref sig .tc .smem S904 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole) (hc0 : ¬cond5 i)
    (q : PosShare TreeShare) (xt : Buf (Elt F) (arg2.view.loc (c : Thread nD τ))) (hchk : k5_chk1 (word5 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab5 false (word5 c i arg2 xt) hchk tb vb prev) ∗ (arg2.view.loc (c : Thread nD τ) ↦{q} xt)) -∗ K ⟨⟩))
      ⊢ wp frame (wpE (defs₀ (F := F)) Variants.none c none) E (cc5__segsum_kernel i arg2 harg2 arg3 harg3 arg4 harg4 arg5 harg5) K := by
  simp only [cc5__segsum_kernel_eq_skeleton]; unfold cc5__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab5_false, Seg.read_writes_cons_overlay, View.writes_nil, harg5.read_unread]
    sl_unfold_words
    simp only [View.readAt_eq_ld, harg3.read_unread, harg4.read_unread, harg5.read_unread]
    rw [View.ld_unit_zero (S := S1x2048) Seg.hz2, View.ld_unit_zero (S := S2048x16) Seg.hz2]
    rfl
  iexact HT

/-- The body at any point: from the windows' staging buffers held whole (the values, the segment ids, the slab at
    `prev`) and any share of the table, under the side condition of the table word it reads, it leaves the slab at
    `slab5` and everything else as it was. -/
theorem sound_kernel5 (c : Dev nD) (E : Set ℕ) (i : grid5.Coords) (arg2 : Memref sig .tc .smem S904 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole)
    (q : PosShare TreeShare) (xt : Buf (Elt F) (arg2.view.loc (c : Thread nD τ))) (hchk : k5_chk1 (word5 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab5 (decide ((i 1).val = 0)) (word5 c i arg2 xt) hchk tb vb prev) ∗ (arg2.view.loc (c : Thread nD τ) ↦{q} xt)) -∗ K ⟨⟩))
      ⊢ wp frame (wpE (defs₀ (F := F)) Variants.none c none) E (cc5__segsum_kernel i arg2 harg2 arg3 harg3 arg4 harg4 arg5 harg5) K := by
  by_cases h : cond5 i
  · have hd : decide ((i 1).val = 0) = true := decide_eq_true ((cond5_iff i).1 h)
    rw [hd]
    exact sound_kernel5_A c E i arg2 harg2 arg3 harg3 arg4 harg4 arg5 harg5 h q xt hchk vb tb prev K
  · have hd : decide ((i 1).val = 0) = false := decide_eq_false (fun e => h ((cond5_iff i).2 e))
    rw [hd]
    exact sound_kernel5_B c E i arg2 harg2 arg3 harg3 arg4 harg4 arg5 harg5 h q xt hchk vb tb prev K

end Cert.Kernel.Hand

end
-- ==== Proof.K.SegDat5.lean ====
/- The proof data and the body obligation of segment-sum call 5 (grid (2, 452), 904 points): its output slab is
   carried in one staging buffer across the 452 points of a row of the grid and written back when the row ends. -/
import proofs.«402757_j20469814133395_4_alg».proof.Proof.Gen.Kernel.Launch
import proofs.«402757_j20469814133395_4_alg».proof.Proof.Gen.Kernel.Skeleton
import proofs.«402757_j20469814133395_4_alg».proof.Proof.Gen.Kernel.Points
import proofs.«402757_j20469814133395_4_alg».proof.Proof.K.SegRun5
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table of window starts, as the body is handed it -/

/-- The table's buffer as a memref: the whole buffer. -/
abbrev tbM5 : Memref sig .tc .smem S904 .i32 := Memref.whole main_v128
abbrev htbM5 : tbM5.IsWhole := Memref.isWhole_whole _

/-- At a row's first point the slab is reset before it is read: what the buffer held does not matter. -/
theorem slab5_reset (w : BitVec 32) (hchk : k5_chk1 w) (tb : Vec F S1x2048 .i32) (vb : Vec F S2048x16 .bf16) (prev prev' : Vec F S1x50000x16 .f32) :
    slab5 true w hchk tb vb prev = slab5 true w hchk tb vb prev' := by
  rw [slab5_true, slab5_true]

/-! ## The schedule of the grid: (p, j) = (t / 452, t % 452); the slab is written back when a row ends -/

theorem coords5_0 : ∀ t : Fin grid5.N, ((grid5.coords t) 0).val = t.val / 452 := by decide +kernel
theorem coords5_1 : ∀ t : Fin grid5.N, ((grid5.coords t) 1).val = t.val % 452 := by decide +kernel

section Data

variable (V : (c : Dev nD) → (b : Ref sig .tc) → Buf (Elt F) ((c : Thread nD τ).loc b))
variable (a : (pcfg5 (F := F)).Adm)

/-- The slab window is written back at the last point of each row, at any contents of the table (its index map reads none). -/
theorem flush5_2 : ∀ t : Fin (cfg5 a).N, ((cfg5 a).win 2).flush t = true ↔ t.val % 452 = 451 :=
  (by decide +kernel : ∀ t : Fin grid5.N, Pipeline.Window.flushOf grid5 true cc5_transform_2 t = true ↔ t.val % 452 = 451)

/-- The current staging memref of each window at point t. -/
abbrev st5_0 (t : Fin (cfg5 a).N) := ((cfg5 a).win 0).stage ((cfg5 a).slots t 0)
abbrev st5_1 (t : Fin (cfg5 a).N) := ((cfg5 a).win 1).stage ((cfg5 a).slots t 1)
abbrev st5_2 (t : Fin (cfg5 a).N) := ((cfg5 a).win 2).stage ((cfg5 a).slots t 2)

/-- The kernel body at point t, on what the pipeline calls it with. -/
abbrev bodyAt5 (t : Fin (cfg5 a).N) : Prog (TpuEff nD τ sig (Elt F) Λ₀ .tc) PUnit :=
  cc5__segsum_kernel (grid5.coords t) (Memref.whole main_v128) (Memref.isWhole_whole _) (spec5_0.stage ((cfg5 a).slots t 0)) (hstage5_0 (((cfg5 a).slots t 0).cast nbuf5_0)) (spec5_1.stage ((cfg5 a).slots t 1)) (hstage5_1 (((cfg5 a).slots t 1).cast nbuf5_1)) (spec5_2.stage ((cfg5 a).slots t 2)) (hstage5_2 (((cfg5 a).slots t 2).cast nbuf5_2))

/-- The table's contents, as the buffer's on core c. -/
abbrev tbl5 (c : Dev nD) : Buf (Elt F) (tbM5.view.loc (c : Thread nD τ)) := a.1 0

/-- The tables the region holds are the one table, at its contents. -/
theorem prefHeld5_eq (c : Dev nD) (q : PosShare TreeShare) :
    (Pipeline.prefHeld (Ix := Unit) (Name := ℕ) (U := UR sig nD τ) (Lvl := ℕ) pre5 c (fun _ => q) a.1 : sProp 𝕄)
      = (tbM5.view.loc (c : Thread nD τ) ↦{q} tbl5 a c) := by
  unfold Pipeline.prefHeld
  rw [show (Finset.univ : Finset (Fin 1)) = {(0 : Fin 1)} from by decide, bigSep_singleton]
  rfl

/-- Window w's block at point t, read off its array as the region finds it. -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- An input window's current staging buffer holds its block at every point, fetched there or not. -/
theorem before5_0_of {c : Dev nD} (dat : Dat τ (Elt F) Unit ℕ (UR sig nD τ) ℕ (cfg5 a) c) (hA : dat.A 0 = V c (Pipeline.arrRef spec5 0))
    (hafter : ∀ t, dat.after 0 t = iblk5 V a c 0 t) (t : Fin (cfg5 a).N) (d) : dat.before 0 t d = iblk5 V a c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ (cfg5 a) c) (hA : dat.A 1 = V c (Pipeline.arrRef spec5 1))
    (hafter : ∀ t, dat.after 1 t = iblk5 V a c 1 t) (t : Fin (cfg5 a).N) (d) : dat.before 1 t d = iblk5 V a c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

variable (htbl : ∀ (c : Dev nD) (i : grid5.Coords), k5_chk1 (word5 c i tbM5 (tbl5 a c)))

/-- One point's step on the slab: the body at point t from the slab prev. -/
def stepAt5 (c : Dev nD) (t : Fin (cfg5 a).N) (prev : Vec F S1x50000x16 .f32) : Vec F S1x50000x16 .f32 :=
  slab5 (decide (((grid5.coords t) 1).val = 0)) (word5 c (grid5.coords t) tbM5 (tbl5 a c)) (htbl c (grid5.coords t))
    (iblk5 V a c 1 t) (iblk5 V a c 0 t) prev

/-- THE ACCUMULATION. What the slab's staging buffer holds after the body at position n: the step at n over what
    the position before left (at a row's first point the step resets the slab, so what it starts from does not matter). -/
def outsAt5 (c : Dev nD) : (n : ℕ) → n < (cfg5 a).N → Vec F S1x50000x16 .f32
  | 0, hn => stepAt5 V a htbl c ⟨0, hn⟩ k5_pay1
  | n + 1, hn => stepAt5 V a htbl c ⟨n + 1, hn⟩ (outsAt5 c n (Nat.lt_of_succ_lt hn))

/-- The accumulation at a point, over any slab that is what the point before left — or over anything at a row's first point. -/
theorem outsAt5_eq (c : Dev nD) (t : Fin (cfg5 a).N) (prev : Vec F S1x50000x16 .f32)
    (h : t.val % 452 = 0 ∨ ∃ ht : t.val ≠ 0, prev = outsAt5 V a htbl c (t.val - 1) (Nat.lt_of_le_of_lt (Nat.sub_le _ _) t.isLt)) :
    outsAt5 V a htbl c t.val t.isLt = stepAt5 V a htbl c t prev := by
  obtain ⟨n, hn⟩ := t
  rcases h with h0 | ⟨ht, rfl⟩
  · have hd : decide (((grid5.coords ⟨n, hn⟩) 1).val = 0) = true := decide_eq_true (by rw [coords5_1]; exact h0)
    cases n with
    | zero => unfold outsAt5 stepAt5; rw [hd]; exact slab5_reset _ _ _ _ _ _
    | succ n => unfold outsAt5 stepAt5; rw [hd]; exact slab5_reset _ _ _ _ _ _
  · cases n with
    | zero => exact absurd rfl ht
    | succ n => rfl

/-! ## The pipeline's proof data -/

/-- The proof data of the pipeline on core c, at the region-entry contents V and the table's contents a: the arrays as the
    region finds them; after the body at point t each input's buffer at its block and the slab's at the accumulation; the
    invariant the scoped rest, the generator register and the table held whole; nothing owed; full shares. -/
def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => outsAt5 V a htbl c t.val t.isLt
  Φ _ := iprop(Pipeline.ΦA spec5 c ∗ Pipeline.prefHeld (Ix := Unit) (Name := ℕ) (U := UR sig nD τ) (Lvl := ℕ) pre5 c (fun _ => fullShare) a.1)
  q _ := fullShare
  owed _ := 0

theorem A_eq5 (c : Dev nD) (w : Fin (cfg5 a).W) : (dat5 V a htbl c).A w = V c (Pipeline.arrRef spec5 w) := by
  dsimp only [dat5]

theorem after5_0 (c : Dev nD) (t : Fin (cfg5 a).N) : (dat5 V a htbl c).after 0 t = iblk5 V a c 0 t := by dsimp only [dat5]; try rfl
theorem after5_1 (c : Dev nD) (t : Fin (cfg5 a).N) : (dat5 V a htbl c).after 1 t = iblk5 V a c 1 t := by dsimp only [dat5]; try rfl
theorem after5_2 (c : Dev nD) (t : Fin (cfg5 a).N) : (dat5 V a htbl c).after 2 t = outsAt5 V a htbl c t.val t.isLt := by dsimp only [dat5]; try rfl

theorem Phi5_eq (c : Dev nD) (n : Fin ((cfg5 a).N + 1)) :
    (dat5 V a htbl c).Φ n = iprop(Pipeline.ΦA spec5 c ∗ (tbM5.view.loc (c : Thread nD τ) ↦{fullShare} tbl5 a c)) := by
  rw [← prefHeld5_eq a c fullShare]; rfl

theorem before5_0 (c : Dev nD) (t : Fin (cfg5 a).N) (d) : (dat5 V a htbl c).before 0 t d = iblk5 V a c 0 t :=
  before5_0_of V a (dat5 V a htbl c) (A_eq5 V a htbl c 0) (after5_0 V a htbl c) t d
theorem before5_1 (c : Dev nD) (t : Fin (cfg5 a).N) (d) : (dat5 V a htbl c).before 1 t d = iblk5 V a c 1 t :=
  before5_1_of V a (dat5 V a htbl c) (A_eq5 V a htbl c 1) (after5_1 V a htbl c) t d

/-- Inside a row the slab's staging buffer holds what the body left at the point before: the point is not the first,
    the buffer was not written back between, the window is never idle and never cut. -/
theorem before5_2_kept (c : Dev nD) (t : Fin (cfg5 a).N) (h0 : ¬t.val % 452 = 0) (d) :
    (dat5 V a htbl c).before 2 t d = outsAt5 V a htbl c (t.val - 1) (Nat.lt_of_le_of_lt (Nat.sub_le _ _) t.isLt) := by
  have hN : t.val < 904 := lt_of_lt_of_eq t.isLt (show (cfg5 a).N = 904 from N_5)
  rw [Dat.before_out_kept _ 2 rfl t (by omega) (Bool.eq_false_iff.mpr fun h => by have := (flush5_2 a _).mp h; dsimp only at this; omega)
    (fun _ => rfl) (fun _ _ => rfl)]
  exact after5_2 V a htbl c _

/-! ## The body obligation, at a generic point -/

def bodyPre5 (c : Dev nD) (t : Fin (cfg5 a).N) : sProp 𝕄 :=
  iprop((dat5 V a htbl c).Φ t.castSucc ∗ (dat5 V a htbl c).owesAt () t.castSucc
    ∗ (∃ d, owns (c : Thread nD τ) (st5_0 a t) fullShare ((dat5 V a htbl c).before 0 t d))
    ∗ (∃ d, owns (c : Thread nD τ) (st5_1 a t) fullShare ((dat5 V a htbl c).before 1 t d))
    ∗ (∃ d, owns (c : Thread nD τ) (st5_2 a t) fullShare ((dat5 V a htbl c).before 2 t d)))

def bodyPost5 (c : Dev nD) (t : Fin (cfg5 a).N) : sProp 𝕄 :=
  iprop((dat5 V a htbl c).Φ t.succ ∗ (dat5 V a htbl c).owesAt () t.succ
    ∗ owns (c : Thread nD τ) (st5_0 a t) fullShare ((dat5 V a htbl c).after 0 t)
    ∗ owns (c : Thread nD τ) (st5_1 a t) fullShare ((dat5 V a htbl c).after 1 t)
    ∗ owns (c : Thread nD τ) (st5_2 a t) fullShare ((dat5 V a htbl c).after 2 t))

set_option maxHeartbeats 800000 in
/-- The body at any point: the inputs' memrefs hold their blocks; inside a row the slab's holds what the point before left,
    at a row's first point anything (the body resets it); so the body's run applies, the table lent from the invariant and
    taken back; the core owes nothing throughout. -/
theorem sound_body5 (c : Dev nD) (t : Fin (cfg5 a).N) :
    bodyPre5 V a htbl c t ⊢ wp frame (wpE (defs₀ (F := F)) Variants.none c none) Set.univ (bodyAt5 a t) (fun _ => bodyPost5 V a htbl c t) := by
  unfold bodyPre5 bodyPost5 bodyAt5
  simp only [before5_0, before5_1]
  rw [show (dat5 V a htbl c).owesAt () t.succ = (dat5 V a htbl c).owesAt () t.castSucc from rfl,
    after5_0, after5_1, after5_2, Phi5_eq, Phi5_eq]
  iintro ⟨⟨HΦ, HT⟩, Ho, ⟨%d0, H0⟩, ⟨%d1, H1⟩, ⟨%d2, H2⟩⟩
  have hstep : outsAt5 V a htbl c t.val t.isLt = stepAt5 V a htbl c t ((dat5 V a htbl c).before 2 t d2) := by
    refine outsAt5_eq V a htbl c t _ ?_
    by_cases h0 : t.val % 452 = 0
    · exact .inl h0
    · exact .inr ⟨fun h => h0 (by rw [h]), before5_2_kept V a htbl c t h0 d2⟩
  rw [hstep]; unfold stepAt5
  iapply (sound_kernel5 c Set.univ (grid5.coords t) tbM5 htbM5 _ _ _ _ _ _ fullShare (tbl5 a c) (htbl c (grid5.coords t))
    (iblk5 V a c 0 t) (iblk5 V a c 1 t) ((dat5 V a htbl c).before 2 t d2) _)
  isplitl [H0]; · iexact H0
  isplitl [H1]; · iexact H1
  isplitl [H2]; · iexact H2
  isplitl [HT]; · iexact HT
  iintro ⟨H0, H1, H2, HT⟩
  isplitl [HΦ HT]
  · isplitl [HΦ]; · iexact HΦ
    iexact HT
  isplitl [Ho]; · iexact Ho
  isplitl [H0]; · iexact H0
  isplitl [H1]; · iexact H1
  iexact H2

/-- The library's body obligation, at every point. -/
theorem body_obligation5 (c : Dev nD) : BodyObligation (dat5 (F := F) V a htbl c) (defs₀ (F := F)) Variants.none () Set.univ := fun t => by
  rw [bigSep_W5, bigSep_W5]
  exact sound_body5 V a htbl c t

/-- The word the body reads through the table's memref is one of the table's words: a condition on every word of the
    table gives the condition at every point. -/
theorem htbl5_of (a : (pcfg5 (F := F)).Adm) (h : ∀ k : S904.Idx, k5_chk1 ((a.1 0 : S904.Idx → BitVec 32) k)) :
    ∀ (c : Dev nD) (i : grid5.Coords), k5_chk1 (word5 c i tbM5 (tbl5 a c)) :=
  fun c i => h ((Rect.unit (s := S904) (k5_off1 i) S1.size (k5_off1_inb i)).emb (Shape.Idx.first (numel1_S1.symm ▸ Nat.one_pos)))

/-- The word read at grid point i is the table's element at 452 * i 0 + i 1. -/
theorem word5_eq (c : Dev nD) (i : grid5.Coords) (f : Buf (Elt F) (tbM5.view.loc (c : Thread nD τ))) (x : S904.Idx)
    (hx : (x 0).val = 452 * (i 0).val + (i 1).val) : word5 c i tbM5 f = (f : S904.Idx → BitVec 32) x := by
  show (f : S904.Idx → BitVec 32) ((Rect.unit (s := S904) (k5_off1 i) S1.size (k5_off1_inb i)).emb (Shape.Idx.first (numel1_S1.symm ▸ Nat.one_pos))) = _
  refine congrArg _ (funext fun b => Fin.ext ?_)
  obtain rfl : b = 0 := Subsingleton.elim _ _
  rw [Rect.emb_apply, hx]
  show k5_off1 i 0 + 1 * 0 = _
  rw [k5_off1_eq]; rfl

end Data

end Cert.Kernel.Hand

end
-- ==== Proof.K.Tbl.lean ====
import proofs.«402757_j20469814133395_4_alg».proof.Proof.K.RegionsP
import Idealize.ShloMosaic.Lib.StableHlo.Run

/-!
# The prefetched tables satisfy the bodies' side condition

The four segment-sum bodies read a word `w` of a prefetched table of window starts and assume that
`8 ∣ w` and `w + 2056 ≤ 50000`. Two tables serve the four calls: the 172-entry table `main_v63` (calls 1 and
4) and the 904-entry table `main_v128` (calls 2 and 5). Each is computed before the first call as

  `minimum (47944, maximum (0, q * 8))`   pointwise, signed,

`q` a vector of quotients that is never opened here. For every word `y` the signed clip of `y * 8` into
`[0, 47944]` is `0`, `47944 = 8 * 5993`, or the product itself when that is between the two — and a product by
8 modulo `2 ^ 32` is a multiple of 8 because `8 ∣ 2 ^ 32`. No operation between a table's computation and the
calls that read it writes the table's buffer, so the calls find it as computed.
-/

set_option maxRecDepth 2316

noncomputable section

namespace Cert.Kernel.Hand

open Cert.Kernel Cert.Kernel.Gen

open Idealize.ShloMosaic Idealize.ShloMosaic.TcCoe
open Idealize.SL.Sem

variable {F : FTy → Type} [FloatOps F]

/-! ## Words -/

/-- A product by 8, clipped into `[0, 47944]` by a signed maximum with 0 and then a signed minimum with 47944,
    is a multiple of 8 as a natural number and at most 47944. By cases on the two comparisons: the result is 0;
    or 47944 = 8 · 5993; or the product `p` itself with `0 ≤ p ≤ 47944` as a signed word, so that its natural
    value is its signed one, and `p.toNat = (y.toNat * 8) % 2 ^ 32` is a multiple of 8. -/
theorem clip8_dvd_le (y : BitVec 32) :
    8 ∣ (IntOp.minsi 47944#32 (IntOp.maxsi 0#32 (IntOp.muli y 8#32))).toNat ∧
      (IntOp.minsi 47944#32 (IntOp.maxsi 0#32 (IntOp.muli y 8#32))).toNat ≤ 47944 := by
  have hp : (y * 8#32).toNat = (y.toNat * 8) % 4294967296 := by
    rw [BitVec.toNat_mul]; rfl
  unfold IntOp.minsi IntOp.maxsi IntOp.muli
  by_cases h1 : (y * 8#32).slt 0#32
  · rw [if_pos h1]
    have h2 : ¬ ((47944#32).slt 0#32 = true) := by decide
    rw [if_neg h2]
    exact ⟨⟨0, rfl⟩, Nat.zero_le _⟩
  · rw [if_neg h1]
    by_cases h2 : (47944#32).slt (y * 8#32)
    · rw [if_pos h2]
      exact ⟨⟨5993, rfl⟩, Nat.le_refl _⟩
    · rw [if_neg h2]
      rw [BitVec.slt_iff_toInt_lt] at h1 h2
      have e0 : (0#32).toInt = 0 := rfl
      have e1 : (47944#32).toInt = 47944 := rfl
      rw [e0] at h1
      rw [e1] at h2
      rw [BitVec.toInt_eq_toNat_cond] at h1 h2
      have hlt : (y * 8#32).toNat < 4294967296 := (y * 8#32).isLt
      constructor
      · rw [hp]; omega
      · split at h1 <;> split at h2 <;> omega

/-- A word that is a multiple of 8 and at most 47944 = 50000 − 2056 satisfies the side condition of body 1: it
    is the multiple stated, and the slab of 2056 rows that starts at it lies inside the 50000 rows. -/
theorem k1_chk1_of (w : BitVec 32) (h8 : 8 ∣ w.toNat) (hle : w.toNat ≤ 47944) : k1_chk1 w := by
  refine ⟨h8, ?_⟩
  intro a
  match a with
  | ⟨0, _⟩ => exact Nat.le_refl 1
  | ⟨1, _⟩ =>
    show w.toNat + 2056 ≤ 50000
    omega
  | ⟨2, _⟩ => exact Nat.le_refl 64

/-- A word that is a multiple of 8 and at most 47944 = 50000 − 2056 satisfies the side condition of body 2: it
    is the multiple stated, and the slab of 2056 rows that starts at it lies inside the 50000 rows. -/
theorem k2_chk1_of (w : BitVec 32) (h8 : 8 ∣ w.toNat) (hle : w.toNat ≤ 47944) : k2_chk1 w := by
  refine ⟨h8, ?_⟩
  intro a
  match a with
  | ⟨0, _⟩ => exact Nat.le_refl 1
  | ⟨1, _⟩ =>
    show w.toNat + 2056 ≤ 50000
    omega
  | ⟨2, _⟩ => exact Nat.le_refl 64

/-- A word that is a multiple of 8 and at most 47944 = 50000 − 2056 satisfies the side condition of body 4: it
    is the multiple stated, and the slab of 2056 rows that starts at it lies inside the 50000 rows. -/
theorem k4_chk1_of (w : BitVec 32) (h8 : 8 ∣ w.toNat) (hle : w.toNat ≤ 47944) : k4_chk1 w := by
  refine ⟨h8, ?_⟩
  intro a
  match a with
  | ⟨0, _⟩ => exact Nat.le_refl 1
  | ⟨1, _⟩ =>
    show w.toNat + 2056 ≤ 50000
    omega
  | ⟨2, _⟩ => exact Nat.le_refl 16

/-- A word that is a multiple of 8 and at most 47944 = 50000 − 2056 satisfies the side condition of body 5: it
    is the multiple stated, and the slab of 2056 rows that starts at it lies inside the 50000 rows. -/
theorem k5_chk1_of (w : BitVec 32) (h8 : 8 ∣ w.toNat) (hle : w.toNat ≤ 47944) : k5_chk1 w := by
  refine ⟨h8, ?_⟩
  intro a
  match a with
  | ⟨0, _⟩ => exact Nat.le_refl 1
  | ⟨1, _⟩ =>
    show w.toNat + 2056 ≤ 50000
    omega
  | ⟨2, _⟩ => exact Nat.le_refl 16

/-! ## The tables as computed -/

/-- The six operations of the clip over S172, from any contents `W`: the table is the pointwise signed minimum of
    the broadcast upper bound with the pointwise signed maximum of the broadcast lower bound and the operand. -/
theorem clip172_read (W : Valuation τ sig (Elt F)) :
    (StableHlo.after hostOps0_13 W (Proc.devRef .tc main_v63) : S172.Idx → BitVec 32)
      = minsi (broadcastInDim S172 ![] bcast_S_S172 (W (Proc.devRef .tc main_c_19)))
          (maxsi (broadcastInDim S172 ![] bcast_S_S172 (W (Proc.devRef .tc main_c_18))) (W (Proc.devRef .tc main_v62))) := by
  after_results
  rfl

/-- The five operations before the clip, from any contents `W`: the clip's operand is the pointwise product of
    the quotient with the broadcast constant 8. -/
theorem mul172_read (W : Valuation τ sig (Elt F)) :
    (StableHlo.after hostOps0_12 W (Proc.devRef .tc main_v62) : S172.Idx → BitVec 32)
      = muli (W (Proc.devRef .tc main_v60)) (broadcastInDim S172 ![] bcast_S_S172 (constantI S_ 32 8#32)) := by
  after_results

/-- … the lower bound is the constant 0 … -/
theorem lo172_read (W : Valuation τ sig (Elt F)) :
    (StableHlo.after hostOps0_12 W (Proc.devRef .tc main_c_18) : S_.Idx → BitVec 32) = constantI S_ 32 0#32 := by
  after_results

/-- … and the upper bound the constant 47944. -/
theorem hi172_read (W : Valuation τ sig (Elt F)) :
    (StableHlo.after hostOps0_12 W (Proc.devRef .tc main_c_19) : S_.Idx → BitVec 32) = constantI S_ 32 47944#32 := by
  after_results

/-- Read at an index, the clipped product is the clip of one word's product by 8. -/
theorem clip172_at (X : S172.Idx → BitVec 32) (k : S172.Idx) :
    (minsi (broadcastInDim S172 ![] bcast_S_S172 (constantI S_ 32 47944#32))
        (maxsi (broadcastInDim S172 ![] bcast_S_S172 (constantI S_ 32 0#32)) (muli X (broadcastInDim S172 ![] bcast_S_S172 (constantI S_ 32 8#32))))) k
      = IntOp.minsi 47944#32 (IntOp.maxsi 0#32 (IntOp.muli (X k) 8#32)) := rfl

/-- The six operations of the clip over S904, from any contents `W`: the table is the pointwise signed minimum of
    the broadcast upper bound with the pointwise signed maximum of the broadcast lower bound and the operand. -/
theorem clip904_read (W : Valuation τ sig (Elt F)) :
    (StableHlo.after hostOps0_27 W (Proc.devRef .tc main_v128) : S904.Idx → BitVec 32)
      = minsi (broadcastInDim S904 ![] bcast_S_S904 (W (Proc.devRef .tc main_c_41)))
          (maxsi (broadcastInDim S904 ![] bcast_S_S904 (W (Proc.devRef .tc main_c_40))) (W (Proc.devRef .tc main_v127))) := by
  after_results
  rfl

/-- The five operations before the clip, from any contents `W`: the clip's operand is the pointwise product of
    the quotient with the broadcast constant 8. -/
theorem mul904_read (W : Valuation τ sig (Elt F)) :
    (StableHlo.after hostOps0_26 W (Proc.devRef .tc main_v127) : S904.Idx → BitVec 32)
      = muli (W (Proc.devRef .tc main_v125)) (broadcastInDim S904 ![] bcast_S_S904 (constantI S_ 32 8#32)) := by
  after_results

/-- … the lower bound is the constant 0 … -/
theorem lo904_read (W : Valuation τ sig (Elt F)) :
    (StableHlo.after hostOps0_26 W (Proc.devRef .tc main_c_40) : S_.Idx → BitVec 32) = constantI S_ 32 0#32 := by
  after_results

/-- … and the upper bound the constant 47944. -/
theorem hi904_read (W : Valuation τ sig (Elt F)) :
    (StableHlo.after hostOps0_26 W (Proc.devRef .tc main_c_41) : S_.Idx → BitVec 32) = constantI S_ 32 47944#32 := by
  after_results

/-- Read at an index, the clipped product is the clip of one word's product by 8. -/
theorem clip904_at (X : S904.Idx → BitVec 32) (k : S904.Idx) :
    (minsi (broadcastInDim S904 ![] bcast_S_S904 (constantI S_ 32 47944#32))
        (maxsi (broadcastInDim S904 ![] bcast_S_S904 (constantI S_ 32 0#32)) (muli X (broadcastInDim S904 ![] bcast_S_S904 (constantI S_ 32 8#32))))) k
      = IntOp.minsi 47944#32 (IntOp.maxsi 0#32 (IntOp.muli (X k) 8#32)) := rfl

variable (m : (ℓ : Loc nD τ sig) → Buf (Elt F) ℓ) (outs : GenP.Outs (F := F))

/-- The 172-entry table once computed: the clip of the quotients' product by 8. -/
theorem tbl63_V14 (c : Dev nD) :
    (GenP.V14 m c main_v63 : S172.Idx → BitVec 32)
      = minsi (broadcastInDim S172 ![] bcast_S_S172 (constantI S_ 32 47944#32))
          (maxsi (broadcastInDim S172 ![] bcast_S_S172 (constantI S_ 32 0#32))
            (muli (GenP.V12 m c main_v60) (broadcastInDim S172 ![] bcast_S_S172 (constantI S_ 32 8#32)))) :=
  (clip172_read (GenP.V13 m c)).trans <| by
    rw [show GenP.V13 m c (Proc.devRef .tc main_c_19) = _ from hi172_read (GenP.V12 m c),
      show GenP.V13 m c (Proc.devRef .tc main_c_18) = _ from lo172_read (GenP.V12 m c),
      show GenP.V13 m c (Proc.devRef .tc main_v62) = _ from mul172_read (GenP.V12 m c)]

/-- The 904-entry table once computed: the clip of the quotients' product by 8. -/
theorem tbl128_V28 (c : Dev nD) :
    (GenP.V28 m c main_v128 : S904.Idx → BitVec 32)
      = minsi (broadcastInDim S904 ![] bcast_S_S904 (constantI S_ 32 47944#32))
          (maxsi (broadcastInDim S904 ![] bcast_S_S904 (constantI S_ 32 0#32))
            (muli (GenP.V26 m c main_v125) (broadcastInDim S904 ![] bcast_S_S904 (constantI S_ 32 8#32)))) :=
  (clip904_read (GenP.V27 m c)).trans <| by
    rw [show GenP.V27 m c (Proc.devRef .tc main_c_41) = _ from hi904_read (GenP.V26 m c),
      show GenP.V27 m c (Proc.devRef .tc main_c_40) = _ from lo904_read (GenP.V26 m c),
      show GenP.V27 m c (Proc.devRef .tc main_v127) = _ from mul904_read (GenP.V26 m c)]

/-! ## The tables as the calls find them -/

/-- Nothing between its computation and call 1 writes the 172-entry table. -/
theorem tbl63_V32 (c : Dev nD) : GenP.V32 m outs c main_v63 = GenP.V14 m c main_v63 :=
  (GenP.V32_of m outs c main_v63 (by decide)).trans <|
    (GenP.V31_of m outs c main_v63 (by decide)).trans <|
    (GenP.V30_of m outs c main_v63 (by decide)).trans <|
    (GenP.V29_of m c main_v63 (by decide)).trans <|
    (GenP.V28_of m c main_v63 (by decide)).trans <|
    (GenP.V27_of m c main_v63 (by decide)).trans <|
    (GenP.V26_of m c main_v63 (by decide)).trans <|
    (GenP.V25_of m c main_v63 (by decide)).trans <|
    (GenP.V24_of m c main_v63 (by decide)).trans <|
    (GenP.V23_of m c main_v63 (by decide)).trans <|
    (GenP.V22_of m c main_v63 (by decide)).trans <|
    (GenP.V21_of m c main_v63 (by decide)).trans <|
    (GenP.V20_of m c main_v63 (by decide)).trans <|
    (GenP.V19_of m c main_v63 (by decide)).trans <|
    (GenP.V18_of m c main_v63 (by decide)).trans <|
    (GenP.V17_of m c main_v63 (by decide)).trans <|
    (GenP.V16_of m c main_v63 (by decide)).trans <|
    (GenP.V15_of m c main_v63 (by decide)).trans rfl

/-- Nor anything between call 1 and call 4. -/
theorem tbl63_V43 (c : Dev nD) : GenP.V43 m outs c main_v63 = GenP.V32 m outs c main_v63 :=
  (GenP.V43_of m outs c main_v63 (by decide)).trans <|
    (GenP.V42_of m outs c main_v63 (by decide)).trans <|
    (GenP.V41_of m outs c main_v63 (by decide)).trans <|
    (GenP.V40_of m outs c main_v63 (by decide)).trans <|
    (GenP.V39_of m outs c main_v63 (by decide)).trans <|
    (GenP.V38_of m outs c main_v63 (by decide)).trans <|
    (GenP.V37_of m outs c main_v63 (by decide)).trans <|
    (GenP.V36_of m outs c main_v63 (by decide)).trans <|
    (GenP.V35_of m outs c main_v63 (by decide)).trans <|
    (GenP.V34_of m outs c main_v63 (by decide)).trans <|
    (GenP.V33_of m outs c main_v63 (by decide)).trans rfl

/-- Nothing between its computation and call 2 writes the 904-entry table. -/
theorem tbl128_V36 (c : Dev nD) : GenP.V36 m outs c main_v128 = GenP.V28 m c main_v128 :=
  (GenP.V36_of m outs c main_v128 (by decide)).trans <|
    (GenP.V35_of m outs c main_v128 (by decide)).trans <|
    (GenP.V34_of m outs c main_v128 (by decide)).trans <|
    (GenP.V33_of m outs c main_v128 (by decide)).trans <|
    (GenP.V32_of m outs c main_v128 (by decide)).trans <|
    (GenP.V31_of m outs c main_v128 (by decide)).trans <|
    (GenP.V30_of m outs c main_v128 (by decide)).trans <|
    (GenP.V29_of m c main_v128 (by decide)).trans rfl

/-- Nor anything between call 2 and call 5. -/
theorem tbl128_V47 (c : Dev nD) : GenP.V47 m outs c main_v128 = GenP.V36 m outs c main_v128 :=
  (GenP.V47_of m outs c main_v128 (by decide)).trans <|
    (GenP.V46_of m outs c main_v128 (by decide)).trans <|
    (GenP.V45_of m outs c main_v128 (by decide)).trans <|
    (GenP.V44_of m outs c main_v128 (by decide)).trans <|
    (GenP.V43_of m outs c main_v128 (by decide)).trans <|
    (GenP.V42_of m outs c main_v128 (by decide)).trans <|
    (GenP.V41_of m outs c main_v128 (by decide)).trans <|
    (GenP.V40_of m outs c main_v128 (by decide)).trans <|
    (GenP.V39_of m outs c main_v128 (by decide)).trans <|
    (GenP.V38_of m outs c main_v128 (by decide)).trans <|
    (GenP.V37_of m outs c main_v128 (by decide)).trans rfl

/-- Every word of the 172-entry table is a multiple of 8 and at most 47944, as computed. -/
theorem tbl63_dvd_le (c : Dev nD) (k : S172.Idx) :
    8 ∣ ((GenP.V14 m c main_v63 : S172.Idx → BitVec 32) k).toNat ∧
      ((GenP.V14 m c main_v63 : S172.Idx → BitVec 32) k).toNat ≤ 47944 := by
  rw [tbl63_V14, clip172_at]
  exact clip8_dvd_le _

/-- Every word of the 904-entry table is a multiple of 8 and at most 47944, as computed. -/
theorem tbl128_dvd_le (c : Dev nD) (k : S904.Idx) :
    8 ∣ ((GenP.V28 m c main_v128 : S904.Idx → BitVec 32) k).toNat ∧
      ((GenP.V28 m c main_v128 : S904.Idx → BitVec 32) k).toNat ≤ 47944 := by
  rw [tbl128_V28, clip904_at]
  exact clip8_dvd_le _

/-- Call 1 finds every word of its table satisfying its body's side condition. -/
theorem tbl1_chk (c : Dev nD) (k : S172.Idx) :
    k1_chk1 ((GenP.V32 m outs c main_v63 : S172.Idx → BitVec 32) k) := by
  rw [tbl63_V32]
  exact k1_chk1_of _ (tbl63_dvd_le m c k).1 (tbl63_dvd_le m c k).2

/-- Call 2 finds every word of its table satisfying its body's side condition. -/
theorem tbl2_chk (c : Dev nD) (k : S904.Idx) :
    k2_chk1 ((GenP.V36 m outs c main_v128 : S904.Idx → BitVec 32) k) := by
  rw [tbl128_V36]
  exact k2_chk1_of _ (tbl128_dvd_le m c k).1 (tbl128_dvd_le m c k).2

/-- Call 4 reads the table of call 1, unchanged. -/
theorem tbl4_chk (c : Dev nD) (k : S172.Idx) :
    k4_chk1 ((GenP.V43 m outs c main_v63 : S172.Idx → BitVec 32) k) := by
  rw [tbl63_V43, tbl63_V32]
  exact k4_chk1_of _ (tbl63_dvd_le m c k).1 (tbl63_dvd_le m c k).2

/-- Call 5 reads the table of call 2, unchanged. -/
theorem tbl5_chk (c : Dev nD) (k : S904.Idx) :
    k5_chk1 ((GenP.V47 m outs c main_v128 : S904.Idx → BitVec 32) k) := by
  rw [tbl128_V47, tbl128_V36]
  exact k5_chk1_of _ (tbl128_dvd_le m c k).1 (tbl128_dvd_le m c k).2

end Cert.Kernel.Hand
-- ==== Proof.K.Regs.lean ====
import proofs.«402757_j20469814133395_4_alg».proof.Proof.K.RegionsP
import proofs.«402757_j20469814133395_4_alg».proof.Proof.K.Mm
import proofs.«402757_j20469814133395_4_alg».proof.Proof.K.SegDat1
import proofs.«402757_j20469814133395_4_alg».proof.Proof.K.SegDat2
import proofs.«402757_j20469814133395_4_alg».proof.Proof.K.SegDat4
import proofs.«402757_j20469814133395_4_alg».proof.Proof.K.SegDat5
import proofs.«402757_j20469814133395_4_alg».proof.Proof.K.Tbl
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

/-! # The seven kernel regions of @main as segments, and the frame

Each pallas_call is entered from the core's unscoped buffers at the contents the host operations before it leave, and
left at the same contents with its output array replaced by what the pipeline's write-backs fold to. The four
segment-sum regions read a table of window starts prefetched from an unscoped buffer: the table's buffer is split out of
the unscoped rest at entry, rides through the region inside the body's invariant, and is put back at exit. -/

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed reading of the TensorCore's buffers: what a region's proof data are stated at. -/
abbrev Vals (F : FTy → Type) [FloatOps F] : Type := (c : Dev nD) → (b : Ref sig .tc) → Buf (Elt F) ((c : Thread nD τ).loc b)

/-! ## What a region's frame needs of its proof data -/

/-- The facts about pipeline `p`'s proof data `dat` (on core `c`, the tables pinned at `a`) that carry the region's frame: the
    arrays' entry contents are read off `V`; every input array is held whole; the body owes nothing and records nothing;
    the invariant at the first point is made from the generator register, the prefetched tables whole at `a p` and the scoped
    buffers no window stages, and at the last point gives the same back. -/
structure FrameDat (a : (p : Fin 7) → (pcfgs (F := F) p).Adm) (p : Fin 7) (V : Vals F) (c : Dev nD)
    (dat : Dat τ (Elt F) Unit ℕ (UR sig nD τ) ℕ (Pipeline.pin (pcfgs (F := F)) a p) c) : Prop where
  A : ∀ w, dat.A w = V c (Pipeline.arrRef (Pipeline.pin (pcfgs (F := F)) a p).spec w)
  q : ∀ w, dat.q w = fullShare
  owed : ∀ t, dat.owed t = 0
  recorded : ∀ t, dat.recorded t = Set.univ
  Φ_in : (iprop((∃ r, prngReg c r) ∗ Pipeline.prefHeld (pcfgs (F := F) p).pre c (fun _ => fullShare) (a p).1
      ∗ Pipeline.scopedRest (Pipeline.pin (pcfgs (F := F)) a p).spec c) : sProp 𝕄) ⊢ dat.Φ 0
  Φ_out : dat.Φ (Fin.last _) ⊢ (iprop(((∃ r, prngReg c r) ∗ Pipeline.prefHeld (pcfgs (F := F) p).pre c (fun _ => fullShare) (a p).1)
      ∗ Pipeline.scopedRest (Pipeline.pin (pcfgs (F := F)) a p).spec c) : sProp 𝕄)

/-- A pipeline with no prefetched table whose invariant is the class invariant `ΦA` at every point meets `FrameDat`'s two
    entailments: no table is held, so the tables' conjunct is empty. -/
theorem FrameDat.ofΦA (a : (p : Fin 7) → (pcfgs (F := F) p).Adm) (p : Fin 7) (V : Vals F) (c : Dev nD)
    (dat : Dat τ (Elt F) Unit ℕ (UR sig nD τ) ℕ (Pipeline.pin (pcfgs (F := F)) a p) c)
    (hK : (pcfgs (F := F) p).pre.K = 0)
    (hA : ∀ w, dat.A w = V c (Pipeline.arrRef (Pipeline.pin (pcfgs (F := F)) a p).spec w))
    (hq : ∀ w, dat.q w = fullShare) (howed : ∀ t, dat.owed t = 0) (hrec : ∀ t, dat.recorded t = Set.univ)
    (hΦ : ∀ t, dat.Φ t = Pipeline.ΦA (Pipeline.pin (pcfgs (F := F)) a p).spec c) : FrameDat a p V c dat where
  A := hA
  q := hq
  owed := howed
  recorded := hrec
  Φ_in := by
    rw [hΦ]; unfold Pipeline.ΦA
    iintro ⟨Hr, -, Hs⟩
    isplitl [Hs]; · iexact Hs
    iexact Hr
  Φ_out := by
    have hemp : (Pipeline.prefHeld (Ix := Unit) (Name := ℕ) (U := UR sig nD τ) (Lvl := ℕ) (pcfgs (F := F) p).pre c (fun _ => fullShare) (a p).1 : sProp 𝕄) = BI.emp := by
      unfold Pipeline.prefHeld
      haveI : IsEmpty (Fin (pcfgs (F := F) p).pre.K) := by rw [hK]; infer_instance
      rw [Finset.univ_eq_empty, BI.bigSep_empty]
    rw [hΦ, hemp]; unfold Pipeline.ΦA
    iintro ⟨Hs, Hr⟩
    isplitl [Hr]
    · isplitl [Hr]; · iexact Hr
      iempintro
    iexact Hs

/-! ## The thread state between segments -/

/-- No core owes another anything: no level is assigned. -/
abbrev Lz : GSem nD τ sig → Finset Unit := fun _ => ∅
abbrev lvz : GSem nD τ sig → Unit → ℕ := fun _ _ => 0
/-- What rides beside the buffers through every segment: the core's generator register at some state and its `owes`, at
    nothing. -/
abbrev Rst (c : Dev nD) : sProp 𝕄 := iprop((∃ r, prngReg c r) ∗ ∃ W, owes (c : Thread nD τ) (0 : CellTallies nD τ sig Unit) W)

/-- Owing nothing, within any bound, from owing nothing: the first tallies of proof data that owe nothing and bound
    nothing. -/
theorem owesAt_first {cfg : Cfg sig Λ₀} {c : Dev nD} (dat : Dat τ (Elt F) Unit ℕ (UR sig nD τ) ℕ cfg c)
    (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [h0]
  iintro ⟨%W, HO⟩; iexists W; isplitr
  · ipureintro; intro x _; unfold Pipeline.Dat.bound; rw [hr]; exact Or.inl trivial
  iexact HO

/-- and back, at the last tallies. -/
theorem owesAt_last {cfg : Cfg sig Λ₀} {c : Dev nD} (dat : Dat τ (Elt F) Unit ℕ (UR sig nD τ) ℕ cfg c)
    (h0 : dat.owed (Fin.last _) = 0) :
    dat.owesAt () (Fin.last _) ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-- A pipeline whose invariant is, at every point, the class invariant `ΦA` beside the prefetched tables held whole at `a p`
    meets `FrameDat`'s two entailments by reordering. -/
theorem FrameDat.ofΦAT (a : (p : Fin 7) → (pcfgs (F := F) p).Adm) (p : Fin 7) (V : Vals F) (c : Dev nD)
    (dat : Dat τ (Elt F) Unit ℕ (UR sig nD τ) ℕ (Pipeline.pin (pcfgs (F := F)) a p) c)
    (hA : ∀ w, dat.A w = V c (Pipeline.arrRef (Pipeline.pin (pcfgs (F := F)) a p).spec w))
    (hq : ∀ w, dat.q w = fullShare) (howed : ∀ t, dat.owed t = 0) (hrec : ∀ t, dat.recorded t = Set.univ)
    (hΦ : ∀ t, dat.Φ t = iprop(Pipeline.ΦA (Pipeline.pin (pcfgs (F := F)) a p).spec c
      ∗ Pipeline.prefHeld (pcfgs (F := F) p).pre c (fun _ => fullShare) (a p).1)) : FrameDat a p V c dat where
  A := hA
  q := hq
  owed := howed
  recorded := hrec
  Φ_in := by
    rw [hΦ]; unfold Pipeline.ΦA
    iintro ⟨Hr, Hp, Hs⟩
    isplitl [Hs Hr]
    · isplitl [Hs]; · iexact Hs
      iexact Hr
    iexact Hp
  Φ_out := by
    rw [hΦ]; unfold Pipeline.ΦA
    iintro ⟨⟨Hs, Hr⟩, Hp⟩
    isplitl [Hr Hp]
    · isplitl [Hr]; · iexact Hr
      iexact Hp
    iexact Hs

/-! ## A kernel region as a segment, for any of the seven pipelines -/

set_option backward.isDefEq.respectTransparency.types false in
/-- REGION `p` over the thread state: entered from every unscoped buffer at `Wb`, left at `Wa`, which has the pipeline's
    arrays at what the write-backs fold to (`hF`) and every other buffer as entered (`hrest`). At entry the arrays are split
    out of the unscoped buffers, and the prefetched tables (at the contents `a p`, which are those under `Wb`: `htbl`) out of
    the rest; the generator register and the tables go through the invariant and come back; at exit the tables rejoin the
    rest and the arrays are put back at the exit contents. Nothing is owed; the kernel has no semaphore of its own. -/
def reg (a : (p : Fin 7) → (pcfgs (F := F) p).Adm)
    (pdats : (p : Fin 7) → (c : Dev nD) → Dat τ (Elt F) Unit ℕ (UR sig nD τ) ℕ (Pipeline.pin (pcfgs (F := F)) a p) c)
    (p : Fin 7) (lf : Pipeline.PLaunchFacts (nD := nD) (τ := τ) (pcfgs (F := F)) p)
    (Wb Wa : Dev nD → Valuation τ sig (Elt F))
    (hfd : ∀ c, FrameDat a p (fun c b => Wb c b) c (pdats p c))
    (hbody : ∀ c, BodyObligation (pdats p c) (defs₀ (F := F)) Variants.none () Set.univ)
    (htbl : ∀ c k, (a p).1 k = Wb c ((pcfgs (F := F) p).pre.ref k))
    (hF : ∀ c w, (pdats p c).arrAt w (Pipeline.pin (pcfgs (F := F)) a p).N = Wa c (Pipeline.arrRef (Pipeline.pin (pcfgs (F := F)) a p).spec w))
    (hrest : ∀ c (b : Ref sig .tc), b ∉ Finset.univ.image (Pipeline.arrRef (Pipeline.pin (pcfgs (F := F)) a p).spec) → Wa c b = Wb c b) :
    Pipeline.RegionSeg (pcfgs (F := F)) a pdats () defs₀ Variants.none Lz lvz p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lz lvz p fun c t => (hfd c).owed t
  pre c := iprop(StableHlo.held (c : Thread nD τ) (Pipeline.ucRefs τ sig) (Wb c) ∗ Rst c)
  post c := iprop(StableHlo.held (c : Thread nD τ) (Pipeline.ucRefs τ sig) (Wa c) ∗ Rst c)
  X c := iprop(∃ r, prngReg c r)
  Y c := iprop((∃ r, prngReg c r) ∗ Pipeline.prefHeld (pcfgs (F := F) p).pre c (fun _ => fullShare) (a p).1)
  Z c := Pipeline.unscopedRestP (Ix := Unit) (Name := ℕ) (U := UR sig nD τ) (Lvl := ℕ) (pcfgs (F := F) p).pre (Pipeline.pin (pcfgs (F := F)) a p).spec c (fun b => Wb c b)
  hentry c := by
    rw [Pipeline.ownSems0_none]
    have hsplit := Pipeline.arrays_of_unscopedBufs (p := p) (pcfgs (F := F)) a pdats lf.win lf.arr_whole c
      ((pdats p c).share_full (hfd c).q) (fun b => Wb c b) (hfd c).A
    rw [Pipeline.unscopedBufs_held, Pipeline.unscopedRest_split lf.pre c,
      show (fun k => Wb c ((pcfgs (F := F) p).pre.ref k)) = (a p).1 from funext fun k => (htbl c k).symm] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]; · iapply (owesAt_first (pdats p c) ((hfd c).owed 0) ((hfd c).recorded 0)); iexact HO
    isplitl [Hp]; · iexact Hp
    iexact Hrest
  hin c := (hfd c).Φ_in
  hout c := by
    rw [Pipeline.ownSems0_none]
    iintro H
    ihave H' := (hfd c).Φ_out $$ H
    icases H' with ⟨HY, Hs⟩
    isplitl [HY]; · iexact HY
    isplitr; · iempintro
    iexact Hs
  hexit c := by
    have hjoin := Pipeline.unscopedBufs_of_arrays (p := p) (pcfgs (F := F)) a (Ix := Unit) (Name := ℕ) (U := UR sig nD τ) (Lvl := ℕ)
      lf.win lf.arr_whole c pdats ((pdats p c).share_full (hfd c).q)
      (fun b => Wb c b) (fun b => Wa c b) ((pdats p c).arrAt · (Pipeline.pin (pcfgs (F := F)) a p).N) (hF c) (hrest c)
    rw [Pipeline.unscopedBufs_held, Pipeline.unscopedRest_split lf.pre c,
      show (fun k => Wb c ((pcfgs (F := F) p).pre.ref k)) = (a p).1 from funext fun k => (htbl c k).symm] at hjoin
    iintro ⟨Ha, HO, ⟨Hr, Hpf⟩, Hrest⟩
    imodintro
    isplitl [Ha Hpf Hrest]
    · iapply hjoin
      isplitl [Ha]; · iexact Ha
      isplitl [Hpf]; · iexact Hpf
      iexact Hrest
    isplitl [Hr]; · iexact Hr
    iapply (owesAt_last (pdats p c) ((hfd c).owed _)); iexact HO

set_option backward.isDefEq.respectTransparency.types false in
/-- REGION `p` with ONE output window `wo`: left at the entry contents with the output array's buffer replaced by what
    the write-backs fold to. An input array is never written, so its buffer is as entered. -/
def regO (a : (p : Fin 7) → (pcfgs (F := F) p).Adm)
    (pdats : (p : Fin 7) → (c : Dev nD) → Dat τ (Elt F) Unit ℕ (UR sig nD τ) ℕ (Pipeline.pin (pcfgs (F := F)) a p) c)
    (p : Fin 7) (lf : Pipeline.PLaunchFacts (nD := nD) (τ := τ) (pcfgs (F := F)) p)
    (Wb : Dev nD → Valuation τ sig (Elt F)) (wo : Fin (Pipeline.pin (pcfgs (F := F)) a p).W)
    (hin : ∀ w, w ≠ wo → ((Pipeline.pin (pcfgs (F := F)) a p).win w).isOut = false)
    (hfd : ∀ c, FrameDat a p (fun c b => Wb c b) c (pdats p c))
    (hbody : ∀ c, BodyObligation (pdats p c) (defs₀ (F := F)) Variants.none () Set.univ)
    (htbl : ∀ c k, (a p).1 k = Wb c ((pcfgs (F := F) p).pre.ref k)) :
    Pipeline.RegionSeg (pcfgs (F := F)) a pdats () defs₀ Variants.none Lz lvz p :=
  reg a pdats p lf Wb
    (fun c => (Function.update (Wb c) (Proc.devRef .tc (Pipeline.arrRef (Pipeline.pin (pcfgs (F := F)) a p).spec wo))
      ((pdats p c).arrAt wo (Pipeline.pin (pcfgs (F := F)) a p).N) : Valuation τ sig (Elt F)))
    hfd hbody htbl
    (fun c w => by
      show _ = Function.update (Wb c) (Proc.devRef .tc (Pipeline.arrRef (Pipeline.pin (pcfgs (F := F)) a p).spec wo))
        ((pdats p c).arrAt wo (Pipeline.pin (pcfgs (F := F)) a p).N) _
      by_cases h : w = wo
      · subst h; rw [Function.update_self]
      · rw [Function.update_of_ne (fun e => h (lf.win.arr_inj (Proc.devRef_injective _ e)))]
        exact ((pdats p c).arrAt_in w (hin w h) _).trans ((hfd c).A w))
    (fun c b hb => Function.update_of_ne
      (fun e => hb (Finset.mem_image.mpr ⟨wo, Finset.mem_univ _, (Proc.devRef_injective _ e).symm⟩)) _ _)

/-! ## The regions' proof data carry their frames

The three matrix products' proof data hold the class invariant at every point and have no table; the four segment sums'
hold it beside their table, whole. All read their arrays off the entry contents, hold every input whole, owe nothing and
record nothing. -/

theorem dat0_fd (a : (p : Fin 7) → (pcfgs (F := F) p).Adm) (V : Vals F) (c : Dev nD) : FrameDat a 0 V c (dat0 V c) :=
  FrameDat.ofΦA a 0 V c (dat0 V c) rfl (A_eq0 V c) (fun _ => rfl) (fun _ => rfl) (fun _ => rfl) (fun _ => rfl)
theorem dat3_fd (a : (p : Fin 7) → (pcfgs (F := F) p).Adm) (V : Vals F) (c : Dev nD) : FrameDat a 3 V c (dat3 V c) :=
  FrameDat.ofΦA a 3 V c (dat3 V c) rfl (A_eq3 V c) (fun _ => rfl) (fun _ => rfl) (fun _ => rfl) (fun _ => rfl)
theorem dat6_fd (a : (p : Fin 7) → (pcfgs (F := F) p).Adm) (V : Vals F) (c : Dev nD) : FrameDat a 6 V c (dat6 V c) :=
  FrameDat.ofΦA a 6 V c (dat6 V c) rfl (A_eq6 V c) (fun _ => rfl) (fun _ => rfl) (fun _ => rfl) (fun _ => rfl)

/-- What a segment-sum body needs of its table: every word it reads meets the body's assumed side condition (the window
    start a multiple of 8, the window inside the slab). -/
abbrev Htbl1 (a : (pcfg1 (F := F)).Adm) : Prop := ∀ (c : Dev nD) (i : grid1.Coords), k1_chk1 (word1 c i tbM1 (tbl1 a c))
abbrev Htbl2 (a : (pcfg2 (F := F)).Adm) : Prop := ∀ (c : Dev nD) (i : grid2.Coords), k2_chk1 (word2 c i tbM2 (tbl2 a c))
abbrev Htbl4 (a : (pcfg4 (F := F)).Adm) : Prop := ∀ (c : Dev nD) (i : grid4.Coords), k4_chk1 (word4 c i tbM4 (tbl4 a c))
abbrev Htbl5 (a : (pcfg5 (F := F)).Adm) : Prop := ∀ (c : Dev nD) (i : grid5.Coords), k5_chk1 (word5 c i tbM5 (tbl5 a c))

theorem dat1_fd (a : (p : Fin 7) → (pcfgs (F := F) p).Adm) (V : Vals F) (htbl : Htbl1 (a 1)) (c : Dev nD) :
    FrameDat a 1 V c (dat1 V (a 1) htbl c) :=
  FrameDat.ofΦAT a 1 V c (dat1 V (a 1) htbl c) (A_eq1 V (a 1) htbl c) (fun _ => rfl) (fun _ => rfl) (fun _ => rfl) (fun _ => rfl)
theorem dat2_fd (a : (p : Fin 7) → (pcfgs (F := F) p).Adm) (V : Vals F) (htbl : Htbl2 (a 2)) (c : Dev nD) :
    FrameDat a 2 V c (dat2 V (a 2) htbl c) :=
  FrameDat.ofΦAT a 2 V c (dat2 V (a 2) htbl c) (A_eq2 V (a 2) htbl c) (fun _ => rfl) (fun _ => rfl) (fun _ => rfl) (fun _ => rfl)
theorem dat4_fd (a : (p : Fin 7) → (pcfgs (F := F) p).Adm) (V : Vals F) (htbl : Htbl4 (a 4)) (c : Dev nD) :
    FrameDat a 4 V c (dat4 V (a 4) htbl c) :=
  FrameDat.ofΦAT a 4 V c (dat4 V (a 4) htbl c) (A_eq4 V (a 4) htbl c) (fun _ => rfl) (fun _ => rfl) (fun _ => rfl) (fun _ => rfl)
theorem dat5_fd (a : (p : Fin 7) → (pcfgs (F := F) p).Adm) (V : Vals F) (htbl : Htbl5 (a 5)) (c : Dev nD) :
    FrameDat a 5 V c (dat5 V (a 5) htbl c) :=
  FrameDat.ofΦAT a 5 V c (dat5 V (a 5) htbl c) (A_eq5 V (a 5) htbl c) (fun _ => rfl) (fun _ => rfl) (fun _ => rfl) (fun _ => rfl)

/-! ### Every window but the last is an input: its array is never written -/

theorem in0 (a : (p : Fin 7) → (pcfgs (F := F) p).Adm) : ∀ w : Fin 4, w ≠ 3 → ((Pipeline.pin (pcfgs (F := F)) a 0).win w).isOut = false
  | 0, _ => rfl | 1, _ => rfl | 2, _ => rfl | 3, h => absurd rfl h
  | ⟨_ + 4, h⟩, _ => absurd h (Nat.not_lt.2 (Nat.le_add_left _ _))
theorem in1 (a : (p : Fin 7) → (pcfgs (F := F) p).Adm) : ∀ w : Fin 3, w ≠ 2 → ((Pipeline.pin (pcfgs (F := F)) a 1).win w).isOut = false
  | 0, _ => rfl | 1, _ => rfl | 2, h => absurd rfl h
  | ⟨_ + 3, h⟩, _ => absurd h (Nat.not_lt.2 (Nat.le_add_left _ _))
theorem in2 (a : (p : Fin 7) → (pcfgs (F := F) p).Adm) : ∀ w : Fin 3, w ≠ 2 → ((Pipeline.pin (pcfgs (F := F)) a 2).win w).isOut = false
  | 0, _ => rfl | 1, _ => rfl | 2, h => absurd rfl h
  | ⟨_ + 3, h⟩, _ => absurd h (Nat.not_lt.2 (Nat.le_add_left _ _))
theorem in3 (a : (p : Fin 7) → (pcfgs (F := F) p).Adm) : ∀ w : Fin 4, w ≠ 3 → ((Pipeline.pin (pcfgs (F := F)) a 3).win w).isOut = false
  | 0, _ => rfl | 1, _ => rfl | 2, _ => rfl | 3, h => absurd rfl h
  | ⟨_ + 4, h⟩, _ => absurd h (Nat.not_lt.2 (Nat.le_add_left _ _))
theorem in4 (a : (p : Fin 7) → (pcfgs (F := F) p).Adm) : ∀ w : Fin 3, w ≠ 2 → ((Pipeline.pin (pcfgs (F := F)) a 4).win w).isOut = false
  | 0, _ => rfl | 1, _ => rfl | 2, h => absurd rfl h
  | ⟨_ + 3, h⟩, _ => absurd h (Nat.not_lt.2 (Nat.le_add_left _ _))
theorem in5 (a : (p : Fin 7) → (pcfgs (F := F) p).Adm) : ∀ w : Fin 3, w ≠ 2 → ((Pipeline.pin (pcfgs (F := F)) a 5).win w).isOut = false
  | 0, _ => rfl | 1, _ => rfl | 2, h => absurd rfl h
  | ⟨_ + 3, h⟩, _ => absurd h (Nat.not_lt.2 (Nat.le_add_left _ _))
theorem in6 (a : (p : Fin 7) → (pcfgs (F := F) p).Adm) : ∀ w : Fin 4, w ≠ 3 → ((Pipeline.pin (pcfgs (F := F)) a 6).win w).isOut = false
  | 0, _ => rfl | 1, _ => rfl | 2, _ => rfl | 3, h => absurd rfl h
  | ⟨_ + 4, h⟩, _ => absurd h (Nat.not_lt.2 (Nat.le_add_left _ _))

/-! ## The buffer contents at each region's entry and exit

Each region replaces its output array's buffer by what the pipeline's write-backs fold to and leaves every other buffer;
each host stretch folds its operations over what it finds. `BK` names the contents region K is entered from, `XK` those it
leaves, `oK` region K's output array at its exit. -/
section Run

variable (m : (ℓ : Loc nD τ sig) → Buf (Elt F) ℓ)

/-- The one core of the mesh. -/
abbrev c0 : Dev nD := ⟨0, Nat.one_pos⟩
theorem dev_eq (c : Dev nD) : c = c0 := Subsingleton.elim _ _

/-- A table's side condition, read at the table's buffer under a valuation, is the same condition of the admissible
    contents made from that valuation. -/
theorem tbl1_of (V : Valuation τ sig (Elt F)) (a : (pcfg1 (F := F)).Adm) (h : a.1 = fun k => V (pre1.ref k))
    (hk : ∀ k : S172.Idx, k1_chk1 ((V main_v63 : S172.Idx → BitVec 32) k)) (k : S172.Idx) :
    k1_chk1 ((a.1 0 : S172.Idx → BitVec 32) k) := by
  rw [h]; exact hk k
theorem tbl2_of (V : Valuation τ sig (Elt F)) (a : (pcfg2 (F := F)).Adm) (h : a.1 = fun k => V (pre2.ref k))
    (hk : ∀ k : S904.Idx, k2_chk1 ((V main_v128 : S904.Idx → BitVec 32) k)) (k : S904.Idx) :
    k2_chk1 ((a.1 0 : S904.Idx → BitVec 32) k) := by
  rw [h]; exact hk k
theorem tbl4_of (V : Valuation τ sig (Elt F)) (a : (pcfg4 (F := F)).Adm) (h : a.1 = fun k => V (pre4.ref k))
    (hk : ∀ k : S172.Idx, k4_chk1 ((V main_v63 : S172.Idx → BitVec 32) k)) (k : S172.Idx) :
    k4_chk1 ((a.1 0 : S172.Idx → BitVec 32) k) := by
  rw [h]; exact hk k
theorem tbl5_of (V : Valuation τ sig (Elt F)) (a : (pcfg5 (F := F)).Adm) (h : a.1 = fun k => V (pre5.ref k))
    (hk : ∀ k : S904.Idx, k5_chk1 ((V main_v128 : S904.Idx → BitVec 32) k)) (k : S904.Idx) :
    k5_chk1 ((a.1 0 : S904.Idx → BitVec 32) k) := by
  rw [h]; exact hk k

/-- An outputs family from seven valuations: region K's output array read off the K-th (30, 33, 37, 41, 44, 48, 50 are the
    regions' places among @main's items). -/
def outsOf (x0 x1 x2 x3 x4 x5 x6 : Dev nD → Valuation τ sig (Elt F)) : GenP.Outs (F := F) := fun n r c =>
  match n with
  | 30 => x0 c r
  | 33 => x1 c r
  | 37 => x2 c r
  | 41 => x3 c r
  | 44 => x4 c r
  | 48 => x5 c r
  | _ => x6 c r

theorem outsOf_30 (x0 x1 x2 x3 x4 x5 x6 : Dev nD → Valuation τ sig (Elt F)) (r : Ref sig .tc) (c : Dev nD) :
    outsOf x0 x1 x2 x3 x4 x5 x6 30 r c = x0 c r := rfl
theorem outsOf_33 (x0 x1 x2 x3 x4 x5 x6 : Dev nD → Valuation τ sig (Elt F)) (r : Ref sig .tc) (c : Dev nD) :
    outsOf x0 x1 x2 x3 x4 x5 x6 33 r c = x1 c r := rfl
theorem outsOf_37 (x0 x1 x2 x3 x4 x5 x6 : Dev nD → Valuation τ sig (Elt F)) (r : Ref sig .tc) (c : Dev nD) :
    outsOf x0 x1 x2 x3 x4 x5 x6 37 r c = x2 c r := rfl
theorem outsOf_41 (x0 x1 x2 x3 x4 x5 x6 : Dev nD → Valuation τ sig (Elt F)) (r : Ref sig .tc) (c : Dev nD) :
    outsOf x0 x1 x2 x3 x4 x5 x6 41 r c = x3 c r := rfl
theorem outsOf_44 (x0 x1 x2 x3 x4 x5 x6 : Dev nD → Valuation τ sig (Elt F)) (r : Ref sig .tc) (c : Dev nD) :
    outsOf x0 x1 x2 x3 x4 x5 x6 44 r c = x4 c r := rfl
theorem outsOf_48 (x0 x1 x2 x3 x4 x5 x6 : Dev nD → Valuation τ sig (Elt F)) (r : Ref sig .tc) (c : Dev nD) :
    outsOf x0 x1 x2 x3 x4 x5 x6 48 r c = x5 c r := rfl
theorem outsOf_50 (x0 x1 x2 x3 x4 x5 x6 : Dev nD → Valuation τ sig (Elt F)) (r : Ref sig .tc) (c : Dev nD) :
    outsOf x0 x1 x2 x3 x4 x5 x6 50 r c = x6 c r := rfl

/-- Region 0's entry: the host operations' fold over the launch memory. -/
def B0 (c : Dev nD) : Valuation τ sig (Elt F) := GenP.V29 m c
/-- Region 0's output array as its write-backs leave it. -/
def o0 (c : Dev nD) : Buf (Elt F) ((c : Thread nD τ).loc main_v132) := (dat0 (fun c b => B0 m c b) c).arrAt 3 cfg0.N
/-- Region 0's exit. -/
def X0 (c : Dev nD) : Valuation τ sig (Elt F) := Function.update (B0 m c) main_v132 (o0 m c)
theorem X0_out (c : Dev nD) : X0 m c main_v132 = o0 m c := by unfold X0; exact Function.update_self ..
/-- Region 1's entry. -/
def B1 (c : Dev nD) : Valuation τ sig (Elt F) := StableHlo.after hostOps1_1 (StableHlo.after hostOps1 (X0 m c))
/-- Under any outputs that have region 0's array at `o0`, the host operations' fold names region 1's entry. -/
theorem V32_of_X0 (outs : GenP.Outs (F := F)) (h : ∀ c, outs 30 main_v132 c = o0 m c) (c : Dev nD) : GenP.V32 m outs c = B1 m c :=
  congrArg (fun W => StableHlo.after hostOps1_1 (StableHlo.after hostOps1 W))
    (congrArg (Function.update (GenP.V29 m c) main_v132) (h c))
/-- The table of window starts region 1 prefetches, as the host operations before it leave it. -/
def a1 : (pcfg1 (F := F)).Adm := ⟨fun k => B1 m c0 (pre1.ref k), trivial⟩
theorem a1_ok : Htbl1 (a1 m) := htbl1_of (a1 m) (tbl1_of (B1 m c0) (a1 m) rfl fun k =>
  Eq.mp (congrArg (fun W : Valuation τ sig (Elt F) => k1_chk1 ((W main_v63 : S172.Idx → BitVec 32) k))
    (V32_of_X0 m (outsOf (X0 m) (X0 m) (X0 m) (X0 m) (X0 m) (X0 m) (X0 m)) (fun c => (outsOf_30 ..).trans (X0_out m c)) c0))
    (tbl1_chk m (outsOf (X0 m) (X0 m) (X0 m) (X0 m) (X0 m) (X0 m) (X0 m)) c0 k))
/-- Region 1's output slab as its write-backs leave it. -/
def o1 (c : Dev nD) : Buf (Elt F) ((c : Thread nD τ).loc main_v138) :=
  (dat1 (fun c b => B1 m c b) (a1 m) (a1_ok m) c).arrAt 2 (cfg1 (a1 m)).N
/-- Region 1's exit. -/
def X1 (c : Dev nD) : Valuation τ sig (Elt F) := Function.update (B1 m c) main_v138 (o1 m c)
theorem X1_out (c : Dev nD) : X1 m c main_v138 = o1 m c := by unfold X1; exact Function.update_self ..
/-- Region 2's entry. -/
def B2 (c : Dev nD) : Valuation τ sig (Elt F) :=
  StableHlo.after hostOps2_2 (StableHlo.after hostOps2_1 (StableHlo.after hostOps2 (X1 m c)))
theorem V33_of_X1 (outs : GenP.Outs (F := F)) (h0 : ∀ c, outs 30 main_v132 c = o0 m c) (h1 : ∀ c, outs 33 main_v138 c = o1 m c)
    (c : Dev nD) : GenP.V33 m outs c = X1 m c := by
  show Function.update (GenP.V32 m outs c) main_v138 (outs 33 main_v138 c) = _
  rw [V32_of_X0 m outs h0 c, h1 c]; rfl
theorem V36_of_X1 (outs : GenP.Outs (F := F)) (h0 : ∀ c, outs 30 main_v132 c = o0 m c) (h1 : ∀ c, outs 33 main_v138 c = o1 m c)
    (c : Dev nD) : GenP.V36 m outs c = B2 m c :=
  congrArg (fun W => StableHlo.after hostOps2_2 (StableHlo.after hostOps2_1 (StableHlo.after hostOps2 W))) (V33_of_X1 m outs h0 h1 c)
/-- The table region 2 prefetches. -/
def a2 : (pcfg2 (F := F)).Adm := ⟨fun k => B2 m c0 (pre2.ref k), trivial⟩
theorem a2_ok : Htbl2 (a2 m) := htbl2_of (a2 m) (tbl2_of (B2 m c0) (a2 m) rfl fun k =>
  Eq.mp (congrArg (fun W : Valuation τ sig (Elt F) => k2_chk1 ((W main_v128 : S904.Idx → BitVec 32) k))
    (V36_of_X1 m (outsOf (X0 m) (X1 m) (X1 m) (X1 m) (X1 m) (X1 m) (X1 m)) (fun c => (outsOf_30 ..).trans (X0_out m c)) (fun c => (outsOf_33 ..).trans (X1_out m c)) c0))
    (tbl2_chk m (outsOf (X0 m) (X1 m) (X1 m) (X1 m) (X1 m) (X1 m) (X1 m)) c0 k))
/-- Region 2's output slab as its write-backs leave it. -/
def o2 (c : Dev nD) : Buf (Elt F) ((c : Thread nD τ).loc main_v152) :=
  (dat2 (fun c b => B2 m c b) (a2 m) (a2_ok m) c).arrAt 2 (cfg2 (a2 m)).N
/-- Region 2's exit. -/
def X2 (c : Dev nD) : Valuation τ sig (Elt F) := Function.update (B2 m c) main_v152 (o2 m c)
theorem X2_out (c : Dev nD) : X2 m c main_v152 = o2 m c := by unfold X2; exact Function.update_self ..
/-- Region 3's entry. -/
def B3 (c : Dev nD) : Valuation τ sig (Elt F) :=
  StableHlo.after hostOps3_2 (StableHlo.after hostOps3_1 (StableHlo.after hostOps3 (X2 m c)))
theorem V37_of_X2 (outs : GenP.Outs (F := F)) (h0 : ∀ c, outs 30 main_v132 c = o0 m c) (h1 : ∀ c, outs 33 main_v138 c = o1 m c)
    (h2 : ∀ c, outs 37 main_v152 c = o2 m c) (c : Dev nD) : GenP.V37 m outs c = X2 m c := by
  show Function.update (GenP.V36 m outs c) main_v152 (outs 37 main_v152 c) = _
  rw [V36_of_X1 m outs h0 h1 c, h2 c]; rfl
theorem V40_of_X2 (outs : GenP.Outs (F := F)) (h0 : ∀ c, outs 30 main_v132 c = o0 m c) (h1 : ∀ c, outs 33 main_v138 c = o1 m c)
    (h2 : ∀ c, outs 37 main_v152 c = o2 m c) (c : Dev nD) : GenP.V40 m outs c = B3 m c :=
  congrArg (fun W => StableHlo.after hostOps3_2 (StableHlo.after hostOps3_1 (StableHlo.after hostOps3 W))) (V37_of_X2 m outs h0 h1 h2 c)
/-- Region 3's output array as its write-backs leave it. -/
def o3 (c : Dev nD) : Buf (Elt F) ((c : Thread nD τ).loc main_v165) := (dat3 (fun c b => B3 m c b) c).arrAt 3 cfg3.N
/-- Region 3's exit. -/
def X3 (c : Dev nD) : Valuation τ sig (Elt F) := Function.update (B3 m c) main_v165 (o3 m c)
theorem X3_out (c : Dev nD) : X3 m c main_v165 = o3 m c := by unfold X3; exact Function.update_self ..
/-- Region 4's entry. -/
def B4 (c : Dev nD) : Valuation τ sig (Elt F) := StableHlo.after hostOps4_1 (StableHlo.after hostOps4 (X3 m c))
theorem V41_of_X3 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (c : Dev nD) : GenP.V41 m outs c = X3 m c := by
  show Function.update (GenP.V40 m outs c) main_v165 (outs 41 main_v165 c) = _
  rw [V40_of_X2 m outs h0 h1 h2 c, h3 c]; rfl
theorem V43_of_X3 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (c : Dev nD) : GenP.V43 m outs c = B4 m c :=
  congrArg (fun W => StableHlo.after hostOps4_1 (StableHlo.after hostOps4 W)) (V41_of_X3 m outs h0 h1 h2 h3 c)
/-- The table region 4 prefetches. -/
def a4 : (pcfg4 (F := F)).Adm := ⟨fun k => B4 m c0 (pre4.ref k), trivial⟩
theorem a4_ok : Htbl4 (a4 m) := htbl4_of (a4 m) (tbl4_of (B4 m c0) (a4 m) rfl fun k =>
  Eq.mp (congrArg (fun W : Valuation τ sig (Elt F) => k4_chk1 ((W main_v63 : S172.Idx → BitVec 32) k))
    (V43_of_X3 m (outsOf (X0 m) (X1 m) (X2 m) (X3 m) (X3 m) (X3 m) (X3 m)) (fun c => (outsOf_30 ..).trans (X0_out m c)) (fun c => (outsOf_33 ..).trans (X1_out m c))
      (fun c => (outsOf_37 ..).trans (X2_out m c)) (fun c => (outsOf_41 ..).trans (X3_out m c)) c0))
    (tbl4_chk m (outsOf (X0 m) (X1 m) (X2 m) (X3 m) (X3 m) (X3 m) (X3 m)) c0 k))
/-- Region 4's output slab as its write-backs leave it. -/
def o4 (c : Dev nD) : Buf (Elt F) ((c : Thread nD τ).loc main_v171) :=
  (dat4 (fun c b => B4 m c b) (a4 m) (a4_ok m) c).arrAt 2 (cfg4 (a4 m)).N
/-- Region 4's exit. -/
def X4 (c : Dev nD) : Valuation τ sig (Elt F) := Function.update (B4 m c) main_v171 (o4 m c)
theorem X4_out (c : Dev nD) : X4 m c main_v171 = o4 m c := by unfold X4; exact Function.update_self ..
/-- Region 5's entry. -/
def B5 (c : Dev nD) : Valuation τ sig (Elt F) :=
  StableHlo.after hostOps5_2 (StableHlo.after hostOps5_1 (StableHlo.after hostOps5 (X4 m c)))
theorem V44_of_X4 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (h4 : ∀ c, outs 44 main_v171 c = o4 m c)
    (c : Dev nD) : GenP.V44 m outs c = X4 m c := by
  show Function.update (GenP.V43 m outs c) main_v171 (outs 44 main_v171 c) = _
  rw [V43_of_X3 m outs h0 h1 h2 h3 c, h4 c]; rfl
theorem V47_of_X4 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (h4 : ∀ c, outs 44 main_v171 c = o4 m c)
    (c : Dev nD) : GenP.V47 m outs c = B5 m c :=
  congrArg (fun W => StableHlo.after hostOps5_2 (StableHlo.after hostOps5_1 (StableHlo.after hostOps5 W))) (V44_of_X4 m outs h0 h1 h2 h3 h4 c)
/-- The table region 5 prefetches. -/
def a5 : (pcfg5 (F := F)).Adm := ⟨fun k => B5 m c0 (pre5.ref k), trivial⟩
theorem a5_ok : Htbl5 (a5 m) := htbl5_of (a5 m) (tbl5_of (B5 m c0) (a5 m) rfl fun k =>
  Eq.mp (congrArg (fun W : Valuation τ sig (Elt F) => k5_chk1 ((W main_v128 : S904.Idx → BitVec 32) k))
    (V47_of_X4 m (outsOf (X0 m) (X1 m) (X2 m) (X3 m) (X4 m) (X4 m) (X4 m)) (fun c => (outsOf_30 ..).trans (X0_out m c)) (fun c => (outsOf_33 ..).trans (X1_out m c))
      (fun c => (outsOf_37 ..).trans (X2_out m c)) (fun c => (outsOf_41 ..).trans (X3_out m c)) (fun c => (outsOf_44 ..).trans (X4_out m c)) c0))
    (tbl5_chk m (outsOf (X0 m) (X1 m) (X2 m) (X3 m) (X4 m) (X4 m) (X4 m)) c0 k))
/-- Region 5's output slab as its write-backs leave it. -/
def o5 (c : Dev nD) : Buf (Elt F) ((c : Thread nD τ).loc main_v185) :=
  (dat5 (fun c b => B5 m c b) (a5 m) (a5_ok m) c).arrAt 2 (cfg5 (a5 m)).N
/-- Region 5's exit. -/
def X5 (c : Dev nD) : Valuation τ sig (Elt F) := Function.update (B5 m c) main_v185 (o5 m c)
theorem X5_out (c : Dev nD) : X5 m c main_v185 = o5 m c := by unfold X5; exact Function.update_self ..
/-- Region 6's entry. -/
def B6 (c : Dev nD) : Valuation τ sig (Elt F) := StableHlo.after hostOps6 (X5 m c)
/-- Region 6's output array as its write-backs leave it. -/
def o6 (c : Dev nD) : Buf (Elt F) ((c : Thread nD τ).loc main_v196) := (dat6 (fun c b => B6 m c b) c).arrAt 3 cfg6.N
/-- Region 6's exit. -/
def X6 (c : Dev nD) : Valuation τ sig (Elt F) := Function.update (B6 m c) main_v196 (o6 m c)

/-- Every region's output: what @main's run leaves in the seven output arrays. -/
def outs : GenP.Outs (F := F) := outsOf (X0 m) (X1 m) (X2 m) (X3 m) (X4 m) (X5 m) (X6 m)
theorem X6_out (c : Dev nD) : X6 m c main_v196 = o6 m c := by unfold X6; exact Function.update_self ..
theorem outs_0 (c : Dev nD) : outs m 30 main_v132 c = o0 m c := (outsOf_30 ..).trans (X0_out m c)
theorem outs_1 (c : Dev nD) : outs m 33 main_v138 c = o1 m c := (outsOf_33 ..).trans (X1_out m c)
theorem outs_2 (c : Dev nD) : outs m 37 main_v152 c = o2 m c := (outsOf_37 ..).trans (X2_out m c)
theorem outs_3 (c : Dev nD) : outs m 41 main_v165 c = o3 m c := (outsOf_41 ..).trans (X3_out m c)
theorem outs_4 (c : Dev nD) : outs m 44 main_v171 c = o4 m c := (outsOf_44 ..).trans (X4_out m c)
theorem outs_5 (c : Dev nD) : outs m 48 main_v185 c = o5 m c := (outsOf_48 ..).trans (X5_out m c)
theorem outs_6 (c : Dev nD) : outs m 50 main_v196 c = o6 m c := (outsOf_50 ..).trans (X6_out m c)

/-- The host operations' fold under the regions' outputs names each region's entry and exit. -/
theorem V29_eq (c : Dev nD) : GenP.V29 m c = B0 m c := rfl
theorem V30_eq (c : Dev nD) : GenP.V30 m (outs m) c = X0 m c := congrArg (Function.update (GenP.V29 m c) main_v132) (outs_0 m c)
theorem V32_eq (c : Dev nD) : GenP.V32 m (outs m) c = B1 m c := V32_of_X0 m (outs m) (outs_0 m) c
theorem V33_eq (c : Dev nD) : GenP.V33 m (outs m) c = X1 m c := V33_of_X1 m (outs m) (outs_0 m) (outs_1 m) c
theorem V36_eq (c : Dev nD) : GenP.V36 m (outs m) c = B2 m c := V36_of_X1 m (outs m) (outs_0 m) (outs_1 m) c
theorem V37_eq (c : Dev nD) : GenP.V37 m (outs m) c = X2 m c := V37_of_X2 m (outs m) (outs_0 m) (outs_1 m) (outs_2 m) c
theorem V40_eq (c : Dev nD) : GenP.V40 m (outs m) c = B3 m c := V40_of_X2 m (outs m) (outs_0 m) (outs_1 m) (outs_2 m) c
theorem V41_eq (c : Dev nD) : GenP.V41 m (outs m) c = X3 m c := V41_of_X3 m (outs m) (outs_0 m) (outs_1 m) (outs_2 m) (outs_3 m) c
theorem V43_eq (c : Dev nD) : GenP.V43 m (outs m) c = B4 m c := V43_of_X3 m (outs m) (outs_0 m) (outs_1 m) (outs_2 m) (outs_3 m) c
theorem V44_eq (c : Dev nD) : GenP.V44 m (outs m) c = X4 m c := V44_of_X4 m (outs m) (outs_0 m) (outs_1 m) (outs_2 m) (outs_3 m) (outs_4 m) c
theorem V47_eq (c : Dev nD) : GenP.V47 m (outs m) c = B5 m c := V47_of_X4 m (outs m) (outs_0 m) (outs_1 m) (outs_2 m) (outs_3 m) (outs_4 m) c
theorem V48_of_X5 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (h4 : ∀ c, outs 44 main_v171 c = o4 m c)
    (h5 : ∀ c, outs 48 main_v185 c = o5 m c) (c : Dev nD) : GenP.V48 m outs c = X5 m c := by
  show Function.update (GenP.V47 m outs c) main_v185 (outs 48 main_v185 c) = _
  rw [V47_of_X4 m outs h0 h1 h2 h3 h4 c, h5 c]; rfl
theorem V49_of_X5 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (h4 : ∀ c, outs 44 main_v171 c = o4 m c)
    (h5 : ∀ c, outs 48 main_v185 c = o5 m c) (c : Dev nD) : GenP.V49 m outs c = B6 m c :=
  congrArg (fun W => StableHlo.after hostOps6 W) (V48_of_X5 m outs h0 h1 h2 h3 h4 h5 c)
theorem V50_of_X6 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (h4 : ∀ c, outs 44 main_v171 c = o4 m c)
    (h5 : ∀ c, outs 48 main_v185 c = o5 m c) (h6 : ∀ c, outs 50 main_v196 c = o6 m c) (c : Dev nD) : GenP.V50 m outs c = X6 m c := by
  show Function.update (GenP.V49 m outs c) main_v196 (outs 50 main_v196 c) = _
  rw [V49_of_X5 m outs h0 h1 h2 h3 h4 h5 c, h6 c]; rfl
theorem V48_eq (c : Dev nD) : GenP.V48 m (outs m) c = X5 m c :=
  V48_of_X5 m (outs m) (outs_0 m) (outs_1 m) (outs_2 m) (outs_3 m) (outs_4 m) (outs_5 m) c
theorem V49_eq (c : Dev nD) : GenP.V49 m (outs m) c = B6 m c :=
  V49_of_X5 m (outs m) (outs_0 m) (outs_1 m) (outs_2 m) (outs_3 m) (outs_4 m) (outs_5 m) c
theorem V50_eq (c : Dev nD) : GenP.V50 m (outs m) c = X6 m c :=
  V50_of_X6 m (outs m) (outs_0 m) (outs_1 m) (outs_2 m) (outs_3 m) (outs_4 m) (outs_5 m) (outs_6 m) c

/-! ## The tables' contents and the proof data family -/

/-- The prefetched tables' contents: for the four segment-sum pipelines the table the host operations leave; the three
    matrix products have none. -/
def adm : (p : Fin 7) → (pcfgs (F := F) p).Adm
  | ⟨0, _⟩ => cfg0.toPCfg_adm
  | ⟨1, _⟩ => a1 m
  | ⟨2, _⟩ => a2 m
  | ⟨3, _⟩ => cfg3.toPCfg_adm
  | ⟨4, _⟩ => a4 m
  | ⟨5, _⟩ => a5 m
  | ⟨6, _⟩ => cfg6.toPCfg_adm
  | ⟨n + 7, h⟩ => absurd h (Nat.not_lt.2 (Nat.le_add_left _ _))

/-- Every pipeline's proof data, each at its region's entry contents — a literal `match`, so that the pinned
    configuration at a numeral reduces to the printed one. -/
def pdats : (p : Fin 7) → (c : Dev nD) → Dat τ (Elt F) Unit ℕ (UR sig nD τ) ℕ (Pipeline.pin (pcfgs (F := F)) (adm m) p) c
  | ⟨0, _⟩ => fun c => dat0 (fun c b => B0 m c b) c
  | ⟨1, _⟩ => fun c => dat1 (fun c b => B1 m c b) (a1 m) (a1_ok m) c
  | ⟨2, _⟩ => fun c => dat2 (fun c b => B2 m c b) (a2 m) (a2_ok m) c
  | ⟨3, _⟩ => fun c => dat3 (fun c b => B3 m c b) c
  | ⟨4, _⟩ => fun c => dat4 (fun c b => B4 m c b) (a4 m) (a4_ok m) c
  | ⟨5, _⟩ => fun c => dat5 (fun c b => B5 m c b) (a5 m) (a5_ok m) c
  | ⟨6, _⟩ => fun c => dat6 (fun c b => B6 m c b) c
  | ⟨n + 7, h⟩ => absurd h (Nat.not_lt.2 (Nat.le_add_left _ _))

/-! ## The seven regions as segments -/

def reg0 : Pipeline.RegionSeg (pcfgs (F := F)) (adm m) (pdats m) () defs₀ Variants.none Lz lvz 0 :=
  regO (adm m) (pdats m) 0 launch0 (B0 m) 3 (in0 (adm m))
    (fun c => dat0_fd (adm m) (fun c b => B0 m c b) c) (fun c => body_obligation0 (fun c b => B0 m c b) c) (fun c k => k.elim0)
def reg1 : Pipeline.RegionSeg (pcfgs (F := F)) (adm m) (pdats m) () defs₀ Variants.none Lz lvz 1 :=
  regO (adm m) (pdats m) 1 launch1 (B1 m) 2 (in1 (adm m))
    (fun c => dat1_fd (adm m) (fun c b => B1 m c b) (a1_ok m) c) (fun c => body_obligation1 (fun c b => B1 m c b) (a1 m) (a1_ok m) c)
    (fun c k => by obtain rfl := dev_eq c; rfl)
def reg2 : Pipeline.RegionSeg (pcfgs (F := F)) (adm m) (pdats m) () defs₀ Variants.none Lz lvz 2 :=
  regO (adm m) (pdats m) 2 launch2 (B2 m) 2 (in2 (adm m))
    (fun c => dat2_fd (adm m) (fun c b => B2 m c b) (a2_ok m) c) (fun c => body_obligation2 (fun c b => B2 m c b) (a2 m) (a2_ok m) c)
    (fun c k => by obtain rfl := dev_eq c; rfl)
def reg3 : Pipeline.RegionSeg (pcfgs (F := F)) (adm m) (pdats m) () defs₀ Variants.none Lz lvz 3 :=
  regO (adm m) (pdats m) 3 launch3 (B3 m) 3 (in3 (adm m))
    (fun c => dat3_fd (adm m) (fun c b => B3 m c b) c) (fun c => body_obligation3 (fun c b => B3 m c b) c) (fun c k => k.elim0)
def reg4 : Pipeline.RegionSeg (pcfgs (F := F)) (adm m) (pdats m) () defs₀ Variants.none Lz lvz 4 :=
  regO (adm m) (pdats m) 4 launch4 (B4 m) 2 (in4 (adm m))
    (fun c => dat4_fd (adm m) (fun c b => B4 m c b) (a4_ok m) c) (fun c => body_obligation4 (fun c b => B4 m c b) (a4 m) (a4_ok m) c)
    (fun c k => by obtain rfl := dev_eq c; rfl)
def reg5 : Pipeline.RegionSeg (pcfgs (F := F)) (adm m) (pdats m) () defs₀ Variants.none Lz lvz 5 :=
  regO (adm m) (pdats m) 5 launch5 (B5 m) 2 (in5 (adm m))
    (fun c => dat5_fd (adm m) (fun c b => B5 m c b) (a5_ok m) c) (fun c => body_obligation5 (fun c b => B5 m c b) (a5 m) (a5_ok m) c)
    (fun c k => by obtain rfl := dev_eq c; rfl)
def reg6 : Pipeline.RegionSeg (pcfgs (F := F)) (adm m) (pdats m) () defs₀ Variants.none Lz lvz 6 :=
  regO (adm m) (pdats m) 6 launch6 (B6 m) 3 (in6 (adm m))
    (fun c => dat6_fd (adm m) (fun c b => B6 m c b) c) (fun c => body_obligation6 (fun c b => B6 m c b) c) (fun c k => k.elim0)

/-! ### Each region is entered from the host operations' fold before it and left at the fold after it -/

theorem hpre0 (c : Dev nD) : (iprop(StableHlo.held (c : Thread nD τ) (Pipeline.ucRefs τ sig) (GenP.V29 m c) ∗ Rst c) : sProp 𝕄) ⊢ (reg0 m).pre c := by
  rw [V29_eq]; exact .rfl
theorem hpost0 (c : Dev nD) : (reg0 m).post c ⊢ (iprop(StableHlo.held (c : Thread nD τ) (Pipeline.ucRefs τ sig) (GenP.V30 m (outs m) c) ∗ Rst c) : sProp 𝕄) := by
  rw [V30_eq]; exact .rfl
theorem hpre1 (c : Dev nD) : (iprop(StableHlo.held (c : Thread nD τ) (Pipeline.ucRefs τ sig) (GenP.V32 m (outs m) c) ∗ Rst c) : sProp 𝕄) ⊢ (reg1 m).pre c := by
  rw [V32_eq]; exact .rfl
theorem hpost1 (c : Dev nD) : (reg1 m).post c ⊢ (iprop(StableHlo.held (c : Thread nD τ) (Pipeline.ucRefs τ sig) (GenP.V33 m (outs m) c) ∗ Rst c) : sProp 𝕄) := by
  rw [V33_eq]; exact .rfl
theorem hpre2 (c : Dev nD) : (iprop(StableHlo.held (c : Thread nD τ) (Pipeline.ucRefs τ sig) (GenP.V36 m (outs m) c) ∗ Rst c) : sProp 𝕄) ⊢ (reg2 m).pre c := by
  rw [V36_eq]; exact .rfl
theorem hpost2 (c : Dev nD) : (reg2 m).post c ⊢ (iprop(StableHlo.held (c : Thread nD τ) (Pipeline.ucRefs τ sig) (GenP.V37 m (outs m) c) ∗ Rst c) : sProp 𝕄) := by
  rw [V37_eq]; exact .rfl
theorem hpre3 (c : Dev nD) : (iprop(StableHlo.held (c : Thread nD τ) (Pipeline.ucRefs τ sig) (GenP.V40 m (outs m) c) ∗ Rst c) : sProp 𝕄) ⊢ (reg3 m).pre c := by
  rw [V40_eq]; exact .rfl
theorem hpost3 (c : Dev nD) : (reg3 m).post c ⊢ (iprop(StableHlo.held (c : Thread nD τ) (Pipeline.ucRefs τ sig) (GenP.V41 m (outs m) c) ∗ Rst c) : sProp 𝕄) := by
  rw [V41_eq]; exact .rfl
theorem hpre4 (c : Dev nD) : (iprop(StableHlo.held (c : Thread nD τ) (Pipeline.ucRefs τ sig) (GenP.V43 m (outs m) c) ∗ Rst c) : sProp 𝕄) ⊢ (reg4 m).pre c := by
  rw [V43_eq]; exact .rfl
theorem hpost4 (c : Dev nD) : (reg4 m).post c ⊢ (iprop(StableHlo.held (c : Thread nD τ) (Pipeline.ucRefs τ sig) (GenP.V44 m (outs m) c) ∗ Rst c) : sProp 𝕄) := by
  rw [V44_eq]; exact .rfl
theorem hpre5 (c : Dev nD) : (iprop(StableHlo.held (c : Thread nD τ) (Pipeline.ucRefs τ sig) (GenP.V47 m (outs m) c) ∗ Rst c) : sProp 𝕄) ⊢ (reg5 m).pre c := by
  rw [V47_eq]; exact .rfl
theorem hpost5 (c : Dev nD) : (reg5 m).post c ⊢ (iprop(StableHlo.held (c : Thread nD τ) (Pipeline.ucRefs τ sig) (GenP.V48 m (outs m) c) ∗ Rst c) : sProp 𝕄) := by
  rw [V48_eq]; exact .rfl
theorem hpre6 (c : Dev nD) : (iprop(StableHlo.held (c : Thread nD τ) (Pipeline.ucRefs τ sig) (GenP.V49 m (outs m) c) ∗ Rst c) : sProp 𝕄) ⊢ (reg6 m).pre c := by
  rw [V49_eq]; exact .rfl
theorem hpost6 (c : Dev nD) : (reg6 m).post c ⊢ (iprop(StableHlo.held (c : Thread nD τ) (Pipeline.ucRefs τ sig) (GenP.V50 m (outs m) c) ∗ Rst c) : sProp 𝕄) := by
  rw [V50_eq]; exact .rfl

/-! ## The launch -/

/-- The launch's ghost state: the pipelines' cells and launch tokens, whole. -/
abbrev u₀ : UR sig nD τ :=
  initOf (Pipeline.cells (Pipeline.pin (pcfgs (F := F)) (adm m)) (cellOf_inj (adm m))) (Pipeline.launchToks (Pipeline.pin (pcfgs (F := F)) (adm m)) (cellOf_inj (adm m)))

theorem hu₀ : (ownU (u₀ m) : sProp 𝕄) ⊢ |={Set.univ}=> iprop(BI.own (emb₁ (Ix := Unit) (Val := Elt F) (Name := ℕ) (Lvl := ℕ) (u₀ m)) ∗ bigSep Finset.univ fun _ : Dev nD => (BI.emp : sProp 𝕄)) := by
  iintro Hu; imodintro
  isplitl [Hu]
  · iapply (show (ownU (u₀ m) : sProp 𝕄) ⊢ BI.own (emb₁ (u₀ m)) from .rfl)
    iexact Hu
  iapply (show (BI.emp : sProp 𝕄) ⊢ bigSep Finset.univ (fun _ : Dev nD => (BI.emp : sProp 𝕄)) from by rw [BI.bigSep_emp_const])
  iempintro

/-- Each core makes its first rest state from what the launch deals it: the generator register at the launch's state,
    owing nothing. -/
theorem hE0 (ρ : Dev nD → PrngReg) :
    (iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz) : sProp 𝕄)
      ⊢ (|={Set.univ}=> bigSep Finset.univ (fun c : Dev nD => Rst c) : sProp 𝕄) :=
  Pipeline.initEach Lz lvz fun c => by
    iintro ⟨⟨-, HO, -, Hp, -⟩, -⟩
    imodintro
    isplitl [Hp]; · iexists _; iexact Hp
    iexists ∅; iexact HO

theorem hE7 (c : Dev nD) : Rst c ⊢ (iprop(∃ W, owes (c : Thread nD τ) (0 : CellTallies nD τ sig Unit) W) : sProp 𝕄) := by
  iintro ⟨-, HO⟩; iexact HO

/-- THE FRAME: from any memory with zero counters every weakly fair execution of @main terminates, nothing faulting, and
    every final memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.frame_cond m (EP := emb₁) (ι := ()) (𝒱₀ := Variants.none) (L := Lz) (lv := lvz) (hL := fun _ _ => rfl) (ρ := ρ)
    (outs := outs m) (a := adm m) (pdats := pdats m) (O₀ := 0) (G := fun _ => (BI.emp : sProp 𝕄)) (u₀ := u₀ m) (hu₀ := hu₀ m)
    (E := fun _ c => Rst c) (hE0 := hE0 ρ) (hE7 := hE7)
    (R0 := reg0 m) (hpre0 := hpre0 m) (hpost0 := hpost0 m) (R1 := reg1 m) (hpre1 := hpre1 m) (hpost1 := hpost1 m)
    (R2 := reg2 m) (hpre2 := hpre2 m) (hpost2 := hpost2 m) (R3 := reg3 m) (hpre3 := hpre3 m) (hpost3 := hpost3 m)
    (R4 := reg4 m) (hpre4 := hpre4 m) (hpost4 := hpost4 m) (R5 := reg5 m) (hpre5 := hpre5 m) (hpost5 := hpost5 m)
    (R6 := reg6 m) (hpre6 := hpre6 m) (hpost6 := hpost6 m)

/-- THE RUN WITH THE RESULT NAMED: the same, and the result buffer ends at what the host operations' fold under the
    regions' outputs names. -/
theorem run_val (ρ : Dev nD → PrngReg) : θ_run defs (onTc (τ := τ) (main (F := F))) ⟨m, fun _ => 0, ρ⟩ (fun r => ∀ c : Dev nD,
      r.2.mem ((c.tc : Thread nD τ).loc main_v197) = GenP.V51 m (outs m) c (Proc.devRef .tc main_v197)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.run_cond m (EP := emb₁) (ι := ()) (𝒱₀ := Variants.none) (L := Lz) (lv := lvz) (hL := fun _ _ => rfl) (ρ := ρ)
    (outs := outs m) (a := adm m) (pdats := pdats m) (O₀ := 0) (G := fun _ => (BI.emp : sProp 𝕄)) (u₀ := u₀ m) (hu₀ := hu₀ m)
    (E := fun _ c => Rst c) (hE0 := hE0 ρ) (hE7 := hE7)
    (R0 := reg0 m) (hpre0 := hpre0 m) (hpost0 := hpost0 m) (R1 := reg1 m) (hpre1 := hpre1 m) (hpost1 := hpost1 m)
    (R2 := reg2 m) (hpre2 := hpre2 m) (hpost2 := hpost2 m) (R3 := reg3 m) (hpre3 := hpre3 m) (hpost3 := hpost3 m)
    (R4 := reg4 m) (hpre4 := hpre4 m) (hpost4 := hpost4 m) (R5 := reg5 m) (hpre5 := hpre5 m) (hpost5 := hpost5 m)
    (R6 := reg6 m) (hpre6 := hpre6 m) (hpost6 := hpost6 m)

end Run

end Cert.Kernel.Hand

end
-- ==== Proof.KI.Mm.lean ====
/- The three matrix-product regions of @main (pallas_calls 0, 3 and 6), each at a parameter `V`, the TensorCore's buffer
   contents when the region is entered. Each is a grid of 10 points; at point `t` the body reads block row `t` of the left
   factor, the whole right factor and the whole bias row, and writes block row `t` of the result: the product plus the
   bias row on every row. Per region: each window's block at a point, what the body leaves in the output buffer, the
   body's triple, the pipeline's proof data and its body obligation. -/
import proofs.«402757_j20469814133395_4_alg».proof.Proof.Gen.KernelIdeal.Launch
import proofs.«402757_j20469814133395_4_alg».proof.Proof.Gen.KernelIdeal.Skeleton
import proofs.«402757_j20469814133395_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # REGION 0 of @main: custom_call 0, `cc0__matmul_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left factor's block row `t`): its current staging buffer holds its block at every point, for
    any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the right factor, whole; its block index never moves, so it is fetched at the first point only and
    found unmoved afterwards): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias row, whole; fetched at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x512 := Rect.unit (s := S5000x512) ![0, 0] S5000x512.size inb_S5000x512_S5000x512_0_0
abbrev r0_1 : Rect S512x64 := Rect.unit (s := S512x64) ![0, 0] S512x64.size inb_S512x64_S512x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

/-! ## What the body leaves in the output window's buffer -/

/-- Window 3's staging buffer after the body, from the input windows' blocks: the one store, of the product of the
    left block row and the right factor plus the bias row on every row. -/
def out0_3 (x0 : Vec F S5000x512 .f32) (x1 : Vec F S512x64 .f32) (x2 : Vec F S1x64 .f32) : Vec F S5000x64 .f32 :=
  View.canon [⟨r0_3, k0_pay1 (View.ld x0 r0_0) (View.ld x1 r0_1) (View.ld x2 r0_2)⟩]

/-- The store is of the whole buffer, so it covers it. -/
theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's triple -/

set_option maxHeartbeats 1000000 in
/-- The kernel body on whole staging memrefs, the inputs' at read contents `x0 x1 x2` and the output's at anything (the
    body reads it once before the store; nothing depends on what it reads), runs to the continuation holding the inputs'
    as they were and the output's at `out0_3` of the inputs'. -/
theorem sound_kernel0 (c : Dev nD) (E : Set ℕ) (i : grid0.Coords)
    (arg1 : Memref sig .tc .vmem S5000x512 .f32) (harg1 : arg1.IsWhole) (arg2 : Memref sig .tc .vmem S512x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x512 .f32) (x1 : Vec F S512x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 3 of @main: custom_call 3, `cc3__matmul_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the left factor's block row `t`): its current staging buffer holds its block at every point, for
    any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (the right factor, whole; its block index never moves, so it is fetched at the first point only and
    found unmoved afterwards): the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 (the bias row, whole; fetched at the first point only): the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S5000x128 := Rect.unit (s := S5000x128) ![0, 0] S5000x128.size inb_S5000x128_S5000x128_0_0
abbrev r3_1 : Rect S128x16 := Rect.unit (s := S128x16) ![0, 0] S128x16.size inb_S128x16_S128x16_0_0
abbrev r3_2 : Rect S1x16 := Rect.unit (s := S1x16) ![0, 0] S1x16.size inb_S1x16_S1x16_0_0
abbrev r3_3 : Rect S5000x16 := Rect.unit (s := S5000x16) ![0, 0] S5000x16.size inb_S5000x16_S5000x16_0_0

/-! ## What the body leaves in the output window's buffer -/

/-- Window 3's staging buffer after the body, from the input windows' blocks: the one store, of the product of the
    left block row and the right factor plus the bias row on every row. -/
def out3_3 (x0 : Vec F S5000x128 .f32) (x1 : Vec F S128x16 .f32) (x2 : Vec F S1x16 .f32) : Vec F S5000x16 .f32 :=
  View.canon [⟨r3_3, k3_pay1 (View.ld x0 r3_0) (View.ld x1 r3_1) (View.ld x2 r3_2)⟩]

/-- The store is of the whole buffer, so it covers it. -/
theorem cover3_3 (p0 : Vec F S5000x16 .f32) (y : S5000x16.Idx) :
    ∃ pc ∈ ([⟨r3_3, p0⟩] : List (View.Piece (Elt F) S5000x16 .f32)), y ∈ pc.1.set :=
  View.cover_of_tiled [⟨r3_3, p0⟩] S5000x16.size (by rfl) y

/-! ## The body's triple -/

set_option maxHeartbeats 1000000 in
/-- The kernel body on whole staging memrefs, the inputs' at read contents `x0 x1 x2` and the output's at anything (the
    body reads it once before the store; nothing depends on what it reads), runs to the continuation holding the inputs'
    as they were and the output's at `out3_3` of the inputs'. -/
theorem sound_kernel3 (c : Dev nD) (E : Set ℕ) (i : grid3.Coords)
    (arg1 : Memref sig .tc .vmem S5000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S5000x16 .f32) (harg4 : arg4.IsWhole)
    (x0 : Vec F S5000x128 .f32) (x1 : Vec F S128x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__matmul_kernel i arg1 harg1 arg2 harg2 arg3 harg3 arg4 harg4) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! # REGION 6 of @main: custom_call 6, `cc6__matmul_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the left factor's block row `t`): its current staging buffer holds its block at every point, for
    any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 (the right factor, whole; its block index never moves, so it is fetched at the first point only and
    found unmoved afterwards): the same. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2 (the bias row, whole; fetched at the first point only): the same. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S5000x32 := Rect.unit (s := S5000x32) ![0, 0] S5000x32.size inb_S5000x32_S5000x32_0_0
abbrev r6_1 : Rect S32x16 := Rect.unit (s := S32x16) ![0, 0] S32x16.size inb_S32x16_S32x16_0_0
abbrev r6_2 : Rect S1x16 := Rect.unit (s := S1x16) ![0, 0] S1x16.size inb_S1x16_S1x16_0_0
abbrev r6_3 : Rect S5000x16 := Rect.unit (s := S5000x16) ![0, 0] S5000x16.size inb_S5000x16_S5000x16_0_0

/-! ## What the body leaves in the output window's buffer -/

/-- Window 3's staging buffer after the body, from the input windows' blocks: the one store, of the product of the
    left block row and the right factor plus the bias row on every row. -/
def out6_3 (x0 : Vec F S5000x32 .f32) (x1 : Vec F S32x16 .f32) (x2 : Vec F S1x16 .f32) : Vec F S5000x16 .f32 :=
  View.canon [⟨r6_3, k6_pay1 (View.ld x0 r6_0) (View.ld x1 r6_1) (View.ld x2 r6_2)⟩]

/-- The store is of the whole buffer, so it covers it. -/
theorem cover6_3 (p0 : Vec F S5000x16 .f32) (y : S5000x16.Idx) :
    ∃ pc ∈ ([⟨r6_3, p0⟩] : List (View.Piece (Elt F) S5000x16 .f32)), y ∈ pc.1.set :=
  View.cover_of_tiled [⟨r6_3, p0⟩] S5000x16.size (by rfl) y

/-! ## The body's triple -/

set_option maxHeartbeats 1000000 in
/-- The kernel body on whole staging memrefs, the inputs' at read contents `x0 x1 x2` and the output's at anything (the
    body reads it once before the store; nothing depends on what it reads), runs to the continuation holding the inputs'
    as they were and the output's at `out6_3` of the inputs'. -/
theorem sound_kernel6 (c : Dev nD) (E : Set ℕ) (i : grid6.Coords)
    (arg1 : Memref sig .tc .vmem S5000x32 .f32) (harg1 : arg1.IsWhole) (arg2 : Memref sig .tc .vmem S32x16 .f32) (harg2 : arg2.IsWhole)
    (arg3 : Memref sig .tc .vmem S1x16 .f32) (harg3 : arg3.IsWhole) (arg4 : Memref sig .tc .vmem S5000x16 .f32) (harg4 : arg4.IsWhole)
    (x0 : Vec F S5000x32 .f32) (x1 : Vec F S32x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__matmul_kernel i arg1 harg1 arg2 harg2 arg3 harg3 arg4 harg4) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at point `t`
    each input's buffer at its block and the output's at `out6_3` of the input blocks; the invariant the scoped rest and
    the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.KernelIdeal.Hand

end
-- ==== Proof.KI.SegRunCommon.lean ====
/- Facts the four segment-sum body runs share: the branch condition in closed form, a buffer's contents after a last
   write as an overlay, and a whole-shape write read back. None mentions the program. -/
import Idealize.ShloMosaic.Lib.Pipeline.FrameBody
import Idealize.ShloMosaic.Lib.Pipeline.Value

namespace Cert.KernelIdeal.Hand.Seg

open Idealize.ShloMosaic

/-- The branch condition the segment-sum bodies compute from a grid coordinate `n` (an `i32` compare with zero, widened,
    compared with zero again) holds exactly when `n = 0`. -/
theorem cond_iff (n : Nat) (hn : n < 2 ^ 32) :
    (Scalar.cmpi .ne (Scalar.extui (Scalar.cmpi .eq (BitVec.ofNat 32 n) 0#32)) 0#32) = 1#1 ↔ n = 0 := by
  constructor
  · intro h
    by_contra hne
    have hx : BitVec.ofNat 32 n ≠ 0#32 := by
      intro e
      have e' := congrArg BitVec.toNat e
      rw [BitVec.toNat_ofNat, Nat.mod_eq_of_lt hn] at e'
      exact hne e'
    have h0 : Scalar.cmpi .eq (BitVec.ofNat 32 n) 0#32 = 0#1 := by
      have hb : (BitVec.ofNat 32 n == 0#32) = false := beq_eq_false_iff_ne.mpr hx
      unfold Scalar.cmpi IntOp.cmpi
      show BitVec.ofBool (BitVec.ofNat 32 n == 0#32) = 0#1
      rw [hb]; rfl
    rw [h0] at h
    exact absurd h (by decide)
  · rintro rfl; decide

/-- After a last write through `r`, a view reads what it read before with `r`'s part replaced by the payload. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons, View.read_slice_write_of_not_mem r _ _ _ (by rw [Rect.map_emb_univ]; exact hy)]

/-- One write through the whole shape leaves its payload, whatever the buffer held. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

theorem hz2 : (![0, 0] : Fin 2 → Nat) = fun _ => 0 := funext fun a => by fin_cases a <;> rfl
theorem hz3 : (![0, 0, 0] : Fin 3 → Nat) = fun _ => 0 := funext fun a => by fin_cases a <;> rfl

end Cert.KernelIdeal.Hand.Seg
-- ==== Proof.KI.SegRun1.lean ====
/- The body of segment-sum launch 1 run once per control case: at a grid point whose second coordinate is zero the
   slab is first stored zero; in both cases the rows `[w, w + 2056)` of the slab (`w` the table word of the point)
   are replaced by themselves plus the product of the one-hot matrix of the segment ids with the values. `slab1`
   names what is left; `sound_kernel1` is the body's triple at any point. -/
import proofs.«402757_j20469814133395_4_alg».proof.Proof.Gen.KernelIdeal.Launch
import proofs.«402757_j20469814133395_4_alg».proof.Proof.Gen.KernelIdeal.Skeleton
import proofs.«402757_j20469814133395_4_alg».proof.Proof.Gen.KernelIdeal.Points
import proofs.«402757_j20469814133395_4_alg».proof.Proof.KI.SegRunCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the second coordinate is zero. -/
abbrev cond1 (i : grid1.Coords) : Prop := (Scalar.cmpi .ne (Scalar.extui (Scalar.cmpi .eq (BitVec.ofNat 32 (i 1).val) 0#32)) 0#32) = 1#1

theorem cond1_iff : ∀ i : grid1.Coords, cond1 i ↔ (i 1).val = 0 := fun i =>
  Seg.cond_iff _ (Nat.lt_trans (show (i 1).val < 86 from (i 1).isLt) (by decide))

/-- The table word the body reads at point `i` — the first row of the slab's rows it adds to —, through the table's
    memref at its held contents. -/
abbrev word1 (c : Dev nD) (i : grid1.Coords) (arg2 : Memref sig .tc .smem S172 .i32) (xt : Buf (Elt F) (arg2.view.loc (c : Thread nD τ))) : Elt F .i32 :=
  arg2.view.readAt (Elt F) (Rect.unit (s := S172) (k1_off1 i) S1.size (k1_off1_inb i)).toLoadRect xt (Shape.Idx.first (numel1_S1.symm ▸ Nat.one_pos))

/-- The rows `[w, w + 2056)` of the slab. -/
abbrev rect1 (w : BitVec 32) (hchk : k1_chk1 w) : Rect S1x50000x64 := Rect.unit (s := S1x50000x64) (k1_off2 w) S1x2056x64.size (k1_off2_inb w hchk)

/-- What the body leaves in the slab: the slab as it was (all zero when the second coordinate is zero), its rows
    `[w, w + 2056)` replaced by themselves plus the product of the one-hot matrix of the segment ids (row `r`, column
    `k`: is id `k` equal to `w + r`) with the values. -/
def slab1 (j0 : Bool) (w : BitVec 32) (hchk : k1_chk1 w) (tb : Vec F S1x2048 .i32) (vb : Vec F S2048x64 .bf16) (prev : Vec F S1x50000x64 .f32) : Vec F S1x50000x64 .f32 :=
  let base : Vec F S1x50000x64 .f32 := if j0 then k1_pay1 else prev
  (rect1 w hchk).overlay base (k1_pay2 w tb vb (View.ld base (rect1 w hchk)))

/-- The slab left at a point whose second coordinate is zero does not depend on what it held. -/
theorem slab1_true (w : BitVec 32) (hchk : k1_chk1 w) (tb : Vec F S1x2048 .i32) (vb : Vec F S2048x64 .bf16) (prev : Vec F S1x50000x64 .f32) :
    slab1 true w hchk tb vb prev = (rect1 w hchk).overlay k1_pay1 (k1_pay2 w tb vb (View.ld k1_pay1 (rect1 w hchk))) := by
  unfold slab1; rw [if_pos rfl]

theorem slab1_false (w : BitVec 32) (hchk : k1_chk1 w) (tb : Vec F S1x2048 .i32) (vb : Vec F S2048x64 .bf16) (prev : Vec F S1x50000x64 .f32) :
    slab1 false w hchk tb vb prev = (rect1 w hchk).overlay prev (k1_pay2 w tb vb (View.ld prev (rect1 w hchk))) := by
  unfold slab1; rw [if_neg Bool.false_ne_true]

set_option maxHeartbeats 1000000 in
/-- The body at a point whose second coordinate is zero: the slab is zeroed, then its rows `[w, w + 2056)` are read
    back, added to and stored. -/
theorem sound_kernel1_A (c : Dev nD) (E : Set ℕ) (i : grid1.Coords) (arg2 : Memref sig .tc .smem S172 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole) (hc0 : cond1 i)
    (q : PosShare TreeShare) (xt : Buf (Elt F) (arg2.view.loc (c : Thread nD τ))) (hchk : k1_chk1 (word1 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab1 true (word1 c i arg2 xt) hchk tb vb prev) ∗ (arg2.view.loc (c : Thread nD τ) ↦{q} xt)) -∗ K ⟨⟩))
      ⊢ wp frame (wpE (defs₀ (F := F)) Variants.none c none) E (cc1__segsum_kernel i arg2 harg2 arg3 harg3 arg4 harg4 arg5 harg5) K := by
  simp only [cc1__segsum_kernel_eq_skeleton]; unfold cc1__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab1_true, Seg.read_writes_cons_overlay]
    sl_unfold_words
    simp only [View.readAt_eq_ld, harg3.read_unread, harg4.read_unread, Seg.read_writes_unit_zero (S := S1x50000x64) _ _ Seg.hz3]
    rw [View.ld_unit_zero (S := S1x2048) Seg.hz2, View.ld_unit_zero (S := S2048x64) Seg.hz2]
    rfl
  iexact HT

set_option maxHeartbeats 1000000 in
/-- The body at a point whose second coordinate is not zero: the slab's rows `[w, w + 2056)` are read, added to and
    stored; the rest stays. -/
theorem sound_kernel1_B (c : Dev nD) (E : Set ℕ) (i : grid1.Coords) (arg2 : Memref sig .tc .smem S172 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole) (hc0 : ¬cond1 i)
    (q : PosShare TreeShare) (xt : Buf (Elt F) (arg2.view.loc (c : Thread nD τ))) (hchk : k1_chk1 (word1 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab1 false (word1 c i arg2 xt) hchk tb vb prev) ∗ (arg2.view.loc (c : Thread nD τ) ↦{q} xt)) -∗ K ⟨⟩))
      ⊢ wp frame (wpE (defs₀ (F := F)) Variants.none c none) E (cc1__segsum_kernel i arg2 harg2 arg3 harg3 arg4 harg4 arg5 harg5) K := by
  simp only [cc1__segsum_kernel_eq_skeleton]; unfold cc1__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab1_false, Seg.read_writes_cons_overlay, View.writes_nil, harg5.read_unread]
    sl_unfold_words
    simp only [View.readAt_eq_ld, harg3.read_unread, harg4.read_unread, harg5.read_unread]
    rw [View.ld_unit_zero (S := S1x2048) Seg.hz2, View.ld_unit_zero (S := S2048x64) Seg.hz2]
    rfl
  iexact HT

/-- The body at any point: from the windows' staging buffers held whole (the values, the segment ids, the slab at
    `prev`) and any share of the table, under the side condition of the table word it reads, it leaves the slab at
    `slab1` and everything else as it was. -/
theorem sound_kernel1 (c : Dev nD) (E : Set ℕ) (i : grid1.Coords) (arg2 : Memref sig .tc .smem S172 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole)
    (q : PosShare TreeShare) (xt : Buf (Elt F) (arg2.view.loc (c : Thread nD τ))) (hchk : k1_chk1 (word1 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab1 (decide ((i 1).val = 0)) (word1 c i arg2 xt) hchk tb vb prev) ∗ (arg2.view.loc (c : Thread nD τ) ↦{q} xt)) -∗ K ⟨⟩))
      ⊢ wp frame (wpE (defs₀ (F := F)) Variants.none c none) E (cc1__segsum_kernel i arg2 harg2 arg3 harg3 arg4 harg4 arg5 harg5) K := by
  by_cases h : cond1 i
  · have hd : decide ((i 1).val = 0) = true := decide_eq_true ((cond1_iff i).1 h)
    rw [hd]
    exact sound_kernel1_A c E i arg2 harg2 arg3 harg3 arg4 harg4 arg5 harg5 h q xt hchk vb tb prev K
  · have hd : decide ((i 1).val = 0) = false := decide_eq_false (fun e => h ((cond1_iff i).2 e))
    rw [hd]
    exact sound_kernel1_B c E i arg2 harg2 arg3 harg3 arg4 harg4 arg5 harg5 h q xt hchk vb tb prev K

end Cert.KernelIdeal.Hand

end
-- ==== Proof.KI.SegDat1.lean ====
/- The proof data and the body obligation of segment-sum call 1 (grid (2, 86), 172 points): its output slab is
   carried in one staging buffer across the 86 points of a row of the grid and written back when the row ends. -/
import proofs.«402757_j20469814133395_4_alg».proof.Proof.Gen.KernelIdeal.Launch
import proofs.«402757_j20469814133395_4_alg».proof.Proof.Gen.KernelIdeal.Skeleton
import proofs.«402757_j20469814133395_4_alg».proof.Proof.Gen.KernelIdeal.Points
import proofs.«402757_j20469814133395_4_alg».proof.Proof.KI.SegRun1
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table of window starts, as the body is handed it -/

/-- The table's buffer as a memref: the whole buffer. -/
abbrev tbM1 : Memref sig .tc .smem S172 .i32 := Memref.whole main_v63
abbrev htbM1 : tbM1.IsWhole := Memref.isWhole_whole _

/-- At a row's first point the slab is reset before it is read: what the buffer held does not matter. -/
theorem slab1_reset (w : BitVec 32) (hchk : k1_chk1 w) (tb : Vec F S1x2048 .i32) (vb : Vec F S2048x64 .bf16) (prev prev' : Vec F S1x50000x64 .f32) :
    slab1 true w hchk tb vb prev = slab1 true w hchk tb vb prev' := by
  rw [slab1_true, slab1_true]

/-! ## The schedule of the grid: (p, j) = (t / 86, t % 86); the slab is written back when a row ends -/

theorem coords1_0 : ∀ t : Fin grid1.N, ((grid1.coords t) 0).val = t.val / 86 := by decide +kernel
theorem coords1_1 : ∀ t : Fin grid1.N, ((grid1.coords t) 1).val = t.val % 86 := by decide +kernel

section Data

variable (V : (c : Dev nD) → (b : Ref sig .tc) → Buf (Elt F) ((c : Thread nD τ).loc b))
variable (a : (pcfg1 (F := F)).Adm)

/-- The slab window is written back at the last point of each row, at any contents of the table (its index map reads none). -/
theorem flush1_2 : ∀ t : Fin (cfg1 a).N, ((cfg1 a).win 2).flush t = true ↔ t.val % 86 = 85 :=
  (by decide +kernel : ∀ t : Fin grid1.N, Pipeline.Window.flushOf grid1 true cc1_transform_2 t = true ↔ t.val % 86 = 85)

/-- The current staging memref of each window at point t. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)

/-- The kernel body at point t, on what the pipeline calls it with. -/
abbrev bodyAt1 (t : Fin (cfg1 a).N) : Prog (TpuEff nD τ sig (Elt F) Λ₀ .tc) PUnit :=
  cc1__segsum_kernel (grid1.coords t) (Memref.whole main_v63) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2))

/-- The table's contents, as the buffer's on core c. -/
abbrev tbl1 (c : Dev nD) : Buf (Elt F) (tbM1.view.loc (c : Thread nD τ)) := a.1 0

/-- The tables the region holds are the one table, at its contents. -/
theorem prefHeld1_eq (c : Dev nD) (q : PosShare TreeShare) :
    (Pipeline.prefHeld (Ix := Unit) (Name := ℕ) (U := UR sig nD τ) (Lvl := ℕ) pre1 c (fun _ => q) a.1 : sProp 𝕄)
      = (tbM1.view.loc (c : Thread nD τ) ↦{q} tbl1 a c) := by
  unfold Pipeline.prefHeld
  rw [show (Finset.univ : Finset (Fin 1)) = {(0 : Fin 1)} from by decide, bigSep_singleton]
  rfl

/-- Window w's block at point t, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- An input window's current staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

variable (htbl : ∀ (c : Dev nD) (i : grid1.Coords), k1_chk1 (word1 c i tbM1 (tbl1 a c)))

/-- One point's step on the slab: the body at point t from the slab prev. -/
def stepAt1 (c : Dev nD) (t : Fin (cfg1 a).N) (prev : Vec F S1x50000x64 .f32) : Vec F S1x50000x64 .f32 :=
  slab1 (decide (((grid1.coords t) 1).val = 0)) (word1 c (grid1.coords t) tbM1 (tbl1 a c)) (htbl c (grid1.coords t))
    (iblk1 V a c 1 t) (iblk1 V a c 0 t) prev

/-- THE ACCUMULATION. What the slab's staging buffer holds after the body at position n: the step at n over what
    the position before left (at a row's first point the step resets the slab, so what it starts from does not matter). -/
def outsAt1 (c : Dev nD) : (n : ℕ) → n < (cfg1 a).N → Vec F S1x50000x64 .f32
  | 0, hn => stepAt1 V a htbl c ⟨0, hn⟩ k1_pay1
  | n + 1, hn => stepAt1 V a htbl c ⟨n + 1, hn⟩ (outsAt1 c n (Nat.lt_of_succ_lt hn))

/-- The accumulation at a point, over any slab that is what the point before left — or over anything at a row's first point. -/
theorem outsAt1_eq (c : Dev nD) (t : Fin (cfg1 a).N) (prev : Vec F S1x50000x64 .f32)
    (h : t.val % 86 = 0 ∨ ∃ ht : t.val ≠ 0, prev = outsAt1 V a htbl c (t.val - 1) (Nat.lt_of_le_of_lt (Nat.sub_le _ _) t.isLt)) :
    outsAt1 V a htbl c t.val t.isLt = stepAt1 V a htbl c t prev := by
  obtain ⟨n, hn⟩ := t
  rcases h with h0 | ⟨ht, rfl⟩
  · have hd : decide (((grid1.coords ⟨n, hn⟩) 1).val = 0) = true := decide_eq_true (by rw [coords1_1]; exact h0)
    cases n with
    | zero => unfold outsAt1 stepAt1; rw [hd]; exact slab1_reset _ _ _ _ _ _
    | succ n => unfold outsAt1 stepAt1; rw [hd]; exact slab1_reset _ _ _ _ _ _
  · cases n with
    | zero => exact absurd rfl ht
    | succ n => rfl

/-! ## The pipeline's proof data -/

/-- The proof data of the pipeline on core c, at the region-entry contents V and the table's contents a: the arrays as the
    region finds them; after the body at point t each input's buffer at its block and the slab's at the accumulation; the
    invariant the scoped rest, the generator register and the table held whole; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => outsAt1 V a htbl c t.val t.isLt
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a htbl c).A w = V c (Pipeline.arrRef spec1 w) := by
  dsimp only [dat1]

theorem after1_0 (c : Dev nD) (t : Fin (cfg1 a).N) : (dat1 V a htbl c).after 0 t = iblk1 V a c 0 t := by dsimp only [dat1]; try rfl
theorem after1_1 (c : Dev nD) (t : Fin (cfg1 a).N) : (dat1 V a htbl c).after 1 t = iblk1 V a c 1 t := by dsimp only [dat1]; try rfl
theorem after1_2 (c : Dev nD) (t : Fin (cfg1 a).N) : (dat1 V a htbl c).after 2 t = outsAt1 V a htbl c t.val t.isLt := by dsimp only [dat1]; try rfl

theorem Phi1_eq (c : Dev nD) (n : Fin ((cfg1 a).N + 1)) :
    (dat1 V a htbl c).Φ n = iprop(Pipeline.ΦA spec1 c ∗ (tbM1.view.loc (c : Thread nD τ) ↦{fullShare} tbl1 a c)) := by
  rw [← prefHeld1_eq a c fullShare]; rfl

theorem before1_0 (c : Dev nD) (t : Fin (cfg1 a).N) (d) : (dat1 V a htbl c).before 0 t d = iblk1 V a c 0 t :=
  before1_0_of V a (dat1 V a htbl c) (A_eq1 V a htbl c 0) (after1_0 V a htbl c) t d
theorem before1_1 (c : Dev nD) (t : Fin (cfg1 a).N) (d) : (dat1 V a htbl c).before 1 t d = iblk1 V a c 1 t :=
  before1_1_of V a (dat1 V a htbl c) (A_eq1 V a htbl c 1) (after1_1 V a htbl c) t d

/-- Inside a row the slab's staging buffer holds what the body left at the point before: the point is not the first,
    the buffer was not written back between, the window is never idle and never cut. -/
theorem before1_2_kept (c : Dev nD) (t : Fin (cfg1 a).N) (h0 : ¬t.val % 86 = 0) (d) :
    (dat1 V a htbl c).before 2 t d = outsAt1 V a htbl c (t.val - 1) (Nat.lt_of_le_of_lt (Nat.sub_le _ _) t.isLt) := by
  have hN : t.val < 172 := lt_of_lt_of_eq t.isLt (show (cfg1 a).N = 172 from N_1)
  rw [Dat.before_out_kept _ 2 rfl t (by omega) (Bool.eq_false_iff.mpr fun h => by have := (flush1_2 a _).mp h; dsimp only at this; omega)
    (fun _ => rfl) (fun _ _ => rfl)]
  exact after1_2 V a htbl c _

/-! ## The body obligation, at a generic point -/

def bodyPre1 (c : Dev nD) (t : Fin (cfg1 a).N) : sProp 𝕄 :=
  iprop((dat1 V a htbl c).Φ t.castSucc ∗ (dat1 V a htbl c).owesAt () t.castSucc
    ∗ (∃ d, owns (c : Thread nD τ) (st1_0 a t) fullShare ((dat1 V a htbl c).before 0 t d))
    ∗ (∃ d, owns (c : Thread nD τ) (st1_1 a t) fullShare ((dat1 V a htbl c).before 1 t d))
    ∗ (∃ d, owns (c : Thread nD τ) (st1_2 a t) fullShare ((dat1 V a htbl c).before 2 t d)))

def bodyPost1 (c : Dev nD) (t : Fin (cfg1 a).N) : sProp 𝕄 :=
  iprop((dat1 V a htbl c).Φ t.succ ∗ (dat1 V a htbl c).owesAt () t.succ
    ∗ owns (c : Thread nD τ) (st1_0 a t) fullShare ((dat1 V a htbl c).after 0 t)
    ∗ owns (c : Thread nD τ) (st1_1 a t) fullShare ((dat1 V a htbl c).after 1 t)
    ∗ owns (c : Thread nD τ) (st1_2 a t) fullShare ((dat1 V a htbl c).after 2 t))

set_option maxHeartbeats 800000 in
/-- The body at any point: the inputs' memrefs hold their blocks; inside a row the slab's holds what the point before left,
    at a row's first point anything (the body resets it); so the body's run applies, the table lent from the invariant and
    taken back; the core owes nothing throughout. -/
theorem sound_body1 (c : Dev nD) (t : Fin (cfg1 a).N) :
    bodyPre1 V a htbl c t ⊢ wp frame (wpE (defs₀ (F := F)) Variants.none c none) Set.univ (bodyAt1 a t) (fun _ => bodyPost1 V a htbl c t) := by
  unfold bodyPre1 bodyPost1 bodyAt1
  simp only [before1_0, before1_1]
  rw [show (dat1 V a htbl c).owesAt () t.succ = (dat1 V a htbl c).owesAt () t.castSucc from rfl,
    after1_0, after1_1, after1_2, Phi1_eq, Phi1_eq]
  iintro ⟨⟨HΦ, HT⟩, Ho, ⟨%d0, H0⟩, ⟨%d1, H1⟩, ⟨%d2, H2⟩⟩
  have hstep : outsAt1 V a htbl c t.val t.isLt = stepAt1 V a htbl c t ((dat1 V a htbl c).before 2 t d2) := by
    refine outsAt1_eq V a htbl c t _ ?_
    by_cases h0 : t.val % 86 = 0
    · exact .inl h0
    · exact .inr ⟨fun h => h0 (by rw [h]), before1_2_kept V a htbl c t h0 d2⟩
  rw [hstep]; unfold stepAt1
  iapply (sound_kernel1 c Set.univ (grid1.coords t) tbM1 htbM1 _ _ _ _ _ _ fullShare (tbl1 a c) (htbl c (grid1.coords t))
    (iblk1 V a c 0 t) (iblk1 V a c 1 t) ((dat1 V a htbl c).before 2 t d2) _)
  isplitl [H0]; · iexact H0
  isplitl [H1]; · iexact H1
  isplitl [H2]; · iexact H2
  isplitl [HT]; · iexact HT
  iintro ⟨H0, H1, H2, HT⟩
  isplitl [HΦ HT]
  · isplitl [HΦ]; · iexact HΦ
    iexact HT
  isplitl [Ho]; · iexact Ho
  isplitl [H0]; · iexact H0
  isplitl [H1]; · iexact H1
  iexact H2

/-- The library's body obligation, at every point. -/
theorem body_obligation1 (c : Dev nD) : BodyObligation (dat1 (F := F) V a htbl c) (defs₀ (F := F)) Variants.none () Set.univ := fun t => by
  rw [bigSep_W1, bigSep_W1]
  exact sound_body1 V a htbl c t

/-- The word the body reads through the table's memref is one of the table's words: a condition on every word of the
    table gives the condition at every point. -/
theorem htbl1_of (a : (pcfg1 (F := F)).Adm) (h : ∀ k : S172.Idx, k1_chk1 ((a.1 0 : S172.Idx → BitVec 32) k)) :
    ∀ (c : Dev nD) (i : grid1.Coords), k1_chk1 (word1 c i tbM1 (tbl1 a c)) :=
  fun c i => h ((Rect.unit (s := S172) (k1_off1 i) S1.size (k1_off1_inb i)).emb (Shape.Idx.first (numel1_S1.symm ▸ Nat.one_pos)))

/-- The word read at grid point i is the table's element at 86 * i 0 + i 1. -/
theorem word1_eq (c : Dev nD) (i : grid1.Coords) (f : Buf (Elt F) (tbM1.view.loc (c : Thread nD τ))) (x : S172.Idx)
    (hx : (x 0).val = 86 * (i 0).val + (i 1).val) : word1 c i tbM1 f = (f : S172.Idx → BitVec 32) x := by
  show (f : S172.Idx → BitVec 32) ((Rect.unit (s := S172) (k1_off1 i) S1.size (k1_off1_inb i)).emb (Shape.Idx.first (numel1_S1.symm ▸ Nat.one_pos))) = _
  refine congrArg _ (funext fun b => Fin.ext ?_)
  obtain rfl : b = 0 := Subsingleton.elim _ _
  rw [Rect.emb_apply, hx]
  show k1_off1 i 0 + 1 * 0 = _
  rw [k1_off1_eq]; rfl

end Data

end Cert.KernelIdeal.Hand

end
-- ==== Proof.KI.SegRun2.lean ====
/- The body of segment-sum launch 2 run once per control case: at a grid point whose second coordinate is zero the
   slab is first stored zero; in both cases the rows `[w, w + 2056)` of the slab (`w` the table word of the point)
   are replaced by themselves plus the product of the one-hot matrix of the segment ids with the values. `slab2`
   names what is left; `sound_kernel2` is the body's triple at any point. -/
import proofs.«402757_j20469814133395_4_alg».proof.Proof.Gen.KernelIdeal.Launch
import proofs.«402757_j20469814133395_4_alg».proof.Proof.Gen.KernelIdeal.Skeleton
import proofs.«402757_j20469814133395_4_alg».proof.Proof.Gen.KernelIdeal.Points
import proofs.«402757_j20469814133395_4_alg».proof.Proof.KI.SegRunCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the second coordinate is zero. -/
abbrev cond2 (i : grid2.Coords) : Prop := (Scalar.cmpi .ne (Scalar.extui (Scalar.cmpi .eq (BitVec.ofNat 32 (i 1).val) 0#32)) 0#32) = 1#1

theorem cond2_iff : ∀ i : grid2.Coords, cond2 i ↔ (i 1).val = 0 := fun i =>
  Seg.cond_iff _ (Nat.lt_trans (show (i 1).val < 452 from (i 1).isLt) (by decide))

/-- The table word the body reads at point `i` — the first row of the slab's rows it adds to —, through the table's
    memref at its held contents. -/
abbrev word2 (c : Dev nD) (i : grid2.Coords) (arg2 : Memref sig .tc .smem S904 .i32) (xt : Buf (Elt F) (arg2.view.loc (c : Thread nD τ))) : Elt F .i32 :=
  arg2.view.readAt (Elt F) (Rect.unit (s := S904) (k2_off1 i) S1.size (k2_off1_inb i)).toLoadRect xt (Shape.Idx.first (numel1_S1.symm ▸ Nat.one_pos))

/-- The rows `[w, w + 2056)` of the slab. -/
abbrev rect2 (w : BitVec 32) (hchk : k2_chk1 w) : Rect S1x50000x64 := Rect.unit (s := S1x50000x64) (k2_off2 w) S1x2056x64.size (k2_off2_inb w hchk)

/-- What the body leaves in the slab: the slab as it was (all zero when the second coordinate is zero), its rows
    `[w, w + 2056)` replaced by themselves plus the product of the one-hot matrix of the segment ids (row `r`, column
    `k`: is id `k` equal to `w + r`) with the values. -/
def slab2 (j0 : Bool) (w : BitVec 32) (hchk : k2_chk1 w) (tb : Vec F S1x2048 .i32) (vb : Vec F S2048x64 .bf16) (prev : Vec F S1x50000x64 .f32) : Vec F S1x50000x64 .f32 :=
  let base : Vec F S1x50000x64 .f32 := if j0 then k2_pay1 else prev
  (rect2 w hchk).overlay base (k2_pay2 w tb vb (View.ld base (rect2 w hchk)))

/-- The slab left at a point whose second coordinate is zero does not depend on what it held. -/
theorem slab2_true (w : BitVec 32) (hchk : k2_chk1 w) (tb : Vec F S1x2048 .i32) (vb : Vec F S2048x64 .bf16) (prev : Vec F S1x50000x64 .f32) :
    slab2 true w hchk tb vb prev = (rect2 w hchk).overlay k2_pay1 (k2_pay2 w tb vb (View.ld k2_pay1 (rect2 w hchk))) := by
  unfold slab2; rw [if_pos rfl]

theorem slab2_false (w : BitVec 32) (hchk : k2_chk1 w) (tb : Vec F S1x2048 .i32) (vb : Vec F S2048x64 .bf16) (prev : Vec F S1x50000x64 .f32) :
    slab2 false w hchk tb vb prev = (rect2 w hchk).overlay prev (k2_pay2 w tb vb (View.ld prev (rect2 w hchk))) := by
  unfold slab2; rw [if_neg Bool.false_ne_true]

set_option maxHeartbeats 1000000 in
/-- The body at a point whose second coordinate is zero: the slab is zeroed, then its rows `[w, w + 2056)` are read
    back, added to and stored. -/
theorem sound_kernel2_A (c : Dev nD) (E : Set ℕ) (i : grid2.Coords) (arg2 : Memref sig .tc .smem S904 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole) (hc0 : cond2 i)
    (q : PosShare TreeShare) (xt : Buf (Elt F) (arg2.view.loc (c : Thread nD τ))) (hchk : k2_chk1 (word2 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab2 true (word2 c i arg2 xt) hchk tb vb prev) ∗ (arg2.view.loc (c : Thread nD τ) ↦{q} xt)) -∗ K ⟨⟩))
      ⊢ wp frame (wpE (defs₀ (F := F)) Variants.none c none) E (cc2__segsum_kernel i arg2 harg2 arg3 harg3 arg4 harg4 arg5 harg5) K := by
  simp only [cc2__segsum_kernel_eq_skeleton]; unfold cc2__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab2_true, Seg.read_writes_cons_overlay]
    sl_unfold_words
    simp only [View.readAt_eq_ld, harg3.read_unread, harg4.read_unread, Seg.read_writes_unit_zero (S := S1x50000x64) _ _ Seg.hz3]
    rw [View.ld_unit_zero (S := S1x2048) Seg.hz2, View.ld_unit_zero (S := S2048x64) Seg.hz2]
    rfl
  iexact HT

set_option maxHeartbeats 1000000 in
/-- The body at a point whose second coordinate is not zero: the slab's rows `[w, w + 2056)` are read, added to and
    stored; the rest stays. -/
theorem sound_kernel2_B (c : Dev nD) (E : Set ℕ) (i : grid2.Coords) (arg2 : Memref sig .tc .smem S904 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole) (hc0 : ¬cond2 i)
    (q : PosShare TreeShare) (xt : Buf (Elt F) (arg2.view.loc (c : Thread nD τ))) (hchk : k2_chk1 (word2 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab2 false (word2 c i arg2 xt) hchk tb vb prev) ∗ (arg2.view.loc (c : Thread nD τ) ↦{q} xt)) -∗ K ⟨⟩))
      ⊢ wp frame (wpE (defs₀ (F := F)) Variants.none c none) E (cc2__segsum_kernel i arg2 harg2 arg3 harg3 arg4 harg4 arg5 harg5) K := by
  simp only [cc2__segsum_kernel_eq_skeleton]; unfold cc2__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab2_false, Seg.read_writes_cons_overlay, View.writes_nil, harg5.read_unread]
    sl_unfold_words
    simp only [View.readAt_eq_ld, harg3.read_unread, harg4.read_unread, harg5.read_unread]
    rw [View.ld_unit_zero (S := S1x2048) Seg.hz2, View.ld_unit_zero (S := S2048x64) Seg.hz2]
    rfl
  iexact HT

/-- The body at any point: from the windows' staging buffers held whole (the values, the segment ids, the slab at
    `prev`) and any share of the table, under the side condition of the table word it reads, it leaves the slab at
    `slab2` and everything else as it was. -/
theorem sound_kernel2 (c : Dev nD) (E : Set ℕ) (i : grid2.Coords) (arg2 : Memref sig .tc .smem S904 .i32) (harg2 : arg2.IsWhole) (arg3 : Memref sig .tc .vmem S2048x64 .bf16) (harg3 : arg3.IsWhole) (arg4 : Memref sig .tc .vmem S1x2048 .i32) (harg4 : arg4.IsWhole) (arg5 : Memref sig .tc .vmem S1x50000x64 .f32) (harg5 : arg5.IsWhole)
    (q : PosShare TreeShare) (xt : Buf (Elt F) (arg2.view.loc (c : Thread nD τ))) (hchk : k2_chk1 (word2 c i arg2 xt))
    (vb : Vec F S2048x64 .bf16) (tb : Vec F S1x2048 .i32) (prev : Vec F S1x50000x64 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab2 (decide ((i 1).val = 0)) (word2 c i arg2 xt) hchk tb vb prev) ∗ (arg2.view.loc (c : Thread nD τ) ↦{q} xt)) -∗ K ⟨⟩))
      ⊢ wp frame (wpE (defs₀ (F := F)) Variants.none c none) E (cc2__segsum_kernel i arg2 harg2 arg3 harg3 arg4 harg4 arg5 harg5) K := by
  by_cases h : cond2 i
  · have hd : decide ((i 1).val = 0) = true := decide_eq_true ((cond2_iff i).1 h)
    rw [hd]
    exact sound_kernel2_A c E i arg2 harg2 arg3 harg3 arg4 harg4 arg5 harg5 h q xt hchk vb tb prev K
  · have hd : decide ((i 1).val = 0) = false := decide_eq_false (fun e => h ((cond2_iff i).2 e))
    rw [hd]
    exact sound_kernel2_B c E i arg2 harg2 arg3 harg3 arg4 harg4 arg5 harg5 h q xt hchk vb tb prev K

end Cert.KernelIdeal.Hand

end
-- ==== Proof.KI.SegDat2.lean ====
/- The proof data and the body obligation of segment-sum call 2 (grid (2, 452), 904 points): its output slab is
   carried in one staging buffer across the 452 points of a row of the grid and written back when the row ends. -/
import proofs.«402757_j20469814133395_4_alg».proof.Proof.Gen.KernelIdeal.Launch
import proofs.«402757_j20469814133395_4_alg».proof.Proof.Gen.KernelIdeal.Skeleton
import proofs.«402757_j20469814133395_4_alg».proof.Proof.Gen.KernelIdeal.Points
import proofs.«402757_j20469814133395_4_alg».proof.Proof.KI.SegRun2
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table of window starts, as the body is handed it -/

/-- The table's buffer as a memref: the whole buffer. -/
abbrev tbM2 : Memref sig .tc .smem S904 .i32 := Memref.whole main_v128
abbrev htbM2 : tbM2.IsWhole := Memref.isWhole_whole _

/-- At a row's first point the slab is reset before it is read: what the buffer held does not matter. -/
theorem slab2_reset (w : BitVec 32) (hchk : k2_chk1 w) (tb : Vec F S1x2048 .i32) (vb : Vec F S2048x64 .bf16) (prev prev' : Vec F S1x50000x64 .f32) :
    slab2 true w hchk tb vb prev = slab2 true w hchk tb vb prev' := by
  rw [slab2_true, slab2_true]

/-! ## The schedule of the grid: (p, j) = (t / 452, t % 452); the slab is written back when a row ends -/

theorem coords2_0 : ∀ t : Fin grid2.N, ((grid2.coords t) 0).val = t.val / 452 := by decide +kernel
theorem coords2_1 : ∀ t : Fin grid2.N, ((grid2.coords t) 1).val = t.val % 452 := by decide +kernel

section Data

variable (V : (c : Dev nD) → (b : Ref sig .tc) → Buf (Elt F) ((c : Thread nD τ).loc b))
variable (a : (pcfg2 (F := F)).Adm)

/-- The slab window is written back at the last point of each row, at any contents of the table (its index map reads none). -/
theorem flush2_2 : ∀ t : Fin (cfg2 a).N, ((cfg2 a).win 2).flush t = true ↔ t.val % 452 = 451 :=
  (by decide +kernel : ∀ t : Fin grid2.N, Pipeline.Window.flushOf grid2 true cc2_transform_2 t = true ↔ t.val % 452 = 451)

/-- The current staging memref of each window at point t. -/
abbrev st2_0 (t : Fin (cfg2 a).N) := ((cfg2 a).win 0).stage ((cfg2 a).slots t 0)
abbrev st2_1 (t : Fin (cfg2 a).N) := ((cfg2 a).win 1).stage ((cfg2 a).slots t 1)
abbrev st2_2 (t : Fin (cfg2 a).N) := ((cfg2 a).win 2).stage ((cfg2 a).slots t 2)

/-- The kernel body at point t, on what the pipeline calls it with. -/
abbrev bodyAt2 (t : Fin (cfg2 a).N) : Prog (TpuEff nD τ sig (Elt F) Λ₀ .tc) PUnit :=
  cc2__segsum_kernel (grid2.coords t) (Memref.whole main_v128) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2))

/-- The table's contents, as the buffer's on core c. -/
abbrev tbl2 (c : Dev nD) : Buf (Elt F) (tbM2.view.loc (c : Thread nD τ)) := a.1 0

/-- The tables the region holds are the one table, at its contents. -/
theorem prefHeld2_eq (c : Dev nD) (q : PosShare TreeShare) :
    (Pipeline.prefHeld (Ix := Unit) (Name := ℕ) (U := UR sig nD τ) (Lvl := ℕ) pre2 c (fun _ => q) a.1 : sProp 𝕄)
      = (tbM2.view.loc (c : Thread nD τ) ↦{q} tbl2 a c) := by
  unfold Pipeline.prefHeld
  rw [show (Finset.univ : Finset (Fin 1)) = {(0 : Fin 1)} from by decide, bigSep_singleton]
  rfl

/-- Window w's block at point t, read off its array as the region finds it. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- An input window's current staging buffer holds its block at every point, fetched there or not. -/
theorem before2_0_of {c : Dev nD} (dat : Dat τ (Elt F) Unit ℕ (UR sig nD τ) ℕ (cfg2 a) c) (hA : dat.A 0 = V c (Pipeline.arrRef spec2 0))
    (hafter : ∀ t, dat.after 0 t = iblk2 V a c 0 t) (t : Fin (cfg2 a).N) (d) : dat.before 0 t d = iblk2 V a c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ (cfg2 a) c) (hA : dat.A 1 = V c (Pipeline.arrRef spec2 1))
    (hafter : ∀ t, dat.after 1 t = iblk2 V a c 1 t) (t : Fin (cfg2 a).N) (d) : dat.before 1 t d = iblk2 V a c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

variable (htbl : ∀ (c : Dev nD) (i : grid2.Coords), k2_chk1 (word2 c i tbM2 (tbl2 a c)))

/-- One point's step on the slab: the body at point t from the slab prev. -/
def stepAt2 (c : Dev nD) (t : Fin (cfg2 a).N) (prev : Vec F S1x50000x64 .f32) : Vec F S1x50000x64 .f32 :=
  slab2 (decide (((grid2.coords t) 1).val = 0)) (word2 c (grid2.coords t) tbM2 (tbl2 a c)) (htbl c (grid2.coords t))
    (iblk2 V a c 1 t) (iblk2 V a c 0 t) prev

/-- THE ACCUMULATION. What the slab's staging buffer holds after the body at position n: the step at n over what
    the position before left (at a row's first point the step resets the slab, so what it starts from does not matter). -/
def outsAt2 (c : Dev nD) : (n : ℕ) → n < (cfg2 a).N → Vec F S1x50000x64 .f32
  | 0, hn => stepAt2 V a htbl c ⟨0, hn⟩ k2_pay1
  | n + 1, hn => stepAt2 V a htbl c ⟨n + 1, hn⟩ (outsAt2 c n (Nat.lt_of_succ_lt hn))

/-- The accumulation at a point, over any slab that is what the point before left — or over anything at a row's first point. -/
theorem outsAt2_eq (c : Dev nD) (t : Fin (cfg2 a).N) (prev : Vec F S1x50000x64 .f32)
    (h : t.val % 452 = 0 ∨ ∃ ht : t.val ≠ 0, prev = outsAt2 V a htbl c (t.val - 1) (Nat.lt_of_le_of_lt (Nat.sub_le _ _) t.isLt)) :
    outsAt2 V a htbl c t.val t.isLt = stepAt2 V a htbl c t prev := by
  obtain ⟨n, hn⟩ := t
  rcases h with h0 | ⟨ht, rfl⟩
  · have hd : decide (((grid2.coords ⟨n, hn⟩) 1).val = 0) = true := decide_eq_true (by rw [coords2_1]; exact h0)
    cases n with
    | zero => unfold outsAt2 stepAt2; rw [hd]; exact slab2_reset _ _ _ _ _ _
    | succ n => unfold outsAt2 stepAt2; rw [hd]; exact slab2_reset _ _ _ _ _ _
  · cases n with
    | zero => exact absurd rfl ht
    | succ n => rfl

/-! ## The pipeline's proof data -/

/-- The proof data of the pipeline on core c, at the region-entry contents V and the table's contents a: the arrays as the
    region finds them; after the body at point t each input's buffer at its block and the slab's at the accumulation; the
    invariant the scoped rest, the generator register and the table held whole; nothing owed; full shares. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => outsAt2 V a htbl c t.val t.isLt
  Φ _ := iprop(Pipeline.ΦA spec2 c ∗ Pipeline.prefHeld (Ix := Unit) (Name := ℕ) (U := UR sig nD τ) (Lvl := ℕ) pre2 c (fun _ => fullShare) a.1)
  q _ := fullShare
  owed _ := 0

theorem A_eq2 (c : Dev nD) (w : Fin (cfg2 a).W) : (dat2 V a htbl c).A w = V c (Pipeline.arrRef spec2 w) := by
  dsimp only [dat2]

theorem after2_0 (c : Dev nD) (t : Fin (cfg2 a).N) : (dat2 V a htbl c).after 0 t = iblk2 V a c 0 t := by dsimp only [dat2]; try rfl
theorem after2_1 (c : Dev nD) (t : Fin (cfg2 a).N) : (dat2 V a htbl c).after 1 t = iblk2 V a c 1 t := by dsimp only [dat2]; try rfl
theorem after2_2 (c : Dev nD) (t : Fin (cfg2 a).N) : (dat2 V a htbl c).after 2 t = outsAt2 V a htbl c t.val t.isLt := by dsimp only [dat2]; try rfl

theorem Phi2_eq (c : Dev nD) (n : Fin ((cfg2 a).N + 1)) :
    (dat2 V a htbl c).Φ n = iprop(Pipeline.ΦA spec2 c ∗ (tbM2.view.loc (c : Thread nD τ) ↦{fullShare} tbl2 a c)) := by
  rw [← prefHeld2_eq a c fullShare]; rfl

theorem before2_0 (c : Dev nD) (t : Fin (cfg2 a).N) (d) : (dat2 V a htbl c).before 0 t d = iblk2 V a c 0 t :=
  before2_0_of V a (dat2 V a htbl c) (A_eq2 V a htbl c 0) (after2_0 V a htbl c) t d
theorem before2_1 (c : Dev nD) (t : Fin (cfg2 a).N) (d) : (dat2 V a htbl c).before 1 t d = iblk2 V a c 1 t :=
  before2_1_of V a (dat2 V a htbl c) (A_eq2 V a htbl c 1) (after2_1 V a htbl c) t d

/-- Inside a row the slab's staging buffer holds what the body left at the point before: the point is not the first,
    the buffer was not written back between, the window is never idle and never cut. -/
theorem before2_2_kept (c : Dev nD) (t : Fin (cfg2 a).N) (h0 : ¬t.val % 452 = 0) (d) :
    (dat2 V a htbl c).before 2 t d = outsAt2 V a htbl c (t.val - 1) (Nat.lt_of_le_of_lt (Nat.sub_le _ _) t.isLt) := by
  have hN : t.val < 904 := lt_of_lt_of_eq t.isLt (show (cfg2 a).N = 904 from N_2)
  rw [Dat.before_out_kept _ 2 rfl t (by omega) (Bool.eq_false_iff.mpr fun h => by have := (flush2_2 a _).mp h; dsimp only at this; omega)
    (fun _ => rfl) (fun _ _ => rfl)]
  exact after2_2 V a htbl c _

/-! ## The body obligation, at a generic point -/

def bodyPre2 (c : Dev nD) (t : Fin (cfg2 a).N) : sProp 𝕄 :=
  iprop((dat2 V a htbl c).Φ t.castSucc ∗ (dat2 V a htbl c).owesAt () t.castSucc
    ∗ (∃ d, owns (c : Thread nD τ) (st2_0 a t) fullShare ((dat2 V a htbl c).before 0 t d))
    ∗ (∃ d, owns (c : Thread nD τ) (st2_1 a t) fullShare ((dat2 V a htbl c).before 1 t d))
    ∗ (∃ d, owns (c : Thread nD τ) (st2_2 a t) fullShare ((dat2 V a htbl c).before 2 t d)))

def bodyPost2 (c : Dev nD) (t : Fin (cfg2 a).N) : sProp 𝕄 :=
  iprop((dat2 V a htbl c).Φ t.succ ∗ (dat2 V a htbl c).owesAt () t.succ
    ∗ owns (c : Thread nD τ) (st2_0 a t) fullShare ((dat2 V a htbl c).after 0 t)
    ∗ owns (c : Thread nD τ) (st2_1 a t) fullShare ((dat2 V a htbl c).after 1 t)
    ∗ owns (c : Thread nD τ) (st2_2 a t) fullShare ((dat2 V a htbl c).after 2 t))

set_option maxHeartbeats 800000 in
/-- The body at any point: the inputs' memrefs hold their blocks; inside a row the slab's holds what the point before left,
    at a row's first point anything (the body resets it); so the body's run applies, the table lent from the invariant and
    taken back; the core owes nothing throughout. -/
theorem sound_body2 (c : Dev nD) (t : Fin (cfg2 a).N) :
    bodyPre2 V a htbl c t ⊢ wp frame (wpE (defs₀ (F := F)) Variants.none c none) Set.univ (bodyAt2 a t) (fun _ => bodyPost2 V a htbl c t) := by
  unfold bodyPre2 bodyPost2 bodyAt2
  simp only [before2_0, before2_1]
  rw [show (dat2 V a htbl c).owesAt () t.succ = (dat2 V a htbl c).owesAt () t.castSucc from rfl,
    after2_0, after2_1, after2_2, Phi2_eq, Phi2_eq]
  iintro ⟨⟨HΦ, HT⟩, Ho, ⟨%d0, H0⟩, ⟨%d1, H1⟩, ⟨%d2, H2⟩⟩
  have hstep : outsAt2 V a htbl c t.val t.isLt = stepAt2 V a htbl c t ((dat2 V a htbl c).before 2 t d2) := by
    refine outsAt2_eq V a htbl c t _ ?_
    by_cases h0 : t.val % 452 = 0
    · exact .inl h0
    · exact .inr ⟨fun h => h0 (by rw [h]), before2_2_kept V a htbl c t h0 d2⟩
  rw [hstep]; unfold stepAt2
  iapply (sound_kernel2 c Set.univ (grid2.coords t) tbM2 htbM2 _ _ _ _ _ _ fullShare (tbl2 a c) (htbl c (grid2.coords t))
    (iblk2 V a c 0 t) (iblk2 V a c 1 t) ((dat2 V a htbl c).before 2 t d2) _)
  isplitl [H0]; · iexact H0
  isplitl [H1]; · iexact H1
  isplitl [H2]; · iexact H2
  isplitl [HT]; · iexact HT
  iintro ⟨H0, H1, H2, HT⟩
  isplitl [HΦ HT]
  · isplitl [HΦ]; · iexact HΦ
    iexact HT
  isplitl [Ho]; · iexact Ho
  isplitl [H0]; · iexact H0
  isplitl [H1]; · iexact H1
  iexact H2

/-- The library's body obligation, at every point. -/
theorem body_obligation2 (c : Dev nD) : BodyObligation (dat2 (F := F) V a htbl c) (defs₀ (F := F)) Variants.none () Set.univ := fun t => by
  rw [bigSep_W2, bigSep_W2]
  exact sound_body2 V a htbl c t

/-- The word the body reads through the table's memref is one of the table's words: a condition on every word of the
    table gives the condition at every point. -/
theorem htbl2_of (a : (pcfg2 (F := F)).Adm) (h : ∀ k : S904.Idx, k2_chk1 ((a.1 0 : S904.Idx → BitVec 32) k)) :
    ∀ (c : Dev nD) (i : grid2.Coords), k2_chk1 (word2 c i tbM2 (tbl2 a c)) :=
  fun c i => h ((Rect.unit (s := S904) (k2_off1 i) S1.size (k2_off1_inb i)).emb (Shape.Idx.first (numel1_S1.symm ▸ Nat.one_pos)))

/-- The word read at grid point i is the table's element at 452 * i 0 + i 1. -/
theorem word2_eq (c : Dev nD) (i : grid2.Coords) (f : Buf (Elt F) (tbM2.view.loc (c : Thread nD τ))) (x : S904.Idx)
    (hx : (x 0).val = 452 * (i 0).val + (i 1).val) : word2 c i tbM2 f = (f : S904.Idx → BitVec 32) x := by
  show (f : S904.Idx → BitVec 32) ((Rect.unit (s := S904) (k2_off1 i) S1.size (k2_off1_inb i)).emb (Shape.Idx.first (numel1_S1.symm ▸ Nat.one_pos))) = _
  refine congrArg _ (funext fun b => Fin.ext ?_)
  obtain rfl : b = 0 := Subsingleton.elim _ _
  rw [Rect.emb_apply, hx]
  show k2_off1 i 0 + 1 * 0 = _
  rw [k2_off1_eq]; rfl

end Data

end Cert.KernelIdeal.Hand

end
-- ==== Proof.KI.SegRun4.lean ====
/- The body of segment-sum launch 4 run once per control case: at a grid point whose second coordinate is zero the
   slab is first stored zero; in both cases the rows `[w, w + 2056)` of the slab (`w` the table word of the point)
   are replaced by themselves plus the product of the one-hot matrix of the segment ids with the values. `slab4`
   names what is left; `sound_kernel4` is the body's triple at any point. -/
import proofs.«402757_j20469814133395_4_alg».proof.Proof.Gen.KernelIdeal.Launch
import proofs.«402757_j20469814133395_4_alg».proof.Proof.Gen.KernelIdeal.Skeleton
import proofs.«402757_j20469814133395_4_alg».proof.Proof.Gen.KernelIdeal.Points
import proofs.«402757_j20469814133395_4_alg».proof.Proof.KI.SegRunCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the second coordinate is zero. -/
abbrev cond4 (i : grid4.Coords) : Prop := (Scalar.cmpi .ne (Scalar.extui (Scalar.cmpi .eq (BitVec.ofNat 32 (i 1).val) 0#32)) 0#32) = 1#1

theorem cond4_iff : ∀ i : grid4.Coords, cond4 i ↔ (i 1).val = 0 := fun i =>
  Seg.cond_iff _ (Nat.lt_trans (show (i 1).val < 86 from (i 1).isLt) (by decide))

/-- The table word the body reads at point `i` — the first row of the slab's rows it adds to —, through the table's
    memref at its held contents. -/
abbrev word4 (c : Dev nD) (i : grid4.Coords) (arg2 : Memref sig .tc .smem S172 .i32) (xt : Buf (Elt F) (arg2.view.loc (c : Thread nD τ))) : Elt F .i32 :=
  arg2.view.readAt (Elt F) (Rect.unit (s := S172) (k4_off1 i) S1.size (k4_off1_inb i)).toLoadRect xt (Shape.Idx.first (numel1_S1.symm ▸ Nat.one_pos))

/-- The rows `[w, w + 2056)` of the slab. -/
abbrev rect4 (w : BitVec 32) (hchk : k4_chk1 w) : Rect S1x50000x16 := Rect.unit (s := S1x50000x16) (k4_off2 w) S1x2056x16.size (k4_off2_inb w hchk)

/-- What the body leaves in the slab: the slab as it was (all zero when the second coordinate is zero), its rows
    `[w, w + 2056)` replaced by themselves plus the product of the one-hot matrix of the segment ids (row `r`, column
    `k`: is id `k` equal to `w + r`) with the values. -/
def slab4 (j0 : Bool) (w : BitVec 32) (hchk : k4_chk1 w) (tb : Vec F S1x2048 .i32) (vb : Vec F S2048x16 .bf16) (prev : Vec F S1x50000x16 .f32) : Vec F S1x50000x16 .f32 :=
  let base : Vec F S1x50000x16 .f32 := if j0 then k4_pay1 else prev
  (rect4 w hchk).overlay base (k4_pay2 w tb vb (View.ld base (rect4 w hchk)))

/-- The slab left at a point whose second coordinate is zero does not depend on what it held. -/
theorem slab4_true (w : BitVec 32) (hchk : k4_chk1 w) (tb : Vec F S1x2048 .i32) (vb : Vec F S2048x16 .bf16) (prev : Vec F S1x50000x16 .f32) :
    slab4 true w hchk tb vb prev = (rect4 w hchk).overlay k4_pay1 (k4_pay2 w tb vb (View.ld k4_pay1 (rect4 w hchk))) := by
  unfold slab4; rw [if_pos rfl]

theorem slab4_false (w : BitVec 32) (hchk : k4_chk1 w) (tb : Vec F S1x2048 .i32) (vb : Vec F S2048x16 .bf16) (prev : Vec F S1x50000x16 .f32) :
    slab4 false w hchk tb vb prev = (rect4 w hchk).overlay prev (k4_pay2 w tb vb (View.ld prev (rect4 w hchk))) := by
  unfold slab4; rw [if_neg Bool.false_ne_true]

set_option maxHeartbeats 1000000 in
/-- The body at a point whose second coordinate is zero: the slab is zeroed, then its rows `[w, w + 2056)` are read
    back, added to and stored. -/
theorem sound_kernel4_A (c : Dev nD) (E : Set ℕ) (i : grid4.Coords) (arg2 : Memref sig .tc .smem S172 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole) (hc0 : cond4 i)
    (q : PosShare TreeShare) (xt : Buf (Elt F) (arg2.view.loc (c : Thread nD τ))) (hchk : k4_chk1 (word4 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab4 true (word4 c i arg2 xt) hchk tb vb prev) ∗ (arg2.view.loc (c : Thread nD τ) ↦{q} xt)) -∗ K ⟨⟩))
      ⊢ wp frame (wpE (defs₀ (F := F)) Variants.none c none) E (cc4__segsum_kernel i arg2 harg2 arg3 harg3 arg4 harg4 arg5 harg5) K := by
  simp only [cc4__segsum_kernel_eq_skeleton]; unfold cc4__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab4_true, Seg.read_writes_cons_overlay]
    sl_unfold_words
    simp only [View.readAt_eq_ld, harg3.read_unread, harg4.read_unread, Seg.read_writes_unit_zero (S := S1x50000x16) _ _ Seg.hz3]
    rw [View.ld_unit_zero (S := S1x2048) Seg.hz2, View.ld_unit_zero (S := S2048x16) Seg.hz2]
    rfl
  iexact HT

set_option maxHeartbeats 1000000 in
/-- The body at a point whose second coordinate is not zero: the slab's rows `[w, w + 2056)` are read, added to and
    stored; the rest stays. -/
theorem sound_kernel4_B (c : Dev nD) (E : Set ℕ) (i : grid4.Coords) (arg2 : Memref sig .tc .smem S172 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole) (hc0 : ¬cond4 i)
    (q : PosShare TreeShare) (xt : Buf (Elt F) (arg2.view.loc (c : Thread nD τ))) (hchk : k4_chk1 (word4 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab4 false (word4 c i arg2 xt) hchk tb vb prev) ∗ (arg2.view.loc (c : Thread nD τ) ↦{q} xt)) -∗ K ⟨⟩))
      ⊢ wp frame (wpE (defs₀ (F := F)) Variants.none c none) E (cc4__segsum_kernel i arg2 harg2 arg3 harg3 arg4 harg4 arg5 harg5) K := by
  simp only [cc4__segsum_kernel_eq_skeleton]; unfold cc4__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab4_false, Seg.read_writes_cons_overlay, View.writes_nil, harg5.read_unread]
    sl_unfold_words
    simp only [View.readAt_eq_ld, harg3.read_unread, harg4.read_unread, harg5.read_unread]
    rw [View.ld_unit_zero (S := S1x2048) Seg.hz2, View.ld_unit_zero (S := S2048x16) Seg.hz2]
    rfl
  iexact HT

/-- The body at any point: from the windows' staging buffers held whole (the values, the segment ids, the slab at
    `prev`) and any share of the table, under the side condition of the table word it reads, it leaves the slab at
    `slab4` and everything else as it was. -/
theorem sound_kernel4 (c : Dev nD) (E : Set ℕ) (i : grid4.Coords) (arg2 : Memref sig .tc .smem S172 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole)
    (q : PosShare TreeShare) (xt : Buf (Elt F) (arg2.view.loc (c : Thread nD τ))) (hchk : k4_chk1 (word4 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab4 (decide ((i 1).val = 0)) (word4 c i arg2 xt) hchk tb vb prev) ∗ (arg2.view.loc (c : Thread nD τ) ↦{q} xt)) -∗ K ⟨⟩))
      ⊢ wp frame (wpE (defs₀ (F := F)) Variants.none c none) E (cc4__segsum_kernel i arg2 harg2 arg3 harg3 arg4 harg4 arg5 harg5) K := by
  by_cases h : cond4 i
  · have hd : decide ((i 1).val = 0) = true := decide_eq_true ((cond4_iff i).1 h)
    rw [hd]
    exact sound_kernel4_A c E i arg2 harg2 arg3 harg3 arg4 harg4 arg5 harg5 h q xt hchk vb tb prev K
  · have hd : decide ((i 1).val = 0) = false := decide_eq_false (fun e => h ((cond4_iff i).2 e))
    rw [hd]
    exact sound_kernel4_B c E i arg2 harg2 arg3 harg3 arg4 harg4 arg5 harg5 h q xt hchk vb tb prev K

end Cert.KernelIdeal.Hand

end
-- ==== Proof.KI.SegDat4.lean ====
/- The proof data and the body obligation of segment-sum call 4 (grid (2, 86), 172 points): its output slab is
   carried in one staging buffer across the 86 points of a row of the grid and written back when the row ends. -/
import proofs.«402757_j20469814133395_4_alg».proof.Proof.Gen.KernelIdeal.Launch
import proofs.«402757_j20469814133395_4_alg».proof.Proof.Gen.KernelIdeal.Skeleton
import proofs.«402757_j20469814133395_4_alg».proof.Proof.Gen.KernelIdeal.Points
import proofs.«402757_j20469814133395_4_alg».proof.Proof.KI.SegRun4
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table of window starts, as the body is handed it -/

/-- The table's buffer as a memref: the whole buffer. -/
abbrev tbM4 : Memref sig .tc .smem S172 .i32 := Memref.whole main_v63
abbrev htbM4 : tbM4.IsWhole := Memref.isWhole_whole _

/-- At a row's first point the slab is reset before it is read: what the buffer held does not matter. -/
theorem slab4_reset (w : BitVec 32) (hchk : k4_chk1 w) (tb : Vec F S1x2048 .i32) (vb : Vec F S2048x16 .bf16) (prev prev' : Vec F S1x50000x16 .f32) :
    slab4 true w hchk tb vb prev = slab4 true w hchk tb vb prev' := by
  rw [slab4_true, slab4_true]

/-! ## The schedule of the grid: (p, j) = (t / 86, t % 86); the slab is written back when a row ends -/

theorem coords4_0 : ∀ t : Fin grid4.N, ((grid4.coords t) 0).val = t.val / 86 := by decide +kernel
theorem coords4_1 : ∀ t : Fin grid4.N, ((grid4.coords t) 1).val = t.val % 86 := by decide +kernel

section Data

variable (V : (c : Dev nD) → (b : Ref sig .tc) → Buf (Elt F) ((c : Thread nD τ).loc b))
variable (a : (pcfg4 (F := F)).Adm)

/-- The slab window is written back at the last point of each row, at any contents of the table (its index map reads none). -/
theorem flush4_2 : ∀ t : Fin (cfg4 a).N, ((cfg4 a).win 2).flush t = true ↔ t.val % 86 = 85 :=
  (by decide +kernel : ∀ t : Fin grid4.N, Pipeline.Window.flushOf grid4 true cc4_transform_2 t = true ↔ t.val % 86 = 85)

/-- The current staging memref of each window at point t. -/
abbrev st4_0 (t : Fin (cfg4 a).N) := ((cfg4 a).win 0).stage ((cfg4 a).slots t 0)
abbrev st4_1 (t : Fin (cfg4 a).N) := ((cfg4 a).win 1).stage ((cfg4 a).slots t 1)
abbrev st4_2 (t : Fin (cfg4 a).N) := ((cfg4 a).win 2).stage ((cfg4 a).slots t 2)

/-- The kernel body at point t, on what the pipeline calls it with. -/
abbrev bodyAt4 (t : Fin (cfg4 a).N) : Prog (TpuEff nD τ sig (Elt F) Λ₀ .tc) PUnit :=
  cc4__segsum_kernel (grid4.coords t) (Memref.whole main_v63) (Memref.isWhole_whole _) (spec4_0.stage ((cfg4 a).slots t 0)) (hstage4_0 (((cfg4 a).slots t 0).cast nbuf4_0)) (spec4_1.stage ((cfg4 a).slots t 1)) (hstage4_1 (((cfg4 a).slots t 1).cast nbuf4_1)) (spec4_2.stage ((cfg4 a).slots t 2)) (hstage4_2 (((cfg4 a).slots t 2).cast nbuf4_2))

/-- The table's contents, as the buffer's on core c. -/
abbrev tbl4 (c : Dev nD) : Buf (Elt F) (tbM4.view.loc (c : Thread nD τ)) := a.1 0

/-- The tables the region holds are the one table, at its contents. -/
theorem prefHeld4_eq (c : Dev nD) (q : PosShare TreeShare) :
    (Pipeline.prefHeld (Ix := Unit) (Name := ℕ) (U := UR sig nD τ) (Lvl := ℕ) pre4 c (fun _ => q) a.1 : sProp 𝕄)
      = (tbM4.view.loc (c : Thread nD τ) ↦{q} tbl4 a c) := by
  unfold Pipeline.prefHeld
  rw [show (Finset.univ : Finset (Fin 1)) = {(0 : Fin 1)} from by decide, bigSep_singleton]
  rfl

/-- Window w's block at point t, read off its array as the region finds it. -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- An input window's current staging buffer holds its block at every point, fetched there or not. -/
theorem before4_0_of {c : Dev nD} (dat : Dat τ (Elt F) Unit ℕ (UR sig nD τ) ℕ (cfg4 a) c) (hA : dat.A 0 = V c (Pipeline.arrRef spec4 0))
    (hafter : ∀ t, dat.after 0 t = iblk4 V a c 0 t) (t : Fin (cfg4 a).N) (d) : dat.before 0 t d = iblk4 V a c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ (cfg4 a) c) (hA : dat.A 1 = V c (Pipeline.arrRef spec4 1))
    (hafter : ∀ t, dat.after 1 t = iblk4 V a c 1 t) (t : Fin (cfg4 a).N) (d) : dat.before 1 t d = iblk4 V a c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

variable (htbl : ∀ (c : Dev nD) (i : grid4.Coords), k4_chk1 (word4 c i tbM4 (tbl4 a c)))

/-- One point's step on the slab: the body at point t from the slab prev. -/
def stepAt4 (c : Dev nD) (t : Fin (cfg4 a).N) (prev : Vec F S1x50000x16 .f32) : Vec F S1x50000x16 .f32 :=
  slab4 (decide (((grid4.coords t) 1).val = 0)) (word4 c (grid4.coords t) tbM4 (tbl4 a c)) (htbl c (grid4.coords t))
    (iblk4 V a c 1 t) (iblk4 V a c 0 t) prev

/-- THE ACCUMULATION. What the slab's staging buffer holds after the body at position n: the step at n over what
    the position before left (at a row's first point the step resets the slab, so what it starts from does not matter). -/
def outsAt4 (c : Dev nD) : (n : ℕ) → n < (cfg4 a).N → Vec F S1x50000x16 .f32
  | 0, hn => stepAt4 V a htbl c ⟨0, hn⟩ k4_pay1
  | n + 1, hn => stepAt4 V a htbl c ⟨n + 1, hn⟩ (outsAt4 c n (Nat.lt_of_succ_lt hn))

/-- The accumulation at a point, over any slab that is what the point before left — or over anything at a row's first point. -/
theorem outsAt4_eq (c : Dev nD) (t : Fin (cfg4 a).N) (prev : Vec F S1x50000x16 .f32)
    (h : t.val % 86 = 0 ∨ ∃ ht : t.val ≠ 0, prev = outsAt4 V a htbl c (t.val - 1) (Nat.lt_of_le_of_lt (Nat.sub_le _ _) t.isLt)) :
    outsAt4 V a htbl c t.val t.isLt = stepAt4 V a htbl c t prev := by
  obtain ⟨n, hn⟩ := t
  rcases h with h0 | ⟨ht, rfl⟩
  · have hd : decide (((grid4.coords ⟨n, hn⟩) 1).val = 0) = true := decide_eq_true (by rw [coords4_1]; exact h0)
    cases n with
    | zero => unfold outsAt4 stepAt4; rw [hd]; exact slab4_reset _ _ _ _ _ _
    | succ n => unfold outsAt4 stepAt4; rw [hd]; exact slab4_reset _ _ _ _ _ _
  · cases n with
    | zero => exact absurd rfl ht
    | succ n => rfl

/-! ## The pipeline's proof data -/

/-- The proof data of the pipeline on core c, at the region-entry contents V and the table's contents a: the arrays as the
    region finds them; after the body at point t each input's buffer at its block and the slab's at the accumulation; the
    invariant the scoped rest, the generator register and the table held whole; nothing owed; full shares. -/
def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => outsAt4 V a htbl c t.val t.isLt
  Φ _ := iprop(Pipeline.ΦA spec4 c ∗ Pipeline.prefHeld (Ix := Unit) (Name := ℕ) (U := UR sig nD τ) (Lvl := ℕ) pre4 c (fun _ => fullShare) a.1)
  q _ := fullShare
  owed _ := 0

theorem A_eq4 (c : Dev nD) (w : Fin (cfg4 a).W) : (dat4 V a htbl c).A w = V c (Pipeline.arrRef spec4 w) := by
  dsimp only [dat4]

theorem after4_0 (c : Dev nD) (t : Fin (cfg4 a).N) : (dat4 V a htbl c).after 0 t = iblk4 V a c 0 t := by dsimp only [dat4]; try rfl
theorem after4_1 (c : Dev nD) (t : Fin (cfg4 a).N) : (dat4 V a htbl c).after 1 t = iblk4 V a c 1 t := by dsimp only [dat4]; try rfl
theorem after4_2 (c : Dev nD) (t : Fin (cfg4 a).N) : (dat4 V a htbl c).after 2 t = outsAt4 V a htbl c t.val t.isLt := by dsimp only [dat4]; try rfl

theorem Phi4_eq (c : Dev nD) (n : Fin ((cfg4 a).N + 1)) :
    (dat4 V a htbl c).Φ n = iprop(Pipeline.ΦA spec4 c ∗ (tbM4.view.loc (c : Thread nD τ) ↦{fullShare} tbl4 a c)) := by
  rw [← prefHeld4_eq a c fullShare]; rfl

theorem before4_0 (c : Dev nD) (t : Fin (cfg4 a).N) (d) : (dat4 V a htbl c).before 0 t d = iblk4 V a c 0 t :=
  before4_0_of V a (dat4 V a htbl c) (A_eq4 V a htbl c 0) (after4_0 V a htbl c) t d
theorem before4_1 (c : Dev nD) (t : Fin (cfg4 a).N) (d) : (dat4 V a htbl c).before 1 t d = iblk4 V a c 1 t :=
  before4_1_of V a (dat4 V a htbl c) (A_eq4 V a htbl c 1) (after4_1 V a htbl c) t d

/-- Inside a row the slab's staging buffer holds what the body left at the point before: the point is not the first,
    the buffer was not written back between, the window is never idle and never cut. -/
theorem before4_2_kept (c : Dev nD) (t : Fin (cfg4 a).N) (h0 : ¬t.val % 86 = 0) (d) :
    (dat4 V a htbl c).before 2 t d = outsAt4 V a htbl c (t.val - 1) (Nat.lt_of_le_of_lt (Nat.sub_le _ _) t.isLt) := by
  have hN : t.val < 172 := lt_of_lt_of_eq t.isLt (show (cfg4 a).N = 172 from N_4)
  rw [Dat.before_out_kept _ 2 rfl t (by omega) (Bool.eq_false_iff.mpr fun h => by have := (flush4_2 a _).mp h; dsimp only at this; omega)
    (fun _ => rfl) (fun _ _ => rfl)]
  exact after4_2 V a htbl c _

/-! ## The body obligation, at a generic point -/

def bodyPre4 (c : Dev nD) (t : Fin (cfg4 a).N) : sProp 𝕄 :=
  iprop((dat4 V a htbl c).Φ t.castSucc ∗ (dat4 V a htbl c).owesAt () t.castSucc
    ∗ (∃ d, owns (c : Thread nD τ) (st4_0 a t) fullShare ((dat4 V a htbl c).before 0 t d))
    ∗ (∃ d, owns (c : Thread nD τ) (st4_1 a t) fullShare ((dat4 V a htbl c).before 1 t d))
    ∗ (∃ d, owns (c : Thread nD τ) (st4_2 a t) fullShare ((dat4 V a htbl c).before 2 t d)))

def bodyPost4 (c : Dev nD) (t : Fin (cfg4 a).N) : sProp 𝕄 :=
  iprop((dat4 V a htbl c).Φ t.succ ∗ (dat4 V a htbl c).owesAt () t.succ
    ∗ owns (c : Thread nD τ) (st4_0 a t) fullShare ((dat4 V a htbl c).after 0 t)
    ∗ owns (c : Thread nD τ) (st4_1 a t) fullShare ((dat4 V a htbl c).after 1 t)
    ∗ owns (c : Thread nD τ) (st4_2 a t) fullShare ((dat4 V a htbl c).after 2 t))

set_option maxHeartbeats 800000 in
/-- The body at any point: the inputs' memrefs hold their blocks; inside a row the slab's holds what the point before left,
    at a row's first point anything (the body resets it); so the body's run applies, the table lent from the invariant and
    taken back; the core owes nothing throughout. -/
theorem sound_body4 (c : Dev nD) (t : Fin (cfg4 a).N) :
    bodyPre4 V a htbl c t ⊢ wp frame (wpE (defs₀ (F := F)) Variants.none c none) Set.univ (bodyAt4 a t) (fun _ => bodyPost4 V a htbl c t) := by
  unfold bodyPre4 bodyPost4 bodyAt4
  simp only [before4_0, before4_1]
  rw [show (dat4 V a htbl c).owesAt () t.succ = (dat4 V a htbl c).owesAt () t.castSucc from rfl,
    after4_0, after4_1, after4_2, Phi4_eq, Phi4_eq]
  iintro ⟨⟨HΦ, HT⟩, Ho, ⟨%d0, H0⟩, ⟨%d1, H1⟩, ⟨%d2, H2⟩⟩
  have hstep : outsAt4 V a htbl c t.val t.isLt = stepAt4 V a htbl c t ((dat4 V a htbl c).before 2 t d2) := by
    refine outsAt4_eq V a htbl c t _ ?_
    by_cases h0 : t.val % 86 = 0
    · exact .inl h0
    · exact .inr ⟨fun h => h0 (by rw [h]), before4_2_kept V a htbl c t h0 d2⟩
  rw [hstep]; unfold stepAt4
  iapply (sound_kernel4 c Set.univ (grid4.coords t) tbM4 htbM4 _ _ _ _ _ _ fullShare (tbl4 a c) (htbl c (grid4.coords t))
    (iblk4 V a c 0 t) (iblk4 V a c 1 t) ((dat4 V a htbl c).before 2 t d2) _)
  isplitl [H0]; · iexact H0
  isplitl [H1]; · iexact H1
  isplitl [H2]; · iexact H2
  isplitl [HT]; · iexact HT
  iintro ⟨H0, H1, H2, HT⟩
  isplitl [HΦ HT]
  · isplitl [HΦ]; · iexact HΦ
    iexact HT
  isplitl [Ho]; · iexact Ho
  isplitl [H0]; · iexact H0
  isplitl [H1]; · iexact H1
  iexact H2

/-- The library's body obligation, at every point. -/
theorem body_obligation4 (c : Dev nD) : BodyObligation (dat4 (F := F) V a htbl c) (defs₀ (F := F)) Variants.none () Set.univ := fun t => by
  rw [bigSep_W4, bigSep_W4]
  exact sound_body4 V a htbl c t

/-- The word the body reads through the table's memref is one of the table's words: a condition on every word of the
    table gives the condition at every point. -/
theorem htbl4_of (a : (pcfg4 (F := F)).Adm) (h : ∀ k : S172.Idx, k4_chk1 ((a.1 0 : S172.Idx → BitVec 32) k)) :
    ∀ (c : Dev nD) (i : grid4.Coords), k4_chk1 (word4 c i tbM4 (tbl4 a c)) :=
  fun c i => h ((Rect.unit (s := S172) (k4_off1 i) S1.size (k4_off1_inb i)).emb (Shape.Idx.first (numel1_S1.symm ▸ Nat.one_pos)))

/-- The word read at grid point i is the table's element at 86 * i 0 + i 1. -/
theorem word4_eq (c : Dev nD) (i : grid4.Coords) (f : Buf (Elt F) (tbM4.view.loc (c : Thread nD τ))) (x : S172.Idx)
    (hx : (x 0).val = 86 * (i 0).val + (i 1).val) : word4 c i tbM4 f = (f : S172.Idx → BitVec 32) x := by
  show (f : S172.Idx → BitVec 32) ((Rect.unit (s := S172) (k4_off1 i) S1.size (k4_off1_inb i)).emb (Shape.Idx.first (numel1_S1.symm ▸ Nat.one_pos))) = _
  refine congrArg _ (funext fun b => Fin.ext ?_)
  obtain rfl : b = 0 := Subsingleton.elim _ _
  rw [Rect.emb_apply, hx]
  show k4_off1 i 0 + 1 * 0 = _
  rw [k4_off1_eq]; rfl

end Data

end Cert.KernelIdeal.Hand

end
-- ==== Proof.KI.SegRun5.lean ====
/- The body of segment-sum launch 5 run once per control case: at a grid point whose second coordinate is zero the
   slab is first stored zero; in both cases the rows `[w, w + 2056)` of the slab (`w` the table word of the point)
   are replaced by themselves plus the product of the one-hot matrix of the segment ids with the values. `slab5`
   names what is left; `sound_kernel5` is the body's triple at any point. -/
import proofs.«402757_j20469814133395_4_alg».proof.Proof.Gen.KernelIdeal.Launch
import proofs.«402757_j20469814133395_4_alg».proof.Proof.Gen.KernelIdeal.Skeleton
import proofs.«402757_j20469814133395_4_alg».proof.Proof.Gen.KernelIdeal.Points
import proofs.«402757_j20469814133395_4_alg».proof.Proof.KI.SegRunCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the second coordinate is zero. -/
abbrev cond5 (i : grid5.Coords) : Prop := (Scalar.cmpi .ne (Scalar.extui (Scalar.cmpi .eq (BitVec.ofNat 32 (i 1).val) 0#32)) 0#32) = 1#1

theorem cond5_iff : ∀ i : grid5.Coords, cond5 i ↔ (i 1).val = 0 := fun i =>
  Seg.cond_iff _ (Nat.lt_trans (show (i 1).val < 452 from (i 1).isLt) (by decide))

/-- The table word the body reads at point `i` — the first row of the slab's rows it adds to —, through the table's
    memref at its held contents. -/
abbrev word5 (c : Dev nD) (i : grid5.Coords) (arg2 : Memref sig .tc .smem S904 .i32) (xt : Buf (Elt F) (arg2.view.loc (c : Thread nD τ))) : Elt F .i32 :=
  arg2.view.readAt (Elt F) (Rect.unit (s := S904) (k5_off1 i) S1.size (k5_off1_inb i)).toLoadRect xt (Shape.Idx.first (numel1_S1.symm ▸ Nat.one_pos))

/-- The rows `[w, w + 2056)` of the slab. -/
abbrev rect5 (w : BitVec 32) (hchk : k5_chk1 w) : Rect S1x50000x16 := Rect.unit (s := S1x50000x16) (k5_off2 w) S1x2056x16.size (k5_off2_inb w hchk)

/-- What the body leaves in the slab: the slab as it was (all zero when the second coordinate is zero), its rows
    `[w, w + 2056)` replaced by themselves plus the product of the one-hot matrix of the segment ids (row `r`, column
    `k`: is id `k` equal to `w + r`) with the values. -/
def slab5 (j0 : Bool) (w : BitVec 32) (hchk : k5_chk1 w) (tb : Vec F S1x2048 .i32) (vb : Vec F S2048x16 .bf16) (prev : Vec F S1x50000x16 .f32) : Vec F S1x50000x16 .f32 :=
  let base : Vec F S1x50000x16 .f32 := if j0 then k5_pay1 else prev
  (rect5 w hchk).overlay base (k5_pay2 w tb vb (View.ld base (rect5 w hchk)))

/-- The slab left at a point whose second coordinate is zero does not depend on what it held. -/
theorem slab5_true (w : BitVec 32) (hchk : k5_chk1 w) (tb : Vec F S1x2048 .i32) (vb : Vec F S2048x16 .bf16) (prev : Vec F S1x50000x16 .f32) :
    slab5 true w hchk tb vb prev = (rect5 w hchk).overlay k5_pay1 (k5_pay2 w tb vb (View.ld k5_pay1 (rect5 w hchk))) := by
  unfold slab5; rw [if_pos rfl]

theorem slab5_false (w : BitVec 32) (hchk : k5_chk1 w) (tb : Vec F S1x2048 .i32) (vb : Vec F S2048x16 .bf16) (prev : Vec F S1x50000x16 .f32) :
    slab5 false w hchk tb vb prev = (rect5 w hchk).overlay prev (k5_pay2 w tb vb (View.ld prev (rect5 w hchk))) := by
  unfold slab5; rw [if_neg Bool.false_ne_true]

set_option maxHeartbeats 1000000 in
/-- The body at a point whose second coordinate is zero: the slab is zeroed, then its rows `[w, w + 2056)` are read
    back, added to and stored. -/
theorem sound_kernel5_A (c : Dev nD) (E : Set ℕ) (i : grid5.Coords) (arg2 : Memref sig .tc .smem S904 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole) (hc0 : cond5 i)
    (q : PosShare TreeShare) (xt : Buf (Elt F) (arg2.view.loc (c : Thread nD τ))) (hchk : k5_chk1 (word5 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab5 true (word5 c i arg2 xt) hchk tb vb prev) ∗ (arg2.view.loc (c : Thread nD τ) ↦{q} xt)) -∗ K ⟨⟩))
      ⊢ wp frame (wpE (defs₀ (F := F)) Variants.none c none) E (cc5__segsum_kernel i arg2 harg2 arg3 harg3 arg4 harg4 arg5 harg5) K := by
  simp only [cc5__segsum_kernel_eq_skeleton]; unfold cc5__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab5_true, Seg.read_writes_cons_overlay]
    sl_unfold_words
    simp only [View.readAt_eq_ld, harg3.read_unread, harg4.read_unread, Seg.read_writes_unit_zero (S := S1x50000x16) _ _ Seg.hz3]
    rw [View.ld_unit_zero (S := S1x2048) Seg.hz2, View.ld_unit_zero (S := S2048x16) Seg.hz2]
    rfl
  iexact HT

set_option maxHeartbeats 1000000 in
/-- The body at a point whose second coordinate is not zero: the slab's rows `[w, w + 2056)` are read, added to and
    stored; the rest stays. -/
theorem sound_kernel5_B (c : Dev nD) (E : Set ℕ) (i : grid5.Coords) (arg2 : Memref sig .tc .smem S904 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole) (hc0 : ¬cond5 i)
    (q : PosShare TreeShare) (xt : Buf (Elt F) (arg2.view.loc (c : Thread nD τ))) (hchk : k5_chk1 (word5 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab5 false (word5 c i arg2 xt) hchk tb vb prev) ∗ (arg2.view.loc (c : Thread nD τ) ↦{q} xt)) -∗ K ⟨⟩))
      ⊢ wp frame (wpE (defs₀ (F := F)) Variants.none c none) E (cc5__segsum_kernel i arg2 harg2 arg3 harg3 arg4 harg4 arg5 harg5) K := by
  simp only [cc5__segsum_kernel_eq_skeleton]; unfold cc5__segsum_kernel_skel
  unfold owns
  iintro ⟨⟨%f0, %hf0, H0⟩, ⟨%f1, %hf1, H1⟩, ⟨%f2, %hf2, H2⟩, HT, Hk⟩
  obtain rfl := harg3.eq_unread hf0; obtain rfl := harg4.eq_unread hf1; obtain rfl := harg5.eq_unread hf2
  sl_exec (disch := first | exact hc0 | sl_exact hchk)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    on_goal 2 => iexact H2
    ipureintro
    rw [slab5_false, Seg.read_writes_cons_overlay, View.writes_nil, harg5.read_unread]
    sl_unfold_words
    simp only [View.readAt_eq_ld, harg3.read_unread, harg4.read_unread, harg5.read_unread]
    rw [View.ld_unit_zero (S := S1x2048) Seg.hz2, View.ld_unit_zero (S := S2048x16) Seg.hz2]
    rfl
  iexact HT

/-- The body at any point: from the windows' staging buffers held whole (the values, the segment ids, the slab at
    `prev`) and any share of the table, under the side condition of the table word it reads, it leaves the slab at
    `slab5` and everything else as it was. -/
theorem sound_kernel5 (c : Dev nD) (E : Set ℕ) (i : grid5.Coords) (arg2 : Memref sig .tc .smem S904 .i32) (harg2 : arg2.IsWhole) (arg3 : Memref sig .tc .vmem S2048x16 .bf16) (harg3 : arg3.IsWhole) (arg4 : Memref sig .tc .vmem S1x2048 .i32) (harg4 : arg4.IsWhole) (arg5 : Memref sig .tc .vmem S1x50000x16 .f32) (harg5 : arg5.IsWhole)
    (q : PosShare TreeShare) (xt : Buf (Elt F) (arg2.view.loc (c : Thread nD τ))) (hchk : k5_chk1 (word5 c i arg2 xt))
    (vb : Vec F S2048x16 .bf16) (tb : Vec F S1x2048 .i32) (prev : Vec F S1x50000x16 .f32) (K : PUnit → sProp 𝕄) :
    iprop(owns (c : Thread nD τ) arg3 fullShare vb ∗ owns (c : Thread nD τ) arg4 fullShare tb ∗ owns (c : Thread nD τ) arg5 fullShare prev ∗ (arg2.view.loc (c : Thread nD τ) ↦{q} xt)
        ∗ (iprop(owns (c : Thread nD τ) arg3 fullShare vb ∗ owns (c : Thread nD τ) arg4 fullShare tb ∗ owns (c : Thread nD τ) arg5 fullShare (slab5 (decide ((i 1).val = 0)) (word5 c i arg2 xt) hchk tb vb prev) ∗ (arg2.view.loc (c : Thread nD τ) ↦{q} xt)) -∗ K ⟨⟩))
      ⊢ wp frame (wpE (defs₀ (F := F)) Variants.none c none) E (cc5__segsum_kernel i arg2 harg2 arg3 harg3 arg4 harg4 arg5 harg5) K := by
  by_cases h : cond5 i
  · have hd : decide ((i 1).val = 0) = true := decide_eq_true ((cond5_iff i).1 h)
    rw [hd]
    exact sound_kernel5_A c E i arg2 harg2 arg3 harg3 arg4 harg4 arg5 harg5 h q xt hchk vb tb prev K
  · have hd : decide ((i 1).val = 0) = false := decide_eq_false (fun e => h ((cond5_iff i).2 e))
    rw [hd]
    exact sound_kernel5_B c E i arg2 harg2 arg3 harg3 arg4 harg4 arg5 harg5 h q xt hchk vb tb prev K

end Cert.KernelIdeal.Hand

end
-- ==== Proof.KI.SegDat5.lean ====
/- The proof data and the body obligation of segment-sum call 5 (grid (2, 452), 904 points): its output slab is
   carried in one staging buffer across the 452 points of a row of the grid and written back when the row ends. -/
import proofs.«402757_j20469814133395_4_alg».proof.Proof.Gen.KernelIdeal.Launch
import proofs.«402757_j20469814133395_4_alg».proof.Proof.Gen.KernelIdeal.Skeleton
import proofs.«402757_j20469814133395_4_alg».proof.Proof.Gen.KernelIdeal.Points
import proofs.«402757_j20469814133395_4_alg».proof.Proof.KI.SegRun5
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table of window starts, as the body is handed it -/

/-- The table's buffer as a memref: the whole buffer. -/
abbrev tbM5 : Memref sig .tc .smem S904 .i32 := Memref.whole main_v128
abbrev htbM5 : tbM5.IsWhole := Memref.isWhole_whole _

/-- At a row's first point the slab is reset before it is read: what the buffer held does not matter. -/
theorem slab5_reset (w : BitVec 32) (hchk : k5_chk1 w) (tb : Vec F S1x2048 .i32) (vb : Vec F S2048x16 .bf16) (prev prev' : Vec F S1x50000x16 .f32) :
    slab5 true w hchk tb vb prev = slab5 true w hchk tb vb prev' := by
  rw [slab5_true, slab5_true]

/-! ## The schedule of the grid: (p, j) = (t / 452, t % 452); the slab is written back when a row ends -/

theorem coords5_0 : ∀ t : Fin grid5.N, ((grid5.coords t) 0).val = t.val / 452 := by decide +kernel
theorem coords5_1 : ∀ t : Fin grid5.N, ((grid5.coords t) 1).val = t.val % 452 := by decide +kernel

section Data

variable (V : (c : Dev nD) → (b : Ref sig .tc) → Buf (Elt F) ((c : Thread nD τ).loc b))
variable (a : (pcfg5 (F := F)).Adm)

/-- The slab window is written back at the last point of each row, at any contents of the table (its index map reads none). -/
theorem flush5_2 : ∀ t : Fin (cfg5 a).N, ((cfg5 a).win 2).flush t = true ↔ t.val % 452 = 451 :=
  (by decide +kernel : ∀ t : Fin grid5.N, Pipeline.Window.flushOf grid5 true cc5_transform_2 t = true ↔ t.val % 452 = 451)

/-- The current staging memref of each window at point t. -/
abbrev st5_0 (t : Fin (cfg5 a).N) := ((cfg5 a).win 0).stage ((cfg5 a).slots t 0)
abbrev st5_1 (t : Fin (cfg5 a).N) := ((cfg5 a).win 1).stage ((cfg5 a).slots t 1)
abbrev st5_2 (t : Fin (cfg5 a).N) := ((cfg5 a).win 2).stage ((cfg5 a).slots t 2)

/-- The kernel body at point t, on what the pipeline calls it with. -/
abbrev bodyAt5 (t : Fin (cfg5 a).N) : Prog (TpuEff nD τ sig (Elt F) Λ₀ .tc) PUnit :=
  cc5__segsum_kernel (grid5.coords t) (Memref.whole main_v128) (Memref.isWhole_whole _) (spec5_0.stage ((cfg5 a).slots t 0)) (hstage5_0 (((cfg5 a).slots t 0).cast nbuf5_0)) (spec5_1.stage ((cfg5 a).slots t 1)) (hstage5_1 (((cfg5 a).slots t 1).cast nbuf5_1)) (spec5_2.stage ((cfg5 a).slots t 2)) (hstage5_2 (((cfg5 a).slots t 2).cast nbuf5_2))

/-- The table's contents, as the buffer's on core c. -/
abbrev tbl5 (c : Dev nD) : Buf (Elt F) (tbM5.view.loc (c : Thread nD τ)) := a.1 0

/-- The tables the region holds are the one table, at its contents. -/
theorem prefHeld5_eq (c : Dev nD) (q : PosShare TreeShare) :
    (Pipeline.prefHeld (Ix := Unit) (Name := ℕ) (U := UR sig nD τ) (Lvl := ℕ) pre5 c (fun _ => q) a.1 : sProp 𝕄)
      = (tbM5.view.loc (c : Thread nD τ) ↦{q} tbl5 a c) := by
  unfold Pipeline.prefHeld
  rw [show (Finset.univ : Finset (Fin 1)) = {(0 : Fin 1)} from by decide, bigSep_singleton]
  rfl

/-- Window w's block at point t, read off its array as the region finds it. -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- An input window's current staging buffer holds its block at every point, fetched there or not. -/
theorem before5_0_of {c : Dev nD} (dat : Dat τ (Elt F) Unit ℕ (UR sig nD τ) ℕ (cfg5 a) c) (hA : dat.A 0 = V c (Pipeline.arrRef spec5 0))
    (hafter : ∀ t, dat.after 0 t = iblk5 V a c 0 t) (t : Fin (cfg5 a).N) (d) : dat.before 0 t d = iblk5 V a c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ (cfg5 a) c) (hA : dat.A 1 = V c (Pipeline.arrRef spec5 1))
    (hafter : ∀ t, dat.after 1 t = iblk5 V a c 1 t) (t : Fin (cfg5 a).N) (d) : dat.before 1 t d = iblk5 V a c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

variable (htbl : ∀ (c : Dev nD) (i : grid5.Coords), k5_chk1 (word5 c i tbM5 (tbl5 a c)))

/-- One point's step on the slab: the body at point t from the slab prev. -/
def stepAt5 (c : Dev nD) (t : Fin (cfg5 a).N) (prev : Vec F S1x50000x16 .f32) : Vec F S1x50000x16 .f32 :=
  slab5 (decide (((grid5.coords t) 1).val = 0)) (word5 c (grid5.coords t) tbM5 (tbl5 a c)) (htbl c (grid5.coords t))
    (iblk5 V a c 1 t) (iblk5 V a c 0 t) prev

/-- THE ACCUMULATION. What the slab's staging buffer holds after the body at position n: the step at n over what
    the position before left (at a row's first point the step resets the slab, so what it starts from does not matter). -/
def outsAt5 (c : Dev nD) : (n : ℕ) → n < (cfg5 a).N → Vec F S1x50000x16 .f32
  | 0, hn => stepAt5 V a htbl c ⟨0, hn⟩ k5_pay1
  | n + 1, hn => stepAt5 V a htbl c ⟨n + 1, hn⟩ (outsAt5 c n (Nat.lt_of_succ_lt hn))

/-- The accumulation at a point, over any slab that is what the point before left — or over anything at a row's first point. -/
theorem outsAt5_eq (c : Dev nD) (t : Fin (cfg5 a).N) (prev : Vec F S1x50000x16 .f32)
    (h : t.val % 452 = 0 ∨ ∃ ht : t.val ≠ 0, prev = outsAt5 V a htbl c (t.val - 1) (Nat.lt_of_le_of_lt (Nat.sub_le _ _) t.isLt)) :
    outsAt5 V a htbl c t.val t.isLt = stepAt5 V a htbl c t prev := by
  obtain ⟨n, hn⟩ := t
  rcases h with h0 | ⟨ht, rfl⟩
  · have hd : decide (((grid5.coords ⟨n, hn⟩) 1).val = 0) = true := decide_eq_true (by rw [coords5_1]; exact h0)
    cases n with
    | zero => unfold outsAt5 stepAt5; rw [hd]; exact slab5_reset _ _ _ _ _ _
    | succ n => unfold outsAt5 stepAt5; rw [hd]; exact slab5_reset _ _ _ _ _ _
  · cases n with
    | zero => exact absurd rfl ht
    | succ n => rfl

/-! ## The pipeline's proof data -/

/-- The proof data of the pipeline on core c, at the region-entry contents V and the table's contents a: the arrays as the
    region finds them; after the body at point t each input's buffer at its block and the slab's at the accumulation; the
    invariant the scoped rest, the generator register and the table held whole; nothing owed; full shares. -/
def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => outsAt5 V a htbl c t.val t.isLt
  Φ _ := iprop(Pipeline.ΦA spec5 c ∗ Pipeline.prefHeld (Ix := Unit) (Name := ℕ) (U := UR sig nD τ) (Lvl := ℕ) pre5 c (fun _ => fullShare) a.1)
  q _ := fullShare
  owed _ := 0

theorem A_eq5 (c : Dev nD) (w : Fin (cfg5 a).W) : (dat5 V a htbl c).A w = V c (Pipeline.arrRef spec5 w) := by
  dsimp only [dat5]

theorem after5_0 (c : Dev nD) (t : Fin (cfg5 a).N) : (dat5 V a htbl c).after 0 t = iblk5 V a c 0 t := by dsimp only [dat5]; try rfl
theorem after5_1 (c : Dev nD) (t : Fin (cfg5 a).N) : (dat5 V a htbl c).after 1 t = iblk5 V a c 1 t := by dsimp only [dat5]; try rfl
theorem after5_2 (c : Dev nD) (t : Fin (cfg5 a).N) : (dat5 V a htbl c).after 2 t = outsAt5 V a htbl c t.val t.isLt := by dsimp only [dat5]; try rfl

theorem Phi5_eq (c : Dev nD) (n : Fin ((cfg5 a).N + 1)) :
    (dat5 V a htbl c).Φ n = iprop(Pipeline.ΦA spec5 c ∗ (tbM5.view.loc (c : Thread nD τ) ↦{fullShare} tbl5 a c)) := by
  rw [← prefHeld5_eq a c fullShare]; rfl

theorem before5_0 (c : Dev nD) (t : Fin (cfg5 a).N) (d) : (dat5 V a htbl c).before 0 t d = iblk5 V a c 0 t :=
  before5_0_of V a (dat5 V a htbl c) (A_eq5 V a htbl c 0) (after5_0 V a htbl c) t d
theorem before5_1 (c : Dev nD) (t : Fin (cfg5 a).N) (d) : (dat5 V a htbl c).before 1 t d = iblk5 V a c 1 t :=
  before5_1_of V a (dat5 V a htbl c) (A_eq5 V a htbl c 1) (after5_1 V a htbl c) t d

/-- Inside a row the slab's staging buffer holds what the body left at the point before: the point is not the first,
    the buffer was not written back between, the window is never idle and never cut. -/
theorem before5_2_kept (c : Dev nD) (t : Fin (cfg5 a).N) (h0 : ¬t.val % 452 = 0) (d) :
    (dat5 V a htbl c).before 2 t d = outsAt5 V a htbl c (t.val - 1) (Nat.lt_of_le_of_lt (Nat.sub_le _ _) t.isLt) := by
  have hN : t.val < 904 := lt_of_lt_of_eq t.isLt (show (cfg5 a).N = 904 from N_5)
  rw [Dat.before_out_kept _ 2 rfl t (by omega) (Bool.eq_false_iff.mpr fun h => by have := (flush5_2 a _).mp h; dsimp only at this; omega)
    (fun _ => rfl) (fun _ _ => rfl)]
  exact after5_2 V a htbl c _

/-! ## The body obligation, at a generic point -/

def bodyPre5 (c : Dev nD) (t : Fin (cfg5 a).N) : sProp 𝕄 :=
  iprop((dat5 V a htbl c).Φ t.castSucc ∗ (dat5 V a htbl c).owesAt () t.castSucc
    ∗ (∃ d, owns (c : Thread nD τ) (st5_0 a t) fullShare ((dat5 V a htbl c).before 0 t d))
    ∗ (∃ d, owns (c : Thread nD τ) (st5_1 a t) fullShare ((dat5 V a htbl c).before 1 t d))
    ∗ (∃ d, owns (c : Thread nD τ) (st5_2 a t) fullShare ((dat5 V a htbl c).before 2 t d)))

def bodyPost5 (c : Dev nD) (t : Fin (cfg5 a).N) : sProp 𝕄 :=
  iprop((dat5 V a htbl c).Φ t.succ ∗ (dat5 V a htbl c).owesAt () t.succ
    ∗ owns (c : Thread nD τ) (st5_0 a t) fullShare ((dat5 V a htbl c).after 0 t)
    ∗ owns (c : Thread nD τ) (st5_1 a t) fullShare ((dat5 V a htbl c).after 1 t)
    ∗ owns (c : Thread nD τ) (st5_2 a t) fullShare ((dat5 V a htbl c).after 2 t))

set_option maxHeartbeats 800000 in
/-- The body at any point: the inputs' memrefs hold their blocks; inside a row the slab's holds what the point before left,
    at a row's first point anything (the body resets it); so the body's run applies, the table lent from the invariant and
    taken back; the core owes nothing throughout. -/
theorem sound_body5 (c : Dev nD) (t : Fin (cfg5 a).N) :
    bodyPre5 V a htbl c t ⊢ wp frame (wpE (defs₀ (F := F)) Variants.none c none) Set.univ (bodyAt5 a t) (fun _ => bodyPost5 V a htbl c t) := by
  unfold bodyPre5 bodyPost5 bodyAt5
  simp only [before5_0, before5_1]
  rw [show (dat5 V a htbl c).owesAt () t.succ = (dat5 V a htbl c).owesAt () t.castSucc from rfl,
    after5_0, after5_1, after5_2, Phi5_eq, Phi5_eq]
  iintro ⟨⟨HΦ, HT⟩, Ho, ⟨%d0, H0⟩, ⟨%d1, H1⟩, ⟨%d2, H2⟩⟩
  have hstep : outsAt5 V a htbl c t.val t.isLt = stepAt5 V a htbl c t ((dat5 V a htbl c).before 2 t d2) := by
    refine outsAt5_eq V a htbl c t _ ?_
    by_cases h0 : t.val % 452 = 0
    · exact .inl h0
    · exact .inr ⟨fun h => h0 (by rw [h]), before5_2_kept V a htbl c t h0 d2⟩
  rw [hstep]; unfold stepAt5
  iapply (sound_kernel5 c Set.univ (grid5.coords t) tbM5 htbM5 _ _ _ _ _ _ fullShare (tbl5 a c) (htbl c (grid5.coords t))
    (iblk5 V a c 0 t) (iblk5 V a c 1 t) ((dat5 V a htbl c).before 2 t d2) _)
  isplitl [H0]; · iexact H0
  isplitl [H1]; · iexact H1
  isplitl [H2]; · iexact H2
  isplitl [HT]; · iexact HT
  iintro ⟨H0, H1, H2, HT⟩
  isplitl [HΦ HT]
  · isplitl [HΦ]; · iexact HΦ
    iexact HT
  isplitl [Ho]; · iexact Ho
  isplitl [H0]; · iexact H0
  isplitl [H1]; · iexact H1
  iexact H2

/-- The library's body obligation, at every point. -/
theorem body_obligation5 (c : Dev nD) : BodyObligation (dat5 (F := F) V a htbl c) (defs₀ (F := F)) Variants.none () Set.univ := fun t => by
  rw [bigSep_W5, bigSep_W5]
  exact sound_body5 V a htbl c t

/-- The word the body reads through the table's memref is one of the table's words: a condition on every word of the
    table gives the condition at every point. -/
theorem htbl5_of (a : (pcfg5 (F := F)).Adm) (h : ∀ k : S904.Idx, k5_chk1 ((a.1 0 : S904.Idx → BitVec 32) k)) :
    ∀ (c : Dev nD) (i : grid5.Coords), k5_chk1 (word5 c i tbM5 (tbl5 a c)) :=
  fun c i => h ((Rect.unit (s := S904) (k5_off1 i) S1.size (k5_off1_inb i)).emb (Shape.Idx.first (numel1_S1.symm ▸ Nat.one_pos)))

/-- The word read at grid point i is the table's element at 452 * i 0 + i 1. -/
theorem word5_eq (c : Dev nD) (i : grid5.Coords) (f : Buf (Elt F) (tbM5.view.loc (c : Thread nD τ))) (x : S904.Idx)
    (hx : (x 0).val = 452 * (i 0).val + (i 1).val) : word5 c i tbM5 f = (f : S904.Idx → BitVec 32) x := by
  show (f : S904.Idx → BitVec 32) ((Rect.unit (s := S904) (k5_off1 i) S1.size (k5_off1_inb i)).emb (Shape.Idx.first (numel1_S1.symm ▸ Nat.one_pos))) = _
  refine congrArg _ (funext fun b => Fin.ext ?_)
  obtain rfl : b = 0 := Subsingleton.elim _ _
  rw [Rect.emb_apply, hx]
  show k5_off1 i 0 + 1 * 0 = _
  rw [k5_off1_eq]; rfl

end Data

end Cert.KernelIdeal.Hand

end
-- ==== Proof.KI.Tbl.lean ====
import proofs.«402757_j20469814133395_4_alg».proof.Proof.KI.RegionsP
import Idealize.ShloMosaic.Lib.StableHlo.Run

/-!
# The prefetched tables satisfy the bodies' side condition

The four segment-sum bodies read a word `w` of a prefetched table of window starts and assume that
`8 ∣ w` and `w + 2056 ≤ 50000`. Two tables serve the four calls: the 172-entry table `main_v63` (calls 1 and
4) and the 904-entry table `main_v128` (calls 2 and 5). Each is computed before the first call as

  `minimum (47944, maximum (0, q * 8))`   pointwise, signed,

`q` a vector of quotients that is never opened here. For every word `y` the signed clip of `y * 8` into
`[0, 47944]` is `0`, `47944 = 8 * 5993`, or the product itself when that is between the two — and a product by
8 modulo `2 ^ 32` is a multiple of 8 because `8 ∣ 2 ^ 32`. No operation between a table's computation and the
calls that read it writes the table's buffer, so the calls find it as computed.
-/

set_option maxRecDepth 2316

noncomputable section

namespace Cert.KernelIdeal.Hand

open Cert.KernelIdeal Cert.KernelIdeal.Gen

open Idealize.ShloMosaic Idealize.ShloMosaic.TcCoe
open Idealize.SL.Sem

variable {F : FTy → Type} [FloatOps F]

/-! ## Words -/

/-- A product by 8, clipped into `[0, 47944]` by a signed maximum with 0 and then a signed minimum with 47944,
    is a multiple of 8 as a natural number and at most 47944. By cases on the two comparisons: the result is 0;
    or 47944 = 8 · 5993; or the product `p` itself with `0 ≤ p ≤ 47944` as a signed word, so that its natural
    value is its signed one, and `p.toNat = (y.toNat * 8) % 2 ^ 32` is a multiple of 8. -/
theorem clip8_dvd_le (y : BitVec 32) :
    8 ∣ (IntOp.minsi 47944#32 (IntOp.maxsi 0#32 (IntOp.muli y 8#32))).toNat ∧
      (IntOp.minsi 47944#32 (IntOp.maxsi 0#32 (IntOp.muli y 8#32))).toNat ≤ 47944 := by
  have hp : (y * 8#32).toNat = (y.toNat * 8) % 4294967296 := by
    rw [BitVec.toNat_mul]; rfl
  unfold IntOp.minsi IntOp.maxsi IntOp.muli
  by_cases h1 : (y * 8#32).slt 0#32
  · rw [if_pos h1]
    have h2 : ¬ ((47944#32).slt 0#32 = true) := by decide
    rw [if_neg h2]
    exact ⟨⟨0, rfl⟩, Nat.zero_le _⟩
  · rw [if_neg h1]
    by_cases h2 : (47944#32).slt (y * 8#32)
    · rw [if_pos h2]
      exact ⟨⟨5993, rfl⟩, Nat.le_refl _⟩
    · rw [if_neg h2]
      rw [BitVec.slt_iff_toInt_lt] at h1 h2
      have e0 : (0#32).toInt = 0 := rfl
      have e1 : (47944#32).toInt = 47944 := rfl
      rw [e0] at h1
      rw [e1] at h2
      rw [BitVec.toInt_eq_toNat_cond] at h1 h2
      have hlt : (y * 8#32).toNat < 4294967296 := (y * 8#32).isLt
      constructor
      · rw [hp]; omega
      · split at h1 <;> split at h2 <;> omega

/-- A word that is a multiple of 8 and at most 47944 = 50000 − 2056 satisfies the side condition of body 1: it
    is the multiple stated, and the slab of 2056 rows that starts at it lies inside the 50000 rows. -/
theorem k1_chk1_of (w : BitVec 32) (h8 : 8 ∣ w.toNat) (hle : w.toNat ≤ 47944) : k1_chk1 w := by
  refine ⟨h8, ?_⟩
  intro a
  match a with
  | ⟨0, _⟩ => exact Nat.le_refl 1
  | ⟨1, _⟩ =>
    show w.toNat + 2056 ≤ 50000
    omega
  | ⟨2, _⟩ => exact Nat.le_refl 64

/-- A word that is a multiple of 8 and at most 47944 = 50000 − 2056 satisfies the side condition of body 2: it
    is the multiple stated, and the slab of 2056 rows that starts at it lies inside the 50000 rows. -/
theorem k2_chk1_of (w : BitVec 32) (h8 : 8 ∣ w.toNat) (hle : w.toNat ≤ 47944) : k2_chk1 w := by
  refine ⟨h8, ?_⟩
  intro a
  match a with
  | ⟨0, _⟩ => exact Nat.le_refl 1
  | ⟨1, _⟩ =>
    show w.toNat + 2056 ≤ 50000
    omega
  | ⟨2, _⟩ => exact Nat.le_refl 64

/-- A word that is a multiple of 8 and at most 47944 = 50000 − 2056 satisfies the side condition of body 4: it
    is the multiple stated, and the slab of 2056 rows that starts at it lies inside the 50000 rows. -/
theorem k4_chk1_of (w : BitVec 32) (h8 : 8 ∣ w.toNat) (hle : w.toNat ≤ 47944) : k4_chk1 w := by
  refine ⟨h8, ?_⟩
  intro a
  match a with
  | ⟨0, _⟩ => exact Nat.le_refl 1
  | ⟨1, _⟩ =>
    show w.toNat + 2056 ≤ 50000
    omega
  | ⟨2, _⟩ => exact Nat.le_refl 16

/-- A word that is a multiple of 8 and at most 47944 = 50000 − 2056 satisfies the side condition of body 5: it
    is the multiple stated, and the slab of 2056 rows that starts at it lies inside the 50000 rows. -/
theorem k5_chk1_of (w : BitVec 32) (h8 : 8 ∣ w.toNat) (hle : w.toNat ≤ 47944) : k5_chk1 w := by
  refine ⟨h8, ?_⟩
  intro a
  match a with
  | ⟨0, _⟩ => exact Nat.le_refl 1
  | ⟨1, _⟩ =>
    show w.toNat + 2056 ≤ 50000
    omega
  | ⟨2, _⟩ => exact Nat.le_refl 16

/-! ## The tables as computed -/

/-- The six operations of the clip over S172, from any contents `W`: the table is the pointwise signed minimum of
    the broadcast upper bound with the pointwise signed maximum of the broadcast lower bound and the operand. -/
theorem clip172_read (W : Valuation τ sig (Elt F)) :
    (StableHlo.after hostOps0_13 W (Proc.devRef .tc main_v63) : S172.Idx → BitVec 32)
      = minsi (broadcastInDim S172 ![] bcast_S_S172 (W (Proc.devRef .tc main_c_19)))
          (maxsi (broadcastInDim S172 ![] bcast_S_S172 (W (Proc.devRef .tc main_c_18))) (W (Proc.devRef .tc main_v62))) := by
  after_results
  rfl

/-- The five operations before the clip, from any contents `W`: the clip's operand is the pointwise product of
    the quotient with the broadcast constant 8. -/
theorem mul172_read (W : Valuation τ sig (Elt F)) :
    (StableHlo.after hostOps0_12 W (Proc.devRef .tc main_v62) : S172.Idx → BitVec 32)
      = muli (W (Proc.devRef .tc main_v60)) (broadcastInDim S172 ![] bcast_S_S172 (constantI S_ 32 8#32)) := by
  after_results

/-- … the lower bound is the constant 0 … -/
theorem lo172_read (W : Valuation τ sig (Elt F)) :
    (StableHlo.after hostOps0_12 W (Proc.devRef .tc main_c_18) : S_.Idx → BitVec 32) = constantI S_ 32 0#32 := by
  after_results

/-- … and the upper bound the constant 47944. -/
theorem hi172_read (W : Valuation τ sig (Elt F)) :
    (StableHlo.after hostOps0_12 W (Proc.devRef .tc main_c_19) : S_.Idx → BitVec 32) = constantI S_ 32 47944#32 := by
  after_results

/-- Read at an index, the clipped product is the clip of one word's product by 8. -/
theorem clip172_at (X : S172.Idx → BitVec 32) (k : S172.Idx) :
    (minsi (broadcastInDim S172 ![] bcast_S_S172 (constantI S_ 32 47944#32))
        (maxsi (broadcastInDim S172 ![] bcast_S_S172 (constantI S_ 32 0#32)) (muli X (broadcastInDim S172 ![] bcast_S_S172 (constantI S_ 32 8#32))))) k
      = IntOp.minsi 47944#32 (IntOp.maxsi 0#32 (IntOp.muli (X k) 8#32)) := rfl

/-- The six operations of the clip over S904, from any contents `W`: the table is the pointwise signed minimum of
    the broadcast upper bound with the pointwise signed maximum of the broadcast lower bound and the operand. -/
theorem clip904_read (W : Valuation τ sig (Elt F)) :
    (StableHlo.after hostOps0_27 W (Proc.devRef .tc main_v128) : S904.Idx → BitVec 32)
      = minsi (broadcastInDim S904 ![] bcast_S_S904 (W (Proc.devRef .tc main_c_41)))
          (maxsi (broadcastInDim S904 ![] bcast_S_S904 (W (Proc.devRef .tc main_c_40))) (W (Proc.devRef .tc main_v127))) := by
  after_results
  rfl

/-- The five operations before the clip, from any contents `W`: the clip's operand is the pointwise product of
    the quotient with the broadcast constant 8. -/
theorem mul904_read (W : Valuation τ sig (Elt F)) :
    (StableHlo.after hostOps0_26 W (Proc.devRef .tc main_v127) : S904.Idx → BitVec 32)
      = muli (W (Proc.devRef .tc main_v125)) (broadcastInDim S904 ![] bcast_S_S904 (constantI S_ 32 8#32)) := by
  after_results

/-- … the lower bound is the constant 0 … -/
theorem lo904_read (W : Valuation τ sig (Elt F)) :
    (StableHlo.after hostOps0_26 W (Proc.devRef .tc main_c_40) : S_.Idx → BitVec 32) = constantI S_ 32 0#32 := by
  after_results

/-- … and the upper bound the constant 47944. -/
theorem hi904_read (W : Valuation τ sig (Elt F)) :
    (StableHlo.after hostOps0_26 W (Proc.devRef .tc main_c_41) : S_.Idx → BitVec 32) = constantI S_ 32 47944#32 := by
  after_results

/-- Read at an index, the clipped product is the clip of one word's product by 8. -/
theorem clip904_at (X : S904.Idx → BitVec 32) (k : S904.Idx) :
    (minsi (broadcastInDim S904 ![] bcast_S_S904 (constantI S_ 32 47944#32))
        (maxsi (broadcastInDim S904 ![] bcast_S_S904 (constantI S_ 32 0#32)) (muli X (broadcastInDim S904 ![] bcast_S_S904 (constantI S_ 32 8#32))))) k
      = IntOp.minsi 47944#32 (IntOp.maxsi 0#32 (IntOp.muli (X k) 8#32)) := rfl

variable (m : (ℓ : Loc nD τ sig) → Buf (Elt F) ℓ) (outs : GenP.Outs (F := F))

/-- The 172-entry table once computed: the clip of the quotients' product by 8. -/
theorem tbl63_V14 (c : Dev nD) :
    (GenP.V14 m c main_v63 : S172.Idx → BitVec 32)
      = minsi (broadcastInDim S172 ![] bcast_S_S172 (constantI S_ 32 47944#32))
          (maxsi (broadcastInDim S172 ![] bcast_S_S172 (constantI S_ 32 0#32))
            (muli (GenP.V12 m c main_v60) (broadcastInDim S172 ![] bcast_S_S172 (constantI S_ 32 8#32)))) :=
  (clip172_read (GenP.V13 m c)).trans <| by
    rw [show GenP.V13 m c (Proc.devRef .tc main_c_19) = _ from hi172_read (GenP.V12 m c),
      show GenP.V13 m c (Proc.devRef .tc main_c_18) = _ from lo172_read (GenP.V12 m c),
      show GenP.V13 m c (Proc.devRef .tc main_v62) = _ from mul172_read (GenP.V12 m c)]

/-- The 904-entry table once computed: the clip of the quotients' product by 8. -/
theorem tbl128_V28 (c : Dev nD) :
    (GenP.V28 m c main_v128 : S904.Idx → BitVec 32)
      = minsi (broadcastInDim S904 ![] bcast_S_S904 (constantI S_ 32 47944#32))
          (maxsi (broadcastInDim S904 ![] bcast_S_S904 (constantI S_ 32 0#32))
            (muli (GenP.V26 m c main_v125) (broadcastInDim S904 ![] bcast_S_S904 (constantI S_ 32 8#32)))) :=
  (clip904_read (GenP.V27 m c)).trans <| by
    rw [show GenP.V27 m c (Proc.devRef .tc main_c_41) = _ from hi904_read (GenP.V26 m c),
      show GenP.V27 m c (Proc.devRef .tc main_c_40) = _ from lo904_read (GenP.V26 m c),
      show GenP.V27 m c (Proc.devRef .tc main_v127) = _ from mul904_read (GenP.V26 m c)]

/-! ## The tables as the calls find them -/

/-- Nothing between its computation and call 1 writes the 172-entry table. -/
theorem tbl63_V32 (c : Dev nD) : GenP.V32 m outs c main_v63 = GenP.V14 m c main_v63 :=
  (GenP.V32_of m outs c main_v63 (by decide)).trans <|
    (GenP.V31_of m outs c main_v63 (by decide)).trans <|
    (GenP.V30_of m outs c main_v63 (by decide)).trans <|
    (GenP.V29_of m c main_v63 (by decide)).trans <|
    (GenP.V28_of m c main_v63 (by decide)).trans <|
    (GenP.V27_of m c main_v63 (by decide)).trans <|
    (GenP.V26_of m c main_v63 (by decide)).trans <|
    (GenP.V25_of m c main_v63 (by decide)).trans <|
    (GenP.V24_of m c main_v63 (by decide)).trans <|
    (GenP.V23_of m c main_v63 (by decide)).trans <|
    (GenP.V22_of m c main_v63 (by decide)).trans <|
    (GenP.V21_of m c main_v63 (by decide)).trans <|
    (GenP.V20_of m c main_v63 (by decide)).trans <|
    (GenP.V19_of m c main_v63 (by decide)).trans <|
    (GenP.V18_of m c main_v63 (by decide)).trans <|
    (GenP.V17_of m c main_v63 (by decide)).trans <|
    (GenP.V16_of m c main_v63 (by decide)).trans <|
    (GenP.V15_of m c main_v63 (by decide)).trans rfl

/-- Nor anything between call 1 and call 4. -/
theorem tbl63_V43 (c : Dev nD) : GenP.V43 m outs c main_v63 = GenP.V32 m outs c main_v63 :=
  (GenP.V43_of m outs c main_v63 (by decide)).trans <|
    (GenP.V42_of m outs c main_v63 (by decide)).trans <|
    (GenP.V41_of m outs c main_v63 (by decide)).trans <|
    (GenP.V40_of m outs c main_v63 (by decide)).trans <|
    (GenP.V39_of m outs c main_v63 (by decide)).trans <|
    (GenP.V38_of m outs c main_v63 (by decide)).trans <|
    (GenP.V37_of m outs c main_v63 (by decide)).trans <|
    (GenP.V36_of m outs c main_v63 (by decide)).trans <|
    (GenP.V35_of m outs c main_v63 (by decide)).trans <|
    (GenP.V34_of m outs c main_v63 (by decide)).trans <|
    (GenP.V33_of m outs c main_v63 (by decide)).trans rfl

/-- Nothing between its computation and call 2 writes the 904-entry table. -/
theorem tbl128_V36 (c : Dev nD) : GenP.V36 m outs c main_v128 = GenP.V28 m c main_v128 :=
  (GenP.V36_of m outs c main_v128 (by decide)).trans <|
    (GenP.V35_of m outs c main_v128 (by decide)).trans <|
    (GenP.V34_of m outs c main_v128 (by decide)).trans <|
    (GenP.V33_of m outs c main_v128 (by decide)).trans <|
    (GenP.V32_of m outs c main_v128 (by decide)).trans <|
    (GenP.V31_of m outs c main_v128 (by decide)).trans <|
    (GenP.V30_of m outs c main_v128 (by decide)).trans <|
    (GenP.V29_of m c main_v128 (by decide)).trans rfl

/-- Nor anything between call 2 and call 5. -/
theorem tbl128_V47 (c : Dev nD) : GenP.V47 m outs c main_v128 = GenP.V36 m outs c main_v128 :=
  (GenP.V47_of m outs c main_v128 (by decide)).trans <|
    (GenP.V46_of m outs c main_v128 (by decide)).trans <|
    (GenP.V45_of m outs c main_v128 (by decide)).trans <|
    (GenP.V44_of m outs c main_v128 (by decide)).trans <|
    (GenP.V43_of m outs c main_v128 (by decide)).trans <|
    (GenP.V42_of m outs c main_v128 (by decide)).trans <|
    (GenP.V41_of m outs c main_v128 (by decide)).trans <|
    (GenP.V40_of m outs c main_v128 (by decide)).trans <|
    (GenP.V39_of m outs c main_v128 (by decide)).trans <|
    (GenP.V38_of m outs c main_v128 (by decide)).trans <|
    (GenP.V37_of m outs c main_v128 (by decide)).trans rfl

/-- Every word of the 172-entry table is a multiple of 8 and at most 47944, as computed. -/
theorem tbl63_dvd_le (c : Dev nD) (k : S172.Idx) :
    8 ∣ ((GenP.V14 m c main_v63 : S172.Idx → BitVec 32) k).toNat ∧
      ((GenP.V14 m c main_v63 : S172.Idx → BitVec 32) k).toNat ≤ 47944 := by
  rw [tbl63_V14, clip172_at]
  exact clip8_dvd_le _

/-- Every word of the 904-entry table is a multiple of 8 and at most 47944, as computed. -/
theorem tbl128_dvd_le (c : Dev nD) (k : S904.Idx) :
    8 ∣ ((GenP.V28 m c main_v128 : S904.Idx → BitVec 32) k).toNat ∧
      ((GenP.V28 m c main_v128 : S904.Idx → BitVec 32) k).toNat ≤ 47944 := by
  rw [tbl128_V28, clip904_at]
  exact clip8_dvd_le _

/-- Call 1 finds every word of its table satisfying its body's side condition. -/
theorem tbl1_chk (c : Dev nD) (k : S172.Idx) :
    k1_chk1 ((GenP.V32 m outs c main_v63 : S172.Idx → BitVec 32) k) := by
  rw [tbl63_V32]
  exact k1_chk1_of _ (tbl63_dvd_le m c k).1 (tbl63_dvd_le m c k).2

/-- Call 2 finds every word of its table satisfying its body's side condition. -/
theorem tbl2_chk (c : Dev nD) (k : S904.Idx) :
    k2_chk1 ((GenP.V36 m outs c main_v128 : S904.Idx → BitVec 32) k) := by
  rw [tbl128_V36]
  exact k2_chk1_of _ (tbl128_dvd_le m c k).1 (tbl128_dvd_le m c k).2

/-- Call 4 reads the table of call 1, unchanged. -/
theorem tbl4_chk (c : Dev nD) (k : S172.Idx) :
    k4_chk1 ((GenP.V43 m outs c main_v63 : S172.Idx → BitVec 32) k) := by
  rw [tbl63_V43, tbl63_V32]
  exact k4_chk1_of _ (tbl63_dvd_le m c k).1 (tbl63_dvd_le m c k).2

/-- Call 5 reads the table of call 2, unchanged. -/
theorem tbl5_chk (c : Dev nD) (k : S904.Idx) :
    k5_chk1 ((GenP.V47 m outs c main_v128 : S904.Idx → BitVec 32) k) := by
  rw [tbl128_V47, tbl128_V36]
  exact k5_chk1_of _ (tbl128_dvd_le m c k).1 (tbl128_dvd_le m c k).2

end Cert.KernelIdeal.Hand
-- ==== Proof.KI.Regs.lean ====
import proofs.«402757_j20469814133395_4_alg».proof.Proof.KI.RegionsP
import proofs.«402757_j20469814133395_4_alg».proof.Proof.KI.Mm
import proofs.«402757_j20469814133395_4_alg».proof.Proof.KI.SegDat1
import proofs.«402757_j20469814133395_4_alg».proof.Proof.KI.SegDat2
import proofs.«402757_j20469814133395_4_alg».proof.Proof.KI.SegDat4
import proofs.«402757_j20469814133395_4_alg».proof.Proof.KI.SegDat5
import proofs.«402757_j20469814133395_4_alg».proof.Proof.KI.Tbl
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

/-! # The seven kernel regions of @main as segments, and the frame

Each pallas_call is entered from the core's unscoped buffers at the contents the host operations before it leave, and
left at the same contents with its output array replaced by what the pipeline's write-backs fold to. The four
segment-sum regions read a table of window starts prefetched from an unscoped buffer: the table's buffer is split out of
the unscoped rest at entry, rides through the region inside the body's invariant, and is put back at exit. -/

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed reading of the TensorCore's buffers: what a region's proof data are stated at. -/
abbrev Vals (F : FTy → Type) [FloatOps F] : Type := (c : Dev nD) → (b : Ref sig .tc) → Buf (Elt F) ((c : Thread nD τ).loc b)

/-! ## What a region's frame needs of its proof data -/

/-- The facts about pipeline `p`'s proof data `dat` (on core `c`, the tables pinned at `a`) that carry the region's frame: the
    arrays' entry contents are read off `V`; every input array is held whole; the body owes nothing and records nothing;
    the invariant at the first point is made from the generator register, the prefetched tables whole at `a p` and the scoped
    buffers no window stages, and at the last point gives the same back. -/
structure FrameDat (a : (p : Fin 7) → (pcfgs (F := F) p).Adm) (p : Fin 7) (V : Vals F) (c : Dev nD)
    (dat : Dat τ (Elt F) Unit ℕ (UR sig nD τ) ℕ (Pipeline.pin (pcfgs (F := F)) a p) c) : Prop where
  A : ∀ w, dat.A w = V c (Pipeline.arrRef (Pipeline.pin (pcfgs (F := F)) a p).spec w)
  q : ∀ w, dat.q w = fullShare
  owed : ∀ t, dat.owed t = 0
  recorded : ∀ t, dat.recorded t = Set.univ
  Φ_in : (iprop((∃ r, prngReg c r) ∗ Pipeline.prefHeld (pcfgs (F := F) p).pre c (fun _ => fullShare) (a p).1
      ∗ Pipeline.scopedRest (Pipeline.pin (pcfgs (F := F)) a p).spec c) : sProp 𝕄) ⊢ dat.Φ 0
  Φ_out : dat.Φ (Fin.last _) ⊢ (iprop(((∃ r, prngReg c r) ∗ Pipeline.prefHeld (pcfgs (F := F) p).pre c (fun _ => fullShare) (a p).1)
      ∗ Pipeline.scopedRest (Pipeline.pin (pcfgs (F := F)) a p).spec c) : sProp 𝕄)

/-- A pipeline with no prefetched table whose invariant is the class invariant `ΦA` at every point meets `FrameDat`'s two
    entailments: no table is held, so the tables' conjunct is empty. -/
theorem FrameDat.ofΦA (a : (p : Fin 7) → (pcfgs (F := F) p).Adm) (p : Fin 7) (V : Vals F) (c : Dev nD)
    (dat : Dat τ (Elt F) Unit ℕ (UR sig nD τ) ℕ (Pipeline.pin (pcfgs (F := F)) a p) c)
    (hK : (pcfgs (F := F) p).pre.K = 0)
    (hA : ∀ w, dat.A w = V c (Pipeline.arrRef (Pipeline.pin (pcfgs (F := F)) a p).spec w))
    (hq : ∀ w, dat.q w = fullShare) (howed : ∀ t, dat.owed t = 0) (hrec : ∀ t, dat.recorded t = Set.univ)
    (hΦ : ∀ t, dat.Φ t = Pipeline.ΦA (Pipeline.pin (pcfgs (F := F)) a p).spec c) : FrameDat a p V c dat where
  A := hA
  q := hq
  owed := howed
  recorded := hrec
  Φ_in := by
    rw [hΦ]; unfold Pipeline.ΦA
    iintro ⟨Hr, -, Hs⟩
    isplitl [Hs]; · iexact Hs
    iexact Hr
  Φ_out := by
    have hemp : (Pipeline.prefHeld (Ix := Unit) (Name := ℕ) (U := UR sig nD τ) (Lvl := ℕ) (pcfgs (F := F) p).pre c (fun _ => fullShare) (a p).1 : sProp 𝕄) = BI.emp := by
      unfold Pipeline.prefHeld
      haveI : IsEmpty (Fin (pcfgs (F := F) p).pre.K) := by rw [hK]; infer_instance
      rw [Finset.univ_eq_empty, BI.bigSep_empty]
    rw [hΦ, hemp]; unfold Pipeline.ΦA
    iintro ⟨Hs, Hr⟩
    isplitl [Hr]
    · isplitl [Hr]; · iexact Hr
      iempintro
    iexact Hs

/-! ## The thread state between segments -/

/-- No core owes another anything: no level is assigned. -/
abbrev Lz : GSem nD τ sig → Finset Unit := fun _ => ∅
abbrev lvz : GSem nD τ sig → Unit → ℕ := fun _ _ => 0
/-- What rides beside the buffers through every segment: the core's generator register at some state and its `owes`, at
    nothing. -/
abbrev Rst (c : Dev nD) : sProp 𝕄 := iprop((∃ r, prngReg c r) ∗ ∃ W, owes (c : Thread nD τ) (0 : CellTallies nD τ sig Unit) W)

/-- Owing nothing, within any bound, from owing nothing: the first tallies of proof data that owe nothing and bound
    nothing. -/
theorem owesAt_first {cfg : Cfg sig Λ₀} {c : Dev nD} (dat : Dat τ (Elt F) Unit ℕ (UR sig nD τ) ℕ cfg c)
    (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [h0]
  iintro ⟨%W, HO⟩; iexists W; isplitr
  · ipureintro; intro x _; unfold Pipeline.Dat.bound; rw [hr]; exact Or.inl trivial
  iexact HO

/-- and back, at the last tallies. -/
theorem owesAt_last {cfg : Cfg sig Λ₀} {c : Dev nD} (dat : Dat τ (Elt F) Unit ℕ (UR sig nD τ) ℕ cfg c)
    (h0 : dat.owed (Fin.last _) = 0) :
    dat.owesAt () (Fin.last _) ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-- A pipeline whose invariant is, at every point, the class invariant `ΦA` beside the prefetched tables held whole at `a p`
    meets `FrameDat`'s two entailments by reordering. -/
theorem FrameDat.ofΦAT (a : (p : Fin 7) → (pcfgs (F := F) p).Adm) (p : Fin 7) (V : Vals F) (c : Dev nD)
    (dat : Dat τ (Elt F) Unit ℕ (UR sig nD τ) ℕ (Pipeline.pin (pcfgs (F := F)) a p) c)
    (hA : ∀ w, dat.A w = V c (Pipeline.arrRef (Pipeline.pin (pcfgs (F := F)) a p).spec w))
    (hq : ∀ w, dat.q w = fullShare) (howed : ∀ t, dat.owed t = 0) (hrec : ∀ t, dat.recorded t = Set.univ)
    (hΦ : ∀ t, dat.Φ t = iprop(Pipeline.ΦA (Pipeline.pin (pcfgs (F := F)) a p).spec c
      ∗ Pipeline.prefHeld (pcfgs (F := F) p).pre c (fun _ => fullShare) (a p).1)) : FrameDat a p V c dat where
  A := hA
  q := hq
  owed := howed
  recorded := hrec
  Φ_in := by
    rw [hΦ]; unfold Pipeline.ΦA
    iintro ⟨Hr, Hp, Hs⟩
    isplitl [Hs Hr]
    · isplitl [Hs]; · iexact Hs
      iexact Hr
    iexact Hp
  Φ_out := by
    rw [hΦ]; unfold Pipeline.ΦA
    iintro ⟨⟨Hs, Hr⟩, Hp⟩
    isplitl [Hr Hp]
    · isplitl [Hr]; · iexact Hr
      iexact Hp
    iexact Hs

/-! ## A kernel region as a segment, for any of the seven pipelines -/

set_option backward.isDefEq.respectTransparency.types false in
/-- REGION `p` over the thread state: entered from every unscoped buffer at `Wb`, left at `Wa`, which has the pipeline's
    arrays at what the write-backs fold to (`hF`) and every other buffer as entered (`hrest`). At entry the arrays are split
    out of the unscoped buffers, and the prefetched tables (at the contents `a p`, which are those under `Wb`: `htbl`) out of
    the rest; the generator register and the tables go through the invariant and come back; at exit the tables rejoin the
    rest and the arrays are put back at the exit contents. Nothing is owed; the kernel has no semaphore of its own. -/
def reg (a : (p : Fin 7) → (pcfgs (F := F) p).Adm)
    (pdats : (p : Fin 7) → (c : Dev nD) → Dat τ (Elt F) Unit ℕ (UR sig nD τ) ℕ (Pipeline.pin (pcfgs (F := F)) a p) c)
    (p : Fin 7) (lf : Pipeline.PLaunchFacts (nD := nD) (τ := τ) (pcfgs (F := F)) p)
    (Wb Wa : Dev nD → Valuation τ sig (Elt F))
    (hfd : ∀ c, FrameDat a p (fun c b => Wb c b) c (pdats p c))
    (hbody : ∀ c, BodyObligation (pdats p c) (defs₀ (F := F)) Variants.none () Set.univ)
    (htbl : ∀ c k, (a p).1 k = Wb c ((pcfgs (F := F) p).pre.ref k))
    (hF : ∀ c w, (pdats p c).arrAt w (Pipeline.pin (pcfgs (F := F)) a p).N = Wa c (Pipeline.arrRef (Pipeline.pin (pcfgs (F := F)) a p).spec w))
    (hrest : ∀ c (b : Ref sig .tc), b ∉ Finset.univ.image (Pipeline.arrRef (Pipeline.pin (pcfgs (F := F)) a p).spec) → Wa c b = Wb c b) :
    Pipeline.RegionSeg (pcfgs (F := F)) a pdats () defs₀ Variants.none Lz lvz p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lz lvz p fun c t => (hfd c).owed t
  pre c := iprop(StableHlo.held (c : Thread nD τ) (Pipeline.ucRefs τ sig) (Wb c) ∗ Rst c)
  post c := iprop(StableHlo.held (c : Thread nD τ) (Pipeline.ucRefs τ sig) (Wa c) ∗ Rst c)
  X c := iprop(∃ r, prngReg c r)
  Y c := iprop((∃ r, prngReg c r) ∗ Pipeline.prefHeld (pcfgs (F := F) p).pre c (fun _ => fullShare) (a p).1)
  Z c := Pipeline.unscopedRestP (Ix := Unit) (Name := ℕ) (U := UR sig nD τ) (Lvl := ℕ) (pcfgs (F := F) p).pre (Pipeline.pin (pcfgs (F := F)) a p).spec c (fun b => Wb c b)
  hentry c := by
    rw [Pipeline.ownSems0_none]
    have hsplit := Pipeline.arrays_of_unscopedBufs (p := p) (pcfgs (F := F)) a pdats lf.win lf.arr_whole c
      ((pdats p c).share_full (hfd c).q) (fun b => Wb c b) (hfd c).A
    rw [Pipeline.unscopedBufs_held, Pipeline.unscopedRest_split lf.pre c,
      show (fun k => Wb c ((pcfgs (F := F) p).pre.ref k)) = (a p).1 from funext fun k => (htbl c k).symm] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]; · iapply (owesAt_first (pdats p c) ((hfd c).owed 0) ((hfd c).recorded 0)); iexact HO
    isplitl [Hp]; · iexact Hp
    iexact Hrest
  hin c := (hfd c).Φ_in
  hout c := by
    rw [Pipeline.ownSems0_none]
    iintro H
    ihave H' := (hfd c).Φ_out $$ H
    icases H' with ⟨HY, Hs⟩
    isplitl [HY]; · iexact HY
    isplitr; · iempintro
    iexact Hs
  hexit c := by
    have hjoin := Pipeline.unscopedBufs_of_arrays (p := p) (pcfgs (F := F)) a (Ix := Unit) (Name := ℕ) (U := UR sig nD τ) (Lvl := ℕ)
      lf.win lf.arr_whole c pdats ((pdats p c).share_full (hfd c).q)
      (fun b => Wb c b) (fun b => Wa c b) ((pdats p c).arrAt · (Pipeline.pin (pcfgs (F := F)) a p).N) (hF c) (hrest c)
    rw [Pipeline.unscopedBufs_held, Pipeline.unscopedRest_split lf.pre c,
      show (fun k => Wb c ((pcfgs (F := F) p).pre.ref k)) = (a p).1 from funext fun k => (htbl c k).symm] at hjoin
    iintro ⟨Ha, HO, ⟨Hr, Hpf⟩, Hrest⟩
    imodintro
    isplitl [Ha Hpf Hrest]
    · iapply hjoin
      isplitl [Ha]; · iexact Ha
      isplitl [Hpf]; · iexact Hpf
      iexact Hrest
    isplitl [Hr]; · iexact Hr
    iapply (owesAt_last (pdats p c) ((hfd c).owed _)); iexact HO

set_option backward.isDefEq.respectTransparency.types false in
/-- REGION `p` with ONE output window `wo`: left at the entry contents with the output array's buffer replaced by what
    the write-backs fold to. An input array is never written, so its buffer is as entered. -/
def regO (a : (p : Fin 7) → (pcfgs (F := F) p).Adm)
    (pdats : (p : Fin 7) → (c : Dev nD) → Dat τ (Elt F) Unit ℕ (UR sig nD τ) ℕ (Pipeline.pin (pcfgs (F := F)) a p) c)
    (p : Fin 7) (lf : Pipeline.PLaunchFacts (nD := nD) (τ := τ) (pcfgs (F := F)) p)
    (Wb : Dev nD → Valuation τ sig (Elt F)) (wo : Fin (Pipeline.pin (pcfgs (F := F)) a p).W)
    (hin : ∀ w, w ≠ wo → ((Pipeline.pin (pcfgs (F := F)) a p).win w).isOut = false)
    (hfd : ∀ c, FrameDat a p (fun c b => Wb c b) c (pdats p c))
    (hbody : ∀ c, BodyObligation (pdats p c) (defs₀ (F := F)) Variants.none () Set.univ)
    (htbl : ∀ c k, (a p).1 k = Wb c ((pcfgs (F := F) p).pre.ref k)) :
    Pipeline.RegionSeg (pcfgs (F := F)) a pdats () defs₀ Variants.none Lz lvz p :=
  reg a pdats p lf Wb
    (fun c => (Function.update (Wb c) (Proc.devRef .tc (Pipeline.arrRef (Pipeline.pin (pcfgs (F := F)) a p).spec wo))
      ((pdats p c).arrAt wo (Pipeline.pin (pcfgs (F := F)) a p).N) : Valuation τ sig (Elt F)))
    hfd hbody htbl
    (fun c w => by
      show _ = Function.update (Wb c) (Proc.devRef .tc (Pipeline.arrRef (Pipeline.pin (pcfgs (F := F)) a p).spec wo))
        ((pdats p c).arrAt wo (Pipeline.pin (pcfgs (F := F)) a p).N) _
      by_cases h : w = wo
      · subst h; rw [Function.update_self]
      · rw [Function.update_of_ne (fun e => h (lf.win.arr_inj (Proc.devRef_injective _ e)))]
        exact ((pdats p c).arrAt_in w (hin w h) _).trans ((hfd c).A w))
    (fun c b hb => Function.update_of_ne
      (fun e => hb (Finset.mem_image.mpr ⟨wo, Finset.mem_univ _, (Proc.devRef_injective _ e).symm⟩)) _ _)

/-! ## The regions' proof data carry their frames

The three matrix products' proof data hold the class invariant at every point and have no table; the four segment sums'
hold it beside their table, whole. All read their arrays off the entry contents, hold every input whole, owe nothing and
record nothing. -/

theorem dat0_fd (a : (p : Fin 7) → (pcfgs (F := F) p).Adm) (V : Vals F) (c : Dev nD) : FrameDat a 0 V c (dat0 V c) :=
  FrameDat.ofΦA a 0 V c (dat0 V c) rfl (A_eq0 V c) (fun _ => rfl) (fun _ => rfl) (fun _ => rfl) (fun _ => rfl)
theorem dat3_fd (a : (p : Fin 7) → (pcfgs (F := F) p).Adm) (V : Vals F) (c : Dev nD) : FrameDat a 3 V c (dat3 V c) :=
  FrameDat.ofΦA a 3 V c (dat3 V c) rfl (A_eq3 V c) (fun _ => rfl) (fun _ => rfl) (fun _ => rfl) (fun _ => rfl)
theorem dat6_fd (a : (p : Fin 7) → (pcfgs (F := F) p).Adm) (V : Vals F) (c : Dev nD) : FrameDat a 6 V c (dat6 V c) :=
  FrameDat.ofΦA a 6 V c (dat6 V c) rfl (A_eq6 V c) (fun _ => rfl) (fun _ => rfl) (fun _ => rfl) (fun _ => rfl)

/-- What a segment-sum body needs of its table: every word it reads meets the body's assumed side condition (the window
    start a multiple of 8, the window inside the slab). -/
abbrev Htbl1 (a : (pcfg1 (F := F)).Adm) : Prop := ∀ (c : Dev nD) (i : grid1.Coords), k1_chk1 (word1 c i tbM1 (tbl1 a c))
abbrev Htbl2 (a : (pcfg2 (F := F)).Adm) : Prop := ∀ (c : Dev nD) (i : grid2.Coords), k2_chk1 (word2 c i tbM2 (tbl2 a c))
abbrev Htbl4 (a : (pcfg4 (F := F)).Adm) : Prop := ∀ (c : Dev nD) (i : grid4.Coords), k4_chk1 (word4 c i tbM4 (tbl4 a c))
abbrev Htbl5 (a : (pcfg5 (F := F)).Adm) : Prop := ∀ (c : Dev nD) (i : grid5.Coords), k5_chk1 (word5 c i tbM5 (tbl5 a c))

theorem dat1_fd (a : (p : Fin 7) → (pcfgs (F := F) p).Adm) (V : Vals F) (htbl : Htbl1 (a 1)) (c : Dev nD) :
    FrameDat a 1 V c (dat1 V (a 1) htbl c) :=
  FrameDat.ofΦAT a 1 V c (dat1 V (a 1) htbl c) (A_eq1 V (a 1) htbl c) (fun _ => rfl) (fun _ => rfl) (fun _ => rfl) (fun _ => rfl)
theorem dat2_fd (a : (p : Fin 7) → (pcfgs (F := F) p).Adm) (V : Vals F) (htbl : Htbl2 (a 2)) (c : Dev nD) :
    FrameDat a 2 V c (dat2 V (a 2) htbl c) :=
  FrameDat.ofΦAT a 2 V c (dat2 V (a 2) htbl c) (A_eq2 V (a 2) htbl c) (fun _ => rfl) (fun _ => rfl) (fun _ => rfl) (fun _ => rfl)
theorem dat4_fd (a : (p : Fin 7) → (pcfgs (F := F) p).Adm) (V : Vals F) (htbl : Htbl4 (a 4)) (c : Dev nD) :
    FrameDat a 4 V c (dat4 V (a 4) htbl c) :=
  FrameDat.ofΦAT a 4 V c (dat4 V (a 4) htbl c) (A_eq4 V (a 4) htbl c) (fun _ => rfl) (fun _ => rfl) (fun _ => rfl) (fun _ => rfl)
theorem dat5_fd (a : (p : Fin 7) → (pcfgs (F := F) p).Adm) (V : Vals F) (htbl : Htbl5 (a 5)) (c : Dev nD) :
    FrameDat a 5 V c (dat5 V (a 5) htbl c) :=
  FrameDat.ofΦAT a 5 V c (dat5 V (a 5) htbl c) (A_eq5 V (a 5) htbl c) (fun _ => rfl) (fun _ => rfl) (fun _ => rfl) (fun _ => rfl)

/-! ### Every window but the last is an input: its array is never written -/

theorem in0 (a : (p : Fin 7) → (pcfgs (F := F) p).Adm) : ∀ w : Fin 4, w ≠ 3 → ((Pipeline.pin (pcfgs (F := F)) a 0).win w).isOut = false
  | 0, _ => rfl | 1, _ => rfl | 2, _ => rfl | 3, h => absurd rfl h
  | ⟨_ + 4, h⟩, _ => absurd h (Nat.not_lt.2 (Nat.le_add_left _ _))
theorem in1 (a : (p : Fin 7) → (pcfgs (F := F) p).Adm) : ∀ w : Fin 3, w ≠ 2 → ((Pipeline.pin (pcfgs (F := F)) a 1).win w).isOut = false
  | 0, _ => rfl | 1, _ => rfl | 2, h => absurd rfl h
  | ⟨_ + 3, h⟩, _ => absurd h (Nat.not_lt.2 (Nat.le_add_left _ _))
theorem in2 (a : (p : Fin 7) → (pcfgs (F := F) p).Adm) : ∀ w : Fin 3, w ≠ 2 → ((Pipeline.pin (pcfgs (F := F)) a 2).win w).isOut = false
  | 0, _ => rfl | 1, _ => rfl | 2, h => absurd rfl h
  | ⟨_ + 3, h⟩, _ => absurd h (Nat.not_lt.2 (Nat.le_add_left _ _))
theorem in3 (a : (p : Fin 7) → (pcfgs (F := F) p).Adm) : ∀ w : Fin 4, w ≠ 3 → ((Pipeline.pin (pcfgs (F := F)) a 3).win w).isOut = false
  | 0, _ => rfl | 1, _ => rfl | 2, _ => rfl | 3, h => absurd rfl h
  | ⟨_ + 4, h⟩, _ => absurd h (Nat.not_lt.2 (Nat.le_add_left _ _))
theorem in4 (a : (p : Fin 7) → (pcfgs (F := F) p).Adm) : ∀ w : Fin 3, w ≠ 2 → ((Pipeline.pin (pcfgs (F := F)) a 4).win w).isOut = false
  | 0, _ => rfl | 1, _ => rfl | 2, h => absurd rfl h
  | ⟨_ + 3, h⟩, _ => absurd h (Nat.not_lt.2 (Nat.le_add_left _ _))
theorem in5 (a : (p : Fin 7) → (pcfgs (F := F) p).Adm) : ∀ w : Fin 3, w ≠ 2 → ((Pipeline.pin (pcfgs (F := F)) a 5).win w).isOut = false
  | 0, _ => rfl | 1, _ => rfl | 2, h => absurd rfl h
  | ⟨_ + 3, h⟩, _ => absurd h (Nat.not_lt.2 (Nat.le_add_left _ _))
theorem in6 (a : (p : Fin 7) → (pcfgs (F := F) p).Adm) : ∀ w : Fin 4, w ≠ 3 → ((Pipeline.pin (pcfgs (F := F)) a 6).win w).isOut = false
  | 0, _ => rfl | 1, _ => rfl | 2, _ => rfl | 3, h => absurd rfl h
  | ⟨_ + 4, h⟩, _ => absurd h (Nat.not_lt.2 (Nat.le_add_left _ _))

/-! ## The buffer contents at each region's entry and exit

Each region replaces its output array's buffer by what the pipeline's write-backs fold to and leaves every other buffer;
each host stretch folds its operations over what it finds. `BK` names the contents region K is entered from, `XK` those it
leaves, `oK` region K's output array at its exit. -/
section Run

variable (m : (ℓ : Loc nD τ sig) → Buf (Elt F) ℓ)

/-- The one core of the mesh. -/
abbrev c0 : Dev nD := ⟨0, Nat.one_pos⟩
theorem dev_eq (c : Dev nD) : c = c0 := Subsingleton.elim _ _

/-- A table's side condition, read at the table's buffer under a valuation, is the same condition of the admissible
    contents made from that valuation. -/
theorem tbl1_of (V : Valuation τ sig (Elt F)) (a : (pcfg1 (F := F)).Adm) (h : a.1 = fun k => V (pre1.ref k))
    (hk : ∀ k : S172.Idx, k1_chk1 ((V main_v63 : S172.Idx → BitVec 32) k)) (k : S172.Idx) :
    k1_chk1 ((a.1 0 : S172.Idx → BitVec 32) k) := by
  rw [h]; exact hk k
theorem tbl2_of (V : Valuation τ sig (Elt F)) (a : (pcfg2 (F := F)).Adm) (h : a.1 = fun k => V (pre2.ref k))
    (hk : ∀ k : S904.Idx, k2_chk1 ((V main_v128 : S904.Idx → BitVec 32) k)) (k : S904.Idx) :
    k2_chk1 ((a.1 0 : S904.Idx → BitVec 32) k) := by
  rw [h]; exact hk k
theorem tbl4_of (V : Valuation τ sig (Elt F)) (a : (pcfg4 (F := F)).Adm) (h : a.1 = fun k => V (pre4.ref k))
    (hk : ∀ k : S172.Idx, k4_chk1 ((V main_v63 : S172.Idx → BitVec 32) k)) (k : S172.Idx) :
    k4_chk1 ((a.1 0 : S172.Idx → BitVec 32) k) := by
  rw [h]; exact hk k
theorem tbl5_of (V : Valuation τ sig (Elt F)) (a : (pcfg5 (F := F)).Adm) (h : a.1 = fun k => V (pre5.ref k))
    (hk : ∀ k : S904.Idx, k5_chk1 ((V main_v128 : S904.Idx → BitVec 32) k)) (k : S904.Idx) :
    k5_chk1 ((a.1 0 : S904.Idx → BitVec 32) k) := by
  rw [h]; exact hk k

/-- An outputs family from seven valuations: region K's output array read off the K-th (30, 33, 37, 41, 44, 48, 50 are the
    regions' places among @main's items). -/
def outsOf (x0 x1 x2 x3 x4 x5 x6 : Dev nD → Valuation τ sig (Elt F)) : GenP.Outs (F := F) := fun n r c =>
  match n with
  | 30 => x0 c r
  | 33 => x1 c r
  | 37 => x2 c r
  | 41 => x3 c r
  | 44 => x4 c r
  | 48 => x5 c r
  | _ => x6 c r

theorem outsOf_30 (x0 x1 x2 x3 x4 x5 x6 : Dev nD → Valuation τ sig (Elt F)) (r : Ref sig .tc) (c : Dev nD) :
    outsOf x0 x1 x2 x3 x4 x5 x6 30 r c = x0 c r := rfl
theorem outsOf_33 (x0 x1 x2 x3 x4 x5 x6 : Dev nD → Valuation τ sig (Elt F)) (r : Ref sig .tc) (c : Dev nD) :
    outsOf x0 x1 x2 x3 x4 x5 x6 33 r c = x1 c r := rfl
theorem outsOf_37 (x0 x1 x2 x3 x4 x5 x6 : Dev nD → Valuation τ sig (Elt F)) (r : Ref sig .tc) (c : Dev nD) :
    outsOf x0 x1 x2 x3 x4 x5 x6 37 r c = x2 c r := rfl
theorem outsOf_41 (x0 x1 x2 x3 x4 x5 x6 : Dev nD → Valuation τ sig (Elt F)) (r : Ref sig .tc) (c : Dev nD) :
    outsOf x0 x1 x2 x3 x4 x5 x6 41 r c = x3 c r := rfl
theorem outsOf_44 (x0 x1 x2 x3 x4 x5 x6 : Dev nD → Valuation τ sig (Elt F)) (r : Ref sig .tc) (c : Dev nD) :
    outsOf x0 x1 x2 x3 x4 x5 x6 44 r c = x4 c r := rfl
theorem outsOf_48 (x0 x1 x2 x3 x4 x5 x6 : Dev nD → Valuation τ sig (Elt F)) (r : Ref sig .tc) (c : Dev nD) :
    outsOf x0 x1 x2 x3 x4 x5 x6 48 r c = x5 c r := rfl
theorem outsOf_50 (x0 x1 x2 x3 x4 x5 x6 : Dev nD → Valuation τ sig (Elt F)) (r : Ref sig .tc) (c : Dev nD) :
    outsOf x0 x1 x2 x3 x4 x5 x6 50 r c = x6 c r := rfl

/-- Region 0's entry: the host operations' fold over the launch memory. -/
def B0 (c : Dev nD) : Valuation τ sig (Elt F) := GenP.V29 m c
/-- Region 0's output array as its write-backs leave it. -/
def o0 (c : Dev nD) : Buf (Elt F) ((c : Thread nD τ).loc main_v132) := (dat0 (fun c b => B0 m c b) c).arrAt 3 cfg0.N
/-- Region 0's exit. -/
def X0 (c : Dev nD) : Valuation τ sig (Elt F) := Function.update (B0 m c) main_v132 (o0 m c)
theorem X0_out (c : Dev nD) : X0 m c main_v132 = o0 m c := by unfold X0; exact Function.update_self ..
/-- Region 1's entry. -/
def B1 (c : Dev nD) : Valuation τ sig (Elt F) := StableHlo.after hostOps1_1 (StableHlo.after hostOps1 (X0 m c))
/-- Under any outputs that have region 0's array at `o0`, the host operations' fold names region 1's entry. -/
theorem V32_of_X0 (outs : GenP.Outs (F := F)) (h : ∀ c, outs 30 main_v132 c = o0 m c) (c : Dev nD) : GenP.V32 m outs c = B1 m c :=
  congrArg (fun W => StableHlo.after hostOps1_1 (StableHlo.after hostOps1 W))
    (congrArg (Function.update (GenP.V29 m c) main_v132) (h c))
/-- The table of window starts region 1 prefetches, as the host operations before it leave it. -/
def a1 : (pcfg1 (F := F)).Adm := ⟨fun k => B1 m c0 (pre1.ref k), trivial⟩
theorem a1_ok : Htbl1 (a1 m) := htbl1_of (a1 m) (tbl1_of (B1 m c0) (a1 m) rfl fun k =>
  Eq.mp (congrArg (fun W : Valuation τ sig (Elt F) => k1_chk1 ((W main_v63 : S172.Idx → BitVec 32) k))
    (V32_of_X0 m (outsOf (X0 m) (X0 m) (X0 m) (X0 m) (X0 m) (X0 m) (X0 m)) (fun c => (outsOf_30 ..).trans (X0_out m c)) c0))
    (tbl1_chk m (outsOf (X0 m) (X0 m) (X0 m) (X0 m) (X0 m) (X0 m) (X0 m)) c0 k))
/-- Region 1's output slab as its write-backs leave it. -/
def o1 (c : Dev nD) : Buf (Elt F) ((c : Thread nD τ).loc main_v138) :=
  (dat1 (fun c b => B1 m c b) (a1 m) (a1_ok m) c).arrAt 2 (cfg1 (a1 m)).N
/-- Region 1's exit. -/
def X1 (c : Dev nD) : Valuation τ sig (Elt F) := Function.update (B1 m c) main_v138 (o1 m c)
theorem X1_out (c : Dev nD) : X1 m c main_v138 = o1 m c := by unfold X1; exact Function.update_self ..
/-- Region 2's entry. -/
def B2 (c : Dev nD) : Valuation τ sig (Elt F) :=
  StableHlo.after hostOps2_2 (StableHlo.after hostOps2_1 (StableHlo.after hostOps2 (X1 m c)))
theorem V33_of_X1 (outs : GenP.Outs (F := F)) (h0 : ∀ c, outs 30 main_v132 c = o0 m c) (h1 : ∀ c, outs 33 main_v138 c = o1 m c)
    (c : Dev nD) : GenP.V33 m outs c = X1 m c := by
  show Function.update (GenP.V32 m outs c) main_v138 (outs 33 main_v138 c) = _
  rw [V32_of_X0 m outs h0 c, h1 c]; rfl
theorem V36_of_X1 (outs : GenP.Outs (F := F)) (h0 : ∀ c, outs 30 main_v132 c = o0 m c) (h1 : ∀ c, outs 33 main_v138 c = o1 m c)
    (c : Dev nD) : GenP.V36 m outs c = B2 m c :=
  congrArg (fun W => StableHlo.after hostOps2_2 (StableHlo.after hostOps2_1 (StableHlo.after hostOps2 W))) (V33_of_X1 m outs h0 h1 c)
/-- The table region 2 prefetches. -/
def a2 : (pcfg2 (F := F)).Adm := ⟨fun k => B2 m c0 (pre2.ref k), trivial⟩
theorem a2_ok : Htbl2 (a2 m) := htbl2_of (a2 m) (tbl2_of (B2 m c0) (a2 m) rfl fun k =>
  Eq.mp (congrArg (fun W : Valuation τ sig (Elt F) => k2_chk1 ((W main_v128 : S904.Idx → BitVec 32) k))
    (V36_of_X1 m (outsOf (X0 m) (X1 m) (X1 m) (X1 m) (X1 m) (X1 m) (X1 m)) (fun c => (outsOf_30 ..).trans (X0_out m c)) (fun c => (outsOf_33 ..).trans (X1_out m c)) c0))
    (tbl2_chk m (outsOf (X0 m) (X1 m) (X1 m) (X1 m) (X1 m) (X1 m) (X1 m)) c0 k))
/-- Region 2's output slab as its write-backs leave it. -/
def o2 (c : Dev nD) : Buf (Elt F) ((c : Thread nD τ).loc main_v152) :=
  (dat2 (fun c b => B2 m c b) (a2 m) (a2_ok m) c).arrAt 2 (cfg2 (a2 m)).N
/-- Region 2's exit. -/
def X2 (c : Dev nD) : Valuation τ sig (Elt F) := Function.update (B2 m c) main_v152 (o2 m c)
theorem X2_out (c : Dev nD) : X2 m c main_v152 = o2 m c := by unfold X2; exact Function.update_self ..
/-- Region 3's entry. -/
def B3 (c : Dev nD) : Valuation τ sig (Elt F) :=
  StableHlo.after hostOps3_2 (StableHlo.after hostOps3_1 (StableHlo.after hostOps3 (X2 m c)))
theorem V37_of_X2 (outs : GenP.Outs (F := F)) (h0 : ∀ c, outs 30 main_v132 c = o0 m c) (h1 : ∀ c, outs 33 main_v138 c = o1 m c)
    (h2 : ∀ c, outs 37 main_v152 c = o2 m c) (c : Dev nD) : GenP.V37 m outs c = X2 m c := by
  show Function.update (GenP.V36 m outs c) main_v152 (outs 37 main_v152 c) = _
  rw [V36_of_X1 m outs h0 h1 c, h2 c]; rfl
theorem V40_of_X2 (outs : GenP.Outs (F := F)) (h0 : ∀ c, outs 30 main_v132 c = o0 m c) (h1 : ∀ c, outs 33 main_v138 c = o1 m c)
    (h2 : ∀ c, outs 37 main_v152 c = o2 m c) (c : Dev nD) : GenP.V40 m outs c = B3 m c :=
  congrArg (fun W => StableHlo.after hostOps3_2 (StableHlo.after hostOps3_1 (StableHlo.after hostOps3 W))) (V37_of_X2 m outs h0 h1 h2 c)
/-- Region 3's output array as its write-backs leave it. -/
def o3 (c : Dev nD) : Buf (Elt F) ((c : Thread nD τ).loc main_v165) := (dat3 (fun c b => B3 m c b) c).arrAt 3 cfg3.N
/-- Region 3's exit. -/
def X3 (c : Dev nD) : Valuation τ sig (Elt F) := Function.update (B3 m c) main_v165 (o3 m c)
theorem X3_out (c : Dev nD) : X3 m c main_v165 = o3 m c := by unfold X3; exact Function.update_self ..
/-- Region 4's entry. -/
def B4 (c : Dev nD) : Valuation τ sig (Elt F) := StableHlo.after hostOps4_1 (StableHlo.after hostOps4 (X3 m c))
theorem V41_of_X3 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (c : Dev nD) : GenP.V41 m outs c = X3 m c := by
  show Function.update (GenP.V40 m outs c) main_v165 (outs 41 main_v165 c) = _
  rw [V40_of_X2 m outs h0 h1 h2 c, h3 c]; rfl
theorem V43_of_X3 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (c : Dev nD) : GenP.V43 m outs c = B4 m c :=
  congrArg (fun W => StableHlo.after hostOps4_1 (StableHlo.after hostOps4 W)) (V41_of_X3 m outs h0 h1 h2 h3 c)
/-- The table region 4 prefetches. -/
def a4 : (pcfg4 (F := F)).Adm := ⟨fun k => B4 m c0 (pre4.ref k), trivial⟩
theorem a4_ok : Htbl4 (a4 m) := htbl4_of (a4 m) (tbl4_of (B4 m c0) (a4 m) rfl fun k =>
  Eq.mp (congrArg (fun W : Valuation τ sig (Elt F) => k4_chk1 ((W main_v63 : S172.Idx → BitVec 32) k))
    (V43_of_X3 m (outsOf (X0 m) (X1 m) (X2 m) (X3 m) (X3 m) (X3 m) (X3 m)) (fun c => (outsOf_30 ..).trans (X0_out m c)) (fun c => (outsOf_33 ..).trans (X1_out m c))
      (fun c => (outsOf_37 ..).trans (X2_out m c)) (fun c => (outsOf_41 ..).trans (X3_out m c)) c0))
    (tbl4_chk m (outsOf (X0 m) (X1 m) (X2 m) (X3 m) (X3 m) (X3 m) (X3 m)) c0 k))
/-- Region 4's output slab as its write-backs leave it. -/
def o4 (c : Dev nD) : Buf (Elt F) ((c : Thread nD τ).loc main_v171) :=
  (dat4 (fun c b => B4 m c b) (a4 m) (a4_ok m) c).arrAt 2 (cfg4 (a4 m)).N
/-- Region 4's exit. -/
def X4 (c : Dev nD) : Valuation τ sig (Elt F) := Function.update (B4 m c) main_v171 (o4 m c)
theorem X4_out (c : Dev nD) : X4 m c main_v171 = o4 m c := by unfold X4; exact Function.update_self ..
/-- Region 5's entry. -/
def B5 (c : Dev nD) : Valuation τ sig (Elt F) :=
  StableHlo.after hostOps5_2 (StableHlo.after hostOps5_1 (StableHlo.after hostOps5 (X4 m c)))
theorem V44_of_X4 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (h4 : ∀ c, outs 44 main_v171 c = o4 m c)
    (c : Dev nD) : GenP.V44 m outs c = X4 m c := by
  show Function.update (GenP.V43 m outs c) main_v171 (outs 44 main_v171 c) = _
  rw [V43_of_X3 m outs h0 h1 h2 h3 c, h4 c]; rfl
theorem V47_of_X4 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (h4 : ∀ c, outs 44 main_v171 c = o4 m c)
    (c : Dev nD) : GenP.V47 m outs c = B5 m c :=
  congrArg (fun W => StableHlo.after hostOps5_2 (StableHlo.after hostOps5_1 (StableHlo.after hostOps5 W))) (V44_of_X4 m outs h0 h1 h2 h3 h4 c)
/-- The table region 5 prefetches. -/
def a5 : (pcfg5 (F := F)).Adm := ⟨fun k => B5 m c0 (pre5.ref k), trivial⟩
theorem a5_ok : Htbl5 (a5 m) := htbl5_of (a5 m) (tbl5_of (B5 m c0) (a5 m) rfl fun k =>
  Eq.mp (congrArg (fun W : Valuation τ sig (Elt F) => k5_chk1 ((W main_v128 : S904.Idx → BitVec 32) k))
    (V47_of_X4 m (outsOf (X0 m) (X1 m) (X2 m) (X3 m) (X4 m) (X4 m) (X4 m)) (fun c => (outsOf_30 ..).trans (X0_out m c)) (fun c => (outsOf_33 ..).trans (X1_out m c))
      (fun c => (outsOf_37 ..).trans (X2_out m c)) (fun c => (outsOf_41 ..).trans (X3_out m c)) (fun c => (outsOf_44 ..).trans (X4_out m c)) c0))
    (tbl5_chk m (outsOf (X0 m) (X1 m) (X2 m) (X3 m) (X4 m) (X4 m) (X4 m)) c0 k))
/-- Region 5's output slab as its write-backs leave it. -/
def o5 (c : Dev nD) : Buf (Elt F) ((c : Thread nD τ).loc main_v185) :=
  (dat5 (fun c b => B5 m c b) (a5 m) (a5_ok m) c).arrAt 2 (cfg5 (a5 m)).N
/-- Region 5's exit. -/
def X5 (c : Dev nD) : Valuation τ sig (Elt F) := Function.update (B5 m c) main_v185 (o5 m c)
theorem X5_out (c : Dev nD) : X5 m c main_v185 = o5 m c := by unfold X5; exact Function.update_self ..
/-- Region 6's entry. -/
def B6 (c : Dev nD) : Valuation τ sig (Elt F) := StableHlo.after hostOps6 (X5 m c)
/-- Region 6's output array as its write-backs leave it. -/
def o6 (c : Dev nD) : Buf (Elt F) ((c : Thread nD τ).loc main_v196) := (dat6 (fun c b => B6 m c b) c).arrAt 3 cfg6.N
/-- Region 6's exit. -/
def X6 (c : Dev nD) : Valuation τ sig (Elt F) := Function.update (B6 m c) main_v196 (o6 m c)

/-- Every region's output: what @main's run leaves in the seven output arrays. -/
def outs : GenP.Outs (F := F) := outsOf (X0 m) (X1 m) (X2 m) (X3 m) (X4 m) (X5 m) (X6 m)
theorem X6_out (c : Dev nD) : X6 m c main_v196 = o6 m c := by unfold X6; exact Function.update_self ..
theorem outs_0 (c : Dev nD) : outs m 30 main_v132 c = o0 m c := (outsOf_30 ..).trans (X0_out m c)
theorem outs_1 (c : Dev nD) : outs m 33 main_v138 c = o1 m c := (outsOf_33 ..).trans (X1_out m c)
theorem outs_2 (c : Dev nD) : outs m 37 main_v152 c = o2 m c := (outsOf_37 ..).trans (X2_out m c)
theorem outs_3 (c : Dev nD) : outs m 41 main_v165 c = o3 m c := (outsOf_41 ..).trans (X3_out m c)
theorem outs_4 (c : Dev nD) : outs m 44 main_v171 c = o4 m c := (outsOf_44 ..).trans (X4_out m c)
theorem outs_5 (c : Dev nD) : outs m 48 main_v185 c = o5 m c := (outsOf_48 ..).trans (X5_out m c)
theorem outs_6 (c : Dev nD) : outs m 50 main_v196 c = o6 m c := (outsOf_50 ..).trans (X6_out m c)

/-- The host operations' fold under the regions' outputs names each region's entry and exit. -/
theorem V29_eq (c : Dev nD) : GenP.V29 m c = B0 m c := rfl
theorem V30_eq (c : Dev nD) : GenP.V30 m (outs m) c = X0 m c := congrArg (Function.update (GenP.V29 m c) main_v132) (outs_0 m c)
theorem V32_eq (c : Dev nD) : GenP.V32 m (outs m) c = B1 m c := V32_of_X0 m (outs m) (outs_0 m) c
theorem V33_eq (c : Dev nD) : GenP.V33 m (outs m) c = X1 m c := V33_of_X1 m (outs m) (outs_0 m) (outs_1 m) c
theorem V36_eq (c : Dev nD) : GenP.V36 m (outs m) c = B2 m c := V36_of_X1 m (outs m) (outs_0 m) (outs_1 m) c
theorem V37_eq (c : Dev nD) : GenP.V37 m (outs m) c = X2 m c := V37_of_X2 m (outs m) (outs_0 m) (outs_1 m) (outs_2 m) c
theorem V40_eq (c : Dev nD) : GenP.V40 m (outs m) c = B3 m c := V40_of_X2 m (outs m) (outs_0 m) (outs_1 m) (outs_2 m) c
theorem V41_eq (c : Dev nD) : GenP.V41 m (outs m) c = X3 m c := V41_of_X3 m (outs m) (outs_0 m) (outs_1 m) (outs_2 m) (outs_3 m) c
theorem V43_eq (c : Dev nD) : GenP.V43 m (outs m) c = B4 m c := V43_of_X3 m (outs m) (outs_0 m) (outs_1 m) (outs_2 m) (outs_3 m) c
theorem V44_eq (c : Dev nD) : GenP.V44 m (outs m) c = X4 m c := V44_of_X4 m (outs m) (outs_0 m) (outs_1 m) (outs_2 m) (outs_3 m) (outs_4 m) c
theorem V47_eq (c : Dev nD) : GenP.V47 m (outs m) c = B5 m c := V47_of_X4 m (outs m) (outs_0 m) (outs_1 m) (outs_2 m) (outs_3 m) (outs_4 m) c
theorem V48_of_X5 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (h4 : ∀ c, outs 44 main_v171 c = o4 m c)
    (h5 : ∀ c, outs 48 main_v185 c = o5 m c) (c : Dev nD) : GenP.V48 m outs c = X5 m c := by
  show Function.update (GenP.V47 m outs c) main_v185 (outs 48 main_v185 c) = _
  rw [V47_of_X4 m outs h0 h1 h2 h3 h4 c, h5 c]; rfl
theorem V49_of_X5 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (h4 : ∀ c, outs 44 main_v171 c = o4 m c)
    (h5 : ∀ c, outs 48 main_v185 c = o5 m c) (c : Dev nD) : GenP.V49 m outs c = B6 m c :=
  congrArg (fun W => StableHlo.after hostOps6 W) (V48_of_X5 m outs h0 h1 h2 h3 h4 h5 c)
theorem V50_of_X6 (outs : GenP.Outs (F := F)) (h0 : ∀ c, outs 30 main_v132 c = o0 m c) (h1 : ∀ c, outs 33 main_v138 c = o1 m c)
    (h2 : ∀ c, outs 37 main_v152 c = o2 m c) (h3 : ∀ c, outs 41 main_v165 c = o3 m c) (h4 : ∀ c, outs 44 main_v171 c = o4 m c)
    (h5 : ∀ c, outs 48 main_v185 c = o5 m c) (h6 : ∀ c, outs 50 main_v196 c = o6 m c) (c : Dev nD) : GenP.V50 m outs c = X6 m c := by
  show Function.update (GenP.V49 m outs c) main_v196 (outs 50 main_v196 c) = _
  rw [V49_of_X5 m outs h0 h1 h2 h3 h4 h5 c, h6 c]; rfl
theorem V48_eq (c : Dev nD) : GenP.V48 m (outs m) c = X5 m c :=
  V48_of_X5 m (outs m) (outs_0 m) (outs_1 m) (outs_2 m) (outs_3 m) (outs_4 m) (outs_5 m) c
theorem V49_eq (c : Dev nD) : GenP.V49 m (outs m) c = B6 m c :=
  V49_of_X5 m (outs m) (outs_0 m) (outs_1 m) (outs_2 m) (outs_3 m) (outs_4 m) (outs_5 m) c
theorem V50_eq (c : Dev nD) : GenP.V50 m (outs m) c = X6 m c :=
  V50_of_X6 m (outs m) (outs_0 m) (outs_1 m) (outs_2 m) (outs_3 m) (outs_4 m) (outs_5 m) (outs_6 m) c

/-! ## The tables' contents and the proof data family -/

/-- The prefetched tables' contents: for the four segment-sum pipelines the table the host operations leave; the three
    matrix products have none. -/
def adm : (p : Fin 7) → (pcfgs (F := F) p).Adm
  | ⟨0, _⟩ => cfg0.toPCfg_adm
  | ⟨1, _⟩ => a1 m
  | ⟨2, _⟩ => a2 m
  | ⟨3, _⟩ => cfg3.toPCfg_adm
  | ⟨4, _⟩ => a4 m
  | ⟨5, _⟩ => a5 m
  | ⟨6, _⟩ => cfg6.toPCfg_adm
  | ⟨n + 7, h⟩ => absurd h (Nat.not_lt.2 (Nat.le_add_left _ _))

/-- Every pipeline's proof data, each at its region's entry contents — a literal `match`, so that the pinned
    configuration at a numeral reduces to the printed one. -/
def pdats : (p : Fin 7) → (c : Dev nD) → Dat τ (Elt F) Unit ℕ (UR sig nD τ) ℕ (Pipeline.pin (pcfgs (F := F)) (adm m) p) c
  | ⟨0, _⟩ => fun c => dat0 (fun c b => B0 m c b) c
  | ⟨1, _⟩ => fun c => dat1 (fun c b => B1 m c b) (a1 m) (a1_ok m) c
  | ⟨2, _⟩ => fun c => dat2 (fun c b => B2 m c b) (a2 m) (a2_ok m) c
  | ⟨3, _⟩ => fun c => dat3 (fun c b => B3 m c b) c
  | ⟨4, _⟩ => fun c => dat4 (fun c b => B4 m c b) (a4 m) (a4_ok m) c
  | ⟨5, _⟩ => fun c => dat5 (fun c b => B5 m c b) (a5 m) (a5_ok m) c
  | ⟨6, _⟩ => fun c => dat6 (fun c b => B6 m c b) c
  | ⟨n + 7, h⟩ => absurd h (Nat.not_lt.2 (Nat.le_add_left _ _))

/-! ## The seven regions as segments -/

def reg0 : Pipeline.RegionSeg (pcfgs (F := F)) (adm m) (pdats m) () defs₀ Variants.none Lz lvz 0 :=
  regO (adm m) (pdats m) 0 launch0 (B0 m) 3 (in0 (adm m))
    (fun c => dat0_fd (adm m) (fun c b => B0 m c b) c) (fun c => body_obligation0 (fun c b => B0 m c b) c) (fun c k => k.elim0)
def reg1 : Pipeline.RegionSeg (pcfgs (F := F)) (adm m) (pdats m) () defs₀ Variants.none Lz lvz 1 :=
  regO (adm m) (pdats m) 1 launch1 (B1 m) 2 (in1 (adm m))
    (fun c => dat1_fd (adm m) (fun c b => B1 m c b) (a1_ok m) c) (fun c => body_obligation1 (fun c b => B1 m c b) (a1 m) (a1_ok m) c)
    (fun c k => by obtain rfl := dev_eq c; rfl)
def reg2 : Pipeline.RegionSeg (pcfgs (F := F)) (adm m) (pdats m) () defs₀ Variants.none Lz lvz 2 :=
  regO (adm m) (pdats m) 2 launch2 (B2 m) 2 (in2 (adm m))
    (fun c => dat2_fd (adm m) (fun c b => B2 m c b) (a2_ok m) c) (fun c => body_obligation2 (fun c b => B2 m c b) (a2 m) (a2_ok m) c)
    (fun c k => by obtain rfl := dev_eq c; rfl)
def reg3 : Pipeline.RegionSeg (pcfgs (F := F)) (adm m) (pdats m) () defs₀ Variants.none Lz lvz 3 :=
  regO (adm m) (pdats m) 3 launch3 (B3 m) 3 (in3 (adm m))
    (fun c => dat3_fd (adm m) (fun c b => B3 m c b) c) (fun c => body_obligation3 (fun c b => B3 m c b) c) (fun c k => k.elim0)
def reg4 : Pipeline.RegionSeg (pcfgs (F := F)) (adm m) (pdats m) () defs₀ Variants.none Lz lvz 4 :=
  regO (adm m) (pdats m) 4 launch4 (B4 m) 2 (in4 (adm m))
    (fun c => dat4_fd (adm m) (fun c b => B4 m c b) (a4_ok m) c) (fun c => body_obligation4 (fun c b => B4 m c b) (a4 m) (a4_ok m) c)
    (fun c k => by obtain rfl := dev_eq c; rfl)
def reg5 : Pipeline.RegionSeg (pcfgs (F := F)) (adm m) (pdats m) () defs₀ Variants.none Lz lvz 5 :=
  regO (adm m) (pdats m) 5 launch5 (B5 m) 2 (in5 (adm m))
    (fun c => dat5_fd (adm m) (fun c b => B5 m c b) (a5_ok m) c) (fun c => body_obligation5 (fun c b => B5 m c b) (a5 m) (a5_ok m) c)
    (fun c k => by obtain rfl := dev_eq c; rfl)
def reg6 : Pipeline.RegionSeg (pcfgs (F := F)) (adm m) (pdats m) () defs₀ Variants.none Lz lvz 6 :=
  regO (adm m) (pdats m) 6 launch6 (B6 m) 3 (in6 (adm m))
    (fun c => dat6_fd (adm m) (fun c b => B6 m c b) c) (fun c => body_obligation6 (fun c b => B6 m c b) c) (fun c k => k.elim0)

/-! ### Each region is entered from the host operations' fold before it and left at the fold after it -/

theorem hpre0 (c : Dev nD) : (iprop(StableHlo.held (c : Thread nD τ) (Pipeline.ucRefs τ sig) (GenP.V29 m c) ∗ Rst c) : sProp 𝕄) ⊢ (reg0 m).pre c := by
  rw [V29_eq]; exact .rfl
theorem hpost0 (c : Dev nD) : (reg0 m).post c ⊢ (iprop(StableHlo.held (c : Thread nD τ) (Pipeline.ucRefs τ sig) (GenP.V30 m (outs m) c) ∗ Rst c) : sProp 𝕄) := by
  rw [V30_eq]; exact .rfl
theorem hpre1 (c : Dev nD) : (iprop(StableHlo.held (c : Thread nD τ) (Pipeline.ucRefs τ sig) (GenP.V32 m (outs m) c) ∗ Rst c) : sProp 𝕄) ⊢ (reg1 m).pre c := by
  rw [V32_eq]; exact .rfl
theorem hpost1 (c : Dev nD) : (reg1 m).post c ⊢ (iprop(StableHlo.held (c : Thread nD τ) (Pipeline.ucRefs τ sig) (GenP.V33 m (outs m) c) ∗ Rst c) : sProp 𝕄) := by
  rw [V33_eq]; exact .rfl
theorem hpre2 (c : Dev nD) : (iprop(StableHlo.held (c : Thread nD τ) (Pipeline.ucRefs τ sig) (GenP.V36 m (outs m) c) ∗ Rst c) : sProp 𝕄) ⊢ (reg2 m).pre c := by
  rw [V36_eq]; exact .rfl
theorem hpost2 (c : Dev nD) : (reg2 m).post c ⊢ (iprop(StableHlo.held (c : Thread nD τ) (Pipeline.ucRefs τ sig) (GenP.V37 m (outs m) c) ∗ Rst c) : sProp 𝕄) := by
  rw [V37_eq]; exact .rfl
theorem hpre3 (c : Dev nD) : (iprop(StableHlo.held (c : Thread nD τ) (Pipeline.ucRefs τ sig) (GenP.V40 m (outs m) c) ∗ Rst c) : sProp 𝕄) ⊢ (reg3 m).pre c := by
  rw [V40_eq]; exact .rfl
theorem hpost3 (c : Dev nD) : (reg3 m).post c ⊢ (iprop(StableHlo.held (c : Thread nD τ) (Pipeline.ucRefs τ sig) (GenP.V41 m (outs m) c) ∗ Rst c) : sProp 𝕄) := by
  rw [V41_eq]; exact .rfl
theorem hpre4 (c : Dev nD) : (iprop(StableHlo.held (c : Thread nD τ) (Pipeline.ucRefs τ sig) (GenP.V43 m (outs m) c) ∗ Rst c) : sProp 𝕄) ⊢ (reg4 m).pre c := by
  rw [V43_eq]; exact .rfl
theorem hpost4 (c : Dev nD) : (reg4 m).post c ⊢ (iprop(StableHlo.held (c : Thread nD τ) (Pipeline.ucRefs τ sig) (GenP.V44 m (outs m) c) ∗ Rst c) : sProp 𝕄) := by
  rw [V44_eq]; exact .rfl
theorem hpre5 (c : Dev nD) : (iprop(StableHlo.held (c : Thread nD τ) (Pipeline.ucRefs τ sig) (GenP.V47 m (outs m) c) ∗ Rst c) : sProp 𝕄) ⊢ (reg5 m).pre c := by
  rw [V47_eq]; exact .rfl
theorem hpost5 (c : Dev nD) : (reg5 m).post c ⊢ (iprop(StableHlo.held (c : Thread nD τ) (Pipeline.ucRefs τ sig) (GenP.V48 m (outs m) c) ∗ Rst c) : sProp 𝕄) := by
  rw [V48_eq]; exact .rfl
theorem hpre6 (c : Dev nD) : (iprop(StableHlo.held (c : Thread nD τ) (Pipeline.ucRefs τ sig) (GenP.V49 m (outs m) c) ∗ Rst c) : sProp 𝕄) ⊢ (reg6 m).pre c := by
  rw [V49_eq]; exact .rfl
theorem hpost6 (c : Dev nD) : (reg6 m).post c ⊢ (iprop(StableHlo.held (c : Thread nD τ) (Pipeline.ucRefs τ sig) (GenP.V50 m (outs m) c) ∗ Rst c) : sProp 𝕄) := by
  rw [V50_eq]; exact .rfl

/-! ## The launch -/

/-- The launch's ghost state: the pipelines' cells and launch tokens, whole. -/
abbrev u₀ : UR sig nD τ :=
  initOf (Pipeline.cells (Pipeline.pin (pcfgs (F := F)) (adm m)) (cellOf_inj (adm m))) (Pipeline.launchToks (Pipeline.pin (pcfgs (F := F)) (adm m)) (cellOf_inj (adm m)))

theorem hu₀ : (ownU (u₀ m) : sProp 𝕄) ⊢ |={Set.univ}=> iprop(BI.own (emb₁ (Ix := Unit) (Val := Elt F) (Name := ℕ) (Lvl := ℕ) (u₀ m)) ∗ bigSep Finset.univ fun _ : Dev nD => (BI.emp : sProp 𝕄)) := by
  iintro Hu; imodintro
  isplitl [Hu]
  · iapply (show (ownU (u₀ m) : sProp 𝕄) ⊢ BI.own (emb₁ (u₀ m)) from .rfl)
    iexact Hu
  iapply (show (BI.emp : sProp 𝕄) ⊢ bigSep Finset.univ (fun _ : Dev nD => (BI.emp : sProp 𝕄)) from by rw [BI.bigSep_emp_const])
  iempintro

/-- Each core makes its first rest state from what the launch deals it: the generator register at the launch's state,
    owing nothing. -/
theorem hE0 (ρ : Dev nD → PrngReg) :
    (iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz) : sProp 𝕄)
      ⊢ (|={Set.univ}=> bigSep Finset.univ (fun c : Dev nD => Rst c) : sProp 𝕄) :=
  Pipeline.initEach Lz lvz fun c => by
    iintro ⟨⟨-, HO, -, Hp, -⟩, -⟩
    imodintro
    isplitl [Hp]; · iexists _; iexact Hp
    iexists ∅; iexact HO

theorem hE7 (c : Dev nD) : Rst c ⊢ (iprop(∃ W, owes (c : Thread nD τ) (0 : CellTallies nD τ sig Unit) W) : sProp 𝕄) := by
  iintro ⟨-, HO⟩; iexact HO

/-- THE FRAME: from any memory with zero counters every weakly fair execution of @main terminates, nothing faulting, and
    every final memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.frame_cond m (EP := emb₁) (ι := ()) (𝒱₀ := Variants.none) (L := Lz) (lv := lvz) (hL := fun _ _ => rfl) (ρ := ρ)
    (outs := outs m) (a := adm m) (pdats := pdats m) (O₀ := 0) (G := fun _ => (BI.emp : sProp 𝕄)) (u₀ := u₀ m) (hu₀ := hu₀ m)
    (E := fun _ c => Rst c) (hE0 := hE0 ρ) (hE7 := hE7)
    (R0 := reg0 m) (hpre0 := hpre0 m) (hpost0 := hpost0 m) (R1 := reg1 m) (hpre1 := hpre1 m) (hpost1 := hpost1 m)
    (R2 := reg2 m) (hpre2 := hpre2 m) (hpost2 := hpost2 m) (R3 := reg3 m) (hpre3 := hpre3 m) (hpost3 := hpost3 m)
    (R4 := reg4 m) (hpre4 := hpre4 m) (hpost4 := hpost4 m) (R5 := reg5 m) (hpre5 := hpre5 m) (hpost5 := hpost5 m)
    (R6 := reg6 m) (hpre6 := hpre6 m) (hpost6 := hpost6 m)

/-- THE RUN WITH THE RESULT NAMED: the same, and the result buffer ends at what the host operations' fold under the
    regions' outputs names. -/
theorem run_val (ρ : Dev nD → PrngReg) : θ_run defs (onTc (τ := τ) (main (F := F))) ⟨m, fun _ => 0, ρ⟩ (fun r => ∀ c : Dev nD,
      r.2.mem ((c.tc : Thread nD τ).loc main_v197) = GenP.V51 m (outs m) c (Proc.devRef .tc main_v197)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.run_cond m (EP := emb₁) (ι := ()) (𝒱₀ := Variants.none) (L := Lz) (lv := lvz) (hL := fun _ _ => rfl) (ρ := ρ)
    (outs := outs m) (a := adm m) (pdats := pdats m) (O₀ := 0) (G := fun _ => (BI.emp : sProp 𝕄)) (u₀ := u₀ m) (hu₀ := hu₀ m)
    (E := fun _ c => Rst c) (hE0 := hE0 ρ) (hE7 := hE7)
    (R0 := reg0 m) (hpre0 := hpre0 m) (hpost0 := hpost0 m) (R1 := reg1 m) (hpre1 := hpre1 m) (hpost1 := hpost1 m)
    (R2 := reg2 m) (hpre2 := hpre2 m) (hpost2 := hpost2 m) (R3 := reg3 m) (hpre3 := hpre3 m) (hpost3 := hpost3 m)
    (R4 := reg4 m) (hpre4 := hpre4 m) (hpost4 := hpost4 m) (R5 := reg5 m) (hpre5 := hpre5 m) (hpost5 := hpost5 m)
    (R6 := reg6 m) (hpre6 := hpre6 m) (hpost6 := hpost6 m)

end Run

end Cert.KernelIdeal.Hand

end
-- ==== Proof.Ref.RunH.Stages.lean ====
/- The reference's @main, one operation at a time: each result buffer's contents as the operation's function of the earlier results (the arguments at their launch contents), and, at each cut of the operation list, which buffers still to be read hold which of these (LvJ). -/
import proofs.«402757_j20469814133395_4_alg».proof.Proof.Gen.ReferenceIdeal
import Idealize.ShloMosaic.Lib.StableHlo.Run

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

def st_main_v0 (m : (ℓ : Loc nD τ sig) → Buf (Elt F) ℓ) (c : Dev nD) : Buf (Elt F) ((c.tc : Thread nD τ).loc main_v0) :=
  ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)) (m ((c.tc : Thread nD τ).loc main_arg0)) (m ((c.tc : Thread nD τ).loc main_arg3))
def st_main_v1 (m : (ℓ : Loc nD τ sig) → Buf (Elt F) ℓ) (c : Dev nD) : Buf (Elt F) ((c.tc : Thread nD τ).loc main_v1) :=
  (iotaInDim S50000 32 0)
def st_main_v2 (m : (ℓ : Loc nD τ sig) → Buf (Elt F) ℓ) (c : Dev nD) : Buf (Elt F) ((c.tc : Thread nD τ).loc main_v2) :=
  ((extractStridedSlice S1x300000 ![0, 0] · slices_S2x300000_S1x300000_0_0) : (⟨S2x300000, .i32⟩ : BufTy).Contents (Elt F) → (⟨S1x300000, .i32⟩ : BufTy).Contents (Elt F)) (m ((c.tc : Thread nD τ).loc main_arg1))
def st_main_v3 (m : (ℓ : Loc nD τ sig) → Buf (Elt F) ℓ) (c : Dev nD) : Buf (Elt F) ((c.tc : Thread nD τ).loc main_v3) :=
  shapeCast S300000 (st_main_v2 m c) shapeCasts_S1x300000_S300000
def st_main_v4 (m : (ℓ : Loc nD τ sig) → Buf (Elt F) ℓ) (c : Dev nD) : Buf (Elt F) ((c.tc : Thread nD τ).loc main_v4) :=
  ((fun a b => concatenate S350000 0 [⟨S300000, a⟩, ⟨S50000, b⟩] concatenates_S300000_S50000_S350000_d0) : (⟨S300000, .i32⟩ : BufTy).Contents (Elt F) → (⟨S50000, .i32⟩ : BufTy).Contents (Elt F) → (⟨S350000, .i32⟩ : BufTy).Contents (Elt F)) (st_main_v3 m c) (st_main_v1 m c)
def st_main_v5 (m : (ℓ : Loc nD τ sig) → Buf (Elt F) ℓ) (c : Dev nD) : Buf (Elt F) ((c.tc : Thread nD τ).loc main_v5) :=
  ((extractStridedSlice S1x300000 ![1, 0] · slices_S2x300000_S1x300000_1_0) : (⟨S2x300000, .i32⟩ : BufTy).Contents (Elt F) → (⟨S1x300000, .i32⟩ : BufTy).Contents (Elt F)) (m ((c.tc : Thread nD τ).loc main_arg1))
def st_main_v6 (m : (ℓ : Loc nD τ sig) → Buf (Elt F) ℓ) (c : Dev nD) : Buf (Elt F) ((c.tc : Thread nD τ).loc main_v6) :=
  shapeCast S300000 (st_main_v5 m c) shapeCasts_S1x300000_S300000
def st_main_v7 (m : (ℓ : Loc nD τ sig) → Buf (Elt F) ℓ) (c : Dev nD) : Buf (Elt F) ((c.tc : Thread nD τ).loc main_v7) :=
  ((fun a b => concatenate S350000 0 [⟨S300000, a⟩, ⟨S50000, b⟩] concatenates_S300000_S50000_S350000_d0) : (⟨S300000, .i32⟩ : BufTy).Contents (Elt F) → (⟨S50000, .i32⟩ : BufTy).Contents (Elt F) → (⟨S350000, .i32⟩ : BufTy).Contents (Elt F)) (st_main_v6 m c) (st_main_v1 m c)
def st_main_cst (m : (ℓ : Loc nD τ sig) → Buf (Elt F) ℓ) (c : Dev nD) : Buf (Elt F) ((c.tc : Thread nD τ).loc main_cst) :=
  (constant S_ .f32 0x3F800000#32)
def st_main_v8 (m : (ℓ : Loc nD τ sig) → Buf (Elt F) ℓ) (c : Dev nD) : Buf (Elt F) ((c.tc : Thread nD τ).loc main_v8) :=
  (broadcastInDim S350000 ![] bcast_S_S350000 : (⟨S_, .f32⟩ : BufTy).Contents (Elt F) → (⟨S350000, .f32⟩ : BufTy).Contents (Elt F)) (st_main_cst m c)
def st_main_cst_0 (m : (ℓ : Loc nD τ sig) → Buf (Elt F) ℓ) (c : Dev nD) : Buf (Elt F) ((c.tc : Thread nD τ).loc main_cst_0) :=
  (constant S_ .f32 0x00000000#32)
def st_main_v9 (m : (ℓ : Loc nD τ sig) → Buf (Elt F) ℓ) (c : Dev nD) : Buf (Elt F) ((c.tc : Thread nD τ).loc main_v9) :=
  (broadcastInDim S50000 ![] bcast_S_S50000 : (⟨S_, .f32⟩ : BufTy).Contents (Elt F) → (⟨S50000, .f32⟩ : BufTy).Contents (Elt F)) (st_main_cst_0 m c)
def st_main_v10 (m : (ℓ : Loc nD τ sig) → Buf (Elt F) ℓ) (c : Dev nD) : Buf (Elt F) ((c.tc : Thread nD τ).loc main_v10) :=
  (broadcastInDim S350000x1 ![0] bcast_S350000_S350000x1_0 : (⟨S350000, .i32⟩ : BufTy).Contents (Elt F) → (⟨S350000x1, .i32⟩ : BufTy).Contents (Elt F)) (st_main_v7 m c)
def st_main_v11 (m : (ℓ : Loc nD τ sig) → Buf (Elt F) ℓ) (c : Dev nD) : Buf (Elt F) ((c.tc : Thread nD τ).loc main_v11) :=
  ((fun x i u => Host.scatterAdd scatter_S50000_S350000x1_S350000_n_0_0_1 x i u) : (⟨S50000, .f32⟩ : BufTy).Contents (Elt F) → (⟨S350000x1, .i32⟩ : BufTy).Contents (Elt F) → (⟨S350000, .f32⟩ : BufTy).Contents (Elt F) → (⟨S50000, .f32⟩ : BufTy).Contents (Elt F)) (st_main_v9 m c) (st_main_v10 m c) (st_main_v8 m c)
def st_main_cst_1 (m : (ℓ : Loc nD τ sig) → Buf (Elt F) ℓ) (c : Dev nD) : Buf (Elt F) ((c.tc : Thread nD τ).loc main_cst_1) :=
  (constant S_ .f32 0x00000000#32)
def st_main_v12 (m : (ℓ : Loc nD τ sig) → Buf (Elt F) ℓ) (c : Dev nD) : Buf (Elt F) ((c.tc : Thread nD τ).loc main_v12) :=
  (broadcastInDim S50000 ![] bcast_S_S50000 : (⟨S_, .f32⟩ : BufTy).Contents (Elt F) → (⟨S50000, .f32⟩ : BufTy).Contents (Elt F)) (st_main_cst_1 m c)
def st_main_v13 (m : (ℓ : Loc nD τ sig) → Buf (Elt F) ℓ) (c : Dev nD) : Buf (Elt F) ((c.tc : Thread nD τ).loc main_v13) :=
  (cmpf .ogt : (⟨S50000, .f32⟩ : BufTy).Contents (Elt F) → (⟨S50000, .f32⟩ : BufTy).Contents (Elt F) → (⟨S50000, .i1⟩ : BufTy).Contents (Elt F)) (st_main_v11 m c) (st_main_v12 m c)
def st_main_cst_2 (m : (ℓ : Loc nD τ sig) → Buf (Elt F) ℓ) (c : Dev nD) : Buf (Elt F) ((c.tc : Thread nD τ).loc main_cst_2) :=
  (constant S_ .f32 0x2B8CBCCC#32)
def st_main_v14 (m : (ℓ : Loc nD τ sig) → Buf (Elt F) ℓ) (c : Dev nD) : Buf (Elt F) ((c.tc : Thread nD τ).loc main_v14) :=
  (broadcastInDim S50000 ![] bcast_S_S50000 : (⟨S_, .f32⟩ : BufTy).Contents (Elt F) → (⟨S50000, .f32⟩ : BufTy).Contents (Elt F)) (st_main_cst_2 m c)
def st_main_v15 (m : (ℓ : Loc nD τ sig) → Buf (Elt F) ℓ) (c : Dev nD) : Buf (Elt F) ((c.tc : Thread nD τ).loc main_v15) :=
  (maximumf : (⟨S50000, .f32⟩ : BufTy).Contents (Elt F) → (⟨S50000, .f32⟩ : BufTy).Contents (Elt F) → (⟨S50000, .f32⟩ : BufTy).Contents (Elt F)) (st_main_v11 m c) (st_main_v14 m c)
def st_main_v16 (m : (ℓ : Loc nD τ sig) → Buf (Elt F) ℓ) (c : Dev nD) : Buf (Elt F) ((c.tc : Thread nD τ).loc main_v16) :=
  (Host.rsqrt : (⟨S50000, .f32⟩ : BufTy).Contents (Elt F) → (⟨S50000, .f32⟩ : BufTy).Contents (Elt F)) (st_main_v15 m c)
def st_main_cst_3 (m : (ℓ : Loc nD τ sig) → Buf (Elt F) ℓ) (c : Dev nD) : Buf (Elt F) ((c.tc : Thread nD τ).loc main_cst_3) :=
  (constant S_ .f32 0x00000000#32)
def st_main_call0_v0 (m : (ℓ : Loc nD τ sig) → Buf (Elt F) ℓ) (c : Dev nD) : Buf (Elt F) ((c.tc : Thread nD τ).loc main_call0_v0) :=
  (id : (⟨S_, .f32⟩ : BufTy).Contents (Elt F) → (⟨S_, .f32⟩ : BufTy).Contents (Elt F)) (st_main_cst_3 m c)
def st_main_call0_v1 (m : (ℓ : Loc nD τ sig) → Buf (Elt F) ℓ) (c : Dev nD) : Buf (Elt F) ((c.tc : Thread nD τ).loc main_call0_v1) :=
  ((broadcastInDim S50000 ![] bcast_S_S50000) : (⟨S_, .f32⟩ : BufTy).Contents (Elt F) → (⟨S50000, .f32⟩ : BufTy).Contents (Elt F)) (st_main_call0_v0 m c)
def st_main_v17 (m : (ℓ : Loc nD τ sig) → Buf (Elt F) ℓ) (c : Dev nD) : Buf (Elt F) ((c.tc : Thread nD τ).loc main_v17) :=
  (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) (st_main_v13 m c) (st_main_v16 m c) (st_main_call0_v1 m c)
def st_main_c (m : (ℓ : Loc nD τ sig) → Buf (Elt F) ℓ) (c : Dev nD) : Buf (Elt F) ((c.tc : Thread nD τ).loc main_c) :=
  (constantI S_ 32 0#32)
def st_main_v18 (m : (ℓ : Loc nD τ sig) → Buf (Elt F) ℓ) (c : Dev nD) : Buf (Elt F) ((c.tc : Thread nD τ).loc main_v18) :=
  (broadcastInDim S350000 ![] bcast_S_S350000 : (⟨S_, .i32⟩ : BufTy).Contents (Elt F) → (⟨S350000, .i32⟩ : BufTy).Contents (Elt F)) (st_main_c m c)
def st_main_v19 (m : (ℓ : Loc nD τ sig) → Buf (Elt F) ℓ) (c : Dev nD) : Buf (Elt F) ((c.tc : Thread nD τ).loc main_v19) :=
  (cmpi .slt : (⟨S350000, .i32⟩ : BufTy).Contents (Elt F) → (⟨S350000, .i32⟩ : BufTy).Contents (Elt F) → (⟨S350000, .i1⟩ : BufTy).Contents (Elt F)) (st_main_v4 m c) (st_main_v18 m c)
def st_main_c_4 (m : (ℓ : Loc nD τ sig) → Buf (Elt F) ℓ) (c : Dev nD) : Buf (Elt F) ((c.tc : Thread nD τ).loc main_c_4) :=
  (constantI S_ 32 50000#32)
def st_main_v20 (m : (ℓ : Loc nD τ sig) → Buf (Elt F) ℓ) (c : Dev nD) : Buf (Elt F) ((c.tc : Thread nD τ).loc main_v20) :=
  (broadcastInDim S350000 ![] bcast_S_S350000 : (⟨S_, .i32⟩ : BufTy).Contents (Elt F) → (⟨S350000, .i32⟩ : BufTy).Contents (Elt F)) (st_main_c_4 m c)
def st_main_v21 (m : (ℓ : Loc nD τ sig) → Buf (Elt F) ℓ) (c : Dev nD) : Buf (Elt F) ((c.tc : Thread nD τ).loc main_v21) :=
  (addi : (⟨S350000, .i32⟩ : BufTy).Contents (Elt F) → (⟨S350000, .i32⟩ : BufTy).Contents (Elt F) → (⟨S350000, .i32⟩ : BufTy).Contents (Elt F)) (st_main_v4 m c) (st_main_v20 m c)
def st_main_v22 (m : (ℓ : Loc nD τ sig) → Buf (Elt F) ℓ) (c : Dev nD) : Buf (Elt F) ((c.tc : Thread nD τ).loc main_v22) :=
  (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) (st_main_v19 m c) (st_main_v21 m c) (st_main_v4 m c)
def st_main_v23 (m : (ℓ : Loc nD τ sig) → Buf (Elt F) ℓ) (c : Dev nD) : Buf (Elt F) ((c.tc : Thread nD τ).loc main_v23) :=
  (broadcastInDim S350000x1 ![0] bcast_S350000_S350000x1_0 : (⟨S350000, .i32⟩ : BufTy).Contents (Elt F) → (⟨S350000x1, .i32⟩ : BufTy).Contents (Elt F)) (st_main_v22 m c)
def st_main_v24 (m : (ℓ : Loc nD τ sig) → Buf (Elt F) ℓ) (c : Dev nD) : Buf (Elt F) ((c.tc : Thread nD τ).loc main_v24) :=
  ((fun x i => Host.gather gather_S50000_S350000x1_S350000_n_0_n_n_0_1_1 x i) : (⟨S50000, .f32⟩ : BufTy).Contents (Elt F) → (⟨S350000x1, .i32⟩ : BufTy).Contents (Elt F) → (⟨S350000, .f32⟩ : BufTy).Contents (Elt F)) (st_main_v17 m c) (st_main_v23 m c)
def st_main_c_5 (m : (ℓ : Loc nD τ sig) → Buf (Elt F) ℓ) (c : Dev nD) : Buf (Elt F) ((c.tc : Thread nD τ).loc main_c_5) :=
  (constantI S_ 32 0#32)
def st_main_v25 (m : (ℓ : Loc nD τ sig) → Buf (Elt F) ℓ) (c : Dev nD) : Buf (Elt F) ((c.tc : Thread nD τ).loc main_v25) :=
  (broadcastInDim S350000 ![] bcast_S_S350000 : (⟨S_, .i32⟩ : BufTy).Contents (Elt F) → (⟨S350000, .i32⟩ : BufTy).Contents (Elt F)) (st_main_c_5 m c)
def st_main_v26 (m : (ℓ : Loc nD τ sig) → Buf (Elt F) ℓ) (c : Dev nD) : Buf (Elt F) ((c.tc : Thread nD τ).loc main_v26) :=
  (cmpi .slt : (⟨S350000, .i32⟩ : BufTy).Contents (Elt F) → (⟨S350000, .i32⟩ : BufTy).Contents (Elt F) → (⟨S350000, .i1⟩ : BufTy).Contents (Elt F)) (st_main_v7 m c) (st_main_v25 m c)
def st_main_c_6 (m : (ℓ : Loc nD τ sig) → Buf (Elt F) ℓ) (c : Dev nD) : Buf (Elt F) ((c.tc : Thread nD τ).loc main_c_6) :=
  (constantI S_ 32 50000#32)
def st_main_v27 (m : (ℓ : Loc nD τ sig) → Buf (Elt F) ℓ) (c : Dev nD) : Buf (Elt F) ((c.tc : Thread nD τ).loc main_v27) :=
  (broadcastInDim S350000 ![] bcast_S_S350000 : (⟨S_, .i32⟩ : BufTy).Contents (Elt F) → (⟨S350000, .i32⟩ : BufTy).Contents (Elt F)) (st_main_c_6 m c)
def st_main_v28 (m : (ℓ : Loc nD τ sig) → Buf (Elt F) ℓ) (c : Dev nD) : Buf (Elt F) ((c.tc : Thread nD τ).loc main_v28) :=
  (addi : (⟨S350000, .i32⟩ : BufTy).Contents (Elt F) → (⟨S350000, .i32⟩ : BufTy).Contents (Elt F) → (⟨S350000, .i32⟩ : BufTy).Contents (Elt F)) (st_main_v7 m c) (st_main_v27 m c)
def st_main_v29 (m : (ℓ : Loc nD τ sig) → Buf (Elt F) ℓ) (c : Dev nD) : Buf (Elt F) ((c.tc : Thread nD τ).loc main_v29) :=
  (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) (st_main_v26 m c) (st_main_v28 m c) (st_main_v7 m c)
def st_main_v30 (m : (ℓ : Loc nD τ sig) → Buf (Elt F) ℓ) (c : Dev nD) : Buf (Elt F) ((c.tc : Thread nD τ).loc main_v30) :=
  (broadcastInDim S350000x1 ![0] bcast_S350000_S350000x1_0 : (⟨S350000, .i32⟩ : BufTy).Contents (Elt F) → (⟨S350000x1, .i32⟩ : BufTy).Contents (Elt F)) (st_main_v29 m c)
def st_main_v31 (m : (ℓ : Loc nD τ sig) → Buf (Elt F) ℓ) (c : Dev nD) : Buf (Elt F) ((c.tc : Thread nD τ).loc main_v31) :=
  ((fun x i => Host.gather gather_S50000_S350000x1_S350000_n_0_n_n_0_1_1 x i) : (⟨S50000, .f32⟩ : BufTy).Contents (Elt F) → (⟨S350000x1, .i32⟩ : BufTy).Contents (Elt F) → (⟨S350000, .f32⟩ : BufTy).Contents (Elt F)) (st_main_v17 m c) (st_main_v30 m c)
def st_main_v32 (m : (ℓ : Loc nD τ sig) → Buf (Elt F) ℓ) (c : Dev nD) : Buf (Elt F) ((c.tc : Thread nD τ).loc main_v32) :=
  (mulf : (⟨S350000, .f32⟩ : BufTy).Contents (Elt F) → (⟨S350000, .f32⟩ : BufTy).Contents (Elt F) → (⟨S350000, .f32⟩ : BufTy).Contents (Elt F)) (st_main_v24 m c) (st_main_v31 m c)
def st_main_c_7 (m : (ℓ : Loc nD τ sig) → Buf (Elt F) ℓ) (c : Dev nD) : Buf (Elt F) ((c.tc : Thread nD τ).loc main_c_7) :=
  (constantI S_ 32 0#32)
def st_main_v33 (m : (ℓ : Loc nD τ sig) → Buf (Elt F) ℓ) (c : Dev nD) : Buf (Elt F) ((c.tc : Thread nD τ).loc main_v33) :=
  (broadcastInDim S350000 ![] bcast_S_S350000 : (⟨S_, .i32⟩ : BufTy).Contents (Elt F) → (⟨S350000, .i32⟩ : BufTy).Contents (Elt F)) (st_main_c_7 m c)
def st_main_v34 (m : (ℓ : Loc nD τ sig) → Buf (Elt F) ℓ) (c : Dev nD) : Buf (Elt F) ((c.tc : Thread nD τ).loc main_v34) :=
  (cmpi .slt : (⟨S350000, .i32⟩ : BufTy).Contents (Elt F) → (⟨S350000, .i32⟩ : BufTy).Contents (Elt F) → (⟨S350000, .i1⟩ : BufTy).Contents (Elt F)) (st_main_v4 m c) (st_main_v33 m c)
def st_main_c_8 (m : (ℓ : Loc nD τ sig) → Buf (Elt F) ℓ) (c : Dev nD) : Buf (Elt F) ((c.tc : Thread nD τ).loc main_c_8) :=
  (constantI S_ 32 50000#32)
def st_main_v35 (m : (ℓ : Loc nD τ sig) → Buf (Elt F) ℓ) (c : Dev nD) : Buf (Elt F) ((c.tc : Thread nD τ).loc main_v35) :=
  (broadcastInDim S350000 ![] bcast_S_S350000 : (⟨S_, .i32⟩ : BufTy).Contents (Elt F) → (⟨S350000, .i32⟩ : BufTy).Contents (Elt F)) (st_main_c_8 m c)
def st_main_v36 (m : (ℓ : Loc nD τ sig) → Buf (Elt F) ℓ) (c : Dev nD) : Buf (Elt F) ((c.tc : Thread nD τ).loc main_v36) :=
  (addi : (⟨S350000, .i32⟩ : BufTy).Contents (Elt F) → (⟨S350000, .i32⟩ : BufTy).Contents (Elt F) → (⟨S350000, .i32⟩ : BufTy).Contents (Elt F)) (st_main_v4 m c) (st_main_v35 m c)
def st_main_v37 (m : (ℓ : Loc nD τ sig) → Buf (Elt F) ℓ) (c : Dev nD) : Buf (Elt F) ((c.tc : Thread nD τ).loc main_v37) :=
  (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) (st_main_v34 m c) (st_main_v36 m c) (st_main_v4 m c)
def st_main_v38 (m : (ℓ : Loc nD τ sig) → Buf (Elt F) ℓ) (c : Dev nD) : Buf (Elt F) ((c.tc : Thread nD τ).loc main_v38) :=
  (broadcastInDim S350000x1 ![0] bcast_S350000_S350000x1_0 : (⟨S350000, .i32⟩ : BufTy).Contents (Elt F) → (⟨S350000x1, .i32⟩ : BufTy).Contents (Elt F)) (st_main_v37 m c)
def st_main_v39 (m : (ℓ : Loc nD τ sig) → Buf (Elt F) ℓ) (c : Dev nD) : Buf (Elt F) ((c.tc : Thread nD τ).loc main_v39) :=
  ((fun x i => Host.gather gather_S50000x64_S350000x1_S350000x64_1_0_n_n_0_1_164 x i) : (⟨S50000x64, .f32⟩ : BufTy).Contents (Elt F) → (⟨S350000x1, .i32⟩ : BufTy).Contents (Elt F) → (⟨S350000x64, .f32⟩ : BufTy).Contents (Elt F)) (st_main_v0 m c) (st_main_v38 m c)
def st_main_v40 (m : (ℓ : Loc nD τ sig) → Buf (Elt F) ℓ) (c : Dev nD) : Buf (Elt F) ((c.tc : Thread nD τ).loc main_v40) :=
  (broadcastInDim S350000x1 ![0] bcast_S350000_S350000x1_0 : (⟨S350000, .f32⟩ : BufTy).Contents (Elt F) → (⟨S350000x1, .f32⟩ : BufTy).Contents (Elt F)) (st_main_v32 m c)
def st_main_v41 (m : (ℓ : Loc nD τ sig) → Buf (Elt F) ℓ) (c : Dev nD) : Buf (Elt F) ((c.tc : Thread nD τ).loc main_v41) :=
  (broadcastInDim S350000x64 ![0, 1] bcast_S350000x1_S350000x64_0_1 : (⟨S350000x1, .f32⟩ : BufTy).Contents (Elt F) → (⟨S350000x64, .f32⟩ : BufTy).Contents (Elt F)) (st_main_v40 m c)
def st_main_v42 (m : (ℓ : Loc nD τ sig) → Buf (Elt F) ℓ) (c : Dev nD) : Buf (Elt F) ((c.tc : Thread nD τ).loc main_v42) :=
  (mulf : (⟨S350000x64, .f32⟩ : BufTy).Contents (Elt F) → (⟨S350000x64, .f32⟩ : BufTy).Contents (Elt F) → (⟨S350000x64, .f32⟩ : BufTy).Contents (Elt F)) (st_main_v39 m c) (st_main_v41 m c)
def st_main_cst_9 (m : (ℓ : Loc nD τ sig) → Buf (Elt F) ℓ) (c : Dev nD) : Buf (Elt F) ((c.tc : Thread nD τ).loc main_cst_9) :=
  (constant S_ .f32 0x00000000#32)
def st_main_v43 (m : (ℓ : Loc nD τ sig) → Buf (Elt F) ℓ) (c : Dev nD) : Buf (Elt F) ((c.tc : Thread nD τ).loc main_v43) :=
  (broadcastInDim S50000x64 ![] bcast_S_S50000x64 : (⟨S_, .f32⟩ : BufTy).Contents (Elt F) → (⟨S50000x64, .f32⟩ : BufTy).Contents (Elt F)) (st_main_cst_9 m c)
def st_main_v44 (m : (ℓ : Loc nD τ sig) → Buf (Elt F) ℓ) (c : Dev nD) : Buf (Elt F) ((c.tc : Thread nD τ).loc main_v44) :=
  (broadcastInDim S350000x1 ![0] bcast_S350000_S350000x1_0 : (⟨S350000, .i32⟩ : BufTy).Contents (Elt F) → (⟨S350000x1, .i32⟩ : BufTy).Contents (Elt F)) (st_main_v7 m c)
def st_main_v45 (m : (ℓ : Loc nD τ sig) → Buf (Elt F) ℓ) (c : Dev nD) : Buf (Elt F) ((c.tc : Thread nD τ).loc main_v45) :=
  ((fun x i u => Host.scatterAdd scatter_S50000x64_S350000x1_S350000x64_1_0_0_1 x i u) : (⟨S50000x64, .f32⟩ : BufTy).Contents (Elt F) → (⟨S350000x1, .i32⟩ : BufTy).Contents (Elt F) → (⟨S350000x64, .f32⟩ : BufTy).Contents (Elt F) → (⟨S50000x64, .f32⟩ : BufTy).Contents (Elt F)) (st_main_v43 m c) (st_main_v44 m c) (st_main_v42 m c)
def st_main_v46 (m : (ℓ : Loc nD τ sig) → Buf (Elt F) ℓ) (c : Dev nD) : Buf (Elt F) ((c.tc : Thread nD τ).loc main_v46) :=
  (broadcastInDim S1x64 ![1] bcast_S64_S1x64_1 : (⟨S64, .f32⟩ : BufTy).Contents (Elt F) → (⟨S1x64, .f32⟩ : BufTy).Contents (Elt F)) (m ((c.tc : Thread nD τ).loc main_arg4))
def st_main_v47 (m : (ℓ : Loc nD τ sig) → Buf (Elt F) ℓ) (c : Dev nD) : Buf (Elt F) ((c.tc : Thread nD τ).loc main_v47) :=
  (broadcastInDim S50000x64 ![0, 1] bcast_S1x64_S50000x64_0_1 : (⟨S1x64, .f32⟩ : BufTy).Contents (Elt F) → (⟨S50000x64, .f32⟩ : BufTy).Contents (Elt F)) (st_main_v46 m c)
def st_main_v48 (m : (ℓ : Loc nD τ sig) → Buf (Elt F) ℓ) (c : Dev nD) : Buf (Elt F) ((c.tc : Thread nD τ).loc main_v48) :=
  (addf : (⟨S50000x64, .f32⟩ : BufTy).Contents (Elt F) → (⟨S50000x64, .f32⟩ : BufTy).Contents (Elt F) → (⟨S50000x64, .f32⟩ : BufTy).Contents (Elt F)) (st_main_v45 m c) (st_main_v47 m c)
def st_main_v49 (m : (ℓ : Loc nD τ sig) → Buf (Elt F) ℓ) (c : Dev nD) : Buf (Elt F) ((c.tc : Thread nD τ).loc main_v49) :=
  ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)) (m ((c.tc : Thread nD τ).loc main_arg0)) (m ((c.tc : Thread nD τ).loc main_arg3))
def st_main_v50 (m : (ℓ : Loc nD τ sig) → Buf (Elt F) ℓ) (c : Dev nD) : Buf (Elt F) ((c.tc : Thread nD τ).loc main_v50) :=
  (iotaInDim S50000 32 0)
def st_main_v51 (m : (ℓ : Loc nD τ sig) → Buf (Elt F) ℓ) (c : Dev nD) : Buf (Elt F) ((c.tc : Thread nD τ).loc main_v51) :=
  ((extractStridedSlice S1x1797685 ![0, 0] · slices_S2x1797685_S1x1797685_0_0) : (⟨S2x1797685, .i32⟩ : BufTy).Contents (Elt F) → (⟨S1x1797685, .i32⟩ : BufTy).Contents (Elt F)) (m ((c.tc : Thread nD τ).loc main_arg2))
def st_main_v52 (m : (ℓ : Loc nD τ sig) → Buf (Elt F) ℓ) (c : Dev nD) : Buf (Elt F) ((c.tc : Thread nD τ).loc main_v52) :=
  shapeCast S1797685 (st_main_v51 m c) shapeCasts_S1x1797685_S1797685
def st_main_v53 (m : (ℓ : Loc nD τ sig) → Buf (Elt F) ℓ) (c : Dev nD) : Buf (Elt F) ((c.tc : Thread nD τ).loc main_v53) :=
  ((fun a b => concatenate S1847685 0 [⟨S1797685, a⟩, ⟨S50000, b⟩] concatenates_S1797685_S50000_S1847685_d0) : (⟨S1797685, .i32⟩ : BufTy).Contents (Elt F) → (⟨S50000, .i32⟩ : BufTy).Contents (Elt F) → (⟨S1847685, .i32⟩ : BufTy).Contents (Elt F)) (st_main_v52 m c) (st_main_v50 m c)
def st_main_v54 (m : (ℓ : Loc nD τ sig) → Buf (Elt F) ℓ) (c : Dev nD) : Buf (Elt F) ((c.tc : Thread nD τ).loc main_v54) :=
  ((extractStridedSlice S1x1797685 ![1, 0] · slices_S2x1797685_S1x1797685_1_0) : (⟨S2x1797685, .i32⟩ : BufTy).Contents (Elt F) → (⟨S1x1797685, .i32⟩ : BufTy).Contents (Elt F)) (m ((c.tc : Thread nD τ).loc main_arg2))
def st_main_v55 (m : (ℓ : Loc nD τ sig) → Buf (Elt F) ℓ) (c : Dev nD) : Buf (Elt F) ((c.tc : Thread nD τ).loc main_v55) :=
  shapeCast S1797685 (st_main_v54 m c) shapeCasts_S1x1797685_S1797685
def st_main_v56 (m : (ℓ : Loc nD τ sig) → Buf (Elt F) ℓ) (c : Dev nD) : Buf (Elt F) ((c.tc : Thread nD τ).loc main_v56) :=
  ((fun a b => concatenate S1847685 0 [⟨S1797685, a⟩, ⟨S50000, b⟩] concatenates_S1797685_S50000_S1847685_d0) : (⟨S1797685, .i32⟩ : BufTy).Contents (Elt F) → (⟨S50000, .i32⟩ : BufTy).Contents (Elt F) → (⟨S1847685, .i32⟩ : BufTy).Contents (Elt F)) (st_main_v55 m c) (st_main_v50 m c)
def st_main_cst_10 (m : (ℓ : Loc nD τ sig) → Buf (Elt F) ℓ) (c : Dev nD) : Buf (Elt F) ((c.tc : Thread nD τ).loc main_cst_10) :=
  (constant S_ .f32 0x3F800000#32)
def st_main_v57 (m : (ℓ : Loc nD τ sig) → Buf (Elt F) ℓ) (c : Dev nD) : Buf (Elt F) ((c.tc : Thread nD τ).loc main_v57) :=
  (broadcastInDim S1847685 ![] bcast_S_S1847685 : (⟨S_, .f32⟩ : BufTy).Contents (Elt F) → (⟨S1847685, .f32⟩ : BufTy).Contents (Elt F)) (st_main_cst_10 m c)
def st_main_cst_11 (m : (ℓ : Loc nD τ sig) → Buf (Elt F) ℓ) (c : Dev nD) : Buf (Elt F) ((c.tc : Thread nD τ).loc main_cst_11) :=
  (constant S_ .f32 0x00000000#32)
def st_main_v58 (m : (ℓ : Loc nD τ sig) → Buf (Elt F) ℓ) (c : Dev nD) : Buf (Elt F) ((c.tc : Thread nD τ).loc main_v58) :=
  (broadcastInDim S50000 ![] bcast_S_S50000 : (⟨S_, .f32⟩ : BufTy).Contents (Elt F) → (⟨S50000, .f32⟩ : BufTy).Contents (Elt F)) (st_main_cst_11 m c)
def st_main_v59 (m : (ℓ : Loc nD τ sig) → Buf (Elt F) ℓ) (c : Dev nD) : Buf (Elt F) ((c.tc : Thread nD τ).loc main_v59) :=
  (broadcastInDim S1847685x1 ![0] bcast_S1847685_S1847685x1_0 : (⟨S1847685, .i32⟩ : BufTy).Contents (Elt F) → (⟨S1847685x1, .i32⟩ : BufTy).Contents (Elt F)) (st_main_v56 m c)
def st_main_v60 (m : (ℓ : Loc nD τ sig) → Buf (Elt F) ℓ) (c : Dev nD) : Buf (Elt F) ((c.tc : Thread nD τ).loc main_v60) :=
  ((fun x i u => Host.scatterAdd scatter_S50000_S1847685x1_S1847685_n_0_0_1 x i u) : (⟨S50000, .f32⟩ : BufTy).Contents (Elt F) → (⟨S1847685x1, .i32⟩ : BufTy).Contents (Elt F) → (⟨S1847685, .f32⟩ : BufTy).Contents (Elt F) → (⟨S50000, .f32⟩ : BufTy).Contents (Elt F)) (st_main_v58 m c) (st_main_v59 m c) (st_main_v57 m c)
def st_main_cst_12 (m : (ℓ : Loc nD τ sig) → Buf (Elt F) ℓ) (c : Dev nD) : Buf (Elt F) ((c.tc : Thread nD τ).loc main_cst_12) :=
  (constant S_ .f32 0x00000000#32)
def st_main_v61 (m : (ℓ : Loc nD τ sig) → Buf (Elt F) ℓ) (c : Dev nD) : Buf (Elt F) ((c.tc : Thread nD τ).loc main_v61) :=
  (broadcastInDim S50000 ![] bcast_S_S50000 : (⟨S_, .f32⟩ : BufTy).Contents (Elt F) → (⟨S50000, .f32⟩ : BufTy).Contents (Elt F)) (st_main_cst_12 m c)
def st_main_v62 (m : (ℓ : Loc nD τ sig) → Buf (Elt F) ℓ) (c : Dev nD) : Buf (Elt F) ((c.tc : Thread nD τ).loc main_v62) :=
  (cmpf .ogt : (⟨S50000, .f32⟩ : BufTy).Contents (Elt F) → (⟨S50000, .f32⟩ : BufTy).Contents (Elt F) → (⟨S50000, .i1⟩ : BufTy).Contents (Elt F)) (st_main_v60 m c) (st_main_v61 m c)
def st_main_cst_13 (m : (ℓ : Loc nD τ sig) → Buf (Elt F) ℓ) (c : Dev nD) : Buf (Elt F) ((c.tc : Thread nD τ).loc main_cst_13) :=
  (constant S_ .f32 0x2B8CBCCC#32)
def st_main_v63 (m : (ℓ : Loc nD τ sig) → Buf (Elt F) ℓ) (c : Dev nD) : Buf (Elt F) ((c.tc : Thread nD τ).loc main_v63) :=
  (broadcastInDim S50000 ![] bcast_S_S50000 : (⟨S_, .f32⟩ : BufTy).Contents (Elt F) → (⟨S50000, .f32⟩ : BufTy).Contents (Elt F)) (st_main_cst_13 m c)
def st_main_v64 (m : (ℓ : Loc nD τ sig) → Buf (Elt F) ℓ) (c : Dev nD) : Buf (Elt F) ((c.tc : Thread nD τ).loc main_v64) :=
  (maximumf : (⟨S50000, .f32⟩ : BufTy).Contents (Elt F) → (⟨S50000, .f32⟩ : BufTy).Contents (Elt F) → (⟨S50000, .f32⟩ : BufTy).Contents (Elt F)) (st_main_v60 m c) (st_main_v63 m c)
def st_main_v65 (m : (ℓ : Loc nD τ sig) → Buf (Elt F) ℓ) (c : Dev nD) : Buf (Elt F) ((c.tc : Thread nD τ).loc main_v65) :=
  (Host.rsqrt : (⟨S50000, .f32⟩ : BufTy).Contents (Elt F) → (⟨S50000, .f32⟩ : BufTy).Contents (Elt F)) (st_main_v64 m c)
def st_main_cst_14 (m : (ℓ : Loc nD τ sig) → Buf (Elt F) ℓ) (c : Dev nD) : Buf (Elt F) ((c.tc : Thread nD τ).loc main_cst_14) :=
  (constant S_ .f32 0x00000000#32)
def st_main_call1_v0 (m : (ℓ : Loc nD τ sig) → Buf (Elt F) ℓ) (c : Dev nD) : Buf (Elt F) ((c.tc : Thread nD τ).loc main_call1_v0) :=
  (id : (⟨S_, .f32⟩ : BufTy).Contents (Elt F) → (⟨S_, .f32⟩ : BufTy).Contents (Elt F)) (st_main_cst_14 m c)
def st_main_call1_v1 (m : (ℓ : Loc nD τ sig) → Buf (Elt F) ℓ) (c : Dev nD) : Buf (Elt F) ((c.tc : Thread nD τ).loc main_call1_v1) :=
  ((broadcastInDim S50000 ![] bcast_S_S50000) : (⟨S_, .f32⟩ : BufTy).Contents (Elt F) → (⟨S50000, .f32⟩ : BufTy).Contents (Elt F)) (st_main_call1_v0 m c)
def st_main_v66 (m : (ℓ : Loc nD τ sig) → Buf (Elt F) ℓ) (c : Dev nD) : Buf (Elt F) ((c.tc : Thread nD τ).loc main_v66) :=
  (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) (st_main_v62 m c) (st_main_v65 m c) (st_main_call1_v1 m c)
def st_main_c_15 (m : (ℓ : Loc nD τ sig) → Buf (Elt F) ℓ) (c : Dev nD) : Buf (Elt F) ((c.tc : Thread nD τ).loc main_c_15) :=
  (constantI S_ 32 0#32)
def st_main_v67 (m : (ℓ : Loc nD τ sig) → Buf (Elt F) ℓ) (c : Dev nD) : Buf (Elt F) ((c.tc : Thread nD τ).loc main_v67) :=
  (broadcastInDim S1847685 ![] bcast_S_S1847685 : (⟨S_, .i32⟩ : BufTy).Contents (Elt F) → (⟨S1847685, .i32⟩ : BufTy).Contents (Elt F)) (st_main_c_15 m c)
def st_main_v68 (m : (ℓ : Loc nD τ sig) → Buf (Elt F) ℓ) (c : Dev nD) : Buf (Elt F) ((c.tc : Thread nD τ).loc main_v68) :=
  (cmpi .slt : (⟨S1847685, .i32⟩ : BufTy).Contents (Elt F) → (⟨S1847685, .i32⟩ : BufTy).Contents (Elt F) → (⟨S1847685, .i1⟩ : BufTy).Contents (Elt F)) (st_main_v53 m c) (st_main_v67 m c)
def st_main_c_16 (m : (ℓ : Loc nD τ sig) → Buf (Elt F) ℓ) (c : Dev nD) : Buf (Elt F) ((c.tc : Thread nD τ).loc main_c_16) :=
  (constantI S_ 32 50000#32)
def st_main_v69 (m : (ℓ : Loc nD τ sig) → Buf (Elt F) ℓ) (c : Dev nD) : Buf (Elt F) ((c.tc : Thread nD τ).loc main_v69) :=
  (broadcastInDim S1847685 ![] bcast_S_S1847685 : (⟨S_, .i32⟩ : BufTy).Contents (Elt F) → (⟨S1847685, .i32⟩ : BufTy).Contents (Elt F)) (st_main_c_16 m c)
def st_main_v70 (m : (ℓ : Loc nD τ sig) → Buf (Elt F) ℓ) (c : Dev nD) : Buf (Elt F) ((c.tc : Thread nD τ).loc main_v70) :=
  (addi : (⟨S1847685, .i32⟩ : BufTy).Contents (Elt F) → (⟨S1847685, .i32⟩ : BufTy).Contents (Elt F) → (⟨S1847685, .i32⟩ : BufTy).Contents (Elt F)) (st_main_v53 m c) (st_main_v69 m c)
def st_main_v71 (m : (ℓ : Loc nD τ sig) → Buf (Elt F) ℓ) (c : Dev nD) : Buf (Elt F) ((c.tc : Thread nD τ).loc main_v71) :=
  (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)) (st_main_v68 m c) (st_main_v70 m c) (st_main_v53 m c)
def st_main_v72 (m : (ℓ : Loc nD τ sig) → Buf (Elt F) ℓ) (c : Dev nD) : Buf (Elt F) ((c.tc : Thread nD τ).loc main_v72) :=
  (broadcastInDim S1847685x1 ![0] bcast_S1847685_S1847685x1_0 : (⟨S1847685, .i32⟩ : BufTy).Contents (Elt F) → (⟨S1847685x1, .i32⟩ : BufTy).Contents (Elt F)) (st_main_v71 m c)
def st_main_v73 (m : (ℓ : Loc nD τ sig) → Buf (Elt F) ℓ) (c : Dev nD) : Buf (Elt F) ((c.tc : Thread nD τ).loc main_v73) :=
  ((fun x i => Host.gather gather_S50000_S1847685x1_S1847685_n_0_n_n_0_1_1 x i) : (⟨S50000, .f32⟩ : BufTy).Contents (Elt F) → (⟨S1847685x1, .i32⟩ : BufTy).Contents (Elt F) → (⟨S1847685, .f32⟩ : BufTy).Contents (Elt F)) (st_main_v66 m c) (st_main_v72 m c)
def st_main_c_17 (m : (ℓ : Loc nD τ sig) → Buf (Elt F) ℓ) (c : Dev nD) : Buf (Elt F) ((c.tc : Thread nD τ).loc main_c_17) :=
  (constantI S_ 32 0#32)
def st_main_v74 (m : (ℓ : Loc nD τ sig) → Buf (Elt F) ℓ) (c : Dev nD) : Buf (Elt F) ((c.tc : Thread nD τ).loc main_v74) :=
  (broadcastInDim S1847685 ![] bcast_S_S1847685 : (⟨S_, .i32⟩ : BufTy).Contents (Elt F) → (⟨S1847685, .i32⟩ : BufTy).Contents (Elt F)) (st_main_c_17 m c)
def st_main_v75 (m : (ℓ : Loc nD τ sig) → Buf (Elt F) ℓ) (c : Dev nD) : Buf (Elt F) ((c.tc : Thread nD τ).loc main_v75) :=
  (cmpi .slt : (⟨S1847685, .i32⟩ : BufTy).Contents (Elt F) → (⟨S1847685, .i32⟩ : BufTy).Contents (Elt F) → (⟨S1847685, .i1⟩ : BufTy).Contents (Elt F)) (st_main_v56 m c) (st_main_v74 m c)
def st_main_c_18 (m : (ℓ : Loc nD τ sig) → Buf (Elt F) ℓ) (c : Dev nD) : Buf (Elt F) ((c.tc : Thread nD τ).loc main_c_18) :=
  (constantI S_ 32 50000#32)
def st_main_v76 (m : (ℓ : Loc nD τ sig) → Buf (Elt F) ℓ) (c : Dev nD) : Buf (Elt F) ((c.tc : Thread nD τ).loc main_v76) :=
  (broadcastInDim S1847685 ![] bcast_S_S1847685 : (⟨S_, .i32⟩ : BufTy).Contents (Elt F) → (⟨S1847685, .i32⟩ : BufTy).Contents (Elt F)) (st_main_c_18 m c)
def st_main_v77 (m : (ℓ : Loc nD τ sig) → Buf (Elt F) ℓ) (c : Dev nD) : Buf (Elt F) ((c.tc : Thread nD τ).loc main_v77) :=
  (addi : (⟨S1847685, .i32⟩ : BufTy).Contents (Elt F) → (⟨S1847685, .i32⟩ : BufTy).Contents (Elt F) → (⟨S1847685, .i32⟩ : BufTy).Contents (Elt F)) (st_main_v56 m c) (st_main_v76 m c)
def st_main_v78 (m : (ℓ : Loc nD τ sig) → Buf (Elt F) ℓ) (c : Dev nD) : Buf (Elt F) ((c.tc : Thread nD τ).loc main_v78) :=
  (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)) (st_main_v75 m c) (st_main_v77 m c) (st_main_v56 m c)
def st_main_v79 (m : (ℓ : Loc nD τ sig) → Buf (Elt F) ℓ) (c : Dev nD) : Buf (Elt F) ((c.tc : Thread nD τ).loc main_v79) :=
  (broadcastInDim S1847685x1 ![0] bcast_S1847685_S1847685x1_0 : (⟨S1847685, .i32⟩ : BufTy).Contents (Elt F) → (⟨S1847685x1, .i32⟩ : BufTy).Contents (Elt F)) (st_main_v78 m c)
def st_main_v80 (m : (ℓ : Loc nD τ sig) → Buf (Elt F) ℓ) (c : Dev nD) : Buf (Elt F) ((c.tc : Thread nD τ).loc main_v80) :=
  ((fun x i => Host.gather gather_S50000_S1847685x1_S1847685_n_0_n_n_0_1_1 x i) : (⟨S50000, .f32⟩ : BufTy).Contents (Elt F) → (⟨S1847685x1, .i32⟩ : BufTy).Contents (Elt F) → (⟨S1847685, .f32⟩ : BufTy).Contents (Elt F)) (st_main_v66 m c) (st_main_v79 m c)
def st_main_v81 (m : (ℓ : Loc nD τ sig) → Buf (Elt F) ℓ) (c : Dev nD) : Buf (Elt F) ((c.tc : Thread nD τ).loc main_v81) :=
  (mulf : (⟨S1847685, .f32⟩ : BufTy).Contents (Elt F) → (⟨S1847685, .f32⟩ : BufTy).Contents (Elt F) → (⟨S1847685, .f32⟩ : BufTy).Contents (Elt F)) (st_main_v73 m c) (st_main_v80 m c)
def st_main_c_19 (m : (ℓ : Loc nD τ sig) → Buf (Elt F) ℓ) (c : Dev nD) : Buf (Elt F) ((c.tc : Thread nD τ).loc main_c_19) :=
  (constantI S_ 32 0#32)
def st_main_v82 (m : (ℓ : Loc nD τ sig) → Buf (Elt F) ℓ) (c : Dev nD) : Buf (Elt F) ((c.tc : Thread nD τ).loc main_v82) :=
  (broadcastInDim S1847685 ![] bcast_S_S1847685 : (⟨S_, .i32⟩ : BufTy).Contents (Elt F) → (⟨S1847685, .i32⟩ : BufTy).Contents (Elt F)) (st_main_c_19 m c)
def st_main_v83 (m : (ℓ : Loc nD τ sig) → Buf (Elt F) ℓ) (c : Dev nD) : Buf (Elt F) ((c.tc : Thread nD τ).loc main_v83) :=
  (cmpi .slt : (⟨S1847685, .i32⟩ : BufTy).Contents (Elt F) → (⟨S1847685, .i32⟩ : BufTy).Contents (Elt F) → (⟨S1847685, .i1⟩ : BufTy).Contents (Elt F)) (st_main_v53 m c) (st_main_v82 m c)
def st_main_c_20 (m : (ℓ : Loc nD τ sig) → Buf (Elt F) ℓ) (c : Dev nD) : Buf (Elt F) ((c.tc : Thread nD τ).loc main_c_20) :=
  (constantI S_ 32 50000#32)
def st_main_v84 (m : (ℓ : Loc nD τ sig) → Buf (Elt F) ℓ) (c : Dev nD) : Buf (Elt F) ((c.tc : Thread nD τ).loc main_v84) :=
  (broadcastInDim S1847685 ![] bcast_S_S1847685 : (⟨S_, .i32⟩ : BufTy).Contents (Elt F) → (⟨S1847685, .i32⟩ : BufTy).Contents (Elt F)) (st_main_c_20 m c)
def st_main_v85 (m : (ℓ : Loc nD τ sig) → Buf (Elt F) ℓ) (c : Dev nD) : Buf (Elt F) ((c.tc : Thread nD τ).loc main_v85) :=
  (addi : (⟨S1847685, .i32⟩ : BufTy).Contents (Elt F) → (⟨S1847685, .i32⟩ : BufTy).Contents (Elt F) → (⟨S1847685, .i32⟩ : BufTy).Contents (Elt F)) (st_main_v53 m c) (st_main_v84 m c)
def st_main_v86 (m : (ℓ : Loc nD τ sig) → Buf (Elt F) ℓ) (c : Dev nD) : Buf (Elt F) ((c.tc : Thread nD τ).loc main_v86) :=
  (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)) (st_main_v83 m c) (st_main_v85 m c) (st_main_v53 m c)
def st_main_v87 (m : (ℓ : Loc nD τ sig) → Buf (Elt F) ℓ) (c : Dev nD) : Buf (Elt F) ((c.tc : Thread nD τ).loc main_v87) :=
  (broadcastInDim S1847685x1 ![0] bcast_S1847685_S1847685x1_0 : (⟨S1847685, .i32⟩ : BufTy).Contents (Elt F) → (⟨S1847685x1, .i32⟩ : BufTy).Contents (Elt F)) (st_main_v86 m c)
def st_main_v88 (m : (ℓ : Loc nD τ sig) → Buf (Elt F) ℓ) (c : Dev nD) : Buf (Elt F) ((c.tc : Thread nD τ).loc main_v88) :=
  ((fun x i => Host.gather gather_S50000x64_S1847685x1_S1847685x64_1_0_n_n_0_1_164 x i) : (⟨S50000x64, .f32⟩ : BufTy).Contents (Elt F) → (⟨S1847685x1, .i32⟩ : BufTy).Contents (Elt F) → (⟨S1847685x64, .f32⟩ : BufTy).Contents (Elt F)) (st_main_v49 m c) (st_main_v87 m c)
def st_main_v89 (m : (ℓ : Loc nD τ sig) → Buf (Elt F) ℓ) (c : Dev nD) : Buf (Elt F) ((c.tc : Thread nD τ).loc main_v89) :=
  (broadcastInDim S1847685x1 ![0] bcast_S1847685_S1847685x1_0 : (⟨S1847685, .f32⟩ : BufTy).Contents (Elt F) → (⟨S1847685x1, .f32⟩ : BufTy).Contents (Elt F)) (st_main_v81 m c)
def st_main_v90 (m : (ℓ : Loc nD τ sig) → Buf (Elt F) ℓ) (c : Dev nD) : Buf (Elt F) ((c.tc : Thread nD τ).loc main_v90) :=
  (broadcastInDim S1847685x64 ![0, 1] bcast_S1847685x1_S1847685x64_0_1 : (⟨S1847685x1, .f32⟩ : BufTy).Contents (Elt F) → (⟨S1847685x64, .f32⟩ : BufTy).Contents (Elt F)) (st_main_v89 m c)
def st_main_v91 (m : (ℓ : Loc nD τ sig) → Buf (Elt F) ℓ) (c : Dev nD) : Buf (Elt F) ((c.tc : Thread nD τ).loc main_v91) :=
  (mulf : (⟨S1847685x64, .f32⟩ : BufTy).Contents (Elt F) → (⟨S1847685x64, .f32⟩ : BufTy).Contents (Elt F) → (⟨S1847685x64, .f32⟩ : BufTy).Contents (Elt F)) (st_main_v88 m c) (st_main_v90 m c)
def st_main_cst_21 (m : (ℓ : Loc nD τ sig) → Buf (Elt F) ℓ) (c : Dev nD) : Buf (Elt F) ((c.tc : Thread nD τ).loc main_cst_21) :=
  (constant S_ .f32 0x00000000#32)
def st_main_v92 (m : (ℓ : Loc nD τ sig) → Buf (Elt F) ℓ) (c : Dev nD) : Buf (Elt F) ((c.tc : Thread nD τ).loc main_v92) :=
  (broadcastInDim S50000x64 ![] bcast_S_S50000x64 : (⟨S_, .f32⟩ : BufTy).Contents (Elt F) → (⟨S50000x64, .f32⟩ : BufTy).Contents (Elt F)) (st_main_cst_21 m c)
def st_main_v93 (m : (ℓ : Loc nD τ sig) → Buf (Elt F) ℓ) (c : Dev nD) : Buf (Elt F) ((c.tc : Thread nD τ).loc main_v93) :=
  (broadcastInDim S1847685x1 ![0] bcast_S1847685_S1847685x1_0 : (⟨S1847685, .i32⟩ : BufTy).Contents (Elt F) → (⟨S1847685x1, .i32⟩ : BufTy).Contents (Elt F)) (st_main_v56 m c)
def st_main_v94 (m : (ℓ : Loc nD τ sig) → Buf (Elt F) ℓ) (c : Dev nD) : Buf (Elt F) ((c.tc : Thread nD τ).loc main_v94) :=
  ((fun x i u => Host.scatterAdd scatter_S50000x64_S1847685x1_S1847685x64_1_0_0_1 x i u) : (⟨S50000x64, .f32⟩ : BufTy).Contents (Elt F) → (⟨S1847685x1, .i32⟩ : BufTy).Contents (Elt F) → (⟨S1847685x64, .f32⟩ : BufTy).Contents (Elt F) → (⟨S50000x64, .f32⟩ : BufTy).Contents (Elt F)) (st_main_v92 m c) (st_main_v93 m c) (st_main_v91 m c)
def st_main_v95 (m : (ℓ : Loc nD τ sig) → Buf (Elt F) ℓ) (c : Dev nD) : Buf (Elt F) ((c.tc : Thread nD τ).loc main_v95) :=
  (broadcastInDim S1x64 ![1] bcast_S64_S1x64_1 : (⟨S64, .f32⟩ : BufTy).Contents (Elt F) → (⟨S1x64, .f32⟩ : BufTy).Contents (Elt F)) (m ((c.tc : Thread nD τ).loc main_arg4))
def st_main_v96 (m : (ℓ : Loc nD τ sig) → Buf (Elt F) ℓ) (c : Dev nD) : Buf (Elt F) ((c.tc : Thread nD τ).loc main_v96) :=
  (broadcastInDim S50000x64 ![0, 1] bcast_S1x64_S50000x64_0_1 : (⟨S1x64, .f32⟩ : BufTy).Contents (Elt F) → (⟨S50000x64, .f32⟩ : BufTy).Contents (Elt F)) (st_main_v95 m c)
def st_main_v97 (m : (ℓ : Loc nD τ sig) → Buf (Elt F) ℓ) (c : Dev nD) : Buf (Elt F) ((c.tc : Thread nD τ).loc main_v97) :=
  (addf : (⟨S50000x64, .f32⟩ : BufTy).Contents (Elt F) → (⟨S50000x64, .f32⟩ : BufTy).Contents (Elt F) → (⟨S50000x64, .f32⟩ : BufTy).Contents (Elt F)) (st_main_v94 m c) (st_main_v96 m c)
def st_main_v98 (m : (ℓ : Loc nD τ sig) → Buf (Elt F) ℓ) (c : Dev nD) : Buf (Elt F) ((c.tc : Thread nD τ).loc main_v98) :=
  ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)) (st_main_v48 m c) (st_main_v97 m c)
def st_main_call2_cst (m : (ℓ : Loc nD τ sig) → Buf (Elt F) ℓ) (c : Dev nD) : Buf (Elt F) ((c.tc : Thread nD τ).loc main_call2_cst) :=
  ((constant S_ .f32 0x00000000#32) : (⟨S_, .f32⟩ : BufTy).Contents (Elt F))
def st_main_call2_v0 (m : (ℓ : Loc nD τ sig) → Buf (Elt F) ℓ) (c : Dev nD) : Buf (Elt F) ((c.tc : Thread nD τ).loc main_call2_v0) :=
  ((broadcastInDim S50000x128 ![] bcast_S_S50000x128) : (⟨S_, .f32⟩ : BufTy).Contents (Elt F) → (⟨S50000x128, .f32⟩ : BufTy).Contents (Elt F)) (st_main_call2_cst m c)
def st_main_v99 (m : (ℓ : Loc nD τ sig) → Buf (Elt F) ℓ) (c : Dev nD) : Buf (Elt F) ((c.tc : Thread nD τ).loc main_v99) :=
  (maximumf : (⟨S50000x128, .f32⟩ : BufTy).Contents (Elt F) → (⟨S50000x128, .f32⟩ : BufTy).Contents (Elt F) → (⟨S50000x128, .f32⟩ : BufTy).Contents (Elt F)) (st_main_v98 m c) (st_main_call2_v0 m c)
def st_main_v100 (m : (ℓ : Loc nD τ sig) → Buf (Elt F) ℓ) (c : Dev nD) : Buf (Elt F) ((c.tc : Thread nD τ).loc main_v100) :=
  ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)) (st_main_v99 m c) (m ((c.tc : Thread nD τ).loc main_arg5))
def st_main_v101 (m : (ℓ : Loc nD τ sig) → Buf (Elt F) ℓ) (c : Dev nD) : Buf (Elt F) ((c.tc : Thread nD τ).loc main_v101) :=
  (iotaInDim S50000 32 0)
def st_main_v102 (m : (ℓ : Loc nD τ sig) → Buf (Elt F) ℓ) (c : Dev nD) : Buf (Elt F) ((c.tc : Thread nD τ).loc main_v102) :=
  ((extractStridedSlice S1x300000 ![0, 0] · slices_S2x300000_S1x300000_0_0) : (⟨S2x300000, .i32⟩ : BufTy).Contents (Elt F) → (⟨S1x300000, .i32⟩ : BufTy).Contents (Elt F)) (m ((c.tc : Thread nD τ).loc main_arg1))
def st_main_v103 (m : (ℓ : Loc nD τ sig) → Buf (Elt F) ℓ) (c : Dev nD) : Buf (Elt F) ((c.tc : Thread nD τ).loc main_v103) :=
  shapeCast S300000 (st_main_v102 m c) shapeCasts_S1x300000_S300000
def st_main_v104 (m : (ℓ : Loc nD τ sig) → Buf (Elt F) ℓ) (c : Dev nD) : Buf (Elt F) ((c.tc : Thread nD τ).loc main_v104) :=
  ((fun a b => concatenate S350000 0 [⟨S300000, a⟩, ⟨S50000, b⟩] concatenates_S300000_S50000_S350000_d0) : (⟨S300000, .i32⟩ : BufTy).Contents (Elt F) → (⟨S50000, .i32⟩ : BufTy).Contents (Elt F) → (⟨S350000, .i32⟩ : BufTy).Contents (Elt F)) (st_main_v103 m c) (st_main_v101 m c)
def st_main_v105 (m : (ℓ : Loc nD τ sig) → Buf (Elt F) ℓ) (c : Dev nD) : Buf (Elt F) ((c.tc : Thread nD τ).loc main_v105) :=
  ((extractStridedSlice S1x300000 ![1, 0] · slices_S2x300000_S1x300000_1_0) : (⟨S2x300000, .i32⟩ : BufTy).Contents (Elt F) → (⟨S1x300000, .i32⟩ : BufTy).Contents (Elt F)) (m ((c.tc : Thread nD τ).loc main_arg1))
def st_main_v106 (m : (ℓ : Loc nD τ sig) → Buf (Elt F) ℓ) (c : Dev nD) : Buf (Elt F) ((c.tc : Thread nD τ).loc main_v106) :=
  shapeCast S300000 (st_main_v105 m c) shapeCasts_S1x300000_S300000
def st_main_v107 (m : (ℓ : Loc nD τ sig) → Buf (Elt F) ℓ) (c : Dev nD) : Buf (Elt F) ((c.tc : Thread nD τ).loc main_v107) :=
  ((fun a b => concatenate S350000 0 [⟨S300000, a⟩, ⟨S50000, b⟩] concatenates_S300000_S50000_S350000_d0) : (⟨S300000, .i32⟩ : BufTy).Contents (Elt F) → (⟨S50000, .i32⟩ : BufTy).Contents (Elt F) → (⟨S350000, .i32⟩ : BufTy).Contents (Elt F)) (st_main_v106 m c) (st_main_v101 m c)
def st_main_cst_22 (m : (ℓ : Loc nD τ sig) → Buf (Elt F) ℓ) (c : Dev nD) : Buf (Elt F) ((c.tc : Thread nD τ).loc main_cst_22) :=
  (constant S_ .f32 0x3F800000#32)
def st_main_v108 (m : (ℓ : Loc nD τ sig) → Buf (Elt F) ℓ) (c : Dev nD) : Buf (Elt F) ((c.tc : Thread nD τ).loc main_v108) :=
  (broadcastInDim S350000 ![] bcast_S_S350000 : (⟨S_, .f32⟩ : BufTy).Contents (Elt F) → (⟨S350000, .f32⟩ : BufTy).Contents (Elt F)) (st_main_cst_22 m c)
def st_main_cst_23 (m : (ℓ : Loc nD τ sig) → Buf (Elt F) ℓ) (c : Dev nD) : Buf (Elt F) ((c.tc : Thread nD τ).loc main_cst_23) :=
  (constant S_ .f32 0x00000000#32)
def st_main_v109 (m : (ℓ : Loc nD τ sig) → Buf (Elt F) ℓ) (c : Dev nD) : Buf (Elt F) ((c.tc : Thread nD τ).loc main_v109) :=
  (broadcastInDim S50000 ![] bcast_S_S50000 : (⟨S_, .f32⟩ : BufTy).Contents (Elt F) → (⟨S50000, .f32⟩ : BufTy).Contents (Elt F)) (st_main_cst_23 m c)
def st_main_v110 (m : (ℓ : Loc nD τ sig) → Buf (Elt F) ℓ) (c : Dev nD) : Buf (Elt F) ((c.tc : Thread nD τ).loc main_v110) :=
  (broadcastInDim S350000x1 ![0] bcast_S350000_S350000x1_0 : (⟨S350000, .i32⟩ : BufTy).Contents (Elt F) → (⟨S350000x1, .i32⟩ : BufTy).Contents (Elt F)) (st_main_v107 m c)
def st_main_v111 (m : (ℓ : Loc nD τ sig) → Buf (Elt F) ℓ) (c : Dev nD) : Buf (Elt F) ((c.tc : Thread nD τ).loc main_v111) :=
  ((fun x i u => Host.scatterAdd scatter_S50000_S350000x1_S350000_n_0_0_1 x i u) : (⟨S50000, .f32⟩ : BufTy).Contents (Elt F) → (⟨S350000x1, .i32⟩ : BufTy).Contents (Elt F) → (⟨S350000, .f32⟩ : BufTy).Contents (Elt F) → (⟨S50000, .f32⟩ : BufTy).Contents (Elt F)) (st_main_v109 m c) (st_main_v110 m c) (st_main_v108 m c)
def st_main_cst_24 (m : (ℓ : Loc nD τ sig) → Buf (Elt F) ℓ) (c : Dev nD) : Buf (Elt F) ((c.tc : Thread nD τ).loc main_cst_24) :=
  (constant S_ .f32 0x00000000#32)
def st_main_v112 (m : (ℓ : Loc nD τ sig) → Buf (Elt F) ℓ) (c : Dev nD) : Buf (Elt F) ((c.tc : Thread nD τ).loc main_v112) :=
  (broadcastInDim S50000 ![] bcast_S_S50000 : (⟨S_, .f32⟩ : BufTy).Contents (Elt F) → (⟨S50000, .f32⟩ : BufTy).Contents (Elt F)) (st_main_cst_24 m c)
def st_main_v113 (m : (ℓ : Loc nD τ sig) → Buf (Elt F) ℓ) (c : Dev nD) : Buf (Elt F) ((c.tc : Thread nD τ).loc main_v113) :=
  (cmpf .ogt : (⟨S50000, .f32⟩ : BufTy).Contents (Elt F) → (⟨S50000, .f32⟩ : BufTy).Contents (Elt F) → (⟨S50000, .i1⟩ : BufTy).Contents (Elt F)) (st_main_v111 m c) (st_main_v112 m c)
def st_main_cst_25 (m : (ℓ : Loc nD τ sig) → Buf (Elt F) ℓ) (c : Dev nD) : Buf (Elt F) ((c.tc : Thread nD τ).loc main_cst_25) :=
  (constant S_ .f32 0x2B8CBCCC#32)
def st_main_v114 (m : (ℓ : Loc nD τ sig) → Buf (Elt F) ℓ) (c : Dev nD) : Buf (Elt F) ((c.tc : Thread nD τ).loc main_v114) :=
  (broadcastInDim S50000 ![] bcast_S_S50000 : (⟨S_, .f32⟩ : BufTy).Contents (Elt F) → (⟨S50000, .f32⟩ : BufTy).Contents (Elt F)) (st_main_cst_25 m c)
def st_main_v115 (m : (ℓ : Loc nD τ sig) → Buf (Elt F) ℓ) (c : Dev nD) : Buf (Elt F) ((c.tc : Thread nD τ).loc main_v115) :=
  (maximumf : (⟨S50000, .f32⟩ : BufTy).Contents (Elt F) → (⟨S50000, .f32⟩ : BufTy).Contents (Elt F) → (⟨S50000, .f32⟩ : BufTy).Contents (Elt F)) (st_main_v111 m c) (st_main_v114 m c)
def st_main_v116 (m : (ℓ : Loc nD τ sig) → Buf (Elt F) ℓ) (c : Dev nD) : Buf (Elt F) ((c.tc : Thread nD τ).loc main_v116) :=
  (Host.rsqrt : (⟨S50000, .f32⟩ : BufTy).Contents (Elt F) → (⟨S50000, .f32⟩ : BufTy).Contents (Elt F)) (st_main_v115 m c)
def st_main_cst_26 (m : (ℓ : Loc nD τ sig) → Buf (Elt F) ℓ) (c : Dev nD) : Buf (Elt F) ((c.tc : Thread nD τ).loc main_cst_26) :=
  (constant S_ .f32 0x00000000#32)
def st_main_call3_v0 (m : (ℓ : Loc nD τ sig) → Buf (Elt F) ℓ) (c : Dev nD) : Buf (Elt F) ((c.tc : Thread nD τ).loc main_call3_v0) :=
  (id : (⟨S_, .f32⟩ : BufTy).Contents (Elt F) → (⟨S_, .f32⟩ : BufTy).Contents (Elt F)) (st_main_cst_26 m c)
def st_main_call3_v1 (m : (ℓ : Loc nD τ sig) → Buf (Elt F) ℓ) (c : Dev nD) : Buf (Elt F) ((c.tc : Thread nD τ).loc main_call3_v1) :=
  ((broadcastInDim S50000 ![] bcast_S_S50000) : (⟨S_, .f32⟩ : BufTy).Contents (Elt F) → (⟨S50000, .f32⟩ : BufTy).Contents (Elt F)) (st_main_call3_v0 m c)
def st_main_v117 (m : (ℓ : Loc nD τ sig) → Buf (Elt F) ℓ) (c : Dev nD) : Buf (Elt F) ((c.tc : Thread nD τ).loc main_v117) :=
  (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) (st_main_v113 m c) (st_main_v116 m c) (st_main_call3_v1 m c)
def st_main_c_27 (m : (ℓ : Loc nD τ sig) → Buf (Elt F) ℓ) (c : Dev nD) : Buf (Elt F) ((c.tc : Thread nD τ).loc main_c_27) :=
  (constantI S_ 32 0#32)
def st_main_v118 (m : (ℓ : Loc nD τ sig) → Buf (Elt F) ℓ) (c : Dev nD) : Buf (Elt F) ((c.tc : Thread nD τ).loc main_v118) :=
  (broadcastInDim S350000 ![] bcast_S_S350000 : (⟨S_, .i32⟩ : BufTy).Contents (Elt F) → (⟨S350000, .i32⟩ : BufTy).Contents (Elt F)) (st_main_c_27 m c)
def st_main_v119 (m : (ℓ : Loc nD τ sig) → Buf (Elt F) ℓ) (c : Dev nD) : Buf (Elt F) ((c.tc : Thread nD τ).loc main_v119) :=
  (cmpi .slt : (⟨S350000, .i32⟩ : BufTy).Contents (Elt F) → (⟨S350000, .i32⟩ : BufTy).Contents (Elt F) → (⟨S350000, .i1⟩ : BufTy).Contents (Elt F)) (st_main_v104 m c) (st_main_v118 m c)
def st_main_c_28 (m : (ℓ : Loc nD τ sig) → Buf (Elt F) ℓ) (c : Dev nD) : Buf (Elt F) ((c.tc : Thread nD τ).loc main_c_28) :=
  (constantI S_ 32 50000#32)
def st_main_v120 (m : (ℓ : Loc nD τ sig) → Buf (Elt F) ℓ) (c : Dev nD) : Buf (Elt F) ((c.tc : Thread nD τ).loc main_v120) :=
  (broadcastInDim S350000 ![] bcast_S_S350000 : (⟨S_, .i32⟩ : BufTy).Contents (Elt F) → (⟨S350000, .i32⟩ : BufTy).Contents (Elt F)) (st_main_c_28 m c)
def st_main_v121 (m : (ℓ : Loc nD τ sig) → Buf (Elt F) ℓ) (c : Dev nD) : Buf (Elt F) ((c.tc : Thread nD τ).loc main_v121) :=
  (addi : (⟨S350000, .i32⟩ : BufTy).Contents (Elt F) → (⟨S350000, .i32⟩ : BufTy).Contents (Elt F) → (⟨S350000, .i32⟩ : BufTy).Contents (Elt F)) (st_main_v104 m c) (st_main_v120 m c)
def st_main_v122 (m : (ℓ : Loc nD τ sig) → Buf (Elt F) ℓ) (c : Dev nD) : Buf (Elt F) ((c.tc : Thread nD τ).loc main_v122) :=
  (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) (st_main_v119 m c) (st_main_v121 m c) (st_main_v104 m c)
def st_main_v123 (m : (ℓ : Loc nD τ sig) → Buf (Elt F) ℓ) (c : Dev nD) : Buf (Elt F) ((c.tc : Thread nD τ).loc main_v123) :=
  (broadcastInDim S350000x1 ![0] bcast_S350000_S350000x1_0 : (⟨S350000, .i32⟩ : BufTy).Contents (Elt F) → (⟨S350000x1, .i32⟩ : BufTy).Contents (Elt F)) (st_main_v122 m c)
def st_main_v124 (m : (ℓ : Loc nD τ sig) → Buf (Elt F) ℓ) (c : Dev nD) : Buf (Elt F) ((c.tc : Thread nD τ).loc main_v124) :=
  ((fun x i => Host.gather gather_S50000_S350000x1_S350000_n_0_n_n_0_1_1 x i) : (⟨S50000, .f32⟩ : BufTy).Contents (Elt F) → (⟨S350000x1, .i32⟩ : BufTy).Contents (Elt F) → (⟨S350000, .f32⟩ : BufTy).Contents (Elt F)) (st_main_v117 m c) (st_main_v123 m c)
def st_main_c_29 (m : (ℓ : Loc nD τ sig) → Buf (Elt F) ℓ) (c : Dev nD) : Buf (Elt F) ((c.tc : Thread nD τ).loc main_c_29) :=
  (constantI S_ 32 0#32)
def st_main_v125 (m : (ℓ : Loc nD τ sig) → Buf (Elt F) ℓ) (c : Dev nD) : Buf (Elt F) ((c.tc : Thread nD τ).loc main_v125) :=
  (broadcastInDim S350000 ![] bcast_S_S350000 : (⟨S_, .i32⟩ : BufTy).Contents (Elt F) → (⟨S350000, .i32⟩ : BufTy).Contents (Elt F)) (st_main_c_29 m c)
def st_main_v126 (m : (ℓ : Loc nD τ sig) → Buf (Elt F) ℓ) (c : Dev nD) : Buf (Elt F) ((c.tc : Thread nD τ).loc main_v126) :=
  (cmpi .slt : (⟨S350000, .i32⟩ : BufTy).Contents (Elt F) → (⟨S350000, .i32⟩ : BufTy).Contents (Elt F) → (⟨S350000, .i1⟩ : BufTy).Contents (Elt F)) (st_main_v107 m c) (st_main_v125 m c)
def st_main_c_30 (m : (ℓ : Loc nD τ sig) → Buf (Elt F) ℓ) (c : Dev nD) : Buf (Elt F) ((c.tc : Thread nD τ).loc main_c_30) :=
  (constantI S_ 32 50000#32)
def st_main_v127 (m : (ℓ : Loc nD τ sig) → Buf (Elt F) ℓ) (c : Dev nD) : Buf (Elt F) ((c.tc : Thread nD τ).loc main_v127) :=
  (broadcastInDim S350000 ![] bcast_S_S350000 : (⟨S_, .i32⟩ : BufTy).Contents (Elt F) → (⟨S350000, .i32⟩ : BufTy).Contents (Elt F)) (st_main_c_30 m c)
def st_main_v128 (m : (ℓ : Loc nD τ sig) → Buf (Elt F) ℓ) (c : Dev nD) : Buf (Elt F) ((c.tc : Thread nD τ).loc main_v128) :=
  (addi : (⟨S350000, .i32⟩ : BufTy).Contents (Elt F) → (⟨S350000, .i32⟩ : BufTy).Contents (Elt F) → (⟨S350000, .i32⟩ : BufTy).Contents (Elt F)) (st_main_v107 m c) (st_main_v127 m c)
def st_main_v129 (m : (ℓ : Loc nD τ sig) → Buf (Elt F) ℓ) (c : Dev nD) : Buf (Elt F) ((c.tc : Thread nD τ).loc main_v129) :=
  (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) (st_main_v126 m c) (st_main_v128 m c) (st_main_v107 m c)
def st_main_v130 (m : (ℓ : Loc nD τ sig) → Buf (Elt F) ℓ) (c : Dev nD) : Buf (Elt F) ((c.tc : Thread nD τ).loc main_v130) :=
  (broadcastInDim S350000x1 ![0] bcast_S350000_S350000x1_0 : (⟨S350000, .i32⟩ : BufTy).Contents (Elt F) → (⟨S350000x1, .i32⟩ : BufTy).Contents (Elt F)) (st_main_v129 m c)
def st_main_v131 (m : (ℓ : Loc nD τ sig) → Buf (Elt F) ℓ) (c : Dev nD) : Buf (Elt F) ((c.tc : Thread nD τ).loc main_v131) :=
  ((fun x i => Host.gather gather_S50000_S350000x1_S350000_n_0_n_n_0_1_1 x i) : (⟨S50000, .f32⟩ : BufTy).Contents (Elt F) → (⟨S350000x1, .i32⟩ : BufTy).Contents (Elt F) → (⟨S350000, .f32⟩ : BufTy).Contents (Elt F)) (st_main_v117 m c) (st_main_v130 m c)
def st_main_v132 (m : (ℓ : Loc nD τ sig) → Buf (Elt F) ℓ) (c : Dev nD) : Buf (Elt F) ((c.tc : Thread nD τ).loc main_v132) :=
  (mulf : (⟨S350000, .f32⟩ : BufTy).Contents (Elt F) → (⟨S350000, .f32⟩ : BufTy).Contents (Elt F) → (⟨S350000, .f32⟩ : BufTy).Contents (Elt F)) (st_main_v124 m c) (st_main_v131 m c)
def st_main_c_31 (m : (ℓ : Loc nD τ sig) → Buf (Elt F) ℓ) (c : Dev nD) : Buf (Elt F) ((c.tc : Thread nD τ).loc main_c_31) :=
  (constantI S_ 32 0#32)
def st_main_v133 (m : (ℓ : Loc nD τ sig) → Buf (Elt F) ℓ) (c : Dev nD) : Buf (Elt F) ((c.tc : Thread nD τ).loc main_v133) :=
  (broadcastInDim S350000 ![] bcast_S_S350000 : (⟨S_, .i32⟩ : BufTy).Contents (Elt F) → (⟨S350000, .i32⟩ : BufTy).Contents (Elt F)) (st_main_c_31 m c)
def st_main_v134 (m : (ℓ : Loc nD τ sig) → Buf (Elt F) ℓ) (c : Dev nD) : Buf (Elt F) ((c.tc : Thread nD τ).loc main_v134) :=
  (cmpi .slt : (⟨S350000, .i32⟩ : BufTy).Contents (Elt F) → (⟨S350000, .i32⟩ : BufTy).Contents (Elt F) → (⟨S350000, .i1⟩ : BufTy).Contents (Elt F)) (st_main_v104 m c) (st_main_v133 m c)
def st_main_c_32 (m : (ℓ : Loc nD τ sig) → Buf (Elt F) ℓ) (c : Dev nD) : Buf (Elt F) ((c.tc : Thread nD τ).loc main_c_32) :=
  (constantI S_ 32 50000#32)
def st_main_v135 (m : (ℓ : Loc nD τ sig) → Buf (Elt F) ℓ) (c : Dev nD) : Buf (Elt F) ((c.tc : Thread nD τ).loc main_v135) :=
  (broadcastInDim S350000 ![] bcast_S_S350000 : (⟨S_, .i32⟩ : BufTy).Contents (Elt F) → (⟨S350000, .i32⟩ : BufTy).Contents (Elt F)) (st_main_c_32 m c)
def st_main_v136 (m : (ℓ : Loc nD τ sig) → Buf (Elt F) ℓ) (c : Dev nD) : Buf (Elt F) ((c.tc : Thread nD τ).loc main_v136) :=
  (addi : (⟨S350000, .i32⟩ : BufTy).Contents (Elt F) → (⟨S350000, .i32⟩ : BufTy).Contents (Elt F) → (⟨S350000, .i32⟩ : BufTy).Contents (Elt F)) (st_main_v104 m c) (st_main_v135 m c)
def st_main_v137 (m : (ℓ : Loc nD τ sig) → Buf (Elt F) ℓ) (c : Dev nD) : Buf (Elt F) ((c.tc : Thread nD τ).loc main_v137) :=
  (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)) (st_main_v134 m c) (st_main_v136 m c) (st_main_v104 m c)
def st_main_v138 (m : (ℓ : Loc nD τ sig) → Buf (Elt F) ℓ) (c : Dev nD) : Buf (Elt F) ((c.tc : Thread nD τ).loc main_v138) :=
  (broadcastInDim S350000x1 ![0] bcast_S350000_S350000x1_0 : (⟨S350000, .i32⟩ : BufTy).Contents (Elt F) → (⟨S350000x1, .i32⟩ : BufTy).Contents (Elt F)) (st_main_v137 m c)
def st_main_v139 (m : (ℓ : Loc nD τ sig) → Buf (Elt F) ℓ) (c : Dev nD) : Buf (Elt F) ((c.tc : Thread nD τ).loc main_v139) :=
  ((fun x i => Host.gather gather_S50000x16_S350000x1_S350000x16_1_0_n_n_0_1_116 x i) : (⟨S50000x16, .f32⟩ : BufTy).Contents (Elt F) → (⟨S350000x1, .i32⟩ : BufTy).Contents (Elt F) → (⟨S350000x16, .f32⟩ : BufTy).Contents (Elt F)) (st_main_v100 m c) (st_main_v138 m c)
def st_main_v140 (m : (ℓ : Loc nD τ sig) → Buf (Elt F) ℓ) (c : Dev nD) : Buf (Elt F) ((c.tc : Thread nD τ).loc main_v140) :=
  (broadcastInDim S350000x1 ![0] bcast_S350000_S350000x1_0 : (⟨S350000, .f32⟩ : BufTy).Contents (Elt F) → (⟨S350000x1, .f32⟩ : BufTy).Contents (Elt F)) (st_main_v132 m c)
def st_main_v141 (m : (ℓ : Loc nD τ sig) → Buf (Elt F) ℓ) (c : Dev nD) : Buf (Elt F) ((c.tc : Thread nD τ).loc main_v141) :=
  (broadcastInDim S350000x16 ![0, 1] bcast_S350000x1_S350000x16_0_1 : (⟨S350000x1, .f32⟩ : BufTy).Contents (Elt F) → (⟨S350000x16, .f32⟩ : BufTy).Contents (Elt F)) (st_main_v140 m c)
def st_main_v142 (m : (ℓ : Loc nD τ sig) → Buf (Elt F) ℓ) (c : Dev nD) : Buf (Elt F) ((c.tc : Thread nD τ).loc main_v142) :=
  (mulf : (⟨S350000x16, .f32⟩ : BufTy).Contents (Elt F) → (⟨S350000x16, .f32⟩ : BufTy).Contents (Elt F) → (⟨S350000x16, .f32⟩ : BufTy).Contents (Elt F)) (st_main_v139 m c) (st_main_v141 m c)
def st_main_cst_33 (m : (ℓ : Loc nD τ sig) → Buf (Elt F) ℓ) (c : Dev nD) : Buf (Elt F) ((c.tc : Thread nD τ).loc main_cst_33) :=
  (constant S_ .f32 0x00000000#32)
def st_main_v143 (m : (ℓ : Loc nD τ sig) → Buf (Elt F) ℓ) (c : Dev nD) : Buf (Elt F) ((c.tc : Thread nD τ).loc main_v143) :=
  (broadcastInDim S50000x16 ![] bcast_S_S50000x16 : (⟨S_, .f32⟩ : BufTy).Contents (Elt F) → (⟨S50000x16, .f32⟩ : BufTy).Contents (Elt F)) (st_main_cst_33 m c)
def st_main_v144 (m : (ℓ : Loc nD τ sig) → Buf (Elt F) ℓ) (c : Dev nD) : Buf (Elt F) ((c.tc : Thread nD τ).loc main_v144) :=
  (broadcastInDim S350000x1 ![0] bcast_S350000_S350000x1_0 : (⟨S350000, .i32⟩ : BufTy).Contents (Elt F) → (⟨S350000x1, .i32⟩ : BufTy).Contents (Elt F)) (st_main_v107 m c)
def st_main_v145 (m : (ℓ : Loc nD τ sig) → Buf (Elt F) ℓ) (c : Dev nD) : Buf (Elt F) ((c.tc : Thread nD τ).loc main_v145) :=
  ((fun x i u => Host.scatterAdd scatter_S50000x16_S350000x1_S350000x16_1_0_0_1 x i u) : (⟨S50000x16, .f32⟩ : BufTy).Contents (Elt F) → (⟨S350000x1, .i32⟩ : BufTy).Contents (Elt F) → (⟨S350000x16, .f32⟩ : BufTy).Contents (Elt F) → (⟨S50000x16, .f32⟩ : BufTy).Contents (Elt F)) (st_main_v143 m c) (st_main_v144 m c) (st_main_v142 m c)
def st_main_v146 (m : (ℓ : Loc nD τ sig) → Buf (Elt F) ℓ) (c : Dev nD) : Buf (Elt F) ((c.tc : Thread nD τ).loc main_v146) :=
  (broadcastInDim S1x16 ![1] bcast_S16_S1x16_1 : (⟨S16, .f32⟩ : BufTy).Contents (Elt F) → (⟨S1x16, .f32⟩ : BufTy).Contents (Elt F)) (m ((c.tc : Thread nD τ).loc main_arg6))
def st_main_v147 (m : (ℓ : Loc nD τ sig) → Buf (Elt F) ℓ) (c : Dev nD) : Buf (Elt F) ((c.tc : Thread nD τ).loc main_v147) :=
  (broadcastInDim S50000x16 ![0, 1] bcast_S1x16_S50000x16_0_1 : (⟨S1x16, .f32⟩ : BufTy).Contents (Elt F) → (⟨S50000x16, .f32⟩ : BufTy).Contents (Elt F)) (st_main_v146 m c)
def st_main_v148 (m : (ℓ : Loc nD τ sig) → Buf (Elt F) ℓ) (c : Dev nD) : Buf (Elt F) ((c.tc : Thread nD τ).loc main_v148) :=
  (addf : (⟨S50000x16, .f32⟩ : BufTy).Contents (Elt F) → (⟨S50000x16, .f32⟩ : BufTy).Contents (Elt F) → (⟨S50000x16, .f32⟩ : BufTy).Contents (Elt F)) (st_main_v145 m c) (st_main_v147 m c)
def st_main_v149 (m : (ℓ : Loc nD τ sig) → Buf (Elt F) ℓ) (c : Dev nD) : Buf (Elt F) ((c.tc : Thread nD τ).loc main_v149) :=
  ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)) (st_main_v99 m c) (m ((c.tc : Thread nD τ).loc main_arg5))
def st_main_v150 (m : (ℓ : Loc nD τ sig) → Buf (Elt F) ℓ) (c : Dev nD) : Buf (Elt F) ((c.tc : Thread nD τ).loc main_v150) :=
  (iotaInDim S50000 32 0)
def st_main_v151 (m : (ℓ : Loc nD τ sig) → Buf (Elt F) ℓ) (c : Dev nD) : Buf (Elt F) ((c.tc : Thread nD τ).loc main_v151) :=
  ((extractStridedSlice S1x1797685 ![0, 0] · slices_S2x1797685_S1x1797685_0_0) : (⟨S2x1797685, .i32⟩ : BufTy).Contents (Elt F) → (⟨S1x1797685, .i32⟩ : BufTy).Contents (Elt F)) (m ((c.tc : Thread nD τ).loc main_arg2))
def st_main_v152 (m : (ℓ : Loc nD τ sig) → Buf (Elt F) ℓ) (c : Dev nD) : Buf (Elt F) ((c.tc : Thread nD τ).loc main_v152) :=
  shapeCast S1797685 (st_main_v151 m c) shapeCasts_S1x1797685_S1797685
def st_main_v153 (m : (ℓ : Loc nD τ sig) → Buf (Elt F) ℓ) (c : Dev nD) : Buf (Elt F) ((c.tc : Thread nD τ).loc main_v153) :=
  ((fun a b => concatenate S1847685 0 [⟨S1797685, a⟩, ⟨S50000, b⟩] concatenates_S1797685_S50000_S1847685_d0) : (⟨S1797685, .i32⟩ : BufTy).Contents (Elt F) → (⟨S50000, .i32⟩ : BufTy).Contents (Elt F) → (⟨S1847685, .i32⟩ : BufTy).Contents (Elt F)) (st_main_v152 m c) (st_main_v150 m c)
def st_main_v154 (m : (ℓ : Loc nD τ sig) → Buf (Elt F) ℓ) (c : Dev nD) : Buf (Elt F) ((c.tc : Thread nD τ).loc main_v154) :=
  ((extractStridedSlice S1x1797685 ![1, 0] · slices_S2x1797685_S1x1797685_1_0) : (⟨S2x1797685, .i32⟩ : BufTy).Contents (Elt F) → (⟨S1x1797685, .i32⟩ : BufTy).Contents (Elt F)) (m ((c.tc : Thread nD τ).loc main_arg2))
def st_main_v155 (m : (ℓ : Loc nD τ sig) → Buf (Elt F) ℓ) (c : Dev nD) : Buf (Elt F) ((c.tc : Thread nD τ).loc main_v155) :=
  shapeCast S1797685 (st_main_v154 m c) shapeCasts_S1x1797685_S1797685
def st_main_v156 (m : (ℓ : Loc nD τ sig) → Buf (Elt F) ℓ) (c : Dev nD) : Buf (Elt F) ((c.tc : Thread nD τ).loc main_v156) :=
  ((fun a b => concatenate S1847685 0 [⟨S1797685, a⟩, ⟨S50000, b⟩] concatenates_S1797685_S50000_S1847685_d0) : (⟨S1797685, .i32⟩ : BufTy).Contents (Elt F) → (⟨S50000, .i32⟩ : BufTy).Contents (Elt F) → (⟨S1847685, .i32⟩ : BufTy).Contents (Elt F)) (st_main_v155 m c) (st_main_v150 m c)
def st_main_cst_34 (m : (ℓ : Loc nD τ sig) → Buf (Elt F) ℓ) (c : Dev nD) : Buf (Elt F) ((c.tc : Thread nD τ).loc main_cst_34) :=
  (constant S_ .f32 0x3F800000#32)
def st_main_v157 (m : (ℓ : Loc nD τ sig) → Buf (Elt F) ℓ) (c : Dev nD) : Buf (Elt F) ((c.tc : Thread nD τ).loc main_v157) :=
  (broadcastInDim S1847685 ![] bcast_S_S1847685 : (⟨S_, .f32⟩ : BufTy).Contents (Elt F) → (⟨S1847685, .f32⟩ : BufTy).Contents (Elt F)) (st_main_cst_34 m c)
def st_main_cst_35 (m : (ℓ : Loc nD τ sig) → Buf (Elt F) ℓ) (c : Dev nD) : Buf (Elt F) ((c.tc : Thread nD τ).loc main_cst_35) :=
  (constant S_ .f32 0x00000000#32)
def st_main_v158 (m : (ℓ : Loc nD τ sig) → Buf (Elt F) ℓ) (c : Dev nD) : Buf (Elt F) ((c.tc : Thread nD τ).loc main_v158) :=
  (broadcastInDim S50000 ![] bcast_S_S50000 : (⟨S_, .f32⟩ : BufTy).Contents (Elt F) → (⟨S50000, .f32⟩ : BufTy).Contents (Elt F)) (st_main_cst_35 m c)
def st_main_v159 (m : (ℓ : Loc nD τ sig) → Buf (Elt F) ℓ) (c : Dev nD) : Buf (Elt F) ((c.tc : Thread nD τ).loc main_v159) :=
  (broadcastInDim S1847685x1 ![0] bcast_S1847685_S1847685x1_0 : (⟨S1847685, .i32⟩ : BufTy).Contents (Elt F) → (⟨S1847685x1, .i32⟩ : BufTy).Contents (Elt F)) (st_main_v156 m c)
def st_main_v160 (m : (ℓ : Loc nD τ sig) → Buf (Elt F) ℓ) (c : Dev nD) : Buf (Elt F) ((c.tc : Thread nD τ).loc main_v160) :=
  ((fun x i u => Host.scatterAdd scatter_S50000_S1847685x1_S1847685_n_0_0_1 x i u) : (⟨S50000, .f32⟩ : BufTy).Contents (Elt F) → (⟨S1847685x1, .i32⟩ : BufTy).Contents (Elt F) → (⟨S1847685, .f32⟩ : BufTy).Contents (Elt F) → (⟨S50000, .f32⟩ : BufTy).Contents (Elt F)) (st_main_v158 m c) (st_main_v159 m c) (st_main_v157 m c)
def st_main_cst_36 (m : (ℓ : Loc nD τ sig) → Buf (Elt F) ℓ) (c : Dev nD) : Buf (Elt F) ((c.tc : Thread nD τ).loc main_cst_36) :=
  (constant S_ .f32 0x00000000#32)
def st_main_v161 (m : (ℓ : Loc nD τ sig) → Buf (Elt F) ℓ) (c : Dev nD) : Buf (Elt F) ((c.tc : Thread nD τ).loc main_v161) :=
  (broadcastInDim S50000 ![] bcast_S_S50000 : (⟨S_, .f32⟩ : BufTy).Contents (Elt F) → (⟨S50000, .f32⟩ : BufTy).Contents (Elt F)) (st_main_cst_36 m c)
def st_main_v162 (m : (ℓ : Loc nD τ sig) → Buf (Elt F) ℓ) (c : Dev nD) : Buf (Elt F) ((c.tc : Thread nD τ).loc main_v162) :=
  (cmpf .ogt : (⟨S50000, .f32⟩ : BufTy).Contents (Elt F) → (⟨S50000, .f32⟩ : BufTy).Contents (Elt F) → (⟨S50000, .i1⟩ : BufTy).Contents (Elt F)) (st_main_v160 m c) (st_main_v161 m c)
def st_main_cst_37 (m : (ℓ : Loc nD τ sig) → Buf (Elt F) ℓ) (c : Dev nD) : Buf (Elt F) ((c.tc : Thread nD τ).loc main_cst_37) :=
  (constant S_ .f32 0x2B8CBCCC#32)
def st_main_v163 (m : (ℓ : Loc nD τ sig) → Buf (Elt F) ℓ) (c : Dev nD) : Buf (Elt F) ((c.tc : Thread nD τ).loc main_v163) :=
  (broadcastInDim S50000 ![] bcast_S_S50000 : (⟨S_, .f32⟩ : BufTy).Contents (Elt F) → (⟨S50000, .f32⟩ : BufTy).Contents (Elt F)) (st_main_cst_37 m c)
def st_main_v164 (m : (ℓ : Loc nD τ sig) → Buf (Elt F) ℓ) (c : Dev nD) : Buf (Elt F) ((c.tc : Thread nD τ).loc main_v164) :=
  (maximumf : (⟨S50000, .f32⟩ : BufTy).Contents (Elt F) → (⟨S50000, .f32⟩ : BufTy).Contents (Elt F) → (⟨S50000, .f32⟩ : BufTy).Contents (Elt F)) (st_main_v160 m c) (st_main_v163 m c)
def st_main_v165 (m : (ℓ : Loc nD τ sig) → Buf (Elt F) ℓ) (c : Dev nD) : Buf (Elt F) ((c.tc : Thread nD τ).loc main_v165) :=
  (Host.rsqrt : (⟨S50000, .f32⟩ : BufTy).Contents (Elt F) → (⟨S50000, .f32⟩ : BufTy).Contents (Elt F)) (st_main_v164 m c)
def st_main_cst_38 (m : (ℓ : Loc nD τ sig) → Buf (Elt F) ℓ) (c : Dev nD) : Buf (Elt F) ((c.tc : Thread nD τ).loc main_cst_38) :=
  (constant S_ .f32 0x00000000#32)
def st_main_call4_v0 (m : (ℓ : Loc nD τ sig) → Buf (Elt F) ℓ) (c : Dev nD) : Buf (Elt F) ((c.tc : Thread nD τ).loc main_call4_v0) :=
  (id : (⟨S_, .f32⟩ : BufTy).Contents (Elt F) → (⟨S_, .f32⟩ : BufTy).Contents (Elt F)) (st_main_cst_38 m c)
def st_main_call4_v1 (m : (ℓ : Loc nD τ sig) → Buf (Elt F) ℓ) (c : Dev nD) : Buf (Elt F) ((c.tc : Thread nD τ).loc main_call4_v1) :=
  ((broadcastInDim S50000 ![] bcast_S_S50000) : (⟨S_, .f32⟩ : BufTy).Contents (Elt F) → (⟨S50000, .f32⟩ : BufTy).Contents (Elt F)) (st_main_call4_v0 m c)
def st_main_v166 (m : (ℓ : Loc nD τ sig) → Buf (Elt F) ℓ) (c : Dev nD) : Buf (Elt F) ((c.tc : Thread nD τ).loc main_v166) :=
  (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) (st_main_v162 m c) (st_main_v165 m c) (st_main_call4_v1 m c)
def st_main_c_39 (m : (ℓ : Loc nD τ sig) → Buf (Elt F) ℓ) (c : Dev nD) : Buf (Elt F) ((c.tc : Thread nD τ).loc main_c_39) :=
  (constantI S_ 32 0#32)
def st_main_v167 (m : (ℓ : Loc nD τ sig) → Buf (Elt F) ℓ) (c : Dev nD) : Buf (Elt F) ((c.tc : Thread nD τ).loc main_v167) :=
  (broadcastInDim S1847685 ![] bcast_S_S1847685 : (⟨S_, .i32⟩ : BufTy).Contents (Elt F) → (⟨S1847685, .i32⟩ : BufTy).Contents (Elt F)) (st_main_c_39 m c)
def st_main_v168 (m : (ℓ : Loc nD τ sig) → Buf (Elt F) ℓ) (c : Dev nD) : Buf (Elt F) ((c.tc : Thread nD τ).loc main_v168) :=
  (cmpi .slt : (⟨S1847685, .i32⟩ : BufTy).Contents (Elt F) → (⟨S1847685, .i32⟩ : BufTy).Contents (Elt F) → (⟨S1847685, .i1⟩ : BufTy).Contents (Elt F)) (st_main_v153 m c) (st_main_v167 m c)
def st_main_c_40 (m : (ℓ : Loc nD τ sig) → Buf (Elt F) ℓ) (c : Dev nD) : Buf (Elt F) ((c.tc : Thread nD τ).loc main_c_40) :=
  (constantI S_ 32 50000#32)
def st_main_v169 (m : (ℓ : Loc nD τ sig) → Buf (Elt F) ℓ) (c : Dev nD) : Buf (Elt F) ((c.tc : Thread nD τ).loc main_v169) :=
  (broadcastInDim S1847685 ![] bcast_S_S1847685 : (⟨S_, .i32⟩ : BufTy).Contents (Elt F) → (⟨S1847685, .i32⟩ : BufTy).Contents (Elt F)) (st_main_c_40 m c)
def st_main_v170 (m : (ℓ : Loc nD τ sig) → Buf (Elt F) ℓ) (c : Dev nD) : Buf (Elt F) ((c.tc : Thread nD τ).loc main_v170) :=
  (addi : (⟨S1847685, .i32⟩ : BufTy).Contents (Elt F) → (⟨S1847685, .i32⟩ : BufTy).Contents (Elt F) → (⟨S1847685, .i32⟩ : BufTy).Contents (Elt F)) (st_main_v153 m c) (st_main_v169 m c)
def st_main_v171 (m : (ℓ : Loc nD τ sig) → Buf (Elt F) ℓ) (c : Dev nD) : Buf (Elt F) ((c.tc : Thread nD τ).loc main_v171) :=
  (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)) (st_main_v168 m c) (st_main_v170 m c) (st_main_v153 m c)
def st_main_v172 (m : (ℓ : Loc nD τ sig) → Buf (Elt F) ℓ) (c : Dev nD) : Buf (Elt F) ((c.tc : Thread nD τ).loc main_v172) :=
  (broadcastInDim S1847685x1 ![0] bcast_S1847685_S1847685x1_0 : (⟨S1847685, .i32⟩ : BufTy).Contents (Elt F) → (⟨S1847685x1, .i32⟩ : BufTy).Contents (Elt F)) (st_main_v171 m c)
def st_main_v173 (m : (ℓ : Loc nD τ sig) → Buf (Elt F) ℓ) (c : Dev nD) : Buf (Elt F) ((c.tc : Thread nD τ).loc main_v173) :=
  ((fun x i => Host.gather gather_S50000_S1847685x1_S1847685_n_0_n_n_0_1_1 x i) : (⟨S50000, .f32⟩ : BufTy).Contents (Elt F) → (⟨S1847685x1, .i32⟩ : BufTy).Contents (Elt F) → (⟨S1847685, .f32⟩ : BufTy).Contents (Elt F)) (st_main_v166 m c) (st_main_v172 m c)
def st_main_c_41 (m : (ℓ : Loc nD τ sig) → Buf (Elt F) ℓ) (c : Dev nD) : Buf (Elt F) ((c.tc : Thread nD τ).loc main_c_41) :=
  (constantI S_ 32 0#32)
def st_main_v174 (m : (ℓ : Loc nD τ sig) → Buf (Elt F) ℓ) (c : Dev nD) : Buf (Elt F) ((c.tc : Thread nD τ).loc main_v174) :=
  (broadcastInDim S1847685 ![] bcast_S_S1847685 : (⟨S_, .i32⟩ : BufTy).Contents (Elt F) → (⟨S1847685, .i32⟩ : BufTy).Contents (Elt F)) (st_main_c_41 m c)
def st_main_v175 (m : (ℓ : Loc nD τ sig) → Buf (Elt F) ℓ) (c : Dev nD) : Buf (Elt F) ((c.tc : Thread nD τ).loc main_v175) :=
  (cmpi .slt : (⟨S1847685, .i32⟩ : BufTy).Contents (Elt F) → (⟨S1847685, .i32⟩ : BufTy).Contents (Elt F) → (⟨S1847685, .i1⟩ : BufTy).Contents (Elt F)) (st_main_v156 m c) (st_main_v174 m c)
def st_main_c_42 (m : (ℓ : Loc nD τ sig) → Buf (Elt F) ℓ) (c : Dev nD) : Buf (Elt F) ((c.tc : Thread nD τ).loc main_c_42) :=
  (constantI S_ 32 50000#32)
def st_main_v176 (m : (ℓ : Loc nD τ sig) → Buf (Elt F) ℓ) (c : Dev nD) : Buf (Elt F) ((c.tc : Thread nD τ).loc main_v176) :=
  (broadcastInDim S1847685 ![] bcast_S_S1847685 : (⟨S_, .i32⟩ : BufTy).Contents (Elt F) → (⟨S1847685, .i32⟩ : BufTy).Contents (Elt F)) (st_main_c_42 m c)
def st_main_v177 (m : (ℓ : Loc nD τ sig) → Buf (Elt F) ℓ) (c : Dev nD) : Buf (Elt F) ((c.tc : Thread nD τ).loc main_v177) :=
  (addi : (⟨S1847685, .i32⟩ : BufTy).Contents (Elt F) → (⟨S1847685, .i32⟩ : BufTy).Contents (Elt F) → (⟨S1847685, .i32⟩ : BufTy).Contents (Elt F)) (st_main_v156 m c) (st_main_v176 m c)
def st_main_v178 (m : (ℓ : Loc nD τ sig) → Buf (Elt F) ℓ) (c : Dev nD) : Buf (Elt F) ((c.tc : Thread nD τ).loc main_v178) :=
  (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)) (st_main_v175 m c) (st_main_v177 m c) (st_main_v156 m c)
def st_main_v179 (m : (ℓ : Loc nD τ sig) → Buf (Elt F) ℓ) (c : Dev nD) : Buf (Elt F) ((c.tc : Thread nD τ).loc main_v179) :=
  (broadcastInDim S1847685x1 ![0] bcast_S1847685_S1847685x1_0 : (⟨S1847685, .i32⟩ : BufTy).Contents (Elt F) → (⟨S1847685x1, .i32⟩ : BufTy).Contents (Elt F)) (st_main_v178 m c)
def st_main_v180 (m : (ℓ : Loc nD τ sig) → Buf (Elt F) ℓ) (c : Dev nD) : Buf (Elt F) ((c.tc : Thread nD τ).loc main_v180) :=
  ((fun x i => Host.gather gather_S50000_S1847685x1_S1847685_n_0_n_n_0_1_1 x i) : (⟨S50000, .f32⟩ : BufTy).Contents (Elt F) → (⟨S1847685x1, .i32⟩ : BufTy).Contents (Elt F) → (⟨S1847685, .f32⟩ : BufTy).Contents (Elt F)) (st_main_v166 m c) (st_main_v179 m c)
def st_main_v181 (m : (ℓ : Loc nD τ sig) → Buf (Elt F) ℓ) (c : Dev nD) : Buf (Elt F) ((c.tc : Thread nD τ).loc main_v181) :=
  (mulf : (⟨S1847685, .f32⟩ : BufTy).Contents (Elt F) → (⟨S1847685, .f32⟩ : BufTy).Contents (Elt F) → (⟨S1847685, .f32⟩ : BufTy).Contents (Elt F)) (st_main_v173 m c) (st_main_v180 m c)
def st_main_c_43 (m : (ℓ : Loc nD τ sig) → Buf (Elt F) ℓ) (c : Dev nD) : Buf (Elt F) ((c.tc : Thread nD τ).loc main_c_43) :=
  (constantI S_ 32 0#32)
def st_main_v182 (m : (ℓ : Loc nD τ sig) → Buf (Elt F) ℓ) (c : Dev nD) : Buf (Elt F) ((c.tc : Thread nD τ).loc main_v182) :=
  (broadcastInDim S1847685 ![] bcast_S_S1847685 : (⟨S_, .i32⟩ : BufTy).Contents (Elt F) → (⟨S1847685, .i32⟩ : BufTy).Contents (Elt F)) (st_main_c_43 m c)
def st_main_v183 (m : (ℓ : Loc nD τ sig) → Buf (Elt F) ℓ) (c : Dev nD) : Buf (Elt F) ((c.tc : Thread nD τ).loc main_v183) :=
  (cmpi .slt : (⟨S1847685, .i32⟩ : BufTy).Contents (Elt F) → (⟨S1847685, .i32⟩ : BufTy).Contents (Elt F) → (⟨S1847685, .i1⟩ : BufTy).Contents (Elt F)) (st_main_v153 m c) (st_main_v182 m c)
def st_main_c_44 (m : (ℓ : Loc nD τ sig) → Buf (Elt F) ℓ) (c : Dev nD) : Buf (Elt F) ((c.tc : Thread nD τ).loc main_c_44) :=
  (constantI S_ 32 50000#32)
def st_main_v184 (m : (ℓ : Loc nD τ sig) → Buf (Elt F) ℓ) (c : Dev nD) : Buf (Elt F) ((c.tc : Thread nD τ).loc main_v184) :=
  (broadcastInDim S1847685 ![] bcast_S_S1847685 : (⟨S_, .i32⟩ : BufTy).Contents (Elt F) → (⟨S1847685, .i32⟩ : BufTy).Contents (Elt F)) (st_main_c_44 m c)
def st_main_v185 (m : (ℓ : Loc nD τ sig) → Buf (Elt F) ℓ) (c : Dev nD) : Buf (Elt F) ((c.tc : Thread nD τ).loc main_v185) :=
  (addi : (⟨S1847685, .i32⟩ : BufTy).Contents (Elt F) → (⟨S1847685, .i32⟩ : BufTy).Contents (Elt F) → (⟨S1847685, .i32⟩ : BufTy).Contents (Elt F)) (st_main_v153 m c) (st_main_v184 m c)
def st_main_v186 (m : (ℓ : Loc nD τ sig) → Buf (Elt F) ℓ) (c : Dev nD) : Buf (Elt F) ((c.tc : Thread nD τ).loc main_v186) :=
  (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)) (st_main_v183 m c) (st_main_v185 m c) (st_main_v153 m c)
def st_main_v187 (m : (ℓ : Loc nD τ sig) → Buf (Elt F) ℓ) (c : Dev nD) : Buf (Elt F) ((c.tc : Thread nD τ).loc main_v187) :=
  (broadcastInDim S1847685x1 ![0] bcast_S1847685_S1847685x1_0 : (⟨S1847685, .i32⟩ : BufTy).Contents (Elt F) → (⟨S1847685x1, .i32⟩ : BufTy).Contents (Elt F)) (st_main_v186 m c)
def st_main_v188 (m : (ℓ : Loc nD τ sig) → Buf (Elt F) ℓ) (c : Dev nD) : Buf (Elt F) ((c.tc : Thread nD τ).loc main_v188) :=
  ((fun x i => Host.gather gather_S50000x16_S1847685x1_S1847685x16_1_0_n_n_0_1_116 x i) : (⟨S50000x16, .f32⟩ : BufTy).Contents (Elt F) → (⟨S1847685x1, .i32⟩ : BufTy).Contents (Elt F) → (⟨S1847685x16, .f32⟩ : BufTy).Contents (Elt F)) (st_main_v149 m c) (st_main_v187 m c)
def st_main_v189 (m : (ℓ : Loc nD τ sig) → Buf (Elt F) ℓ) (c : Dev nD) : Buf (Elt F) ((c.tc : Thread nD τ).loc main_v189) :=
  (broadcastInDim S1847685x1 ![0] bcast_S1847685_S1847685x1_0 : (⟨S1847685, .f32⟩ : BufTy).Contents (Elt F) → (⟨S1847685x1, .f32⟩ : BufTy).Contents (Elt F)) (st_main_v181 m c)
def st_main_v190 (m : (ℓ : Loc nD τ sig) → Buf (Elt F) ℓ) (c : Dev nD) : Buf (Elt F) ((c.tc : Thread nD τ).loc main_v190) :=
  (broadcastInDim S1847685x16 ![0, 1] bcast_S1847685x1_S1847685x16_0_1 : (⟨S1847685x1, .f32⟩ : BufTy).Contents (Elt F) → (⟨S1847685x16, .f32⟩ : BufTy).Contents (Elt F)) (st_main_v189 m c)
def st_main_v191 (m : (ℓ : Loc nD τ sig) → Buf (Elt F) ℓ) (c : Dev nD) : Buf (Elt F) ((c.tc : Thread nD τ).loc main_v191) :=
  (mulf : (⟨S1847685x16, .f32⟩ : BufTy).Contents (Elt F) → (⟨S1847685x16, .f32⟩ : BufTy).Contents (Elt F) → (⟨S1847685x16, .f32⟩ : BufTy).Contents (Elt F)) (st_main_v188 m c) (st_main_v190 m c)
def st_main_cst_45 (m : (ℓ : Loc nD τ sig) → Buf (Elt F) ℓ) (c : Dev nD) : Buf (Elt F) ((c.tc : Thread nD τ).loc main_cst_45) :=
  (constant S_ .f32 0x00000000#32)
def st_main_v192 (m : (ℓ : Loc nD τ sig) → Buf (Elt F) ℓ) (c : Dev nD) : Buf (Elt F) ((c.tc : Thread nD τ).loc main_v192) :=
  (broadcastInDim S50000x16 ![] bcast_S_S50000x16 : (⟨S_, .f32⟩ : BufTy).Contents (Elt F) → (⟨S50000x16, .f32⟩ : BufTy).Contents (Elt F)) (st_main_cst_45 m c)
def st_main_v193 (m : (ℓ : Loc nD τ sig) → Buf (Elt F) ℓ) (c : Dev nD) : Buf (Elt F) ((c.tc : Thread nD τ).loc main_v193) :=
  (broadcastInDim S1847685x1 ![0] bcast_S1847685_S1847685x1_0 : (⟨S1847685, .i32⟩ : BufTy).Contents (Elt F) → (⟨S1847685x1, .i32⟩ : BufTy).Contents (Elt F)) (st_main_v156 m c)
def st_main_v194 (m : (ℓ : Loc nD τ sig) → Buf (Elt F) ℓ) (c : Dev nD) : Buf (Elt F) ((c.tc : Thread nD τ).loc main_v194) :=
  ((fun x i u => Host.scatterAdd scatter_S50000x16_S1847685x1_S1847685x16_1_0_0_1 x i u) : (⟨S50000x16, .f32⟩ : BufTy).Contents (Elt F) → (⟨S1847685x1, .i32⟩ : BufTy).Contents (Elt F) → (⟨S1847685x16, .f32⟩ : BufTy).Contents (Elt F) → (⟨S50000x16, .f32⟩ : BufTy).Contents (Elt F)) (st_main_v192 m c) (st_main_v193 m c) (st_main_v191 m c)
def st_main_v195 (m : (ℓ : Loc nD τ sig) → Buf (Elt F) ℓ) (c : Dev nD) : Buf (Elt F) ((c.tc : Thread nD τ).loc main_v195) :=
  (broadcastInDim S1x16 ![1] bcast_S16_S1x16_1 : (⟨S16, .f32⟩ : BufTy).Contents (Elt F) → (⟨S1x16, .f32⟩ : BufTy).Contents (Elt F)) (m ((c.tc : Thread nD τ).loc main_arg6))
def st_main_v196 (m : (ℓ : Loc nD τ sig) → Buf (Elt F) ℓ) (c : Dev nD) : Buf (Elt F) ((c.tc : Thread nD τ).loc main_v196) :=
  (broadcastInDim S50000x16 ![0, 1] bcast_S1x16_S50000x16_0_1 : (⟨S1x16, .f32⟩ : BufTy).Contents (Elt F) → (⟨S50000x16, .f32⟩ : BufTy).Contents (Elt F)) (st_main_v195 m c)
def st_main_v197 (m : (ℓ : Loc nD τ sig) → Buf (Elt F) ℓ) (c : Dev nD) : Buf (Elt F) ((c.tc : Thread nD τ).loc main_v197) :=
  (addf : (⟨S50000x16, .f32⟩ : BufTy).Contents (Elt F) → (⟨S50000x16, .f32⟩ : BufTy).Contents (Elt F) → (⟨S50000x16, .f32⟩ : BufTy).Contents (Elt F)) (st_main_v194 m c) (st_main_v196 m c)
def st_main_v198 (m : (ℓ : Loc nD τ sig) → Buf (Elt F) ℓ) (c : Dev nD) : Buf (Elt F) ((c.tc : Thread nD τ).loc main_v198) :=
  ((fun a b => concatenate S50000x32 1 [⟨S50000x16, a⟩, ⟨S50000x16, b⟩] concatenates_S50000x16_S50000x16_S50000x32_d1) : (⟨S50000x16, .f32⟩ : BufTy).Contents (Elt F) → (⟨S50000x16, .f32⟩ : BufTy).Contents (Elt F) → (⟨S50000x32, .f32⟩ : BufTy).Contents (Elt F)) (st_main_v148 m c) (st_main_v197 m c)
def st_main_v199 (m : (ℓ : Loc nD τ sig) → Buf (Elt F) ℓ) (c : Dev nD) : Buf (Elt F) ((c.tc : Thread nD τ).loc main_v199) :=
  ((fun l r => Host.dotGeneral dot_S50000x32_S32x16_S50000x16_1_0_0_1_n_n none l r) : (⟨S50000x32, .f32⟩ : BufTy).Contents (Elt F) → (⟨S32x16, .f32⟩ : BufTy).Contents (Elt F) → (⟨S50000x16, .f32⟩ : BufTy).Contents (Elt F)) (st_main_v198 m c) (m ((c.tc : Thread nD τ).loc main_arg7))
def st_main_v200 (m : (ℓ : Loc nD τ sig) → Buf (Elt F) ℓ) (c : Dev nD) : Buf (Elt F) ((c.tc : Thread nD τ).loc main_v200) :=
  (broadcastInDim S1x16 ![1] bcast_S16_S1x16_1 : (⟨S16, .f32⟩ : BufTy).Contents (Elt F) → (⟨S1x16, .f32⟩ : BufTy).Contents (Elt F)) (m ((c.tc : Thread nD τ).loc main_arg8))
def st_main_v201 (m : (ℓ : Loc nD τ sig) → Buf (Elt F) ℓ) (c : Dev nD) : Buf (Elt F) ((c.tc : Thread nD τ).loc main_v201) :=
  (broadcastInDim S50000x16 ![0, 1] bcast_S1x16_S50000x16_0_1 : (⟨S1x16, .f32⟩ : BufTy).Contents (Elt F) → (⟨S50000x16, .f32⟩ : BufTy).Contents (Elt F)) (st_main_v200 m c)
def st_main_v202 (m : (ℓ : Loc nD τ sig) → Buf (Elt F) ℓ) (c : Dev nD) : Buf (Elt F) ((c.tc : Thread nD τ).loc main_v202) :=
  (addf : (⟨S50000x16, .f32⟩ : BufTy).Contents (Elt F) → (⟨S50000x16, .f32⟩ : BufTy).Contents (Elt F) → (⟨S50000x16, .f32⟩ : BufTy).Contents (Elt F)) (st_main_v199 m c) (st_main_v201 m c)
def st_main_call5_cst (m : (ℓ : Loc nD τ sig) → Buf (Elt F) ℓ) (c : Dev nD) : Buf (Elt F) ((c.tc : Thread nD τ).loc main_call5_cst) :=
  ((constant S_ .f32 0xFF800000#32) : (⟨S_, .f32⟩ : BufTy).Contents (Elt F))
def st_main_call5_v0 (m : (ℓ : Loc nD τ sig) → Buf (Elt F) ℓ) (c : Dev nD) : Buf (Elt F) ((c.tc : Thread nD τ).loc main_call5_v0) :=
  ((fun x v => Host.reduce FloatOps.maximumf x v reducesTo_S50000x16_S50000_d1 h_S_) : (⟨S50000x16, .f32⟩ : BufTy).Contents (Elt F) → (⟨S_, .f32⟩ : BufTy).Contents (Elt F) → (⟨S50000, .f32⟩ : BufTy).Contents (Elt F)) (st_main_v202 m c) (st_main_call5_cst m c)
def st_main_call5_cst_0 (m : (ℓ : Loc nD τ sig) → Buf (Elt F) ℓ) (c : Dev nD) : Buf (Elt F) ((c.tc : Thread nD τ).loc main_call5_cst_0) :=
  ((constant S_ .f32 0xFF800000#32) : (⟨S_, .f32⟩ : BufTy).Contents (Elt F))
def st_main_call5_v1 (m : (ℓ : Loc nD τ sig) → Buf (Elt F) ℓ) (c : Dev nD) : Buf (Elt F) ((c.tc : Thread nD τ).loc main_call5_v1) :=
  ((broadcastInDim S50000 ![] bcast_S_S50000) : (⟨S_, .f32⟩ : BufTy).Contents (Elt F) → (⟨S50000, .f32⟩ : BufTy).Contents (Elt F)) (st_main_call5_cst_0 m c)
def st_main_call5_v2 (m : (ℓ : Loc nD τ sig) → Buf (Elt F) ℓ) (c : Dev nD) : Buf (Elt F) ((c.tc : Thread nD τ).loc main_call5_v2) :=
  (maximumf : (⟨S50000, .f32⟩ : BufTy).Contents (Elt F) → (⟨S50000, .f32⟩ : BufTy).Contents (Elt F) → (⟨S50000, .f32⟩ : BufTy).Contents (Elt F)) (st_main_call5_v1 m c) (st_main_call5_v0 m c)
def st_main_call5_v3 (m : (ℓ : Loc nD τ sig) → Buf (Elt F) ℓ) (c : Dev nD) : Buf (Elt F) ((c.tc : Thread nD τ).loc main_call5_v3) :=
  ((broadcastInDim S50000x1 ![0] bcast_S50000_S50000x1_0) : (⟨S50000, .f32⟩ : BufTy).Contents (Elt F) → (⟨S50000x1, .f32⟩ : BufTy).Contents (Elt F)) (st_main_call5_v2 m c)
def st_main_call5_v4 (m : (ℓ : Loc nD τ sig) → Buf (Elt F) ℓ) (c : Dev nD) : Buf (Elt F) ((c.tc : Thread nD τ).loc main_call5_v4) :=
  ((broadcastInDim S50000x16 ![0, 1] bcast_S50000x1_S50000x16_0_1) : (⟨S50000x1, .f32⟩ : BufTy).Contents (Elt F) → (⟨S50000x16, .f32⟩ : BufTy).Contents (Elt F)) (st_main_call5_v3 m c)
def st_main_call5_v5 (m : (ℓ : Loc nD τ sig) → Buf (Elt F) ℓ) (c : Dev nD) : Buf (Elt F) ((c.tc : Thread nD τ).loc main_call5_v5) :=
  (subf : (⟨S50000x16, .f32⟩ : BufTy).Contents (Elt F) → (⟨S50000x16, .f32⟩ : BufTy).Contents (Elt F) → (⟨S50000x16, .f32⟩ : BufTy).Contents (Elt F)) (st_main_v202 m c) (st_main_call5_v4 m c)
def st_main_call5_v6 (m : (ℓ : Loc nD τ sig) → Buf (Elt F) ℓ) (c : Dev nD) : Buf (Elt F) ((c.tc : Thread nD τ).loc main_call5_v6) :=
  (Host.exp : (⟨S50000x16, .f32⟩ : BufTy).Contents (Elt F) → (⟨S50000x16, .f32⟩ : BufTy).Contents (Elt F)) (st_main_call5_v5 m c)
def st_main_call5_cst_1 (m : (ℓ : Loc nD τ sig) → Buf (Elt F) ℓ) (c : Dev nD) : Buf (Elt F) ((c.tc : Thread nD τ).loc main_call5_cst_1) :=
  ((constant S_ .f32 0x00000000#32) : (⟨S_, .f32⟩ : BufTy).Contents (Elt F))
def st_main_call5_v7 (m : (ℓ : Loc nD τ sig) → Buf (Elt F) ℓ) (c : Dev nD) : Buf (Elt F) ((c.tc : Thread nD τ).loc main_call5_v7) :=
  ((fun x v => Host.reduceAdd x v reducesTo_S50000x16_S50000_d1 h_S_) : (⟨S50000x16, .f32⟩ : BufTy).Contents (Elt F) → (⟨S_, .f32⟩ : BufTy).Contents (Elt F) → (⟨S50000, .f32⟩ : BufTy).Contents (Elt F)) (st_main_call5_v6 m c) (st_main_call5_cst_1 m c)
def st_main_call5_v8 (m : (ℓ : Loc nD τ sig) → Buf (Elt F) ℓ) (c : Dev nD) : Buf (Elt F) ((c.tc : Thread nD τ).loc main_call5_v8) :=
  ((broadcastInDim S50000x1 ![0] bcast_S50000_S50000x1_0) : (⟨S50000, .f32⟩ : BufTy).Contents (Elt F) → (⟨S50000x1, .f32⟩ : BufTy).Contents (Elt F)) (st_main_call5_v7 m c)
def st_main_call5_v9 (m : (ℓ : Loc nD τ sig) → Buf (Elt F) ℓ) (c : Dev nD) : Buf (Elt F) ((c.tc : Thread nD τ).loc main_call5_v9) :=
  (Host.log : (⟨S50000x1, .f32⟩ : BufTy).Contents (Elt F) → (⟨S50000x1, .f32⟩ : BufTy).Contents (Elt F)) (st_main_call5_v8 m c)
def st_main_call5_v10 (m : (ℓ : Loc nD τ sig) → Buf (Elt F) ℓ) (c : Dev nD) : Buf (Elt F) ((c.tc : Thread nD τ).loc main_call5_v10) :=
  ((broadcastInDim S50000x16 ![0, 1] bcast_S50000x1_S50000x16_0_1) : (⟨S50000x1, .f32⟩ : BufTy).Contents (Elt F) → (⟨S50000x16, .f32⟩ : BufTy).Contents (Elt F)) (st_main_call5_v9 m c)
def st_main_v203 (m : (ℓ : Loc nD τ sig) → Buf (Elt F) ℓ) (c : Dev nD) : Buf (Elt F) ((c.tc : Thread nD τ).loc main_v203) :=
  (subf : (⟨S50000x16, .f32⟩ : BufTy).Contents (Elt F) → (⟨S50000x16, .f32⟩ : BufTy).Contents (Elt F) → (⟨S50000x16, .f32⟩ : BufTy).Contents (Elt F)) (st_main_call5_v5 m c) (st_main_call5_v10 m c)

/-- What the buffers read after cut 0 (before operation 1), the arguments and the result hold at a valuation. -/
def Lv0 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)

/-- What the buffers read after cut 1 (before operation 5), the arguments and the result hold at a valuation. -/
def Lv1 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v0) = st_main_v0 m c
  ∧ W (Proc.devRef .tc main_v1) = st_main_v1 m c
  ∧ W (Proc.devRef .tc main_v3) = st_main_v3 m c

/-- What the buffers read after cut 2 (before operation 8), the arguments and the result hold at a valuation. -/
def Lv2 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v0) = st_main_v0 m c
  ∧ W (Proc.devRef .tc main_v1) = st_main_v1 m c
  ∧ W (Proc.devRef .tc main_v4) = st_main_v4 m c
  ∧ W (Proc.devRef .tc main_v6) = st_main_v6 m c

/-- What the buffers read after cut 3 (before operation 63), the arguments and the result hold at a valuation. -/
def Lv3 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v45) = st_main_v45 m c
  ∧ W (Proc.devRef .tc main_v47) = st_main_v47 m c

/-- What the buffers read after cut 4 (before operation 68), the arguments and the result hold at a valuation. -/
def Lv4 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v48) = st_main_v48 m c
  ∧ W (Proc.devRef .tc main_v49) = st_main_v49 m c
  ∧ W (Proc.devRef .tc main_v50) = st_main_v50 m c
  ∧ W (Proc.devRef .tc main_v52) = st_main_v52 m c

/-- What the buffers read after cut 5 (before operation 71), the arguments and the result hold at a valuation. -/
def Lv5 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v48) = st_main_v48 m c
  ∧ W (Proc.devRef .tc main_v49) = st_main_v49 m c
  ∧ W (Proc.devRef .tc main_v50) = st_main_v50 m c
  ∧ W (Proc.devRef .tc main_v53) = st_main_v53 m c
  ∧ W (Proc.devRef .tc main_v55) = st_main_v55 m c

/-- What the buffers read after cut 6 (before operation 125), the arguments and the result hold at a valuation. -/
def Lv6 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v48) = st_main_v48 m c
  ∧ W (Proc.devRef .tc main_v94) = st_main_v94 m c
  ∧ W (Proc.devRef .tc main_v95) = st_main_v95 m c

/-- What the buffers read after cut 7 (before operation 127), the arguments and the result hold at a valuation. -/
def Lv7 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v48) = st_main_v48 m c
  ∧ W (Proc.devRef .tc main_v97) = st_main_v97 m c

/-- What the buffers read after cut 8 (before operation 135), the arguments and the result hold at a valuation. -/
def Lv8 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v99) = st_main_v99 m c
  ∧ W (Proc.devRef .tc main_v100) = st_main_v100 m c
  ∧ W (Proc.devRef .tc main_v101) = st_main_v101 m c
  ∧ W (Proc.devRef .tc main_v103) = st_main_v103 m c

/-- What the buffers read after cut 9 (before operation 138), the arguments and the result hold at a valuation. -/
def Lv9 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v99) = st_main_v99 m c
  ∧ W (Proc.devRef .tc main_v100) = st_main_v100 m c
  ∧ W (Proc.devRef .tc main_v101) = st_main_v101 m c
  ∧ W (Proc.devRef .tc main_v104) = st_main_v104 m c
  ∧ W (Proc.devRef .tc main_v106) = st_main_v106 m c

/-- What the buffers read after cut 10 (before operation 189), the arguments and the result hold at a valuation. -/
def Lv10 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v99) = st_main_v99 m c
  ∧ W (Proc.devRef .tc main_v107) = st_main_v107 m c
  ∧ W (Proc.devRef .tc main_v142) = st_main_v142 m c
  ∧ W (Proc.devRef .tc main_v143) = st_main_v143 m c

/-- What the buffers read after cut 11 (before operation 198), the arguments and the result hold at a valuation. -/
def Lv11 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v148) = st_main_v148 m c
  ∧ W (Proc.devRef .tc main_v149) = st_main_v149 m c
  ∧ W (Proc.devRef .tc main_v150) = st_main_v150 m c
  ∧ W (Proc.devRef .tc main_v152) = st_main_v152 m c

/-- What the buffers read after cut 12 (before operation 201), the arguments and the result hold at a valuation. -/
def Lv12 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v148) = st_main_v148 m c
  ∧ W (Proc.devRef .tc main_v149) = st_main_v149 m c
  ∧ W (Proc.devRef .tc main_v150) = st_main_v150 m c
  ∧ W (Proc.devRef .tc main_v153) = st_main_v153 m c
  ∧ W (Proc.devRef .tc main_v155) = st_main_v155 m c

/-- What the buffers read after cut 13 (before operation 251), the arguments and the result hold at a valuation. -/
def Lv13 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v148) = st_main_v148 m c
  ∧ W (Proc.devRef .tc main_v156) = st_main_v156 m c
  ∧ W (Proc.devRef .tc main_v191) = st_main_v191 m c
  ∧ W (Proc.devRef .tc main_cst_45) = st_main_cst_45 m c

/-- What the buffers read after cut 14 (before operation 257), the arguments and the result hold at a valuation. -/
def Lv14 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v148) = st_main_v148 m c
  ∧ W (Proc.devRef .tc main_v197) = st_main_v197 m c

/-- What the buffers read after cut 15 (before operation 277), the arguments and the result hold at a valuation. -/
def Lv15 (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_v203) = st_main_v203 m c

end Cert.ReferenceIdeal.ValueH

end
-- ==== Proof.Ref.RunH.D0.lean ====
/- Chunk 0 of the reference's @main (operations 1 to 4): its list, the list's two facts, and its step from cut 0 to cut 1 at any valuation: each buffer read later holds its stage, by the operations' result equations, the facts of cut 0 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops0 : List (HloOp τ sig (Elt F)) :=
  [ binary main_arg0 main_arg3 main_v0 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)),
    nullary main_v1 (iotaInDim S50000 32 0),
    unary main_arg1 main_v2 ((extractStridedSlice S1x300000 ![0, 0] · slices_S2x300000_S1x300000_0_0) : (⟨S2x300000, .i32⟩ : BufTy).Contents (Elt F) → (⟨S1x300000, .i32⟩ : BufTy).Contents (Elt F)),
    reshape main_v2 main_v3 rfl shapeCasts_S1x300000_S300000 ]

set_option maxRecDepth 8192 in
theorem cops0_sub : (cops0 : List (HloOp τ sig (Elt F))).Forall fun op => op.bufs ⊆ tcRefs τ sig :=
  ⟨binary_bufs_sub .., nullary_bufs_sub .., unary_bufs_sub .., reshape_bufs_sub ..⟩

set_option maxRecDepth 8192 in
set_option maxHeartbeats 4000000 in
theorem cops0_fresh : ∀ op ∈ (cops0 : List (HloOp τ sig (Elt F))), op.fresh = ∅ := by
  intro _ h; (repeat (cases h with | head => rfl | tail _ h => ?_)); exact nomatch h

set_option maxRecDepth 8192 in
set_option maxHeartbeats 4000000 in
theorem cstep0_main_arg0 (m : (ℓ : Loc nD τ sig) → Buf (Elt F) ℓ) (c : Dev nD) (W : Valuation τ sig (Elt F)) (h : Lv0 m c W) :
    after cops0 W (Proc.devRef .tc main_arg0) = m ((c.tc : Thread nD τ).loc main_arg0) := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

set_option maxRecDepth 8192 in
set_option maxHeartbeats 4000000 in
theorem cstep0_main_arg1 (m : (ℓ : Loc nD τ sig) → Buf (Elt F) ℓ) (c : Dev nD) (W : Valuation τ sig (Elt F)) (h : Lv0 m c W) :
    after cops0 W (Proc.devRef .tc main_arg1) = m ((c.tc : Thread nD τ).loc main_arg1) := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

set_option maxRecDepth 8192 in
set_option maxHeartbeats 4000000 in
theorem cstep0_main_arg2 (m : (ℓ : Loc nD τ sig) → Buf (Elt F) ℓ) (c : Dev nD) (W : Valuation τ sig (Elt F)) (h : Lv0 m c W) :
    after cops0 W (Proc.devRef .tc main_arg2) = m ((c.tc : Thread nD τ).loc main_arg2) := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

set_option maxRecDepth 8192 in
set_option maxHeartbeats 4000000 in
theorem cstep0_main_arg3 (m : (ℓ : Loc nD τ sig) → Buf (Elt F) ℓ) (c : Dev nD) (W : Valuation τ sig (Elt F)) (h : Lv0 m c W) :
    after cops0 W (Proc.devRef .tc main_arg3) = m ((c.tc : Thread nD τ).loc main_arg3) := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

set_option maxRecDepth 8192 in
set_option maxHeartbeats 4000000 in
theorem cstep0_main_arg4 (m : (ℓ : Loc nD τ sig) → Buf (Elt F) ℓ) (c : Dev nD) (W : Valuation τ sig (Elt F)) (h : Lv0 m c W) :
    after cops0 W (Proc.devRef .tc main_arg4) = m ((c.tc : Thread nD τ).loc main_arg4) := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

set_option maxRecDepth 8192 in
set_option maxHeartbeats 4000000 in
theorem cstep0_main_arg5 (m : (ℓ : Loc nD τ sig) → Buf (Elt F) ℓ) (c : Dev nD) (W : Valuation τ sig (Elt F)) (h : Lv0 m c W) :
    after cops0 W (Proc.devRef .tc main_arg5) = m ((c.tc : Thread nD τ).loc main_arg5) := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

set_option maxRecDepth 8192 in
set_option maxHeartbeats 4000000 in
theorem cstep0_main_arg6 (m : (ℓ : Loc nD τ sig) → Buf (Elt F) ℓ) (c : Dev nD) (W : Valuation τ sig (Elt F)) (h : Lv0 m c W) :
    after cops0 W (Proc.devRef .tc main_arg6) = m ((c.tc : Thread nD τ).loc main_arg6) := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

set_option maxRecDepth 8192 in
set_option maxHeartbeats 4000000 in
theorem cstep0_main_arg7 (m : (ℓ : Loc nD τ sig) → Buf (Elt F) ℓ) (c : Dev nD) (W : Valuation τ sig (Elt F)) (h : Lv0 m c W) :
    after cops0 W (Proc.devRef .tc main_arg7) = m ((c.tc : Thread nD τ).loc main_arg7) := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

set_option maxRecDepth 8192 in
set_option maxHeartbeats 4000000 in
theorem cstep0_main_arg8 (m : (ℓ : Loc nD τ sig) → Buf (Elt F) ℓ) (c : Dev nD) (W : Valuation τ sig (Elt F)) (h : Lv0 m c W) :
    after cops0 W (Proc.devRef .tc main_arg8) = m ((c.tc : Thread nD τ).loc main_arg8) := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

set_option maxRecDepth 8192 in
set_option maxHeartbeats 4000000 in
theorem cstep0_main_v0 (m : (ℓ : Loc nD τ sig) → Buf (Elt F) ℓ) (c : Dev nD) (W : Valuation τ sig (Elt F)) (h : Lv0 m c W) :
    after cops0 W (Proc.devRef .tc main_v0) = st_main_v0 m c := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

set_option maxRecDepth 8192 in
set_option maxHeartbeats 4000000 in
theorem cstep0_main_v1 (m : (ℓ : Loc nD τ sig) → Buf (Elt F) ℓ) (c : Dev nD) (W : Valuation τ sig (Elt F)) (h : Lv0 m c W) :
    after cops0 W (Proc.devRef .tc main_v1) = st_main_v1 m c := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

set_option maxRecDepth 8192 in
set_option maxHeartbeats 4000000 in
theorem cstep0_main_v3 (m : (ℓ : Loc nD τ sig) → Buf (Elt F) ℓ) (c : Dev nD) (W : Valuation τ sig (Elt F)) (h : Lv0 m c W) :
    after cops0 W (Proc.devRef .tc main_v3) = st_main_v3 m c := by
  obtain ⟨h0, h1, h2, h3, h4, h5, h6, h7, h8⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]))
  all_goals rfl

theorem cstep0 (m : (ℓ : Loc nD τ sig) → Buf (Elt F) ℓ) (c : Dev nD) (W : Valuation τ sig (Elt F)) (h : Lv0 m c W) : Lv1 m c (after cops0 W) :=
  ⟨cstep0_main_arg0 m c W h, cstep0_main_arg1 m c W h, cstep0_main_arg2 m c W h, cstep0_main_arg3 m c W h, cstep0_main_arg4 m c W h, cstep0_main_arg5 m c W h, cstep0_main_arg6 m c W h, cstep0_main_arg7 m c W h, cstep0_main_arg8 m c W h, cstep0_main_v0 m c W h, cstep0_main_v1 m c W h, cstep0_main_v3 m c W h⟩

end Cert.ReferenceIdeal.ValueH

end
-- ==== Proof.Ref.RunH.D1.lean ====
/- Chunk 1 of the reference's @main (operations 5 to 7): its list, the list's two facts, and its step from cut 1 to cut 2 at any valuation: each buffer read later holds its stage, by the operations' result equations, the facts of cut 1 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops1 : List (HloOp τ sig (Elt F)) :=
  [ binary main_v3 main_v1 main_v4 ((fun a b => concatenate S350000 0 [⟨S300000, a⟩, ⟨S50000, b⟩] concatenates_S300000_S50000_S350000_d0) : (⟨S300000, .i32⟩ : BufTy).Contents (Elt F) → (⟨S50000, .i32⟩ : BufTy).Contents (Elt F) → (⟨S350000, .i32⟩ : BufTy).Contents (Elt F)),
    unary main_arg1 main_v5 ((extractStridedSlice S1x300000 ![1, 0] · slices_S2x300000_S1x300000_1_0) : (⟨S2x300000, .i32⟩ : BufTy).Contents (Elt F) → (⟨S1x300000, .i32⟩ : BufTy).Contents (Elt F)),
    reshape main_v5 main_v6 rfl shapeCasts_S1x300000_S300000 ]

set_option maxRecDepth 8192 in
theorem cops1_sub : (cops1 : List (HloOp τ sig (Elt F))).Forall fun op => op.bufs ⊆ tcRefs τ sig :=
  ⟨binary_bufs_sub .., unary_bufs_sub .., reshape_bufs_sub ..⟩

set_option maxRecDepth 8192 in
set_option maxHeartbeats 4000000 in
theorem cops1_fresh : ∀ op ∈ (cops1 : List (HloOp τ sig (Elt F))), op.fresh = ∅ := by
  intro _ h; (repeat (cases h with | head => rfl | tail _ h => ?_)); exact nomatch h

set_option maxRecDepth 8192 in
set_option maxHeartbeats 4000000 in
theorem cstep1_main_arg0 (m : (ℓ : Loc nD τ sig) → Buf (Elt F) ℓ) (c : Dev nD) (W : Valuation τ sig (Elt F)) (h : Lv1 m c W) :
    after cops1 W (Proc.devRef .tc main_arg0) = m ((c.tc : Thread nD τ).loc main_arg0) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_arg1 (m : (ℓ : Loc nD τ sig) → Buf (Elt F) ℓ) (c : Dev nD) (W : Valuation τ sig (Elt F)) (h : Lv1 m c W) :
    after cops1 W (Proc.devRef .tc main_arg1) = m ((c.tc : Thread nD τ).loc main_arg1) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_arg2 (m : (ℓ : Loc nD τ sig) → Buf (Elt F) ℓ) (c : Dev nD) (W : Valuation τ sig (Elt F)) (h : Lv1 m c W) :
    after cops1 W (Proc.devRef .tc main_arg2) = m ((c.tc : Thread nD τ).loc main_arg2) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_arg3 (m : (ℓ : Loc nD τ sig) → Buf (Elt F) ℓ) (c : Dev nD) (W : Valuation τ sig (Elt F)) (h : Lv1 m c W) :
    after cops1 W (Proc.devRef .tc main_arg3) = m ((c.tc : Thread nD τ).loc main_arg3) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_arg4 (m : (ℓ : Loc nD τ sig) → Buf (Elt F) ℓ) (c : Dev nD) (W : Valuation τ sig (Elt F)) (h : Lv1 m c W) :
    after cops1 W (Proc.devRef .tc main_arg4) = m ((c.tc : Thread nD τ).loc main_arg4) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_arg5 (m : (ℓ : Loc nD τ sig) → Buf (Elt F) ℓ) (c : Dev nD) (W : Valuation τ sig (Elt F)) (h : Lv1 m c W) :
    after cops1 W (Proc.devRef .tc main_arg5) = m ((c.tc : Thread nD τ).loc main_arg5) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_arg6 (m : (ℓ : Loc nD τ sig) → Buf (Elt F) ℓ) (c : Dev nD) (W : Valuation τ sig (Elt F)) (h : Lv1 m c W) :
    after cops1 W (Proc.devRef .tc main_arg6) = m ((c.tc : Thread nD τ).loc main_arg6) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_arg7 (m : (ℓ : Loc nD τ sig) → Buf (Elt F) ℓ) (c : Dev nD) (W : Valuation τ sig (Elt F)) (h : Lv1 m c W) :
    after cops1 W (Proc.devRef .tc main_arg7) = m ((c.tc : Thread nD τ).loc main_arg7) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_arg8 (m : (ℓ : Loc nD τ sig) → Buf (Elt F) ℓ) (c : Dev nD) (W : Valuation τ sig (Elt F)) (h : Lv1 m c W) :
    after cops1 W (Proc.devRef .tc main_arg8) = m ((c.tc : Thread nD τ).loc main_arg8) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_v0 (m : (ℓ : Loc nD τ sig) → Buf (Elt F) ℓ) (c : Dev nD) (W : Valuation τ sig (Elt F)) (h : Lv1 m c W) :
    after cops1 W (Proc.devRef .tc main_v0) = st_main_v0 m c := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_v1 (m : (ℓ : Loc nD τ sig) → Buf (Elt F) ℓ) (c : Dev nD) (W : Valuation τ sig (Elt F)) (h : Lv1 m c W) :
    after cops1 W (Proc.devRef .tc main_v1) = st_main_v1 m c := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_v4 (m : (ℓ : Loc nD τ sig) → Buf (Elt F) ℓ) (c : Dev nD) (W : Valuation τ sig (Elt F)) (h : Lv1 m c W) :
    after cops1 W (Proc.devRef .tc main_v4) = st_main_v4 m c := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep1_main_v6 (m : (ℓ : Loc nD τ sig) → Buf (Elt F) ℓ) (c : Dev nD) (W : Valuation τ sig (Elt F)) (h : Lv1 m c W) :
    after cops1 W (Proc.devRef .tc main_v6) = st_main_v6 m c := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

theorem cstep1 (m : (ℓ : Loc nD τ sig) → Buf (Elt F) ℓ) (c : Dev nD) (W : Valuation τ sig (Elt F)) (h : Lv1 m c W) : Lv2 m c (after cops1 W) :=
  ⟨cstep1_main_arg0 m c W h, cstep1_main_arg1 m c W h, cstep1_main_arg2 m c W h, cstep1_main_arg3 m c W h, cstep1_main_arg4 m c W h, cstep1_main_arg5 m c W h, cstep1_main_arg6 m c W h, cstep1_main_arg7 m c W h, cstep1_main_arg8 m c W h, cstep1_main_v0 m c W h, cstep1_main_v1 m c W h, cstep1_main_v4 m c W h, cstep1_main_v6 m c W h⟩

end Cert.ReferenceIdeal.ValueH

end
-- ==== Proof.Ref.RunH.D2.lean ====
/- Chunk 2 of the reference's @main (operations 8 to 62): its list, the list's two facts, and its step from cut 2 to cut 3 at any valuation: each buffer read later holds its stage, by the operations' result equations, the facts of cut 2 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops2 : List (HloOp τ sig (Elt F)) :=
  [ binary main_v6 main_v1 main_v7 ((fun a b => concatenate S350000 0 [⟨S300000, a⟩, ⟨S50000, b⟩] concatenates_S300000_S50000_S350000_d0) : (⟨S300000, .i32⟩ : BufTy).Contents (Elt F) → (⟨S50000, .i32⟩ : BufTy).Contents (Elt F) → (⟨S350000, .i32⟩ : BufTy).Contents (Elt F)),
    nullary main_cst (constant S_ .f32 0x3F800000#32),
    unary main_cst main_v8 (broadcastInDim S350000 ![] bcast_S_S350000 : (⟨S_, .f32⟩ : BufTy).Contents (Elt F) → (⟨S350000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S350000x1 ![0] bcast_S350000_S350000x1_0 : (⟨S350000, .i32⟩ : BufTy).Contents (Elt F) → (⟨S350000x1, .i32⟩ : BufTy).Contents (Elt F)),
    ternary main_v9 main_v10 main_v8 main_v11 ((fun x i u => Host.scatterAdd scatter_S50000_S350000x1_S350000_n_0_0_1 x i u) : (⟨S50000, .f32⟩ : BufTy).Contents (Elt F) → (⟨S350000x1, .i32⟩ : BufTy).Contents (Elt F) → (⟨S350000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v16) (TRef.of (T := ⟨S50000, .f32⟩) main_call0_v1) (TRef.of (T := ⟨S50000, .f32⟩) main_v17) select,
    nullary main_c (constantI S_ 32 0#32),
    unary main_c main_v18 (broadcastInDim S350000 ![] bcast_S_S350000 : (⟨S_, .i32⟩ : BufTy).Contents (Elt F) → (⟨S350000, .i32⟩ : BufTy).Contents (Elt F)),
    binary main_v4 main_v18 main_v19 (cmpi .slt : (⟨S350000, .i32⟩ : BufTy).Contents (Elt F) → (⟨S350000, .i32⟩ : BufTy).Contents (Elt F) → (⟨S350000, .i1⟩ : BufTy).Contents (Elt F)),
    nullary main_c_4 (constantI S_ 32 50000#32),
    unary main_c_4 main_v20 (broadcastInDim S350000 ![] bcast_S_S350000 : (⟨S_, .i32⟩ : BufTy).Contents (Elt F) → (⟨S350000, .i32⟩ : BufTy).Contents (Elt F)),
    binary main_v4 main_v20 main_v21 (addi : (⟨S350000, .i32⟩ : BufTy).Contents (Elt F) → (⟨S350000, .i32⟩ : BufTy).Contents (Elt F) → (⟨S350000, .i32⟩ : BufTy).Contents (Elt F)),
    ternary main_v19 main_v21 main_v4 main_v22 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    unary main_v22 main_v23 (broadcastInDim S350000x1 ![0] bcast_S350000_S350000x1_0 : (⟨S350000, .i32⟩ : BufTy).Contents (Elt F) → (⟨S350000x1, .i32⟩ : BufTy).Contents (Elt F)),
    binary main_v17 main_v23 main_v24 ((fun x i => Host.gather gather_S50000_S350000x1_S350000_n_0_n_n_0_1_1 x i) : (⟨S50000, .f32⟩ : BufTy).Contents (Elt F) → (⟨S350000x1, .i32⟩ : BufTy).Contents (Elt F) → (⟨S350000, .f32⟩ : BufTy).Contents (Elt F)),
    nullary main_c_5 (constantI S_ 32 0#32),
    unary main_c_5 main_v25 (broadcastInDim S350000 ![] bcast_S_S350000 : (⟨S_, .i32⟩ : BufTy).Contents (Elt F) → (⟨S350000, .i32⟩ : BufTy).Contents (Elt F)),
    binary main_v7 main_v25 main_v26 (cmpi .slt : (⟨S350000, .i32⟩ : BufTy).Contents (Elt F) → (⟨S350000, .i32⟩ : BufTy).Contents (Elt F) → (⟨S350000, .i1⟩ : BufTy).Contents (Elt F)),
    nullary main_c_6 (constantI S_ 32 50000#32),
    unary main_c_6 main_v27 (broadcastInDim S350000 ![] bcast_S_S350000 : (⟨S_, .i32⟩ : BufTy).Contents (Elt F) → (⟨S350000, .i32⟩ : BufTy).Contents (Elt F)),
    binary main_v7 main_v27 main_v28 (addi : (⟨S350000, .i32⟩ : BufTy).Contents (Elt F) → (⟨S350000, .i32⟩ : BufTy).Contents (Elt F) → (⟨S350000, .i32⟩ : BufTy).Contents (Elt F)),
    ternary main_v26 main_v28 main_v7 main_v29 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    unary main_v29 main_v30 (broadcastInDim S350000x1 ![0] bcast_S350000_S350000x1_0 : (⟨S350000, .i32⟩ : BufTy).Contents (Elt F) → (⟨S350000x1, .i32⟩ : BufTy).Contents (Elt F)),
    binary main_v17 main_v30 main_v31 ((fun x i => Host.gather gather_S50000_S350000x1_S350000_n_0_n_n_0_1_1 x i) : (⟨S50000, .f32⟩ : BufTy).Contents (Elt F) → (⟨S350000x1, .i32⟩ : BufTy).Contents (Elt F) → (⟨S350000, .f32⟩ : BufTy).Contents (Elt F)),
    binary main_v24 main_v31 main_v32 (mulf : (⟨S350000, .f32⟩ : BufTy).Contents (Elt F) → (⟨S350000, .f32⟩ : BufTy).Contents (Elt F) → (⟨S350000, .f32⟩ : BufTy).Contents (Elt F)),
    nullary main_c_7 (constantI S_ 32 0#32),
    unary main_c_7 main_v33 (broadcastInDim S350000 ![] bcast_S_S350000 : (⟨S_, .i32⟩ : BufTy).Contents (Elt F) → (⟨S350000, .i32⟩ : BufTy).Contents (Elt F)),
    binary main_v4 main_v33 main_v34 (cmpi .slt : (⟨S350000, .i32⟩ : BufTy).Contents (Elt F) → (⟨S350000, .i32⟩ : BufTy).Contents (Elt F) → (⟨S350000, .i1⟩ : BufTy).Contents (Elt F)),
    nullary main_c_8 (constantI S_ 32 50000#32),
    unary main_c_8 main_v35 (broadcastInDim S350000 ![] bcast_S_S350000 : (⟨S_, .i32⟩ : BufTy).Contents (Elt F) → (⟨S350000, .i32⟩ : BufTy).Contents (Elt F)),
    binary main_v4 main_v35 main_v36 (addi : (⟨S350000, .i32⟩ : BufTy).Contents (Elt F) → (⟨S350000, .i32⟩ : BufTy).Contents (Elt F) → (⟨S350000, .i32⟩ : BufTy).Contents (Elt F)),
    ternary main_v34 main_v36 main_v4 main_v37 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    unary main_v37 main_v38 (broadcastInDim S350000x1 ![0] bcast_S350000_S350000x1_0 : (⟨S350000, .i32⟩ : BufTy).Contents (Elt F) → (⟨S350000x1, .i32⟩ : BufTy).Contents (Elt F)),
    binary main_v0 main_v38 main_v39 ((fun x i => Host.gather gather_S50000x64_S350000x1_S350000x64_1_0_n_n_0_1_164 x i) : (⟨S50000x64, .f32⟩ : BufTy).Contents (Elt F) → (⟨S350000x1, .i32⟩ : BufTy).Contents (Elt F) → (⟨S350000x64, .f32⟩ : BufTy).Contents (Elt F)),
    unary main_v32 main_v40 (broadcastInDim S350000x1 ![0] bcast_S350000_S350000x1_0 : (⟨S350000, .f32⟩ : BufTy).Contents (Elt F) → (⟨S350000x1, .f32⟩ : BufTy).Contents (Elt F)),
    unary main_v40 main_v41 (broadcastInDim S350000x64 ![0, 1] bcast_S350000x1_S350000x64_0_1 : (⟨S350000x1, .f32⟩ : BufTy).Contents (Elt F) → (⟨S350000x64, .f32⟩ : BufTy).Contents (Elt F)),
    binary main_v39 main_v41 main_v42 (mulf : (⟨S350000x64, .f32⟩ : BufTy).Contents (Elt F) → (⟨S350000x64, .f32⟩ : BufTy).Contents (Elt F) → (⟨S350000x64, .f32⟩ : BufTy).Contents (Elt F)),
    nullary main_cst_9 (constant S_ .f32 0x00000000#32),
    unary main_cst_9 main_v43 (broadcastInDim S50000x64 ![] bcast_S_S50000x64 : (⟨S_, .f32⟩ : BufTy).Contents (Elt F) → (⟨S50000x64, .f32⟩ : BufTy).Contents (Elt F)),
    unary main_v7 main_v44 (broadcastInDim S350000x1 ![0] bcast_S350000_S350000x1_0 : (⟨S350000, .i32⟩ : BufTy).Contents (Elt F) → (⟨S350000x1, .i32⟩ : BufTy).Contents (Elt F)),
    ternary main_v43 main_v44 main_v42 main_v45 ((fun x i u => Host.scatterAdd scatter_S50000x64_S350000x1_S350000x64_1_0_0_1 x i u) : (⟨S50000x64, .f32⟩ : BufTy).Contents (Elt F) → (⟨S350000x1, .i32⟩ : BufTy).Contents (Elt F) → (⟨S350000x64, .f32⟩ : BufTy).Contents (Elt F) → (⟨S50000x64, .f32⟩ : BufTy).Contents (Elt F)),
    unary main_arg4 main_v46 (broadcastInDim S1x64 ![1] bcast_S64_S1x64_1 : (⟨S64, .f32⟩ : BufTy).Contents (Elt F) → (⟨S1x64, .f32⟩ : BufTy).Contents (Elt F)),
    unary main_v46 main_v47 (broadcastInDim S50000x64 ![0, 1] bcast_S1x64_S50000x64_0_1 : (⟨S1x64, .f32⟩ : BufTy).Contents (Elt F) → (⟨S50000x64, .f32⟩ : BufTy).Contents (Elt F)) ]

set_option maxRecDepth 8192 in
theorem cops2_sub : (cops2 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub ..⟩

set_option maxRecDepth 8192 in
set_option maxHeartbeats 4000000 in
theorem cops2_fresh : ∀ op ∈ (cops2 : List (HloOp τ sig (Elt F))), op.fresh = ∅ := by
  intro _ h; (repeat (cases h with | head => rfl | tail _ h => ?_)); exact nomatch h

set_option maxRecDepth 8192 in
set_option maxHeartbeats 4000000 in
theorem cstep2_main_arg0 (m : (ℓ : Loc nD τ sig) → Buf (Elt F) ℓ) (c : Dev nD) (W : Valuation τ sig (Elt F)) (h : Lv2 m c W) :
    after cops2 W (Proc.devRef .tc main_arg0) = m ((c.tc : Thread nD τ).loc main_arg0) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep2_main_arg1 (m : (ℓ : Loc nD τ sig) → Buf (Elt F) ℓ) (c : Dev nD) (W : Valuation τ sig (Elt F)) (h : Lv2 m c W) :
    after cops2 W (Proc.devRef .tc main_arg1) = m ((c.tc : Thread nD τ).loc main_arg1) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep2_main_arg2 (m : (ℓ : Loc nD τ sig) → Buf (Elt F) ℓ) (c : Dev nD) (W : Valuation τ sig (Elt F)) (h : Lv2 m c W) :
    after cops2 W (Proc.devRef .tc main_arg2) = m ((c.tc : Thread nD τ).loc main_arg2) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep2_main_arg3 (m : (ℓ : Loc nD τ sig) → Buf (Elt F) ℓ) (c : Dev nD) (W : Valuation τ sig (Elt F)) (h : Lv2 m c W) :
    after cops2 W (Proc.devRef .tc main_arg3) = m ((c.tc : Thread nD τ).loc main_arg3) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep2_main_arg4 (m : (ℓ : Loc nD τ sig) → Buf (Elt F) ℓ) (c : Dev nD) (W : Valuation τ sig (Elt F)) (h : Lv2 m c W) :
    after cops2 W (Proc.devRef .tc main_arg4) = m ((c.tc : Thread nD τ).loc main_arg4) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep2_main_arg5 (m : (ℓ : Loc nD τ sig) → Buf (Elt F) ℓ) (c : Dev nD) (W : Valuation τ sig (Elt F)) (h : Lv2 m c W) :
    after cops2 W (Proc.devRef .tc main_arg5) = m ((c.tc : Thread nD τ).loc main_arg5) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep2_main_arg6 (m : (ℓ : Loc nD τ sig) → Buf (Elt F) ℓ) (c : Dev nD) (W : Valuation τ sig (Elt F)) (h : Lv2 m c W) :
    after cops2 W (Proc.devRef .tc main_arg6) = m ((c.tc : Thread nD τ).loc main_arg6) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep2_main_arg7 (m : (ℓ : Loc nD τ sig) → Buf (Elt F) ℓ) (c : Dev nD) (W : Valuation τ sig (Elt F)) (h : Lv2 m c W) :
    after cops2 W (Proc.devRef .tc main_arg7) = m ((c.tc : Thread nD τ).loc main_arg7) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep2_main_arg8 (m : (ℓ : Loc nD τ sig) → Buf (Elt F) ℓ) (c : Dev nD) (W : Valuation τ sig (Elt F)) (h : Lv2 m c W) :
    after cops2 W (Proc.devRef .tc main_arg8) = m ((c.tc : Thread nD τ).loc main_arg8) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep2_main_v45 (m : (ℓ : Loc nD τ sig) → Buf (Elt F) ℓ) (c : Dev nD) (W : Valuation τ sig (Elt F)) (h : Lv2 m c W) :
    after cops2 W (Proc.devRef .tc main_v45) = st_main_v45 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep2_main_v47 (m : (ℓ : Loc nD τ sig) → Buf (Elt F) ℓ) (c : Dev nD) (W : Valuation τ sig (Elt F)) (h : Lv2 m c W) :
    after cops2 W (Proc.devRef .tc main_v47) = st_main_v47 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

theorem cstep2 (m : (ℓ : Loc nD τ sig) → Buf (Elt F) ℓ) (c : Dev nD) (W : Valuation τ sig (Elt F)) (h : Lv2 m c W) : Lv3 m c (after cops2 W) :=
  ⟨cstep2_main_arg0 m c W h, cstep2_main_arg1 m c W h, cstep2_main_arg2 m c W h, cstep2_main_arg3 m c W h, cstep2_main_arg4 m c W h, cstep2_main_arg5 m c W h, cstep2_main_arg6 m c W h, cstep2_main_arg7 m c W h, cstep2_main_arg8 m c W h, cstep2_main_v45 m c W h, cstep2_main_v47 m c W h⟩

end Cert.ReferenceIdeal.ValueH

end
-- ==== Proof.Ref.RunH.D3.lean ====
/- Chunk 3 of the reference's @main (operations 63 to 67): its list, the list's two facts, and its step from cut 3 to cut 4 at any valuation: each buffer read later holds its stage, by the operations' result equations, the facts of cut 3 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops3 : List (HloOp τ sig (Elt F)) :=
  [ binary main_v45 main_v47 main_v48 (addf : (⟨S50000x64, .f32⟩ : BufTy).Contents (Elt F) → (⟨S50000x64, .f32⟩ : BufTy).Contents (Elt F) → (⟨S50000x64, .f32⟩ : BufTy).Contents (Elt F)),
    binary main_arg0 main_arg3 main_v49 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)),
    nullary main_v50 (iotaInDim S50000 32 0),
    unary main_arg2 main_v51 ((extractStridedSlice S1x1797685 ![0, 0] · slices_S2x1797685_S1x1797685_0_0) : (⟨S2x1797685, .i32⟩ : BufTy).Contents (Elt F) → (⟨S1x1797685, .i32⟩ : BufTy).Contents (Elt F)),
    reshape main_v51 main_v52 rfl shapeCasts_S1x1797685_S1797685 ]

set_option maxRecDepth 8192 in
theorem cops3_sub : (cops3 : List (HloOp τ sig (Elt F))).Forall fun op => op.bufs ⊆ tcRefs τ sig :=
  ⟨binary_bufs_sub .., binary_bufs_sub .., nullary_bufs_sub .., unary_bufs_sub .., reshape_bufs_sub ..⟩

set_option maxRecDepth 8192 in
set_option maxHeartbeats 4000000 in
theorem cops3_fresh : ∀ op ∈ (cops3 : List (HloOp τ sig (Elt F))), op.fresh = ∅ := by
  intro _ h; (repeat (cases h with | head => rfl | tail _ h => ?_)); exact nomatch h

set_option maxRecDepth 8192 in
set_option maxHeartbeats 4000000 in
theorem cstep3_main_arg0 (m : (ℓ : Loc nD τ sig) → Buf (Elt F) ℓ) (c : Dev nD) (W : Valuation τ sig (Elt F)) (h : Lv3 m c W) :
    after cops3 W (Proc.devRef .tc main_arg0) = m ((c.tc : Thread nD τ).loc main_arg0) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_arg1 (m : (ℓ : Loc nD τ sig) → Buf (Elt F) ℓ) (c : Dev nD) (W : Valuation τ sig (Elt F)) (h : Lv3 m c W) :
    after cops3 W (Proc.devRef .tc main_arg1) = m ((c.tc : Thread nD τ).loc main_arg1) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_arg2 (m : (ℓ : Loc nD τ sig) → Buf (Elt F) ℓ) (c : Dev nD) (W : Valuation τ sig (Elt F)) (h : Lv3 m c W) :
    after cops3 W (Proc.devRef .tc main_arg2) = m ((c.tc : Thread nD τ).loc main_arg2) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_arg3 (m : (ℓ : Loc nD τ sig) → Buf (Elt F) ℓ) (c : Dev nD) (W : Valuation τ sig (Elt F)) (h : Lv3 m c W) :
    after cops3 W (Proc.devRef .tc main_arg3) = m ((c.tc : Thread nD τ).loc main_arg3) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_arg4 (m : (ℓ : Loc nD τ sig) → Buf (Elt F) ℓ) (c : Dev nD) (W : Valuation τ sig (Elt F)) (h : Lv3 m c W) :
    after cops3 W (Proc.devRef .tc main_arg4) = m ((c.tc : Thread nD τ).loc main_arg4) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_arg5 (m : (ℓ : Loc nD τ sig) → Buf (Elt F) ℓ) (c : Dev nD) (W : Valuation τ sig (Elt F)) (h : Lv3 m c W) :
    after cops3 W (Proc.devRef .tc main_arg5) = m ((c.tc : Thread nD τ).loc main_arg5) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_arg6 (m : (ℓ : Loc nD τ sig) → Buf (Elt F) ℓ) (c : Dev nD) (W : Valuation τ sig (Elt F)) (h : Lv3 m c W) :
    after cops3 W (Proc.devRef .tc main_arg6) = m ((c.tc : Thread nD τ).loc main_arg6) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_arg7 (m : (ℓ : Loc nD τ sig) → Buf (Elt F) ℓ) (c : Dev nD) (W : Valuation τ sig (Elt F)) (h : Lv3 m c W) :
    after cops3 W (Proc.devRef .tc main_arg7) = m ((c.tc : Thread nD τ).loc main_arg7) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_arg8 (m : (ℓ : Loc nD τ sig) → Buf (Elt F) ℓ) (c : Dev nD) (W : Valuation τ sig (Elt F)) (h : Lv3 m c W) :
    after cops3 W (Proc.devRef .tc main_arg8) = m ((c.tc : Thread nD τ).loc main_arg8) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_v48 (m : (ℓ : Loc nD τ sig) → Buf (Elt F) ℓ) (c : Dev nD) (W : Valuation τ sig (Elt F)) (h : Lv3 m c W) :
    after cops3 W (Proc.devRef .tc main_v48) = st_main_v48 m c := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_v49 (m : (ℓ : Loc nD τ sig) → Buf (Elt F) ℓ) (c : Dev nD) (W : Valuation τ sig (Elt F)) (h : Lv3 m c W) :
    after cops3 W (Proc.devRef .tc main_v49) = st_main_v49 m c := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_v50 (m : (ℓ : Loc nD τ sig) → Buf (Elt F) ℓ) (c : Dev nD) (W : Valuation τ sig (Elt F)) (h : Lv3 m c W) :
    after cops3 W (Proc.devRef .tc main_v50) = st_main_v50 m c := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep3_main_v52 (m : (ℓ : Loc nD τ sig) → Buf (Elt F) ℓ) (c : Dev nD) (W : Valuation τ sig (Elt F)) (h : Lv3 m c W) :
    after cops3 W (Proc.devRef .tc main_v52) = st_main_v52 m c := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

theorem cstep3 (m : (ℓ : Loc nD τ sig) → Buf (Elt F) ℓ) (c : Dev nD) (W : Valuation τ sig (Elt F)) (h : Lv3 m c W) : Lv4 m c (after cops3 W) :=
  ⟨cstep3_main_arg0 m c W h, cstep3_main_arg1 m c W h, cstep3_main_arg2 m c W h, cstep3_main_arg3 m c W h, cstep3_main_arg4 m c W h, cstep3_main_arg5 m c W h, cstep3_main_arg6 m c W h, cstep3_main_arg7 m c W h, cstep3_main_arg8 m c W h, cstep3_main_v48 m c W h, cstep3_main_v49 m c W h, cstep3_main_v50 m c W h, cstep3_main_v52 m c W h⟩

end Cert.ReferenceIdeal.ValueH

end
-- ==== Proof.Ref.RunH.D4.lean ====
/- Chunk 4 of the reference's @main (operations 68 to 70): its list, the list's two facts, and its step from cut 4 to cut 5 at any valuation: each buffer read later holds its stage, by the operations' result equations, the facts of cut 4 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops4 : List (HloOp τ sig (Elt F)) :=
  [ binary main_v52 main_v50 main_v53 ((fun a b => concatenate S1847685 0 [⟨S1797685, a⟩, ⟨S50000, b⟩] concatenates_S1797685_S50000_S1847685_d0) : (⟨S1797685, .i32⟩ : BufTy).Contents (Elt F) → (⟨S50000, .i32⟩ : BufTy).Contents (Elt F) → (⟨S1847685, .i32⟩ : BufTy).Contents (Elt F)),
    unary main_arg2 main_v54 ((extractStridedSlice S1x1797685 ![1, 0] · slices_S2x1797685_S1x1797685_1_0) : (⟨S2x1797685, .i32⟩ : BufTy).Contents (Elt F) → (⟨S1x1797685, .i32⟩ : BufTy).Contents (Elt F)),
    reshape main_v54 main_v55 rfl shapeCasts_S1x1797685_S1797685 ]

set_option maxRecDepth 8192 in
theorem cops4_sub : (cops4 : List (HloOp τ sig (Elt F))).Forall fun op => op.bufs ⊆ tcRefs τ sig :=
  ⟨binary_bufs_sub .., unary_bufs_sub .., reshape_bufs_sub ..⟩

set_option maxRecDepth 8192 in
set_option maxHeartbeats 4000000 in
theorem cops4_fresh : ∀ op ∈ (cops4 : List (HloOp τ sig (Elt F))), op.fresh = ∅ := by
  intro _ h; (repeat (cases h with | head => rfl | tail _ h => ?_)); exact nomatch h

set_option maxRecDepth 8192 in
set_option maxHeartbeats 4000000 in
theorem cstep4_main_arg0 (m : (ℓ : Loc nD τ sig) → Buf (Elt F) ℓ) (c : Dev nD) (W : Valuation τ sig (Elt F)) (h : Lv4 m c W) :
    after cops4 W (Proc.devRef .tc main_arg0) = m ((c.tc : Thread nD τ).loc main_arg0) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_arg1 (m : (ℓ : Loc nD τ sig) → Buf (Elt F) ℓ) (c : Dev nD) (W : Valuation τ sig (Elt F)) (h : Lv4 m c W) :
    after cops4 W (Proc.devRef .tc main_arg1) = m ((c.tc : Thread nD τ).loc main_arg1) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_arg2 (m : (ℓ : Loc nD τ sig) → Buf (Elt F) ℓ) (c : Dev nD) (W : Valuation τ sig (Elt F)) (h : Lv4 m c W) :
    after cops4 W (Proc.devRef .tc main_arg2) = m ((c.tc : Thread nD τ).loc main_arg2) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_arg3 (m : (ℓ : Loc nD τ sig) → Buf (Elt F) ℓ) (c : Dev nD) (W : Valuation τ sig (Elt F)) (h : Lv4 m c W) :
    after cops4 W (Proc.devRef .tc main_arg3) = m ((c.tc : Thread nD τ).loc main_arg3) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_arg4 (m : (ℓ : Loc nD τ sig) → Buf (Elt F) ℓ) (c : Dev nD) (W : Valuation τ sig (Elt F)) (h : Lv4 m c W) :
    after cops4 W (Proc.devRef .tc main_arg4) = m ((c.tc : Thread nD τ).loc main_arg4) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_arg5 (m : (ℓ : Loc nD τ sig) → Buf (Elt F) ℓ) (c : Dev nD) (W : Valuation τ sig (Elt F)) (h : Lv4 m c W) :
    after cops4 W (Proc.devRef .tc main_arg5) = m ((c.tc : Thread nD τ).loc main_arg5) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_arg6 (m : (ℓ : Loc nD τ sig) → Buf (Elt F) ℓ) (c : Dev nD) (W : Valuation τ sig (Elt F)) (h : Lv4 m c W) :
    after cops4 W (Proc.devRef .tc main_arg6) = m ((c.tc : Thread nD τ).loc main_arg6) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_arg7 (m : (ℓ : Loc nD τ sig) → Buf (Elt F) ℓ) (c : Dev nD) (W : Valuation τ sig (Elt F)) (h : Lv4 m c W) :
    after cops4 W (Proc.devRef .tc main_arg7) = m ((c.tc : Thread nD τ).loc main_arg7) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_arg8 (m : (ℓ : Loc nD τ sig) → Buf (Elt F) ℓ) (c : Dev nD) (W : Valuation τ sig (Elt F)) (h : Lv4 m c W) :
    after cops4 W (Proc.devRef .tc main_arg8) = m ((c.tc : Thread nD τ).loc main_arg8) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_v48 (m : (ℓ : Loc nD τ sig) → Buf (Elt F) ℓ) (c : Dev nD) (W : Valuation τ sig (Elt F)) (h : Lv4 m c W) :
    after cops4 W (Proc.devRef .tc main_v48) = st_main_v48 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_v49 (m : (ℓ : Loc nD τ sig) → Buf (Elt F) ℓ) (c : Dev nD) (W : Valuation τ sig (Elt F)) (h : Lv4 m c W) :
    after cops4 W (Proc.devRef .tc main_v49) = st_main_v49 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_v50 (m : (ℓ : Loc nD τ sig) → Buf (Elt F) ℓ) (c : Dev nD) (W : Valuation τ sig (Elt F)) (h : Lv4 m c W) :
    after cops4 W (Proc.devRef .tc main_v50) = st_main_v50 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_v53 (m : (ℓ : Loc nD τ sig) → Buf (Elt F) ℓ) (c : Dev nD) (W : Valuation τ sig (Elt F)) (h : Lv4 m c W) :
    after cops4 W (Proc.devRef .tc main_v53) = st_main_v53 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep4_main_v55 (m : (ℓ : Loc nD τ sig) → Buf (Elt F) ℓ) (c : Dev nD) (W : Valuation τ sig (Elt F)) (h : Lv4 m c W) :
    after cops4 W (Proc.devRef .tc main_v55) = st_main_v55 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

theorem cstep4 (m : (ℓ : Loc nD τ sig) → Buf (Elt F) ℓ) (c : Dev nD) (W : Valuation τ sig (Elt F)) (h : Lv4 m c W) : Lv5 m c (after cops4 W) :=
  ⟨cstep4_main_arg0 m c W h, cstep4_main_arg1 m c W h, cstep4_main_arg2 m c W h, cstep4_main_arg3 m c W h, cstep4_main_arg4 m c W h, cstep4_main_arg5 m c W h, cstep4_main_arg6 m c W h, cstep4_main_arg7 m c W h, cstep4_main_arg8 m c W h, cstep4_main_v48 m c W h, cstep4_main_v49 m c W h, cstep4_main_v50 m c W h, cstep4_main_v53 m c W h, cstep4_main_v55 m c W h⟩

end Cert.ReferenceIdeal.ValueH

end
-- ==== Proof.Ref.RunH.D5.lean ====
/- Chunk 5 of the reference's @main (operations 71 to 124): its list, the list's two facts, and its step from cut 5 to cut 6 at any valuation: each buffer read later holds its stage, by the operations' result equations, the facts of cut 5 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops5 : List (HloOp τ sig (Elt F)) :=
  [ binary main_v55 main_v50 main_v56 ((fun a b => concatenate S1847685 0 [⟨S1797685, a⟩, ⟨S50000, b⟩] concatenates_S1797685_S50000_S1847685_d0) : (⟨S1797685, .i32⟩ : BufTy).Contents (Elt F) → (⟨S50000, .i32⟩ : BufTy).Contents (Elt F) → (⟨S1847685, .i32⟩ : BufTy).Contents (Elt F)),
    nullary main_cst_10 (constant S_ .f32 0x3F800000#32),
    unary main_cst_10 main_v57 (broadcastInDim S1847685 ![] bcast_S_S1847685 : (⟨S_, .f32⟩ : BufTy).Contents (Elt F) → (⟨S1847685, .f32⟩ : BufTy).Contents (Elt F)),
    nullary main_cst_11 (constant S_ .f32 0x00000000#32),
    unary main_cst_11 main_v58 (broadcastInDim S50000 ![] bcast_S_S50000 : (⟨S_, .f32⟩ : BufTy).Contents (Elt F) → (⟨S50000, .f32⟩ : BufTy).Contents (Elt F)),
    unary main_v56 main_v59 (broadcastInDim S1847685x1 ![0] bcast_S1847685_S1847685x1_0 : (⟨S1847685, .i32⟩ : BufTy).Contents (Elt F) → (⟨S1847685x1, .i32⟩ : BufTy).Contents (Elt F)),
    ternary main_v58 main_v59 main_v57 main_v60 ((fun x i u => Host.scatterAdd scatter_S50000_S1847685x1_S1847685_n_0_0_1 x i u) : (⟨S50000, .f32⟩ : BufTy).Contents (Elt F) → (⟨S1847685x1, .i32⟩ : BufTy).Contents (Elt F) → (⟨S1847685, .f32⟩ : BufTy).Contents (Elt F) → (⟨S50000, .f32⟩ : BufTy).Contents (Elt F)),
    nullary main_cst_12 (constant S_ .f32 0x00000000#32),
    unary main_cst_12 main_v61 (broadcastInDim S50000 ![] bcast_S_S50000 : (⟨S_, .f32⟩ : BufTy).Contents (Elt F) → (⟨S50000, .f32⟩ : BufTy).Contents (Elt F)),
    binary main_v60 main_v61 main_v62 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0x2B8CBCCC#32),
    unary main_cst_13 main_v63 (broadcastInDim S50000 ![] bcast_S_S50000 : (⟨S_, .f32⟩ : BufTy).Contents (Elt F) → (⟨S50000, .f32⟩ : BufTy).Contents (Elt F)),
    binary main_v60 main_v63 main_v64 (maximumf : (⟨S50000, .f32⟩ : BufTy).Contents (Elt F) → (⟨S50000, .f32⟩ : BufTy).Contents (Elt F) → (⟨S50000, .f32⟩ : BufTy).Contents (Elt F)),
    unary main_v64 main_v65 (Host.rsqrt : (⟨S50000, .f32⟩ : BufTy).Contents (Elt F) → (⟨S50000, .f32⟩ : BufTy).Contents (Elt F)),
    nullary main_cst_14 (constant S_ .f32 0x00000000#32),
    TRef.unary (TRef.of (T := ⟨S_, .f32⟩) main_cst_14) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v62) (TRef.of (T := ⟨S50000, .f32⟩) main_v65) (TRef.of (T := ⟨S50000, .f32⟩) main_call1_v1) (TRef.of (T := ⟨S50000, .f32⟩) main_v66) select,
    nullary main_c_15 (constantI S_ 32 0#32),
    unary main_c_15 main_v67 (broadcastInDim S1847685 ![] bcast_S_S1847685 : (⟨S_, .i32⟩ : BufTy).Contents (Elt F) → (⟨S1847685, .i32⟩ : BufTy).Contents (Elt F)),
    binary main_v53 main_v67 main_v68 (cmpi .slt : (⟨S1847685, .i32⟩ : BufTy).Contents (Elt F) → (⟨S1847685, .i32⟩ : BufTy).Contents (Elt F) → (⟨S1847685, .i1⟩ : BufTy).Contents (Elt F)),
    nullary main_c_16 (constantI S_ 32 50000#32),
    unary main_c_16 main_v69 (broadcastInDim S1847685 ![] bcast_S_S1847685 : (⟨S_, .i32⟩ : BufTy).Contents (Elt F) → (⟨S1847685, .i32⟩ : BufTy).Contents (Elt F)),
    binary main_v53 main_v69 main_v70 (addi : (⟨S1847685, .i32⟩ : BufTy).Contents (Elt F) → (⟨S1847685, .i32⟩ : BufTy).Contents (Elt F) → (⟨S1847685, .i32⟩ : BufTy).Contents (Elt F)),
    ternary main_v68 main_v70 main_v53 main_v71 (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)),
    unary main_v71 main_v72 (broadcastInDim S1847685x1 ![0] bcast_S1847685_S1847685x1_0 : (⟨S1847685, .i32⟩ : BufTy).Contents (Elt F) → (⟨S1847685x1, .i32⟩ : BufTy).Contents (Elt F)),
    binary main_v66 main_v72 main_v73 ((fun x i => Host.gather gather_S50000_S1847685x1_S1847685_n_0_n_n_0_1_1 x i) : (⟨S50000, .f32⟩ : BufTy).Contents (Elt F) → (⟨S1847685x1, .i32⟩ : BufTy).Contents (Elt F) → (⟨S1847685, .f32⟩ : BufTy).Contents (Elt F)),
    nullary main_c_17 (constantI S_ 32 0#32),
    unary main_c_17 main_v74 (broadcastInDim S1847685 ![] bcast_S_S1847685 : (⟨S_, .i32⟩ : BufTy).Contents (Elt F) → (⟨S1847685, .i32⟩ : BufTy).Contents (Elt F)),
    binary main_v56 main_v74 main_v75 (cmpi .slt : (⟨S1847685, .i32⟩ : BufTy).Contents (Elt F) → (⟨S1847685, .i32⟩ : BufTy).Contents (Elt F) → (⟨S1847685, .i1⟩ : BufTy).Contents (Elt F)),
    nullary main_c_18 (constantI S_ 32 50000#32),
    unary main_c_18 main_v76 (broadcastInDim S1847685 ![] bcast_S_S1847685 : (⟨S_, .i32⟩ : BufTy).Contents (Elt F) → (⟨S1847685, .i32⟩ : BufTy).Contents (Elt F)),
    binary main_v56 main_v76 main_v77 (addi : (⟨S1847685, .i32⟩ : BufTy).Contents (Elt F) → (⟨S1847685, .i32⟩ : BufTy).Contents (Elt F) → (⟨S1847685, .i32⟩ : BufTy).Contents (Elt F)),
    ternary main_v75 main_v77 main_v56 main_v78 (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)),
    unary main_v78 main_v79 (broadcastInDim S1847685x1 ![0] bcast_S1847685_S1847685x1_0 : (⟨S1847685, .i32⟩ : BufTy).Contents (Elt F) → (⟨S1847685x1, .i32⟩ : BufTy).Contents (Elt F)),
    binary main_v66 main_v79 main_v80 ((fun x i => Host.gather gather_S50000_S1847685x1_S1847685_n_0_n_n_0_1_1 x i) : (⟨S50000, .f32⟩ : BufTy).Contents (Elt F) → (⟨S1847685x1, .i32⟩ : BufTy).Contents (Elt F) → (⟨S1847685, .f32⟩ : BufTy).Contents (Elt F)),
    binary main_v73 main_v80 main_v81 (mulf : (⟨S1847685, .f32⟩ : BufTy).Contents (Elt F) → (⟨S1847685, .f32⟩ : BufTy).Contents (Elt F) → (⟨S1847685, .f32⟩ : BufTy).Contents (Elt F)),
    nullary main_c_19 (constantI S_ 32 0#32),
    unary main_c_19 main_v82 (broadcastInDim S1847685 ![] bcast_S_S1847685 : (⟨S_, .i32⟩ : BufTy).Contents (Elt F) → (⟨S1847685, .i32⟩ : BufTy).Contents (Elt F)),
    binary main_v53 main_v82 main_v83 (cmpi .slt : (⟨S1847685, .i32⟩ : BufTy).Contents (Elt F) → (⟨S1847685, .i32⟩ : BufTy).Contents (Elt F) → (⟨S1847685, .i1⟩ : BufTy).Contents (Elt F)),
    nullary main_c_20 (constantI S_ 32 50000#32),
    unary main_c_20 main_v84 (broadcastInDim S1847685 ![] bcast_S_S1847685 : (⟨S_, .i32⟩ : BufTy).Contents (Elt F) → (⟨S1847685, .i32⟩ : BufTy).Contents (Elt F)),
    binary main_v53 main_v84 main_v85 (addi : (⟨S1847685, .i32⟩ : BufTy).Contents (Elt F) → (⟨S1847685, .i32⟩ : BufTy).Contents (Elt F) → (⟨S1847685, .i32⟩ : BufTy).Contents (Elt F)),
    ternary main_v83 main_v85 main_v53 main_v86 (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)),
    unary main_v86 main_v87 (broadcastInDim S1847685x1 ![0] bcast_S1847685_S1847685x1_0 : (⟨S1847685, .i32⟩ : BufTy).Contents (Elt F) → (⟨S1847685x1, .i32⟩ : BufTy).Contents (Elt F)),
    binary main_v49 main_v87 main_v88 ((fun x i => Host.gather gather_S50000x64_S1847685x1_S1847685x64_1_0_n_n_0_1_164 x i) : (⟨S50000x64, .f32⟩ : BufTy).Contents (Elt F) → (⟨S1847685x1, .i32⟩ : BufTy).Contents (Elt F) → (⟨S1847685x64, .f32⟩ : BufTy).Contents (Elt F)),
    unary main_v81 main_v89 (broadcastInDim S1847685x1 ![0] bcast_S1847685_S1847685x1_0 : (⟨S1847685, .f32⟩ : BufTy).Contents (Elt F) → (⟨S1847685x1, .f32⟩ : BufTy).Contents (Elt F)),
    unary main_v89 main_v90 (broadcastInDim S1847685x64 ![0, 1] bcast_S1847685x1_S1847685x64_0_1 : (⟨S1847685x1, .f32⟩ : BufTy).Contents (Elt F) → (⟨S1847685x64, .f32⟩ : BufTy).Contents (Elt F)),
    binary main_v88 main_v90 main_v91 (mulf : (⟨S1847685x64, .f32⟩ : BufTy).Contents (Elt F) → (⟨S1847685x64, .f32⟩ : BufTy).Contents (Elt F) → (⟨S1847685x64, .f32⟩ : BufTy).Contents (Elt F)),
    nullary main_cst_21 (constant S_ .f32 0x00000000#32),
    unary main_cst_21 main_v92 (broadcastInDim S50000x64 ![] bcast_S_S50000x64 : (⟨S_, .f32⟩ : BufTy).Contents (Elt F) → (⟨S50000x64, .f32⟩ : BufTy).Contents (Elt F)),
    unary main_v56 main_v93 (broadcastInDim S1847685x1 ![0] bcast_S1847685_S1847685x1_0 : (⟨S1847685, .i32⟩ : BufTy).Contents (Elt F) → (⟨S1847685x1, .i32⟩ : BufTy).Contents (Elt F)),
    ternary main_v92 main_v93 main_v91 main_v94 ((fun x i u => Host.scatterAdd scatter_S50000x64_S1847685x1_S1847685x64_1_0_0_1 x i u) : (⟨S50000x64, .f32⟩ : BufTy).Contents (Elt F) → (⟨S1847685x1, .i32⟩ : BufTy).Contents (Elt F) → (⟨S1847685x64, .f32⟩ : BufTy).Contents (Elt F) → (⟨S50000x64, .f32⟩ : BufTy).Contents (Elt F)),
    unary main_arg4 main_v95 (broadcastInDim S1x64 ![1] bcast_S64_S1x64_1 : (⟨S64, .f32⟩ : BufTy).Contents (Elt F) → (⟨S1x64, .f32⟩ : BufTy).Contents (Elt F)) ]

set_option maxRecDepth 8192 in
theorem cops5_sub : (cops5 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub ..⟩

set_option maxRecDepth 8192 in
set_option maxHeartbeats 4000000 in
theorem cops5_fresh : ∀ op ∈ (cops5 : List (HloOp τ sig (Elt F))), op.fresh = ∅ := by
  intro _ h; (repeat (cases h with | head => rfl | tail _ h => ?_)); exact nomatch h

set_option maxRecDepth 8192 in
set_option maxHeartbeats 4000000 in
theorem cstep5_main_arg0 (m : (ℓ : Loc nD τ sig) → Buf (Elt F) ℓ) (c : Dev nD) (W : Valuation τ sig (Elt F)) (h : Lv5 m c W) :
    after cops5 W (Proc.devRef .tc main_arg0) = m ((c.tc : Thread nD τ).loc main_arg0) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep5_main_arg1 (m : (ℓ : Loc nD τ sig) → Buf (Elt F) ℓ) (c : Dev nD) (W : Valuation τ sig (Elt F)) (h : Lv5 m c W) :
    after cops5 W (Proc.devRef .tc main_arg1) = m ((c.tc : Thread nD τ).loc main_arg1) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep5_main_arg2 (m : (ℓ : Loc nD τ sig) → Buf (Elt F) ℓ) (c : Dev nD) (W : Valuation τ sig (Elt F)) (h : Lv5 m c W) :
    after cops5 W (Proc.devRef .tc main_arg2) = m ((c.tc : Thread nD τ).loc main_arg2) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep5_main_arg3 (m : (ℓ : Loc nD τ sig) → Buf (Elt F) ℓ) (c : Dev nD) (W : Valuation τ sig (Elt F)) (h : Lv5 m c W) :
    after cops5 W (Proc.devRef .tc main_arg3) = m ((c.tc : Thread nD τ).loc main_arg3) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep5_main_arg4 (m : (ℓ : Loc nD τ sig) → Buf (Elt F) ℓ) (c : Dev nD) (W : Valuation τ sig (Elt F)) (h : Lv5 m c W) :
    after cops5 W (Proc.devRef .tc main_arg4) = m ((c.tc : Thread nD τ).loc main_arg4) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep5_main_arg5 (m : (ℓ : Loc nD τ sig) → Buf (Elt F) ℓ) (c : Dev nD) (W : Valuation τ sig (Elt F)) (h : Lv5 m c W) :
    after cops5 W (Proc.devRef .tc main_arg5) = m ((c.tc : Thread nD τ).loc main_arg5) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep5_main_arg6 (m : (ℓ : Loc nD τ sig) → Buf (Elt F) ℓ) (c : Dev nD) (W : Valuation τ sig (Elt F)) (h : Lv5 m c W) :
    after cops5 W (Proc.devRef .tc main_arg6) = m ((c.tc : Thread nD τ).loc main_arg6) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep5_main_arg7 (m : (ℓ : Loc nD τ sig) → Buf (Elt F) ℓ) (c : Dev nD) (W : Valuation τ sig (Elt F)) (h : Lv5 m c W) :
    after cops5 W (Proc.devRef .tc main_arg7) = m ((c.tc : Thread nD τ).loc main_arg7) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep5_main_arg8 (m : (ℓ : Loc nD τ sig) → Buf (Elt F) ℓ) (c : Dev nD) (W : Valuation τ sig (Elt F)) (h : Lv5 m c W) :
    after cops5 W (Proc.devRef .tc main_arg8) = m ((c.tc : Thread nD τ).loc main_arg8) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep5_main_v48 (m : (ℓ : Loc nD τ sig) → Buf (Elt F) ℓ) (c : Dev nD) (W : Valuation τ sig (Elt F)) (h : Lv5 m c W) :
    after cops5 W (Proc.devRef .tc main_v48) = st_main_v48 m c := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep5_main_v94 (m : (ℓ : Loc nD τ sig) → Buf (Elt F) ℓ) (c : Dev nD) (W : Valuation τ sig (Elt F)) (h : Lv5 m c W) :
    after cops5 W (Proc.devRef .tc main_v94) = st_main_v94 m c := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep5_main_v95 (m : (ℓ : Loc nD τ sig) → Buf (Elt F) ℓ) (c : Dev nD) (W : Valuation τ sig (Elt F)) (h : Lv5 m c W) :
    after cops5 W (Proc.devRef .tc main_v95) = st_main_v95 m c := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

theorem cstep5 (m : (ℓ : Loc nD τ sig) → Buf (Elt F) ℓ) (c : Dev nD) (W : Valuation τ sig (Elt F)) (h : Lv5 m c W) : Lv6 m c (after cops5 W) :=
  ⟨cstep5_main_arg0 m c W h, cstep5_main_arg1 m c W h, cstep5_main_arg2 m c W h, cstep5_main_arg3 m c W h, cstep5_main_arg4 m c W h, cstep5_main_arg5 m c W h, cstep5_main_arg6 m c W h, cstep5_main_arg7 m c W h, cstep5_main_arg8 m c W h, cstep5_main_v48 m c W h, cstep5_main_v94 m c W h, cstep5_main_v95 m c W h⟩

end Cert.ReferenceIdeal.ValueH

end
-- ==== Proof.Ref.RunH.D6.lean ====
/- Chunk 6 of the reference's @main (operations 125 to 126): its list, the list's two facts, and its step from cut 6 to cut 7 at any valuation: each buffer read later holds its stage, by the operations' result equations, the facts of cut 6 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops6 : List (HloOp τ sig (Elt F)) :=
  [ unary main_v95 main_v96 (broadcastInDim S50000x64 ![0, 1] bcast_S1x64_S50000x64_0_1 : (⟨S1x64, .f32⟩ : BufTy).Contents (Elt F) → (⟨S50000x64, .f32⟩ : BufTy).Contents (Elt F)),
    binary main_v94 main_v96 main_v97 (addf : (⟨S50000x64, .f32⟩ : BufTy).Contents (Elt F) → (⟨S50000x64, .f32⟩ : BufTy).Contents (Elt F) → (⟨S50000x64, .f32⟩ : BufTy).Contents (Elt F)) ]

set_option maxRecDepth 8192 in
theorem cops6_sub : (cops6 : List (HloOp τ sig (Elt F))).Forall fun op => op.bufs ⊆ tcRefs τ sig :=
  ⟨unary_bufs_sub .., binary_bufs_sub ..⟩

set_option maxRecDepth 8192 in
set_option maxHeartbeats 4000000 in
theorem cops6_fresh : ∀ op ∈ (cops6 : List (HloOp τ sig (Elt F))), op.fresh = ∅ := by
  intro _ h; (repeat (cases h with | head => rfl | tail _ h => ?_)); exact nomatch h

set_option maxRecDepth 8192 in
set_option maxHeartbeats 4000000 in
theorem cstep6_main_arg0 (m : (ℓ : Loc nD τ sig) → Buf (Elt F) ℓ) (c : Dev nD) (W : Valuation τ sig (Elt F)) (h : Lv6 m c W) :
    after cops6 W (Proc.devRef .tc main_arg0) = m ((c.tc : Thread nD τ).loc main_arg0) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep6_main_arg1 (m : (ℓ : Loc nD τ sig) → Buf (Elt F) ℓ) (c : Dev nD) (W : Valuation τ sig (Elt F)) (h : Lv6 m c W) :
    after cops6 W (Proc.devRef .tc main_arg1) = m ((c.tc : Thread nD τ).loc main_arg1) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep6_main_arg2 (m : (ℓ : Loc nD τ sig) → Buf (Elt F) ℓ) (c : Dev nD) (W : Valuation τ sig (Elt F)) (h : Lv6 m c W) :
    after cops6 W (Proc.devRef .tc main_arg2) = m ((c.tc : Thread nD τ).loc main_arg2) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep6_main_arg3 (m : (ℓ : Loc nD τ sig) → Buf (Elt F) ℓ) (c : Dev nD) (W : Valuation τ sig (Elt F)) (h : Lv6 m c W) :
    after cops6 W (Proc.devRef .tc main_arg3) = m ((c.tc : Thread nD τ).loc main_arg3) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep6_main_arg4 (m : (ℓ : Loc nD τ sig) → Buf (Elt F) ℓ) (c : Dev nD) (W : Valuation τ sig (Elt F)) (h : Lv6 m c W) :
    after cops6 W (Proc.devRef .tc main_arg4) = m ((c.tc : Thread nD τ).loc main_arg4) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep6_main_arg5 (m : (ℓ : Loc nD τ sig) → Buf (Elt F) ℓ) (c : Dev nD) (W : Valuation τ sig (Elt F)) (h : Lv6 m c W) :
    after cops6 W (Proc.devRef .tc main_arg5) = m ((c.tc : Thread nD τ).loc main_arg5) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep6_main_arg6 (m : (ℓ : Loc nD τ sig) → Buf (Elt F) ℓ) (c : Dev nD) (W : Valuation τ sig (Elt F)) (h : Lv6 m c W) :
    after cops6 W (Proc.devRef .tc main_arg6) = m ((c.tc : Thread nD τ).loc main_arg6) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep6_main_arg7 (m : (ℓ : Loc nD τ sig) → Buf (Elt F) ℓ) (c : Dev nD) (W : Valuation τ sig (Elt F)) (h : Lv6 m c W) :
    after cops6 W (Proc.devRef .tc main_arg7) = m ((c.tc : Thread nD τ).loc main_arg7) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep6_main_arg8 (m : (ℓ : Loc nD τ sig) → Buf (Elt F) ℓ) (c : Dev nD) (W : Valuation τ sig (Elt F)) (h : Lv6 m c W) :
    after cops6 W (Proc.devRef .tc main_arg8) = m ((c.tc : Thread nD τ).loc main_arg8) := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep6_main_v48 (m : (ℓ : Loc nD τ sig) → Buf (Elt F) ℓ) (c : Dev nD) (W : Valuation τ sig (Elt F)) (h : Lv6 m c W) :
    after cops6 W (Proc.devRef .tc main_v48) = st_main_v48 m c := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

set_option maxRecDepth 8192 in
set_option maxHeartbeats 4000000 in
theorem cstep6_main_v97 (m : (ℓ : Loc nD τ sig) → Buf (Elt F) ℓ) (c : Dev nD) (W : Valuation τ sig (Elt F)) (h : Lv6 m c W) :
    after cops6 W (Proc.devRef .tc main_v97) = st_main_v97 m c := by
  obtain ⟨h0, h1, h2, h3, h4, h5, h6, h7, h8, h9, h10, h11⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]))
  all_goals rfl

theorem cstep6 (m : (ℓ : Loc nD τ sig) → Buf (Elt F) ℓ) (c : Dev nD) (W : Valuation τ sig (Elt F)) (h : Lv6 m c W) : Lv7 m c (after cops6 W) :=
  ⟨cstep6_main_arg0 m c W h, cstep6_main_arg1 m c W h, cstep6_main_arg2 m c W h, cstep6_main_arg3 m c W h, cstep6_main_arg4 m c W h, cstep6_main_arg5 m c W h, cstep6_main_arg6 m c W h, cstep6_main_arg7 m c W h, cstep6_main_arg8 m c W h, cstep6_main_v48 m c W h, cstep6_main_v97 m c W h⟩

end Cert.ReferenceIdeal.ValueH

end
-- ==== Proof.Ref.RunH.D7.lean ====
/- Chunk 7 of the reference's @main (operations 127 to 134): its list, the list's two facts, and its step from cut 7 to cut 8 at any valuation: each buffer read later holds its stage, by the operations' result equations, the facts of cut 7 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops7 : List (HloOp τ sig (Elt F)) :=
  [ binary main_v48 main_v97 main_v98 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v98) (TRef.of (T := ⟨S50000x128, .f32⟩) main_call2_v0) (TRef.of (T := ⟨S50000x128, .f32⟩) main_v99) maximumf,
    binary main_v99 main_arg5 main_v100 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    nullary main_v101 (iotaInDim S50000 32 0),
    unary main_arg1 main_v102 ((extractStridedSlice S1x300000 ![0, 0] · slices_S2x300000_S1x300000_0_0) : (⟨S2x300000, .i32⟩ : BufTy).Contents (Elt F) → (⟨S1x300000, .i32⟩ : BufTy).Contents (Elt F)),
    reshape main_v102 main_v103 rfl shapeCasts_S1x300000_S300000 ]

set_option maxRecDepth 8192 in
theorem cops7_sub : (cops7 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., reshape_bufs_sub ..⟩

set_option maxRecDepth 8192 in
set_option maxHeartbeats 4000000 in
theorem cops7_fresh : ∀ op ∈ (cops7 : List (HloOp τ sig (Elt F))), op.fresh = ∅ := by
  intro _ h; (repeat (cases h with | head => rfl | tail _ h => ?_)); exact nomatch h

set_option maxRecDepth 8192 in
set_option maxHeartbeats 4000000 in
theorem cstep7_main_arg0 (m : (ℓ : Loc nD τ sig) → Buf (Elt F) ℓ) (c : Dev nD) (W : Valuation τ sig (Elt F)) (h : Lv7 m c W) :
    after cops7 W (Proc.devRef .tc main_arg0) = m ((c.tc : Thread nD τ).loc main_arg0) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_arg1 (m : (ℓ : Loc nD τ sig) → Buf (Elt F) ℓ) (c : Dev nD) (W : Valuation τ sig (Elt F)) (h : Lv7 m c W) :
    after cops7 W (Proc.devRef .tc main_arg1) = m ((c.tc : Thread nD τ).loc main_arg1) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_arg2 (m : (ℓ : Loc nD τ sig) → Buf (Elt F) ℓ) (c : Dev nD) (W : Valuation τ sig (Elt F)) (h : Lv7 m c W) :
    after cops7 W (Proc.devRef .tc main_arg2) = m ((c.tc : Thread nD τ).loc main_arg2) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_arg3 (m : (ℓ : Loc nD τ sig) → Buf (Elt F) ℓ) (c : Dev nD) (W : Valuation τ sig (Elt F)) (h : Lv7 m c W) :
    after cops7 W (Proc.devRef .tc main_arg3) = m ((c.tc : Thread nD τ).loc main_arg3) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_arg4 (m : (ℓ : Loc nD τ sig) → Buf (Elt F) ℓ) (c : Dev nD) (W : Valuation τ sig (Elt F)) (h : Lv7 m c W) :
    after cops7 W (Proc.devRef .tc main_arg4) = m ((c.tc : Thread nD τ).loc main_arg4) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_arg5 (m : (ℓ : Loc nD τ sig) → Buf (Elt F) ℓ) (c : Dev nD) (W : Valuation τ sig (Elt F)) (h : Lv7 m c W) :
    after cops7 W (Proc.devRef .tc main_arg5) = m ((c.tc : Thread nD τ).loc main_arg5) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_arg6 (m : (ℓ : Loc nD τ sig) → Buf (Elt F) ℓ) (c : Dev nD) (W : Valuation τ sig (Elt F)) (h : Lv7 m c W) :
    after cops7 W (Proc.devRef .tc main_arg6) = m ((c.tc : Thread nD τ).loc main_arg6) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_arg7 (m : (ℓ : Loc nD τ sig) → Buf (Elt F) ℓ) (c : Dev nD) (W : Valuation τ sig (Elt F)) (h : Lv7 m c W) :
    after cops7 W (Proc.devRef .tc main_arg7) = m ((c.tc : Thread nD τ).loc main_arg7) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_arg8 (m : (ℓ : Loc nD τ sig) → Buf (Elt F) ℓ) (c : Dev nD) (W : Valuation τ sig (Elt F)) (h : Lv7 m c W) :
    after cops7 W (Proc.devRef .tc main_arg8) = m ((c.tc : Thread nD τ).loc main_arg8) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_v99 (m : (ℓ : Loc nD τ sig) → Buf (Elt F) ℓ) (c : Dev nD) (W : Valuation τ sig (Elt F)) (h : Lv7 m c W) :
    after cops7 W (Proc.devRef .tc main_v99) = st_main_v99 m c := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_v100 (m : (ℓ : Loc nD τ sig) → Buf (Elt F) ℓ) (c : Dev nD) (W : Valuation τ sig (Elt F)) (h : Lv7 m c W) :
    after cops7 W (Proc.devRef .tc main_v100) = st_main_v100 m c := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_v101 (m : (ℓ : Loc nD τ sig) → Buf (Elt F) ℓ) (c : Dev nD) (W : Valuation τ sig (Elt F)) (h : Lv7 m c W) :
    after cops7 W (Proc.devRef .tc main_v101) = st_main_v101 m c := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep7_main_v103 (m : (ℓ : Loc nD τ sig) → Buf (Elt F) ℓ) (c : Dev nD) (W : Valuation τ sig (Elt F)) (h : Lv7 m c W) :
    after cops7 W (Proc.devRef .tc main_v103) = st_main_v103 m c := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

theorem cstep7 (m : (ℓ : Loc nD τ sig) → Buf (Elt F) ℓ) (c : Dev nD) (W : Valuation τ sig (Elt F)) (h : Lv7 m c W) : Lv8 m c (after cops7 W) :=
  ⟨cstep7_main_arg0 m c W h, cstep7_main_arg1 m c W h, cstep7_main_arg2 m c W h, cstep7_main_arg3 m c W h, cstep7_main_arg4 m c W h, cstep7_main_arg5 m c W h, cstep7_main_arg6 m c W h, cstep7_main_arg7 m c W h, cstep7_main_arg8 m c W h, cstep7_main_v99 m c W h, cstep7_main_v100 m c W h, cstep7_main_v101 m c W h, cstep7_main_v103 m c W h⟩

end Cert.ReferenceIdeal.ValueH

end
-- ==== Proof.Ref.RunH.D8.lean ====
/- Chunk 8 of the reference's @main (operations 135 to 137): its list, the list's two facts, and its step from cut 8 to cut 9 at any valuation: each buffer read later holds its stage, by the operations' result equations, the facts of cut 8 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops8 : List (HloOp τ sig (Elt F)) :=
  [ binary main_v103 main_v101 main_v104 ((fun a b => concatenate S350000 0 [⟨S300000, a⟩, ⟨S50000, b⟩] concatenates_S300000_S50000_S350000_d0) : (⟨S300000, .i32⟩ : BufTy).Contents (Elt F) → (⟨S50000, .i32⟩ : BufTy).Contents (Elt F) → (⟨S350000, .i32⟩ : BufTy).Contents (Elt F)),
    unary main_arg1 main_v105 ((extractStridedSlice S1x300000 ![1, 0] · slices_S2x300000_S1x300000_1_0) : (⟨S2x300000, .i32⟩ : BufTy).Contents (Elt F) → (⟨S1x300000, .i32⟩ : BufTy).Contents (Elt F)),
    reshape main_v105 main_v106 rfl shapeCasts_S1x300000_S300000 ]

set_option maxRecDepth 8192 in
theorem cops8_sub : (cops8 : List (HloOp τ sig (Elt F))).Forall fun op => op.bufs ⊆ tcRefs τ sig :=
  ⟨binary_bufs_sub .., unary_bufs_sub .., reshape_bufs_sub ..⟩

set_option maxRecDepth 8192 in
set_option maxHeartbeats 4000000 in
theorem cops8_fresh : ∀ op ∈ (cops8 : List (HloOp τ sig (Elt F))), op.fresh = ∅ := by
  intro _ h; (repeat (cases h with | head => rfl | tail _ h => ?_)); exact nomatch h

set_option maxRecDepth 8192 in
set_option maxHeartbeats 4000000 in
theorem cstep8_main_arg0 (m : (ℓ : Loc nD τ sig) → Buf (Elt F) ℓ) (c : Dev nD) (W : Valuation τ sig (Elt F)) (h : Lv8 m c W) :
    after cops8 W (Proc.devRef .tc main_arg0) = m ((c.tc : Thread nD τ).loc main_arg0) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_arg1 (m : (ℓ : Loc nD τ sig) → Buf (Elt F) ℓ) (c : Dev nD) (W : Valuation τ sig (Elt F)) (h : Lv8 m c W) :
    after cops8 W (Proc.devRef .tc main_arg1) = m ((c.tc : Thread nD τ).loc main_arg1) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_arg2 (m : (ℓ : Loc nD τ sig) → Buf (Elt F) ℓ) (c : Dev nD) (W : Valuation τ sig (Elt F)) (h : Lv8 m c W) :
    after cops8 W (Proc.devRef .tc main_arg2) = m ((c.tc : Thread nD τ).loc main_arg2) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_arg3 (m : (ℓ : Loc nD τ sig) → Buf (Elt F) ℓ) (c : Dev nD) (W : Valuation τ sig (Elt F)) (h : Lv8 m c W) :
    after cops8 W (Proc.devRef .tc main_arg3) = m ((c.tc : Thread nD τ).loc main_arg3) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_arg4 (m : (ℓ : Loc nD τ sig) → Buf (Elt F) ℓ) (c : Dev nD) (W : Valuation τ sig (Elt F)) (h : Lv8 m c W) :
    after cops8 W (Proc.devRef .tc main_arg4) = m ((c.tc : Thread nD τ).loc main_arg4) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_arg5 (m : (ℓ : Loc nD τ sig) → Buf (Elt F) ℓ) (c : Dev nD) (W : Valuation τ sig (Elt F)) (h : Lv8 m c W) :
    after cops8 W (Proc.devRef .tc main_arg5) = m ((c.tc : Thread nD τ).loc main_arg5) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_arg6 (m : (ℓ : Loc nD τ sig) → Buf (Elt F) ℓ) (c : Dev nD) (W : Valuation τ sig (Elt F)) (h : Lv8 m c W) :
    after cops8 W (Proc.devRef .tc main_arg6) = m ((c.tc : Thread nD τ).loc main_arg6) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_arg7 (m : (ℓ : Loc nD τ sig) → Buf (Elt F) ℓ) (c : Dev nD) (W : Valuation τ sig (Elt F)) (h : Lv8 m c W) :
    after cops8 W (Proc.devRef .tc main_arg7) = m ((c.tc : Thread nD τ).loc main_arg7) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_arg8 (m : (ℓ : Loc nD τ sig) → Buf (Elt F) ℓ) (c : Dev nD) (W : Valuation τ sig (Elt F)) (h : Lv8 m c W) :
    after cops8 W (Proc.devRef .tc main_arg8) = m ((c.tc : Thread nD τ).loc main_arg8) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_v99 (m : (ℓ : Loc nD τ sig) → Buf (Elt F) ℓ) (c : Dev nD) (W : Valuation τ sig (Elt F)) (h : Lv8 m c W) :
    after cops8 W (Proc.devRef .tc main_v99) = st_main_v99 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_v100 (m : (ℓ : Loc nD τ sig) → Buf (Elt F) ℓ) (c : Dev nD) (W : Valuation τ sig (Elt F)) (h : Lv8 m c W) :
    after cops8 W (Proc.devRef .tc main_v100) = st_main_v100 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_v101 (m : (ℓ : Loc nD τ sig) → Buf (Elt F) ℓ) (c : Dev nD) (W : Valuation τ sig (Elt F)) (h : Lv8 m c W) :
    after cops8 W (Proc.devRef .tc main_v101) = st_main_v101 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_v104 (m : (ℓ : Loc nD τ sig) → Buf (Elt F) ℓ) (c : Dev nD) (W : Valuation τ sig (Elt F)) (h : Lv8 m c W) :
    after cops8 W (Proc.devRef .tc main_v104) = st_main_v104 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep8_main_v106 (m : (ℓ : Loc nD τ sig) → Buf (Elt F) ℓ) (c : Dev nD) (W : Valuation τ sig (Elt F)) (h : Lv8 m c W) :
    after cops8 W (Proc.devRef .tc main_v106) = st_main_v106 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

theorem cstep8 (m : (ℓ : Loc nD τ sig) → Buf (Elt F) ℓ) (c : Dev nD) (W : Valuation τ sig (Elt F)) (h : Lv8 m c W) : Lv9 m c (after cops8 W) :=
  ⟨cstep8_main_arg0 m c W h, cstep8_main_arg1 m c W h, cstep8_main_arg2 m c W h, cstep8_main_arg3 m c W h, cstep8_main_arg4 m c W h, cstep8_main_arg5 m c W h, cstep8_main_arg6 m c W h, cstep8_main_arg7 m c W h, cstep8_main_arg8 m c W h, cstep8_main_v99 m c W h, cstep8_main_v100 m c W h, cstep8_main_v101 m c W h, cstep8_main_v104 m c W h, cstep8_main_v106 m c W h⟩

end Cert.ReferenceIdeal.ValueH

end
-- ==== Proof.Ref.RunH.D9.lean ====
/- Chunk 9 of the reference's @main (operations 138 to 188): its list, the list's two facts, and its step from cut 9 to cut 10 at any valuation: each buffer read later holds its stage, by the operations' result equations, the facts of cut 9 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops9 : List (HloOp τ sig (Elt F)) :=
  [ binary main_v106 main_v101 main_v107 ((fun a b => concatenate S350000 0 [⟨S300000, a⟩, ⟨S50000, b⟩] concatenates_S300000_S50000_S350000_d0) : (⟨S300000, .i32⟩ : BufTy).Contents (Elt F) → (⟨S50000, .i32⟩ : BufTy).Contents (Elt F) → (⟨S350000, .i32⟩ : BufTy).Contents (Elt F)),
    nullary main_cst_22 (constant S_ .f32 0x3F800000#32),
    unary main_cst_22 main_v108 (broadcastInDim S350000 ![] bcast_S_S350000 : (⟨S_, .f32⟩ : BufTy).Contents (Elt F) → (⟨S350000, .f32⟩ : BufTy).Contents (Elt F)),
    nullary main_cst_23 (constant S_ .f32 0x00000000#32),
    unary main_cst_23 main_v109 (broadcastInDim S50000 ![] bcast_S_S50000 : (⟨S_, .f32⟩ : BufTy).Contents (Elt F) → (⟨S50000, .f32⟩ : BufTy).Contents (Elt F)),
    unary main_v107 main_v110 (broadcastInDim S350000x1 ![0] bcast_S350000_S350000x1_0 : (⟨S350000, .i32⟩ : BufTy).Contents (Elt F) → (⟨S350000x1, .i32⟩ : BufTy).Contents (Elt F)),
    ternary main_v109 main_v110 main_v108 main_v111 ((fun x i u => Host.scatterAdd scatter_S50000_S350000x1_S350000_n_0_0_1 x i u) : (⟨S50000, .f32⟩ : BufTy).Contents (Elt F) → (⟨S350000x1, .i32⟩ : BufTy).Contents (Elt F) → (⟨S350000, .f32⟩ : BufTy).Contents (Elt F) → (⟨S50000, .f32⟩ : BufTy).Contents (Elt F)),
    nullary main_cst_24 (constant S_ .f32 0x00000000#32),
    unary main_cst_24 main_v112 (broadcastInDim S50000 ![] bcast_S_S50000 : (⟨S_, .f32⟩ : BufTy).Contents (Elt F) → (⟨S50000, .f32⟩ : BufTy).Contents (Elt F)),
    binary main_v111 main_v112 main_v113 (cmpf .ogt : (⟨S50000, .f32⟩ : BufTy).Contents (Elt F) → (⟨S50000, .f32⟩ : BufTy).Contents (Elt F) → (⟨S50000, .i1⟩ : BufTy).Contents (Elt F)),
    nullary main_cst_25 (constant S_ .f32 0x2B8CBCCC#32),
    unary main_cst_25 main_v114 (broadcastInDim S50000 ![] bcast_S_S50000 : (⟨S_, .f32⟩ : BufTy).Contents (Elt F) → (⟨S50000, .f32⟩ : BufTy).Contents (Elt F)),
    binary main_v111 main_v114 main_v115 (maximumf : (⟨S50000, .f32⟩ : BufTy).Contents (Elt F) → (⟨S50000, .f32⟩ : BufTy).Contents (Elt F) → (⟨S50000, .f32⟩ : BufTy).Contents (Elt F)),
    unary main_v115 main_v116 (Host.rsqrt : (⟨S50000, .f32⟩ : BufTy).Contents (Elt F) → (⟨S50000, .f32⟩ : BufTy).Contents (Elt F)),
    nullary main_cst_26 (constant S_ .f32 0x00000000#32),
    TRef.unary (TRef.of (T := ⟨S_, .f32⟩) main_cst_26) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v113) (TRef.of (T := ⟨S50000, .f32⟩) main_v116) (TRef.of (T := ⟨S50000, .f32⟩) main_call3_v1) (TRef.of (T := ⟨S50000, .f32⟩) main_v117) select,
    nullary main_c_27 (constantI S_ 32 0#32),
    unary main_c_27 main_v118 (broadcastInDim S350000 ![] bcast_S_S350000 : (⟨S_, .i32⟩ : BufTy).Contents (Elt F) → (⟨S350000, .i32⟩ : BufTy).Contents (Elt F)),
    binary main_v104 main_v118 main_v119 (cmpi .slt : (⟨S350000, .i32⟩ : BufTy).Contents (Elt F) → (⟨S350000, .i32⟩ : BufTy).Contents (Elt F) → (⟨S350000, .i1⟩ : BufTy).Contents (Elt F)),
    nullary main_c_28 (constantI S_ 32 50000#32),
    unary main_c_28 main_v120 (broadcastInDim S350000 ![] bcast_S_S350000 : (⟨S_, .i32⟩ : BufTy).Contents (Elt F) → (⟨S350000, .i32⟩ : BufTy).Contents (Elt F)),
    binary main_v104 main_v120 main_v121 (addi : (⟨S350000, .i32⟩ : BufTy).Contents (Elt F) → (⟨S350000, .i32⟩ : BufTy).Contents (Elt F) → (⟨S350000, .i32⟩ : BufTy).Contents (Elt F)),
    ternary main_v119 main_v121 main_v104 main_v122 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    unary main_v122 main_v123 (broadcastInDim S350000x1 ![0] bcast_S350000_S350000x1_0 : (⟨S350000, .i32⟩ : BufTy).Contents (Elt F) → (⟨S350000x1, .i32⟩ : BufTy).Contents (Elt F)),
    binary main_v117 main_v123 main_v124 ((fun x i => Host.gather gather_S50000_S350000x1_S350000_n_0_n_n_0_1_1 x i) : (⟨S50000, .f32⟩ : BufTy).Contents (Elt F) → (⟨S350000x1, .i32⟩ : BufTy).Contents (Elt F) → (⟨S350000, .f32⟩ : BufTy).Contents (Elt F)),
    nullary main_c_29 (constantI S_ 32 0#32),
    unary main_c_29 main_v125 (broadcastInDim S350000 ![] bcast_S_S350000 : (⟨S_, .i32⟩ : BufTy).Contents (Elt F) → (⟨S350000, .i32⟩ : BufTy).Contents (Elt F)),
    binary main_v107 main_v125 main_v126 (cmpi .slt : (⟨S350000, .i32⟩ : BufTy).Contents (Elt F) → (⟨S350000, .i32⟩ : BufTy).Contents (Elt F) → (⟨S350000, .i1⟩ : BufTy).Contents (Elt F)),
    nullary main_c_30 (constantI S_ 32 50000#32),
    unary main_c_30 main_v127 (broadcastInDim S350000 ![] bcast_S_S350000 : (⟨S_, .i32⟩ : BufTy).Contents (Elt F) → (⟨S350000, .i32⟩ : BufTy).Contents (Elt F)),
    binary main_v107 main_v127 main_v128 (addi : (⟨S350000, .i32⟩ : BufTy).Contents (Elt F) → (⟨S350000, .i32⟩ : BufTy).Contents (Elt F) → (⟨S350000, .i32⟩ : BufTy).Contents (Elt F)),
    ternary main_v126 main_v128 main_v107 main_v129 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    unary main_v129 main_v130 (broadcastInDim S350000x1 ![0] bcast_S350000_S350000x1_0 : (⟨S350000, .i32⟩ : BufTy).Contents (Elt F) → (⟨S350000x1, .i32⟩ : BufTy).Contents (Elt F)),
    binary main_v117 main_v130 main_v131 ((fun x i => Host.gather gather_S50000_S350000x1_S350000_n_0_n_n_0_1_1 x i) : (⟨S50000, .f32⟩ : BufTy).Contents (Elt F) → (⟨S350000x1, .i32⟩ : BufTy).Contents (Elt F) → (⟨S350000, .f32⟩ : BufTy).Contents (Elt F)),
    binary main_v124 main_v131 main_v132 (mulf : (⟨S350000, .f32⟩ : BufTy).Contents (Elt F) → (⟨S350000, .f32⟩ : BufTy).Contents (Elt F) → (⟨S350000, .f32⟩ : BufTy).Contents (Elt F)),
    nullary main_c_31 (constantI S_ 32 0#32),
    unary main_c_31 main_v133 (broadcastInDim S350000 ![] bcast_S_S350000 : (⟨S_, .i32⟩ : BufTy).Contents (Elt F) → (⟨S350000, .i32⟩ : BufTy).Contents (Elt F)),
    binary main_v104 main_v133 main_v134 (cmpi .slt : (⟨S350000, .i32⟩ : BufTy).Contents (Elt F) → (⟨S350000, .i32⟩ : BufTy).Contents (Elt F) → (⟨S350000, .i1⟩ : BufTy).Contents (Elt F)),
    nullary main_c_32 (constantI S_ 32 50000#32),
    unary main_c_32 main_v135 (broadcastInDim S350000 ![] bcast_S_S350000 : (⟨S_, .i32⟩ : BufTy).Contents (Elt F) → (⟨S350000, .i32⟩ : BufTy).Contents (Elt F)),
    binary main_v104 main_v135 main_v136 (addi : (⟨S350000, .i32⟩ : BufTy).Contents (Elt F) → (⟨S350000, .i32⟩ : BufTy).Contents (Elt F) → (⟨S350000, .i32⟩ : BufTy).Contents (Elt F)),
    ternary main_v134 main_v136 main_v104 main_v137 (select : (⟨S350000, .i1⟩ : BufTy).Contents (Elt F) → (⟨S350000, .i32⟩ : BufTy).Contents (Elt F) → (⟨S350000, .i32⟩ : BufTy).Contents (Elt F) → (⟨S350000, .i32⟩ : BufTy).Contents (Elt F)),
    unary main_v137 main_v138 (broadcastInDim S350000x1 ![0] bcast_S350000_S350000x1_0 : (⟨S350000, .i32⟩ : BufTy).Contents (Elt F) → (⟨S350000x1, .i32⟩ : BufTy).Contents (Elt F)),
    binary main_v100 main_v138 main_v139 ((fun x i => Host.gather gather_S50000x16_S350000x1_S350000x16_1_0_n_n_0_1_116 x i) : (⟨S50000x16, .f32⟩ : BufTy).Contents (Elt F) → (⟨S350000x1, .i32⟩ : BufTy).Contents (Elt F) → (⟨S350000x16, .f32⟩ : BufTy).Contents (Elt F)),
    unary main_v132 main_v140 (broadcastInDim S350000x1 ![0] bcast_S350000_S350000x1_0 : (⟨S350000, .f32⟩ : BufTy).Contents (Elt F) → (⟨S350000x1, .f32⟩ : BufTy).Contents (Elt F)),
    unary main_v140 main_v141 (broadcastInDim S350000x16 ![0, 1] bcast_S350000x1_S350000x16_0_1 : (⟨S350000x1, .f32⟩ : BufTy).Contents (Elt F) → (⟨S350000x16, .f32⟩ : BufTy).Contents (Elt F)),
    binary main_v139 main_v141 main_v142 (mulf : (⟨S350000x16, .f32⟩ : BufTy).Contents (Elt F) → (⟨S350000x16, .f32⟩ : BufTy).Contents (Elt F) → (⟨S350000x16, .f32⟩ : BufTy).Contents (Elt F)),
    nullary main_cst_33 (constant S_ .f32 0x00000000#32),
    unary main_cst_33 main_v143 (broadcastInDim S50000x16 ![] bcast_S_S50000x16 : (⟨S_, .f32⟩ : BufTy).Contents (Elt F) → (⟨S50000x16, .f32⟩ : BufTy).Contents (Elt F)) ]

set_option maxRecDepth 8192 in
theorem cops9_sub : (cops9 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub ..⟩

set_option maxRecDepth 8192 in
set_option maxHeartbeats 4000000 in
theorem cops9_fresh : ∀ op ∈ (cops9 : List (HloOp τ sig (Elt F))), op.fresh = ∅ := by
  intro _ h; (repeat (cases h with | head => rfl | tail _ h => ?_)); exact nomatch h

set_option maxRecDepth 8192 in
set_option maxHeartbeats 4000000 in
theorem cstep9_main_arg0 (m : (ℓ : Loc nD τ sig) → Buf (Elt F) ℓ) (c : Dev nD) (W : Valuation τ sig (Elt F)) (h : Lv9 m c W) :
    after cops9 W (Proc.devRef .tc main_arg0) = m ((c.tc : Thread nD τ).loc main_arg0) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_arg1 (m : (ℓ : Loc nD τ sig) → Buf (Elt F) ℓ) (c : Dev nD) (W : Valuation τ sig (Elt F)) (h : Lv9 m c W) :
    after cops9 W (Proc.devRef .tc main_arg1) = m ((c.tc : Thread nD τ).loc main_arg1) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_arg2 (m : (ℓ : Loc nD τ sig) → Buf (Elt F) ℓ) (c : Dev nD) (W : Valuation τ sig (Elt F)) (h : Lv9 m c W) :
    after cops9 W (Proc.devRef .tc main_arg2) = m ((c.tc : Thread nD τ).loc main_arg2) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_arg3 (m : (ℓ : Loc nD τ sig) → Buf (Elt F) ℓ) (c : Dev nD) (W : Valuation τ sig (Elt F)) (h : Lv9 m c W) :
    after cops9 W (Proc.devRef .tc main_arg3) = m ((c.tc : Thread nD τ).loc main_arg3) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_arg4 (m : (ℓ : Loc nD τ sig) → Buf (Elt F) ℓ) (c : Dev nD) (W : Valuation τ sig (Elt F)) (h : Lv9 m c W) :
    after cops9 W (Proc.devRef .tc main_arg4) = m ((c.tc : Thread nD τ).loc main_arg4) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_arg5 (m : (ℓ : Loc nD τ sig) → Buf (Elt F) ℓ) (c : Dev nD) (W : Valuation τ sig (Elt F)) (h : Lv9 m c W) :
    after cops9 W (Proc.devRef .tc main_arg5) = m ((c.tc : Thread nD τ).loc main_arg5) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_arg6 (m : (ℓ : Loc nD τ sig) → Buf (Elt F) ℓ) (c : Dev nD) (W : Valuation τ sig (Elt F)) (h : Lv9 m c W) :
    after cops9 W (Proc.devRef .tc main_arg6) = m ((c.tc : Thread nD τ).loc main_arg6) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_arg7 (m : (ℓ : Loc nD τ sig) → Buf (Elt F) ℓ) (c : Dev nD) (W : Valuation τ sig (Elt F)) (h : Lv9 m c W) :
    after cops9 W (Proc.devRef .tc main_arg7) = m ((c.tc : Thread nD τ).loc main_arg7) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_arg8 (m : (ℓ : Loc nD τ sig) → Buf (Elt F) ℓ) (c : Dev nD) (W : Valuation τ sig (Elt F)) (h : Lv9 m c W) :
    after cops9 W (Proc.devRef .tc main_arg8) = m ((c.tc : Thread nD τ).loc main_arg8) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_v99 (m : (ℓ : Loc nD τ sig) → Buf (Elt F) ℓ) (c : Dev nD) (W : Valuation τ sig (Elt F)) (h : Lv9 m c W) :
    after cops9 W (Proc.devRef .tc main_v99) = st_main_v99 m c := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_v107 (m : (ℓ : Loc nD τ sig) → Buf (Elt F) ℓ) (c : Dev nD) (W : Valuation τ sig (Elt F)) (h : Lv9 m c W) :
    after cops9 W (Proc.devRef .tc main_v107) = st_main_v107 m c := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_v142 (m : (ℓ : Loc nD τ sig) → Buf (Elt F) ℓ) (c : Dev nD) (W : Valuation τ sig (Elt F)) (h : Lv9 m c W) :
    after cops9 W (Proc.devRef .tc main_v142) = st_main_v142 m c := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep9_main_v143 (m : (ℓ : Loc nD τ sig) → Buf (Elt F) ℓ) (c : Dev nD) (W : Valuation τ sig (Elt F)) (h : Lv9 m c W) :
    after cops9 W (Proc.devRef .tc main_v143) = st_main_v143 m c := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

theorem cstep9 (m : (ℓ : Loc nD τ sig) → Buf (Elt F) ℓ) (c : Dev nD) (W : Valuation τ sig (Elt F)) (h : Lv9 m c W) : Lv10 m c (after cops9 W) :=
  ⟨cstep9_main_arg0 m c W h, cstep9_main_arg1 m c W h, cstep9_main_arg2 m c W h, cstep9_main_arg3 m c W h, cstep9_main_arg4 m c W h, cstep9_main_arg5 m c W h, cstep9_main_arg6 m c W h, cstep9_main_arg7 m c W h, cstep9_main_arg8 m c W h, cstep9_main_v99 m c W h, cstep9_main_v107 m c W h, cstep9_main_v142 m c W h, cstep9_main_v143 m c W h⟩

end Cert.ReferenceIdeal.ValueH

end
-- ==== Proof.Ref.RunH.D10.lean ====
/- Chunk 10 of the reference's @main (operations 189 to 197): its list, the list's two facts, and its step from cut 10 to cut 11 at any valuation: each buffer read later holds its stage, by the operations' result equations, the facts of cut 10 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops10 : List (HloOp τ sig (Elt F)) :=
  [ unary main_v107 main_v144 (broadcastInDim S350000x1 ![0] bcast_S350000_S350000x1_0 : (⟨S350000, .i32⟩ : BufTy).Contents (Elt F) → (⟨S350000x1, .i32⟩ : BufTy).Contents (Elt F)),
    ternary main_v143 main_v144 main_v142 main_v145 ((fun x i u => Host.scatterAdd scatter_S50000x16_S350000x1_S350000x16_1_0_0_1 x i u) : (⟨S50000x16, .f32⟩ : BufTy).Contents (Elt F) → (⟨S350000x1, .i32⟩ : BufTy).Contents (Elt F) → (⟨S350000x16, .f32⟩ : BufTy).Contents (Elt F) → (⟨S50000x16, .f32⟩ : BufTy).Contents (Elt F)),
    unary main_arg6 main_v146 (broadcastInDim S1x16 ![1] bcast_S16_S1x16_1 : (⟨S16, .f32⟩ : BufTy).Contents (Elt F) → (⟨S1x16, .f32⟩ : BufTy).Contents (Elt F)),
    unary main_v146 main_v147 (broadcastInDim S50000x16 ![0, 1] bcast_S1x16_S50000x16_0_1 : (⟨S1x16, .f32⟩ : BufTy).Contents (Elt F) → (⟨S50000x16, .f32⟩ : BufTy).Contents (Elt F)),
    binary main_v145 main_v147 main_v148 (addf : (⟨S50000x16, .f32⟩ : BufTy).Contents (Elt F) → (⟨S50000x16, .f32⟩ : BufTy).Contents (Elt F) → (⟨S50000x16, .f32⟩ : BufTy).Contents (Elt F)),
    binary main_v99 main_arg5 main_v149 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    nullary main_v150 (iotaInDim S50000 32 0),
    unary main_arg2 main_v151 ((extractStridedSlice S1x1797685 ![0, 0] · slices_S2x1797685_S1x1797685_0_0) : (⟨S2x1797685, .i32⟩ : BufTy).Contents (Elt F) → (⟨S1x1797685, .i32⟩ : BufTy).Contents (Elt F)),
    reshape main_v151 main_v152 rfl shapeCasts_S1x1797685_S1797685 ]

set_option maxRecDepth 8192 in
theorem cops10_sub : (cops10 : List (HloOp τ sig (Elt F))).Forall fun op => op.bufs ⊆ tcRefs τ sig :=
  ⟨unary_bufs_sub .., ternary_bufs_sub .., unary_bufs_sub .., unary_bufs_sub .., binary_bufs_sub .., binary_bufs_sub .., nullary_bufs_sub .., unary_bufs_sub .., reshape_bufs_sub ..⟩

set_option maxRecDepth 8192 in
set_option maxHeartbeats 4000000 in
theorem cops10_fresh : ∀ op ∈ (cops10 : List (HloOp τ sig (Elt F))), op.fresh = ∅ := by
  intro _ h; (repeat (cases h with | head => rfl | tail _ h => ?_)); exact nomatch h

set_option maxRecDepth 8192 in
set_option maxHeartbeats 4000000 in
theorem cstep10_main_arg0 (m : (ℓ : Loc nD τ sig) → Buf (Elt F) ℓ) (c : Dev nD) (W : Valuation τ sig (Elt F)) (h : Lv10 m c W) :
    after cops10 W (Proc.devRef .tc main_arg0) = m ((c.tc : Thread nD τ).loc main_arg0) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_arg1 (m : (ℓ : Loc nD τ sig) → Buf (Elt F) ℓ) (c : Dev nD) (W : Valuation τ sig (Elt F)) (h : Lv10 m c W) :
    after cops10 W (Proc.devRef .tc main_arg1) = m ((c.tc : Thread nD τ).loc main_arg1) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_arg2 (m : (ℓ : Loc nD τ sig) → Buf (Elt F) ℓ) (c : Dev nD) (W : Valuation τ sig (Elt F)) (h : Lv10 m c W) :
    after cops10 W (Proc.devRef .tc main_arg2) = m ((c.tc : Thread nD τ).loc main_arg2) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_arg3 (m : (ℓ : Loc nD τ sig) → Buf (Elt F) ℓ) (c : Dev nD) (W : Valuation τ sig (Elt F)) (h : Lv10 m c W) :
    after cops10 W (Proc.devRef .tc main_arg3) = m ((c.tc : Thread nD τ).loc main_arg3) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_arg4 (m : (ℓ : Loc nD τ sig) → Buf (Elt F) ℓ) (c : Dev nD) (W : Valuation τ sig (Elt F)) (h : Lv10 m c W) :
    after cops10 W (Proc.devRef .tc main_arg4) = m ((c.tc : Thread nD τ).loc main_arg4) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_arg5 (m : (ℓ : Loc nD τ sig) → Buf (Elt F) ℓ) (c : Dev nD) (W : Valuation τ sig (Elt F)) (h : Lv10 m c W) :
    after cops10 W (Proc.devRef .tc main_arg5) = m ((c.tc : Thread nD τ).loc main_arg5) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_arg6 (m : (ℓ : Loc nD τ sig) → Buf (Elt F) ℓ) (c : Dev nD) (W : Valuation τ sig (Elt F)) (h : Lv10 m c W) :
    after cops10 W (Proc.devRef .tc main_arg6) = m ((c.tc : Thread nD τ).loc main_arg6) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_arg7 (m : (ℓ : Loc nD τ sig) → Buf (Elt F) ℓ) (c : Dev nD) (W : Valuation τ sig (Elt F)) (h : Lv10 m c W) :
    after cops10 W (Proc.devRef .tc main_arg7) = m ((c.tc : Thread nD τ).loc main_arg7) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_arg8 (m : (ℓ : Loc nD τ sig) → Buf (Elt F) ℓ) (c : Dev nD) (W : Valuation τ sig (Elt F)) (h : Lv10 m c W) :
    after cops10 W (Proc.devRef .tc main_arg8) = m ((c.tc : Thread nD τ).loc main_arg8) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_v148 (m : (ℓ : Loc nD τ sig) → Buf (Elt F) ℓ) (c : Dev nD) (W : Valuation τ sig (Elt F)) (h : Lv10 m c W) :
    after cops10 W (Proc.devRef .tc main_v148) = st_main_v148 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_v149 (m : (ℓ : Loc nD τ sig) → Buf (Elt F) ℓ) (c : Dev nD) (W : Valuation τ sig (Elt F)) (h : Lv10 m c W) :
    after cops10 W (Proc.devRef .tc main_v149) = st_main_v149 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_v150 (m : (ℓ : Loc nD τ sig) → Buf (Elt F) ℓ) (c : Dev nD) (W : Valuation τ sig (Elt F)) (h : Lv10 m c W) :
    after cops10 W (Proc.devRef .tc main_v150) = st_main_v150 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep10_main_v152 (m : (ℓ : Loc nD τ sig) → Buf (Elt F) ℓ) (c : Dev nD) (W : Valuation τ sig (Elt F)) (h : Lv10 m c W) :
    after cops10 W (Proc.devRef .tc main_v152) = st_main_v152 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

theorem cstep10 (m : (ℓ : Loc nD τ sig) → Buf (Elt F) ℓ) (c : Dev nD) (W : Valuation τ sig (Elt F)) (h : Lv10 m c W) : Lv11 m c (after cops10 W) :=
  ⟨cstep10_main_arg0 m c W h, cstep10_main_arg1 m c W h, cstep10_main_arg2 m c W h, cstep10_main_arg3 m c W h, cstep10_main_arg4 m c W h, cstep10_main_arg5 m c W h, cstep10_main_arg6 m c W h, cstep10_main_arg7 m c W h, cstep10_main_arg8 m c W h, cstep10_main_v148 m c W h, cstep10_main_v149 m c W h, cstep10_main_v150 m c W h, cstep10_main_v152 m c W h⟩

end Cert.ReferenceIdeal.ValueH

end
-- ==== Proof.Ref.RunH.D11.lean ====
/- Chunk 11 of the reference's @main (operations 198 to 200): its list, the list's two facts, and its step from cut 11 to cut 12 at any valuation: each buffer read later holds its stage, by the operations' result equations, the facts of cut 11 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops11 : List (HloOp τ sig (Elt F)) :=
  [ binary main_v152 main_v150 main_v153 ((fun a b => concatenate S1847685 0 [⟨S1797685, a⟩, ⟨S50000, b⟩] concatenates_S1797685_S50000_S1847685_d0) : (⟨S1797685, .i32⟩ : BufTy).Contents (Elt F) → (⟨S50000, .i32⟩ : BufTy).Contents (Elt F) → (⟨S1847685, .i32⟩ : BufTy).Contents (Elt F)),
    unary main_arg2 main_v154 ((extractStridedSlice S1x1797685 ![1, 0] · slices_S2x1797685_S1x1797685_1_0) : (⟨S2x1797685, .i32⟩ : BufTy).Contents (Elt F) → (⟨S1x1797685, .i32⟩ : BufTy).Contents (Elt F)),
    reshape main_v154 main_v155 rfl shapeCasts_S1x1797685_S1797685 ]

set_option maxRecDepth 8192 in
theorem cops11_sub : (cops11 : List (HloOp τ sig (Elt F))).Forall fun op => op.bufs ⊆ tcRefs τ sig :=
  ⟨binary_bufs_sub .., unary_bufs_sub .., reshape_bufs_sub ..⟩

set_option maxRecDepth 8192 in
set_option maxHeartbeats 4000000 in
theorem cops11_fresh : ∀ op ∈ (cops11 : List (HloOp τ sig (Elt F))), op.fresh = ∅ := by
  intro _ h; (repeat (cases h with | head => rfl | tail _ h => ?_)); exact nomatch h

set_option maxRecDepth 8192 in
set_option maxHeartbeats 4000000 in
theorem cstep11_main_arg0 (m : (ℓ : Loc nD τ sig) → Buf (Elt F) ℓ) (c : Dev nD) (W : Valuation τ sig (Elt F)) (h : Lv11 m c W) :
    after cops11 W (Proc.devRef .tc main_arg0) = m ((c.tc : Thread nD τ).loc main_arg0) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_arg1 (m : (ℓ : Loc nD τ sig) → Buf (Elt F) ℓ) (c : Dev nD) (W : Valuation τ sig (Elt F)) (h : Lv11 m c W) :
    after cops11 W (Proc.devRef .tc main_arg1) = m ((c.tc : Thread nD τ).loc main_arg1) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_arg2 (m : (ℓ : Loc nD τ sig) → Buf (Elt F) ℓ) (c : Dev nD) (W : Valuation τ sig (Elt F)) (h : Lv11 m c W) :
    after cops11 W (Proc.devRef .tc main_arg2) = m ((c.tc : Thread nD τ).loc main_arg2) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_arg3 (m : (ℓ : Loc nD τ sig) → Buf (Elt F) ℓ) (c : Dev nD) (W : Valuation τ sig (Elt F)) (h : Lv11 m c W) :
    after cops11 W (Proc.devRef .tc main_arg3) = m ((c.tc : Thread nD τ).loc main_arg3) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_arg4 (m : (ℓ : Loc nD τ sig) → Buf (Elt F) ℓ) (c : Dev nD) (W : Valuation τ sig (Elt F)) (h : Lv11 m c W) :
    after cops11 W (Proc.devRef .tc main_arg4) = m ((c.tc : Thread nD τ).loc main_arg4) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_arg5 (m : (ℓ : Loc nD τ sig) → Buf (Elt F) ℓ) (c : Dev nD) (W : Valuation τ sig (Elt F)) (h : Lv11 m c W) :
    after cops11 W (Proc.devRef .tc main_arg5) = m ((c.tc : Thread nD τ).loc main_arg5) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_arg6 (m : (ℓ : Loc nD τ sig) → Buf (Elt F) ℓ) (c : Dev nD) (W : Valuation τ sig (Elt F)) (h : Lv11 m c W) :
    after cops11 W (Proc.devRef .tc main_arg6) = m ((c.tc : Thread nD τ).loc main_arg6) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_arg7 (m : (ℓ : Loc nD τ sig) → Buf (Elt F) ℓ) (c : Dev nD) (W : Valuation τ sig (Elt F)) (h : Lv11 m c W) :
    after cops11 W (Proc.devRef .tc main_arg7) = m ((c.tc : Thread nD τ).loc main_arg7) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_arg8 (m : (ℓ : Loc nD τ sig) → Buf (Elt F) ℓ) (c : Dev nD) (W : Valuation τ sig (Elt F)) (h : Lv11 m c W) :
    after cops11 W (Proc.devRef .tc main_arg8) = m ((c.tc : Thread nD τ).loc main_arg8) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_v148 (m : (ℓ : Loc nD τ sig) → Buf (Elt F) ℓ) (c : Dev nD) (W : Valuation τ sig (Elt F)) (h : Lv11 m c W) :
    after cops11 W (Proc.devRef .tc main_v148) = st_main_v148 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_v149 (m : (ℓ : Loc nD τ sig) → Buf (Elt F) ℓ) (c : Dev nD) (W : Valuation τ sig (Elt F)) (h : Lv11 m c W) :
    after cops11 W (Proc.devRef .tc main_v149) = st_main_v149 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_v150 (m : (ℓ : Loc nD τ sig) → Buf (Elt F) ℓ) (c : Dev nD) (W : Valuation τ sig (Elt F)) (h : Lv11 m c W) :
    after cops11 W (Proc.devRef .tc main_v150) = st_main_v150 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_v153 (m : (ℓ : Loc nD τ sig) → Buf (Elt F) ℓ) (c : Dev nD) (W : Valuation τ sig (Elt F)) (h : Lv11 m c W) :
    after cops11 W (Proc.devRef .tc main_v153) = st_main_v153 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep11_main_v155 (m : (ℓ : Loc nD τ sig) → Buf (Elt F) ℓ) (c : Dev nD) (W : Valuation τ sig (Elt F)) (h : Lv11 m c W) :
    after cops11 W (Proc.devRef .tc main_v155) = st_main_v155 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

theorem cstep11 (m : (ℓ : Loc nD τ sig) → Buf (Elt F) ℓ) (c : Dev nD) (W : Valuation τ sig (Elt F)) (h : Lv11 m c W) : Lv12 m c (after cops11 W) :=
  ⟨cstep11_main_arg0 m c W h, cstep11_main_arg1 m c W h, cstep11_main_arg2 m c W h, cstep11_main_arg3 m c W h, cstep11_main_arg4 m c W h, cstep11_main_arg5 m c W h, cstep11_main_arg6 m c W h, cstep11_main_arg7 m c W h, cstep11_main_arg8 m c W h, cstep11_main_v148 m c W h, cstep11_main_v149 m c W h, cstep11_main_v150 m c W h, cstep11_main_v153 m c W h, cstep11_main_v155 m c W h⟩

end Cert.ReferenceIdeal.ValueH

end
-- ==== Proof.Ref.RunH.D12.lean ====
/- Chunk 12 of the reference's @main (operations 201 to 250): its list, the list's two facts, and its step from cut 12 to cut 13 at any valuation: each buffer read later holds its stage, by the operations' result equations, the facts of cut 12 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops12 : List (HloOp τ sig (Elt F)) :=
  [ binary main_v155 main_v150 main_v156 ((fun a b => concatenate S1847685 0 [⟨S1797685, a⟩, ⟨S50000, b⟩] concatenates_S1797685_S50000_S1847685_d0) : (⟨S1797685, .i32⟩ : BufTy).Contents (Elt F) → (⟨S50000, .i32⟩ : BufTy).Contents (Elt F) → (⟨S1847685, .i32⟩ : BufTy).Contents (Elt F)),
    nullary main_cst_34 (constant S_ .f32 0x3F800000#32),
    unary main_cst_34 main_v157 (broadcastInDim S1847685 ![] bcast_S_S1847685 : (⟨S_, .f32⟩ : BufTy).Contents (Elt F) → (⟨S1847685, .f32⟩ : BufTy).Contents (Elt F)),
    nullary main_cst_35 (constant S_ .f32 0x00000000#32),
    unary main_cst_35 main_v158 (broadcastInDim S50000 ![] bcast_S_S50000 : (⟨S_, .f32⟩ : BufTy).Contents (Elt F) → (⟨S50000, .f32⟩ : BufTy).Contents (Elt F)),
    unary main_v156 main_v159 (broadcastInDim S1847685x1 ![0] bcast_S1847685_S1847685x1_0 : (⟨S1847685, .i32⟩ : BufTy).Contents (Elt F) → (⟨S1847685x1, .i32⟩ : BufTy).Contents (Elt F)),
    ternary main_v158 main_v159 main_v157 main_v160 ((fun x i u => Host.scatterAdd scatter_S50000_S1847685x1_S1847685_n_0_0_1 x i u) : (⟨S50000, .f32⟩ : BufTy).Contents (Elt F) → (⟨S1847685x1, .i32⟩ : BufTy).Contents (Elt F) → (⟨S1847685, .f32⟩ : BufTy).Contents (Elt F) → (⟨S50000, .f32⟩ : BufTy).Contents (Elt F)),
    nullary main_cst_36 (constant S_ .f32 0x00000000#32),
    unary main_cst_36 main_v161 (broadcastInDim S50000 ![] bcast_S_S50000 : (⟨S_, .f32⟩ : BufTy).Contents (Elt F) → (⟨S50000, .f32⟩ : BufTy).Contents (Elt F)),
    binary main_v160 main_v161 main_v162 (cmpf .ogt : (⟨S50000, .f32⟩ : BufTy).Contents (Elt F) → (⟨S50000, .f32⟩ : BufTy).Contents (Elt F) → (⟨S50000, .i1⟩ : BufTy).Contents (Elt F)),
    nullary main_cst_37 (constant S_ .f32 0x2B8CBCCC#32),
    unary main_cst_37 main_v163 (broadcastInDim S50000 ![] bcast_S_S50000 : (⟨S_, .f32⟩ : BufTy).Contents (Elt F) → (⟨S50000, .f32⟩ : BufTy).Contents (Elt F)),
    binary main_v160 main_v163 main_v164 (maximumf : (⟨S50000, .f32⟩ : BufTy).Contents (Elt F) → (⟨S50000, .f32⟩ : BufTy).Contents (Elt F) → (⟨S50000, .f32⟩ : BufTy).Contents (Elt F)),
    unary main_v164 main_v165 (Host.rsqrt : (⟨S50000, .f32⟩ : BufTy).Contents (Elt F) → (⟨S50000, .f32⟩ : BufTy).Contents (Elt F)),
    nullary main_cst_38 (constant S_ .f32 0x00000000#32),
    TRef.unary (TRef.of (T := ⟨S_, .f32⟩) main_cst_38) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v162) (TRef.of (T := ⟨S50000, .f32⟩) main_v165) (TRef.of (T := ⟨S50000, .f32⟩) main_call4_v1) (TRef.of (T := ⟨S50000, .f32⟩) main_v166) select,
    nullary main_c_39 (constantI S_ 32 0#32),
    unary main_c_39 main_v167 (broadcastInDim S1847685 ![] bcast_S_S1847685 : (⟨S_, .i32⟩ : BufTy).Contents (Elt F) → (⟨S1847685, .i32⟩ : BufTy).Contents (Elt F)),
    binary main_v153 main_v167 main_v168 (cmpi .slt : (⟨S1847685, .i32⟩ : BufTy).Contents (Elt F) → (⟨S1847685, .i32⟩ : BufTy).Contents (Elt F) → (⟨S1847685, .i1⟩ : BufTy).Contents (Elt F)),
    nullary main_c_40 (constantI S_ 32 50000#32),
    unary main_c_40 main_v169 (broadcastInDim S1847685 ![] bcast_S_S1847685 : (⟨S_, .i32⟩ : BufTy).Contents (Elt F) → (⟨S1847685, .i32⟩ : BufTy).Contents (Elt F)),
    binary main_v153 main_v169 main_v170 (addi : (⟨S1847685, .i32⟩ : BufTy).Contents (Elt F) → (⟨S1847685, .i32⟩ : BufTy).Contents (Elt F) → (⟨S1847685, .i32⟩ : BufTy).Contents (Elt F)),
    ternary main_v168 main_v170 main_v153 main_v171 (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)),
    unary main_v171 main_v172 (broadcastInDim S1847685x1 ![0] bcast_S1847685_S1847685x1_0 : (⟨S1847685, .i32⟩ : BufTy).Contents (Elt F) → (⟨S1847685x1, .i32⟩ : BufTy).Contents (Elt F)),
    binary main_v166 main_v172 main_v173 ((fun x i => Host.gather gather_S50000_S1847685x1_S1847685_n_0_n_n_0_1_1 x i) : (⟨S50000, .f32⟩ : BufTy).Contents (Elt F) → (⟨S1847685x1, .i32⟩ : BufTy).Contents (Elt F) → (⟨S1847685, .f32⟩ : BufTy).Contents (Elt F)),
    nullary main_c_41 (constantI S_ 32 0#32),
    unary main_c_41 main_v174 (broadcastInDim S1847685 ![] bcast_S_S1847685 : (⟨S_, .i32⟩ : BufTy).Contents (Elt F) → (⟨S1847685, .i32⟩ : BufTy).Contents (Elt F)),
    binary main_v156 main_v174 main_v175 (cmpi .slt : (⟨S1847685, .i32⟩ : BufTy).Contents (Elt F) → (⟨S1847685, .i32⟩ : BufTy).Contents (Elt F) → (⟨S1847685, .i1⟩ : BufTy).Contents (Elt F)),
    nullary main_c_42 (constantI S_ 32 50000#32),
    unary main_c_42 main_v176 (broadcastInDim S1847685 ![] bcast_S_S1847685 : (⟨S_, .i32⟩ : BufTy).Contents (Elt F) → (⟨S1847685, .i32⟩ : BufTy).Contents (Elt F)),
    binary main_v156 main_v176 main_v177 (addi : (⟨S1847685, .i32⟩ : BufTy).Contents (Elt F) → (⟨S1847685, .i32⟩ : BufTy).Contents (Elt F) → (⟨S1847685, .i32⟩ : BufTy).Contents (Elt F)),
    ternary main_v175 main_v177 main_v156 main_v178 (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)),
    unary main_v178 main_v179 (broadcastInDim S1847685x1 ![0] bcast_S1847685_S1847685x1_0 : (⟨S1847685, .i32⟩ : BufTy).Contents (Elt F) → (⟨S1847685x1, .i32⟩ : BufTy).Contents (Elt F)),
    binary main_v166 main_v179 main_v180 ((fun x i => Host.gather gather_S50000_S1847685x1_S1847685_n_0_n_n_0_1_1 x i) : (⟨S50000, .f32⟩ : BufTy).Contents (Elt F) → (⟨S1847685x1, .i32⟩ : BufTy).Contents (Elt F) → (⟨S1847685, .f32⟩ : BufTy).Contents (Elt F)),
    binary main_v173 main_v180 main_v181 (mulf : (⟨S1847685, .f32⟩ : BufTy).Contents (Elt F) → (⟨S1847685, .f32⟩ : BufTy).Contents (Elt F) → (⟨S1847685, .f32⟩ : BufTy).Contents (Elt F)),
    nullary main_c_43 (constantI S_ 32 0#32),
    unary main_c_43 main_v182 (broadcastInDim S1847685 ![] bcast_S_S1847685 : (⟨S_, .i32⟩ : BufTy).Contents (Elt F) → (⟨S1847685, .i32⟩ : BufTy).Contents (Elt F)),
    binary main_v153 main_v182 main_v183 (cmpi .slt : (⟨S1847685, .i32⟩ : BufTy).Contents (Elt F) → (⟨S1847685, .i32⟩ : BufTy).Contents (Elt F) → (⟨S1847685, .i1⟩ : BufTy).Contents (Elt F)),
    nullary main_c_44 (constantI S_ 32 50000#32),
    unary main_c_44 main_v184 (broadcastInDim S1847685 ![] bcast_S_S1847685 : (⟨S_, .i32⟩ : BufTy).Contents (Elt F) → (⟨S1847685, .i32⟩ : BufTy).Contents (Elt F)),
    binary main_v153 main_v184 main_v185 (addi : (⟨S1847685, .i32⟩ : BufTy).Contents (Elt F) → (⟨S1847685, .i32⟩ : BufTy).Contents (Elt F) → (⟨S1847685, .i32⟩ : BufTy).Contents (Elt F)),
    ternary main_v183 main_v185 main_v153 main_v186 (select : (⟨S1847685, .i1⟩ : BufTy).Contents (Elt F) → (⟨S1847685, .i32⟩ : BufTy).Contents (Elt F) → (⟨S1847685, .i32⟩ : BufTy).Contents (Elt F) → (⟨S1847685, .i32⟩ : BufTy).Contents (Elt F)),
    unary main_v186 main_v187 (broadcastInDim S1847685x1 ![0] bcast_S1847685_S1847685x1_0 : (⟨S1847685, .i32⟩ : BufTy).Contents (Elt F) → (⟨S1847685x1, .i32⟩ : BufTy).Contents (Elt F)),
    binary main_v149 main_v187 main_v188 ((fun x i => Host.gather gather_S50000x16_S1847685x1_S1847685x16_1_0_n_n_0_1_116 x i) : (⟨S50000x16, .f32⟩ : BufTy).Contents (Elt F) → (⟨S1847685x1, .i32⟩ : BufTy).Contents (Elt F) → (⟨S1847685x16, .f32⟩ : BufTy).Contents (Elt F)),
    unary main_v181 main_v189 (broadcastInDim S1847685x1 ![0] bcast_S1847685_S1847685x1_0 : (⟨S1847685, .f32⟩ : BufTy).Contents (Elt F) → (⟨S1847685x1, .f32⟩ : BufTy).Contents (Elt F)),
    unary main_v189 main_v190 (broadcastInDim S1847685x16 ![0, 1] bcast_S1847685x1_S1847685x16_0_1 : (⟨S1847685x1, .f32⟩ : BufTy).Contents (Elt F) → (⟨S1847685x16, .f32⟩ : BufTy).Contents (Elt F)),
    binary main_v188 main_v190 main_v191 (mulf : (⟨S1847685x16, .f32⟩ : BufTy).Contents (Elt F) → (⟨S1847685x16, .f32⟩ : BufTy).Contents (Elt F) → (⟨S1847685x16, .f32⟩ : BufTy).Contents (Elt F)),
    nullary main_cst_45 (constant S_ .f32 0x00000000#32) ]

set_option maxRecDepth 8192 in
theorem cops12_sub : (cops12 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub ..⟩

set_option maxRecDepth 8192 in
set_option maxHeartbeats 4000000 in
theorem cops12_fresh : ∀ op ∈ (cops12 : List (HloOp τ sig (Elt F))), op.fresh = ∅ := by
  intro _ h; (repeat (cases h with | head => rfl | tail _ h => ?_)); exact nomatch h

set_option maxRecDepth 8192 in
set_option maxHeartbeats 4000000 in
theorem cstep12_main_arg0 (m : (ℓ : Loc nD τ sig) → Buf (Elt F) ℓ) (c : Dev nD) (W : Valuation τ sig (Elt F)) (h : Lv12 m c W) :
    after cops12 W (Proc.devRef .tc main_arg0) = m ((c.tc : Thread nD τ).loc main_arg0) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_arg1 (m : (ℓ : Loc nD τ sig) → Buf (Elt F) ℓ) (c : Dev nD) (W : Valuation τ sig (Elt F)) (h : Lv12 m c W) :
    after cops12 W (Proc.devRef .tc main_arg1) = m ((c.tc : Thread nD τ).loc main_arg1) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_arg2 (m : (ℓ : Loc nD τ sig) → Buf (Elt F) ℓ) (c : Dev nD) (W : Valuation τ sig (Elt F)) (h : Lv12 m c W) :
    after cops12 W (Proc.devRef .tc main_arg2) = m ((c.tc : Thread nD τ).loc main_arg2) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_arg3 (m : (ℓ : Loc nD τ sig) → Buf (Elt F) ℓ) (c : Dev nD) (W : Valuation τ sig (Elt F)) (h : Lv12 m c W) :
    after cops12 W (Proc.devRef .tc main_arg3) = m ((c.tc : Thread nD τ).loc main_arg3) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_arg4 (m : (ℓ : Loc nD τ sig) → Buf (Elt F) ℓ) (c : Dev nD) (W : Valuation τ sig (Elt F)) (h : Lv12 m c W) :
    after cops12 W (Proc.devRef .tc main_arg4) = m ((c.tc : Thread nD τ).loc main_arg4) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_arg5 (m : (ℓ : Loc nD τ sig) → Buf (Elt F) ℓ) (c : Dev nD) (W : Valuation τ sig (Elt F)) (h : Lv12 m c W) :
    after cops12 W (Proc.devRef .tc main_arg5) = m ((c.tc : Thread nD τ).loc main_arg5) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_arg6 (m : (ℓ : Loc nD τ sig) → Buf (Elt F) ℓ) (c : Dev nD) (W : Valuation τ sig (Elt F)) (h : Lv12 m c W) :
    after cops12 W (Proc.devRef .tc main_arg6) = m ((c.tc : Thread nD τ).loc main_arg6) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_arg7 (m : (ℓ : Loc nD τ sig) → Buf (Elt F) ℓ) (c : Dev nD) (W : Valuation τ sig (Elt F)) (h : Lv12 m c W) :
    after cops12 W (Proc.devRef .tc main_arg7) = m ((c.tc : Thread nD τ).loc main_arg7) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_arg8 (m : (ℓ : Loc nD τ sig) → Buf (Elt F) ℓ) (c : Dev nD) (W : Valuation τ sig (Elt F)) (h : Lv12 m c W) :
    after cops12 W (Proc.devRef .tc main_arg8) = m ((c.tc : Thread nD τ).loc main_arg8) := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_v148 (m : (ℓ : Loc nD τ sig) → Buf (Elt F) ℓ) (c : Dev nD) (W : Valuation τ sig (Elt F)) (h : Lv12 m c W) :
    after cops12 W (Proc.devRef .tc main_v148) = st_main_v148 m c := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_v156 (m : (ℓ : Loc nD τ sig) → Buf (Elt F) ℓ) (c : Dev nD) (W : Valuation τ sig (Elt F)) (h : Lv12 m c W) :
    after cops12 W (Proc.devRef .tc main_v156) = st_main_v156 m c := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_v191 (m : (ℓ : Loc nD τ sig) → Buf (Elt F) ℓ) (c : Dev nD) (W : Valuation τ sig (Elt F)) (h : Lv12 m c W) :
    after cops12 W (Proc.devRef .tc main_v191) = st_main_v191 m c := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

set_option maxRecDepth 8192 in
set_option maxHeartbeats 4000000 in
theorem cstep12_main_cst_45 (m : (ℓ : Loc nD τ sig) → Buf (Elt F) ℓ) (c : Dev nD) (W : Valuation τ sig (Elt F)) (h : Lv12 m c W) :
    after cops12 W (Proc.devRef .tc main_cst_45) = st_main_cst_45 m c := by
  obtain ⟨h0, h1, h2, h3, h4, h5, h6, h7, h8, h9, h10, h11, h12, h13⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]))
  all_goals rfl

theorem cstep12 (m : (ℓ : Loc nD τ sig) → Buf (Elt F) ℓ) (c : Dev nD) (W : Valuation τ sig (Elt F)) (h : Lv12 m c W) : Lv13 m c (after cops12 W) :=
  ⟨cstep12_main_arg0 m c W h, cstep12_main_arg1 m c W h, cstep12_main_arg2 m c W h, cstep12_main_arg3 m c W h, cstep12_main_arg4 m c W h, cstep12_main_arg5 m c W h, cstep12_main_arg6 m c W h, cstep12_main_arg7 m c W h, cstep12_main_arg8 m c W h, cstep12_main_v148 m c W h, cstep12_main_v156 m c W h, cstep12_main_v191 m c W h, cstep12_main_cst_45 m c W h⟩

end Cert.ReferenceIdeal.ValueH

end
-- ==== Proof.Ref.RunH.D13.lean ====
/- Chunk 13 of the reference's @main (operations 251 to 256): its list, the list's two facts, and its step from cut 13 to cut 14 at any valuation: each buffer read later holds its stage, by the operations' result equations, the facts of cut 13 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops13 : List (HloOp τ sig (Elt F)) :=
  [ unary main_cst_45 main_v192 (broadcastInDim S50000x16 ![] bcast_S_S50000x16 : (⟨S_, .f32⟩ : BufTy).Contents (Elt F) → (⟨S50000x16, .f32⟩ : BufTy).Contents (Elt F)),
    unary main_v156 main_v193 (broadcastInDim S1847685x1 ![0] bcast_S1847685_S1847685x1_0 : (⟨S1847685, .i32⟩ : BufTy).Contents (Elt F) → (⟨S1847685x1, .i32⟩ : BufTy).Contents (Elt F)),
    ternary main_v192 main_v193 main_v191 main_v194 ((fun x i u => Host.scatterAdd scatter_S50000x16_S1847685x1_S1847685x16_1_0_0_1 x i u) : (⟨S50000x16, .f32⟩ : BufTy).Contents (Elt F) → (⟨S1847685x1, .i32⟩ : BufTy).Contents (Elt F) → (⟨S1847685x16, .f32⟩ : BufTy).Contents (Elt F) → (⟨S50000x16, .f32⟩ : BufTy).Contents (Elt F)),
    unary main_arg6 main_v195 (broadcastInDim S1x16 ![1] bcast_S16_S1x16_1 : (⟨S16, .f32⟩ : BufTy).Contents (Elt F) → (⟨S1x16, .f32⟩ : BufTy).Contents (Elt F)),
    unary main_v195 main_v196 (broadcastInDim S50000x16 ![0, 1] bcast_S1x16_S50000x16_0_1 : (⟨S1x16, .f32⟩ : BufTy).Contents (Elt F) → (⟨S50000x16, .f32⟩ : BufTy).Contents (Elt F)),
    binary main_v194 main_v196 main_v197 (addf : (⟨S50000x16, .f32⟩ : BufTy).Contents (Elt F) → (⟨S50000x16, .f32⟩ : BufTy).Contents (Elt F) → (⟨S50000x16, .f32⟩ : BufTy).Contents (Elt F)) ]

set_option maxRecDepth 8192 in
theorem cops13_sub : (cops13 : List (HloOp τ sig (Elt F))).Forall fun op => op.bufs ⊆ tcRefs τ sig :=
  ⟨unary_bufs_sub .., unary_bufs_sub .., ternary_bufs_sub .., unary_bufs_sub .., unary_bufs_sub .., binary_bufs_sub ..⟩

set_option maxRecDepth 8192 in
set_option maxHeartbeats 4000000 in
theorem cops13_fresh : ∀ op ∈ (cops13 : List (HloOp τ sig (Elt F))), op.fresh = ∅ := by
  intro _ h; (repeat (cases h with | head => rfl | tail _ h => ?_)); exact nomatch h

set_option maxRecDepth 8192 in
set_option maxHeartbeats 4000000 in
theorem cstep13_main_arg0 (m : (ℓ : Loc nD τ sig) → Buf (Elt F) ℓ) (c : Dev nD) (W : Valuation τ sig (Elt F)) (h : Lv13 m c W) :
    after cops13 W (Proc.devRef .tc main_arg0) = m ((c.tc : Thread nD τ).loc main_arg0) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep13_main_arg1 (m : (ℓ : Loc nD τ sig) → Buf (Elt F) ℓ) (c : Dev nD) (W : Valuation τ sig (Elt F)) (h : Lv13 m c W) :
    after cops13 W (Proc.devRef .tc main_arg1) = m ((c.tc : Thread nD τ).loc main_arg1) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep13_main_arg2 (m : (ℓ : Loc nD τ sig) → Buf (Elt F) ℓ) (c : Dev nD) (W : Valuation τ sig (Elt F)) (h : Lv13 m c W) :
    after cops13 W (Proc.devRef .tc main_arg2) = m ((c.tc : Thread nD τ).loc main_arg2) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep13_main_arg3 (m : (ℓ : Loc nD τ sig) → Buf (Elt F) ℓ) (c : Dev nD) (W : Valuation τ sig (Elt F)) (h : Lv13 m c W) :
    after cops13 W (Proc.devRef .tc main_arg3) = m ((c.tc : Thread nD τ).loc main_arg3) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep13_main_arg4 (m : (ℓ : Loc nD τ sig) → Buf (Elt F) ℓ) (c : Dev nD) (W : Valuation τ sig (Elt F)) (h : Lv13 m c W) :
    after cops13 W (Proc.devRef .tc main_arg4) = m ((c.tc : Thread nD τ).loc main_arg4) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep13_main_arg5 (m : (ℓ : Loc nD τ sig) → Buf (Elt F) ℓ) (c : Dev nD) (W : Valuation τ sig (Elt F)) (h : Lv13 m c W) :
    after cops13 W (Proc.devRef .tc main_arg5) = m ((c.tc : Thread nD τ).loc main_arg5) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep13_main_arg6 (m : (ℓ : Loc nD τ sig) → Buf (Elt F) ℓ) (c : Dev nD) (W : Valuation τ sig (Elt F)) (h : Lv13 m c W) :
    after cops13 W (Proc.devRef .tc main_arg6) = m ((c.tc : Thread nD τ).loc main_arg6) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep13_main_arg7 (m : (ℓ : Loc nD τ sig) → Buf (Elt F) ℓ) (c : Dev nD) (W : Valuation τ sig (Elt F)) (h : Lv13 m c W) :
    after cops13 W (Proc.devRef .tc main_arg7) = m ((c.tc : Thread nD τ).loc main_arg7) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep13_main_arg8 (m : (ℓ : Loc nD τ sig) → Buf (Elt F) ℓ) (c : Dev nD) (W : Valuation τ sig (Elt F)) (h : Lv13 m c W) :
    after cops13 W (Proc.devRef .tc main_arg8) = m ((c.tc : Thread nD τ).loc main_arg8) := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep13_main_v148 (m : (ℓ : Loc nD τ sig) → Buf (Elt F) ℓ) (c : Dev nD) (W : Valuation τ sig (Elt F)) (h : Lv13 m c W) :
    after cops13 W (Proc.devRef .tc main_v148) = st_main_v148 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

set_option maxRecDepth 8192 in
set_option maxHeartbeats 4000000 in
theorem cstep13_main_v197 (m : (ℓ : Loc nD τ sig) → Buf (Elt F) ℓ) (c : Dev nD) (W : Valuation τ sig (Elt F)) (h : Lv13 m c W) :
    after cops13 W (Proc.devRef .tc main_v197) = st_main_v197 m c := by
  obtain ⟨h0, h1, h2, h3, h4, h5, h6, h7, h8, h9, h10, h11, h12⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]); (try rw [h11]); (try rw [h12]))
  all_goals rfl

theorem cstep13 (m : (ℓ : Loc nD τ sig) → Buf (Elt F) ℓ) (c : Dev nD) (W : Valuation τ sig (Elt F)) (h : Lv13 m c W) : Lv14 m c (after cops13 W) :=
  ⟨cstep13_main_arg0 m c W h, cstep13_main_arg1 m c W h, cstep13_main_arg2 m c W h, cstep13_main_arg3 m c W h, cstep13_main_arg4 m c W h, cstep13_main_arg5 m c W h, cstep13_main_arg6 m c W h, cstep13_main_arg7 m c W h, cstep13_main_arg8 m c W h, cstep13_main_v148 m c W h, cstep13_main_v197 m c W h⟩

end Cert.ReferenceIdeal.ValueH

end
-- ==== Proof.Ref.RunH.D14.lean ====
/- Chunk 14 of the reference's @main (operations 257 to 276): its list, the list's two facts, and its step from cut 14 to cut 15 at any valuation: each buffer read later holds its stage, by the operations' result equations, the facts of cut 14 and unfolding the chunk's own stages. -/
import proofs.«402757_j20469814133395_4_alg».proof.Proof.Ref.RunH.Stages

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

abbrev cops14 : List (HloOp τ sig (Elt F)) :=
  [ binary main_v148 main_v197 main_v198 ((fun a b => concatenate S50000x32 1 [⟨S50000x16, a⟩, ⟨S50000x16, b⟩] concatenates_S50000x16_S50000x16_S50000x32_d1) : (⟨S50000x16, .f32⟩ : BufTy).Contents (Elt F) → (⟨S50000x16, .f32⟩ : BufTy).Contents (Elt F) → (⟨S50000x32, .f32⟩ : BufTy).Contents (Elt F)),
    binary main_v198 main_arg7 main_v199 ((fun l r => Host.dotGeneral dot_S50000x32_S32x16_S50000x16_1_0_0_1_n_n none l r) : (⟨S50000x32, .f32⟩ : BufTy).Contents (Elt F) → (⟨S32x16, .f32⟩ : BufTy).Contents (Elt F) → (⟨S50000x16, .f32⟩ : BufTy).Contents (Elt F)),
    unary main_arg8 main_v200 (broadcastInDim S1x16 ![1] bcast_S16_S1x16_1 : (⟨S16, .f32⟩ : BufTy).Contents (Elt F) → (⟨S1x16, .f32⟩ : BufTy).Contents (Elt F)),
    unary main_v200 main_v201 (broadcastInDim S50000x16 ![0, 1] bcast_S1x16_S50000x16_0_1 : (⟨S1x16, .f32⟩ : BufTy).Contents (Elt F) → (⟨S50000x16, .f32⟩ : BufTy).Contents (Elt F)),
    binary main_v199 main_v201 main_v202 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call5_cst) (constant S_ .f32 0xFF800000#32),
    TRef.binary (TRef.of (T := ⟨S50000x16, .f32⟩) main_v202) (TRef.of (T := ⟨S_, .f32⟩) main_call5_cst) (TRef.of (T := ⟨S50000, .f32⟩) main_call5_v0) (fun x v => Host.reduce FloatOps.maximumf x v reducesTo_S50000x16_S50000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_call5_v0) (TRef.of (T := ⟨S50000, .f32⟩) main_call5_v2) maximumf,
    TRef.unary (TRef.of (T := ⟨S50000, .f32⟩) main_call5_v2) (TRef.of (T := ⟨S50000x1, .f32⟩) main_call5_v3) (broadcastInDim S50000x1 ![0] bcast_S50000_S50000x1_0),
    TRef.unary (TRef.of (T := ⟨S50000x1, .f32⟩) main_call5_v3) (TRef.of (T := ⟨S50000x16, .f32⟩) main_call5_v4) (broadcastInDim S50000x16 ![0, 1] bcast_S50000x1_S50000x16_0_1),
    TRef.binary (TRef.of (T := ⟨S50000x16, .f32⟩) main_v202) (TRef.of (T := ⟨S50000x16, .f32⟩) main_call5_v4) (TRef.of (T := ⟨S50000x16, .f32⟩) main_call5_v5) subf,
    TRef.unary (TRef.of (T := ⟨S50000x16, .f32⟩) main_call5_v5) (TRef.of (T := ⟨S50000x16, .f32⟩) main_call5_v6) Host.exp,
    TRef.nullary (TRef.of (T := ⟨S_, .f32⟩) main_call5_cst_1) (constant S_ .f32 0x00000000#32),
    TRef.binary (TRef.of (T := ⟨S50000x16, .f32⟩) main_call5_v6) (TRef.of (T := ⟨S_, .f32⟩) main_call5_cst_1) (TRef.of (T := ⟨S50000, .f32⟩) main_call5_v7) (fun x v => Host.reduceAdd x v reducesTo_S50000x16_S50000_d1 h_S_),
    TRef.unary (TRef.of (T := ⟨S50000, .f32⟩) main_call5_v7) (TRef.of (T := ⟨S50000x1, .f32⟩) main_call5_v8) (broadcastInDim S50000x1 ![0] bcast_S50000_S50000x1_0),
    TRef.unary (TRef.of (T := ⟨S50000x1, .f32⟩) main_call5_v8) (TRef.of (T := ⟨S50000x1, .f32⟩) main_call5_v9) Host.log,
    TRef.unary (TRef.of (T := ⟨S50000x1, .f32⟩) main_call5_v9) (TRef.of (T := ⟨S50000x16, .f32⟩) main_call5_v10) (broadcastInDim S50000x16 ![0, 1] bcast_S50000x1_S50000x16_0_1),
    TRef.binary (TRef.of (T := ⟨S50000x16, .f32⟩) main_call5_v5) (TRef.of (T := ⟨S50000x16, .f32⟩) main_call5_v10) (TRef.of (T := ⟨S50000x16, .f32⟩) main_v203) subf ]

set_option maxRecDepth 8192 in
theorem cops14_sub : (cops14 : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 4000000 in
theorem cops14_fresh : ∀ op ∈ (cops14 : List (HloOp τ sig (Elt F))), op.fresh = ∅ := by
  intro _ h; (repeat (cases h with | head => rfl | tail _ h => ?_)); exact nomatch h

set_option maxRecDepth 8192 in
set_option maxHeartbeats 4000000 in
theorem cstep14_main_arg0 (m : (ℓ : Loc nD τ sig) → Buf (Elt F) ℓ) (c : Dev nD) (W : Valuation τ sig (Elt F)) (h : Lv14 m c W) :
    after cops14 W (Proc.devRef .tc main_arg0) = m ((c.tc : Thread nD τ).loc main_arg0) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep14_main_arg1 (m : (ℓ : Loc nD τ sig) → Buf (Elt F) ℓ) (c : Dev nD) (W : Valuation τ sig (Elt F)) (h : Lv14 m c W) :
    after cops14 W (Proc.devRef .tc main_arg1) = m ((c.tc : Thread nD τ).loc main_arg1) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep14_main_arg2 (m : (ℓ : Loc nD τ sig) → Buf (Elt F) ℓ) (c : Dev nD) (W : Valuation τ sig (Elt F)) (h : Lv14 m c W) :
    after cops14 W (Proc.devRef .tc main_arg2) = m ((c.tc : Thread nD τ).loc main_arg2) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep14_main_arg3 (m : (ℓ : Loc nD τ sig) → Buf (Elt F) ℓ) (c : Dev nD) (W : Valuation τ sig (Elt F)) (h : Lv14 m c W) :
    after cops14 W (Proc.devRef .tc main_arg3) = m ((c.tc : Thread nD τ).loc main_arg3) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep14_main_arg4 (m : (ℓ : Loc nD τ sig) → Buf (Elt F) ℓ) (c : Dev nD) (W : Valuation τ sig (Elt F)) (h : Lv14 m c W) :
    after cops14 W (Proc.devRef .tc main_arg4) = m ((c.tc : Thread nD τ).loc main_arg4) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep14_main_arg5 (m : (ℓ : Loc nD τ sig) → Buf (Elt F) ℓ) (c : Dev nD) (W : Valuation τ sig (Elt F)) (h : Lv14 m c W) :
    after cops14 W (Proc.devRef .tc main_arg5) = m ((c.tc : Thread nD τ).loc main_arg5) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep14_main_arg6 (m : (ℓ : Loc nD τ sig) → Buf (Elt F) ℓ) (c : Dev nD) (W : Valuation τ sig (Elt F)) (h : Lv14 m c W) :
    after cops14 W (Proc.devRef .tc main_arg6) = m ((c.tc : Thread nD τ).loc main_arg6) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep14_main_arg7 (m : (ℓ : Loc nD τ sig) → Buf (Elt F) ℓ) (c : Dev nD) (W : Valuation τ sig (Elt F)) (h : Lv14 m c W) :
    after cops14 W (Proc.devRef .tc main_arg7) = m ((c.tc : Thread nD τ).loc main_arg7) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep14_main_arg8 (m : (ℓ : Loc nD τ sig) → Buf (Elt F) ℓ) (c : Dev nD) (W : Valuation τ sig (Elt F)) (h : Lv14 m c W) :
    after cops14 W (Proc.devRef .tc main_arg8) = m ((c.tc : Thread nD τ).loc main_arg8) := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

set_option maxRecDepth 8192 in
set_option maxHeartbeats 4000000 in
theorem cstep14_main_v203 (m : (ℓ : Loc nD τ sig) → Buf (Elt F) ℓ) (c : Dev nD) (W : Valuation τ sig (Elt F)) (h : Lv14 m c W) :
    after cops14 W (Proc.devRef .tc main_v203) = st_main_v203 m c := by
  obtain ⟨h0, h1, h2, h3, h4, h5, h6, h7, h8, h9, h10⟩ := h
  after_results_simp
  all_goals (try simp only [TRef.ofBuf, TRef.toBuf, cast_eq])
  all_goals ((try rw [h0]); (try rw [h1]); (try rw [h2]); (try rw [h3]); (try rw [h4]); (try rw [h5]); (try rw [h6]); (try rw [h7]); (try rw [h8]); (try rw [h9]); (try rw [h10]))
  all_goals rfl

theorem cstep14 (m : (ℓ : Loc nD τ sig) → Buf (Elt F) ℓ) (c : Dev nD) (W : Valuation τ sig (Elt F)) (h : Lv14 m c W) : Lv15 m c (after cops14 W) :=
  ⟨cstep14_main_arg0 m c W h, cstep14_main_arg1 m c W h, cstep14_main_arg2 m c W h, cstep14_main_arg3 m c W h, cstep14_main_arg4 m c W h, cstep14_main_arg5 m c W h, cstep14_main_arg6 m c W h, cstep14_main_arg7 m c W h, cstep14_main_arg8 m c W h, cstep14_main_v203 m c W h⟩

end Cert.ReferenceIdeal.ValueH

end
-- ==== Proof.Ref.RunH.lean ====
/- The reference's run from its chunks: each printed window is its chunks' lists appended and run in order, @main the windows in order; from launch contents the chunks' steps compose to the last cut, where the result buffer holds its stage and every argument its launch contents. -/
import proofs.«402757_j20469814133395_4_alg».proof.Proof.Ref.RunH.D0
import proofs.«402757_j20469814133395_4_alg».proof.Proof.Ref.RunH.D1
import proofs.«402757_j20469814133395_4_alg».proof.Proof.Ref.RunH.D2
import proofs.«402757_j20469814133395_4_alg».proof.Proof.Ref.RunH.D3
import proofs.«402757_j20469814133395_4_alg».proof.Proof.Ref.RunH.D4
import proofs.«402757_j20469814133395_4_alg».proof.Proof.Ref.RunH.D5
import proofs.«402757_j20469814133395_4_alg».proof.Proof.Ref.RunH.D6
import proofs.«402757_j20469814133395_4_alg».proof.Proof.Ref.RunH.D7
import proofs.«402757_j20469814133395_4_alg».proof.Proof.Ref.RunH.D8
import proofs.«402757_j20469814133395_4_alg».proof.Proof.Ref.RunH.D9
import proofs.«402757_j20469814133395_4_alg».proof.Proof.Ref.RunH.D10
import proofs.«402757_j20469814133395_4_alg».proof.Proof.Ref.RunH.D11
import proofs.«402757_j20469814133395_4_alg».proof.Proof.Ref.RunH.D12
import proofs.«402757_j20469814133395_4_alg».proof.Proof.Ref.RunH.D13
import proofs.«402757_j20469814133395_4_alg».proof.Proof.Ref.RunH.D14
import Idealize.ShloMosaic.Lib.Pipeline.Frame

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

/-- Window 0's operations: its chunks' lists appended. -/
abbrev ops0 : List (HloOp τ sig (Elt F)) := cops0 ++ (cops1 ++ (cops2))
set_option maxRecDepth 8192 in
set_option maxHeartbeats 4000000 in
theorem main_part0_eq (c : Dev nD) : main_part0 (F := F) c = seq ops0 := rfl

/-- Window 1's operations: its chunks' lists appended. -/
abbrev ops1 : List (HloOp τ sig (Elt F)) := cops3 ++ (cops4 ++ (cops5))
set_option maxRecDepth 8192 in
set_option maxHeartbeats 4000000 in
theorem main_part1_eq (c : Dev nD) : main_part1 (F := F) c = seq ops1 := rfl

/-- Window 2's operations: its chunks' lists appended. -/
abbrev ops2 : List (HloOp τ sig (Elt F)) := cops6 ++ (cops7 ++ (cops8 ++ (cops9)))
set_option maxRecDepth 8192 in
set_option maxHeartbeats 4000000 in
theorem main_part2_eq (c : Dev nD) : main_part2 (F := F) c = seq ops2 := rfl

/-- Window 3's operations: its chunks' lists appended. -/
abbrev ops3 : List (HloOp τ sig (Elt F)) := cops10 ++ (cops11 ++ (cops12))
set_option maxRecDepth 8192 in
set_option maxHeartbeats 4000000 in
theorem main_part3_eq (c : Dev nD) : main_part3 (F := F) c = seq ops3 := rfl

/-- Window 4's operations: its chunks' lists appended. -/
abbrev ops4 : List (HloOp τ sig (Elt F)) := cops13 ++ (cops14)
set_option maxRecDepth 8192 in
set_option maxHeartbeats 4000000 in
theorem main_part4_eq (c : Dev nD) : main_part4 (F := F) c = seq ops4 := rfl

/-- @main's 276 operations, in order: the windows' lists appended. -/
abbrev ops : List (HloOp τ sig (Elt F)) := ops0 ++ (ops1 ++ (ops2 ++ (ops3 ++ (ops4))))

theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, ops0, ops1, ops2, ops3, ops4, List.mem_append] at h
    rcases h with (h | h | h) | (h | h | h) | (h | h | h | h) | (h | h | h) | (h | h)
    exacts [List.forall_iff_forall_mem.mp cops0_sub op h, List.forall_iff_forall_mem.mp cops1_sub op h, List.forall_iff_forall_mem.mp cops2_sub op h, List.forall_iff_forall_mem.mp cops3_sub op h, List.forall_iff_forall_mem.mp cops4_sub op h, List.forall_iff_forall_mem.mp cops5_sub op h, List.forall_iff_forall_mem.mp cops6_sub op h, List.forall_iff_forall_mem.mp cops7_sub op h, List.forall_iff_forall_mem.mp cops8_sub op h, List.forall_iff_forall_mem.mp cops9_sub op h, List.forall_iff_forall_mem.mp cops10_sub op h, List.forall_iff_forall_mem.mp cops11_sub op h, List.forall_iff_forall_mem.mp cops12_sub op h, List.forall_iff_forall_mem.mp cops13_sub op h, List.forall_iff_forall_mem.mp cops14_sub op h]
theorem ops_fresh : ∀ op ∈ (ops : List (HloOp τ sig (Elt F))), op.fresh = ∅ := by
  intro op h
  simp only [ops, ops0, ops1, ops2, ops3, ops4, List.mem_append] at h
  rcases h with (h | h | h) | (h | h | h) | (h | h | h | h) | (h | h | h) | (h | h)
  exacts [cops0_fresh op h, cops1_fresh op h, cops2_fresh op h, cops3_fresh op h, cops4_fresh op h, cops5_fresh op h, cops6_fresh op h, cops7_fresh op h, cops8_fresh op h, cops9_fresh op h, cops10_fresh op h, cops11_fresh op h, cops12_fresh op h, cops13_fresh op h, cops14_fresh op h]

/-- main_v203's composed term of the arguments: its stage. -/
def res_main_v203 (m : (ℓ : Loc nD τ sig) → Buf (Elt F) ℓ) (c : Dev nD) : Buf (Elt F) ((c.tc : Thread nD τ).loc main_v203) := st_main_v203 m c

abbrev res_out0 (m : (ℓ : Loc nD τ sig) → Buf (Elt F) ℓ) (c : Dev nD) : Buf (Elt F) ((c.tc : Thread nD τ).loc main_v203) := res_main_v203 m c

/-- From launch contents the chunks' steps compose to the last cut. -/
theorem after_ops (m : (ℓ : Loc nD τ sig) → Buf (Elt F) ℓ) (c : Dev nD) : Lv15 m c (after ops (launchContents m c)) := by
  have e : after (ops : List (HloOp τ sig (Elt F))) (launchContents m c) = after cops14 (after cops13 (after cops12 (after cops11 (after cops10 (after cops9 (after cops8 (after cops7 (after cops6 (after cops5 (after cops4 (after cops3 (after cops2 (after cops1 (after cops0 (launchContents m c))))))))))))))) := by
    simp only [ops, ops0, ops1, ops2, ops3, ops4, StableHlo.after_append]
  rw [e]
  exact cstep14 m c _ (cstep13 m c _ (cstep12 m c _ (cstep11 m c _ (cstep10 m c _ (cstep9 m c _ (cstep8 m c _ (cstep7 m c _ (cstep6 m c _ (cstep5 m c _ (cstep4 m c _ (cstep3 m c _ (cstep2 m c _ (cstep1 m c _ (cstep0 m c _ (by unfold Lv0; exact ⟨rfl, rfl, rfl, rfl, rfl, rfl, rfl, rfl, rfl⟩)))))))))))))))

set_option maxRecDepth 8192 in
set_option maxHeartbeats 4000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v203) = res_main_v203 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
      have L := after_ops (F := F) m c
      unfold Lv15 at L
      obtain ⟨hmain_arg0, hmain_arg1, hmain_arg2, hmain_arg3, hmain_arg4, hmain_arg5, hmain_arg6, hmain_arg7, hmain_arg8, hmain_v203⟩ := L
      exact ⟨(h c main_v203).trans hmain_v203, (h c main_arg0).trans hmain_arg0, (h c main_arg1).trans hmain_arg1, (h c main_arg2).trans hmain_arg2, (h c main_arg3).trans hmain_arg3, (h c main_arg4).trans hmain_arg4, (h c main_arg5).trans hmain_arg5, (h c main_arg6).trans hmain_arg6, (h c main_arg7).trans hmain_arg7, (h c main_arg8).trans hmain_arg8⟩)
    (run_seq scopedRefs_eq scopedSems_eq defs main (fun _ => ops) main_eq (fun _ => ops_sub) m ρ (fun _ => ops_fresh))

end Cert.ReferenceIdeal.ValueH

end
-- ==== Proof.Math.RowOps.lean ====
import Idealize.ShloMosaic.Lib.ValueIdx
import Idealize.ShloMosaic.PureOps.Ideal.Laws

/-!
# Gathers of rows and scatter-adds of rows, read at an index

An operand of N rows (each a scalar or a row of C entries), a column [R, 1] of R signed start words.

* The gather's result row e is the operand's row at the start word of e, read signed and clamped into
  [0, N - 1].
* The scatter-add sends update row e to the operand's row at the start word of e, read signed and NOT
  clamped: an update whose word is not a row number is dropped.  So the result at row r is the operand
  there plus the sum, over the updates e whose word is r, of the update's entry.
-/

noncomputable section

open scoped BigOperators

namespace Cert.Math.RowOps

open Idealize.ShloMosaic Idealize.ShloMosaic.ValueIdx

/-- The row a start word selects in a gather: the word read signed, clamped into [0, N - 1]. -/
abbrev clampRow (N : Nat) (hN : 0 < N) {w : Nat} (b : BitVec w) : Fin N := ⟨min b.toInt.toNat (N - 1), by omega⟩

/-- A word that is a row number selects that row. -/
theorem clampRow_val_of_lt {N : Nat} (hN : 0 < N) {w : Nat} (b : BitVec w) (h0 : 0 ≤ b.toInt) (h1 : b.toInt < N) :
    (clampRow N hN b).val = b.toInt.toNat := by
  show min b.toInt.toNat (N - 1) = b.toInt.toNat
  omega

/-- The start-indices index [e, 0] of row e. -/
abbrev colIdx {R : Nat} (e : Fin R) : (⟨2, ![R, 1]⟩ : Shape).Idx := ix2 e ⟨0, Nat.one_pos⟩

/-! ## Rows of C entries -/

section Rows
variable {α : Type}

/-- Dimension numbers of the gather of whole rows of an operand [N, C] at a column [R, 1] of start words. -/
abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

variable {N R C w : Nat}
  (wf : GatherDims.WF ⟨2, ![N, C]⟩ ⟨2, ![R, 1]⟩ ⟨2, ![R, C]⟩ [1] [0] [] [0] [] 1 ![1, C])

theorem rowGather_siIdx (y : (⟨2, ![R, C]⟩ : Shape).Idx) (c : Fin (rowGather N R C wf).startIndexMap.length) :
    (rowGather N R C wf).siIdx y c = colIdx ⟨(y 0).val, idx2_lt0 y⟩ := by
  funext b; refine Fin.ext ?_
  have hc : c.val = 0 := by have h1 : c.val < 1 := c.isLt; omega
  match b with
  | ⟨0, _⟩ => rfl
  | ⟨1, _⟩ => exact hc

theorem rowGather_coord0 (idx : IVec ⟨2, ![R, 1]⟩ w) (y : (⟨2, ![R, C]⟩ : Shape).Idx) :
    (rowGather N R C wf).start y idx 0 + (rowGather N R C wf).batchCoord y 0 + (rowGather N R C wf).offCoord y 0
      = min (idx (colIdx ⟨(y 0).val, idx2_lt0 y⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N R C wf).startIndexMap from List.mem_singleton.mpr rfl),
    rowGather_siIdx]
  rfl

theorem rowGather_coord1 (idx : IVec ⟨2, ![R, 1]⟩ w) (y : (⟨2, ![R, C]⟩ : Shape).Idx) :
    (rowGather N R C wf).start y idx 1 + (rowGather N R C wf).batchCoord y 1 + (rowGather N R C wf).offCoord y 1
      = (y 1).val := by
  rw [GatherDims.batchCoord_eq_zero _ _ _ List.not_mem_nil]
  unfold GatherDims.start
  rw [dif_neg (show ¬ (1 : Fin 2) ∈ (rowGather N R C wf).startIndexMap from
    fun h => Nat.one_ne_zero (congrArg Fin.val (List.mem_singleton.mp h)))]
  unfold GatherDims.offCoord
  rw [dif_pos (show (1 : Fin 2) ∈ (rowGather N R C wf).sKept from (GatherDims.mem_sKept _ _).mpr
    ⟨fun h => Nat.one_ne_zero (congrArg Fin.val (List.mem_singleton.mp h)), List.not_mem_nil⟩)]
  simp only [Nat.zero_add, Nat.add_zero]
  rfl

/-- THE ROW GATHER READ AT (e, c): the operand at the row the start word of e selects, column c. -/
theorem rowGather_apply (hN : 0 < N) (x : (⟨2, ![N, C]⟩ : Shape).Idx → α) (idx : IVec ⟨2, ![R, 1]⟩ w)
    (y : (⟨2, ![R, C]⟩ : Shape).Idx) :
    Host.gather (rowGather N R C wf) x idx y
      = x (ix2 (clampRow N hN (idx (colIdx ⟨(y 0).val, idx2_lt0 y⟩))) ⟨(y 1).val, idx2_lt1 y⟩) := by
  unfold Host.gather
  congr 1
  funext a
  refine Fin.ext ?_
  match a with
  | ⟨0, _⟩ => exact rowGather_coord0 wf idx y
  | ⟨1, _⟩ => exact rowGather_coord1 wf idx y

/-- Dimension numbers of the scatter of whole rows [R, C] into an operand [N, C] at a column [R, 1] of start words. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable (wfs : ScatterDims.WF ⟨2, ![N, C]⟩ ⟨2, ![R, 1]⟩ ⟨2, ![R, C]⟩ [1] [0] [0] 1)

theorem rowScatter_siIdx (j : (⟨2, ![R, C]⟩ : Shape).Idx) (c : Fin (rowScatter N R C wfs).scatterDimsToOperandDims.length) :
    (rowScatter N R C wfs).siIdx j c = colIdx ⟨(j 0).val, idx2_lt0 j⟩ := by
  funext b; refine Fin.ext ?_
  have hc : c.val = 0 := by have h1 : c.val < 1 := c.isLt; omega
  match b with
  | ⟨0, _⟩ => rfl
  | ⟨1, _⟩ => exact hc

theorem rowScatter_start0 (idx : IVec ⟨2, ![R, 1]⟩ w) (j : (⟨2, ![R, C]⟩ : Shape).Idx) :
    (rowScatter N R C wfs).start j idx 0 = (idx (colIdx ⟨(j 0).val, idx2_lt0 j⟩)).toInt := by
  unfold ScatterDims.start
  rw [dif_pos (show (0 : Fin 2) ∈ (rowScatter N R C wfs).scatterDimsToOperandDims from List.mem_singleton.mpr rfl),
    rowScatter_siIdx]

theorem rowScatter_start1 (idx : IVec ⟨2, ![R, 1]⟩ w) (j : (⟨2, ![R, C]⟩ : Shape).Idx) :
    (rowScatter N R C wfs).start j idx 1 = 0 := by
  unfold ScatterDims.start
  rw [dif_neg (show ¬ (1 : Fin 2) ∈ (rowScatter N R C wfs).scatterDimsToOperandDims from
    fun h => Nat.one_ne_zero (congrArg Fin.val (List.mem_singleton.mp h)))]

theorem rowScatter_window0 (j : (⟨2, ![R, C]⟩ : Shape).Idx) : (rowScatter N R C wfs).window j 0 = 0 := by
  unfold ScatterDims.window
  rw [dif_neg (show ¬ (0 : Fin 2) ∈ (rowScatter N R C wfs).sKept by
    simp [ScatterDims.sKept, Shape.kept, List.mem_filter])]

theorem rowScatter_window1 (j : (⟨2, ![R, C]⟩ : Shape).Idx) : (rowScatter N R C wfs).window j 1 = (j 1).val := by
  unfold ScatterDims.window
  rw [dif_pos (show (1 : Fin 2) ∈ (rowScatter N R C wfs).sKept by
    simp [ScatterDims.sKept, Shape.kept, List.mem_filter, List.mem_finRange])]
  rfl

/-- WHERE AN UPDATE LANDS: update (e, c) lands on operand element (r, c') exactly when the start word of e,
    read signed, is r and c = c'. -/
theorem rowScatter_resultIdx?_iff (idx : IVec ⟨2, ![R, 1]⟩ w) (j : (⟨2, ![R, C]⟩ : Shape).Idx)
    (i : (⟨2, ![N, C]⟩ : Shape).Idx) :
    (rowScatter N R C wfs).resultIdx? j idx = some i ↔
      (idx (colIdx ⟨(j 0).val, idx2_lt0 j⟩)).toInt = ((i 0).val : Int) ∧ (j 1).val = (i 1).val := by
  have hi0 : (i 0).val < N := idx2_lt0 i
  have hi1 : (i 1).val < C := idx2_lt1 i
  have hj1 : (j 1).val < C := idx2_lt1 j
  have s0 := rowScatter_start0 wfs idx j
  have s1 := rowScatter_start1 wfs idx j
  have w0 := rowScatter_window0 wfs j
  have w1 := rowScatter_window1 wfs j
  have hs0 : (⟨2, ![N, C]⟩ : Shape).size 0 = N := rfl
  have hs1 : (⟨2, ![N, C]⟩ : Shape).size 1 = C := rfl
  unfold ScatterDims.resultIdx?
  by_cases hh : ∀ a, 0 ≤ (rowScatter N R C wfs).start j idx a + (rowScatter N R C wfs).window j a ∧
      (rowScatter N R C wfs).start j idx a + (rowScatter N R C wfs).window j a < (⟨2, ![N, C]⟩ : Shape).size a
  · rw [dif_pos hh]
    have h0 := hh 0
    have h1 := hh 1
    constructor
    · intro h
      have hf := Option.some.inj h
      have e0 : ((rowScatter N R C wfs).start j idx 0 + (rowScatter N R C wfs).window j 0).toNat = (i 0).val :=
        congrArg (fun g => (g 0).val) hf
      have e1 : ((rowScatter N R C wfs).start j idx 1 + (rowScatter N R C wfs).window j 1).toNat = (i 1).val :=
        congrArg (fun g => (g 1).val) hf
      rw [s0, w0] at e0 h0
      rw [s1, w1] at e1 h1
      constructor <;> omega
    · rintro ⟨e0, e1⟩
      congr 1
      funext a; refine Fin.ext ?_
      match a with
      | ⟨0, _⟩ =>
        show ((rowScatter N R C wfs).start j idx 0 + (rowScatter N R C wfs).window j 0).toNat = (i 0).val
        rw [s0, w0]; omega
      | ⟨1, _⟩ =>
        show ((rowScatter N R C wfs).start j idx 1 + (rowScatter N R C wfs).window j 1).toNat = (i 1).val
        rw [s1, w1]; omega
  · rw [dif_neg hh]
    constructor
    · intro h; cases h
    · rintro ⟨e0, e1⟩
      exfalso; apply hh; intro a
      match a with
      | ⟨0, _⟩ =>
        show 0 ≤ (rowScatter N R C wfs).start j idx 0 + (rowScatter N R C wfs).window j 0 ∧
          (rowScatter N R C wfs).start j idx 0 + (rowScatter N R C wfs).window j 0 < (⟨2, ![N, C]⟩ : Shape).size 0
        rw [s0, w0, hs0]; omega
      | ⟨1, _⟩ =>
        show 0 ≤ (rowScatter N R C wfs).start j idx 1 + (rowScatter N R C wfs).window j 1 ∧
          (rowScatter N R C wfs).start j idx 1 + (rowScatter N R C wfs).window j 1 < (⟨2, ![N, C]⟩ : Shape).size 1
        rw [s1, w1, hs1]; omega

/-- THE ROW SCATTER-ADD READ AT (r, c): the operand there plus the sum, over the updates e whose start word read
    signed is r, of update (e, c). -/
theorem rowScatterAdd_apply (x : (⟨2, ![N, C]⟩ : Shape).Idx → EReal) (idx : IVec ⟨2, ![R, 1]⟩ w)
    (upd : (⟨2, ![R, C]⟩ : Shape).Idx → EReal) (i : (⟨2, ![N, C]⟩ : Shape).Idx) :
    Ideal.hostScatterAdd (rowScatter N R C wfs) x idx upd i =
      x i + ∑ e : Fin R, if (idx (colIdx e)).toInt = ((i 0).val : Int) then upd (ix2 e ⟨(i 1).val, idx2_lt1 i⟩) else 0 := by
  unfold Ideal.hostScatterAdd
  congr 1
  rw [Finset.sum_filter, sum_idx2]
  refine Finset.sum_congr rfl fun e _ => ?_
  by_cases hA : (idx (colIdx e)).toInt = ((i 0).val : Int)
  · rw [if_pos hA, Finset.sum_eq_single (⟨(i 1).val, idx2_lt1 i⟩ : Fin C)]
    · exact if_pos ((rowScatter_resultIdx?_iff wfs idx _ i).2 ⟨hA, rfl⟩)
    · intro c _ hc
      exact if_neg fun h => hc (Fin.ext ((rowScatter_resultIdx?_iff wfs idx _ i).1 h).2)
    · intro h; exact absurd (Finset.mem_univ _) h
  · rw [if_neg hA]
    exact Finset.sum_eq_zero fun c _ => if_neg fun h => hA ((rowScatter_resultIdx?_iff wfs idx _ i).1 h).1

end Rows

/-! ## Scalar rows -/

section Elts
variable {α : Type}

/-- A rank-1 index is its one coordinate … -/
def idxEquiv1 {n : Nat} : (⟨1, ![n]⟩ : Shape).Idx ≃ Fin n where
  toFun i := i 0
  invFun a := ix1 a
  left_inv i := (eq_ix1 i).symm
  right_inv _ := rfl

/-- … so a sum over rank-1 indices is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem idx1_lt0 {n : Nat} (j : (⟨1, ![n]⟩ : Shape).Idx) : (j 0).val < n := (j 0).isLt

/-- Dimension numbers of the gather of single elements of an operand [N] at a column [R, 1] of start words. -/
abbrev eltGather (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

variable {N R w : Nat} (wf : GatherDims.WF ⟨1, ![N]⟩ ⟨2, ![R, 1]⟩ ⟨1, ![R]⟩ [] [0] [] [0] [] 1 ![1])

theorem eltGather_siIdx (y : (⟨1, ![R]⟩ : Shape).Idx) (c : Fin (eltGather N R wf).startIndexMap.length) :
    (eltGather N R wf).siIdx y c = colIdx ⟨(y 0).val, idx1_lt0 y⟩ := by
  funext b; refine Fin.ext ?_
  have hc : c.val = 0 := by have h1 : c.val < 1 := c.isLt; omega
  match b with
  | ⟨0, _⟩ => rfl
  | ⟨1, _⟩ => exact hc

/-- THE ELEMENT GATHER READ AT e: the operand at the row the start word of e selects. -/
theorem eltGather_apply (hN : 0 < N) (x : (⟨1, ![N]⟩ : Shape).Idx → α) (idx : IVec ⟨2, ![R, 1]⟩ w)
    (y : (⟨1, ![R]⟩ : Shape).Idx) :
    Host.gather (eltGather N R wf) x idx y = x (ix1 (clampRow N hN (idx (colIdx ⟨(y 0).val, idx1_lt0 y⟩)))) := by
  unfold Host.gather
  congr 1
  funext a
  obtain rfl : a = 0 := Subsingleton.elim _ _
  refine Fin.ext ?_
  show (eltGather N R wf).start y idx 0 + (eltGather N R wf).batchCoord y 0 + (eltGather N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGather N R wf).startIndexMap from List.mem_singleton.mpr rfl),
    eltGather_siIdx]
  rfl

/-- Dimension numbers of the scatter of single elements [R] into an operand [N] at a column [R, 1] of start words. -/
abbrev eltScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable (wfs : ScatterDims.WF ⟨1, ![N]⟩ ⟨2, ![R, 1]⟩ ⟨1, ![R]⟩ [] [0] [0] 1)

theorem eltScatter_siIdx (j : (⟨1, ![R]⟩ : Shape).Idx) (c : Fin (eltScatter N R wfs).scatterDimsToOperandDims.length) :
    (eltScatter N R wfs).siIdx j c = colIdx ⟨(j 0).val, idx1_lt0 j⟩ := by
  funext b; refine Fin.ext ?_
  have hc : c.val = 0 := by have h1 : c.val < 1 := c.isLt; omega
  match b with
  | ⟨0, _⟩ => rfl
  | ⟨1, _⟩ => exact hc

theorem eltScatter_start0 (idx : IVec ⟨2, ![R, 1]⟩ w) (j : (⟨1, ![R]⟩ : Shape).Idx) :
    (eltScatter N R wfs).start j idx 0 = (idx (colIdx ⟨(j 0).val, idx1_lt0 j⟩)).toInt := by
  unfold ScatterDims.start
  rw [dif_pos (show (0 : Fin 1) ∈ (eltScatter N R wfs).scatterDimsToOperandDims from List.mem_singleton.mpr rfl),
    eltScatter_siIdx]

theorem eltScatter_window0 (j : (⟨1, ![R]⟩ : Shape).Idx) : (eltScatter N R wfs).window j 0 = 0 := by
  unfold ScatterDims.window
  rw [dif_neg (show ¬ (0 : Fin 1) ∈ (eltScatter N R wfs).sKept by
    simp [ScatterDims.sKept, Shape.kept, List.mem_filter])]

/-- WHERE AN UPDATE LANDS: update e lands on operand element r exactly when the start word of e, read signed, is r. -/
theorem eltScatter_resultIdx?_iff (idx : IVec ⟨2, ![R, 1]⟩ w) (j : (⟨1, ![R]⟩ : Shape).Idx)
    (i : (⟨1, ![N]⟩ : Shape).Idx) :
    (eltScatter N R wfs).resultIdx? j idx = some i ↔
      (idx (colIdx ⟨(j 0).val, idx1_lt0 j⟩)).toInt = ((i 0).val : Int) := by
  have hi0 : (i 0).val < N := idx1_lt0 i
  have s0 := eltScatter_start0 wfs idx j
  have w0 := eltScatter_window0 wfs j
  have hs0 : (⟨1, ![N]⟩ : Shape).size 0 = N := rfl
  unfold ScatterDims.resultIdx?
  by_cases hh : ∀ a, 0 ≤ (eltScatter N R wfs).start j idx a + (eltScatter N R wfs).window j a ∧
      (eltScatter N R wfs).start j idx a + (eltScatter N R wfs).window j a < (⟨1, ![N]⟩ : Shape).size a
  · rw [dif_pos hh]
    have h0 := hh 0
    constructor
    · intro h
      have hf := Option.some.inj h
      have e0 : ((eltScatter N R wfs).start j idx 0 + (eltScatter N R wfs).window j 0).toNat = (i 0).val :=
        congrArg (fun g => (g 0).val) hf
      rw [s0, w0] at e0 h0
      omega
    · intro e0
      congr 1
      funext a
      obtain rfl : a = 0 := Subsingleton.elim _ _
      refine Fin.ext ?_
      show ((eltScatter N R wfs).start j idx 0 + (eltScatter N R wfs).window j 0).toNat = (i 0).val
      rw [s0, w0]; omega
  · rw [dif_neg hh]
    constructor
    · intro h; cases h
    · intro e0
      exfalso; apply hh; intro a
      obtain rfl : a = 0 := Subsingleton.elim _ _
      rw [s0, w0, hs0]; omega

/-- THE ELEMENT SCATTER-ADD READ AT r: the operand there plus the sum of the updates e whose start word read
    signed is r. -/
theorem eltScatterAdd_apply (x : (⟨1, ![N]⟩ : Shape).Idx → EReal) (idx : IVec ⟨2, ![R, 1]⟩ w)
    (upd : (⟨1, ![R]⟩ : Shape).Idx → EReal) (i : (⟨1, ![N]⟩ : Shape).Idx) :
    Ideal.hostScatterAdd (eltScatter N R wfs) x idx upd i =
      x i + ∑ e : Fin R, if (idx (colIdx e)).toInt = ((i 0).val : Int) then upd (ix1 e) else 0 := by
  unfold Ideal.hostScatterAdd
  congr 1
  rw [Finset.sum_filter, sum_idx1]
  refine Finset.sum_congr rfl fun e _ => ?_
  by_cases hA : (idx (colIdx e)).toInt = ((i 0).val : Int)
  · rw [if_pos hA]
    exact if_pos ((eltScatter_resultIdx?_iff wfs idx _ i).2 hA)
  · rw [if_neg hA]
    exact if_neg fun h => hA ((eltScatter_resultIdx?_iff wfs idx _ i).1 h)

end Elts

end Cert.Math.RowOps
-- ==== Proof.KI.HostVal1.lean ====
/- The host operations around the first segment-sum call, read as values: the call's three operands (the start
   table's source column, the bf16 edge values, the one-row target array) and the sum of its two output slabs with
   the bias, each as the composed term of earlier named arrays, and then read at an index. -/
import proofs.«402757_j20469814133395_4_alg».proof.Proof.KI.RegionsP
import proofs.«402757_j20469814133395_4_alg».proof.Proof.Math.RowOps
import Idealize.ShloMosaic.Lib.ValueLayout
import Idealize.ShloMosaic.PureOps.Reduce
import Idealize.ShloMosaic.Lib.StableHlo.Run
import Idealize.ShloMosaic.Lib.StableHlo.Predicate
import Idealize.ShloMosaic.Lib.ValueIdx
import Idealize.ShloMosaic.Lib.KernelVsHost
import Idealize.ShloMosaic.Lib.Pipeline.Value

set_option maxRecDepth 16384

noncomputable section

namespace Cert.KernelIdeal.HandVal

open Cert.KernelIdeal Cert.KernelIdeal.Gen Cert.KernelIdeal.GenP
open Idealize.ShloMosaic Idealize.ShloMosaic.TcCoe

variable {F : FTy → Type} [FloatOps F]
variable (m : (ℓ : Loc nD τ sig) → Buf (Elt F) ℓ) (outs : Outs (F := F))

/-! ## Single stretches, from any contents -/

abbrev padTo {α : Type} (x : S350000.Idx → α) (v : S_.Idx → α) : S352256.Idx → α :=
  pad S352256 ![0] ![2256] ![0] x v pads_S350000_S352256_022560 h_S_

/-- The sorting order: the second component of the pair sort of the keys with the positions. -/
theorem order_read (W : Valuation τ sig (Elt F)) :
    (StableHlo.after hostOps0_3 W (Proc.devRef .tc main_v32) : S350000.Idx → BitVec 32)
      = (Host.sort2 S350000 0 comparator_i32_i32_d0 (W (Proc.devRef .tc main_v6)) (iotaInDim S350000 32 0)).2 := by
  after_results
  first | done | rfl

theorem v54_read (W : Valuation τ sig (Elt F)) :
    (StableHlo.after hostOps0_5 W (Proc.devRef .tc main_v54) : S352256.Idx → BitVec 32)
      = padTo (W (Proc.devRef .tc main_v39)) (W (Proc.devRef .tc main_c_13)) := by
  after_results
  first | done | rfl

theorem c14_read (W : Valuation τ sig (Elt F)) :
    (StableHlo.after hostOps0_6 W (Proc.devRef .tc main_c_14) : S_.Idx → BitVec 32) = constantI S_ 32 50000#32 := by
  after_results

theorem v55_read (W : Valuation τ sig (Elt F)) :
    (StableHlo.after hostOps0_7 W (Proc.devRef .tc main_v55) : S352256.Idx → BitVec 32)
      = padTo (W (Proc.devRef .tc main_v46)) (W (Proc.devRef .tc main_c_14)) := by
  after_results
  first | done | rfl

theorem c15_read (W : Valuation τ sig (Elt F)) :
    (StableHlo.after hostOps0_8 W (Proc.devRef .tc main_c_15) : S_.Idx → BitVec 32) = constantI S_ 32 0#32 := by
  after_results

theorem v56_read (W : Valuation τ sig (Elt F)) :
    (StableHlo.after hostOps0_9 W (Proc.devRef .tc main_v56) : S352256.Idx → F .f32)
      = padTo (W (Proc.devRef .tc main_v53)) (sitofp .f32 (W (Proc.devRef .tc main_c_15) : S_.Idx → BitVec 32)) := by
  after_results
  first | done | rfl

theorem v137_read (W : Valuation τ sig (Elt F)) :
    (StableHlo.after hostOps1_1 W (Proc.devRef .tc main_v137) : S352256x64.Idx → F .bf16)
      = truncf .bf16 (mulf (W (Proc.devRef .tc main_v133) : S352256x64.Idx → F .f32)
        (broadcastInDim S352256x64 ![0, 1] bcast_S352256x1_S352256x64_0_1
          (broadcastInDim S352256x1 ![0] bcast_S352256_S352256x1_0 (W (Proc.devRef .tc main_v56) : S352256.Idx → F .f32)))) bitsLt_bf16_f32 := by
  after_results

theorem v146_read (W : Valuation τ sig (Elt F)) :
    (StableHlo.after hostOps2 W (Proc.devRef .tc main_v146) : S50000x64.Idx → F .f32)
      = addf (addf
          (fun i => shapeCast S50000x64 (extractStridedSlice S1x50000x64 ![0, 0, 0] (W (Proc.devRef .tc main_v138) : S2x50000x64.Idx → F .f32) slices_S2x50000x64_S1x50000x64_0_0_0) shapeCasts_S1x50000x64_S50000x64 i)
          (fun i => shapeCast S50000x64 (extractStridedSlice S1x50000x64 ![1, 0, 0] (W (Proc.devRef .tc main_v138) : S2x50000x64.Idx → F .f32) slices_S2x50000x64_S1x50000x64_1_0_0) shapeCasts_S1x50000x64_S50000x64 i))
        (broadcastInDim S50000x64 ![0, 1] bcast_S1x64_S50000x64_0_1 (broadcastInDim S1x64 ![1] bcast_S64_S1x64_1 (W (Proc.devRef .tc main_arg4) : S64.Idx → F .f32))) := by
  after_results
  first | done | rfl

/-- The order's words made row numbers (a negative word has the extent added), as a column of start words. -/
abbrev ordCol (o : S350000.Idx → BitVec 32) : S350000x1.Idx → BitVec 32 :=
  broadcastInDim S350000x1 ![0] bcast_S350000_S350000x1_0
    (select (cmpi .slt o (broadcastInDim S350000 ![] bcast_S_S350000 (constantI S_ 32 0#32)))
      (addi o (broadcastInDim S350000 ![] bcast_S_S350000 (constantI S_ 32 350000#32))) o)

/-- An array of 350000 entries read in the given order. -/
abbrev gathAt {α : Type} (x : S350000.Idx → α) (o : S350000.Idx → BitVec 32) : S350000.Idx → α :=
  Host.gather gather_S350000_S350000x1_S350000_n_0_n_n_0_1_1 x (ordCol o)

set_option maxHeartbeats 2000000 in
theorem v39_read (W : Valuation τ sig (Elt F)) :
    (StableHlo.after hostOps0_4 W (Proc.devRef .tc main_v39) : S350000.Idx → BitVec 32)
      = gathAt (W (Proc.devRef .tc main_v3)) (W (Proc.devRef .tc main_v32)) := by
  after_results_simp
  first | done | rfl

set_option maxHeartbeats 2000000 in
theorem v46_read (W : Valuation τ sig (Elt F)) :
    (StableHlo.after hostOps0_4 W (Proc.devRef .tc main_v46) : S350000.Idx → BitVec 32)
      = gathAt (W (Proc.devRef .tc main_v6)) (W (Proc.devRef .tc main_v32)) := by
  after_results_simp
  first | done | rfl

set_option maxHeartbeats 2000000 in
theorem v53_read (W : Valuation τ sig (Elt F)) :
    (StableHlo.after hostOps0_4 W (Proc.devRef .tc main_v53) : S350000.Idx → F .f32)
      = gathAt (W (Proc.devRef .tc main_v31)) (W (Proc.devRef .tc main_v32)) := by
  after_results_simp
  first | done | rfl

set_option maxHeartbeats 2000000 in
theorem c13_read (W : Valuation τ sig (Elt F)) :
    (StableHlo.after hostOps0_4 W (Proc.devRef .tc main_c_13) : S_.Idx → BitVec 32) = constantI S_ 32 0#32 := by
  after_results_simp
  first | done | rfl

set_option maxHeartbeats 2000000 in
theorem v64_read (W : Valuation τ sig (Elt F)) :
    (StableHlo.after hostOps0_14 W (Proc.devRef .tc main_v64) : S1x352256.Idx → BitVec 32)
      = fun i => shapeCast S1x352256 (W (Proc.devRef .tc main_v55) : S352256.Idx → BitVec 32) shapeCasts_S352256_S1x352256 i := by
  after_results_simp
  first | done | rfl

/-- The row words of a take as a column of start words: a negative word has 50000 added. -/
abbrev rowWord (i : S352256.Idx → BitVec 32) : S352256x1.Idx → BitVec 32 :=
  broadcastInDim S352256x1 ![0] bcast_S352256_S352256x1_0
    (select (cmpi .slt i (broadcastInDim S352256 ![] bcast_S_S352256 (constantI S_ 32 0#32)))
      (addi i (broadcastInDim S352256 ![] bcast_S_S352256 (constantI S_ 32 50000#32))) i)

/-- Which start words are row numbers of a 50000-row array. -/
abbrev rowOk (i5 : S352256x1.Idx → BitVec 32) : S352256.Idx → BitVec 1 :=
  Host.reduce IntOp.andi
    (andi (cmpi .sge i5 (broadcastInDim S352256x1 ![] bcast_S_S352256x1 (constantI S_ 32 0#32)))
      (cmpi .sle i5 (broadcastInDim S352256x1 ![0, 1] bcast_S1x1_S352256x1_0_1
        (broadcastInDim S1x1 ![1] bcast_S1_S1x1_1 (constantI S1 32 49999#32)))))
    (constantI S_ 1 1#1) reducesTo_S352256x1_S352256_d1 h_S_

/-- The take with fill of rows of a [50000, 64] array at 352256 row words: a negative word has 50000 added; a word
    then outside [0, 49999] gives a row of NaN, any other the row it names. -/
def takeFill (x : S50000x64.Idx → F .f32) (i : S352256.Idx → BitVec 32) : S352256x64.Idx → F .f32 :=
  select (broadcastInDim S352256x64 ![0] bcast_S352256_S352256x64_0 (rowOk (rowWord i)))
    (Host.gather gather_S50000x64_S352256x1_S352256x64_1_0_n_n_0_1_164 x (rowWord i))
    (broadcastInDim S352256x64 ![] bcast_S_S352256x64 (constant S_ .f32 0x7FC00000#32))

set_option maxHeartbeats 2000000 in
theorem v133_read (W : Valuation τ sig (Elt F)) :
    (StableHlo.after hostOps1 W (Proc.devRef .tc main_v133) : S352256x64.Idx → F .f32)
      = takeFill (W (Proc.devRef .tc main_v132)) (W (Proc.devRef .tc main_v54)) := by
  after_results_simp
  simp only [takeFill, rowWord, rowOk, StableHlo.TRef.ofBuf, StableHlo.TRef.toBuf, cast_eq]

/-! ## The named values and how they reach the first segment-sum call -/

variable (c : Dev nD)

/-- The source node of every edge (the given edges, then one self-loop per node). -/
abbrev sAll : S350000.Idx → BitVec 32 := V1 m c main_v3
/-- The target node of every edge. -/
abbrev tAll : S350000.Idx → BitVec 32 := V1 m c main_v6
/-- The normalisation weight of every edge. -/
abbrev normAll : S350000.Idx → F .f32 := V3 m c main_v31
/-- The edges' positions in the order of their targets. -/
abbrev order : S350000.Idx → BitVec 32 := V4 m c main_v32

/-- What the first matrix-product call leaves: the transformed features, one row per node. -/
abbrev out30 : S50000x64.Idx → F .f32 := outs 30 main_v132 c
/-- What the first segment-sum call leaves: its two slabs. -/
abbrev out33 : S2x50000x64.Idx → F .f32 := outs 33 main_v138 c
/-- The first layer's bias as launched. -/
abbrev bias4 : S64.Idx → F .f32 := V0 m c main_arg4

theorem order_eq :
    order m c = (Host.sort2 S350000 0 comparator_i32_i32_d0 (tAll m c) (iotaInDim S350000 32 0)).2 :=
  (order_read (V3 m c)).trans <| by
    rw [show V3 m c (Proc.devRef .tc main_v6) = V1 m c main_v6 from (V3_of m c main_v6 (by decide)).trans <| (V2_of m c main_v6 (by decide))]

theorem v54_V29 :
    (V29 m c main_v54 : S352256.Idx → BitVec 32) = padTo (gathAt (sAll m c) (order m c)) (constantI S_ 32 0#32) :=
  ((V29_of m c main_v54 (by decide)).trans <| (V28_of m c main_v54 (by decide)).trans <| (V27_of m c main_v54 (by decide)).trans <| (V26_of m c main_v54 (by decide)).trans <| (V25_of m c main_v54 (by decide)).trans <| (V24_of m c main_v54 (by decide)).trans <| (V23_of m c main_v54 (by decide)).trans <| (V22_of m c main_v54 (by decide)).trans <| (V21_of m c main_v54 (by decide)).trans <| (V20_of m c main_v54 (by decide)).trans <| (V19_of m c main_v54 (by decide)).trans <| (V18_of m c main_v54 (by decide)).trans <| (V17_of m c main_v54 (by decide)).trans <| (V16_of m c main_v54 (by decide)).trans <| (V15_of m c main_v54 (by decide)).trans <| (V14_of m c main_v54 (by decide)).trans <| (V13_of m c main_v54 (by decide)).trans <| (V12_of m c main_v54 (by decide)).trans <| (V11_of m c main_v54 (by decide)).trans <| (V10_of m c main_v54 (by decide)).trans <| (V9_of m c main_v54 (by decide)).trans <| (V8_of m c main_v54 (by decide)).trans <| (V7_of m c main_v54 (by decide))).trans <| (v54_read (V5 m c)).trans <| by
    rw [show V5 m c (Proc.devRef .tc main_v39) = _ from v39_read (V4 m c),
      show V5 m c (Proc.devRef .tc main_c_13) = _ from c13_read (V4 m c),
      show V4 m c (Proc.devRef .tc main_v3) = V1 m c main_v3 from (V4_of m c main_v3 (by decide)).trans <| (V3_of m c main_v3 (by decide)).trans <| (V2_of m c main_v3 (by decide))]

theorem v55_V29 :
    (V29 m c main_v55 : S352256.Idx → BitVec 32) = padTo (gathAt (tAll m c) (order m c)) (constantI S_ 32 50000#32) :=
  ((V29_of m c main_v55 (by decide)).trans <| (V28_of m c main_v55 (by decide)).trans <| (V27_of m c main_v55 (by decide)).trans <| (V26_of m c main_v55 (by decide)).trans <| (V25_of m c main_v55 (by decide)).trans <| (V24_of m c main_v55 (by decide)).trans <| (V23_of m c main_v55 (by decide)).trans <| (V22_of m c main_v55 (by decide)).trans <| (V21_of m c main_v55 (by decide)).trans <| (V20_of m c main_v55 (by decide)).trans <| (V19_of m c main_v55 (by decide)).trans <| (V18_of m c main_v55 (by decide)).trans <| (V17_of m c main_v55 (by decide)).trans <| (V16_of m c main_v55 (by decide)).trans <| (V15_of m c main_v55 (by decide)).trans <| (V14_of m c main_v55 (by decide)).trans <| (V13_of m c main_v55 (by decide)).trans <| (V12_of m c main_v55 (by decide)).trans <| (V11_of m c main_v55 (by decide)).trans <| (V10_of m c main_v55 (by decide)).trans <| (V9_of m c main_v55 (by decide))).trans <| (v55_read (V7 m c)).trans <| by
    rw [show V7 m c (Proc.devRef .tc main_c_14) = _ from c14_read (V6 m c),
      show V7 m c (Proc.devRef .tc main_v46) = V5 m c main_v46 from (V7_of m c main_v46 (by decide)).trans <| (V6_of m c main_v46 (by decide)),
      show V5 m c (Proc.devRef .tc main_v46) = _ from v46_read (V4 m c),
      show V4 m c (Proc.devRef .tc main_v6) = V1 m c main_v6 from (V4_of m c main_v6 (by decide)).trans <| (V3_of m c main_v6 (by decide)).trans <| (V2_of m c main_v6 (by decide))]

theorem v56_V29 :
    (V29 m c main_v56 : S352256.Idx → F .f32)
      = padTo (gathAt (normAll m c) (order m c)) (sitofp .f32 (constantI S_ 32 0#32)) :=
  ((V29_of m c main_v56 (by decide)).trans <| (V28_of m c main_v56 (by decide)).trans <| (V27_of m c main_v56 (by decide)).trans <| (V26_of m c main_v56 (by decide)).trans <| (V25_of m c main_v56 (by decide)).trans <| (V24_of m c main_v56 (by decide)).trans <| (V23_of m c main_v56 (by decide)).trans <| (V22_of m c main_v56 (by decide)).trans <| (V21_of m c main_v56 (by decide)).trans <| (V20_of m c main_v56 (by decide)).trans <| (V19_of m c main_v56 (by decide)).trans <| (V18_of m c main_v56 (by decide)).trans <| (V17_of m c main_v56 (by decide)).trans <| (V16_of m c main_v56 (by decide)).trans <| (V15_of m c main_v56 (by decide)).trans <| (V14_of m c main_v56 (by decide)).trans <| (V13_of m c main_v56 (by decide)).trans <| (V12_of m c main_v56 (by decide)).trans <| (V11_of m c main_v56 (by decide))).trans <| (v56_read (V9 m c)).trans <| by
    rw [show V9 m c (Proc.devRef .tc main_c_15) = _ from c15_read (V8 m c),
      show V9 m c (Proc.devRef .tc main_v53) = V5 m c main_v53 from (V9_of m c main_v53 (by decide)).trans <| (V8_of m c main_v53 (by decide)).trans <| (V7_of m c main_v53 (by decide)).trans <| (V6_of m c main_v53 (by decide)),
      show V5 m c (Proc.devRef .tc main_v53) = _ from v53_read (V4 m c),
      show V4 m c (Proc.devRef .tc main_v31) = V3 m c main_v31 from (V4_of m c main_v31 (by decide))]

theorem v64_V32 :
    (V32 m outs c main_v64 : S1x352256.Idx → BitVec 32)
      = fun i => shapeCast S1x352256 (V29 m c main_v55 : S352256.Idx → BitVec 32) shapeCasts_S352256_S1x352256 i :=
  ((V32_of m outs c main_v64 (by decide)).trans <| (V31_of m outs c main_v64 (by decide)).trans <| (V30_of m outs c main_v64 (by decide)).trans <| (V29_of m c main_v64 (by decide)).trans <| (V28_of m c main_v64 (by decide)).trans <| (V27_of m c main_v64 (by decide)).trans <| (V26_of m c main_v64 (by decide)).trans <| (V25_of m c main_v64 (by decide)).trans <| (V24_of m c main_v64 (by decide)).trans <| (V23_of m c main_v64 (by decide)).trans <| (V22_of m c main_v64 (by decide)).trans <| (V21_of m c main_v64 (by decide)).trans <| (V20_of m c main_v64 (by decide)).trans <| (V19_of m c main_v64 (by decide)).trans <| (V18_of m c main_v64 (by decide)).trans <| (V17_of m c main_v64 (by decide)).trans <| (V16_of m c main_v64 (by decide))).trans <| (v64_read (V14 m c)).trans <| by
    rw [show V14 m c (Proc.devRef .tc main_v55) = V29 m c main_v55 from
      ((V14_of m c main_v55 (by decide)).trans <| (V13_of m c main_v55 (by decide)).trans <| (V12_of m c main_v55 (by decide)).trans <| (V11_of m c main_v55 (by decide)).trans <| (V10_of m c main_v55 (by decide)).trans <| (V9_of m c main_v55 (by decide))).trans ((V29_of m c main_v55 (by decide)).trans <| (V28_of m c main_v55 (by decide)).trans <| (V27_of m c main_v55 (by decide)).trans <| (V26_of m c main_v55 (by decide)).trans <| (V25_of m c main_v55 (by decide)).trans <| (V24_of m c main_v55 (by decide)).trans <| (V23_of m c main_v55 (by decide)).trans <| (V22_of m c main_v55 (by decide)).trans <| (V21_of m c main_v55 (by decide)).trans <| (V20_of m c main_v55 (by decide)).trans <| (V19_of m c main_v55 (by decide)).trans <| (V18_of m c main_v55 (by decide)).trans <| (V17_of m c main_v55 (by decide)).trans <| (V16_of m c main_v55 (by decide)).trans <| (V15_of m c main_v55 (by decide)).trans <| (V14_of m c main_v55 (by decide)).trans <| (V13_of m c main_v55 (by decide)).trans <| (V12_of m c main_v55 (by decide)).trans <| (V11_of m c main_v55 (by decide)).trans <| (V10_of m c main_v55 (by decide)).trans <| (V9_of m c main_v55 (by decide))).symm]

theorem v137_V32 :
    (V32 m outs c main_v137 : S352256x64.Idx → F .bf16)
      = truncf .bf16 (mulf (takeFill (outs 30 main_v132 c) (V29 m c main_v54))
          (broadcastInDim S352256x64 ![0, 1] bcast_S352256x1_S352256x64_0_1
            (broadcastInDim S352256x1 ![0] bcast_S352256_S352256x1_0 (V29 m c main_v56 : S352256.Idx → F .f32)))) bitsLt_bf16_f32 :=
  (v137_read (V31 m outs c)).trans <| by
    rw [show V31 m outs c (Proc.devRef .tc main_v133) = _ from v133_read (V30 m outs c),
      show V31 m outs c (Proc.devRef .tc main_v56) = V29 m c main_v56 from (V31_of m outs c main_v56 (by decide)).trans <| (V30_of m outs c main_v56 (by decide)),
      show V30 m outs c (Proc.devRef .tc main_v54) = V29 m c main_v54 from (V30_of m outs c main_v54 (by decide)),
      show V30 m outs c (Proc.devRef .tc main_v132) = outs 30 main_v132 c from Function.update_self ..]

theorem v146_V36 :
    (V36 m outs c main_v146 : S50000x64.Idx → F .f32)
      = addf (addf
          (fun i => shapeCast S50000x64 (extractStridedSlice S1x50000x64 ![0, 0, 0] (outs 33 main_v138 c : S2x50000x64.Idx → F .f32) slices_S2x50000x64_S1x50000x64_0_0_0) shapeCasts_S1x50000x64_S50000x64 i)
          (fun i => shapeCast S50000x64 (extractStridedSlice S1x50000x64 ![1, 0, 0] (outs 33 main_v138 c : S2x50000x64.Idx → F .f32) slices_S2x50000x64_S1x50000x64_1_0_0) shapeCasts_S1x50000x64_S50000x64 i))
        (broadcastInDim S50000x64 ![0, 1] bcast_S1x64_S50000x64_0_1 (broadcastInDim S1x64 ![1] bcast_S64_S1x64_1 (V0 m c main_arg4 : S64.Idx → F .f32))) :=
  ((V36_of m outs c main_v146 (by decide)).trans <| (V35_of m outs c main_v146 (by decide))).trans <| (v146_read (V33 m outs c)).trans <| by
    rw [show V33 m outs c (Proc.devRef .tc main_arg4) = V0 m c main_arg4 from (V33_of m outs c main_arg4 (by decide)).trans <| (V32_of m outs c main_arg4 (by decide)).trans <| (V31_of m outs c main_arg4 (by decide)).trans <| (V30_of m outs c main_arg4 (by decide)).trans <| (V29_of m c main_arg4 (by decide)).trans <| (V28_of m c main_arg4 (by decide)).trans <| (V27_of m c main_arg4 (by decide)).trans <| (V26_of m c main_arg4 (by decide)).trans <| (V25_of m c main_arg4 (by decide)).trans <| (V24_of m c main_arg4 (by decide)).trans <| (V23_of m c main_arg4 (by decide)).trans <| (V22_of m c main_arg4 (by decide)).trans <| (V21_of m c main_arg4 (by decide)).trans <| (V20_of m c main_arg4 (by decide)).trans <| (V19_of m c main_arg4 (by decide)).trans <| (V18_of m c main_arg4 (by decide)).trans <| (V17_of m c main_arg4 (by decide)).trans <| (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)),
      show V33 m outs c (Proc.devRef .tc main_v138) = outs 33 main_v138 c from Function.update_self ..]

/-! ## Reading at an index -/

section AtIndex

open Idealize.ShloMosaic.ValueIdx Idealize.ShloMosaic.StableHlo.Predicate Cert.Math.RowOps

/-- A small word is not negative. -/
theorem slt_zero_of_small (w : BitVec 32) (hw : w.toNat < 2 ^ 31) : IntOp.cmpi .slt w 0#32 = 0#1 :=
  eq_zero_of_ne_one fun h => by
    have h' := (slt_iff_toNat hw (by decide)).mp h
    simp at h'

/-- The order's word at position e, a position k itself, is the start word of e. -/
theorem ordCol_apply (o : S350000.Idx → BitVec 32) (e k : Fin 350000) (ho : o (ValueIdx.ix1 e) = BitVec.ofNat 32 k.val) :
    ordCol o (colIdx e) = BitVec.ofNat 32 k.val := by
  have hb : ordCol o (colIdx e) = (select (cmpi .slt o (broadcastInDim S350000 ![] bcast_S_S350000 (constantI S_ 32 0#32)))
      (addi o (broadcastInDim S350000 ![] bcast_S_S350000 (constantI S_ 32 350000#32))) o) (ValueIdx.ix1 e) :=
    broadcastInDim_apply _ _ _ _ (ValueIdx.ix1 e) (fun a => by
      obtain rfl : a = 0 := Subsingleton.elim _ _
      rfl)
  rw [hb]
  show Scalar.select (IntOp.cmpi .slt (o (ValueIdx.ix1 e)) 0#32) (IntOp.addi (o (ValueIdx.ix1 e)) 350000#32) (o (ValueIdx.ix1 e)) = _
  have hk : (BitVec.ofNat 32 k.val).toNat = k.val := by
    have := k.isLt
    rw [BitVec.toNat_ofNat]; omega
  rw [ho, slt_zero_of_small _ (by rw [hk]; have := k.isLt; omega), select_zero]

/-- An array read in the order, at position e: the array at the position the order names there. -/
theorem gathAt_apply {α : Type} (x : S350000.Idx → α) (o : S350000.Idx → BitVec 32) (e k : Fin 350000)
    (ho : o (ValueIdx.ix1 e) = BitVec.ofNat 32 k.val) : gathAt x o (ValueIdx.ix1 e) = x (ValueIdx.ix1 k) := by
  refine (eltGather_apply Facts₀.gather_S350000_S350000x1_S350000_n_0_n_n_0_1_1_wf (by decide : 0 < 350000) x (ordCol o) (ValueIdx.ix1 e)).trans ?_
  refine congrArg x (congrArg ValueIdx.ix1 (Fin.ext ?_))
  show (clampRow 350000 _ (ordCol o (colIdx e))).val = k.val
  have hk := k.isLt
  rw [ordCol_apply o e k ho, clampRow_val_of_lt _ _ (by rw [toInt_ofNat_small _ (by omega)]; omega)
    (by rw [toInt_ofNat_small _ (by omega)]; omega), toInt_ofNat_small _ (by omega)]
  rfl

/-- The padded array at a position inside the operand. -/
theorem padTo_apply_lt {α : Type} (x : S350000.Idx → α) (v : S_.Idx → α) (e : Fin 352256) (he : e.val < 350000) :
    padTo x v (ValueIdx.ix1 e) = x (ValueIdx.ix1 ⟨e.val, he⟩) :=
  pad_apply_of_inside _ _ _ x v pads_S350000_S352256_022560 h_S_ (ValueIdx.ix1 e) (ValueIdx.ix1 ⟨e.val, he⟩) (fun a => by
    obtain rfl : a = 0 := Subsingleton.elim _ _
    show e.val = 0 + e.val * (0 + 1)
    omega)

/-- The padded array at a position past the operand: the padding value. -/
theorem padTo_apply_ge {α : Type} (x : S350000.Idx → α) (v : S_.Idx → α) (e : Fin 352256) (he : 350000 ≤ e.val) :
    padTo x v (ValueIdx.ix1 e) = v ValueIdx.ix0 := by
  refine (pad_apply_of_not_inside _ _ _ x v pads_S350000_S352256_022560 h_S_ (ValueIdx.ix1 e) (0 : Fin 1) (fun h => ?_)).trans
    (congrArg v (funext fun a => a.elim0))
  have h3 : (e.val - 0) / (0 + 1) < 350000 := h.2.2
  omega

end AtIndex

section AtIndex2

open Idealize.ShloMosaic.ValueIdx Idealize.ShloMosaic.StableHlo.Predicate Cert.Math.RowOps

theorem and_one_bit (b : BitVec 1) : IntOp.andi b 1#1 = b := by revert b; decide

theorem fold_fin_one {α : Type} (op : α → α → α) [Std.Commutative op] [Std.Associative op] (b : α) (g : Fin 1 → α) :
    (Finset.univ : Finset (Fin 1)).fold op b g = op (g 0) b := by
  rw [show (Finset.univ : Finset (Fin 1)) = {0} from rfl, Finset.fold_singleton]

/-- The and-reduction of a column along its unit axis: the entry itself. -/
theorem reduce_and_unit (x : S352256x1.Idx → BitVec 1) (e : Fin 352256) :
    Host.reduce IntOp.andi x (constantI S_ 1 1#1) reducesTo_S352256x1_S352256_d1 h_S_ (ValueIdx.ix1 e) = x (colIdx e) := by
  have hR : S352256x1.Reduces [1] S352256 := by decide
  rw [Host.reduce_eq_fold_single IntOp.andi x _ reducesTo_S352256x1_S352256_d1 hR h_S_ (ValueIdx.ix1 e)]
  refine (fold_fin_one IntOp.andi (1#1) (x ∘ hR.lift (ValueIdx.ix1 e))).trans ?_
  have hl : hR.lift (ValueIdx.ix1 e) (0 : Fin 1) = colIdx e := by
    funext c
    apply Fin.ext
    match c with
    | ⟨0, _⟩ => rfl
    | ⟨1, _⟩ => rfl
  show IntOp.andi (x (hR.lift (ValueIdx.ix1 e) (0 : Fin 1))) 1#1 = _
  rw [hl, and_one_bit]

/-- The start word of position e is the row word at e, when that is not negative. -/
theorem rowWord_apply (i : S352256.Idx → BitVec 32) (e : Fin 352256) (hw : (i (ValueIdx.ix1 e)).toNat < 2 ^ 31) :
    rowWord i (colIdx e) = i (ValueIdx.ix1 e) := by
  refine (broadcastInDim_apply _ _ _ _ (ValueIdx.ix1 e) (fun a => by
    obtain rfl : a = 0 := Subsingleton.elim _ _
    rfl)).trans ?_
  show Scalar.select (IntOp.cmpi .slt (i (ValueIdx.ix1 e)) 0#32) (IntOp.addi (i (ValueIdx.ix1 e)) 50000#32) (i (ValueIdx.ix1 e)) = _
  rw [slt_zero_of_small _ hw, select_zero]

/-- A start word below 50000 is a row number. -/
theorem rowOk_apply (i5 : S352256x1.Idx → BitVec 32) (e : Fin 352256) (h : (i5 (colIdx e)).toNat < 50000) :
    rowOk i5 (ValueIdx.ix1 e) = 1#1 := by
  refine (reduce_and_unit _ e).trans ?_
  show IntOp.andi (IntOp.cmpi .sge (i5 (colIdx e)) 0#32) (IntOp.cmpi .sle (i5 (colIdx e)) 49999#32) = 1#1
  rw [(sge_iff_toNat (by omega) (by decide)).mpr (by simp),
    (sle_iff_toNat (by omega) (by decide)).mpr (by show (i5 (colIdx e)).toNat ≤ 49999; omega)]
  rfl

/-- The take with fill at (e, f), when the word at e is a row number: that row's entry f. -/
theorem takeFill_apply (x : S50000x64.Idx → F .f32) (i : S352256.Idx → BitVec 32) (e : Fin 352256) (f : Fin 64)
    (hw : (i (ValueIdx.ix1 e)).toNat < 50000) : takeFill x i (ValueIdx.ix2 e f) = x (ValueIdx.ix2 ⟨(i (ValueIdx.ix1 e)).toNat, hw⟩ f) := by
  have h5 : rowWord i (colIdx e) = i (ValueIdx.ix1 e) := rowWord_apply i e (by omega)
  have hm : (broadcastInDim S352256x64 ![0] bcast_S352256_S352256x64_0 (rowOk (rowWord i))) (ValueIdx.ix2 e f) = 1#1 :=
    (broadcastInDim_apply _ _ _ (ValueIdx.ix2 e f) (ValueIdx.ix1 e) (fun a => by
      obtain rfl : a = 0 := Subsingleton.elim _ _
      rfl)).trans (rowOk_apply _ e (by rw [h5]; exact hw))
  have hg : Host.gather gather_S50000x64_S352256x1_S352256x64_1_0_n_n_0_1_164 x (rowWord i) (ValueIdx.ix2 e f)
      = x (ValueIdx.ix2 ⟨(i (ValueIdx.ix1 e)).toNat, hw⟩ f) := by
    refine (rowGather_apply Facts₀.gather_S50000x64_S352256x1_S352256x64_1_0_n_n_0_1_164_wf (by decide : 0 < 50000) x _ (ValueIdx.ix2 e f)).trans ?_
    refine congrArg x (congrArg (fun r => ValueIdx.ix2 r f) (Fin.ext ?_))
    show (clampRow 50000 _ (rowWord i (colIdx e))).val = (i (ValueIdx.ix1 e)).toNat
    rw [h5, clampRow_val_of_lt _ _ (by rw [toInt_eq_toNat_of_lt (by omega)]; omega) (by rw [toInt_eq_toNat_of_lt (by omega)]; omega),
      toInt_eq_toNat_of_lt (by omega)]
    rfl
  unfold takeFill
  rw [select_apply, hm, select_one, hg]

end AtIndex2

/-! ## The operands of the first segment-sum call, and what follows it, read at an index -/

section Reads

open Idealize.ShloMosaic.ValueIdx Cert.Math.RowOps

variable (σ : Fin 350000 → Fin 350000) (hord : ∀ e : Fin 350000, order m c (ValueIdx.ix1 e) = BitVec.ofNat 32 (σ e).val)
include hord

/-- The padded source column at an edge position: the source of the edge the order names there. -/
theorem v54_at (e : Fin 352256) (he : e.val < 350000) :
    (V29 m c main_v54 : S352256.Idx → BitVec 32) (ValueIdx.ix1 e) = sAll m c (ValueIdx.ix1 (σ ⟨e.val, he⟩)) := by
  rw [v54_V29, padTo_apply_lt _ _ e he]
  exact gathAt_apply _ _ ⟨e.val, he⟩ (σ ⟨e.val, he⟩) (hord _)

/-- The padded target column at an edge position. -/
theorem v55_at (e : Fin 352256) (he : e.val < 350000) :
    (V29 m c main_v55 : S352256.Idx → BitVec 32) (ValueIdx.ix1 e) = tAll m c (ValueIdx.ix1 (σ ⟨e.val, he⟩)) := by
  rw [v55_V29, padTo_apply_lt _ _ e he]
  exact gathAt_apply _ _ ⟨e.val, he⟩ (σ ⟨e.val, he⟩) (hord _)

/-- The padded weight column at an edge position. -/
theorem v56_at (e : Fin 352256) (he : e.val < 350000) :
    (V29 m c main_v56 : S352256.Idx → F .f32) (ValueIdx.ix1 e) = normAll m c (ValueIdx.ix1 (σ ⟨e.val, he⟩)) := by
  rw [v56_V29, padTo_apply_lt _ _ e he]
  exact gathAt_apply _ _ ⟨e.val, he⟩ (σ ⟨e.val, he⟩) (hord _)

omit hord in
/-- The padded target column past the edges: the node count, a row no window holds. -/
theorem v55_at_pad (e : Fin 352256) (he : 350000 ≤ e.val) :
    (V29 m c main_v55 : S352256.Idx → BitVec 32) (ValueIdx.ix1 e) = 50000#32 := by
  rw [v55_V29, padTo_apply_ge _ _ e he]
  rfl

omit hord in
/-- The target operand, a one-row array, at (0, e): the padded target column at e. -/
theorem v64_at (e : Fin 352256) :
    (V32 m outs c main_v64 : S1x352256.Idx → BitVec 32) (ValueIdx.ix2 (0 : Fin 1) e) = (V29 m c main_v55 : S352256.Idx → BitVec 32) (ValueIdx.ix1 e) := by
  rw [v64_V32]
  exact shapeCast_a_1a_apply _ shapeCasts_S352256_S1x352256 (0 : Fin 1) e

end Reads

section ReadsIdeal

open Idealize.ShloMosaic.ValueIdx Idealize.ShloMosaic.StableHlo.Predicate Cert.Math.RowOps

variable (mI : (ℓ : Loc nD τ sig) → Buf (Elt Ideal) ℓ) (outsI : Outs (F := Ideal))
variable (σ : Fin 350000 → Fin 350000) (hord : ∀ e : Fin 350000, order mI c (ValueIdx.ix1 e) = BitVec.ofNat 32 (σ e).val)
  (hs : ∀ k : Fin 350000, (sAll mI c (ValueIdx.ix1 k)).toNat < 50000)
include hord hs

/-- THE VALUE OPERAND at an edge position e and feature f: the transformed features of the edge's source node,
    scaled by the edge's weight. -/
theorem v137_at (e : Fin 352256) (he : e.val < 350000) (f : Fin 64) :
    (V32 mI outsI c main_v137 : S352256x64.Idx → Ideal .bf16) (ValueIdx.ix2 e f)
      = out30 outsI c (ValueIdx.ix2 ⟨(sAll mI c (ValueIdx.ix1 (σ ⟨e.val, he⟩))).toNat, hs _⟩ f)
        * normAll mI c (ValueIdx.ix1 (σ ⟨e.val, he⟩)) := by
  have h54 := v54_at mI c σ hord e he
  have hw : ((V29 mI c main_v54 : S352256.Idx → BitVec 32) (ValueIdx.ix1 e)).toNat < 50000 := by rw [h54]; exact hs _
  rw [v137_V32, truncf_apply, mulf_apply, takeFill_apply _ _ e f hw]
  have hb : (broadcastInDim S352256x64 ![0, 1] bcast_S352256x1_S352256x64_0_1
      (broadcastInDim S352256x1 ![0] bcast_S352256_S352256x1_0 (V29 mI c main_v56 : S352256.Idx → Ideal .f32))) (ValueIdx.ix2 e f)
      = (V29 mI c main_v56 : S352256.Idx → Ideal .f32) (ValueIdx.ix1 e) :=
    (broadcastInDim_apply _ _ _ (ValueIdx.ix2 e f) (colIdx e) (fun a => by
      match a with
      | ⟨0, _⟩ => rfl
      | ⟨1, _⟩ => rfl)).trans
    (broadcastInDim_apply _ _ _ (colIdx e) (ValueIdx.ix1 e) (fun a => by
      obtain rfl : a = 0 := Subsingleton.elim _ _
      rfl))
  rw [hb, v56_at mI c σ hord e he]
  exact congrArg (fun r => out30 outsI c (ValueIdx.ix2 r f) * normAll mI c (ValueIdx.ix1 (σ ⟨e.val, he⟩)))
    (Fin.ext (congrArg BitVec.toNat h54))

omit hord hs in
/-- WHAT FOLLOWS THE CALL at node r and feature f: the two slabs' entries added, plus the bias. -/
theorem v146_at (r : Fin 50000) (f : Fin 64) :
    (V36 mI outsI c main_v146 : S50000x64.Idx → Ideal .f32) (ValueIdx.ix2 r f)
      = out33 outsI c (ValueIdx.ix3 (0 : Fin 2) r f) + out33 outsI c (ValueIdx.ix3 (1 : Fin 2) r f) + bias4 mI c (ValueIdx.ix1 f) := by
  rw [v146_V36, addf_apply, addf_apply]
  have h0 : shapeCast S50000x64 (extractStridedSlice S1x50000x64 ![0, 0, 0] (outsI 33 main_v138 c : S2x50000x64.Idx → Ideal .f32) slices_S2x50000x64_S1x50000x64_0_0_0) shapeCasts_S1x50000x64_S50000x64 (ValueIdx.ix2 r f)
      = (outsI 33 main_v138 c : S2x50000x64.Idx → Ideal .f32) (ValueIdx.ix3 (0 : Fin 2) r f) :=
    (shapeCast_1ab_ab_apply _ _ r f).trans (extractStridedSlice_apply _ _ _ _ (ValueIdx.ix3 (0 : Fin 2) r f) (fun a => by
      match a with
      | ⟨0, _⟩ => rfl
      | ⟨1, _⟩ => show r.val = 0 + r.val; omega
      | ⟨2, _⟩ => show f.val = 0 + f.val; omega))
  have h1 : shapeCast S50000x64 (extractStridedSlice S1x50000x64 ![1, 0, 0] (outsI 33 main_v138 c : S2x50000x64.Idx → Ideal .f32) slices_S2x50000x64_S1x50000x64_1_0_0) shapeCasts_S1x50000x64_S50000x64 (ValueIdx.ix2 r f)
      = (outsI 33 main_v138 c : S2x50000x64.Idx → Ideal .f32) (ValueIdx.ix3 (1 : Fin 2) r f) :=
    (shapeCast_1ab_ab_apply _ _ r f).trans (extractStridedSlice_apply _ _ _ _ (ValueIdx.ix3 (1 : Fin 2) r f) (fun a => by
      match a with
      | ⟨0, _⟩ => rfl
      | ⟨1, _⟩ => show r.val = 0 + r.val; omega
      | ⟨2, _⟩ => show f.val = 0 + f.val; omega))
  have hb : (broadcastInDim S50000x64 ![0, 1] bcast_S1x64_S50000x64_0_1 (broadcastInDim S1x64 ![1] bcast_S64_S1x64_1 (V0 mI c main_arg4 : S64.Idx → Ideal .f32))) (ValueIdx.ix2 r f)
      = (V0 mI c main_arg4 : S64.Idx → Ideal .f32) (ValueIdx.ix1 f) :=
    (broadcastInDim_apply _ _ _ (ValueIdx.ix2 r f) (ValueIdx.ix2 (0 : Fin 1) f) (fun a => by
      match a with
      | ⟨0, _⟩ => rfl
      | ⟨1, _⟩ => rfl)).trans
    (broadcastInDim_apply _ _ _ (ValueIdx.ix2 (0 : Fin 1) f) (ValueIdx.ix1 f) (fun a => by
      obtain rfl : a = 0 := Subsingleton.elim _ _
      rfl))
  rw [hb]
  exact congrArg₂ (· + ·) (congrArg₂ (· + ·) h0 h1) rfl

end ReadsIdeal

end Cert.KernelIdeal.HandVal
-- ==== Proof.KI.HostVal2.lean ====
/- The host operations around the second segment-sum call, read as values: the second edge set's sources, targets
   and weights in the order of the targets and padded, the call's operands (the bf16 edge values, the one-row target
   array) and the sum of its two output slabs with the bias, each as the composed term of earlier named arrays, and then read
   at an index. -/
import proofs.«402757_j20469814133395_4_alg».proof.Proof.KI.RegionsP
import proofs.«402757_j20469814133395_4_alg».proof.Proof.Math.RowOps
import Idealize.ShloMosaic.Lib.ValueLayout
import Idealize.ShloMosaic.PureOps.Reduce
import Idealize.ShloMosaic.Lib.StableHlo.Run
import Idealize.ShloMosaic.Lib.StableHlo.Predicate
import Idealize.ShloMosaic.Lib.ValueIdx
import Idealize.ShloMosaic.Lib.KernelVsHost
import Idealize.ShloMosaic.Lib.Pipeline.Value

set_option maxRecDepth 16384

noncomputable section

namespace Cert.KernelIdeal.HandVal

open Cert.KernelIdeal Cert.KernelIdeal.Gen Cert.KernelIdeal.GenP
open Idealize.ShloMosaic Idealize.ShloMosaic.TcCoe

variable {F : FTy → Type} [FloatOps F]
variable (m : (ℓ : Loc nD τ sig) → Buf (Elt F) ℓ) (outs : Outs (F := F))

/-! ## Single stretches, from any contents -/

/-- An array of 1847685 entries padded at the end to 1851392 with a fill value. -/
abbrev padTo2 {α : Type} (x : S1847685.Idx → α) (v : S_.Idx → α) : S1851392.Idx → α :=
  pad S1851392 ![0] ![3707] ![0] x v pads_S1847685_S1851392_037070 h_S_

/-- The sorting order: the second component of the pair sort of the keys with the positions. -/
theorem order2_read (W : Valuation τ sig (Elt F)) :
    (StableHlo.after hostOps0_17 W (Proc.devRef .tc main_v97) : S1847685.Idx → BitVec 32)
      = (Host.sort2 S1847685 0 comparator_i32_i32_d0 (W (Proc.devRef .tc main_v71)) (iotaInDim S1847685 32 0)).2 := by
  after_results
  first | done | rfl

theorem v119_read (W : Valuation τ sig (Elt F)) :
    (StableHlo.after hostOps0_19 W (Proc.devRef .tc main_v119) : S1851392.Idx → BitVec 32)
      = padTo2 (W (Proc.devRef .tc main_v104)) (W (Proc.devRef .tc main_c_35)) := by
  after_results
  first | done | rfl

theorem c36_read (W : Valuation τ sig (Elt F)) :
    (StableHlo.after hostOps0_20 W (Proc.devRef .tc main_c_36) : S_.Idx → BitVec 32) = constantI S_ 32 50000#32 := by
  after_results

theorem v120_read (W : Valuation τ sig (Elt F)) :
    (StableHlo.after hostOps0_21 W (Proc.devRef .tc main_v120) : S1851392.Idx → BitVec 32)
      = padTo2 (W (Proc.devRef .tc main_v111)) (W (Proc.devRef .tc main_c_36)) := by
  after_results
  first | done | rfl

theorem c37_read (W : Valuation τ sig (Elt F)) :
    (StableHlo.after hostOps0_22 W (Proc.devRef .tc main_c_37) : S_.Idx → BitVec 32) = constantI S_ 32 0#32 := by
  after_results

theorem v121_read (W : Valuation τ sig (Elt F)) :
    (StableHlo.after hostOps0_23 W (Proc.devRef .tc main_v121) : S1851392.Idx → F .f32)
      = padTo2 (W (Proc.devRef .tc main_v118)) (sitofp .f32 (W (Proc.devRef .tc main_c_37) : S_.Idx → BitVec 32)) := by
  after_results
  first | done | rfl

theorem v129_read (W : Valuation τ sig (Elt F)) :
    (StableHlo.after hostOps0_28 W (Proc.devRef .tc main_v129) : S1x1851392.Idx → BitVec 32)
      = fun i => shapeCast S1x1851392 (W (Proc.devRef .tc main_v120) : S1851392.Idx → BitVec 32) shapeCasts_S1851392_S1x1851392 i := by
  after_results
  first | done | rfl

theorem v151_read (W : Valuation τ sig (Elt F)) :
    (StableHlo.after hostOps2_2 W (Proc.devRef .tc main_v151) : S1851392x64.Idx → F .bf16)
      = truncf .bf16 (mulf (W (Proc.devRef .tc main_v147) : S1851392x64.Idx → F .f32)
        (broadcastInDim S1851392x64 ![0, 1] bcast_S1851392x1_S1851392x64_0_1
          (broadcastInDim S1851392x1 ![0] bcast_S1851392_S1851392x1_0 (W (Proc.devRef .tc main_v121) : S1851392.Idx → F .f32)))) bitsLt_bf16_f32 := by
  after_results

theorem v160_read (W : Valuation τ sig (Elt F)) :
    (StableHlo.after hostOps3 W (Proc.devRef .tc main_v160) : S50000x64.Idx → F .f32)
      = addf (addf
          (fun i => shapeCast S50000x64 (extractStridedSlice S1x50000x64 ![0, 0, 0] (W (Proc.devRef .tc main_v152) : S2x50000x64.Idx → F .f32) slices_S2x50000x64_S1x50000x64_0_0_0) shapeCasts_S1x50000x64_S50000x64 i)
          (fun i => shapeCast S50000x64 (extractStridedSlice S1x50000x64 ![1, 0, 0] (W (Proc.devRef .tc main_v152) : S2x50000x64.Idx → F .f32) slices_S2x50000x64_S1x50000x64_1_0_0) shapeCasts_S1x50000x64_S50000x64 i))
        (broadcastInDim S50000x64 ![0, 1] bcast_S1x64_S50000x64_0_1 (broadcastInDim S1x64 ![1] bcast_S64_S1x64_1 (W (Proc.devRef .tc main_arg4) : S64.Idx → F .f32))) := by
  after_results
  first | done | rfl

/-- The order's words made row numbers (a negative word has the extent added), as a column of start words. -/
abbrev ordCol2 (o : S1847685.Idx → BitVec 32) : S1847685x1.Idx → BitVec 32 :=
  broadcastInDim S1847685x1 ![0] bcast_S1847685_S1847685x1_0
    (select (cmpi .slt o (broadcastInDim S1847685 ![] bcast_S_S1847685 (constantI S_ 32 0#32)))
      (addi o (broadcastInDim S1847685 ![] bcast_S_S1847685 (constantI S_ 32 1847685#32))) o)

/-- An array of 1847685 entries read in the given order. -/
abbrev gathAt2 {α : Type} (x : S1847685.Idx → α) (o : S1847685.Idx → BitVec 32) : S1847685.Idx → α :=
  Host.gather gather_S1847685_S1847685x1_S1847685_n_0_n_n_0_1_1 x (ordCol2 o)

set_option maxHeartbeats 2000000 in
theorem v104_read (W : Valuation τ sig (Elt F)) :
    (StableHlo.after hostOps0_18 W (Proc.devRef .tc main_v104) : S1847685.Idx → BitVec 32)
      = gathAt2 (W (Proc.devRef .tc main_v68)) (W (Proc.devRef .tc main_v97)) := by
  after_results_simp
  first | done | rfl

set_option maxHeartbeats 2000000 in
theorem v111_read (W : Valuation τ sig (Elt F)) :
    (StableHlo.after hostOps0_18 W (Proc.devRef .tc main_v111) : S1847685.Idx → BitVec 32)
      = gathAt2 (W (Proc.devRef .tc main_v71)) (W (Proc.devRef .tc main_v97)) := by
  after_results_simp
  first | done | rfl

set_option maxHeartbeats 2000000 in
theorem v118_read (W : Valuation τ sig (Elt F)) :
    (StableHlo.after hostOps0_18 W (Proc.devRef .tc main_v118) : S1847685.Idx → F .f32)
      = gathAt2 (W (Proc.devRef .tc main_v96)) (W (Proc.devRef .tc main_v97)) := by
  after_results_simp
  first | done | rfl

set_option maxHeartbeats 2000000 in
theorem c35_read (W : Valuation τ sig (Elt F)) :
    (StableHlo.after hostOps0_18 W (Proc.devRef .tc main_c_35) : S_.Idx → BitVec 32) = constantI S_ 32 0#32 := by
  after_results_simp
  first | done | rfl

/-- Contents carried to a typed reference's buffer and back are the contents. -/
theorem ofBuf_toBuf2 {T : BufTy} (x : StableHlo.TRef sig T) (v : T.Contents (Elt F)) : x.ofBuf (x.toBuf v) = v := by
  obtain ⟨r, h, _, _⟩ := x
  subst h
  rfl

/-- The row words of a take as a column of start words: a negative word has 50000 added. -/
abbrev rowWord2 (i : S1851392.Idx → BitVec 32) : S1851392x1.Idx → BitVec 32 :=
  broadcastInDim S1851392x1 ![0] bcast_S1851392_S1851392x1_0
    (select (cmpi .slt i (broadcastInDim S1851392 ![] bcast_S_S1851392 (constantI S_ 32 0#32)))
      (addi i (broadcastInDim S1851392 ![] bcast_S_S1851392 (constantI S_ 32 50000#32))) i)

/-- Which start words are row numbers of a 50000-row array. -/
abbrev rowOk2 (i5 : S1851392x1.Idx → BitVec 32) : S1851392.Idx → BitVec 1 :=
  Host.reduce IntOp.andi
    (andi (cmpi .sge i5 (broadcastInDim S1851392x1 ![] bcast_S_S1851392x1 (constantI S_ 32 0#32)))
      (cmpi .sle i5 (broadcastInDim S1851392x1 ![0, 1] bcast_S1x1_S1851392x1_0_1
        (broadcastInDim S1x1 ![1] bcast_S1_S1x1_1 (constantI S1 32 49999#32)))))
    (constantI S_ 1 1#1) reducesTo_S1851392x1_S1851392_d1 h_S_

/-- The take with fill of rows of a [50000, 64] array at 1851392 row words: a negative word has 50000 added; a word
    then outside [0, 49999] gives a row of NaN, any other the row it names. -/
def takeFill2 (x : S50000x64.Idx → F .f32) (i : S1851392.Idx → BitVec 32) : S1851392x64.Idx → F .f32 :=
  select (broadcastInDim S1851392x64 ![0] bcast_S1851392_S1851392x64_0 (rowOk2 (rowWord2 i)))
    (Host.gather gather_S50000x64_S1851392x1_S1851392x64_1_0_n_n_0_1_164 x (rowWord2 i))
    (broadcastInDim S1851392x64 ![] bcast_S_S1851392x64 (constant S_ .f32 0x7FC00000#32))

set_option maxHeartbeats 2000000 in
theorem v147_read (W : Valuation τ sig (Elt F)) :
    (StableHlo.after hostOps2_1 W (Proc.devRef .tc main_v147) : S1851392x64.Idx → F .f32)
      = takeFill2 (W (Proc.devRef .tc main_v132)) (W (Proc.devRef .tc main_v119)) := by
  after_results_simp
  refine eq_of_heq ((cast_heq _ _).trans (heq_of_eq ?_))
  rw [show ((.of main_v119 : StableHlo.TRef sig ⟨S1851392, .i32⟩).ofBuf (W (Proc.devRef .tc main_v119)) : S1851392.Idx → BitVec 32) = W (Proc.devRef .tc main_v119) from rfl,
    show ((.of main_v132 : StableHlo.TRef sig ⟨S50000x64, .f32⟩).ofBuf (W (Proc.devRef .tc main_v132)) : S50000x64.Idx → F .f32) = W (Proc.devRef .tc main_v132) from rfl]
  repeat rw [ofBuf_toBuf2]
  rfl

/-! ## The named values and how they reach the second segment-sum call -/

variable (c : Dev nD)

/-- The source node of every edge of the second set (the given edges, then one self-loop per node). -/
abbrev sAll2 : S1847685.Idx → BitVec 32 := V15 m c main_v68
/-- The target node of every edge of the second set. -/
abbrev tAll2 : S1847685.Idx → BitVec 32 := V15 m c main_v71
/-- The normalisation weight of every edge of the second set. -/
abbrev normAll2 : S1847685.Idx → F .f32 := V17 m c main_v96
/-- The second set's edges' positions in the order of their targets. -/
abbrev order2 : S1847685.Idx → BitVec 32 := V18 m c main_v97

/-- What the first matmul call leaves: the transformed features. -/
abbrev out30_2 : S50000x64.Idx → F .f32 := outs 30 main_v132 c
/-- What the second segment-sum call leaves: its two slabs. -/
abbrev out37_2 : S2x50000x64.Idx → F .f32 := outs 37 main_v152 c
/-- The first layer's bias. -/
abbrev bias4_2 : S64.Idx → F .f32 := V0 m c main_arg4

theorem order2_eq :
    order2 m c = (Host.sort2 S1847685 0 comparator_i32_i32_d0 (tAll2 m c) (iotaInDim S1847685 32 0)).2 :=
  (order2_read (V17 m c)).trans <| by
    rw [show V17 m c (Proc.devRef .tc main_v71) = V15 m c main_v71 from ((V17_of m c main_v71 (by decide)).trans <| (V16_of m c main_v71 (by decide)))]

theorem v119_V29 :
    (V29 m c main_v119 : S1851392.Idx → BitVec 32) = padTo2 (gathAt2 (sAll2 m c) (order2 m c)) (constantI S_ 32 0#32) :=
  ((V29_of m c main_v119 (by decide)).trans <| (V28_of m c main_v119 (by decide)).trans <| (V27_of m c main_v119 (by decide)).trans <| (V26_of m c main_v119 (by decide)).trans <| (V25_of m c main_v119 (by decide)).trans <| (V24_of m c main_v119 (by decide)).trans <| (V23_of m c main_v119 (by decide)).trans <| (V22_of m c main_v119 (by decide)).trans <| (V21_of m c main_v119 (by decide))).trans <| (v119_read (V19 m c)).trans <| by
    rw [show V19 m c (Proc.devRef .tc main_v104) = _ from v104_read (V18 m c),
      show V19 m c (Proc.devRef .tc main_c_35) = _ from c35_read (V18 m c),
      show V18 m c (Proc.devRef .tc main_v68) = V15 m c main_v68 from ((V18_of m c main_v68 (by decide)).trans <| (V17_of m c main_v68 (by decide)).trans <| (V16_of m c main_v68 (by decide)))]

theorem v120_V29 :
    (V29 m c main_v120 : S1851392.Idx → BitVec 32) = padTo2 (gathAt2 (tAll2 m c) (order2 m c)) (constantI S_ 32 50000#32) :=
  ((V29_of m c main_v120 (by decide)).trans <| (V28_of m c main_v120 (by decide)).trans <| (V27_of m c main_v120 (by decide)).trans <| (V26_of m c main_v120 (by decide)).trans <| (V25_of m c main_v120 (by decide)).trans <| (V24_of m c main_v120 (by decide)).trans <| (V23_of m c main_v120 (by decide))).trans <| (v120_read (V21 m c)).trans <| by
    rw [show V21 m c (Proc.devRef .tc main_c_36) = _ from c36_read (V20 m c),
      show V21 m c (Proc.devRef .tc main_v111) = V19 m c main_v111 from ((V21_of m c main_v111 (by decide)).trans <| (V20_of m c main_v111 (by decide))),
      show V19 m c (Proc.devRef .tc main_v111) = _ from v111_read (V18 m c),
      show V18 m c (Proc.devRef .tc main_v71) = V15 m c main_v71 from ((V18_of m c main_v71 (by decide)).trans <| (V17_of m c main_v71 (by decide)).trans <| (V16_of m c main_v71 (by decide)))]

theorem v121_V29 :
    (V29 m c main_v121 : S1851392.Idx → F .f32)
      = padTo2 (gathAt2 (normAll2 m c) (order2 m c)) (sitofp .f32 (constantI S_ 32 0#32)) :=
  ((V29_of m c main_v121 (by decide)).trans <| (V28_of m c main_v121 (by decide)).trans <| (V27_of m c main_v121 (by decide)).trans <| (V26_of m c main_v121 (by decide)).trans <| (V25_of m c main_v121 (by decide))).trans <| (v121_read (V23 m c)).trans <| by
    rw [show V23 m c (Proc.devRef .tc main_c_37) = _ from c37_read (V22 m c),
      show V23 m c (Proc.devRef .tc main_v118) = V19 m c main_v118 from ((V23_of m c main_v118 (by decide)).trans <| (V22_of m c main_v118 (by decide)).trans <| (V21_of m c main_v118 (by decide)).trans <| (V20_of m c main_v118 (by decide))),
      show V19 m c (Proc.devRef .tc main_v118) = _ from v118_read (V18 m c),
      show V18 m c (Proc.devRef .tc main_v96) = V17 m c main_v96 from (V18_of m c main_v96 (by decide))]

theorem v129_V36 :
    (V36 m outs c main_v129 : S1x1851392.Idx → BitVec 32)
      = fun i => shapeCast S1x1851392 (V29 m c main_v120 : S1851392.Idx → BitVec 32) shapeCasts_S1851392_S1x1851392 i :=
  ((V36_of m outs c main_v129 (by decide)).trans <| (V35_of m outs c main_v129 (by decide)).trans <| (V34_of m outs c main_v129 (by decide)).trans <| (V33_of m outs c main_v129 (by decide)).trans <| (V32_of m outs c main_v129 (by decide)).trans <| (V31_of m outs c main_v129 (by decide)).trans <| (V30_of m outs c main_v129 (by decide))).trans <| (v129_read (V28 m c)).trans <| by
    rw [show V28 m c (Proc.devRef .tc main_v120) = V29 m c main_v120 from (V29_of m c main_v120 (by decide)).symm]

theorem v151_V36 :
    (V36 m outs c main_v151 : S1851392x64.Idx → F .bf16)
      = truncf .bf16 (mulf (takeFill2 (outs 30 main_v132 c) (V29 m c main_v119))
          (broadcastInDim S1851392x64 ![0, 1] bcast_S1851392x1_S1851392x64_0_1
            (broadcastInDim S1851392x1 ![0] bcast_S1851392_S1851392x1_0 (V29 m c main_v121 : S1851392.Idx → F .f32)))) bitsLt_bf16_f32 :=
  (v151_read (V35 m outs c)).trans <| by
    rw [show V35 m outs c (Proc.devRef .tc main_v147) = _ from v147_read (V34 m outs c),
      show V35 m outs c (Proc.devRef .tc main_v121) = V29 m c main_v121 from ((V35_of m outs c main_v121 (by decide)).trans <| (V34_of m outs c main_v121 (by decide)).trans <| (V33_of m outs c main_v121 (by decide)).trans <| (V32_of m outs c main_v121 (by decide)).trans <| (V31_of m outs c main_v121 (by decide)).trans <| (V30_of m outs c main_v121 (by decide))),
      show V34 m outs c (Proc.devRef .tc main_v119) = V29 m c main_v119 from ((V34_of m outs c main_v119 (by decide)).trans <| (V33_of m outs c main_v119 (by decide)).trans <| (V32_of m outs c main_v119 (by decide)).trans <| (V31_of m outs c main_v119 (by decide)).trans <| (V30_of m outs c main_v119 (by decide))),
      show V34 m outs c (Proc.devRef .tc main_v132) = outs 30 main_v132 c from
        ((V34_of m outs c main_v132 (by decide)).trans <| (V33_of m outs c main_v132 (by decide)).trans <| (V32_of m outs c main_v132 (by decide)).trans <| (V31_of m outs c main_v132 (by decide))).trans (Function.update_self ..)]

theorem v160_V38 :
    (V38 m outs c main_v160 : S50000x64.Idx → F .f32)
      = addf (addf
          (fun i => shapeCast S50000x64 (extractStridedSlice S1x50000x64 ![0, 0, 0] (outs 37 main_v152 c : S2x50000x64.Idx → F .f32) slices_S2x50000x64_S1x50000x64_0_0_0) shapeCasts_S1x50000x64_S50000x64 i)
          (fun i => shapeCast S50000x64 (extractStridedSlice S1x50000x64 ![1, 0, 0] (outs 37 main_v152 c : S2x50000x64.Idx → F .f32) slices_S2x50000x64_S1x50000x64_1_0_0) shapeCasts_S1x50000x64_S50000x64 i))
        (broadcastInDim S50000x64 ![0, 1] bcast_S1x64_S50000x64_0_1 (broadcastInDim S1x64 ![1] bcast_S64_S1x64_1 (V0 m c main_arg4 : S64.Idx → F .f32))) :=
  (v160_read (V37 m outs c)).trans <| by
    rw [show V37 m outs c (Proc.devRef .tc main_arg4) = V0 m c main_arg4 from ((V37_of m outs c main_arg4 (by decide)).trans <| (V36_of m outs c main_arg4 (by decide)).trans <| (V35_of m outs c main_arg4 (by decide)).trans <| (V34_of m outs c main_arg4 (by decide)).trans <| (V33_of m outs c main_arg4 (by decide)).trans <| (V32_of m outs c main_arg4 (by decide)).trans <| (V31_of m outs c main_arg4 (by decide)).trans <| (V30_of m outs c main_arg4 (by decide)).trans <| (V29_of m c main_arg4 (by decide)).trans <| (V28_of m c main_arg4 (by decide)).trans <| (V27_of m c main_arg4 (by decide)).trans <| (V26_of m c main_arg4 (by decide)).trans <| (V25_of m c main_arg4 (by decide)).trans <| (V24_of m c main_arg4 (by decide)).trans <| (V23_of m c main_arg4 (by decide)).trans <| (V22_of m c main_arg4 (by decide)).trans <| (V21_of m c main_arg4 (by decide)).trans <| (V20_of m c main_arg4 (by decide)).trans <| (V19_of m c main_arg4 (by decide)).trans <| (V18_of m c main_arg4 (by decide)).trans <| (V17_of m c main_arg4 (by decide)).trans <| (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))),
      show V37 m outs c (Proc.devRef .tc main_v152) = outs 37 main_v152 c from Function.update_self ..]

theorem v160_V40 :
    (V40 m outs c main_v160 : S50000x64.Idx → F .f32)
      = addf (addf
          (fun i => shapeCast S50000x64 (extractStridedSlice S1x50000x64 ![0, 0, 0] (outs 37 main_v152 c : S2x50000x64.Idx → F .f32) slices_S2x50000x64_S1x50000x64_0_0_0) shapeCasts_S1x50000x64_S50000x64 i)
          (fun i => shapeCast S50000x64 (extractStridedSlice S1x50000x64 ![1, 0, 0] (outs 37 main_v152 c : S2x50000x64.Idx → F .f32) slices_S2x50000x64_S1x50000x64_1_0_0) shapeCasts_S1x50000x64_S50000x64 i))
        (broadcastInDim S50000x64 ![0, 1] bcast_S1x64_S50000x64_0_1 (broadcastInDim S1x64 ![1] bcast_S64_S1x64_1 (V0 m c main_arg4 : S64.Idx → F .f32))) :=
  ((V40_of m outs c main_v160 (by decide)).trans <| (V39_of m outs c main_v160 (by decide))).trans <| v160_V38 m outs c

/-! ## Reading at an index -/

section AtIndex

open Idealize.ShloMosaic.ValueIdx Idealize.ShloMosaic.StableHlo.Predicate Cert.Math.RowOps

/-- A small word is not negative. -/
theorem slt_zero_of_small2 (w : BitVec 32) (hw : w.toNat < 2 ^ 31) : IntOp.cmpi .slt w 0#32 = 0#1 :=
  eq_zero_of_ne_one fun h => by
    have h' := (slt_iff_toNat hw (by decide)).mp h
    simp at h'

/-- The order's word at position e, a position k itself, is the start word of e. -/
theorem ordCol2_apply (o : S1847685.Idx → BitVec 32) (e k : Fin 1847685) (ho : o (ValueIdx.ix1 e) = BitVec.ofNat 32 k.val) :
    ordCol2 o (colIdx e) = BitVec.ofNat 32 k.val := by
  have hb : ordCol2 o (colIdx e) = (select (cmpi .slt o (broadcastInDim S1847685 ![] bcast_S_S1847685 (constantI S_ 32 0#32)))
      (addi o (broadcastInDim S1847685 ![] bcast_S_S1847685 (constantI S_ 32 1847685#32))) o) (ValueIdx.ix1 e) :=
    broadcastInDim_apply _ _ _ _ (ValueIdx.ix1 e) (fun a => by
      obtain rfl : a = 0 := Subsingleton.elim _ _
      rfl)
  rw [hb]
  show Scalar.select (IntOp.cmpi .slt (o (ValueIdx.ix1 e)) 0#32) (IntOp.addi (o (ValueIdx.ix1 e)) 1847685#32) (o (ValueIdx.ix1 e)) = _
  have hk : (BitVec.ofNat 32 k.val).toNat = k.val := by
    have := k.isLt
    rw [BitVec.toNat_ofNat]; omega
  rw [ho, slt_zero_of_small2 _ (by rw [hk]; have := k.isLt; omega), select_zero]

/-- An array read in the order, at position e: the array at the position the order names there. -/
theorem gathAt2_apply {α : Type} (x : S1847685.Idx → α) (o : S1847685.Idx → BitVec 32) (e k : Fin 1847685)
    (ho : o (ValueIdx.ix1 e) = BitVec.ofNat 32 k.val) : gathAt2 x o (ValueIdx.ix1 e) = x (ValueIdx.ix1 k) := by
  refine (eltGather_apply Facts₀.gather_S1847685_S1847685x1_S1847685_n_0_n_n_0_1_1_wf (by decide : 0 < 1847685) x (ordCol2 o) (ValueIdx.ix1 e)).trans ?_
  refine congrArg x (congrArg ValueIdx.ix1 (Fin.ext ?_))
  show (clampRow 1847685 _ (ordCol2 o (colIdx e))).val = k.val
  have hk := k.isLt
  rw [ordCol2_apply o e k ho, clampRow_val_of_lt _ _ (by rw [toInt_ofNat_small _ (by omega)]; omega)
    (by rw [toInt_ofNat_small _ (by omega)]; omega), toInt_ofNat_small _ (by omega)]
  rfl

/-- The padded array at a position inside the operand. -/
theorem padTo2_apply_lt {α : Type} (x : S1847685.Idx → α) (v : S_.Idx → α) (e : Fin 1851392) (he : e.val < 1847685) :
    padTo2 x v (ValueIdx.ix1 e) = x (ValueIdx.ix1 ⟨e.val, he⟩) :=
  pad_apply_of_inside _ _ _ x v pads_S1847685_S1851392_037070 h_S_ (ValueIdx.ix1 e) (ValueIdx.ix1 ⟨e.val, he⟩) (fun a => by
    obtain rfl : a = 0 := Subsingleton.elim _ _
    show e.val = 0 + e.val * (0 + 1)
    omega)

/-- The padded array at a position past the operand: the padding value. -/
theorem padTo2_apply_ge {α : Type} (x : S1847685.Idx → α) (v : S_.Idx → α) (e : Fin 1851392) (he : 1847685 ≤ e.val) :
    padTo2 x v (ValueIdx.ix1 e) = v ValueIdx.ix0 := by
  refine (pad_apply_of_not_inside _ _ _ x v pads_S1847685_S1851392_037070 h_S_ (ValueIdx.ix1 e) (0 : Fin 1) (fun h => ?_)).trans
    (congrArg v (funext fun a => a.elim0))
  have h3 : (e.val - 0) / (0 + 1) < 1847685 := h.2.2
  omega

end AtIndex

section AtIndex2

open Idealize.ShloMosaic.ValueIdx Idealize.ShloMosaic.StableHlo.Predicate Cert.Math.RowOps

theorem and_one_bit2 (b : BitVec 1) : IntOp.andi b 1#1 = b := by revert b; decide

theorem fold_fin_one2 {α : Type} (op : α → α → α) [Std.Commutative op] [Std.Associative op] (b : α) (g : Fin 1 → α) :
    (Finset.univ : Finset (Fin 1)).fold op b g = op (g 0) b := by
  rw [show (Finset.univ : Finset (Fin 1)) = {0} from rfl, Finset.fold_singleton]

/-- The and-reduction of a column along its unit axis: the entry itself. -/
theorem reduce_and_unit2 (x : S1851392x1.Idx → BitVec 1) (e : Fin 1851392) :
    Host.reduce IntOp.andi x (constantI S_ 1 1#1) reducesTo_S1851392x1_S1851392_d1 h_S_ (ValueIdx.ix1 e) = x (colIdx e) := by
  have hR : S1851392x1.Reduces [1] S1851392 := by decide
  rw [Host.reduce_eq_fold_single IntOp.andi x _ reducesTo_S1851392x1_S1851392_d1 hR h_S_ (ValueIdx.ix1 e)]
  refine (fold_fin_one2 IntOp.andi (1#1) (x ∘ hR.lift (ValueIdx.ix1 e))).trans ?_
  have hl : hR.lift (ValueIdx.ix1 e) (0 : Fin 1) = colIdx e := by
    funext c
    apply Fin.ext
    match c with
    | ⟨0, _⟩ => rfl
    | ⟨1, _⟩ => rfl
  show IntOp.andi (x (hR.lift (ValueIdx.ix1 e) (0 : Fin 1))) 1#1 = _
  rw [hl, and_one_bit2]

/-- The start word of position e is the row word at e, when that is not negative. -/
theorem rowWord2_apply (i : S1851392.Idx → BitVec 32) (e : Fin 1851392) (hw : (i (ValueIdx.ix1 e)).toNat < 2 ^ 31) :
    rowWord2 i (colIdx e) = i (ValueIdx.ix1 e) := by
  refine (broadcastInDim_apply _ _ _ _ (ValueIdx.ix1 e) (fun a => by
    obtain rfl : a = 0 := Subsingleton.elim _ _
    rfl)).trans ?_
  show Scalar.select (IntOp.cmpi .slt (i (ValueIdx.ix1 e)) 0#32) (IntOp.addi (i (ValueIdx.ix1 e)) 50000#32) (i (ValueIdx.ix1 e)) = _
  rw [slt_zero_of_small2 _ hw, select_zero]

/-- A start word below 50000 is a row number. -/
theorem rowOk2_apply (i5 : S1851392x1.Idx → BitVec 32) (e : Fin 1851392) (h : (i5 (colIdx e)).toNat < 50000) :
    rowOk2 i5 (ValueIdx.ix1 e) = 1#1 := by
  refine (reduce_and_unit2 _ e).trans ?_
  show IntOp.andi (IntOp.cmpi .sge (i5 (colIdx e)) 0#32) (IntOp.cmpi .sle (i5 (colIdx e)) 49999#32) = 1#1
  rw [(sge_iff_toNat (by omega) (by decide)).mpr (by simp),
    (sle_iff_toNat (by omega) (by decide)).mpr (by show (i5 (colIdx e)).toNat ≤ 49999; omega)]
  rfl

/-- The take with fill at (e, f), when the word at e is a row number: that row's entry f. -/
theorem takeFill2_apply (x : S50000x64.Idx → F .f32) (i : S1851392.Idx → BitVec 32) (e : Fin 1851392) (f : Fin 64)
    (hw : (i (ValueIdx.ix1 e)).toNat < 50000) : takeFill2 x i (ValueIdx.ix2 e f) = x (ValueIdx.ix2 ⟨(i (ValueIdx.ix1 e)).toNat, hw⟩ f) := by
  have h5 : rowWord2 i (colIdx e) = i (ValueIdx.ix1 e) := rowWord2_apply i e (by omega)
  have hm : (broadcastInDim S1851392x64 ![0] bcast_S1851392_S1851392x64_0 (rowOk2 (rowWord2 i))) (ValueIdx.ix2 e f) = 1#1 :=
    (broadcastInDim_apply _ _ _ (ValueIdx.ix2 e f) (ValueIdx.ix1 e) (fun a => by
      obtain rfl : a = 0 := Subsingleton.elim _ _
      rfl)).trans (rowOk2_apply _ e (by rw [h5]; exact hw))
  have hg : Host.gather gather_S50000x64_S1851392x1_S1851392x64_1_0_n_n_0_1_164 x (rowWord2 i) (ValueIdx.ix2 e f)
      = x (ValueIdx.ix2 ⟨(i (ValueIdx.ix1 e)).toNat, hw⟩ f) := by
    refine (rowGather_apply Facts₀.gather_S50000x64_S1851392x1_S1851392x64_1_0_n_n_0_1_164_wf (by decide : 0 < 50000) x _ (ValueIdx.ix2 e f)).trans ?_
    refine congrArg x (congrArg (fun r => ValueIdx.ix2 r f) (Fin.ext ?_))
    show (clampRow 50000 _ (rowWord2 i (colIdx e))).val = (i (ValueIdx.ix1 e)).toNat
    rw [h5, clampRow_val_of_lt _ _ (by rw [toInt_eq_toNat_of_lt (by omega)]; omega) (by rw [toInt_eq_toNat_of_lt (by omega)]; omega),
      toInt_eq_toNat_of_lt (by omega)]
    rfl
  unfold takeFill2
  rw [select_apply, hm, select_one, hg]

end AtIndex2

/-! ## The operands of the second segment-sum call, and what follows it, read at an index -/

section Reads

open Idealize.ShloMosaic.ValueIdx Cert.Math.RowOps

variable (σ : Fin 1847685 → Fin 1847685) (hord : ∀ e : Fin 1847685, order2 m c (ValueIdx.ix1 e) = BitVec.ofNat 32 (σ e).val)
include hord

/-- The padded source column at an edge position: the source of the edge the order names there. -/
theorem v119_at (e : Fin 1851392) (he : e.val < 1847685) :
    (V29 m c main_v119 : S1851392.Idx → BitVec 32) (ValueIdx.ix1 e) = sAll2 m c (ValueIdx.ix1 (σ ⟨e.val, he⟩)) := by
  rw [v119_V29, padTo2_apply_lt _ _ e he]
  exact gathAt2_apply _ _ ⟨e.val, he⟩ (σ ⟨e.val, he⟩) (hord _)

/-- The padded target column at an edge position. -/
theorem v120_at (e : Fin 1851392) (he : e.val < 1847685) :
    (V29 m c main_v120 : S1851392.Idx → BitVec 32) (ValueIdx.ix1 e) = tAll2 m c (ValueIdx.ix1 (σ ⟨e.val, he⟩)) := by
  rw [v120_V29, padTo2_apply_lt _ _ e he]
  exact gathAt2_apply _ _ ⟨e.val, he⟩ (σ ⟨e.val, he⟩) (hord _)

/-- The padded weight column at an edge position. -/
theorem v121_at (e : Fin 1851392) (he : e.val < 1847685) :
    (V29 m c main_v121 : S1851392.Idx → F .f32) (ValueIdx.ix1 e) = normAll2 m c (ValueIdx.ix1 (σ ⟨e.val, he⟩)) := by
  rw [v121_V29, padTo2_apply_lt _ _ e he]
  exact gathAt2_apply _ _ ⟨e.val, he⟩ (σ ⟨e.val, he⟩) (hord _)

omit hord in
/-- The padded target column past the edges: the node count, a row no window holds. -/
theorem v120_at_pad (e : Fin 1851392) (he : 1847685 ≤ e.val) :
    (V29 m c main_v120 : S1851392.Idx → BitVec 32) (ValueIdx.ix1 e) = 50000#32 := by
  rw [v120_V29, padTo2_apply_ge _ _ e he]
  rfl

omit hord in
/-- The target operand, a one-row array, at (0, e): the padded target column at e. -/
theorem v129_at (e : Fin 1851392) :
    (V36 m outs c main_v129 : S1x1851392.Idx → BitVec 32) (ValueIdx.ix2 (0 : Fin 1) e) = (V29 m c main_v120 : S1851392.Idx → BitVec 32) (ValueIdx.ix1 e) := by
  rw [v129_V36]
  exact shapeCast_a_1a_apply _ shapeCasts_S1851392_S1x1851392 (0 : Fin 1) e

end Reads

section ReadsIdeal

open Idealize.ShloMosaic.ValueIdx Idealize.ShloMosaic.StableHlo.Predicate Cert.Math.RowOps

variable (mI : (ℓ : Loc nD τ sig) → Buf (Elt Ideal) ℓ) (outsI : Outs (F := Ideal))
variable (σ : Fin 1847685 → Fin 1847685) (hord : ∀ e : Fin 1847685, order2 mI c (ValueIdx.ix1 e) = BitVec.ofNat 32 (σ e).val)
  (hs : ∀ k : Fin 1847685, (sAll2 mI c (ValueIdx.ix1 k)).toNat < 50000)
include hord hs

/-- THE VALUE OPERAND at an edge position e and feature f: the transformed features of the edge's source node,
    scaled by the edge's weight. -/
theorem v151_at (e : Fin 1851392) (he : e.val < 1847685) (f : Fin 64) :
    (V36 mI outsI c main_v151 : S1851392x64.Idx → Ideal .bf16) (ValueIdx.ix2 e f)
      = out30_2 outsI c (ValueIdx.ix2 ⟨(sAll2 mI c (ValueIdx.ix1 (σ ⟨e.val, he⟩))).toNat, hs _⟩ f)
        * normAll2 mI c (ValueIdx.ix1 (σ ⟨e.val, he⟩)) := by
  have h54 := v119_at mI c σ hord e he
  have hw : ((V29 mI c main_v119 : S1851392.Idx → BitVec 32) (ValueIdx.ix1 e)).toNat < 50000 := by rw [h54]; exact hs _
  rw [v151_V36, truncf_apply, mulf_apply, takeFill2_apply _ _ e f hw]
  have hb : (broadcastInDim S1851392x64 ![0, 1] bcast_S1851392x1_S1851392x64_0_1
      (broadcastInDim S1851392x1 ![0] bcast_S1851392_S1851392x1_0 (V29 mI c main_v121 : S1851392.Idx → Ideal .f32))) (ValueIdx.ix2 e f)
      = (V29 mI c main_v121 : S1851392.Idx → Ideal .f32) (ValueIdx.ix1 e) :=
    (broadcastInDim_apply _ _ _ (ValueIdx.ix2 e f) (colIdx e) (fun a => by
      match a with
      | ⟨0, _⟩ => rfl
      | ⟨1, _⟩ => rfl)).trans
    (broadcastInDim_apply _ _ _ (colIdx e) (ValueIdx.ix1 e) (fun a => by
      obtain rfl : a = 0 := Subsingleton.elim _ _
      rfl))
  rw [hb, v121_at mI c σ hord e he]
  exact congrArg (fun r => out30_2 outsI c (ValueIdx.ix2 r f) * normAll2 mI c (ValueIdx.ix1 (σ ⟨e.val, he⟩)))
    (Fin.ext (congrArg BitVec.toNat h54))

omit hord hs in
/-- WHAT FOLLOWS THE CALL at node r and feature f: the two slabs' entries added, plus the bias. -/
theorem v160_at (r : Fin 50000) (f : Fin 64) :
    (V38 mI outsI c main_v160 : S50000x64.Idx → Ideal .f32) (ValueIdx.ix2 r f)
      = out37_2 outsI c (ValueIdx.ix3 (0 : Fin 2) r f) + out37_2 outsI c (ValueIdx.ix3 (1 : Fin 2) r f) + bias4_2 mI c (ValueIdx.ix1 f) := by
  rw [v160_V38, addf_apply, addf_apply]
  have h0 : shapeCast S50000x64 (extractStridedSlice S1x50000x64 ![0, 0, 0] (outsI 37 main_v152 c : S2x50000x64.Idx → Ideal .f32) slices_S2x50000x64_S1x50000x64_0_0_0) shapeCasts_S1x50000x64_S50000x64 (ValueIdx.ix2 r f)
      = (outsI 37 main_v152 c : S2x50000x64.Idx → Ideal .f32) (ValueIdx.ix3 (0 : Fin 2) r f) :=
    (shapeCast_1ab_ab_apply _ _ r f).trans (extractStridedSlice_apply _ _ _ _ (ValueIdx.ix3 (0 : Fin 2) r f) (fun a => by
      match a with
      | ⟨0, _⟩ => rfl
      | ⟨1, _⟩ => show r.val = 0 + r.val; omega
      | ⟨2, _⟩ => show f.val = 0 + f.val; omega))
  have h1 : shapeCast S50000x64 (extractStridedSlice S1x50000x64 ![1, 0, 0] (outsI 37 main_v152 c : S2x50000x64.Idx → Ideal .f32) slices_S2x50000x64_S1x50000x64_1_0_0) shapeCasts_S1x50000x64_S50000x64 (ValueIdx.ix2 r f)
      = (outsI 37 main_v152 c : S2x50000x64.Idx → Ideal .f32) (ValueIdx.ix3 (1 : Fin 2) r f) :=
    (shapeCast_1ab_ab_apply _ _ r f).trans (extractStridedSlice_apply _ _ _ _ (ValueIdx.ix3 (1 : Fin 2) r f) (fun a => by
      match a with
      | ⟨0, _⟩ => rfl
      | ⟨1, _⟩ => show r.val = 0 + r.val; omega
      | ⟨2, _⟩ => show f.val = 0 + f.val; omega))
  have hb : (broadcastInDim S50000x64 ![0, 1] bcast_S1x64_S50000x64_0_1 (broadcastInDim S1x64 ![1] bcast_S64_S1x64_1 (V0 mI c main_arg4 : S64.Idx → Ideal .f32))) (ValueIdx.ix2 r f)
      = (V0 mI c main_arg4 : S64.Idx → Ideal .f32) (ValueIdx.ix1 f) :=
    (broadcastInDim_apply _ _ _ (ValueIdx.ix2 r f) (ValueIdx.ix2 (0 : Fin 1) f) (fun a => by
      match a with
      | ⟨0, _⟩ => rfl
      | ⟨1, _⟩ => rfl)).trans
    (broadcastInDim_apply _ _ _ (ValueIdx.ix2 (0 : Fin 1) f) (ValueIdx.ix1 f) (fun a => by
      obtain rfl : a = 0 := Subsingleton.elim _ _
      rfl))
  rw [hb]
  exact congrArg₂ (· + ·) (congrArg₂ (· + ·) h0 h1) rfl

end ReadsIdeal

end Cert.KernelIdeal.HandVal
-- ==== Proof.KI.HostVal3.lean ====
/- The host operations around the second-layer segment-sum call over the first edge set (16 features), read as values:
   the bf16 edge values and the one-row target array the call is handed, and the sum of its two output slabs with the
   bias, each as the composed term of earlier named arrays, and then read at an index. -/
import proofs.«402757_j20469814133395_4_alg».proof.Proof.KI.HostVal1
import proofs.«402757_j20469814133395_4_alg».proof.Proof.Math.RowOps
import Idealize.ShloMosaic.Lib.ValueLayout
import Idealize.ShloMosaic.PureOps.Reduce
import Idealize.ShloMosaic.Lib.StableHlo.Run
import Idealize.ShloMosaic.Lib.StableHlo.Predicate
import Idealize.ShloMosaic.Lib.ValueIdx
import Idealize.ShloMosaic.Lib.KernelVsHost
import Idealize.ShloMosaic.Lib.Pipeline.Value

set_option maxRecDepth 16384

noncomputable section

namespace Cert.KernelIdeal.HandVal

open Cert.KernelIdeal Cert.KernelIdeal.Gen Cert.KernelIdeal.GenP
open Idealize.ShloMosaic Idealize.ShloMosaic.TcCoe

variable {F : FTy → Type} [FloatOps F]
variable (m : (ℓ : Loc nD τ sig) → Buf (Elt F) ℓ) (outs : Outs (F := F))

/-! ## Single stretches, from any contents -/

/-- The take with fill of rows of a [50000, 16] array at 352256 row words. -/
def takeFill16 (x : S50000x16.Idx → F .f32) (i : S352256.Idx → BitVec 32) : S352256x16.Idx → F .f32 :=
  select (broadcastInDim S352256x16 ![0] bcast_S352256_S352256x16_0 (rowOk (rowWord i)))
    (Host.gather gather_S50000x16_S352256x1_S352256x16_1_0_n_n_0_1_116 x (rowWord i))
    (broadcastInDim S352256x16 ![] bcast_S_S352256x16 (constant S_ .f32 0x7FC00000#32))

set_option maxHeartbeats 2000000 in
theorem v166_read (W : Valuation τ sig (Elt F)) :
    (StableHlo.after hostOps4 W (Proc.devRef .tc main_v166) : S352256x16.Idx → F .f32)
      = takeFill16 (W (Proc.devRef .tc main_v165)) (W (Proc.devRef .tc main_v54)) := by
  after_results_simp
  simp only [takeFill16, rowWord, rowOk, StableHlo.TRef.ofBuf, StableHlo.TRef.toBuf, cast_eq]

theorem v170_read (W : Valuation τ sig (Elt F)) :
    (StableHlo.after hostOps4_1 W (Proc.devRef .tc main_v170) : S352256x16.Idx → F .bf16)
      = truncf .bf16 (mulf (W (Proc.devRef .tc main_v166) : S352256x16.Idx → F .f32)
        (broadcastInDim S352256x16 ![0, 1] bcast_S352256x1_S352256x16_0_1
          (broadcastInDim S352256x1 ![0] bcast_S352256_S352256x1_0 (W (Proc.devRef .tc main_v56) : S352256.Idx → F .f32)))) bitsLt_bf16_f32 := by
  after_results

theorem v179_read (W : Valuation τ sig (Elt F)) :
    (StableHlo.after hostOps5 W (Proc.devRef .tc main_v179) : S50000x16.Idx → F .f32)
      = addf (addf
          (fun i => shapeCast S50000x16 (extractStridedSlice S1x50000x16 ![0, 0, 0] (W (Proc.devRef .tc main_v171) : S2x50000x16.Idx → F .f32) slices_S2x50000x16_S1x50000x16_0_0_0) shapeCasts_S1x50000x16_S50000x16 i)
          (fun i => shapeCast S50000x16 (extractStridedSlice S1x50000x16 ![1, 0, 0] (W (Proc.devRef .tc main_v171) : S2x50000x16.Idx → F .f32) slices_S2x50000x16_S1x50000x16_1_0_0) shapeCasts_S1x50000x16_S50000x16 i))
        (broadcastInDim S50000x16 ![0, 1] bcast_S1x16_S50000x16_0_1 (broadcastInDim S1x16 ![1] bcast_S16_S1x16_1 (W (Proc.devRef .tc main_arg6) : S16.Idx → F .f32))) := by
  after_results
  first | done | rfl

/-! ## The operands as the call finds them -/

variable (c : Dev nD)

/-- What the second-layer matrix-product call leaves: the transformed features, one row per node. -/
abbrev out41 : S50000x16.Idx → F .f32 := outs 41 main_v165 c
/-- What the second-layer segment-sum call over the first edge set leaves: its two slabs. -/
abbrev out44 : S2x50000x16.Idx → F .f32 := outs 44 main_v171 c
/-- The second layer's bias as launched. -/
abbrev bias6 : S16.Idx → F .f32 := V0 m c main_arg6

theorem v170_V43 :
    (V43 m outs c main_v170 : S352256x16.Idx → F .bf16)
      = truncf .bf16 (mulf (takeFill16 (outs 41 main_v165 c) (V29 m c main_v54))
          (broadcastInDim S352256x16 ![0, 1] bcast_S352256x1_S352256x16_0_1
            (broadcastInDim S352256x1 ![0] bcast_S352256_S352256x1_0 (V29 m c main_v56 : S352256.Idx → F .f32)))) bitsLt_bf16_f32 :=
  (v170_read (V42 m outs c)).trans <| by
    rw [show V42 m outs c (Proc.devRef .tc main_v166) = _ from v166_read (V41 m outs c),
      show V42 m outs c (Proc.devRef .tc main_v56) = V29 m c main_v56 from (V42_of m outs c main_v56 (by decide)).trans <| (V41_of m outs c main_v56 (by decide)).trans <| (V40_of m outs c main_v56 (by decide)).trans <| (V39_of m outs c main_v56 (by decide)).trans <| (V38_of m outs c main_v56 (by decide)).trans <| (V37_of m outs c main_v56 (by decide)).trans <| (V36_of m outs c main_v56 (by decide)).trans <| (V35_of m outs c main_v56 (by decide)).trans <| (V34_of m outs c main_v56 (by decide)).trans <| (V33_of m outs c main_v56 (by decide)).trans <| (V32_of m outs c main_v56 (by decide)).trans <| (V31_of m outs c main_v56 (by decide)).trans <| (V30_of m outs c main_v56 (by decide)),
      show V41 m outs c (Proc.devRef .tc main_v54) = V29 m c main_v54 from (V41_of m outs c main_v54 (by decide)).trans <| (V40_of m outs c main_v54 (by decide)).trans <| (V39_of m outs c main_v54 (by decide)).trans <| (V38_of m outs c main_v54 (by decide)).trans <| (V37_of m outs c main_v54 (by decide)).trans <| (V36_of m outs c main_v54 (by decide)).trans <| (V35_of m outs c main_v54 (by decide)).trans <| (V34_of m outs c main_v54 (by decide)).trans <| (V33_of m outs c main_v54 (by decide)).trans <| (V32_of m outs c main_v54 (by decide)).trans <| (V31_of m outs c main_v54 (by decide)).trans <| (V30_of m outs c main_v54 (by decide)),
      show V41 m outs c (Proc.devRef .tc main_v165) = outs 41 main_v165 c from Function.update_self ..]

/-- Nothing between the first segment-sum call and this one writes the target array. -/
theorem v64_V43 : V43 m outs c main_v64 = V32 m outs c main_v64 :=
  (V43_of m outs c main_v64 (by decide)).trans <| (V42_of m outs c main_v64 (by decide)).trans <| (V41_of m outs c main_v64 (by decide)).trans <| (V40_of m outs c main_v64 (by decide)).trans <| (V39_of m outs c main_v64 (by decide)).trans <| (V38_of m outs c main_v64 (by decide)).trans <| (V37_of m outs c main_v64 (by decide)).trans <| (V36_of m outs c main_v64 (by decide)).trans <| (V35_of m outs c main_v64 (by decide)).trans <| (V34_of m outs c main_v64 (by decide)).trans <| (V33_of m outs c main_v64 (by decide))

theorem v179_V45 :
    (V45 m outs c main_v179 : S50000x16.Idx → F .f32)
      = addf (addf
          (fun i => shapeCast S50000x16 (extractStridedSlice S1x50000x16 ![0, 0, 0] (outs 44 main_v171 c : S2x50000x16.Idx → F .f32) slices_S2x50000x16_S1x50000x16_0_0_0) shapeCasts_S1x50000x16_S50000x16 i)
          (fun i => shapeCast S50000x16 (extractStridedSlice S1x50000x16 ![1, 0, 0] (outs 44 main_v171 c : S2x50000x16.Idx → F .f32) slices_S2x50000x16_S1x50000x16_1_0_0) shapeCasts_S1x50000x16_S50000x16 i))
        (broadcastInDim S50000x16 ![0, 1] bcast_S1x16_S50000x16_0_1 (broadcastInDim S1x16 ![1] bcast_S16_S1x16_1 (V0 m c main_arg6 : S16.Idx → F .f32))) :=
  (v179_read (V44 m outs c)).trans <| by
    rw [show V44 m outs c (Proc.devRef .tc main_arg6) = V0 m c main_arg6 from (V44_of m outs c main_arg6 (by decide)).trans <| (V43_of m outs c main_arg6 (by decide)).trans <| (V42_of m outs c main_arg6 (by decide)).trans <| (V41_of m outs c main_arg6 (by decide)).trans <| (V40_of m outs c main_arg6 (by decide)).trans <| (V39_of m outs c main_arg6 (by decide)).trans <| (V38_of m outs c main_arg6 (by decide)).trans <| (V37_of m outs c main_arg6 (by decide)).trans <| (V36_of m outs c main_arg6 (by decide)).trans <| (V35_of m outs c main_arg6 (by decide)).trans <| (V34_of m outs c main_arg6 (by decide)).trans <| (V33_of m outs c main_arg6 (by decide)).trans <| (V32_of m outs c main_arg6 (by decide)).trans <| (V31_of m outs c main_arg6 (by decide)).trans <| (V30_of m outs c main_arg6 (by decide)).trans <| (V29_of m c main_arg6 (by decide)).trans <| (V28_of m c main_arg6 (by decide)).trans <| (V27_of m c main_arg6 (by decide)).trans <| (V26_of m c main_arg6 (by decide)).trans <| (V25_of m c main_arg6 (by decide)).trans <| (V24_of m c main_arg6 (by decide)).trans <| (V23_of m c main_arg6 (by decide)).trans <| (V22_of m c main_arg6 (by decide)).trans <| (V21_of m c main_arg6 (by decide)).trans <| (V20_of m c main_arg6 (by decide)).trans <| (V19_of m c main_arg6 (by decide)).trans <| (V18_of m c main_arg6 (by decide)).trans <| (V17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)),
      show V44 m outs c (Proc.devRef .tc main_v171) = outs 44 main_v171 c from Function.update_self ..]

/-! ## Reading at an index -/

section AtIndex

open Idealize.ShloMosaic.ValueIdx Idealize.ShloMosaic.StableHlo.Predicate Cert.Math.RowOps

/-- The take with fill at (e, f), when the word at e is a row number: that row's entry f. -/
theorem takeFill16_apply (x : S50000x16.Idx → F .f32) (i : S352256.Idx → BitVec 32) (e : Fin 352256) (f : Fin 16)
    (hw : (i (ValueIdx.ix1 e)).toNat < 50000) : takeFill16 x i (ValueIdx.ix2 e f) = x (ValueIdx.ix2 ⟨(i (ValueIdx.ix1 e)).toNat, hw⟩ f) := by
  have h5 : rowWord i (colIdx e) = i (ValueIdx.ix1 e) := rowWord_apply i e (by omega)
  have hm : (broadcastInDim S352256x16 ![0] bcast_S352256_S352256x16_0 (rowOk (rowWord i))) (ValueIdx.ix2 e f) = 1#1 :=
    (broadcastInDim_apply _ _ _ (ValueIdx.ix2 e f) (ValueIdx.ix1 e) (fun a => by
      obtain rfl : a = 0 := Subsingleton.elim _ _
      rfl)).trans (rowOk_apply _ e (by rw [h5]; exact hw))
  have hg : Host.gather gather_S50000x16_S352256x1_S352256x16_1_0_n_n_0_1_116 x (rowWord i) (ValueIdx.ix2 e f)
      = x (ValueIdx.ix2 ⟨(i (ValueIdx.ix1 e)).toNat, hw⟩ f) := by
    refine (rowGather_apply Facts₀.gather_S50000x16_S352256x1_S352256x16_1_0_n_n_0_1_116_wf (by decide : 0 < 50000) x _ (ValueIdx.ix2 e f)).trans ?_
    refine congrArg x (congrArg (fun r => ValueIdx.ix2 r f) (Fin.ext ?_))
    show (clampRow 50000 _ (rowWord i (colIdx e))).val = (i (ValueIdx.ix1 e)).toNat
    rw [h5, clampRow_val_of_lt _ _ (by rw [toInt_eq_toNat_of_lt (by omega)]; omega) (by rw [toInt_eq_toNat_of_lt (by omega)]; omega),
      toInt_eq_toNat_of_lt (by omega)]
    rfl
  unfold takeFill16
  rw [select_apply, hm, select_one, hg]

/-- The target operand at (0, e): the padded target column at e. -/
theorem v64_at43 (e : Fin 352256) :
    (V43 m outs c main_v64 : S1x352256.Idx → BitVec 32) (ValueIdx.ix2 (0 : Fin 1) e) = (V29 m c main_v55 : S352256.Idx → BitVec 32) (ValueIdx.ix1 e) := by
  rw [v64_V43]
  exact v64_at m outs c e

end AtIndex

section ReadsIdeal

open Idealize.ShloMosaic.ValueIdx Idealize.ShloMosaic.StableHlo.Predicate Cert.Math.RowOps

variable (mI : (ℓ : Loc nD τ sig) → Buf (Elt Ideal) ℓ) (outsI : Outs (F := Ideal))
variable (σ : Fin 350000 → Fin 350000) (hord : ∀ e : Fin 350000, order mI c (ValueIdx.ix1 e) = BitVec.ofNat 32 (σ e).val)
  (hs : ∀ k : Fin 350000, (sAll mI c (ValueIdx.ix1 k)).toNat < 50000)
include hord hs

/-- THE VALUE OPERAND at an edge position e and feature f: the second layer's transformed features of the edge's
    source node, scaled by the edge's weight. -/
theorem v170_at (e : Fin 352256) (he : e.val < 350000) (f : Fin 16) :
    (V43 mI outsI c main_v170 : S352256x16.Idx → Ideal .bf16) (ValueIdx.ix2 e f)
      = out41 outsI c (ValueIdx.ix2 ⟨(sAll mI c (ValueIdx.ix1 (σ ⟨e.val, he⟩))).toNat, hs _⟩ f)
        * normAll mI c (ValueIdx.ix1 (σ ⟨e.val, he⟩)) := by
  have h54 := v54_at mI c σ hord e he
  have hw : ((V29 mI c main_v54 : S352256.Idx → BitVec 32) (ValueIdx.ix1 e)).toNat < 50000 := by rw [h54]; exact hs _
  rw [v170_V43, truncf_apply, mulf_apply, takeFill16_apply _ _ e f hw]
  have hb : (broadcastInDim S352256x16 ![0, 1] bcast_S352256x1_S352256x16_0_1
      (broadcastInDim S352256x1 ![0] bcast_S352256_S352256x1_0 (V29 mI c main_v56 : S352256.Idx → Ideal .f32))) (ValueIdx.ix2 e f)
      = (V29 mI c main_v56 : S352256.Idx → Ideal .f32) (ValueIdx.ix1 e) :=
    (broadcastInDim_apply _ _ _ (ValueIdx.ix2 e f) (colIdx e) (fun a => by
      match a with
      | ⟨0, _⟩ => rfl
      | ⟨1, _⟩ => rfl)).trans
    (broadcastInDim_apply _ _ _ (colIdx e) (ValueIdx.ix1 e) (fun a => by
      obtain rfl : a = 0 := Subsingleton.elim _ _
      rfl))
  rw [hb, v56_at mI c σ hord e he]
  exact congrArg (fun r => out41 outsI c (ValueIdx.ix2 r f) * normAll mI c (ValueIdx.ix1 (σ ⟨e.val, he⟩)))
    (Fin.ext (congrArg BitVec.toNat h54))

omit hord hs in
/-- WHAT FOLLOWS THE CALL at node r and feature f: the two slabs' entries added, plus the bias. -/
theorem v179_at (r : Fin 50000) (f : Fin 16) :
    (V45 mI outsI c main_v179 : S50000x16.Idx → Ideal .f32) (ValueIdx.ix2 r f)
      = out44 outsI c (ValueIdx.ix3 (0 : Fin 2) r f) + out44 outsI c (ValueIdx.ix3 (1 : Fin 2) r f) + bias6 mI c (ValueIdx.ix1 f) := by
  rw [v179_V45, addf_apply, addf_apply]
  have h0 : shapeCast S50000x16 (extractStridedSlice S1x50000x16 ![0, 0, 0] (outsI 44 main_v171 c : S2x50000x16.Idx → Ideal .f32) slices_S2x50000x16_S1x50000x16_0_0_0) shapeCasts_S1x50000x16_S50000x16 (ValueIdx.ix2 r f)
      = (outsI 44 main_v171 c : S2x50000x16.Idx → Ideal .f32) (ValueIdx.ix3 (0 : Fin 2) r f) :=
    (shapeCast_1ab_ab_apply _ _ r f).trans (extractStridedSlice_apply _ _ _ _ (ValueIdx.ix3 (0 : Fin 2) r f) (fun a => by
      match a with
      | ⟨0, _⟩ => rfl
      | ⟨1, _⟩ => show r.val = 0 + r.val; omega
      | ⟨2, _⟩ => show f.val = 0 + f.val; omega))
  have h1 : shapeCast S50000x16 (extractStridedSlice S1x50000x16 ![1, 0, 0] (outsI 44 main_v171 c : S2x50000x16.Idx → Ideal .f32) slices_S2x50000x16_S1x50000x16_1_0_0) shapeCasts_S1x50000x16_S50000x16 (ValueIdx.ix2 r f)
      = (outsI 44 main_v171 c : S2x50000x16.Idx → Ideal .f32) (ValueIdx.ix3 (1 : Fin 2) r f) :=
    (shapeCast_1ab_ab_apply _ _ r f).trans (extractStridedSlice_apply _ _ _ _ (ValueIdx.ix3 (1 : Fin 2) r f) (fun a => by
      match a with
      | ⟨0, _⟩ => rfl
      | ⟨1, _⟩ => show r.val = 0 + r.val; omega
      | ⟨2, _⟩ => show f.val = 0 + f.val; omega))
  have hb : (broadcastInDim S50000x16 ![0, 1] bcast_S1x16_S50000x16_0_1 (broadcastInDim S1x16 ![1] bcast_S16_S1x16_1 (V0 mI c main_arg6 : S16.Idx → Ideal .f32))) (ValueIdx.ix2 r f)
      = (V0 mI c main_arg6 : S16.Idx → Ideal .f32) (ValueIdx.ix1 f) :=
    (broadcastInDim_apply _ _ _ (ValueIdx.ix2 r f) (ValueIdx.ix2 (0 : Fin 1) f) (fun a => by
      match a with
      | ⟨0, _⟩ => rfl
      | ⟨1, _⟩ => rfl)).trans
    (broadcastInDim_apply _ _ _ (ValueIdx.ix2 (0 : Fin 1) f) (ValueIdx.ix1 f) (fun a => by
      obtain rfl : a = 0 := Subsingleton.elim _ _
      rfl))
  rw [hb]
  exact congrArg₂ (· + ·) (congrArg₂ (· + ·) h0 h1) rfl

end ReadsIdeal

end Cert.KernelIdeal.HandVal
-- ==== Proof.KI.HostVal4.lean ====
/- The host operations around the last segment-sum call (the second edge set on the 16-column layer), read as values:
   the call's operands (the bf16 edge values, the one-row target array) and the sum of its two output slabs with the
   bias, each as the composed term of earlier named arrays, and then read at an index. -/
import proofs.«402757_j20469814133395_4_alg».proof.Proof.KI.HostVal2

set_option maxRecDepth 16384

noncomputable section

namespace Cert.KernelIdeal.HandVal

open Cert.KernelIdeal Cert.KernelIdeal.Gen Cert.KernelIdeal.GenP
open Idealize.ShloMosaic Idealize.ShloMosaic.TcCoe

variable {F : FTy → Type} [FloatOps F]
variable (m : (ℓ : Loc nD τ sig) → Buf (Elt F) ℓ) (outs : Outs (F := F))

/-! ## Single stretches, from any contents -/

theorem v184_read (W : Valuation τ sig (Elt F)) :
    (StableHlo.after hostOps5_2 W (Proc.devRef .tc main_v184) : S1851392x16.Idx → F .bf16)
      = truncf .bf16 (mulf (W (Proc.devRef .tc main_v180) : S1851392x16.Idx → F .f32)
        (broadcastInDim S1851392x16 ![0, 1] bcast_S1851392x1_S1851392x16_0_1
          (broadcastInDim S1851392x1 ![0] bcast_S1851392_S1851392x1_0 (W (Proc.devRef .tc main_v121) : S1851392.Idx → F .f32)))) bitsLt_bf16_f32 := by
  after_results

theorem v193_read (W : Valuation τ sig (Elt F)) :
    (StableHlo.after hostOps6 W (Proc.devRef .tc main_v193) : S50000x16.Idx → F .f32)
      = addf (addf
          (fun i => shapeCast S50000x16 (extractStridedSlice S1x50000x16 ![0, 0, 0] (W (Proc.devRef .tc main_v185) : S2x50000x16.Idx → F .f32) slices_S2x50000x16_S1x50000x16_0_0_0) shapeCasts_S1x50000x16_S50000x16 i)
          (fun i => shapeCast S50000x16 (extractStridedSlice S1x50000x16 ![1, 0, 0] (W (Proc.devRef .tc main_v185) : S2x50000x16.Idx → F .f32) slices_S2x50000x16_S1x50000x16_1_0_0) shapeCasts_S1x50000x16_S50000x16 i))
        (broadcastInDim S50000x16 ![0, 1] bcast_S1x16_S50000x16_0_1 (broadcastInDim S1x16 ![1] bcast_S16_S1x16_1 (W (Proc.devRef .tc main_arg6) : S16.Idx → F .f32))) := by
  after_results
  first | done | rfl

/-- The take with fill of rows of a [50000, 16] array at 1851392 row words: a negative word has 50000 added; a word
    then outside [0, 49999] gives a row of NaN, any other the row it names. -/
def takeFill4 (x : S50000x16.Idx → F .f32) (i : S1851392.Idx → BitVec 32) : S1851392x16.Idx → F .f32 :=
  select (broadcastInDim S1851392x16 ![0] bcast_S1851392_S1851392x16_0 (rowOk2 (rowWord2 i)))
    (Host.gather gather_S50000x16_S1851392x1_S1851392x16_1_0_n_n_0_1_116 x (rowWord2 i))
    (broadcastInDim S1851392x16 ![] bcast_S_S1851392x16 (constant S_ .f32 0x7FC00000#32))

set_option maxHeartbeats 2000000 in
theorem v180_read (W : Valuation τ sig (Elt F)) :
    (StableHlo.after hostOps5_1 W (Proc.devRef .tc main_v180) : S1851392x16.Idx → F .f32)
      = takeFill4 (W (Proc.devRef .tc main_v165)) (W (Proc.devRef .tc main_v119)) := by
  after_results_simp
  refine eq_of_heq ((cast_heq _ _).trans (heq_of_eq ?_))
  rw [show ((.of main_v119 : StableHlo.TRef sig ⟨S1851392, .i32⟩).ofBuf (W (Proc.devRef .tc main_v119)) : S1851392.Idx → BitVec 32) = W (Proc.devRef .tc main_v119) from rfl,
    show ((.of main_v165 : StableHlo.TRef sig ⟨S50000x16, .f32⟩).ofBuf (W (Proc.devRef .tc main_v165)) : S50000x16.Idx → F .f32) = W (Proc.devRef .tc main_v165) from rfl]
  repeat rw [ofBuf_toBuf2]
  rfl

/-! ## How the named values reach the last segment-sum call -/

variable (c : Dev nD)

/-- What the second matmul call leaves: the second layer's transformed features. -/
abbrev out41_4 : S50000x16.Idx → F .f32 := outs 41 main_v165 c
/-- What the last segment-sum call leaves: its two slabs. -/
abbrev out48_4 : S2x50000x16.Idx → F .f32 := outs 48 main_v185 c
/-- The second layer's bias. -/
abbrev bias6_4 : S16.Idx → F .f32 := V0 m c main_arg6

theorem v129_V47 :
    (V47 m outs c main_v129 : S1x1851392.Idx → BitVec 32)
      = fun i => shapeCast S1x1851392 (V29 m c main_v120 : S1851392.Idx → BitVec 32) shapeCasts_S1851392_S1x1851392 i :=
  ((V47_of m outs c main_v129 (by decide)).trans <| (V46_of m outs c main_v129 (by decide)).trans <| (V45_of m outs c main_v129 (by decide)).trans <| (V44_of m outs c main_v129 (by decide)).trans <| (V43_of m outs c main_v129 (by decide)).trans <| (V42_of m outs c main_v129 (by decide)).trans <| (V41_of m outs c main_v129 (by decide)).trans <| (V40_of m outs c main_v129 (by decide)).trans <| (V39_of m outs c main_v129 (by decide)).trans <| (V38_of m outs c main_v129 (by decide)).trans <| (V37_of m outs c main_v129 (by decide))).trans <| v129_V36 m outs c

theorem v184_V47 :
    (V47 m outs c main_v184 : S1851392x16.Idx → F .bf16)
      = truncf .bf16 (mulf (takeFill4 (outs 41 main_v165 c) (V29 m c main_v119))
          (broadcastInDim S1851392x16 ![0, 1] bcast_S1851392x1_S1851392x16_0_1
            (broadcastInDim S1851392x1 ![0] bcast_S1851392_S1851392x1_0 (V29 m c main_v121 : S1851392.Idx → F .f32)))) bitsLt_bf16_f32 :=
  (v184_read (V46 m outs c)).trans <| by
    rw [show V46 m outs c (Proc.devRef .tc main_v180) = _ from v180_read (V45 m outs c),
      show V46 m outs c (Proc.devRef .tc main_v121) = V29 m c main_v121 from ((V46_of m outs c main_v121 (by decide)).trans <| (V45_of m outs c main_v121 (by decide)).trans <| (V44_of m outs c main_v121 (by decide)).trans <| (V43_of m outs c main_v121 (by decide)).trans <| (V42_of m outs c main_v121 (by decide)).trans <| (V41_of m outs c main_v121 (by decide)).trans <| (V40_of m outs c main_v121 (by decide)).trans <| (V39_of m outs c main_v121 (by decide)).trans <| (V38_of m outs c main_v121 (by decide)).trans <| (V37_of m outs c main_v121 (by decide)).trans <| (V36_of m outs c main_v121 (by decide)).trans <| (V35_of m outs c main_v121 (by decide)).trans <| (V34_of m outs c main_v121 (by decide)).trans <| (V33_of m outs c main_v121 (by decide)).trans <| (V32_of m outs c main_v121 (by decide)).trans <| (V31_of m outs c main_v121 (by decide)).trans <| (V30_of m outs c main_v121 (by decide))),
      show V45 m outs c (Proc.devRef .tc main_v119) = V29 m c main_v119 from ((V45_of m outs c main_v119 (by decide)).trans <| (V44_of m outs c main_v119 (by decide)).trans <| (V43_of m outs c main_v119 (by decide)).trans <| (V42_of m outs c main_v119 (by decide)).trans <| (V41_of m outs c main_v119 (by decide)).trans <| (V40_of m outs c main_v119 (by decide)).trans <| (V39_of m outs c main_v119 (by decide)).trans <| (V38_of m outs c main_v119 (by decide)).trans <| (V37_of m outs c main_v119 (by decide)).trans <| (V36_of m outs c main_v119 (by decide)).trans <| (V35_of m outs c main_v119 (by decide)).trans <| (V34_of m outs c main_v119 (by decide)).trans <| (V33_of m outs c main_v119 (by decide)).trans <| (V32_of m outs c main_v119 (by decide)).trans <| (V31_of m outs c main_v119 (by decide)).trans <| (V30_of m outs c main_v119 (by decide))),
      show V45 m outs c (Proc.devRef .tc main_v165) = outs 41 main_v165 c from
        ((V45_of m outs c main_v165 (by decide)).trans <| (V44_of m outs c main_v165 (by decide)).trans <| (V43_of m outs c main_v165 (by decide)).trans <| (V42_of m outs c main_v165 (by decide))).trans (Function.update_self ..)]

theorem v193_V49 :
    (V49 m outs c main_v193 : S50000x16.Idx → F .f32)
      = addf (addf
          (fun i => shapeCast S50000x16 (extractStridedSlice S1x50000x16 ![0, 0, 0] (outs 48 main_v185 c : S2x50000x16.Idx → F .f32) slices_S2x50000x16_S1x50000x16_0_0_0) shapeCasts_S1x50000x16_S50000x16 i)
          (fun i => shapeCast S50000x16 (extractStridedSlice S1x50000x16 ![1, 0, 0] (outs 48 main_v185 c : S2x50000x16.Idx → F .f32) slices_S2x50000x16_S1x50000x16_1_0_0) shapeCasts_S1x50000x16_S50000x16 i))
        (broadcastInDim S50000x16 ![0, 1] bcast_S1x16_S50000x16_0_1 (broadcastInDim S1x16 ![1] bcast_S16_S1x16_1 (V0 m c main_arg6 : S16.Idx → F .f32))) :=
  (v193_read (V48 m outs c)).trans <| by
    rw [show V48 m outs c (Proc.devRef .tc main_arg6) = V0 m c main_arg6 from ((V48_of m outs c main_arg6 (by decide)).trans <| (V47_of m outs c main_arg6 (by decide)).trans <| (V46_of m outs c main_arg6 (by decide)).trans <| (V45_of m outs c main_arg6 (by decide)).trans <| (V44_of m outs c main_arg6 (by decide)).trans <| (V43_of m outs c main_arg6 (by decide)).trans <| (V42_of m outs c main_arg6 (by decide)).trans <| (V41_of m outs c main_arg6 (by decide)).trans <| (V40_of m outs c main_arg6 (by decide)).trans <| (V39_of m outs c main_arg6 (by decide)).trans <| (V38_of m outs c main_arg6 (by decide)).trans <| (V37_of m outs c main_arg6 (by decide)).trans <| (V36_of m outs c main_arg6 (by decide)).trans <| (V35_of m outs c main_arg6 (by decide)).trans <| (V34_of m outs c main_arg6 (by decide)).trans <| (V33_of m outs c main_arg6 (by decide)).trans <| (V32_of m outs c main_arg6 (by decide)).trans <| (V31_of m outs c main_arg6 (by decide)).trans <| (V30_of m outs c main_arg6 (by decide)).trans <| (V29_of m c main_arg6 (by decide)).trans <| (V28_of m c main_arg6 (by decide)).trans <| (V27_of m c main_arg6 (by decide)).trans <| (V26_of m c main_arg6 (by decide)).trans <| (V25_of m c main_arg6 (by decide)).trans <| (V24_of m c main_arg6 (by decide)).trans <| (V23_of m c main_arg6 (by decide)).trans <| (V22_of m c main_arg6 (by decide)).trans <| (V21_of m c main_arg6 (by decide)).trans <| (V20_of m c main_arg6 (by decide)).trans <| (V19_of m c main_arg6 (by decide)).trans <| (V18_of m c main_arg6 (by decide)).trans <| (V17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))),
      show V48 m outs c (Proc.devRef .tc main_v185) = outs 48 main_v185 c from Function.update_self ..]

/-! ## Reading at an index -/

section AtIndex4

open Idealize.ShloMosaic.ValueIdx Idealize.ShloMosaic.StableHlo.Predicate Cert.Math.RowOps

/-- The take with fill at (e, f), when the word at e is a row number: that row's entry f. -/
theorem takeFill4_apply (x : S50000x16.Idx → F .f32) (i : S1851392.Idx → BitVec 32) (e : Fin 1851392) (f : Fin 16)
    (hw : (i (ValueIdx.ix1 e)).toNat < 50000) : takeFill4 x i (ValueIdx.ix2 e f) = x (ValueIdx.ix2 ⟨(i (ValueIdx.ix1 e)).toNat, hw⟩ f) := by
  have h5 : rowWord2 i (colIdx e) = i (ValueIdx.ix1 e) := rowWord2_apply i e (by omega)
  have hm : (broadcastInDim S1851392x16 ![0] bcast_S1851392_S1851392x16_0 (rowOk2 (rowWord2 i))) (ValueIdx.ix2 e f) = 1#1 :=
    (broadcastInDim_apply _ _ _ (ValueIdx.ix2 e f) (ValueIdx.ix1 e) (fun a => by
      obtain rfl : a = 0 := Subsingleton.elim _ _
      rfl)).trans (rowOk2_apply _ e (by rw [h5]; exact hw))
  have hg : Host.gather gather_S50000x16_S1851392x1_S1851392x16_1_0_n_n_0_1_116 x (rowWord2 i) (ValueIdx.ix2 e f)
      = x (ValueIdx.ix2 ⟨(i (ValueIdx.ix1 e)).toNat, hw⟩ f) := by
    refine (rowGather_apply Facts₀.gather_S50000x16_S1851392x1_S1851392x16_1_0_n_n_0_1_116_wf (by decide : 0 < 50000) x _ (ValueIdx.ix2 e f)).trans ?_
    refine congrArg x (congrArg (fun r => ValueIdx.ix2 r f) (Fin.ext ?_))
    show (clampRow 50000 _ (rowWord2 i (colIdx e))).val = (i (ValueIdx.ix1 e)).toNat
    rw [h5, clampRow_val_of_lt _ _ (by rw [toInt_eq_toNat_of_lt (by omega)]; omega) (by rw [toInt_eq_toNat_of_lt (by omega)]; omega),
      toInt_eq_toNat_of_lt (by omega)]
    rfl
  unfold takeFill4
  rw [select_apply, hm, select_one, hg]

end AtIndex4

/-! ## The operands of the last segment-sum call, and what follows it, read at an index -/

section Reads4

open Idealize.ShloMosaic.ValueIdx Cert.Math.RowOps

/-- The target operand, a one-row array, at (0, e): the padded target column at e. -/
theorem v129_at47 (e : Fin 1851392) :
    (V47 m outs c main_v129 : S1x1851392.Idx → BitVec 32) (ValueIdx.ix2 (0 : Fin 1) e) = (V29 m c main_v120 : S1851392.Idx → BitVec 32) (ValueIdx.ix1 e) := by
  rw [v129_V47]
  exact shapeCast_a_1a_apply _ shapeCasts_S1851392_S1x1851392 (0 : Fin 1) e

end Reads4

section ReadsIdeal4

open Idealize.ShloMosaic.ValueIdx Idealize.ShloMosaic.StableHlo.Predicate Cert.Math.RowOps

variable (mI : (ℓ : Loc nD τ sig) → Buf (Elt Ideal) ℓ) (outsI : Outs (F := Ideal))
variable (σ : Fin 1847685 → Fin 1847685) (hord : ∀ e : Fin 1847685, order2 mI c (ValueIdx.ix1 e) = BitVec.ofNat 32 (σ e).val)
  (hs : ∀ k : Fin 1847685, (sAll2 mI c (ValueIdx.ix1 k)).toNat < 50000)
include hord hs

/-- THE VALUE OPERAND at an edge position e and feature f: the transformed features of the edge's source node,
    scaled by the edge's weight. -/
theorem v184_at (e : Fin 1851392) (he : e.val < 1847685) (f : Fin 16) :
    (V47 mI outsI c main_v184 : S1851392x16.Idx → Ideal .bf16) (ValueIdx.ix2 e f)
      = out41_4 outsI c (ValueIdx.ix2 ⟨(sAll2 mI c (ValueIdx.ix1 (σ ⟨e.val, he⟩))).toNat, hs _⟩ f)
        * normAll2 mI c (ValueIdx.ix1 (σ ⟨e.val, he⟩)) := by
  have h54 := v119_at mI c σ hord e he
  have hw : ((V29 mI c main_v119 : S1851392.Idx → BitVec 32) (ValueIdx.ix1 e)).toNat < 50000 := by rw [h54]; exact hs _
  rw [v184_V47, truncf_apply, mulf_apply, takeFill4_apply _ _ e f hw]
  have hb : (broadcastInDim S1851392x16 ![0, 1] bcast_S1851392x1_S1851392x16_0_1
      (broadcastInDim S1851392x1 ![0] bcast_S1851392_S1851392x1_0 (V29 mI c main_v121 : S1851392.Idx → Ideal .f32))) (ValueIdx.ix2 e f)
      = (V29 mI c main_v121 : S1851392.Idx → Ideal .f32) (ValueIdx.ix1 e) :=
    (broadcastInDim_apply _ _ _ (ValueIdx.ix2 e f) (colIdx e) (fun a => by
      match a with
      | ⟨0, _⟩ => rfl
      | ⟨1, _⟩ => rfl)).trans
    (broadcastInDim_apply _ _ _ (colIdx e) (ValueIdx.ix1 e) (fun a => by
      obtain rfl : a = 0 := Subsingleton.elim _ _
      rfl))
  rw [hb, v121_at mI c σ hord e he]
  exact congrArg (fun r => out41_4 outsI c (ValueIdx.ix2 r f) * normAll2 mI c (ValueIdx.ix1 (σ ⟨e.val, he⟩)))
    (Fin.ext (congrArg BitVec.toNat h54))

omit hord hs in
/-- WHAT FOLLOWS THE CALL at node r and feature f: the two slabs' entries added, plus the bias. -/
theorem v193_at (r : Fin 50000) (f : Fin 16) :
    (V49 mI outsI c main_v193 : S50000x16.Idx → Ideal .f32) (ValueIdx.ix2 r f)
      = out48_4 outsI c (ValueIdx.ix3 (0 : Fin 2) r f) + out48_4 outsI c (ValueIdx.ix3 (1 : Fin 2) r f) + bias6_4 mI c (ValueIdx.ix1 f) := by
  rw [v193_V49, addf_apply, addf_apply]
  have h0 : shapeCast S50000x16 (extractStridedSlice S1x50000x16 ![0, 0, 0] (outsI 48 main_v185 c : S2x50000x16.Idx → Ideal .f32) slices_S2x50000x16_S1x50000x16_0_0_0) shapeCasts_S1x50000x16_S50000x16 (ValueIdx.ix2 r f)
      = (outsI 48 main_v185 c : S2x50000x16.Idx → Ideal .f32) (ValueIdx.ix3 (0 : Fin 2) r f) :=
    (shapeCast_1ab_ab_apply _ _ r f).trans (extractStridedSlice_apply _ _ _ _ (ValueIdx.ix3 (0 : Fin 2) r f) (fun a => by
      match a with
      | ⟨0, _⟩ => rfl
      | ⟨1, _⟩ => show r.val = 0 + r.val; omega
      | ⟨2, _⟩ => show f.val = 0 + f.val; omega))
  have h1 : shapeCast S50000x16 (extractStridedSlice S1x50000x16 ![1, 0, 0] (outsI 48 main_v185 c : S2x50000x16.Idx → Ideal .f32) slices_S2x50000x16_S1x50000x16_1_0_0) shapeCasts_S1x50000x16_S50000x16 (ValueIdx.ix2 r f)
      = (outsI 48 main_v185 c : S2x50000x16.Idx → Ideal .f32) (ValueIdx.ix3 (1 : Fin 2) r f) :=
    (shapeCast_1ab_ab_apply _ _ r f).trans (extractStridedSlice_apply _ _ _ _ (ValueIdx.ix3 (1 : Fin 2) r f) (fun a => by
      match a with
      | ⟨0, _⟩ => rfl
      | ⟨1, _⟩ => show r.val = 0 + r.val; omega
      | ⟨2, _⟩ => show f.val = 0 + f.val; omega))
  have hb : (broadcastInDim S50000x16 ![0, 1] bcast_S1x16_S50000x16_0_1 (broadcastInDim S1x16 ![1] bcast_S16_S1x16_1 (V0 mI c main_arg6 : S16.Idx → Ideal .f32))) (ValueIdx.ix2 r f)
      = (V0 mI c main_arg6 : S16.Idx → Ideal .f32) (ValueIdx.ix1 f) :=
    (broadcastInDim_apply _ _ _ (ValueIdx.ix2 r f) (ValueIdx.ix2 (0 : Fin 1) f) (fun a => by
      match a with
      | ⟨0, _⟩ => rfl
      | ⟨1, _⟩ => rfl)).trans
    (broadcastInDim_apply _ _ _ (ValueIdx.ix2 (0 : Fin 1) f) (ValueIdx.ix1 f) (fun a => by
      obtain rfl : a = 0 := Subsingleton.elim _ _
      rfl))
  rw [hb]
  exact congrArg₂ (· + ·) (congrArg₂ (· + ·) h0 h1) rfl

end ReadsIdeal4

end Cert.KernelIdeal.HandVal
-- ==== Proof.KI.TblVal.lean ====
import proofs.«402757_j20469814133395_4_alg».proof.Proof.KI.Tbl
import Idealize.ShloMosaic.Lib.Pipeline.Value
import Idealize.ShloMosaic.Lib.ValueIdx

/-!
# The prefetched tables' words as integers

Entry `k` of a table of window starts is computed from the flat entry `t = T (2048 k)` of a padded vector `T` of
32-bit words as `minimum (47944, maximum (0, ⌊t / 8⌋ * 8))`, the floor quotient itself computed as the quotient rounded
toward zero, less one when the signs of dividend and divisor differ and the remainder is not zero. Read as integers
nothing wraps: `⌊t / 8⌋` lies in `[-2 ^ 28, 2 ^ 28)`, and `8 ⌊t / 8⌋` lies in `[-2 ^ 31, t]` because `8 ∣ 2 ^ 31`. So
the entry, as an integer, is `min (max (8 * (t / 8)) 0) 47944`, with `/` the division of `ℤ` (the floor, the divisor
being positive).
-/

set_option maxRecDepth 2316

noncomputable section

namespace Cert.KernelIdeal.HandVal

open Cert.KernelIdeal Cert.KernelIdeal.Gen

open Idealize.ShloMosaic Idealize.ShloMosaic.TcCoe
open Idealize.SL.Sem

variable {F : FTy → Type} [FloatOps F]

/-! ## Words -/

/-- The quotient by 8 rounded toward −∞, as it is computed on words: the quotient rounded toward zero, less one when
    the dividend's sign (0, −1 or 1) differs from the divisor's (1) and the remainder is not zero. -/
def fdiv8 (x : BitVec 32) : BitVec 32 :=
  Scalar.select
    (IntOp.andi (IntOp.cmpi .ne (if x = 0 then 0 else if x.msb then -1 else 1) 1#32)
      (IntOp.cmpi .ne (IntOp.remsi .host x 8#32) 0#32))
    (IntOp.subi (IntOp.divsi .host x 8#32) 1#32) (IntOp.divsi .host x 8#32)

/-- A word above the least one, less one, is its integer less one. -/
theorem toInt_sub_one (d : BitVec 32) (h : -2147483648 < d.toInt) : (d - 1#32).toInt = d.toInt - 1 := by
  have e1 : (1#32 : BitVec 32).toInt = 1 := rfl
  have hu := BitVec.toInt_lt (x := d)
  rw [BitVec.toInt_sub, e1]
  apply Int.bmod_eq_of_le <;> omega

/-- The word-level floor quotient by 8 is the integer one. The divisor is neither 0 nor −1, so quotient and
    remainder are the truncating ones of the integers; for a positive dividend the sign test fails and the truncating
    quotient is the floor; for 0 by computation; for a negative one the sign test holds, and the floor is the
    truncating quotient when 8 divides the dividend and one less when it does not. -/
theorem fdiv8_toInt (x : BitVec 32) : (fdiv8 x).toInt = x.toInt / 8 := by
  have hcorner : ¬ IntOp.SDivCorner x 8#32 := by
    unfold IntOp.SDivCorner
    intro h
    rcases h with h | ⟨_, h⟩ <;> exact absurd h (by decide)
  have hd : IntOp.divsi .host x 8#32 = x.sdiv 8#32 := by unfold IntOp.divsi; rw [if_neg hcorner]
  have hr : IntOp.remsi .host x 8#32 = x.srem 8#32 := by unfold IntOp.remsi; rw [if_neg hcorner]
  have e8 : (8#32 : BitVec 32).toInt = 8 := rfl
  have hdI : (x.sdiv 8#32).toInt = x.toInt.tdiv 8 := by
    rw [BitVec.toInt_sdiv_of_ne_or_ne x 8#32 (Or.inr (by decide)), e8]
  have hrI : (x.srem 8#32).toInt = x.toInt.tmod 8 := by rw [BitVec.toInt_srem, e8]
  have hxu := BitVec.toInt_lt (x := x)
  have hxl := BitVec.le_toInt x
  have htd := Int.tdiv_eq_ediv (a := x.toInt) (b := 8)
  have htm := Int.tmod_eq_emod (a := x.toInt) (b := 8)
  have hsg : Int.sign 8 = 1 := rfl
  have hna : (8 : Int).natAbs = 8 := rfl
  rw [hsg] at htd
  rw [hna] at htm
  unfold fdiv8
  rw [hd, hr]
  unfold IntOp.cmpi IntOp.andi IntOp.subi Scalar.select
  simp only [BitVec.ofBool_and_ofBool]
  by_cases hz : x = 0
  · subst hz; decide
  · have hz' : x.toInt ≠ 0 := fun h => hz (BitVec.toInt_inj.mp (h.trans BitVec.toInt_zero.symm))
    rw [if_neg hz, BitVec.msb_eq_toInt]
    by_cases hneg : x.toInt < 0
    · have e1 : ((if decide (x.toInt < 0) = true then (-1 : BitVec 32) else 1) != 1#32) = true := by
        rw [if_pos (decide_eq_true hneg)]; decide
      rw [e1, Bool.true_and]
      by_cases hr0 : x.srem 8#32 = 0#32
      · have e2 : (x.srem 8#32 != 0#32) = false := by rw [hr0]; decide
        rw [e2]
        have hrz : x.toInt.tmod 8 = 0 := by rw [← hrI, hr0]; rfl
        rw [if_neg (by decide), hdI]
        split at htd <;> split at htm <;> omega
      · have e2 : (x.srem 8#32 != 0#32) = true := by
          rw [bne_iff_ne]; exact hr0
        rw [e2]
        have hrz : x.toInt.tmod 8 ≠ 0 := by
          intro h; apply hr0; apply BitVec.toInt_inj.mp; rw [hrI, h]; rfl
        rw [if_pos (by decide)]
        rw [toInt_sub_one _ (by rw [hdI]; split at htd <;> omega), hdI]
        split at htd <;> split at htm <;> omega
    · have e1 : ((if decide (x.toInt < 0) = true then (-1 : BitVec 32) else 1) != 1#32) = false := by
        rw [if_neg (by simpa using hneg)]; decide
      rw [e1, Bool.false_and, if_neg (by decide), hdI]
      split at htd <;> omega

/-- The floor quotient by 8, times 8, clipped into `[0, 47944]`, read as an integer. -/
theorem tblword_toInt (x : BitVec 32) :
    (IntOp.minsi 47944#32 (IntOp.maxsi 0#32 (IntOp.muli (fdiv8 x) 8#32))).toInt
      = min (max (8 * (x.toInt / 8)) 0) 47944 := by
  have hq := fdiv8_toInt x
  have hxu := BitVec.toInt_lt (x := x)
  have hxl := BitVec.le_toInt x
  have e8 : (8#32 : BitVec 32).toInt = 8 := rfl
  have hp : (fdiv8 x * 8#32).toInt = 8 * (x.toInt / 8) := by
    rw [BitVec.toInt_mul, hq, e8]
    rw [Int.bmod_eq_of_le] <;> omega
  unfold IntOp.minsi IntOp.maxsi IntOp.muli
  have e0 : (0#32 : BitVec 32).toInt = 0 := rfl
  have e1 : (47944#32 : BitVec 32).toInt = 47944 := rfl
  by_cases h1 : (fdiv8 x * 8#32).slt 0#32
  · rw [if_pos h1]
    rw [if_neg (by decide : ¬ ((47944#32 : BitVec 32).slt 0#32 = true))]
    rw [BitVec.slt_iff_toInt_lt, hp, e0] at h1
    rw [e0]; omega
  · rw [if_neg h1]
    rw [BitVec.slt_iff_toInt_lt, hp, e0] at h1
    by_cases h2 : (47944#32 : BitVec 32).slt (fdiv8 x * 8#32)
    · rw [if_pos h2]
      rw [BitVec.slt_iff_toInt_lt, hp, e1] at h2
      rw [e1]; omega
    · rw [if_neg h2]
      rw [BitVec.slt_iff_toInt_lt, hp, e1] at h2
      rw [hp]; omega

/-- A word at most 47944 as a natural number is that number as an integer. -/
theorem word_range (w : BitVec 32) (h : w.toNat ≤ 47944) :
    0 ≤ w.toInt ∧ w.toInt ≤ 47944 ∧ w.toNat = w.toInt.toNat := by
  have hc := BitVec.toInt_eq_toNat_cond w
  split at hc <;> omega

/-! ## Layout -/

/-- Column 0 of the row-major `[172, 2048]` view of a flat vector of 352256 entries, flattened: entry `k` is the flat
    entry `2048 k`. -/
theorem col0_172_at {α : Type} (x : S352256.Idx → α) (k : S172.Idx) (j : S352256.Idx)
    (hj : (j 0).val = (k 0).val * 2048) :
    shapeCast S172 (extractStridedSlice S172x1 ![0, 0] (shapeCast S172x2048 x shapeCasts_S352256_S172x2048)
      slices_S172x2048_S172x1_0_0) shapeCasts_S172x1_S172 k = x j := by
  have hk : (k 0).val < 172 := (k 0).isLt
  rw [shapeCast_apply _ _ k (ValueIdx.ix2 (⟨(k 0).val, hk⟩ : Fin 172) (0 : Fin 1)) (by
    rw [Shape.rowMajor_val_two, Shape.rowMajor_val_one]
    show (k 0).val * 1 + 0 = (k 0).val
    exact (Nat.add_zero _).trans (Nat.mul_one _))]
  rw [extractStridedSlice_apply _ _ _ (ValueIdx.ix2 (⟨(k 0).val, hk⟩ : Fin 172) (0 : Fin 1))
    (ValueIdx.ix2 (⟨(k 0).val, hk⟩ : Fin 172) (0 : Fin 2048)) (by
    intro a
    match a with
    | ⟨0, _⟩ => exact (Nat.zero_add _).symm
    | ⟨1, _⟩ => rfl)]
  rw [shapeCast_apply _ _ (ValueIdx.ix2 (⟨(k 0).val, hk⟩ : Fin 172) (0 : Fin 2048)) j (by
    rw [Shape.rowMajor_val_one, Shape.rowMajor_val_two]
    show (j 0).val = (k 0).val * 2048 + 0
    exact hj.trans (Nat.add_zero _).symm)]

/-- Column 0 of the row-major `[904, 2048]` view of a flat vector of 1851392 entries, flattened: entry `k` is the flat
    entry `2048 k`. -/
theorem col0_904_at {α : Type} (x : S1851392.Idx → α) (k : S904.Idx) (j : S1851392.Idx)
    (hj : (j 0).val = (k 0).val * 2048) :
    shapeCast S904 (extractStridedSlice S904x1 ![0, 0] (shapeCast S904x2048 x shapeCasts_S1851392_S904x2048)
      slices_S904x2048_S904x1_0_0) shapeCasts_S904x1_S904 k = x j := by
  have hk : (k 0).val < 904 := (k 0).isLt
  rw [shapeCast_apply _ _ k (ValueIdx.ix2 (⟨(k 0).val, hk⟩ : Fin 904) (0 : Fin 1)) (by
    rw [Shape.rowMajor_val_two, Shape.rowMajor_val_one]
    show (k 0).val * 1 + 0 = (k 0).val
    exact (Nat.add_zero _).trans (Nat.mul_one _))]
  rw [extractStridedSlice_apply _ _ _ (ValueIdx.ix2 (⟨(k 0).val, hk⟩ : Fin 904) (0 : Fin 1))
    (ValueIdx.ix2 (⟨(k 0).val, hk⟩ : Fin 904) (0 : Fin 2048)) (by
    intro a
    match a with
    | ⟨0, _⟩ => exact (Nat.zero_add _).symm
    | ⟨1, _⟩ => rfl)]
  rw [shapeCast_apply _ _ (ValueIdx.ix2 (⟨(k 0).val, hk⟩ : Fin 904) (0 : Fin 2048)) j (by
    rw [Shape.rowMajor_val_one, Shape.rowMajor_val_two]
    show (j 0).val = (k 0).val * 2048 + 0
    exact hj.trans (Nat.add_zero _).symm)]

/-! ## The operations before the clip -/

/-- The reshape, the slice of column 0 and the reshape back, from any contents `W`. -/
theorem col172_read (W : Valuation τ sig (Elt F)) :
    (StableHlo.after hostOps0_10 W (Proc.devRef .tc main_v59) : S172.Idx → BitVec 32)
      = shapeCast S172 (extractStridedSlice S172x1 ![0, 0]
          (shapeCast S172x2048 (W (Proc.devRef .tc main_v55)) shapeCasts_S352256_S172x2048)
          slices_S172x2048_S172x1_0_0) shapeCasts_S172x1_S172 := by
  after_results
  rfl

/-- The divisor is the constant 8. -/
theorem div172_read (W : Valuation τ sig (Elt F)) :
    (StableHlo.after hostOps0_10 W (Proc.devRef .tc main_c_16) : S_.Idx → BitVec 32) = constantI S_ 32 8#32 := by
  after_results

/-- The seventeen operations of the floor division, from any contents `W`: the quotient rounded toward zero, less
    one where the signs of dividend and divisor differ and the remainder is not zero. -/
theorem fdiv172_read (W : Valuation τ sig (Elt F)) :
    (StableHlo.after hostOps0_11 W (Proc.devRef .tc main_v60) : S172.Idx → BitVec 32)
      = select (andi (cmpi .ne (signi (W (Proc.devRef .tc main_v59))) (broadcastInDim S172 ![] bcast_S_S172 (signi (W (Proc.devRef .tc main_c_16))))) (cmpi .ne (Host.remsi (W (Proc.devRef .tc main_v59)) (broadcastInDim S172 ![] bcast_S_S172 ((W (Proc.devRef .tc main_c_16))))) (broadcastInDim S172 ![] bcast_S_S172 (constantI S_ 32 0#32))))
          (subi (Host.divsi (W (Proc.devRef .tc main_v59)) (broadcastInDim S172 ![] bcast_S_S172 ((W (Proc.devRef .tc main_c_16))))) (broadcastInDim S172 ![] bcast_S_S172 (constantI S_ 32 1#32))) (Host.divsi (W (Proc.devRef .tc main_v59)) (broadcastInDim S172 ![] bcast_S_S172 ((W (Proc.devRef .tc main_c_16))))) := by
  after_results_simp
  rfl

/-- Read at an index, with the divisor 8, that is the word-level floor quotient of the entry. -/
theorem fdiv172_at (X : S172.Idx → BitVec 32) (k : S172.Idx) :
    (select (andi (cmpi .ne (signi X) (broadcastInDim S172 ![] bcast_S_S172 (signi (constantI S_ 32 8#32)))) (cmpi .ne (Host.remsi X (broadcastInDim S172 ![] bcast_S_S172 ((constantI S_ 32 8#32)))) (broadcastInDim S172 ![] bcast_S_S172 (constantI S_ 32 0#32))))
          (subi (Host.divsi X (broadcastInDim S172 ![] bcast_S_S172 ((constantI S_ 32 8#32)))) (broadcastInDim S172 ![] bcast_S_S172 (constantI S_ 32 1#32))) (Host.divsi X (broadcastInDim S172 ![] bcast_S_S172 ((constantI S_ 32 8#32))))) k = fdiv8 (X k) := by
  have hs : (signi (constantI S_ 32 8#32) : S_.Idx → BitVec 32) = constantI S_ 32 1#32 := by
    funext i
    show (if (8#32 : BitVec 32) = 0 then (0 : BitVec 32) else if (8#32 : BitVec 32).msb then -1 else 1) = 1#32
    decide
  rw [hs]
  rfl

/-- The reshape, the slice of column 0 and the reshape back, from any contents `W`. -/
theorem col904_read (W : Valuation τ sig (Elt F)) :
    (StableHlo.after hostOps0_24 W (Proc.devRef .tc main_v124) : S904.Idx → BitVec 32)
      = shapeCast S904 (extractStridedSlice S904x1 ![0, 0]
          (shapeCast S904x2048 (W (Proc.devRef .tc main_v120)) shapeCasts_S1851392_S904x2048)
          slices_S904x2048_S904x1_0_0) shapeCasts_S904x1_S904 := by
  after_results
  rfl

/-- The divisor is the constant 8. -/
theorem div904_read (W : Valuation τ sig (Elt F)) :
    (StableHlo.after hostOps0_24 W (Proc.devRef .tc main_c_38) : S_.Idx → BitVec 32) = constantI S_ 32 8#32 := by
  after_results

/-- The seventeen operations of the floor division, from any contents `W`: the quotient rounded toward zero, less
    one where the signs of dividend and divisor differ and the remainder is not zero. -/
theorem fdiv904_read (W : Valuation τ sig (Elt F)) :
    (StableHlo.after hostOps0_25 W (Proc.devRef .tc main_v125) : S904.Idx → BitVec 32)
      = select (andi (cmpi .ne (signi (W (Proc.devRef .tc main_v124))) (broadcastInDim S904 ![] bcast_S_S904 (signi (W (Proc.devRef .tc main_c_38))))) (cmpi .ne (Host.remsi (W (Proc.devRef .tc main_v124)) (broadcastInDim S904 ![] bcast_S_S904 ((W (Proc.devRef .tc main_c_38))))) (broadcastInDim S904 ![] bcast_S_S904 (constantI S_ 32 0#32))))
          (subi (Host.divsi (W (Proc.devRef .tc main_v124)) (broadcastInDim S904 ![] bcast_S_S904 ((W (Proc.devRef .tc main_c_38))))) (broadcastInDim S904 ![] bcast_S_S904 (constantI S_ 32 1#32))) (Host.divsi (W (Proc.devRef .tc main_v124)) (broadcastInDim S904 ![] bcast_S_S904 ((W (Proc.devRef .tc main_c_38))))) := by
  after_results_simp
  rfl

/-- Read at an index, with the divisor 8, that is the word-level floor quotient of the entry. -/
theorem fdiv904_at (X : S904.Idx → BitVec 32) (k : S904.Idx) :
    (select (andi (cmpi .ne (signi X) (broadcastInDim S904 ![] bcast_S_S904 (signi (constantI S_ 32 8#32)))) (cmpi .ne (Host.remsi X (broadcastInDim S904 ![] bcast_S_S904 ((constantI S_ 32 8#32)))) (broadcastInDim S904 ![] bcast_S_S904 (constantI S_ 32 0#32))))
          (subi (Host.divsi X (broadcastInDim S904 ![] bcast_S_S904 ((constantI S_ 32 8#32)))) (broadcastInDim S904 ![] bcast_S_S904 (constantI S_ 32 1#32))) (Host.divsi X (broadcastInDim S904 ![] bcast_S_S904 ((constantI S_ 32 8#32))))) k = fdiv8 (X k) := by
  have hs : (signi (constantI S_ 32 8#32) : S_.Idx → BitVec 32) = constantI S_ 32 1#32 := by
    funext i
    show (if (8#32 : BitVec 32) = 0 then (0 : BitVec 32) else if (8#32 : BitVec 32).msb then -1 else 1) = 1#32
    decide
  rw [hs]
  rfl

variable (m : (ℓ : Loc nD τ sig) → Buf (Elt F) ℓ) (outs : GenP.Outs (F := F))

/-! ## The tables' entries -/

/-- Entry `k` of the 172-entry table, as computed, is the clip of 8 times the floor quotient of the flat entry
    `2048 k` of the padded vector the table is cut from. -/
theorem tbl63_word (c : Dev nD) (k : S172.Idx) (j : S352256.Idx) (hj : (j 0).val = (k 0).val * 2048) :
    (GenP.V14 m c main_v63 : S172.Idx → BitVec 32) k
      = IntOp.minsi 47944#32 (IntOp.maxsi 0#32
          (IntOp.muli (fdiv8 ((GenP.V10 m c main_v55 : S352256.Idx → BitVec 32) j)) 8#32)) := by
  have e60 : (GenP.V12 m c main_v60 : S172.Idx → BitVec 32)
      = select (andi (cmpi .ne (signi (GenP.V11 m c main_v59)) (broadcastInDim S172 ![] bcast_S_S172 (signi (GenP.V11 m c main_c_16)))) (cmpi .ne (Host.remsi (GenP.V11 m c main_v59) (broadcastInDim S172 ![] bcast_S_S172 ((GenP.V11 m c main_c_16)))) (broadcastInDim S172 ![] bcast_S_S172 (constantI S_ 32 0#32))))
          (subi (Host.divsi (GenP.V11 m c main_v59) (broadcastInDim S172 ![] bcast_S_S172 ((GenP.V11 m c main_c_16)))) (broadcastInDim S172 ![] bcast_S_S172 (constantI S_ 32 1#32))) (Host.divsi (GenP.V11 m c main_v59) (broadcastInDim S172 ![] bcast_S_S172 ((GenP.V11 m c main_c_16)))) :=
    fdiv172_read (GenP.V11 m c)
  have e16 : (GenP.V11 m c main_c_16 : S_.Idx → BitVec 32) = constantI S_ 32 8#32 := div172_read (GenP.V10 m c)
  have e59 : (GenP.V11 m c main_v59 : S172.Idx → BitVec 32) k
      = (GenP.V10 m c main_v55 : S352256.Idx → BitVec 32) j := by
    rw [show (GenP.V11 m c main_v59 : S172.Idx → BitVec 32) = _ from col172_read (GenP.V10 m c)]
    exact col0_172_at _ k j hj
  rw [Hand.tbl63_V14, Hand.clip172_at, e60, e16, fdiv172_at, e59]

/-- Entry `k` of the 904-entry table, as computed, is the clip of 8 times the floor quotient of the flat entry
    `2048 k` of the padded vector the table is cut from. -/
theorem tbl128_word (c : Dev nD) (k : S904.Idx) (j : S1851392.Idx) (hj : (j 0).val = (k 0).val * 2048) :
    (GenP.V28 m c main_v128 : S904.Idx → BitVec 32) k
      = IntOp.minsi 47944#32 (IntOp.maxsi 0#32
          (IntOp.muli (fdiv8 ((GenP.V24 m c main_v120 : S1851392.Idx → BitVec 32) j)) 8#32)) := by
  have e60 : (GenP.V26 m c main_v125 : S904.Idx → BitVec 32)
      = select (andi (cmpi .ne (signi (GenP.V25 m c main_v124)) (broadcastInDim S904 ![] bcast_S_S904 (signi (GenP.V25 m c main_c_38)))) (cmpi .ne (Host.remsi (GenP.V25 m c main_v124) (broadcastInDim S904 ![] bcast_S_S904 ((GenP.V25 m c main_c_38)))) (broadcastInDim S904 ![] bcast_S_S904 (constantI S_ 32 0#32))))
          (subi (Host.divsi (GenP.V25 m c main_v124) (broadcastInDim S904 ![] bcast_S_S904 ((GenP.V25 m c main_c_38)))) (broadcastInDim S904 ![] bcast_S_S904 (constantI S_ 32 1#32))) (Host.divsi (GenP.V25 m c main_v124) (broadcastInDim S904 ![] bcast_S_S904 ((GenP.V25 m c main_c_38)))) :=
    fdiv904_read (GenP.V25 m c)
  have e16 : (GenP.V25 m c main_c_38 : S_.Idx → BitVec 32) = constantI S_ 32 8#32 := div904_read (GenP.V24 m c)
  have e59 : (GenP.V25 m c main_v124 : S904.Idx → BitVec 32) k
      = (GenP.V24 m c main_v120 : S1851392.Idx → BitVec 32) j := by
    rw [show (GenP.V25 m c main_v124 : S904.Idx → BitVec 32) = _ from col904_read (GenP.V24 m c)]
    exact col0_904_at _ k j hj
  rw [Hand.tbl128_V28, Hand.clip904_at, e60, e16, fdiv904_at, e59]

/-- Nothing between the operations that read it and call 1 writes the padded vector of the 172-entry table. -/
theorem pad55_V32 (c : Dev nD) : GenP.V32 m outs c main_v55 = GenP.V10 m c main_v55 :=
  (GenP.V32_of m outs c main_v55 (by decide)).trans <|
    (GenP.V31_of m outs c main_v55 (by decide)).trans <|
    (GenP.V30_of m outs c main_v55 (by decide)).trans <|
    (GenP.V29_of m c main_v55 (by decide)).trans <|
    (GenP.V28_of m c main_v55 (by decide)).trans <|
    (GenP.V27_of m c main_v55 (by decide)).trans <|
    (GenP.V26_of m c main_v55 (by decide)).trans <|
    (GenP.V25_of m c main_v55 (by decide)).trans <|
    (GenP.V24_of m c main_v55 (by decide)).trans <|
    (GenP.V23_of m c main_v55 (by decide)).trans <|
    (GenP.V22_of m c main_v55 (by decide)).trans <|
    (GenP.V21_of m c main_v55 (by decide)).trans <|
    (GenP.V20_of m c main_v55 (by decide)).trans <|
    (GenP.V19_of m c main_v55 (by decide)).trans <|
    (GenP.V18_of m c main_v55 (by decide)).trans <|
    (GenP.V17_of m c main_v55 (by decide)).trans <|
    (GenP.V16_of m c main_v55 (by decide)).trans <|
    (GenP.V15_of m c main_v55 (by decide)).trans <|
    (GenP.V14_of m c main_v55 (by decide)).trans <|
    (GenP.V13_of m c main_v55 (by decide)).trans <|
    (GenP.V12_of m c main_v55 (by decide)).trans <|
    (GenP.V11_of m c main_v55 (by decide)).trans rfl

/-- Nor anything between call 1 and call 4. -/
theorem pad55_V43 (c : Dev nD) : GenP.V43 m outs c main_v55 = GenP.V32 m outs c main_v55 :=
  (GenP.V43_of m outs c main_v55 (by decide)).trans <|
    (GenP.V42_of m outs c main_v55 (by decide)).trans <|
    (GenP.V41_of m outs c main_v55 (by decide)).trans <|
    (GenP.V40_of m outs c main_v55 (by decide)).trans <|
    (GenP.V39_of m outs c main_v55 (by decide)).trans <|
    (GenP.V38_of m outs c main_v55 (by decide)).trans <|
    (GenP.V37_of m outs c main_v55 (by decide)).trans <|
    (GenP.V36_of m outs c main_v55 (by decide)).trans <|
    (GenP.V35_of m outs c main_v55 (by decide)).trans <|
    (GenP.V34_of m outs c main_v55 (by decide)).trans <|
    (GenP.V33_of m outs c main_v55 (by decide)).trans rfl

/-- Nothing between the operations that read it and call 2 writes the padded vector of the 904-entry table. -/
theorem pad120_V36 (c : Dev nD) : GenP.V36 m outs c main_v120 = GenP.V24 m c main_v120 :=
  (GenP.V36_of m outs c main_v120 (by decide)).trans <|
    (GenP.V35_of m outs c main_v120 (by decide)).trans <|
    (GenP.V34_of m outs c main_v120 (by decide)).trans <|
    (GenP.V33_of m outs c main_v120 (by decide)).trans <|
    (GenP.V32_of m outs c main_v120 (by decide)).trans <|
    (GenP.V31_of m outs c main_v120 (by decide)).trans <|
    (GenP.V30_of m outs c main_v120 (by decide)).trans <|
    (GenP.V29_of m c main_v120 (by decide)).trans <|
    (GenP.V28_of m c main_v120 (by decide)).trans <|
    (GenP.V27_of m c main_v120 (by decide)).trans <|
    (GenP.V26_of m c main_v120 (by decide)).trans <|
    (GenP.V25_of m c main_v120 (by decide)).trans rfl

/-- Nor anything between call 2 and call 5. -/
theorem pad120_V47 (c : Dev nD) : GenP.V47 m outs c main_v120 = GenP.V36 m outs c main_v120 :=
  (GenP.V47_of m outs c main_v120 (by decide)).trans <|
    (GenP.V46_of m outs c main_v120 (by decide)).trans <|
    (GenP.V45_of m outs c main_v120 (by decide)).trans <|
    (GenP.V44_of m outs c main_v120 (by decide)).trans <|
    (GenP.V43_of m outs c main_v120 (by decide)).trans <|
    (GenP.V42_of m outs c main_v120 (by decide)).trans <|
    (GenP.V41_of m outs c main_v120 (by decide)).trans <|
    (GenP.V40_of m outs c main_v120 (by decide)).trans <|
    (GenP.V39_of m outs c main_v120 (by decide)).trans <|
    (GenP.V38_of m outs c main_v120 (by decide)).trans <|
    (GenP.V37_of m outs c main_v120 (by decide)).trans rfl

/-- Entry `k` of the table call 1 finds, as an integer, from the flat entry `2048 k` of the padded vector it finds. -/
theorem tbl63_toInt (c : Dev nD) (k : S172.Idx) (j : S352256.Idx) (hj : (j 0).val = (k 0).val * 2048) :
    ((GenP.V32 m outs c main_v63 : S172.Idx → BitVec 32) k).toInt
      = min (max (8 * (((GenP.V32 m outs c main_v55 : S352256.Idx → BitVec 32) j).toInt / 8)) 0) 47944 := by
  rw [Hand.tbl63_V32, pad55_V32, tbl63_word m c k j hj, tblword_toInt]

/-- The same for call 4. -/
theorem tbl63_toInt4 (c : Dev nD) (k : S172.Idx) (j : S352256.Idx) (hj : (j 0).val = (k 0).val * 2048) :
    ((GenP.V43 m outs c main_v63 : S172.Idx → BitVec 32) k).toInt
      = min (max (8 * (((GenP.V43 m outs c main_v55 : S352256.Idx → BitVec 32) j).toInt / 8)) 0) 47944 := by
  rw [Hand.tbl63_V43, pad55_V43]
  exact tbl63_toInt m outs c k j hj

/-- Entry `k` of the table call 2 finds, as an integer, from the flat entry `2048 k` of the padded vector it finds. -/
theorem tbl128_toInt (c : Dev nD) (k : S904.Idx) (j : S1851392.Idx) (hj : (j 0).val = (k 0).val * 2048) :
    ((GenP.V36 m outs c main_v128 : S904.Idx → BitVec 32) k).toInt
      = min (max (8 * (((GenP.V36 m outs c main_v120 : S1851392.Idx → BitVec 32) j).toInt / 8)) 0) 47944 := by
  rw [Hand.tbl128_V36, pad120_V36, tbl128_word m c k j hj, tblword_toInt]

/-- The same for call 5. -/
theorem tbl128_toInt5 (c : Dev nD) (k : S904.Idx) (j : S1851392.Idx) (hj : (j 0).val = (k 0).val * 2048) :
    ((GenP.V47 m outs c main_v128 : S904.Idx → BitVec 32) k).toInt
      = min (max (8 * (((GenP.V47 m outs c main_v120 : S1851392.Idx → BitVec 32) j).toInt / 8)) 0) 47944 := by
  rw [Hand.tbl128_V47, pad120_V47]
  exact tbl128_toInt m outs c k j hj

/-- Every entry call 1 finds is, as an integer, in `[0, 47944]`, and its natural value is its integer one. -/
theorem tbl63_range (c : Dev nD) (k : S172.Idx) :
    0 ≤ ((GenP.V32 m outs c main_v63 : S172.Idx → BitVec 32) k).toInt ∧
      ((GenP.V32 m outs c main_v63 : S172.Idx → BitVec 32) k).toInt ≤ 47944 ∧
      ((GenP.V32 m outs c main_v63 : S172.Idx → BitVec 32) k).toNat
        = ((GenP.V32 m outs c main_v63 : S172.Idx → BitVec 32) k).toInt.toNat := by
  rw [Hand.tbl63_V32]
  exact word_range _ (Hand.tbl63_dvd_le m c k).2

/-- The same for call 4. -/
theorem tbl63_range4 (c : Dev nD) (k : S172.Idx) :
    0 ≤ ((GenP.V43 m outs c main_v63 : S172.Idx → BitVec 32) k).toInt ∧
      ((GenP.V43 m outs c main_v63 : S172.Idx → BitVec 32) k).toInt ≤ 47944 ∧
      ((GenP.V43 m outs c main_v63 : S172.Idx → BitVec 32) k).toNat
        = ((GenP.V43 m outs c main_v63 : S172.Idx → BitVec 32) k).toInt.toNat := by
  rw [Hand.tbl63_V43]
  exact tbl63_range m outs c k

/-- Every entry call 2 finds is, as an integer, in `[0, 47944]`, and its natural value is its integer one. -/
theorem tbl128_range (c : Dev nD) (k : S904.Idx) :
    0 ≤ ((GenP.V36 m outs c main_v128 : S904.Idx → BitVec 32) k).toInt ∧
      ((GenP.V36 m outs c main_v128 : S904.Idx → BitVec 32) k).toInt ≤ 47944 ∧
      ((GenP.V36 m outs c main_v128 : S904.Idx → BitVec 32) k).toNat
        = ((GenP.V36 m outs c main_v128 : S904.Idx → BitVec 32) k).toInt.toNat := by
  rw [Hand.tbl128_V36]
  exact word_range _ (Hand.tbl128_dvd_le m c k).2

/-- The same for call 5. -/
theorem tbl128_range5 (c : Dev nD) (k : S904.Idx) :
    0 ≤ ((GenP.V47 m outs c main_v128 : S904.Idx → BitVec 32) k).toInt ∧
      ((GenP.V47 m outs c main_v128 : S904.Idx → BitVec 32) k).toInt ≤ 47944 ∧
      ((GenP.V47 m outs c main_v128 : S904.Idx → BitVec 32) k).toNat
        = ((GenP.V47 m outs c main_v128 : S904.Idx → BitVec 32) k).toInt.toNat := by
  rw [Hand.tbl128_V47]
  exact tbl128_range m outs c k

end Cert.KernelIdeal.HandVal
-- ==== Proof.Math.SegSum.lean ====
import Mathlib.Data.EReal.Basic
import Mathlib.Algebra.BigOperators.Fin
import Mathlib.Algebra.BigOperators.Group.Finset.Basic

/-!
# The windowed, blocked scatter-add, as pure mathematics

Destination ids `T e` (integers) are listed in non-decreasing order and cut into
blocks of 2048 consecutive entries; the list is padded at the end with the value
50000 (the number of nodes).  Block `b` adds its entries into the window of 2056
rows starting at `start b`, the block's first id rounded down to a multiple of 8 and
clipped to `[0, 47944]`; an entry lands on row `T e - start b` of the window when
that is one of the 2056 rows, and nowhere otherwise.

Because every node id of `[0, 50000)` occurs in the list, consecutive in-range ids of
the sorted list differ by at most one, so the in-range ids of one block span at most
2047; rounding loses at most 7; `50000 - 47944 = 2056`.  Hence every in-range id of a
block lies inside the block's window, and the windowed sum at node `r` is the plain
sum of the entries whose id is `r`.

Values live in `EReal`; only that it is an additive commutative monoid with
`1 * x = x` and `0 * x = 0` is used.
-/

namespace Cert.Math.SegSum

open Finset

/-- The windowed sum at node `r`: over the blocks whose window holds `r`, the sum over
the block's 2048 entries of (one-hot of "local row of the entry = local row of `r`")
times the entry's value. -/
noncomputable def winSum (NB : ℕ) (start T : ℕ → ℤ) (u : ℕ → EReal) (r : ℤ) : EReal :=
  ∑ b ∈ range NB,
    if start b ≤ r ∧ r < start b + 2056 then
      ∑ k ∈ range 2048,
        (if T (b * 2048 + k) - start b = r - start b then (1 : EReal) else 0) * u (b * 2048 + k)
    else 0

theorem winSum_def (NB : ℕ) (start T : ℕ → ℤ) (u : ℕ → EReal) (r : ℤ) :
    winSum NB start T u r =
      ∑ b ∈ range NB,
        if start b ≤ r ∧ r < start b + 2056 then
          ∑ k ∈ range 2048,
            (if T (b * 2048 + k) - start b = r - start b then (1 : EReal) else 0)
              * u (b * 2048 + k)
        else 0 := rfl

section order
variable {M : ℕ} {T : ℕ → ℤ}

/-- One step of the sorted list climbs by at most one above `max (T j) 0`: the value
`max (T j) 0 + 1`, were it skipped, would be a node id that occurs nowhere. -/
theorem step_le
    (hmono : ∀ i j, i ≤ j → j < M → T i ≤ T j)
    (hfull : ∀ r : ℤ, 0 ≤ r → r < 50000 → ∃ e, e < M ∧ T e = r)
    {j : ℕ} (hj : j + 1 < M) (hn : T (j + 1) < 50000) :
    T (j + 1) ≤ max (T j) 0 + 1 := by
  by_contra hlt
  have hlt := not_le.1 hlt
  obtain ⟨e, heM, he⟩ := hfull (max (T j) 0 + 1) (by omega) (by omega)
  rcases Nat.lt_or_ge e (j + 1) with h | h
  · have := hmono e j (by omega) (by omega)
    omega
  · have := hmono (j + 1) e h heM
    omega

/-- Over `d` steps the sorted list climbs by at most `d` above `max (T i) 0`. -/
theorem spread_le
    (hmono : ∀ i j, i ≤ j → j < M → T i ≤ T j)
    (hfull : ∀ r : ℤ, 0 ≤ r → r < 50000 → ∃ e, e < M ∧ T e = r)
    (i : ℕ) : ∀ d : ℕ, i + d < M → T (i + d) < 50000 → T (i + d) ≤ max (T i) 0 + d := by
  intro d
  induction d with
  | zero => intro _ _; simp
  | succ d ih =>
    intro hM hn
    rw [show i + (d + 1) = i + d + 1 from rfl] at hM hn ⊢
    have h1 := hmono (i + d) (i + d + 1) (by omega) hM
    have h2 := ih (by omega) (by omega)
    have h3 := step_le hmono hfull (j := i + d) hM hn
    push_cast
    omega

/-- What is used of a window start `s` of a block whose first id is `x`. -/
theorem clip_spec (x : ℤ) :
    (0 ≤ min (max (8 * (x / 8)) 0) 47944) ∧ (min (max (8 * (x / 8)) 0) 47944 ≤ 47944) ∧
    (8 ∣ min (max (8 * (x / 8)) 0) 47944) ∧
    (min (max (8 * (x / 8)) 0) 47944 ≤ max x 0) ∧
    (min (max x 0 - 7) 47944 ≤ min (max (8 * (x / 8)) 0) 47944) := by
  refine ⟨by omega, by omega, ?_, by omega, by omega⟩
  omega

/-- THE WINDOW INVARIANT.  An in-range id of block `b` lies in the block's window. -/
theorem window_inv {NB : ℕ}
    (hmono : ∀ i j, i ≤ j → j < M → T i ≤ T j)
    (hpad : ∀ e, M ≤ e → e < NB * 2048 → T e = 50000)
    (hfull : ∀ r : ℤ, 0 ≤ r → r < 50000 → ∃ e, e < M ∧ T e = r)
    {start : ℕ → ℤ}
    (hstart : ∀ b, b < NB → start b = min (max (8 * (T (b * 2048) / 8)) 0) 47944)
    {b k : ℕ} (hb : b < NB) (hk : k < 2048)
    (h0 : 0 ≤ T (b * 2048 + k)) (hn : T (b * 2048 + k) < 50000) :
    start b ≤ T (b * 2048 + k) ∧ T (b * 2048 + k) < start b + 2056 := by
  have heM : b * 2048 + k < M := by
    by_contra hge
    have := hpad (b * 2048 + k) (by omega) (by
      have : (b + 1) * 2048 ≤ NB * 2048 := Nat.mul_le_mul_right _ hb
      omega)
    omega
  have h1 := hmono (b * 2048) (b * 2048 + k) (by omega) heM
  have h2 := spread_le hmono hfull (b * 2048) k heM hn
  have hs := hstart b hb
  omega

end order

/-- A sum over `NB * B` consecutive entries is the sum over the blocks of the sums over
each block. -/
theorem sum_blocks {α : Type*} [AddCommMonoid α] (f : ℕ → α) (B NB : ℕ) :
    ∑ e ∈ range (NB * B), f e = ∑ b ∈ range NB, ∑ k ∈ range B, f (b * B + k) := by
  induction NB with
  | zero => simp
  | succ n ih => rw [Nat.succ_mul, sum_range_add, ih, sum_range_succ]

/-- (4) the blocks are summed in two halves. -/
theorem sum_halves {α : Type*} [AddCommMonoid α] (f : ℕ → α) (half : ℕ) :
    ∑ b ∈ range (2 * half), f b
      = ∑ j ∈ range half, f (0 * half + j) + ∑ j ∈ range half, f (1 * half + j) := by
  rw [two_mul, sum_range_add]
  simp

/-- (2) the windowed sum at an in-range node is the plain sum of the entries with that
id. -/
theorem winSum_eq {NB M : ℕ} {T : ℕ → ℤ}
    (hmono : ∀ i j, i ≤ j → j < M → T i ≤ T j)
    (hpad : ∀ e, M ≤ e → e < NB * 2048 → T e = 50000)
    (hfull : ∀ r : ℤ, 0 ≤ r → r < 50000 → ∃ e, e < M ∧ T e = r)
    {start : ℕ → ℤ}
    (hstart : ∀ b, b < NB → start b = min (max (8 * (T (b * 2048) / 8)) 0) 47944)
    (u : ℕ → EReal) {r : ℤ} (hr0 : 0 ≤ r) (hrn : r < 50000) :
    winSum NB start T u r = ∑ e ∈ range (NB * 2048), if T e = r then u e else 0 := by
  rw [winSum_def, sum_blocks]
  refine sum_congr rfl fun b hb => ?_
  have hb' : b < NB := mem_range.1 hb
  by_cases hw : start b ≤ r ∧ r < start b + 2056
  · rw [if_pos hw]
    refine sum_congr rfl fun k _ => ?_
    by_cases hT : T (b * 2048 + k) = r
    · rw [if_pos hT, if_pos (by rw [hT]), one_mul]
    · rw [if_neg hT, if_neg (by omega), zero_mul]
  · rw [if_neg hw]
    symm
    refine sum_eq_zero fun k hk => ?_
    rw [if_neg]
    intro hT
    exact hw (hT ▸ window_inv hmono hpad hfull hstart hb' (mem_range.1 hk)
      (by rw [hT]; exact hr0) (by rw [hT]; exact hrn))

/-- The windowed sum over `n1 + n2` blocks is the windowed sum over the first `n1` plus the
windowed sum over the last `n2`, the lists of the latter read from block `n1` on. -/
theorem winSum_add (n1 n2 : ℕ) (start T : ℕ → ℤ) (u : ℕ → EReal) (r : ℤ) :
    winSum (n1 + n2) start T u r
      = winSum n1 start T u r
        + winSum n2 (fun b => start (n1 + b)) (fun e => T (n1 * 2048 + e)) (fun e => u (n1 * 2048 + e)) r := by
  have hidx : ∀ b k : ℕ, n1 * 2048 + (b * 2048 + k) = (n1 + b) * 2048 + k := by intro b k; ring
  simp only [winSum_def, sum_range_add, hidx]

/-- The same with both halves in the shifted shape: block offsets `b0 = 0` and `b1 = half`. -/
theorem winSum_two_halves (half b0 b1 : ℕ) (h0 : b0 = 0) (h1 : b1 = half) (start T : ℕ → ℤ) (u : ℕ → EReal)
    (r : ℤ) :
    winSum (2 * half) start T u r
      = winSum half (fun b => start (b0 + b)) (fun e => T (b0 * 2048 + e)) (fun e => u (b0 * 2048 + e)) r
        + winSum half (fun b => start (b1 + b)) (fun e => T (b1 * 2048 + e)) (fun e => u (b1 * 2048 + e)) r := by
  subst h0 h1
  rw [two_mul, winSum_add]
  simp only [zero_add, zero_mul]

/-- The padded tail (id 50000) contributes to no in-range node. -/
theorem sum_drop_pad {NB M : ℕ} {T : ℕ → ℤ}
    (hpad : ∀ e, M ≤ e → e < NB * 2048 → T e = 50000) (hM : M ≤ NB * 2048)
    (u : ℕ → EReal) {r : ℤ} (hrn : r < 50000) :
    (∑ e ∈ range (NB * 2048), if T e = r then u e else 0)
      = ∑ e ∈ range M, if T e = r then u e else 0 := by
  symm
  refine sum_subset (range_subset_range.2 hM) fun e he hne => ?_
  have h1 : e < NB * 2048 := mem_range.1 he
  have h2 : M ≤ e := by
    by_contra h
    exact hne (mem_range.2 (by omega))
  rw [if_neg]
  rw [hpad e h2 h1]
  omega

/-- (3) reindexing the real entries by the sorting bijection. -/
theorem sum_reindex {M : ℕ} (σ : Fin M → Fin M) (hσ : Function.Bijective σ)
    (t : Fin M → ℤ) (g : Fin M → EReal) (r : ℤ) :
    (∑ e : Fin M, if t (σ e) = r then g (σ e) else 0) = ∑ e' : Fin M, if t e' = r then g e' else 0 :=
  hσ.sum_comp fun e' => if t e' = r then g e' else 0

/-- (1)+(2)+(3) together.  `t` lists the destination ids and `g` the values in the
original order, `σ` is the sorting bijection, `T` and `u` are the sorted and padded
lists.  At an in-range node the windowed sum is the sum of the values of the entries
whose destination is that node. -/
theorem winSum_eq_ref {NB M : ℕ} {T : ℕ → ℤ} {start : ℕ → ℤ} {u : ℕ → EReal}
    (σ : Fin M → Fin M) (hσ : Function.Bijective σ) (t : Fin M → ℤ) (g : Fin M → EReal)
    (hT : ∀ e : Fin M, T e = t (σ e)) (hu : ∀ e : Fin M, u e = g (σ e))
    (hsorted : ∀ i j : Fin M, i ≤ j → t (σ i) ≤ t (σ j))
    (hloops : ∀ r : ℤ, 0 ≤ r → r < 50000 → ∃ e' : Fin M, t e' = r)
    (hpad : ∀ e, M ≤ e → e < NB * 2048 → T e = 50000) (hM : M ≤ NB * 2048)
    (hstart : ∀ b, b < NB → start b = min (max (8 * (T (b * 2048) / 8)) 0) 47944)
    {r : ℤ} (hr0 : 0 ≤ r) (hrn : r < 50000) :
    winSum NB start T u r = ∑ e' : Fin M, if t e' = r then g e' else 0 := by
  have hmono : ∀ i j, i ≤ j → j < M → T i ≤ T j := by
    intro i j hij hj
    have := hsorted ⟨i, by omega⟩ ⟨j, hj⟩ hij
    rw [← hT, ← hT] at this
    exact this
  have hfull : ∀ r : ℤ, 0 ≤ r → r < 50000 → ∃ e, e < M ∧ T e = r := by
    intro r h0 hn
    obtain ⟨e', he'⟩ := hloops r h0 hn
    obtain ⟨e, rfl⟩ := hσ.2 e'
    exact ⟨e, e.2, by rw [hT]; exact he'⟩
  rw [winSum_eq hmono hpad hfull hstart u hr0 hrn, sum_drop_pad hpad hM u hrn, sum_range,
    ← sum_reindex σ hσ t g r]
  refine sum_congr rfl fun e _ => ?_
  rw [hT, hu]

end Cert.Math.SegSum
-- ==== Proof.KI.SegVal1.lean ====
/- The value of the first segment-sum call at the extended reals. One grid point adds, into the 2056 rows of the
   slab that start at the point's window start, the product of a one-hot matrix (row r', column k: is the k-th id of
   the point's block, minus the window start, equal to r'?) with the block's 2048 value rows; the first point of a row
   of the grid starts from the zero slab. Read at one slab element this is a sum over the block's entries; iterated
   over the points of a row it is the windowed sum of the pure specification. -/
import proofs.«402757_j20469814133395_4_alg».proof.Proof.Gen.KernelIdeal.Skeleton
import proofs.«402757_j20469814133395_4_alg».proof.Proof.Math.SegSum
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen
open Idealize.ShloMosaic Idealize.ShloMosaic.ValueIdx
open Finset

/-! ## One point's step on the slab, at any float instance -/

section Step
variable {F : FTy → Type} [FloatOps F]

/-- The 2056 rows of the slab from the window start. -/
abbrev winRect (w : BitVec 32) (hchk : k1_chk1 w) : Rect S1x50000x64 :=
  Rect.unit (s := S1x50000x64) (k1_off2 w) S1x2056x64.size (k1_off2_inb w hchk)

/-- What one grid point leaves in the slab: from the zero slab at a row's first point, else from what the point
    before left, the window's rows replaced by themselves plus the one-hot product. -/
def slabStep (j0 : Bool) (w : BitVec 32) (hchk : k1_chk1 w) (tb : Vec F S1x2048 .i32) (vb : Vec F S2048x64 .bf16)
    (prev : Vec F S1x50000x64 .f32) : Vec F S1x50000x64 .f32 :=
  let base := if j0 then k1_pay1 else prev
  (winRect w hchk).overlay base (k1_pay2 w tb vb (View.ld base (winRect w hchk)))

end Step

/-! ## Words: the one-hot test as a test on integers -/

/-- For a window start w with w + 2056 ≤ 50000 and a local row r' < 2056, an id word t (ANY word) has
    t - w = r' as words exactly when its signed value minus the start is r'. -/
theorem word_test_iff (t w : BitVec 32) (r' : ℕ) (hw : w.toNat + 2056 ≤ 50000) (hr : r' < 2056) :
    t - w = BitVec.ofNat 32 r' ↔ t.toInt - (w.toNat : ℤ) = (r' : ℤ) := by
  have ht := t.isLt
  rw [← BitVec.toNat_inj, BitVec.toNat_sub, BitVec.toNat_ofNat, BitVec.toInt_eq_toNat_cond]
  constructor
  · intro h
    split <;> omega
  · intro h
    split at h <;> omega

/-- The window start's in-bounds fact, in numbers. -/
theorem chk_le (w : BitVec 32) (hchk : k1_chk1 w) : w.toNat + 2056 ≤ 50000 := hchk.2 1

/-! ## The payload at an element -/

/-- The one-hot product's term for entry k at local row r'. -/
abbrev hot (w : BitVec 32) (tb : Vec Ideal S1x2048 .i32) (vb : Vec Ideal S2048x64 .bf16) (r' : ℕ) (f : Fin 64) (k : Fin 2048) : EReal :=
  (if tb (ValueIdx.ix2 0 k) - w = BitVec.ofNat 32 r' then (1 : EReal) else 0) * vb (ValueIdx.ix2 k f)

/-- The comparison bit, widened and converted, is 1 or 0. -/
theorem onehot_word (x y : BitVec 32) :
    ((((BitVec.ofBool (x == y)).setWidth 32).toInt : ℝ) : EReal) = if y = x then 1 else 0 := by
  have h1 : ((BitVec.ofBool true).setWidth 32).toInt = 1 := by decide
  have h0 : ((BitVec.ofBool false).setWidth 32).toInt = 0 := by decide
  by_cases h : y = x
  · subst h
    rw [if_pos rfl, beq_self_eq_true, h1]; norm_num
  · have hb : (x == y) = false := beq_eq_false_iff_ne.mpr fun e => h e.symm
    rw [if_neg h, hb, h0]; norm_num

/-! The product's operand indices: the left operand at (row, entry), the right at (entry, feature). -/
theorem lhs_seg_0 (i : S2056x64.Idx) (q : dot_S2056x2048_S2048x64_S2056x64_1_0_0_1_n_n.contr.Idx) :
    (dot_S2056x2048_S2048x64_S2056x64_1_0_0_1_n_n.lhsIdx i q 0).val = (i 0).val := by
  unfold DotDims.lhsIdx
  rw [dif_neg (show ¬(0 : Fin S2056x2048.rank) ∈ dot_S2056x2048_S2048x64_S2056x64_1_0_0_1_n_n.lhsBatch by decide), dif_pos (show (0 : Fin S2056x2048.rank) ∈ dot_S2056x2048_S2048x64_S2056x64_1_0_0_1_n_n.lhsNonContracting by decide)]
  rfl
theorem lhs_seg_1 (i : S2056x64.Idx) (q : dot_S2056x2048_S2048x64_S2056x64_1_0_0_1_n_n.contr.Idx) :
    (dot_S2056x2048_S2048x64_S2056x64_1_0_0_1_n_n.lhsIdx i q 1).val = (q ⟨0, by decide⟩).val :=
  dot_S2056x2048_S2048x64_S2056x64_1_0_0_1_n_n.lhsIdx_val_of_single rfl i q
theorem rhs_seg_0 (i : S2056x64.Idx) (q : dot_S2056x2048_S2048x64_S2056x64_1_0_0_1_n_n.contr.Idx) :
    (dot_S2056x2048_S2048x64_S2056x64_1_0_0_1_n_n.rhsIdx i q 0).val = (q ⟨0, by decide⟩).val :=
  dot_S2056x2048_S2048x64_S2056x64_1_0_0_1_n_n.rhsIdx_val_of_single rfl i q
theorem rhs_seg_1 (i : S2056x64.Idx) (q : dot_S2056x2048_S2048x64_S2056x64_1_0_0_1_n_n.contr.Idx) :
    (dot_S2056x2048_S2048x64_S2056x64_1_0_0_1_n_n.rhsIdx i q 1).val = (i 1).val := by
  unfold DotDims.rhsIdx
  rw [dif_neg (show ¬(1 : Fin S2048x64.rank) ∈ dot_S2056x2048_S2048x64_S2056x64_1_0_0_1_n_n.rhsBatch by decide), dif_pos (show (1 : Fin S2048x64.rank) ∈ dot_S2056x2048_S2048x64_S2056x64_1_0_0_1_n_n.rhsNonContracting by decide)]
  rfl

/-- The one-hot matrix at (r', k): is the k-th id minus the start the row r'? -/
theorem onehot_apply (w : BitVec 32) (tb : Vec Ideal S1x2048 .i32) (r' : Fin 2056) (k : Fin 2048) :
    (truncf .bf16 (sitofp (F := Ideal) .f32 (extui 32 (cmpi .eq (iota .tc S2056x2048 32 [0] iota_S2056x2048_d0_w32)
        (broadcastTo S2056x2048 (subi (shapeCast S1x2048 tb shapeCasts_S1x2048_S1x2048) (broadcast S1x2048 w)) broadcasts_S1x2048_S2056x2048)) natLt_1_32)) bitsLt_bf16_f32
      : FVec Ideal S2056x2048 .bf16) (ValueIdx.ix2 r' k)
      = if tb (ValueIdx.ix2 0 k) - w = BitVec.ofNat 32 r'.val then (1 : EReal) else 0 := by
  rw [shapeCast_self]
  show ((((BitVec.ofBool (iota .tc S2056x2048 32 [0] iota_S2056x2048_d0_w32 (ValueIdx.ix2 r' k)
      == broadcastTo S2056x2048 (subi tb (broadcast S1x2048 w)) broadcasts_S1x2048_S2056x2048 (ValueIdx.ix2 r' k))).setWidth 32).toInt : ℝ) : EReal) = _
  rw [onehot_word, iota_single_apply,
    broadcastTo_apply (subi tb (broadcast S1x2048 w)) broadcasts_S1x2048_S2056x2048 (ValueIdx.ix2 r' k) (ValueIdx.ix2 0 k)
      (fun a => match a with | ⟨0, _⟩ => rfl | ⟨1, _⟩ => rfl)]
  rfl

theorem k1_pay2_apply (w : BitVec 32) (tb : Vec Ideal S1x2048 .i32) (vb : Vec Ideal S2048x64 .bf16)
    (cur : Vec Ideal S1x2056x64 .f32) (r' : Fin 2056) (f : Fin 64) :
    k1_pay2 (F := Ideal) w tb vb cur (ValueIdx.ix3 0 r' f) = cur (ValueIdx.ix3 0 r' f) + ∑ k : Fin 2048, hot w tb vb r'.val f k := by
  unfold k1_pay2
  show shapeCast S1x2056x64 (addf (shapeCast S2056x64 cur shapeCasts_S1x2056x64_S2056x64)
      (matmul dot_S2056x2048_S2048x64_S2056x64_1_0_0_1_n_n none
        (truncf .bf16 (sitofp (F := Ideal) .f32 (extui 32 (cmpi .eq (iota .tc S2056x2048 32 [0] iota_S2056x2048_d0_w32)
          (broadcastTo S2056x2048 (subi (shapeCast S1x2048 tb shapeCasts_S1x2048_S1x2048) (broadcast S1x2048 w)) broadcasts_S1x2048_S2056x2048)) natLt_1_32)) bitsLt_bf16_f32)
        (shapeCast S2048x64 vb shapeCasts_S2048x64_S2048x64) (constant S2056x64 .f32 0x00000000#32)))
      shapeCasts_S2056x64_S1x2056x64 (ValueIdx.ix3 0 r' f) = _
  rw [shapeCast_ab_1ab_apply, addf_apply, shapeCast_1ab_ab_apply, shapeCast_self vb]
  simp only [matmul]
  rw [Ideal.matmul_constant_zero_apply, ← Equiv.sum_comp (ValueIdx.contrEquiv1 dot_S2056x2048_S2048x64_S2056x64_1_0_0_1_n_n 2048 rfl rfl).symm]
  congr 1
  refine Finset.sum_congr rfl fun k _ => ?_
  have hk := ValueIdx.contrEquiv1_symm_val dot_S2056x2048_S2048x64_S2056x64_1_0_0_1_n_n 2048 rfl rfl k
  have el : dot_S2056x2048_S2048x64_S2056x64_1_0_0_1_n_n.lhsIdx (ValueIdx.ix2 r' f) ((ValueIdx.contrEquiv1 dot_S2056x2048_S2048x64_S2056x64_1_0_0_1_n_n 2048 rfl rfl).symm k) = ValueIdx.ix2 r' k := funext fun a => Fin.ext (by
    match a with
    | ⟨0, _⟩ => exact lhs_seg_0 _ _
    | ⟨1, _⟩ => exact (lhs_seg_1 _ _).trans hk)
  have er : dot_S2056x2048_S2048x64_S2056x64_1_0_0_1_n_n.rhsIdx (ValueIdx.ix2 r' f) ((ValueIdx.contrEquiv1 dot_S2056x2048_S2048x64_S2056x64_1_0_0_1_n_n 2048 rfl rfl).symm k) = ValueIdx.ix2 k f := funext fun a => Fin.ext (by
    match a with
    | ⟨0, _⟩ => exact (rhs_seg_0 _ _).trans hk
    | ⟨1, _⟩ => exact rhs_seg_1 _ _)
  rw [el, er, onehot_apply]

theorem k1_pay1_apply (i : S1x50000x64.Idx) : k1_pay1 (F := Ideal) i = 0 := by
  unfold k1_pay1
  show Ideal.ofBits .f32 0x00000000#32 = 0
  exact Ideal.ofBits_zero_f32

/-! ## One step at an element -/

/-- A slab element is in the window exactly when its row is one of the window's 2056. -/
theorem mem_winRect (w : BitVec 32) (hchk : k1_chk1 w) (r : Fin 50000) (f : Fin 64) :
    (ValueIdx.ix3 (0 : Fin 1) r f : S1x50000x64.Idx) ∈ (winRect w hchk).set ↔ (w.toNat ≤ r.val ∧ r.val < w.toNat + 2056) := by
  rw [Rect.mem_set_unit]
  constructor
  · intro h; exact h 1
  · intro h a
    match a with
    | ⟨0, _⟩ => exact ⟨Nat.le_refl 0, Nat.zero_lt_one⟩
    | ⟨1, _⟩ => exact h
    | ⟨2, _⟩ => exact ⟨Nat.zero_le _, (Nat.zero_add 64).symm ▸ f.isLt⟩

/-- The window's rows replaced by themselves plus the one-hot product, read at a slab element, from any slab. -/
theorem overlayStep_apply (w : BitVec 32) (hchk : k1_chk1 w) (tb : Vec Ideal S1x2048 .i32) (vb : Vec Ideal S2048x64 .bf16)
    (base : Vec Ideal S1x50000x64 .f32) (r : Fin 50000) (f : Fin 64) :
    (winRect w hchk).overlay base (k1_pay2 w tb vb (View.ld base (winRect w hchk))) (ValueIdx.ix3 0 r f)
      = base (ValueIdx.ix3 0 r f)
        + (if w.toNat ≤ r.val ∧ r.val < w.toNat + 2056 then ∑ k : Fin 2048, hot w tb vb (r.val - w.toNat) f k else 0) := by
  have hle := chk_le w hchk
  by_cases hin : w.toNat ≤ r.val ∧ r.val < w.toNat + 2056
  · rw [if_pos hin]
    have hr' : r.val - w.toNat < 2056 := by omega
    have he : (winRect w hchk).emb (ValueIdx.ix3 (0 : Fin 1) (⟨r.val - w.toNat, hr'⟩ : Fin 2056) f) = ValueIdx.ix3 0 r f := by
      funext a; refine Fin.ext ?_
      match a with
      | ⟨0, _⟩ => rfl
      | ⟨1, _⟩ => show w.toNat + 1 * (r.val - w.toNat) = r.val; omega
      | ⟨2, _⟩ => show 0 + 1 * f.val = f.val; omega
    rw [← he, Rect.overlay_emb, k1_pay2_apply]
    exact rfl
  · rw [if_neg hin, add_zero]
    exact Rect.overlay_of_not_mem _ _ _ (fun h => hin ((mem_winRect w hchk r f).mp h))

theorem slabStep_apply (j0 : Bool) (w : BitVec 32) (hchk : k1_chk1 w) (tb : Vec Ideal S1x2048 .i32) (vb : Vec Ideal S2048x64 .bf16)
    (prev : Vec Ideal S1x50000x64 .f32) (r : Fin 50000) (f : Fin 64) :
    slabStep j0 w hchk tb vb prev (ValueIdx.ix3 0 r f)
      = (if j0 then 0 else prev (ValueIdx.ix3 0 r f))
        + (if w.toNat ≤ r.val ∧ r.val < w.toNat + 2056 then ∑ k : Fin 2048, hot w tb vb (r.val - w.toNat) f k else 0) := by
  unfold slabStep
  refine (overlayStep_apply w hchk tb vb _ r f).trans ?_
  refine congrArg (· + _) ?_
  cases j0
  · rw [if_neg Bool.false_ne_true, if_neg Bool.false_ne_true]
  · rw [if_pos rfl, if_pos rfl]; exact k1_pay1_apply _

/-! ## A row of the grid -/

/-- Any sequence of slabs that starts a row by a first-point step and continues by later-point steps holds, after
    point j, the sum over the points so far of their windows' one-hot products. -/
theorem row_apply (w : ℕ → BitVec 32) (hchk : ∀ j, k1_chk1 (w j)) (tb : ℕ → Vec Ideal S1x2048 .i32) (vb : ℕ → Vec Ideal S2048x64 .bf16)
    (X : ℕ → Vec Ideal S1x50000x64 .f32) (n : ℕ)
    (h0 : ∃ prev, X 0 = slabStep true (w 0) (hchk 0) (tb 0) (vb 0) prev)
    (hs : ∀ j, j + 1 < n → X (j + 1) = slabStep false (w (j + 1)) (hchk (j + 1)) (tb (j + 1)) (vb (j + 1)) (X j))
    (r : Fin 50000) (f : Fin 64) : ∀ j, j < n →
    X j (ValueIdx.ix3 0 r f) = ∑ i ∈ range (j + 1),
      if (w i).toNat ≤ r.val ∧ r.val < (w i).toNat + 2056 then ∑ k : Fin 2048, hot (w i) (tb i) (vb i) (r.val - (w i).toNat) f k else 0 := by
  intro j
  induction j with
  | zero =>
    intro _
    obtain ⟨prev, h⟩ := h0
    rw [h, slabStep_apply, Finset.sum_range_one, if_pos rfl, zero_add]
  | succ j ih =>
    intro hj
    rw [hs j hj, slabStep_apply, ih (by omega), Finset.sum_range_succ _ (j + 1), if_neg Bool.false_ne_true]

/-- The same as the windowed sum of the specification over the row's blocks b0 … b0 + n - 1: start, T and u are
    the starts, the ids (signed) and the values of feature f, listed block after block. -/
theorem row_eq_winSum (w : ℕ → BitVec 32) (hchk : ∀ j, k1_chk1 (w j)) (tb : ℕ → Vec Ideal S1x2048 .i32) (vb : ℕ → Vec Ideal S2048x64 .bf16)
    (X : ℕ → Vec Ideal S1x50000x64 .f32) (n : ℕ)
    (h0 : ∃ prev, X 0 = slabStep true (w 0) (hchk 0) (tb 0) (vb 0) prev)
    (hs : ∀ j, j + 1 < n + 1 → X (j + 1) = slabStep false (w (j + 1)) (hchk (j + 1)) (tb (j + 1)) (vb (j + 1)) (X j))
    (r : Fin 50000) (f : Fin 64) (b0 : ℕ) (start T : ℕ → ℤ) (u : ℕ → EReal)
    (hstart : ∀ j, j < n + 1 → ((w j).toNat : ℤ) = start (b0 + j))
    (hT : ∀ j, j < n + 1 → ∀ k : Fin 2048, (tb j (ValueIdx.ix2 0 k)).toInt = T ((b0 + j) * 2048 + k.val))
    (hu : ∀ j, j < n + 1 → ∀ k : Fin 2048, vb j (ValueIdx.ix2 k f) = u ((b0 + j) * 2048 + k.val)) :
    X n (ValueIdx.ix3 0 r f) = Cert.Math.SegSum.winSum (n + 1) (fun b => start (b0 + b)) (fun e => T (b0 * 2048 + e)) (fun e => u (b0 * 2048 + e)) (r.val : ℤ) := by
  rw [row_apply w hchk tb vb X (n + 1) h0 hs r f n (Nat.lt_succ_self n)]
  simp only [Cert.Math.SegSum.winSum_def]
  refine Finset.sum_congr rfl fun i hi => ?_
  have hi' : i < n + 1 := Finset.mem_range.mp hi
  have hst := hstart i hi'
  have hle := chk_le (w i) (hchk i)
  have hcond : ((w i).toNat ≤ r.val ∧ r.val < (w i).toNat + 2056)
      ↔ (start (b0 + i) ≤ (r.val : ℤ) ∧ (r.val : ℤ) < start (b0 + i) + 2056) := by
    rw [← hst]; omega
  by_cases hc : (w i).toNat ≤ r.val ∧ r.val < (w i).toNat + 2056
  · rw [if_pos hc, if_pos (hcond.mp hc), Finset.sum_range]
    refine Finset.sum_congr rfl fun k _ => ?_
    have e : b0 * 2048 + (i * 2048 + k.val) = (b0 + i) * 2048 + k.val := by ring
    rw [e, ← hT i hi' k, ← hu i hi' k, ← hst]
    refine congrArg (· * vb i (ValueIdx.ix2 k f)) (if_congr ?_ rfl rfl)
    rw [word_test_iff _ _ _ hle (by omega)]
    omega
  · rw [if_neg hc, if_neg (fun h => hc (hcond.mpr h))]

end Cert.KernelIdeal.HandVal

end
-- ==== Proof.KI.SegVal1Row.lean ====
/- The first segment-sum call's slab after a whole row of the grid, at the extended reals: the windowed sum of the
   pure specification over the row's 86 blocks, read at one slab element. The accumulation of the call's proof data is
   a row of steps in the sense of the value lemmas; the window starts are the table's words, the ids and the values the
   two input windows' blocks, and each block is the array's block row (values) or block column (ids) of the point. -/
import proofs.«402757_j20469814133395_4_alg».proof.Proof.KI.SegVal1
import proofs.«402757_j20469814133395_4_alg».proof.Proof.KI.SegDat1

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A window start that passes the body's check is below 2^31: its signed and unsigned readings agree. -/
theorem start_toInt (w : BitVec 32) (hchk : k1_chk1 w) : w.toInt = (w.toNat : ℤ) := by
  have hle := chk_le w hchk
  rw [BitVec.toInt_eq_toNat_cond]
  split <;> omega

/-! ## The input windows' blocks, read off their arrays (at any float instance) -/

section Blocks
variable {F : FTy → Type} [FloatOps F]
variable (V : (c : Dev nD) → (b : Ref sig .tc) → Buf (Elt F) ((c : Thread nD τ).loc b))
variable (a : (pcfg1 (F := F)).Adm)

/-- The two input windows' block indices at point t: block row t of the values, block column t of the ids. -/
theorem idx_facts1 : ∀ t : Fin grid1.N, cc1_transform_0 (grid1.coords t) 0 = t.val ∧ cc1_transform_0 (grid1.coords t) 1 = 0
    ∧ cc1_transform_1 (grid1.coords t) 0 = 0 ∧ cc1_transform_1 (grid1.coords t) 1 = t.val := by decide +kernel

/-- Entry k, feature f of the values' block at point t is row 2048 t + k of the values' array. -/
theorem iblk1_0_at (c : Dev nD) (t : Fin (cfg1 a).N) (k : Fin 2048) (f : Fin 64) (i : S352256x64.Idx)
    (hi0 : (i 0).val = t.val * 2048 + k.val) (hi1 : (i 1).val = f.val) :
    (iblk1 V a c 0 t : Vec F S2048x64 .bf16) (ValueIdx.ix2 k f) = (V c (Pipeline.arrRef spec1 0) : S352256x64.Idx → Elt F .bf16) i := by
  show (V c (Pipeline.arrRef spec1 0) : S352256x64.Idx → Elt F .bf16) ((((cfg1 a).win 0).blk t).view.emb (ValueIdx.ix2 k f)) = _
  refine congrArg _ (funext fun b => Fin.ext ?_)
  obtain ⟨e0, e1, e2, e3⟩ := idx_facts1 t
  match b with
  | ⟨0, _⟩ =>
    show cc1_transform_0 (grid1.coords t) (0 : Fin 2) * 2048 + 1 * k.val = (i 0).val
    rw [e0, hi0]; omega
  | ⟨1, _⟩ =>
    show cc1_transform_0 (grid1.coords t) (1 : Fin 2) * 64 + 1 * f.val = (i 1).val
    rw [e1, hi1]; omega

/-- Entry k of the ids' block at point t is entry 2048 t + k of the ids' array. -/
theorem iblk1_1_at (c : Dev nD) (t : Fin (cfg1 a).N) (k : Fin 2048) (i : S1x352256.Idx)
    (hi1 : (i 1).val = t.val * 2048 + k.val) :
    (iblk1 V a c 1 t : Vec F S1x2048 .i32) (ValueIdx.ix2 0 k) = (V c (Pipeline.arrRef spec1 1) : S1x352256.Idx → Elt F .i32) i := by
  show (V c (Pipeline.arrRef spec1 1) : S1x352256.Idx → Elt F .i32) ((((cfg1 a).win 1).blk t).view.emb (ValueIdx.ix2 0 k)) = _
  refine congrArg _ (funext fun b => Fin.ext ?_)
  obtain ⟨e0, e1, e2, e3⟩ := idx_facts1 t
  match b with
  | ⟨0, _⟩ =>
    show cc1_transform_1 (grid1.coords t) (0 : Fin 2) * 1 + 1 * 0 = (i 0).val
    have h0 : (i 0).val < 1 := (i 0).isLt
    rw [e2]; omega
  | ⟨1, _⟩ =>
    show cc1_transform_1 (grid1.coords t) (1 : Fin 2) * 2048 + 1 * k.val = (i 1).val
    rw [e3, hi1]; omega

end Blocks

/-! ## A row of the accumulation -/

section Row
variable (V : (c : Dev nD) → (b : Ref sig .tc) → Buf (Elt Ideal) ((c : Thread nD τ).loc b))
variable (a : (pcfg1 (F := Ideal)).Adm)
variable (htbl : ∀ (c : Dev nD) (i : grid1.Coords), k1_chk1 (word1 c i tbM1 (tbl1 a c)))

/-- Point j of row p of the grid (clamped into the grid, so that it is a point for every j). -/
def pt (p : Fin 2) (j : ℕ) : Fin (cfg1 a).N :=
  ⟨min (p.val * 86 + j) 171, lt_of_lt_of_eq (by omega) (show (cfg1 a).N = 172 from N_1).symm⟩

theorem pt_val (p : Fin 2) (j : ℕ) (hj : j < 86) : (pt a p j).val = p.val * 86 + j := by
  show min (p.val * 86 + j) 171 = _
  have := p.isLt; omega

/-- The accumulation at equal positions. -/
theorem outs_congr (c : Dev nD) {n n' : ℕ} (h : n = n') (hn : n < (cfg1 a).N) (hn' : n' < (cfg1 a).N) :
    outsAt1 V a htbl c n hn = outsAt1 V a htbl c n' hn' := by
  subst h; rfl

/-- A point's step is a step of the value lemmas. -/
theorem stepAt1_eq (c : Dev nD) (t : Fin (cfg1 a).N) (prev : Vec Ideal S1x50000x64 .f32) (b : Bool)
    (hb : decide (((grid1.coords t) 1).val = 0) = b) :
    stepAt1 V a htbl c t prev
      = slabStep b (word1 c (grid1.coords t) tbM1 (tbl1 a c)) (htbl c (grid1.coords t)) (iblk1 V a c 1 t) (iblk1 V a c 0 t) prev := by
  subst hb; rfl

/-- THE ROW. After the last point of row p the slab holds, at node r and feature f, the windowed sum over the row's
    86 blocks: start, T and u list the window starts, the ids (signed) and the values of feature f, point after point. -/
theorem outs_row (c : Dev nD) (p : Fin 2) (r : Fin 50000) (f : Fin 64) (start T : ℕ → ℤ) (u : ℕ → EReal)
    (hstart : ∀ t : Fin (cfg1 a).N, (word1 c (grid1.coords t) tbM1 (tbl1 a c)).toInt = start t.val)
    (hT : ∀ (t : Fin (cfg1 a).N) (k : Fin 2048),
      ((iblk1 V a c 1 t : Vec Ideal S1x2048 .i32) (ValueIdx.ix2 0 k)).toInt = T (t.val * 2048 + k.val))
    (hu : ∀ (t : Fin (cfg1 a).N) (k : Fin 2048),
      (iblk1 V a c 0 t : Vec Ideal S2048x64 .bf16) (ValueIdx.ix2 k f) = u (t.val * 2048 + k.val))
    (hn : p.val * 86 + 85 < (cfg1 a).N) :
    outsAt1 V a htbl c (p.val * 86 + 85) hn (ValueIdx.ix3 0 r f)
      = Cert.Math.SegSum.winSum 86 (fun b => start (p.val * 86 + b)) (fun e => T (p.val * 86 * 2048 + e))
          (fun e => u (p.val * 86 * 2048 + e)) (r.val : ℤ) := by
  have hp := p.isLt
  rw [outs_congr V a htbl c (pt_val a p 85 (by omega)).symm hn (pt a p 85).isLt]
  refine row_eq_winSum (fun j => word1 c (grid1.coords (pt a p j)) tbM1 (tbl1 a c)) (fun j => htbl c _)
    (fun j => iblk1 V a c 1 (pt a p j)) (fun j => iblk1 V a c 0 (pt a p j))
    (fun j => outsAt1 V a htbl c (pt a p j).val (pt a p j).isLt) 85 ?_ ?_ r f (p.val * 86) start T u ?_ ?_ ?_
  · refine ⟨k1_pay1 (F := Ideal), ?_⟩
    have h0 : (pt a p 0).val % 86 = 0 := by rw [pt_val a p 0 (by omega)]; omega
    exact (outsAt1_eq V a htbl c (pt a p 0) (k1_pay1 (F := Ideal)) (.inl h0)).trans
      (stepAt1_eq V a htbl c _ _ true (decide_eq_true (by rw [coords1_1]; exact h0)))
  · intro j hj
    have hv : (pt a p (j + 1)).val = p.val * 86 + (j + 1) := pt_val a p (j + 1) (by omega)
    have hv' : (pt a p j).val = p.val * 86 + j := pt_val a p j (by omega)
    have hne : ¬((pt a p (j + 1)).val % 86 = 0) := by rw [hv]; omega
    exact (outsAt1_eq V a htbl c (pt a p (j + 1)) _
        (.inr ⟨by rw [hv]; omega, outs_congr V a htbl c (by rw [hv, hv']; omega) _ _⟩)).trans
      (stepAt1_eq V a htbl c _ _ false (decide_eq_false (by rw [coords1_1]; exact hne)))
  · intro j hj
    show ((word1 c (grid1.coords (pt a p j)) tbM1 (tbl1 a c)).toNat : ℤ) = start (p.val * 86 + j)
    rw [← start_toInt _ (htbl c _), hstart, pt_val a p j hj]
  · intro j hj k
    show ((iblk1 V a c 1 (pt a p j) : Vec Ideal S1x2048 .i32) (ValueIdx.ix2 0 k)).toInt = _
    rw [hT, pt_val a p j hj]
  · intro j hj k
    show (iblk1 V a c 0 (pt a p j) : Vec Ideal S2048x64 .bf16) (ValueIdx.ix2 k f) = _
    rw [hu, pt_val a p j hj]

end Row

end Cert.KernelIdeal.HandVal

end
-- ==== Proof.KI.SegVal2.lean ====
/- The value of segment-sum call 2 at the extended reals (the same mathematics as the first call's, at this call's shapes). One grid point adds, into the 2056 rows of the
   slab that start at the point's window start, the product of a one-hot2 matrix (row r', column k: is the k-th id of
   the point's block, minus the window start, equal to r'?) with the block's 2048 value rows; the first point of a row
   of the grid starts from the zero slab. Read at one slab element this is a sum over the block's entries; iterated
   over the points of a row it is the windowed sum of the pure specification. -/
import proofs.«402757_j20469814133395_4_alg».proof.Proof.Gen.KernelIdeal.Skeleton
import proofs.«402757_j20469814133395_4_alg».proof.Proof.Math.SegSum
import proofs.«402757_j20469814133395_4_alg».proof.Proof.KI.SegVal1
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen
open Idealize.ShloMosaic Idealize.ShloMosaic.ValueIdx
open Finset

/-! ## One point's step on the slab, at any float instance -/

section Step
variable {F : FTy → Type} [FloatOps F]

/-- The 2056 rows of the slab from the window start. -/
abbrev winRect2 (w : BitVec 32) (hchk : k2_chk1 w) : Rect S1x50000x64 :=
  Rect.unit (s := S1x50000x64) (k2_off2 w) S1x2056x64.size (k2_off2_inb w hchk)

/-- What one grid point leaves in the slab: from the zero slab at a row's first point, else from what the point
    before left, the window's rows replaced by themselves plus the one-hot2 product. -/
def slabStep2 (j0 : Bool) (w : BitVec 32) (hchk : k2_chk1 w) (tb : Vec F S1x2048 .i32) (vb : Vec F S2048x64 .bf16)
    (prev : Vec F S1x50000x64 .f32) : Vec F S1x50000x64 .f32 :=
  let base := if j0 then k2_pay1 else prev
  (winRect2 w hchk).overlay base (k2_pay2 w tb vb (View.ld base (winRect2 w hchk)))

end Step

/-! ## Words: the one-hot2 test as a test on integers -/

/-- The window start's in-bounds fact, in numbers. -/
theorem chk_le2 (w : BitVec 32) (hchk : k2_chk1 w) : w.toNat + 2056 ≤ 50000 := hchk.2 1

/-! ## The payload at an element -/

/-- The one-hot2 product's term for entry k at local row r'. -/
abbrev hot2 (w : BitVec 32) (tb : Vec Ideal S1x2048 .i32) (vb : Vec Ideal S2048x64 .bf16) (r' : ℕ) (f : Fin 64) (k : Fin 2048) : EReal :=
  (if tb (ValueIdx.ix2 0 k) - w = BitVec.ofNat 32 r' then (1 : EReal) else 0) * vb (ValueIdx.ix2 k f)

/-! The product's operand indices: the left operand at (row, entry), the right at (entry, feature). -/
theorem lhs_seg2_0 (i : S2056x64.Idx) (q : dot_S2056x2048_S2048x64_S2056x64_1_0_0_1_n_n.contr.Idx) :
    (dot_S2056x2048_S2048x64_S2056x64_1_0_0_1_n_n.lhsIdx i q 0).val = (i 0).val := by
  unfold DotDims.lhsIdx
  rw [dif_neg (show ¬(0 : Fin S2056x2048.rank) ∈ dot_S2056x2048_S2048x64_S2056x64_1_0_0_1_n_n.lhsBatch by decide), dif_pos (show (0 : Fin S2056x2048.rank) ∈ dot_S2056x2048_S2048x64_S2056x64_1_0_0_1_n_n.lhsNonContracting by decide)]
  rfl
theorem lhs_seg2_1 (i : S2056x64.Idx) (q : dot_S2056x2048_S2048x64_S2056x64_1_0_0_1_n_n.contr.Idx) :
    (dot_S2056x2048_S2048x64_S2056x64_1_0_0_1_n_n.lhsIdx i q 1).val = (q ⟨0, by decide⟩).val :=
  dot_S2056x2048_S2048x64_S2056x64_1_0_0_1_n_n.lhsIdx_val_of_single rfl i q
theorem rhs_seg2_0 (i : S2056x64.Idx) (q : dot_S2056x2048_S2048x64_S2056x64_1_0_0_1_n_n.contr.Idx) :
    (dot_S2056x2048_S2048x64_S2056x64_1_0_0_1_n_n.rhsIdx i q 0).val = (q ⟨0, by decide⟩).val :=
  dot_S2056x2048_S2048x64_S2056x64_1_0_0_1_n_n.rhsIdx_val_of_single rfl i q
theorem rhs_seg2_1 (i : S2056x64.Idx) (q : dot_S2056x2048_S2048x64_S2056x64_1_0_0_1_n_n.contr.Idx) :
    (dot_S2056x2048_S2048x64_S2056x64_1_0_0_1_n_n.rhsIdx i q 1).val = (i 1).val := by
  unfold DotDims.rhsIdx
  rw [dif_neg (show ¬(1 : Fin S2048x64.rank) ∈ dot_S2056x2048_S2048x64_S2056x64_1_0_0_1_n_n.rhsBatch by decide), dif_pos (show (1 : Fin S2048x64.rank) ∈ dot_S2056x2048_S2048x64_S2056x64_1_0_0_1_n_n.rhsNonContracting by decide)]
  rfl

/-- The one-hot2 matrix at (r', k): is the k-th id minus the start the row r'? -/
theorem onehot_apply2 (w : BitVec 32) (tb : Vec Ideal S1x2048 .i32) (r' : Fin 2056) (k : Fin 2048) :
    (truncf .bf16 (sitofp (F := Ideal) .f32 (extui 32 (cmpi .eq (iota .tc S2056x2048 32 [0] iota_S2056x2048_d0_w32)
        (broadcastTo S2056x2048 (subi (shapeCast S1x2048 tb shapeCasts_S1x2048_S1x2048) (broadcast S1x2048 w)) broadcasts_S1x2048_S2056x2048)) natLt_1_32)) bitsLt_bf16_f32
      : FVec Ideal S2056x2048 .bf16) (ValueIdx.ix2 r' k)
      = if tb (ValueIdx.ix2 0 k) - w = BitVec.ofNat 32 r'.val then (1 : EReal) else 0 := by
  rw [shapeCast_self]
  show ((((BitVec.ofBool (iota .tc S2056x2048 32 [0] iota_S2056x2048_d0_w32 (ValueIdx.ix2 r' k)
      == broadcastTo S2056x2048 (subi tb (broadcast S1x2048 w)) broadcasts_S1x2048_S2056x2048 (ValueIdx.ix2 r' k))).setWidth 32).toInt : ℝ) : EReal) = _
  rw [onehot_word, iota_single_apply,
    broadcastTo_apply (subi tb (broadcast S1x2048 w)) broadcasts_S1x2048_S2056x2048 (ValueIdx.ix2 r' k) (ValueIdx.ix2 0 k)
      (fun a => match a with | ⟨0, _⟩ => rfl | ⟨1, _⟩ => rfl)]
  rfl

theorem k2_pay2_apply (w : BitVec 32) (tb : Vec Ideal S1x2048 .i32) (vb : Vec Ideal S2048x64 .bf16)
    (cur : Vec Ideal S1x2056x64 .f32) (r' : Fin 2056) (f : Fin 64) :
    k2_pay2 (F := Ideal) w tb vb cur (ValueIdx.ix3 0 r' f) = cur (ValueIdx.ix3 0 r' f) + ∑ k : Fin 2048, hot2 w tb vb r'.val f k := by
  unfold k2_pay2
  show shapeCast S1x2056x64 (addf (shapeCast S2056x64 cur shapeCasts_S1x2056x64_S2056x64)
      (matmul dot_S2056x2048_S2048x64_S2056x64_1_0_0_1_n_n none
        (truncf .bf16 (sitofp (F := Ideal) .f32 (extui 32 (cmpi .eq (iota .tc S2056x2048 32 [0] iota_S2056x2048_d0_w32)
          (broadcastTo S2056x2048 (subi (shapeCast S1x2048 tb shapeCasts_S1x2048_S1x2048) (broadcast S1x2048 w)) broadcasts_S1x2048_S2056x2048)) natLt_1_32)) bitsLt_bf16_f32)
        (shapeCast S2048x64 vb shapeCasts_S2048x64_S2048x64) (constant S2056x64 .f32 0x00000000#32)))
      shapeCasts_S2056x64_S1x2056x64 (ValueIdx.ix3 0 r' f) = _
  rw [shapeCast_ab_1ab_apply, addf_apply, shapeCast_1ab_ab_apply, shapeCast_self vb]
  simp only [matmul]
  rw [Ideal.matmul_constant_zero_apply, ← Equiv.sum_comp (ValueIdx.contrEquiv1 dot_S2056x2048_S2048x64_S2056x64_1_0_0_1_n_n 2048 rfl rfl).symm]
  congr 1
  refine Finset.sum_congr rfl fun k _ => ?_
  have hk := ValueIdx.contrEquiv1_symm_val dot_S2056x2048_S2048x64_S2056x64_1_0_0_1_n_n 2048 rfl rfl k
  have el : dot_S2056x2048_S2048x64_S2056x64_1_0_0_1_n_n.lhsIdx (ValueIdx.ix2 r' f) ((ValueIdx.contrEquiv1 dot_S2056x2048_S2048x64_S2056x64_1_0_0_1_n_n 2048 rfl rfl).symm k) = ValueIdx.ix2 r' k := funext fun a => Fin.ext (by
    match a with
    | ⟨0, _⟩ => exact lhs_seg2_0 _ _
    | ⟨1, _⟩ => exact (lhs_seg2_1 _ _).trans hk)
  have er : dot_S2056x2048_S2048x64_S2056x64_1_0_0_1_n_n.rhsIdx (ValueIdx.ix2 r' f) ((ValueIdx.contrEquiv1 dot_S2056x2048_S2048x64_S2056x64_1_0_0_1_n_n 2048 rfl rfl).symm k) = ValueIdx.ix2 k f := funext fun a => Fin.ext (by
    match a with
    | ⟨0, _⟩ => exact (rhs_seg2_0 _ _).trans hk
    | ⟨1, _⟩ => exact rhs_seg2_1 _ _)
  rw [el, er, onehot_apply2]

theorem k2_pay1_apply (i : S1x50000x64.Idx) : k2_pay1 (F := Ideal) i = 0 := by
  unfold k2_pay1
  show Ideal.ofBits .f32 0x00000000#32 = 0
  exact Ideal.ofBits_zero_f32

/-! ## One step at an element -/

/-- A slab element is in the window exactly when its row is one of the window's 2056. -/
theorem mem_winRect2 (w : BitVec 32) (hchk : k2_chk1 w) (r : Fin 50000) (f : Fin 64) :
    (ValueIdx.ix3 (0 : Fin 1) r f : S1x50000x64.Idx) ∈ (winRect2 w hchk).set ↔ (w.toNat ≤ r.val ∧ r.val < w.toNat + 2056) := by
  rw [Rect.mem_set_unit]
  constructor
  · intro h; exact h 1
  · intro h a
    match a with
    | ⟨0, _⟩ => exact ⟨Nat.le_refl 0, Nat.zero_lt_one⟩
    | ⟨1, _⟩ => exact h
    | ⟨2, _⟩ => exact ⟨Nat.zero_le _, (Nat.zero_add 64).symm ▸ f.isLt⟩

/-- The window's rows replaced by themselves plus the one-hot2 product, read at a slab element, from any slab. -/
theorem overlayStep2_apply (w : BitVec 32) (hchk : k2_chk1 w) (tb : Vec Ideal S1x2048 .i32) (vb : Vec Ideal S2048x64 .bf16)
    (base : Vec Ideal S1x50000x64 .f32) (r : Fin 50000) (f : Fin 64) :
    (winRect2 w hchk).overlay base (k2_pay2 w tb vb (View.ld base (winRect2 w hchk))) (ValueIdx.ix3 0 r f)
      = base (ValueIdx.ix3 0 r f)
        + (if w.toNat ≤ r.val ∧ r.val < w.toNat + 2056 then ∑ k : Fin 2048, hot2 w tb vb (r.val - w.toNat) f k else 0) := by
  have hle := chk_le2 w hchk
  by_cases hin : w.toNat ≤ r.val ∧ r.val < w.toNat + 2056
  · rw [if_pos hin]
    have hr' : r.val - w.toNat < 2056 := by omega
    have he : (winRect2 w hchk).emb (ValueIdx.ix3 (0 : Fin 1) (⟨r.val - w.toNat, hr'⟩ : Fin 2056) f) = ValueIdx.ix3 0 r f := by
      funext a; refine Fin.ext ?_
      match a with
      | ⟨0, _⟩ => rfl
      | ⟨1, _⟩ => show w.toNat + 1 * (r.val - w.toNat) = r.val; omega
      | ⟨2, _⟩ => show 0 + 1 * f.val = f.val; omega
    rw [← he, Rect.overlay_emb, k2_pay2_apply]
    exact rfl
  · rw [if_neg hin, add_zero]
    exact Rect.overlay_of_not_mem _ _ _ (fun h => hin ((mem_winRect2 w hchk r f).mp h))

theorem slabStep2_apply (j0 : Bool) (w : BitVec 32) (hchk : k2_chk1 w) (tb : Vec Ideal S1x2048 .i32) (vb : Vec Ideal S2048x64 .bf16)
    (prev : Vec Ideal S1x50000x64 .f32) (r : Fin 50000) (f : Fin 64) :
    slabStep2 j0 w hchk tb vb prev (ValueIdx.ix3 0 r f)
      = (if j0 then 0 else prev (ValueIdx.ix3 0 r f))
        + (if w.toNat ≤ r.val ∧ r.val < w.toNat + 2056 then ∑ k : Fin 2048, hot2 w tb vb (r.val - w.toNat) f k else 0) := by
  unfold slabStep2
  refine (overlayStep2_apply w hchk tb vb _ r f).trans ?_
  refine congrArg (· + _) ?_
  cases j0
  · rw [if_neg Bool.false_ne_true, if_neg Bool.false_ne_true]
  · rw [if_pos rfl, if_pos rfl]; exact k2_pay1_apply _

/-! ## A row of the grid -/

/-- Any sequence of slabs that starts a row by a first-point step and continues by later-point steps holds, after
    point j, the sum over the points so far of their windows' one-hot2 products. -/
theorem row2_apply (w : ℕ → BitVec 32) (hchk : ∀ j, k2_chk1 (w j)) (tb : ℕ → Vec Ideal S1x2048 .i32) (vb : ℕ → Vec Ideal S2048x64 .bf16)
    (X : ℕ → Vec Ideal S1x50000x64 .f32) (n : ℕ)
    (h0 : ∃ prev, X 0 = slabStep2 true (w 0) (hchk 0) (tb 0) (vb 0) prev)
    (hs : ∀ j, j + 1 < n → X (j + 1) = slabStep2 false (w (j + 1)) (hchk (j + 1)) (tb (j + 1)) (vb (j + 1)) (X j))
    (r : Fin 50000) (f : Fin 64) : ∀ j, j < n →
    X j (ValueIdx.ix3 0 r f) = ∑ i ∈ range (j + 1),
      if (w i).toNat ≤ r.val ∧ r.val < (w i).toNat + 2056 then ∑ k : Fin 2048, hot2 (w i) (tb i) (vb i) (r.val - (w i).toNat) f k else 0 := by
  intro j
  induction j with
  | zero =>
    intro _
    obtain ⟨prev, h⟩ := h0
    rw [h, slabStep2_apply, Finset.sum_range_one, if_pos rfl, zero_add]
  | succ j ih =>
    intro hj
    rw [hs j hj, slabStep2_apply, ih (by omega), Finset.sum_range_succ _ (j + 1), if_neg Bool.false_ne_true]

/-- The same as the windowed sum of the specification over the row's blocks b0 … b0 + n - 1: start, T and u are
    the starts, the ids (signed) and the values of feature f, listed block after block. -/
theorem row2_eq_winSum (w : ℕ → BitVec 32) (hchk : ∀ j, k2_chk1 (w j)) (tb : ℕ → Vec Ideal S1x2048 .i32) (vb : ℕ → Vec Ideal S2048x64 .bf16)
    (X : ℕ → Vec Ideal S1x50000x64 .f32) (n : ℕ)
    (h0 : ∃ prev, X 0 = slabStep2 true (w 0) (hchk 0) (tb 0) (vb 0) prev)
    (hs : ∀ j, j + 1 < n + 1 → X (j + 1) = slabStep2 false (w (j + 1)) (hchk (j + 1)) (tb (j + 1)) (vb (j + 1)) (X j))
    (r : Fin 50000) (f : Fin 64) (b0 : ℕ) (start T : ℕ → ℤ) (u : ℕ → EReal)
    (hstart : ∀ j, j < n + 1 → ((w j).toNat : ℤ) = start (b0 + j))
    (hT : ∀ j, j < n + 1 → ∀ k : Fin 2048, (tb j (ValueIdx.ix2 0 k)).toInt = T ((b0 + j) * 2048 + k.val))
    (hu : ∀ j, j < n + 1 → ∀ k : Fin 2048, vb j (ValueIdx.ix2 k f) = u ((b0 + j) * 2048 + k.val)) :
    X n (ValueIdx.ix3 0 r f) = Cert.Math.SegSum.winSum (n + 1) (fun b => start (b0 + b)) (fun e => T (b0 * 2048 + e)) (fun e => u (b0 * 2048 + e)) (r.val : ℤ) := by
  rw [row2_apply w hchk tb vb X (n + 1) h0 hs r f n (Nat.lt_succ_self n)]
  simp only [Cert.Math.SegSum.winSum_def]
  refine Finset.sum_congr rfl fun i hi => ?_
  have hi' : i < n + 1 := Finset.mem_range.mp hi
  have hst := hstart i hi'
  have hle := chk_le2 (w i) (hchk i)
  have hcond : ((w i).toNat ≤ r.val ∧ r.val < (w i).toNat + 2056)
      ↔ (start (b0 + i) ≤ (r.val : ℤ) ∧ (r.val : ℤ) < start (b0 + i) + 2056) := by
    rw [← hst]; omega
  by_cases hc : (w i).toNat ≤ r.val ∧ r.val < (w i).toNat + 2056
  · rw [if_pos hc, if_pos (hcond.mp hc), Finset.sum_range]
    refine Finset.sum_congr rfl fun k _ => ?_
    have e : b0 * 2048 + (i * 2048 + k.val) = (b0 + i) * 2048 + k.val := by ring
    rw [e, ← hT i hi' k, ← hu i hi' k, ← hst]
    refine congrArg (· * vb i (ValueIdx.ix2 k f)) (if_congr ?_ rfl rfl)
    rw [word_test_iff _ _ _ hle (by omega)]
    omega
  · rw [if_neg hc, if_neg (fun h => hc (hcond.mpr h))]

end Cert.KernelIdeal.HandVal

end
-- ==== Proof.KI.SegVal2Row.lean ====
/- Segment-sum call 2's slab after a whole row of the grid, at the extended reals: the windowed sum of the
   pure specification over the row's 452 blocks, read at one slab element. The accumulation of the call's proof data is
   a row of steps in the sense of the value lemmas; the window starts are the table's words, the ids and the values the
   two input windows' blocks, and each block is the array's block row (values) or block column (ids) of the point. -/
import proofs.«402757_j20469814133395_4_alg».proof.Proof.KI.SegVal2
import proofs.«402757_j20469814133395_4_alg».proof.Proof.KI.SegDat2

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A window start that passes the body's check is below 2^31: its signed and unsigned readings agree. -/
theorem start_toInt2 (w : BitVec 32) (hchk : k2_chk1 w) : w.toInt = (w.toNat : ℤ) := by
  have hle := chk_le2 w hchk
  rw [BitVec.toInt_eq_toNat_cond]
  split <;> omega

/-! ## The input windows' blocks, read off their arrays (at any float instance) -/

section Blocks
variable {F : FTy → Type} [FloatOps F]
variable (V : (c : Dev nD) → (b : Ref sig .tc) → Buf (Elt F) ((c : Thread nD τ).loc b))
variable (a : (pcfg2 (F := F)).Adm)

/-- The two input windows' block indices at point t: block row t of the values, block column t of the ids. -/
theorem idx_facts2 : ∀ t : Fin grid2.N, cc2_transform_0 (grid2.coords t) 0 = t.val ∧ cc2_transform_0 (grid2.coords t) 1 = 0
    ∧ cc2_transform_1 (grid2.coords t) 0 = 0 ∧ cc2_transform_1 (grid2.coords t) 1 = t.val := by decide +kernel

/-- Entry k, feature f of the values' block at point t is row 2048 t + k of the values' array. -/
theorem iblk2_0_at (c : Dev nD) (t : Fin (cfg2 a).N) (k : Fin 2048) (f : Fin 64) (i : S1851392x64.Idx)
    (hi0 : (i 0).val = t.val * 2048 + k.val) (hi1 : (i 1).val = f.val) :
    (iblk2 V a c 0 t : Vec F S2048x64 .bf16) (ValueIdx.ix2 k f) = (V c (Pipeline.arrRef spec2 0) : S1851392x64.Idx → Elt F .bf16) i := by
  show (V c (Pipeline.arrRef spec2 0) : S1851392x64.Idx → Elt F .bf16) ((((cfg2 a).win 0).blk t).view.emb (ValueIdx.ix2 k f)) = _
  refine congrArg _ (funext fun b => Fin.ext ?_)
  obtain ⟨e0, e1, e2, e3⟩ := idx_facts2 t
  match b with
  | ⟨0, _⟩ =>
    show cc2_transform_0 (grid2.coords t) (0 : Fin 2) * 2048 + 1 * k.val = (i 0).val
    rw [e0, hi0]; omega
  | ⟨1, _⟩ =>
    show cc2_transform_0 (grid2.coords t) (1 : Fin 2) * 64 + 1 * f.val = (i 1).val
    rw [e1, hi1]; omega

/-- Entry k of the ids' block at point t is entry 2048 t + k of the ids' array. -/
theorem iblk2_1_at (c : Dev nD) (t : Fin (cfg2 a).N) (k : Fin 2048) (i : S1x1851392.Idx)
    (hi1 : (i 1).val = t.val * 2048 + k.val) :
    (iblk2 V a c 1 t : Vec F S1x2048 .i32) (ValueIdx.ix2 0 k) = (V c (Pipeline.arrRef spec2 1) : S1x1851392.Idx → Elt F .i32) i := by
  show (V c (Pipeline.arrRef spec2 1) : S1x1851392.Idx → Elt F .i32) ((((cfg2 a).win 1).blk t).view.emb (ValueIdx.ix2 0 k)) = _
  refine congrArg _ (funext fun b => Fin.ext ?_)
  obtain ⟨e0, e1, e2, e3⟩ := idx_facts2 t
  match b with
  | ⟨0, _⟩ =>
    show cc2_transform_1 (grid2.coords t) (0 : Fin 2) * 1 + 1 * 0 = (i 0).val
    have h0 : (i 0).val < 1 := (i 0).isLt
    rw [e2]; omega
  | ⟨1, _⟩ =>
    show cc2_transform_1 (grid2.coords t) (1 : Fin 2) * 2048 + 1 * k.val = (i 1).val
    rw [e3, hi1]; omega

end Blocks

/-! ## A row of the accumulation -/

section Row
variable (V : (c : Dev nD) → (b : Ref sig .tc) → Buf (Elt Ideal) ((c : Thread nD τ).loc b))
variable (a : (pcfg2 (F := Ideal)).Adm)
variable (htbl : ∀ (c : Dev nD) (i : grid2.Coords), k2_chk1 (word2 c i tbM2 (tbl2 a c)))

/-- Point j of row p of the grid (clamped into the grid, so that it is a point for every j). -/
def pt2 (p : Fin 2) (j : ℕ) : Fin (cfg2 a).N :=
  ⟨min (p.val * 452 + j) 903, lt_of_lt_of_eq (by omega) (show (cfg2 a).N = 904 from N_2).symm⟩

theorem pt2_val (p : Fin 2) (j : ℕ) (hj : j < 452) : (pt2 a p j).val = p.val * 452 + j := by
  show min (p.val * 452 + j) 903 = _
  have := p.isLt; omega

/-- The accumulation at equal positions. -/
theorem outs2_congr (c : Dev nD) {n n' : ℕ} (h : n = n') (hn : n < (cfg2 a).N) (hn' : n' < (cfg2 a).N) :
    outsAt2 V a htbl c n hn = outsAt2 V a htbl c n' hn' := by
  subst h; rfl

/-- A point's step is a step of the value lemmas. -/
theorem stepAt2_eq (c : Dev nD) (t : Fin (cfg2 a).N) (prev : Vec Ideal S1x50000x64 .f32) (b : Bool)
    (hb : decide (((grid2.coords t) 1).val = 0) = b) :
    stepAt2 V a htbl c t prev
      = slabStep2 b (word2 c (grid2.coords t) tbM2 (tbl2 a c)) (htbl c (grid2.coords t)) (iblk2 V a c 1 t) (iblk2 V a c 0 t) prev := by
  subst hb; rfl

/-- THE ROW. After the last point of row p the slab holds, at node r and feature f, the windowed sum over the row's
    452 blocks: start, T and u list the window starts, the ids (signed) and the values of feature f, point after point. -/
theorem outs2_row (c : Dev nD) (p : Fin 2) (r : Fin 50000) (f : Fin 64) (start T : ℕ → ℤ) (u : ℕ → EReal)
    (hstart : ∀ t : Fin (cfg2 a).N, (word2 c (grid2.coords t) tbM2 (tbl2 a c)).toInt = start t.val)
    (hT : ∀ (t : Fin (cfg2 a).N) (k : Fin 2048),
      ((iblk2 V a c 1 t : Vec Ideal S1x2048 .i32) (ValueIdx.ix2 0 k)).toInt = T (t.val * 2048 + k.val))
    (hu : ∀ (t : Fin (cfg2 a).N) (k : Fin 2048),
      (iblk2 V a c 0 t : Vec Ideal S2048x64 .bf16) (ValueIdx.ix2 k f) = u (t.val * 2048 + k.val))
    (hn : p.val * 452 + 451 < (cfg2 a).N) :
    outsAt2 V a htbl c (p.val * 452 + 451) hn (ValueIdx.ix3 0 r f)
      = Cert.Math.SegSum.winSum 452 (fun b => start (p.val * 452 + b)) (fun e => T (p.val * 452 * 2048 + e))
          (fun e => u (p.val * 452 * 2048 + e)) (r.val : ℤ) := by
  have hp := p.isLt
  rw [outs2_congr V a htbl c (pt2_val a p 451 (by omega)).symm hn (pt2 a p 451).isLt]
  refine row2_eq_winSum (fun j => word2 c (grid2.coords (pt2 a p j)) tbM2 (tbl2 a c)) (fun j => htbl c _)
    (fun j => iblk2 V a c 1 (pt2 a p j)) (fun j => iblk2 V a c 0 (pt2 a p j))
    (fun j => outsAt2 V a htbl c (pt2 a p j).val (pt2 a p j).isLt) 451 ?_ ?_ r f (p.val * 452) start T u ?_ ?_ ?_
  · refine ⟨k2_pay1 (F := Ideal), ?_⟩
    have h0 : (pt2 a p 0).val % 452 = 0 := by rw [pt2_val a p 0 (by omega)]; omega
    exact (outsAt2_eq V a htbl c (pt2 a p 0) (k2_pay1 (F := Ideal)) (.inl h0)).trans
      (stepAt2_eq V a htbl c _ _ true (decide_eq_true (by rw [coords2_1]; exact h0)))
  · intro j hj
    have hv : (pt2 a p (j + 1)).val = p.val * 452 + (j + 1) := pt2_val a p (j + 1) (by omega)
    have hv' : (pt2 a p j).val = p.val * 452 + j := pt2_val a p j (by omega)
    have hne : ¬((pt2 a p (j + 1)).val % 452 = 0) := by rw [hv]; omega
    exact (outsAt2_eq V a htbl c (pt2 a p (j + 1)) _
        (.inr ⟨by rw [hv]; omega, outs2_congr V a htbl c (by rw [hv, hv']; omega) _ _⟩)).trans
      (stepAt2_eq V a htbl c _ _ false (decide_eq_false (by rw [coords2_1]; exact hne)))
  · intro j hj
    show ((word2 c (grid2.coords (pt2 a p j)) tbM2 (tbl2 a c)).toNat : ℤ) = start (p.val * 452 + j)
    rw [← start_toInt2 _ (htbl c _), hstart, pt2_val a p j hj]
  · intro j hj k
    show ((iblk2 V a c 1 (pt2 a p j) : Vec Ideal S1x2048 .i32) (ValueIdx.ix2 0 k)).toInt = _
    rw [hT, pt2_val a p j hj]
  · intro j hj k
    show (iblk2 V a c 0 (pt2 a p j) : Vec Ideal S2048x64 .bf16) (ValueIdx.ix2 k f) = _
    rw [hu, pt2_val a p j hj]

end Row

end Cert.KernelIdeal.HandVal

end
-- ==== Proof.KI.SegVal4.lean ====
/- The value of segment-sum call 4 at the extended reals (the same mathematics as the first call's, at this call's shapes). One grid point adds, into the 2056 rows of the
   slab that start at the point's window start, the product of a one-hot4 matrix (row r', column k: is the k-th id of
   the point's block, minus the window start, equal to r'?) with the block's 2048 value rows; the first point of a row
   of the grid starts from the zero slab. Read at one slab element this is a sum over the block's entries; iterated
   over the points of a row it is the windowed sum of the pure specification. -/
import proofs.«402757_j20469814133395_4_alg».proof.Proof.Gen.KernelIdeal.Skeleton
import proofs.«402757_j20469814133395_4_alg».proof.Proof.Math.SegSum
import proofs.«402757_j20469814133395_4_alg».proof.Proof.KI.SegVal1
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen
open Idealize.ShloMosaic Idealize.ShloMosaic.ValueIdx
open Finset

/-! ## One point's step on the slab, at any float instance -/

section Step
variable {F : FTy → Type} [FloatOps F]

/-- The 2056 rows of the slab from the window start. -/
abbrev winRect4 (w : BitVec 32) (hchk : k4_chk1 w) : Rect S1x50000x16 :=
  Rect.unit (s := S1x50000x16) (k4_off2 w) S1x2056x16.size (k4_off2_inb w hchk)

/-- What one grid point leaves in the slab: from the zero slab at a row's first point, else from what the point
    before left, the window's rows replaced by themselves plus the one-hot4 product. -/
def slabStep4 (j0 : Bool) (w : BitVec 32) (hchk : k4_chk1 w) (tb : Vec F S1x2048 .i32) (vb : Vec F S2048x16 .bf16)
    (prev : Vec F S1x50000x16 .f32) : Vec F S1x50000x16 .f32 :=
  let base := if j0 then k4_pay1 else prev
  (winRect4 w hchk).overlay base (k4_pay2 w tb vb (View.ld base (winRect4 w hchk)))

end Step

/-! ## Words: the one-hot4 test as a test on integers -/

/-- The window start's in-bounds fact, in numbers. -/
theorem chk_le4 (w : BitVec 32) (hchk : k4_chk1 w) : w.toNat + 2056 ≤ 50000 := hchk.2 1

/-! ## The payload at an element -/

/-- The one-hot4 product's term for entry k at local row r'. -/
abbrev hot4 (w : BitVec 32) (tb : Vec Ideal S1x2048 .i32) (vb : Vec Ideal S2048x16 .bf16) (r' : ℕ) (f : Fin 16) (k : Fin 2048) : EReal :=
  (if tb (ValueIdx.ix2 0 k) - w = BitVec.ofNat 32 r' then (1 : EReal) else 0) * vb (ValueIdx.ix2 k f)

/-! The product's operand indices: the left operand at (row, entry), the right at (entry, feature). -/
theorem lhs_seg4_0 (i : S2056x16.Idx) (q : dot_S2056x2048_S2048x16_S2056x16_1_0_0_1_n_n.contr.Idx) :
    (dot_S2056x2048_S2048x16_S2056x16_1_0_0_1_n_n.lhsIdx i q 0).val = (i 0).val := by
  unfold DotDims.lhsIdx
  rw [dif_neg (show ¬(0 : Fin S2056x2048.rank) ∈ dot_S2056x2048_S2048x16_S2056x16_1_0_0_1_n_n.lhsBatch by decide), dif_pos (show (0 : Fin S2056x2048.rank) ∈ dot_S2056x2048_S2048x16_S2056x16_1_0_0_1_n_n.lhsNonContracting by decide)]
  rfl
theorem lhs_seg4_1 (i : S2056x16.Idx) (q : dot_S2056x2048_S2048x16_S2056x16_1_0_0_1_n_n.contr.Idx) :
    (dot_S2056x2048_S2048x16_S2056x16_1_0_0_1_n_n.lhsIdx i q 1).val = (q ⟨0, by decide⟩).val :=
  dot_S2056x2048_S2048x16_S2056x16_1_0_0_1_n_n.lhsIdx_val_of_single rfl i q
theorem rhs_seg4_0 (i : S2056x16.Idx) (q : dot_S2056x2048_S2048x16_S2056x16_1_0_0_1_n_n.contr.Idx) :
    (dot_S2056x2048_S2048x16_S2056x16_1_0_0_1_n_n.rhsIdx i q 0).val = (q ⟨0, by decide⟩).val :=
  dot_S2056x2048_S2048x16_S2056x16_1_0_0_1_n_n.rhsIdx_val_of_single rfl i q
theorem rhs_seg4_1 (i : S2056x16.Idx) (q : dot_S2056x2048_S2048x16_S2056x16_1_0_0_1_n_n.contr.Idx) :
    (dot_S2056x2048_S2048x16_S2056x16_1_0_0_1_n_n.rhsIdx i q 1).val = (i 1).val := by
  unfold DotDims.rhsIdx
  rw [dif_neg (show ¬(1 : Fin S2048x16.rank) ∈ dot_S2056x2048_S2048x16_S2056x16_1_0_0_1_n_n.rhsBatch by decide), dif_pos (show (1 : Fin S2048x16.rank) ∈ dot_S2056x2048_S2048x16_S2056x16_1_0_0_1_n_n.rhsNonContracting by decide)]
  rfl

/-- The one-hot4 matrix at (r', k): is the k-th id minus the start the row r'? -/
theorem onehot_apply4 (w : BitVec 32) (tb : Vec Ideal S1x2048 .i32) (r' : Fin 2056) (k : Fin 2048) :
    (truncf .bf16 (sitofp (F := Ideal) .f32 (extui 32 (cmpi .eq (iota .tc S2056x2048 32 [0] iota_S2056x2048_d0_w32)
        (broadcastTo S2056x2048 (subi (shapeCast S1x2048 tb shapeCasts_S1x2048_S1x2048) (broadcast S1x2048 w)) broadcasts_S1x2048_S2056x2048)) natLt_1_32)) bitsLt_bf16_f32
      : FVec Ideal S2056x2048 .bf16) (ValueIdx.ix2 r' k)
      = if tb (ValueIdx.ix2 0 k) - w = BitVec.ofNat 32 r'.val then (1 : EReal) else 0 := by
  rw [shapeCast_self]
  show ((((BitVec.ofBool (iota .tc S2056x2048 32 [0] iota_S2056x2048_d0_w32 (ValueIdx.ix2 r' k)
      == broadcastTo S2056x2048 (subi tb (broadcast S1x2048 w)) broadcasts_S1x2048_S2056x2048 (ValueIdx.ix2 r' k))).setWidth 32).toInt : ℝ) : EReal) = _
  rw [onehot_word, iota_single_apply,
    broadcastTo_apply (subi tb (broadcast S1x2048 w)) broadcasts_S1x2048_S2056x2048 (ValueIdx.ix2 r' k) (ValueIdx.ix2 0 k)
      (fun a => match a with | ⟨0, _⟩ => rfl | ⟨1, _⟩ => rfl)]
  rfl

theorem k4_pay2_apply (w : BitVec 32) (tb : Vec Ideal S1x2048 .i32) (vb : Vec Ideal S2048x16 .bf16)
    (cur : Vec Ideal S1x2056x16 .f32) (r' : Fin 2056) (f : Fin 16) :
    k4_pay2 (F := Ideal) w tb vb cur (ValueIdx.ix3 0 r' f) = cur (ValueIdx.ix3 0 r' f) + ∑ k : Fin 2048, hot4 w tb vb r'.val f k := by
  unfold k4_pay2
  show shapeCast S1x2056x16 (addf (shapeCast S2056x16 cur shapeCasts_S1x2056x16_S2056x16)
      (matmul dot_S2056x2048_S2048x16_S2056x16_1_0_0_1_n_n none
        (truncf .bf16 (sitofp (F := Ideal) .f32 (extui 32 (cmpi .eq (iota .tc S2056x2048 32 [0] iota_S2056x2048_d0_w32)
          (broadcastTo S2056x2048 (subi (shapeCast S1x2048 tb shapeCasts_S1x2048_S1x2048) (broadcast S1x2048 w)) broadcasts_S1x2048_S2056x2048)) natLt_1_32)) bitsLt_bf16_f32)
        (shapeCast S2048x16 vb shapeCasts_S2048x16_S2048x16) (constant S2056x16 .f32 0x00000000#32)))
      shapeCasts_S2056x16_S1x2056x16 (ValueIdx.ix3 0 r' f) = _
  rw [shapeCast_ab_1ab_apply, addf_apply, shapeCast_1ab_ab_apply, shapeCast_self vb]
  simp only [matmul]
  rw [Ideal.matmul_constant_zero_apply, ← Equiv.sum_comp (ValueIdx.contrEquiv1 dot_S2056x2048_S2048x16_S2056x16_1_0_0_1_n_n 2048 rfl rfl).symm]
  congr 1
  refine Finset.sum_congr rfl fun k _ => ?_
  have hk := ValueIdx.contrEquiv1_symm_val dot_S2056x2048_S2048x16_S2056x16_1_0_0_1_n_n 2048 rfl rfl k
  have el : dot_S2056x2048_S2048x16_S2056x16_1_0_0_1_n_n.lhsIdx (ValueIdx.ix2 r' f) ((ValueIdx.contrEquiv1 dot_S2056x2048_S2048x16_S2056x16_1_0_0_1_n_n 2048 rfl rfl).symm k) = ValueIdx.ix2 r' k := funext fun a => Fin.ext (by
    match a with
    | ⟨0, _⟩ => exact lhs_seg4_0 _ _
    | ⟨1, _⟩ => exact (lhs_seg4_1 _ _).trans hk)
  have er : dot_S2056x2048_S2048x16_S2056x16_1_0_0_1_n_n.rhsIdx (ValueIdx.ix2 r' f) ((ValueIdx.contrEquiv1 dot_S2056x2048_S2048x16_S2056x16_1_0_0_1_n_n 2048 rfl rfl).symm k) = ValueIdx.ix2 k f := funext fun a => Fin.ext (by
    match a with
    | ⟨0, _⟩ => exact (rhs_seg4_0 _ _).trans hk
    | ⟨1, _⟩ => exact rhs_seg4_1 _ _)
  rw [el, er, onehot_apply4]

theorem k4_pay1_apply (i : S1x50000x16.Idx) : k4_pay1 (F := Ideal) i = 0 := by
  unfold k4_pay1
  show Ideal.ofBits .f32 0x00000000#32 = 0
  exact Ideal.ofBits_zero_f32

/-! ## One step at an element -/

/-- A slab element is in the window exactly when its row is one of the window's 2056. -/
theorem mem_winRect4 (w : BitVec 32) (hchk : k4_chk1 w) (r : Fin 50000) (f : Fin 16) :
    (ValueIdx.ix3 (0 : Fin 1) r f : S1x50000x16.Idx) ∈ (winRect4 w hchk).set ↔ (w.toNat ≤ r.val ∧ r.val < w.toNat + 2056) := by
  rw [Rect.mem_set_unit]
  constructor
  · intro h; exact h 1
  · intro h a
    match a with
    | ⟨0, _⟩ => exact ⟨Nat.le_refl 0, Nat.zero_lt_one⟩
    | ⟨1, _⟩ => exact h
    | ⟨2, _⟩ => exact ⟨Nat.zero_le _, (Nat.zero_add 16).symm ▸ f.isLt⟩

/-- The window's rows replaced by themselves plus the one-hot4 product, read at a slab element, from any slab. -/
theorem overlayStep4_apply (w : BitVec 32) (hchk : k4_chk1 w) (tb : Vec Ideal S1x2048 .i32) (vb : Vec Ideal S2048x16 .bf16)
    (base : Vec Ideal S1x50000x16 .f32) (r : Fin 50000) (f : Fin 16) :
    (winRect4 w hchk).overlay base (k4_pay2 w tb vb (View.ld base (winRect4 w hchk))) (ValueIdx.ix3 0 r f)
      = base (ValueIdx.ix3 0 r f)
        + (if w.toNat ≤ r.val ∧ r.val < w.toNat + 2056 then ∑ k : Fin 2048, hot4 w tb vb (r.val - w.toNat) f k else 0) := by
  have hle := chk_le4 w hchk
  by_cases hin : w.toNat ≤ r.val ∧ r.val < w.toNat + 2056
  · rw [if_pos hin]
    have hr' : r.val - w.toNat < 2056 := by omega
    have he : (winRect4 w hchk).emb (ValueIdx.ix3 (0 : Fin 1) (⟨r.val - w.toNat, hr'⟩ : Fin 2056) f) = ValueIdx.ix3 0 r f := by
      funext a; refine Fin.ext ?_
      match a with
      | ⟨0, _⟩ => rfl
      | ⟨1, _⟩ => show w.toNat + 1 * (r.val - w.toNat) = r.val; omega
      | ⟨2, _⟩ => show 0 + 1 * f.val = f.val; omega
    rw [← he, Rect.overlay_emb, k4_pay2_apply]
    exact rfl
  · rw [if_neg hin, add_zero]
    exact Rect.overlay_of_not_mem _ _ _ (fun h => hin ((mem_winRect4 w hchk r f).mp h))

theorem slabStep4_apply (j0 : Bool) (w : BitVec 32) (hchk : k4_chk1 w) (tb : Vec Ideal S1x2048 .i32) (vb : Vec Ideal S2048x16 .bf16)
    (prev : Vec Ideal S1x50000x16 .f32) (r : Fin 50000) (f : Fin 16) :
    slabStep4 j0 w hchk tb vb prev (ValueIdx.ix3 0 r f)
      = (if j0 then 0 else prev (ValueIdx.ix3 0 r f))
        + (if w.toNat ≤ r.val ∧ r.val < w.toNat + 2056 then ∑ k : Fin 2048, hot4 w tb vb (r.val - w.toNat) f k else 0) := by
  unfold slabStep4
  refine (overlayStep4_apply w hchk tb vb _ r f).trans ?_
  refine congrArg (· + _) ?_
  cases j0
  · rw [if_neg Bool.false_ne_true, if_neg Bool.false_ne_true]
  · rw [if_pos rfl, if_pos rfl]; exact k4_pay1_apply _

/-! ## A row of the grid -/

/-- Any sequence of slabs that starts a row by a first-point step and continues by later-point steps holds, after
    point j, the sum over the points so far of their windows' one-hot4 products. -/
theorem row4_apply (w : ℕ → BitVec 32) (hchk : ∀ j, k4_chk1 (w j)) (tb : ℕ → Vec Ideal S1x2048 .i32) (vb : ℕ → Vec Ideal S2048x16 .bf16)
    (X : ℕ → Vec Ideal S1x50000x16 .f32) (n : ℕ)
    (h0 : ∃ prev, X 0 = slabStep4 true (w 0) (hchk 0) (tb 0) (vb 0) prev)
    (hs : ∀ j, j + 1 < n → X (j + 1) = slabStep4 false (w (j + 1)) (hchk (j + 1)) (tb (j + 1)) (vb (j + 1)) (X j))
    (r : Fin 50000) (f : Fin 16) : ∀ j, j < n →
    X j (ValueIdx.ix3 0 r f) = ∑ i ∈ range (j + 1),
      if (w i).toNat ≤ r.val ∧ r.val < (w i).toNat + 2056 then ∑ k : Fin 2048, hot4 (w i) (tb i) (vb i) (r.val - (w i).toNat) f k else 0 := by
  intro j
  induction j with
  | zero =>
    intro _
    obtain ⟨prev, h⟩ := h0
    rw [h, slabStep4_apply, Finset.sum_range_one, if_pos rfl, zero_add]
  | succ j ih =>
    intro hj
    rw [hs j hj, slabStep4_apply, ih (by omega), Finset.sum_range_succ _ (j + 1), if_neg Bool.false_ne_true]

/-- The same as the windowed sum of the specification over the row's blocks b0 … b0 + n - 1: start, T and u are
    the starts, the ids (signed) and the values of feature f, listed block after block. -/
theorem row4_eq_winSum (w : ℕ → BitVec 32) (hchk : ∀ j, k4_chk1 (w j)) (tb : ℕ → Vec Ideal S1x2048 .i32) (vb : ℕ → Vec Ideal S2048x16 .bf16)
    (X : ℕ → Vec Ideal S1x50000x16 .f32) (n : ℕ)
    (h0 : ∃ prev, X 0 = slabStep4 true (w 0) (hchk 0) (tb 0) (vb 0) prev)
    (hs : ∀ j, j + 1 < n + 1 → X (j + 1) = slabStep4 false (w (j + 1)) (hchk (j + 1)) (tb (j + 1)) (vb (j + 1)) (X j))
    (r : Fin 50000) (f : Fin 16) (b0 : ℕ) (start T : ℕ → ℤ) (u : ℕ → EReal)
    (hstart : ∀ j, j < n + 1 → ((w j).toNat : ℤ) = start (b0 + j))
    (hT : ∀ j, j < n + 1 → ∀ k : Fin 2048, (tb j (ValueIdx.ix2 0 k)).toInt = T ((b0 + j) * 2048 + k.val))
    (hu : ∀ j, j < n + 1 → ∀ k : Fin 2048, vb j (ValueIdx.ix2 k f) = u ((b0 + j) * 2048 + k.val)) :
    X n (ValueIdx.ix3 0 r f) = Cert.Math.SegSum.winSum (n + 1) (fun b => start (b0 + b)) (fun e => T (b0 * 2048 + e)) (fun e => u (b0 * 2048 + e)) (r.val : ℤ) := by
  rw [row4_apply w hchk tb vb X (n + 1) h0 hs r f n (Nat.lt_succ_self n)]
  simp only [Cert.Math.SegSum.winSum_def]
  refine Finset.sum_congr rfl fun i hi => ?_
  have hi' : i < n + 1 := Finset.mem_range.mp hi
  have hst := hstart i hi'
  have hle := chk_le4 (w i) (hchk i)
  have hcond : ((w i).toNat ≤ r.val ∧ r.val < (w i).toNat + 2056)
      ↔ (start (b0 + i) ≤ (r.val : ℤ) ∧ (r.val : ℤ) < start (b0 + i) + 2056) := by
    rw [← hst]; omega
  by_cases hc : (w i).toNat ≤ r.val ∧ r.val < (w i).toNat + 2056
  · rw [if_pos hc, if_pos (hcond.mp hc), Finset.sum_range]
    refine Finset.sum_congr rfl fun k _ => ?_
    have e : b0 * 2048 + (i * 2048 + k.val) = (b0 + i) * 2048 + k.val := by ring
    rw [e, ← hT i hi' k, ← hu i hi' k, ← hst]
    refine congrArg (· * vb i (ValueIdx.ix2 k f)) (if_congr ?_ rfl rfl)
    rw [word_test_iff _ _ _ hle (by omega)]
    omega
  · rw [if_neg hc, if_neg (fun h => hc (hcond.mpr h))]

end Cert.KernelIdeal.HandVal

end
-- ==== Proof.KI.SegVal4Row.lean ====
/- Segment-sum call 4's slab after a whole row of the grid, at the extended reals: the windowed sum of the
   pure specification over the row's 86 blocks, read at one slab element. The accumulation of the call's proof data is
   a row of steps in the sense of the value lemmas; the window starts are the table's words, the ids and the values the
   two input windows' blocks, and each block is the array's block row (values) or block column (ids) of the point. -/
import proofs.«402757_j20469814133395_4_alg».proof.Proof.KI.SegVal4
import proofs.«402757_j20469814133395_4_alg».proof.Proof.KI.SegDat4

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A window start that passes the body's check is below 2^31: its signed and unsigned readings agree. -/
theorem start_toInt4 (w : BitVec 32) (hchk : k4_chk1 w) : w.toInt = (w.toNat : ℤ) := by
  have hle := chk_le4 w hchk
  rw [BitVec.toInt_eq_toNat_cond]
  split <;> omega

/-! ## The input windows' blocks, read off their arrays (at any float instance) -/

section Blocks
variable {F : FTy → Type} [FloatOps F]
variable (V : (c : Dev nD) → (b : Ref sig .tc) → Buf (Elt F) ((c : Thread nD τ).loc b))
variable (a : (pcfg4 (F := F)).Adm)

/-- The two input windows' block indices at point t: block row t of the values, block column t of the ids. -/
theorem idx_facts4 : ∀ t : Fin grid4.N, cc4_transform_0 (grid4.coords t) 0 = t.val ∧ cc4_transform_0 (grid4.coords t) 1 = 0
    ∧ cc4_transform_1 (grid4.coords t) 0 = 0 ∧ cc4_transform_1 (grid4.coords t) 1 = t.val := by decide +kernel

/-- Entry k, feature f of the values' block at point t is row 2048 t + k of the values' array. -/
theorem iblk4_0_at (c : Dev nD) (t : Fin (cfg4 a).N) (k : Fin 2048) (f : Fin 16) (i : S352256x16.Idx)
    (hi0 : (i 0).val = t.val * 2048 + k.val) (hi1 : (i 1).val = f.val) :
    (iblk4 V a c 0 t : Vec F S2048x16 .bf16) (ValueIdx.ix2 k f) = (V c (Pipeline.arrRef spec4 0) : S352256x16.Idx → Elt F .bf16) i := by
  show (V c (Pipeline.arrRef spec4 0) : S352256x16.Idx → Elt F .bf16) ((((cfg4 a).win 0).blk t).view.emb (ValueIdx.ix2 k f)) = _
  refine congrArg _ (funext fun b => Fin.ext ?_)
  obtain ⟨e0, e1, e2, e3⟩ := idx_facts4 t
  match b with
  | ⟨0, _⟩ =>
    show cc4_transform_0 (grid4.coords t) (0 : Fin 2) * 2048 + 1 * k.val = (i 0).val
    rw [e0, hi0]; omega
  | ⟨1, _⟩ =>
    show cc4_transform_0 (grid4.coords t) (1 : Fin 2) * 16 + 1 * f.val = (i 1).val
    rw [e1, hi1]; omega

/-- Entry k of the ids' block at point t is entry 2048 t + k of the ids' array. -/
theorem iblk4_1_at (c : Dev nD) (t : Fin (cfg4 a).N) (k : Fin 2048) (i : S1x352256.Idx)
    (hi1 : (i 1).val = t.val * 2048 + k.val) :
    (iblk4 V a c 1 t : Vec F S1x2048 .i32) (ValueIdx.ix2 0 k) = (V c (Pipeline.arrRef spec4 1) : S1x352256.Idx → Elt F .i32) i := by
  show (V c (Pipeline.arrRef spec4 1) : S1x352256.Idx → Elt F .i32) ((((cfg4 a).win 1).blk t).view.emb (ValueIdx.ix2 0 k)) = _
  refine congrArg _ (funext fun b => Fin.ext ?_)
  obtain ⟨e0, e1, e2, e3⟩ := idx_facts4 t
  match b with
  | ⟨0, _⟩ =>
    show cc4_transform_1 (grid4.coords t) (0 : Fin 2) * 1 + 1 * 0 = (i 0).val
    have h0 : (i 0).val < 1 := (i 0).isLt
    rw [e2]; omega
  | ⟨1, _⟩ =>
    show cc4_transform_1 (grid4.coords t) (1 : Fin 2) * 2048 + 1 * k.val = (i 1).val
    rw [e3, hi1]; omega

end Blocks

/-! ## A row of the accumulation -/

section Row
variable (V : (c : Dev nD) → (b : Ref sig .tc) → Buf (Elt Ideal) ((c : Thread nD τ).loc b))
variable (a : (pcfg4 (F := Ideal)).Adm)
variable (htbl : ∀ (c : Dev nD) (i : grid4.Coords), k4_chk1 (word4 c i tbM4 (tbl4 a c)))

/-- Point j of row p of the grid (clamped into the grid, so that it is a point for every j). -/
def pt4 (p : Fin 2) (j : ℕ) : Fin (cfg4 a).N :=
  ⟨min (p.val * 86 + j) 171, lt_of_lt_of_eq (by omega) (show (cfg4 a).N = 172 from N_4).symm⟩

theorem pt4_val (p : Fin 2) (j : ℕ) (hj : j < 86) : (pt4 a p j).val = p.val * 86 + j := by
  show min (p.val * 86 + j) 171 = _
  have := p.isLt; omega

/-- The accumulation at equal positions. -/
theorem outs4_congr (c : Dev nD) {n n' : ℕ} (h : n = n') (hn : n < (cfg4 a).N) (hn' : n' < (cfg4 a).N) :
    outsAt4 V a htbl c n hn = outsAt4 V a htbl c n' hn' := by
  subst h; rfl

/-- A point's step is a step of the value lemmas. -/
theorem stepAt4_eq (c : Dev nD) (t : Fin (cfg4 a).N) (prev : Vec Ideal S1x50000x16 .f32) (b : Bool)
    (hb : decide (((grid4.coords t) 1).val = 0) = b) :
    stepAt4 V a htbl c t prev
      = slabStep4 b (word4 c (grid4.coords t) tbM4 (tbl4 a c)) (htbl c (grid4.coords t)) (iblk4 V a c 1 t) (iblk4 V a c 0 t) prev := by
  subst hb; rfl

/-- THE ROW. After the last point of row p the slab holds, at node r and feature f, the windowed sum over the row's
    86 blocks: start, T and u list the window starts, the ids (signed) and the values of feature f, point after point. -/
theorem outs4_row (c : Dev nD) (p : Fin 2) (r : Fin 50000) (f : Fin 16) (start T : ℕ → ℤ) (u : ℕ → EReal)
    (hstart : ∀ t : Fin (cfg4 a).N, (word4 c (grid4.coords t) tbM4 (tbl4 a c)).toInt = start t.val)
    (hT : ∀ (t : Fin (cfg4 a).N) (k : Fin 2048),
      ((iblk4 V a c 1 t : Vec Ideal S1x2048 .i32) (ValueIdx.ix2 0 k)).toInt = T (t.val * 2048 + k.val))
    (hu : ∀ (t : Fin (cfg4 a).N) (k : Fin 2048),
      (iblk4 V a c 0 t : Vec Ideal S2048x16 .bf16) (ValueIdx.ix2 k f) = u (t.val * 2048 + k.val))
    (hn : p.val * 86 + 85 < (cfg4 a).N) :
    outsAt4 V a htbl c (p.val * 86 + 85) hn (ValueIdx.ix3 0 r f)
      = Cert.Math.SegSum.winSum 86 (fun b => start (p.val * 86 + b)) (fun e => T (p.val * 86 * 2048 + e))
          (fun e => u (p.val * 86 * 2048 + e)) (r.val : ℤ) := by
  have hp := p.isLt
  rw [outs4_congr V a htbl c (pt4_val a p 85 (by omega)).symm hn (pt4 a p 85).isLt]
  refine row4_eq_winSum (fun j => word4 c (grid4.coords (pt4 a p j)) tbM4 (tbl4 a c)) (fun j => htbl c _)
    (fun j => iblk4 V a c 1 (pt4 a p j)) (fun j => iblk4 V a c 0 (pt4 a p j))
    (fun j => outsAt4 V a htbl c (pt4 a p j).val (pt4 a p j).isLt) 85 ?_ ?_ r f (p.val * 86) start T u ?_ ?_ ?_
  · refine ⟨k4_pay1 (F := Ideal), ?_⟩
    have h0 : (pt4 a p 0).val % 86 = 0 := by rw [pt4_val a p 0 (by omega)]; omega
    exact (outsAt4_eq V a htbl c (pt4 a p 0) (k4_pay1 (F := Ideal)) (.inl h0)).trans
      (stepAt4_eq V a htbl c _ _ true (decide_eq_true (by rw [coords4_1]; exact h0)))
  · intro j hj
    have hv : (pt4 a p (j + 1)).val = p.val * 86 + (j + 1) := pt4_val a p (j + 1) (by omega)
    have hv' : (pt4 a p j).val = p.val * 86 + j := pt4_val a p j (by omega)
    have hne : ¬((pt4 a p (j + 1)).val % 86 = 0) := by rw [hv]; omega
    exact (outsAt4_eq V a htbl c (pt4 a p (j + 1)) _
        (.inr ⟨by rw [hv]; omega, outs4_congr V a htbl c (by rw [hv, hv']; omega) _ _⟩)).trans
      (stepAt4_eq V a htbl c _ _ false (decide_eq_false (by rw [coords4_1]; exact hne)))
  · intro j hj
    show ((word4 c (grid4.coords (pt4 a p j)) tbM4 (tbl4 a c)).toNat : ℤ) = start (p.val * 86 + j)
    rw [← start_toInt4 _ (htbl c _), hstart, pt4_val a p j hj]
  · intro j hj k
    show ((iblk4 V a c 1 (pt4 a p j) : Vec Ideal S1x2048 .i32) (ValueIdx.ix2 0 k)).toInt = _
    rw [hT, pt4_val a p j hj]
  · intro j hj k
    show (iblk4 V a c 0 (pt4 a p j) : Vec Ideal S2048x16 .bf16) (ValueIdx.ix2 k f) = _
    rw [hu, pt4_val a p j hj]

end Row

end Cert.KernelIdeal.HandVal

end
-- ==== Proof.KI.SegVal5.lean ====
/- The value of segment-sum call 5 at the extended reals (the same mathematics as the first call's, at this call's shapes). One grid point adds, into the 2056 rows of the
   slab that start at the point's window start, the product of a one-hot5 matrix (row r', column k: is the k-th id of
   the point's block, minus the window start, equal to r'?) with the block's 2048 value rows; the first point of a row
   of the grid starts from the zero slab. Read at one slab element this is a sum over the block's entries; iterated
   over the points of a row it is the windowed sum of the pure specification. -/
import proofs.«402757_j20469814133395_4_alg».proof.Proof.Gen.KernelIdeal.Skeleton
import proofs.«402757_j20469814133395_4_alg».proof.Proof.Math.SegSum
import proofs.«402757_j20469814133395_4_alg».proof.Proof.KI.SegVal1
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen
open Idealize.ShloMosaic Idealize.ShloMosaic.ValueIdx
open Finset

/-! ## One point's step on the slab, at any float instance -/

section Step
variable {F : FTy → Type} [FloatOps F]

/-- The 2056 rows of the slab from the window start. -/
abbrev winRect5 (w : BitVec 32) (hchk : k5_chk1 w) : Rect S1x50000x16 :=
  Rect.unit (s := S1x50000x16) (k5_off2 w) S1x2056x16.size (k5_off2_inb w hchk)

/-- What one grid point leaves in the slab: from the zero slab at a row's first point, else from what the point
    before left, the window's rows replaced by themselves plus the one-hot5 product. -/
def slabStep5 (j0 : Bool) (w : BitVec 32) (hchk : k5_chk1 w) (tb : Vec F S1x2048 .i32) (vb : Vec F S2048x16 .bf16)
    (prev : Vec F S1x50000x16 .f32) : Vec F S1x50000x16 .f32 :=
  let base := if j0 then k5_pay1 else prev
  (winRect5 w hchk).overlay base (k5_pay2 w tb vb (View.ld base (winRect5 w hchk)))

end Step

/-! ## Words: the one-hot5 test as a test on integers -/

/-- The window start's in-bounds fact, in numbers. -/
theorem chk_le5 (w : BitVec 32) (hchk : k5_chk1 w) : w.toNat + 2056 ≤ 50000 := hchk.2 1

/-! ## The payload at an element -/

/-- The one-hot5 product's term for entry k at local row r'. -/
abbrev hot5 (w : BitVec 32) (tb : Vec Ideal S1x2048 .i32) (vb : Vec Ideal S2048x16 .bf16) (r' : ℕ) (f : Fin 16) (k : Fin 2048) : EReal :=
  (if tb (ValueIdx.ix2 0 k) - w = BitVec.ofNat 32 r' then (1 : EReal) else 0) * vb (ValueIdx.ix2 k f)

/-! The product's operand indices: the left operand at (row, entry), the right at (entry, feature). -/
theorem lhs_seg5_0 (i : S2056x16.Idx) (q : dot_S2056x2048_S2048x16_S2056x16_1_0_0_1_n_n.contr.Idx) :
    (dot_S2056x2048_S2048x16_S2056x16_1_0_0_1_n_n.lhsIdx i q 0).val = (i 0).val := by
  unfold DotDims.lhsIdx
  rw [dif_neg (show ¬(0 : Fin S2056x2048.rank) ∈ dot_S2056x2048_S2048x16_S2056x16_1_0_0_1_n_n.lhsBatch by decide), dif_pos (show (0 : Fin S2056x2048.rank) ∈ dot_S2056x2048_S2048x16_S2056x16_1_0_0_1_n_n.lhsNonContracting by decide)]
  rfl
theorem lhs_seg5_1 (i : S2056x16.Idx) (q : dot_S2056x2048_S2048x16_S2056x16_1_0_0_1_n_n.contr.Idx) :
    (dot_S2056x2048_S2048x16_S2056x16_1_0_0_1_n_n.lhsIdx i q 1).val = (q ⟨0, by decide⟩).val :=
  dot_S2056x2048_S2048x16_S2056x16_1_0_0_1_n_n.lhsIdx_val_of_single rfl i q
theorem rhs_seg5_0 (i : S2056x16.Idx) (q : dot_S2056x2048_S2048x16_S2056x16_1_0_0_1_n_n.contr.Idx) :
    (dot_S2056x2048_S2048x16_S2056x16_1_0_0_1_n_n.rhsIdx i q 0).val = (q ⟨0, by decide⟩).val :=
  dot_S2056x2048_S2048x16_S2056x16_1_0_0_1_n_n.rhsIdx_val_of_single rfl i q
theorem rhs_seg5_1 (i : S2056x16.Idx) (q : dot_S2056x2048_S2048x16_S2056x16_1_0_0_1_n_n.contr.Idx) :
    (dot_S2056x2048_S2048x16_S2056x16_1_0_0_1_n_n.rhsIdx i q 1).val = (i 1).val := by
  unfold DotDims.rhsIdx
  rw [dif_neg (show ¬(1 : Fin S2048x16.rank) ∈ dot_S2056x2048_S2048x16_S2056x16_1_0_0_1_n_n.rhsBatch by decide), dif_pos (show (1 : Fin S2048x16.rank) ∈ dot_S2056x2048_S2048x16_S2056x16_1_0_0_1_n_n.rhsNonContracting by decide)]
  rfl

/-- The one-hot5 matrix at (r', k): is the k-th id minus the start the row r'? -/
theorem onehot_apply5 (w : BitVec 32) (tb : Vec Ideal S1x2048 .i32) (r' : Fin 2056) (k : Fin 2048) :
    (truncf .bf16 (sitofp (F := Ideal) .f32 (extui 32 (cmpi .eq (iota .tc S2056x2048 32 [0] iota_S2056x2048_d0_w32)
        (broadcastTo S2056x2048 (subi (shapeCast S1x2048 tb shapeCasts_S1x2048_S1x2048) (broadcast S1x2048 w)) broadcasts_S1x2048_S2056x2048)) natLt_1_32)) bitsLt_bf16_f32
      : FVec Ideal S2056x2048 .bf16) (ValueIdx.ix2 r' k)
      = if tb (ValueIdx.ix2 0 k) - w = BitVec.ofNat 32 r'.val then (1 : EReal) else 0 := by
  rw [shapeCast_self]
  show ((((BitVec.ofBool (iota .tc S2056x2048 32 [0] iota_S2056x2048_d0_w32 (ValueIdx.ix2 r' k)
      == broadcastTo S2056x2048 (subi tb (broadcast S1x2048 w)) broadcasts_S1x2048_S2056x2048 (ValueIdx.ix2 r' k))).setWidth 32).toInt : ℝ) : EReal) = _
  rw [onehot_word, iota_single_apply,
    broadcastTo_apply (subi tb (broadcast S1x2048 w)) broadcasts_S1x2048_S2056x2048 (ValueIdx.ix2 r' k) (ValueIdx.ix2 0 k)
      (fun a => match a with | ⟨0, _⟩ => rfl | ⟨1, _⟩ => rfl)]
  rfl

theorem k5_pay2_apply (w : BitVec 32) (tb : Vec Ideal S1x2048 .i32) (vb : Vec Ideal S2048x16 .bf16)
    (cur : Vec Ideal S1x2056x16 .f32) (r' : Fin 2056) (f : Fin 16) :
    k5_pay2 (F := Ideal) w tb vb cur (ValueIdx.ix3 0 r' f) = cur (ValueIdx.ix3 0 r' f) + ∑ k : Fin 2048, hot5 w tb vb r'.val f k := by
  unfold k5_pay2
  show shapeCast S1x2056x16 (addf (shapeCast S2056x16 cur shapeCasts_S1x2056x16_S2056x16)
      (matmul dot_S2056x2048_S2048x16_S2056x16_1_0_0_1_n_n none
        (truncf .bf16 (sitofp (F := Ideal) .f32 (extui 32 (cmpi .eq (iota .tc S2056x2048 32 [0] iota_S2056x2048_d0_w32)
          (broadcastTo S2056x2048 (subi (shapeCast S1x2048 tb shapeCasts_S1x2048_S1x2048) (broadcast S1x2048 w)) broadcasts_S1x2048_S2056x2048)) natLt_1_32)) bitsLt_bf16_f32)
        (shapeCast S2048x16 vb shapeCasts_S2048x16_S2048x16) (constant S2056x16 .f32 0x00000000#32)))
      shapeCasts_S2056x16_S1x2056x16 (ValueIdx.ix3 0 r' f) = _
  rw [shapeCast_ab_1ab_apply, addf_apply, shapeCast_1ab_ab_apply, shapeCast_self vb]
  simp only [matmul]
  rw [Ideal.matmul_constant_zero_apply, ← Equiv.sum_comp (ValueIdx.contrEquiv1 dot_S2056x2048_S2048x16_S2056x16_1_0_0_1_n_n 2048 rfl rfl).symm]
  congr 1
  refine Finset.sum_congr rfl fun k _ => ?_
  have hk := ValueIdx.contrEquiv1_symm_val dot_S2056x2048_S2048x16_S2056x16_1_0_0_1_n_n 2048 rfl rfl k
  have el : dot_S2056x2048_S2048x16_S2056x16_1_0_0_1_n_n.lhsIdx (ValueIdx.ix2 r' f) ((ValueIdx.contrEquiv1 dot_S2056x2048_S2048x16_S2056x16_1_0_0_1_n_n 2048 rfl rfl).symm k) = ValueIdx.ix2 r' k := funext fun a => Fin.ext (by
    match a with
    | ⟨0, _⟩ => exact lhs_seg5_0 _ _
    | ⟨1, _⟩ => exact (lhs_seg5_1 _ _).trans hk)
  have er : dot_S2056x2048_S2048x16_S2056x16_1_0_0_1_n_n.rhsIdx (ValueIdx.ix2 r' f) ((ValueIdx.contrEquiv1 dot_S2056x2048_S2048x16_S2056x16_1_0_0_1_n_n 2048 rfl rfl).symm k) = ValueIdx.ix2 k f := funext fun a => Fin.ext (by
    match a with
    | ⟨0, _⟩ => exact (rhs_seg5_0 _ _).trans hk
    | ⟨1, _⟩ => exact rhs_seg5_1 _ _)
  rw [el, er, onehot_apply5]

theorem k5_pay1_apply (i : S1x50000x16.Idx) : k5_pay1 (F := Ideal) i = 0 := by
  unfold k5_pay1
  show Ideal.ofBits .f32 0x00000000#32 = 0
  exact Ideal.ofBits_zero_f32

/-! ## One step at an element -/

/-- A slab element is in the window exactly when its row is one of the window's 2056. -/
theorem mem_winRect5 (w : BitVec 32) (hchk : k5_chk1 w) (r : Fin 50000) (f : Fin 16) :
    (ValueIdx.ix3 (0 : Fin 1) r f : S1x50000x16.Idx) ∈ (winRect5 w hchk).set ↔ (w.toNat ≤ r.val ∧ r.val < w.toNat + 2056) := by
  rw [Rect.mem_set_unit]
  constructor
  · intro h; exact h 1
  · intro h a
    match a with
    | ⟨0, _⟩ => exact ⟨Nat.le_refl 0, Nat.zero_lt_one⟩
    | ⟨1, _⟩ => exact h
    | ⟨2, _⟩ => exact ⟨Nat.zero_le _, (Nat.zero_add 16).symm ▸ f.isLt⟩

/-- The window's rows replaced by themselves plus the one-hot5 product, read at a slab element, from any slab. -/
theorem overlayStep5_apply (w : BitVec 32) (hchk : k5_chk1 w) (tb : Vec Ideal S1x2048 .i32) (vb : Vec Ideal S2048x16 .bf16)
    (base : Vec Ideal S1x50000x16 .f32) (r : Fin 50000) (f : Fin 16) :
    (winRect5 w hchk).overlay base (k5_pay2 w tb vb (View.ld base (winRect5 w hchk))) (ValueIdx.ix3 0 r f)
      = base (ValueIdx.ix3 0 r f)
        + (if w.toNat ≤ r.val ∧ r.val < w.toNat + 2056 then ∑ k : Fin 2048, hot5 w tb vb (r.val - w.toNat) f k else 0) := by
  have hle := chk_le5 w hchk
  by_cases hin : w.toNat ≤ r.val ∧ r.val < w.toNat + 2056
  · rw [if_pos hin]
    have hr' : r.val - w.toNat < 2056 := by omega
    have he : (winRect5 w hchk).emb (ValueIdx.ix3 (0 : Fin 1) (⟨r.val - w.toNat, hr'⟩ : Fin 2056) f) = ValueIdx.ix3 0 r f := by
      funext a; refine Fin.ext ?_
      match a with
      | ⟨0, _⟩ => rfl
      | ⟨1, _⟩ => show w.toNat + 1 * (r.val - w.toNat) = r.val; omega
      | ⟨2, _⟩ => show 0 + 1 * f.val = f.val; omega
    rw [← he, Rect.overlay_emb, k5_pay2_apply]
    exact rfl
  · rw [if_neg hin, add_zero]
    exact Rect.overlay_of_not_mem _ _ _ (fun h => hin ((mem_winRect5 w hchk r f).mp h))

theorem slabStep5_apply (j0 : Bool) (w : BitVec 32) (hchk : k5_chk1 w) (tb : Vec Ideal S1x2048 .i32) (vb : Vec Ideal S2048x16 .bf16)
    (prev : Vec Ideal S1x50000x16 .f32) (r : Fin 50000) (f : Fin 16) :
    slabStep5 j0 w hchk tb vb prev (ValueIdx.ix3 0 r f)
      = (if j0 then 0 else prev (ValueIdx.ix3 0 r f))
        + (if w.toNat ≤ r.val ∧ r.val < w.toNat + 2056 then ∑ k : Fin 2048, hot5 w tb vb (r.val - w.toNat) f k else 0) := by
  unfold slabStep5
  refine (overlayStep5_apply w hchk tb vb _ r f).trans ?_
  refine congrArg (· + _) ?_
  cases j0
  · rw [if_neg Bool.false_ne_true, if_neg Bool.false_ne_true]
  · rw [if_pos rfl, if_pos rfl]; exact k5_pay1_apply _

/-! ## A row of the grid -/

/-- Any sequence of slabs that starts a row by a first-point step and continues by later-point steps holds, after
    point j, the sum over the points so far of their windows' one-hot5 products. -/
theorem row5_apply (w : ℕ → BitVec 32) (hchk : ∀ j, k5_chk1 (w j)) (tb : ℕ → Vec Ideal S1x2048 .i32) (vb : ℕ → Vec Ideal S2048x16 .bf16)
    (X : ℕ → Vec Ideal S1x50000x16 .f32) (n : ℕ)
    (h0 : ∃ prev, X 0 = slabStep5 true (w 0) (hchk 0) (tb 0) (vb 0) prev)
    (hs : ∀ j, j + 1 < n → X (j + 1) = slabStep5 false (w (j + 1)) (hchk (j + 1)) (tb (j + 1)) (vb (j + 1)) (X j))
    (r : Fin 50000) (f : Fin 16) : ∀ j, j < n →
    X j (ValueIdx.ix3 0 r f) = ∑ i ∈ range (j + 1),
      if (w i).toNat ≤ r.val ∧ r.val < (w i).toNat + 2056 then ∑ k : Fin 2048, hot5 (w i) (tb i) (vb i) (r.val - (w i).toNat) f k else 0 := by
  intro j
  induction j with
  | zero =>
    intro _
    obtain ⟨prev, h⟩ := h0
    rw [h, slabStep5_apply, Finset.sum_range_one, if_pos rfl, zero_add]
  | succ j ih =>
    intro hj
    rw [hs j hj, slabStep5_apply, ih (by omega), Finset.sum_range_succ _ (j + 1), if_neg Bool.false_ne_true]

/-- The same as the windowed sum of the specification over the row's blocks b0 … b0 + n - 1: start, T and u are
    the starts, the ids (signed) and the values of feature f, listed block after block. -/
theorem row5_eq_winSum (w : ℕ → BitVec 32) (hchk : ∀ j, k5_chk1 (w j)) (tb : ℕ → Vec Ideal S1x2048 .i32) (vb : ℕ → Vec Ideal S2048x16 .bf16)
    (X : ℕ → Vec Ideal S1x50000x16 .f32) (n : ℕ)
    (h0 : ∃ prev, X 0 = slabStep5 true (w 0) (hchk 0) (tb 0) (vb 0) prev)
    (hs : ∀ j, j + 1 < n + 1 → X (j + 1) = slabStep5 false (w (j + 1)) (hchk (j + 1)) (tb (j + 1)) (vb (j + 1)) (X j))
    (r : Fin 50000) (f : Fin 16) (b0 : ℕ) (start T : ℕ → ℤ) (u : ℕ → EReal)
    (hstart : ∀ j, j < n + 1 → ((w j).toNat : ℤ) = start (b0 + j))
    (hT : ∀ j, j < n + 1 → ∀ k : Fin 2048, (tb j (ValueIdx.ix2 0 k)).toInt = T ((b0 + j) * 2048 + k.val))
    (hu : ∀ j, j < n + 1 → ∀ k : Fin 2048, vb j (ValueIdx.ix2 k f) = u ((b0 + j) * 2048 + k.val)) :
    X n (ValueIdx.ix3 0 r f) = Cert.Math.SegSum.winSum (n + 1) (fun b => start (b0 + b)) (fun e => T (b0 * 2048 + e)) (fun e => u (b0 * 2048 + e)) (r.val : ℤ) := by
  rw [row5_apply w hchk tb vb X (n + 1) h0 hs r f n (Nat.lt_succ_self n)]
  simp only [Cert.Math.SegSum.winSum_def]
  refine Finset.sum_congr rfl fun i hi => ?_
  have hi' : i < n + 1 := Finset.mem_range.mp hi
  have hst := hstart i hi'
  have hle := chk_le5 (w i) (hchk i)
  have hcond : ((w i).toNat ≤ r.val ∧ r.val < (w i).toNat + 2056)
      ↔ (start (b0 + i) ≤ (r.val : ℤ) ∧ (r.val : ℤ) < start (b0 + i) + 2056) := by
    rw [← hst]; omega
  by_cases hc : (w i).toNat ≤ r.val ∧ r.val < (w i).toNat + 2056
  · rw [if_pos hc, if_pos (hcond.mp hc), Finset.sum_range]
    refine Finset.sum_congr rfl fun k _ => ?_
    have e : b0 * 2048 + (i * 2048 + k.val) = (b0 + i) * 2048 + k.val := by ring
    rw [e, ← hT i hi' k, ← hu i hi' k, ← hst]
    refine congrArg (· * vb i (ValueIdx.ix2 k f)) (if_congr ?_ rfl rfl)
    rw [word_test_iff _ _ _ hle (by omega)]
    omega
  · rw [if_neg hc, if_neg (fun h => hc (hcond.mpr h))]

end Cert.KernelIdeal.HandVal

end
-- ==== Proof.KI.SegVal5Row.lean ====
/- Segment-sum call 5's slab after a whole row of the grid, at the extended reals: the windowed sum of the
   pure specification over the row's 452 blocks, read at one slab element. The accumulation of the call's proof data is
   a row of steps in the sense of the value lemmas; the window starts are the table's words, the ids and the values the
   two input windows' blocks, and each block is the array's block row (values) or block column (ids) of the point. -/
import proofs.«402757_j20469814133395_4_alg».proof.Proof.KI.SegVal5
import proofs.«402757_j20469814133395_4_alg».proof.Proof.KI.SegDat5

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A window start that passes the body's check is below 2^31: its signed and unsigned readings agree. -/
theorem start_toInt5 (w : BitVec 32) (hchk : k5_chk1 w) : w.toInt = (w.toNat : ℤ) := by
  have hle := chk_le5 w hchk
  rw [BitVec.toInt_eq_toNat_cond]
  split <;> omega

/-! ## The input windows' blocks, read off their arrays (at any float instance) -/

section Blocks
variable {F : FTy → Type} [FloatOps F]
variable (V : (c : Dev nD) → (b : Ref sig .tc) → Buf (Elt F) ((c : Thread nD τ).loc b))
variable (a : (pcfg5 (F := F)).Adm)

/-- The two input windows' block indices at point t: block row t of the values, block column t of the ids. -/
theorem idx_facts5 : ∀ t : Fin grid5.N, cc5_transform_0 (grid5.coords t) 0 = t.val ∧ cc5_transform_0 (grid5.coords t) 1 = 0
    ∧ cc5_transform_1 (grid5.coords t) 0 = 0 ∧ cc5_transform_1 (grid5.coords t) 1 = t.val := by decide +kernel

/-- Entry k, feature f of the values' block at point t is row 2048 t + k of the values' array. -/
theorem iblk5_0_at (c : Dev nD) (t : Fin (cfg5 a).N) (k : Fin 2048) (f : Fin 16) (i : S1851392x16.Idx)
    (hi0 : (i 0).val = t.val * 2048 + k.val) (hi1 : (i 1).val = f.val) :
    (iblk5 V a c 0 t : Vec F S2048x16 .bf16) (ValueIdx.ix2 k f) = (V c (Pipeline.arrRef spec5 0) : S1851392x16.Idx → Elt F .bf16) i := by
  show (V c (Pipeline.arrRef spec5 0) : S1851392x16.Idx → Elt F .bf16) ((((cfg5 a).win 0).blk t).view.emb (ValueIdx.ix2 k f)) = _
  refine congrArg _ (funext fun b => Fin.ext ?_)
  obtain ⟨e0, e1, e2, e3⟩ := idx_facts5 t
  match b with
  | ⟨0, _⟩ =>
    show cc5_transform_0 (grid5.coords t) (0 : Fin 2) * 2048 + 1 * k.val = (i 0).val
    rw [e0, hi0]; omega
  | ⟨1, _⟩ =>
    show cc5_transform_0 (grid5.coords t) (1 : Fin 2) * 16 + 1 * f.val = (i 1).val
    rw [e1, hi1]; omega

/-- Entry k of the ids' block at point t is entry 2048 t + k of the ids' array. -/
theorem iblk5_1_at (c : Dev nD) (t : Fin (cfg5 a).N) (k : Fin 2048) (i : S1x1851392.Idx)
    (hi1 : (i 1).val = t.val * 2048 + k.val) :
    (iblk5 V a c 1 t : Vec F S1x2048 .i32) (ValueIdx.ix2 0 k) = (V c (Pipeline.arrRef spec5 1) : S1x1851392.Idx → Elt F .i32) i := by
  show (V c (Pipeline.arrRef spec5 1) : S1x1851392.Idx → Elt F .i32) ((((cfg5 a).win 1).blk t).view.emb (ValueIdx.ix2 0 k)) = _
  refine congrArg _ (funext fun b => Fin.ext ?_)
  obtain ⟨e0, e1, e2, e3⟩ := idx_facts5 t
  match b with
  | ⟨0, _⟩ =>
    show cc5_transform_1 (grid5.coords t) (0 : Fin 2) * 1 + 1 * 0 = (i 0).val
    have h0 : (i 0).val < 1 := (i 0).isLt
    rw [e2]; omega
  | ⟨1, _⟩ =>
    show cc5_transform_1 (grid5.coords t) (1 : Fin 2) * 2048 + 1 * k.val = (i 1).val
    rw [e3, hi1]; omega

end Blocks

/-! ## A row of the accumulation -/

section Row
variable (V : (c : Dev nD) → (b : Ref sig .tc) → Buf (Elt Ideal) ((c : Thread nD τ).loc b))
variable (a : (pcfg5 (F := Ideal)).Adm)
variable (htbl : ∀ (c : Dev nD) (i : grid5.Coords), k5_chk1 (word5 c i tbM5 (tbl5 a c)))

/-- Point j of row p of the grid (clamped into the grid, so that it is a point for every j). -/
def pt5 (p : Fin 2) (j : ℕ) : Fin (cfg5 a).N :=
  ⟨min (p.val * 452 + j) 903, lt_of_lt_of_eq (by omega) (show (cfg5 a).N = 904 from N_5).symm⟩

theorem pt5_val (p : Fin 2) (j : ℕ) (hj : j < 452) : (pt5 a p j).val = p.val * 452 + j := by
  show min (p.val * 452 + j) 903 = _
  have := p.isLt; omega

/-- The accumulation at equal positions. -/
theorem outs5_congr (c : Dev nD) {n n' : ℕ} (h : n = n') (hn : n < (cfg5 a).N) (hn' : n' < (cfg5 a).N) :
    outsAt5 V a htbl c n hn = outsAt5 V a htbl c n' hn' := by
  subst h; rfl

/-- A point's step is a step of the value lemmas. -/
theorem stepAt5_eq (c : Dev nD) (t : Fin (cfg5 a).N) (prev : Vec Ideal S1x50000x16 .f32) (b : Bool)
    (hb : decide (((grid5.coords t) 1).val = 0) = b) :
    stepAt5 V a htbl c t prev
      = slabStep5 b (word5 c (grid5.coords t) tbM5 (tbl5 a c)) (htbl c (grid5.coords t)) (iblk5 V a c 1 t) (iblk5 V a c 0 t) prev := by
  subst hb; rfl

/-- THE ROW. After the last point of row p the slab holds, at node r and feature f, the windowed sum over the row's
    452 blocks: start, T and u list the window starts, the ids (signed) and the values of feature f, point after point. -/
theorem outs5_row (c : Dev nD) (p : Fin 2) (r : Fin 50000) (f : Fin 16) (start T : ℕ → ℤ) (u : ℕ → EReal)
    (hstart : ∀ t : Fin (cfg5 a).N, (word5 c (grid5.coords t) tbM5 (tbl5 a c)).toInt = start t.val)
    (hT : ∀ (t : Fin (cfg5 a).N) (k : Fin 2048),
      ((iblk5 V a c 1 t : Vec Ideal S1x2048 .i32) (ValueIdx.ix2 0 k)).toInt = T (t.val * 2048 + k.val))
    (hu : ∀ (t : Fin (cfg5 a).N) (k : Fin 2048),
      (iblk5 V a c 0 t : Vec Ideal S2048x16 .bf16) (ValueIdx.ix2 k f) = u (t.val * 2048 + k.val))
    (hn : p.val * 452 + 451 < (cfg5 a).N) :
    outsAt5 V a htbl c (p.val * 452 + 451) hn (ValueIdx.ix3 0 r f)
      = Cert.Math.SegSum.winSum 452 (fun b => start (p.val * 452 + b)) (fun e => T (p.val * 452 * 2048 + e))
          (fun e => u (p.val * 452 * 2048 + e)) (r.val : ℤ) := by
  have hp := p.isLt
  rw [outs5_congr V a htbl c (pt5_val a p 451 (by omega)).symm hn (pt5 a p 451).isLt]
  refine row5_eq_winSum (fun j => word5 c (grid5.coords (pt5 a p j)) tbM5 (tbl5 a c)) (fun j => htbl c _)
    (fun j => iblk5 V a c 1 (pt5 a p j)) (fun j => iblk5 V a c 0 (pt5 a p j))
    (fun j => outsAt5 V a htbl c (pt5 a p j).val (pt5 a p j).isLt) 451 ?_ ?_ r f (p.val * 452) start T u ?_ ?_ ?_
  · refine ⟨k5_pay1 (F := Ideal), ?_⟩
    have h0 : (pt5 a p 0).val % 452 = 0 := by rw [pt5_val a p 0 (by omega)]; omega
    exact (outsAt5_eq V a htbl c (pt5 a p 0) (k5_pay1 (F := Ideal)) (.inl h0)).trans
      (stepAt5_eq V a htbl c _ _ true (decide_eq_true (by rw [coords5_1]; exact h0)))
  · intro j hj
    have hv : (pt5 a p (j + 1)).val = p.val * 452 + (j + 1) := pt5_val a p (j + 1) (by omega)
    have hv' : (pt5 a p j).val = p.val * 452 + j := pt5_val a p j (by omega)
    have hne : ¬((pt5 a p (j + 1)).val % 452 = 0) := by rw [hv]; omega
    exact (outsAt5_eq V a htbl c (pt5 a p (j + 1)) _
        (.inr ⟨by rw [hv]; omega, outs5_congr V a htbl c (by rw [hv, hv']; omega) _ _⟩)).trans
      (stepAt5_eq V a htbl c _ _ false (decide_eq_false (by rw [coords5_1]; exact hne)))
  · intro j hj
    show ((word5 c (grid5.coords (pt5 a p j)) tbM5 (tbl5 a c)).toNat : ℤ) = start (p.val * 452 + j)
    rw [← start_toInt5 _ (htbl c _), hstart, pt5_val a p j hj]
  · intro j hj k
    show ((iblk5 V a c 1 (pt5 a p j) : Vec Ideal S1x2048 .i32) (ValueIdx.ix2 0 k)).toInt = _
    rw [hT, pt5_val a p j hj]
  · intro j hj k
    show (iblk5 V a c 0 (pt5 a p j) : Vec Ideal S2048x16 .bf16) (ValueIdx.ix2 k f) = _
    rw [hu, pt5_val a p j hj]

end Row

end Cert.KernelIdeal.HandVal

end
-- ==== Proof.KI.SegArr1.lean ====
/- What the output array of segment-sum call 1 holds after the region: each of its two blocks is what the accumulation
   leaves in the slab at the last point of that block's row of the grid; the input arrays are unchanged. -/
import proofs.«402757_j20469814133395_4_alg».proof.Proof.KI.SegDat1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the slab's array holds after the region -/

section Arr

variable (V : (c : Dev nD) → (b : Ref sig .tc) → Buf (Elt F) ((c : Thread nD τ).loc b))
variable (a : (pcfg1 (F := F)).Adm)
variable (htbl : ∀ (c : Dev nD) (i : grid1.Coords), k1_chk1 (word1 c i tbM1 (tbl1 a c)))

/-- The accumulation does not depend on how its position is written. -/
theorem outsAt1_congr (c : Dev nD) {n n' : ℕ} (h : n = n') (hn : n < (cfg1 a).N) (hn' : n' < (cfg1 a).N) :
    outsAt1 V a htbl c n hn = outsAt1 V a htbl c n' hn' := by subst h; rfl

/-- The last point of row p is a point of the grid. -/
theorem rowEnd1_lt (i : S2x50000x64.Idx) : (i 0).val * 86 + 85 < (cfg1 a).N := by
  have h : (i 0).val < 2 := (i 0).isLt
  show _ < grid1.N
  rw [N_1]; omega

/-- What the array ends holding: block p is what the accumulation leaves at the last point of row p. -/
def final1 (c : Dev nD) : S2x50000x64.Idx → Elt F .f32 := fun i =>
  outsAt1 V a htbl c ((i 0).val * 86 + 85) (rowEnd1_lt a i) (ValueIdx.ix3 (0 : Fin 1) ⟨(i 1).val, (i 1).isLt⟩ ⟨(i 2).val, (i 2).isLt⟩)

theorem final1_apply (c : Dev nD) (i : S2x50000x64.Idx) : final1 V a htbl c i
    = outsAt1 V a htbl c ((i 0).val * 86 + 85) (rowEnd1_lt a i) (ValueIdx.ix3 (0 : Fin 1) ⟨(i 1).val, (i 1).isLt⟩ ⟨(i 2).val, (i 2).isLt⟩) := rfl

/-- The slab window's block index at point t is (t / 86, 0, 0), at any contents of the table. -/
theorem index1_2 : ∀ t : Fin (cfg1 a).N, ((cfg1 a).win 2).index t = ![t.val / 86, 0, 0] :=
  (by decide +kernel : ∀ t : Fin grid1.N, cc1_transform_2 (grid1.coords t) = ![t.val / 86, 0, 0])

/-- An element of the block at point t sits in the array, on each axis, at the block index times the block's size plus
    its own coordinate. -/
theorem blk1_2_emb (t : Fin (cfg1 a).N) (j : S1x50000x64.Idx) (b : Fin 3) :
    ((((cfg1 a).win 2).blk t).view.emb j : S2x50000x64.Idx) b = (((cfg1 a).win 2).index t b * S1x50000x64.size b + (j b).val : ℕ) :=
  ((cfg1 a).win 2).rect_emb_val t j b

set_option maxHeartbeats 100000 in
/-- Writing back a staging buffer holding X writes the block of G it is, when X is G's block elementwise. -/
theorem cut_eq_read1_2 (t : Fin (cfg1 a).N) (X : S1x50000x64.Idx → Elt F .f32) (G : S2x50000x64.Idx → Elt F .f32)
    (h : ∀ j : S1x50000x64.Idx, X j = G ((((cfg1 a).win 2).blk t).view.emb j)) :
    ((cfg1 a).win 2).cut (grid1.coords t) X = (((cfg1 a).win 2).blk t).view.read (Elt F) G :=
  funext fun j => h j

set_option maxHeartbeats 100000 in
/-- The final contents at an index of row t / 86, for t a row's last point, are the accumulation at t at the index's
    two inner coordinates. -/
theorem final1_row (c : Dev nD) (t : Fin (cfg1 a).N) (hf : t.val % 86 = 85) (j : S1x50000x64.Idx) (i : S2x50000x64.Idx)
    (e : ∀ b : Fin 3, (i b).val = (![t.val / 86, 0, 0] : Fin 3 → ℕ) b * S1x50000x64.size b + (j b).val) :
    final1 V a htbl c i = outsAt1 V a htbl c t.val t.isLt j := by
  have j0 : (j 0).val < 1 := (j 0).isLt
  have e0 : (i 0).val = t.val / 86 * 1 + (j 0).val := e 0
  have e1 : (i 1).val = 0 * 50000 + (j 1).val := e 1
  have e2 : (i 2).val = 0 * 64 + (j 2).val := e 2
  rw [final1_apply, outsAt1_congr V a htbl c (show (i 0).val * 86 + 85 = t.val by omega) _ t.isLt]
  refine congrArg _ (funext fun b => Fin.ext ?_)
  match b with
  | ⟨0, _⟩ => show (0 : ℕ) = (j 0).val; omega
  | ⟨1, _⟩ => show (i 1).val = (j 1).val; omega
  | ⟨2, _⟩ => show (i 2).val = (j 2).val; omega

set_option maxHeartbeats 100000 in
/-- At a row's last point t the final contents, at an element of t's block, are the accumulation at t at that element. -/
theorem final1_emb (c : Dev nD) (t : Fin (cfg1 a).N) (hf : t.val % 86 = 85) (j : S1x50000x64.Idx) :
    final1 V a htbl c ((((cfg1 a).win 2).blk t).view.emb j) = outsAt1 V a htbl c t.val t.isLt j :=
  final1_row V a htbl c t hf j _ fun b => (blk1_2_emb a t j b).trans (by rw [index1_2])

set_option maxHeartbeats 100000 in
/-- WHAT A ROW'S LAST POINT WRITES BACK is its block of the final contents. -/
theorem flushed1_eq (c : Dev nD) (t : Fin (cfg1 a).N) (hf : t.val % 86 = 85) :
    (dat1 V a htbl c).flushed 2 t = (((cfg1 a).win 2).blk t).view.read (Elt F) (final1 V a htbl c) := by
  unfold Dat.flushed
  rw [after1_2]
  exact cut_eq_read1_2 a t _ _ fun j => (final1_emb V a htbl c t hf j).symm

set_option maxHeartbeats 100000 in
/-- An index of the array whose row is point t's row is in point t's block. -/
theorem mem_blk1_2 (t : Fin (cfg1 a).N) (i : S2x50000x64.Idx) (h : (i 0).val = t.val / 86) :
    i ∈ (((cfg1 a).win 2).blk t).view.set := by
  have e : i = (((cfg1 a).win 2).blk t).view.emb
      (ValueIdx.ix3 (0 : Fin 1) ⟨(i 1).val, (i 1).isLt⟩ ⟨(i 2).val, (i 2).isLt⟩ : S1x50000x64.Idx) := by
    funext b; apply Fin.ext
    rw [blk1_2_emb, index1_2]
    match b with
    | ⟨0, _⟩ => show (i 0).val = t.val / 86 * 1 + 0; omega
    | ⟨1, _⟩ => show (i 1).val = 0 * 50000 + (i 1).val; omega
    | ⟨2, _⟩ => show (i 2).val = 0 * 64 + (i 2).val; omega
  rw [e]; exact View.emb_mem_set _ _

set_option maxHeartbeats 100000 in
/-- The two rows' blocks cover the array. -/
theorem cover1_2 (i : S2x50000x64.Idx) :
    ∃ t : Fin (cfg1 a).N, ((cfg1 a).win 2).flush t = true ∧ i ∈ (((cfg1 a).win 2).blk t).view.set := by
  have h0 : (i 0).val < 2 := (i 0).isLt
  exact ⟨⟨(i 0).val * 86 + 85, rowEnd1_lt a i⟩, (flush1_2 a _).mpr (by show ((i 0).val * 86 + 85) % 86 = 85; omega),
    mem_blk1_2 a _ i (by show (i 0).val = ((i 0).val * 86 + 85) / 86; omega)⟩

/-- THE SLAB'S ARRAY after the region: block p is what the accumulation leaves at the last point of row p. -/
theorem arr1_final (c : Dev nD) : (dat1 V a htbl c).arrAt 2 (cfg1 a).N = final1 V a htbl c :=
  (dat1 V a htbl c).arrAt_eq_of_cover 2 (final1 V a htbl c)
    (fun t hf => flushed1_eq V a htbl c t ((flush1_2 a t).mp hf)) (cover1_2 a)

/-- The input arrays are never written. -/
theorem arr1_in0 (c : Dev nD) (n : ℕ) : (dat1 V a htbl c).arrAt 0 n = V c (Pipeline.arrRef spec1 0) :=
  ((dat1 V a htbl c).arrAt_in 0 rfl n).trans (A_eq1 V a htbl c 0)
theorem arr1_in1 (c : Dev nD) (n : ℕ) : (dat1 V a htbl c).arrAt 1 n = V c (Pipeline.arrRef spec1 1) :=
  ((dat1 V a htbl c).arrAt_in 1 rfl n).trans (A_eq1 V a htbl c 1)

/-- THE ACCUMULATION AS A FOLD over a row: at point 86 * q + j (j < 86) the slab is the step at the row's first point
    from the all-zero slab, stepped through the next j points. -/
theorem outsAt1_acc (c : Dev nD) (q j : ℕ) (hj : j < 86) (h : 86 * q + j < (cfg1 a).N) :
    outsAt1 V a htbl c (86 * q + j) h
      = Pipeline.accAt (N := (cfg1 a).N) (fun n hn => stepAt1 V a htbl c ⟨n, hn⟩ k1_pay1)
          (fun n hn acc => stepAt1 V a htbl c ⟨n, hn⟩ acc) (86 * q) j h :=
  Pipeline.eq_accAt (N := (cfg1 a).N) (fun n hn => outsAt1 V a htbl c n hn) 86 _ _
    (fun n hn h0 => outsAt1_eq V a htbl c ⟨n, hn⟩ _ (.inl h0))
    (fun n hn _ => rfl) q j hj h

end Arr

end Cert.KernelIdeal.Hand

end
-- ==== Proof.KI.SegArr2.lean ====
/- What the output array of segment-sum call 2 holds after the region: each of its two blocks is what the accumulation
   leaves in the slab at the last point of that block's row of the grid; the input arrays are unchanged. -/
import proofs.«402757_j20469814133395_4_alg».proof.Proof.KI.SegDat2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the slab's array holds after the region -/

section Arr

variable (V : (c : Dev nD) → (b : Ref sig .tc) → Buf (Elt F) ((c : Thread nD τ).loc b))
variable (a : (pcfg2 (F := F)).Adm)
variable (htbl : ∀ (c : Dev nD) (i : grid2.Coords), k2_chk1 (word2 c i tbM2 (tbl2 a c)))

/-- The accumulation does not depend on how its position is written. -/
theorem outsAt2_congr (c : Dev nD) {n n' : ℕ} (h : n = n') (hn : n < (cfg2 a).N) (hn' : n' < (cfg2 a).N) :
    outsAt2 V a htbl c n hn = outsAt2 V a htbl c n' hn' := by subst h; rfl

/-- The last point of row p is a point of the grid. -/
theorem rowEnd2_lt (i : S2x50000x64.Idx) : (i 0).val * 452 + 451 < (cfg2 a).N := by
  have h : (i 0).val < 2 := (i 0).isLt
  show _ < grid2.N
  rw [N_2]; omega

/-- What the array ends holding: block p is what the accumulation leaves at the last point of row p. -/
def final2 (c : Dev nD) : S2x50000x64.Idx → Elt F .f32 := fun i =>
  outsAt2 V a htbl c ((i 0).val * 452 + 451) (rowEnd2_lt a i) (ValueIdx.ix3 (0 : Fin 1) ⟨(i 1).val, (i 1).isLt⟩ ⟨(i 2).val, (i 2).isLt⟩)

theorem final2_apply (c : Dev nD) (i : S2x50000x64.Idx) : final2 V a htbl c i
    = outsAt2 V a htbl c ((i 0).val * 452 + 451) (rowEnd2_lt a i) (ValueIdx.ix3 (0 : Fin 1) ⟨(i 1).val, (i 1).isLt⟩ ⟨(i 2).val, (i 2).isLt⟩) := rfl

/-- The slab window's block index at point t is (t / 452, 0, 0), at any contents of the table. -/
theorem index2_2 : ∀ t : Fin (cfg2 a).N, ((cfg2 a).win 2).index t = ![t.val / 452, 0, 0] :=
  (by decide +kernel : ∀ t : Fin grid2.N, cc2_transform_2 (grid2.coords t) = ![t.val / 452, 0, 0])

/-- An element of the block at point t sits in the array, on each axis, at the block index times the block's size plus
    its own coordinate. -/
theorem blk2_2_emb (t : Fin (cfg2 a).N) (j : S1x50000x64.Idx) (b : Fin 3) :
    ((((cfg2 a).win 2).blk t).view.emb j : S2x50000x64.Idx) b = (((cfg2 a).win 2).index t b * S1x50000x64.size b + (j b).val : ℕ) :=
  ((cfg2 a).win 2).rect_emb_val t j b

set_option maxHeartbeats 100000 in
/-- Writing back a staging buffer holding X writes the block of G it is, when X is G's block elementwise. -/
theorem cut_eq_read2_2 (t : Fin (cfg2 a).N) (X : S1x50000x64.Idx → Elt F .f32) (G : S2x50000x64.Idx → Elt F .f32)
    (h : ∀ j : S1x50000x64.Idx, X j = G ((((cfg2 a).win 2).blk t).view.emb j)) :
    ((cfg2 a).win 2).cut (grid2.coords t) X = (((cfg2 a).win 2).blk t).view.read (Elt F) G :=
  funext fun j => h j

set_option maxHeartbeats 100000 in
/-- The final contents at an index of row t / 452, for t a row's last point, are the accumulation at t at the index's
    two inner coordinates. -/
theorem final2_row (c : Dev nD) (t : Fin (cfg2 a).N) (hf : t.val % 452 = 451) (j : S1x50000x64.Idx) (i : S2x50000x64.Idx)
    (e : ∀ b : Fin 3, (i b).val = (![t.val / 452, 0, 0] : Fin 3 → ℕ) b * S1x50000x64.size b + (j b).val) :
    final2 V a htbl c i = outsAt2 V a htbl c t.val t.isLt j := by
  have j0 : (j 0).val < 1 := (j 0).isLt
  have e0 : (i 0).val = t.val / 452 * 1 + (j 0).val := e 0
  have e1 : (i 1).val = 0 * 50000 + (j 1).val := e 1
  have e2 : (i 2).val = 0 * 64 + (j 2).val := e 2
  rw [final2_apply, outsAt2_congr V a htbl c (show (i 0).val * 452 + 451 = t.val by omega) _ t.isLt]
  refine congrArg _ (funext fun b => Fin.ext ?_)
  match b with
  | ⟨0, _⟩ => show (0 : ℕ) = (j 0).val; omega
  | ⟨1, _⟩ => show (i 1).val = (j 1).val; omega
  | ⟨2, _⟩ => show (i 2).val = (j 2).val; omega

set_option maxHeartbeats 100000 in
/-- At a row's last point t the final contents, at an element of t's block, are the accumulation at t at that element. -/
theorem final2_emb (c : Dev nD) (t : Fin (cfg2 a).N) (hf : t.val % 452 = 451) (j : S1x50000x64.Idx) :
    final2 V a htbl c ((((cfg2 a).win 2).blk t).view.emb j) = outsAt2 V a htbl c t.val t.isLt j :=
  final2_row V a htbl c t hf j _ fun b => (blk2_2_emb a t j b).trans (by rw [index2_2])

set_option maxHeartbeats 100000 in
/-- WHAT A ROW'S LAST POINT WRITES BACK is its block of the final contents. -/
theorem flushed2_eq (c : Dev nD) (t : Fin (cfg2 a).N) (hf : t.val % 452 = 451) :
    (dat2 V a htbl c).flushed 2 t = (((cfg2 a).win 2).blk t).view.read (Elt F) (final2 V a htbl c) := by
  unfold Dat.flushed
  rw [after2_2]
  exact cut_eq_read2_2 a t _ _ fun j => (final2_emb V a htbl c t hf j).symm

set_option maxHeartbeats 100000 in
/-- An index of the array whose row is point t's row is in point t's block. -/
theorem mem_blk2_2 (t : Fin (cfg2 a).N) (i : S2x50000x64.Idx) (h : (i 0).val = t.val / 452) :
    i ∈ (((cfg2 a).win 2).blk t).view.set := by
  have e : i = (((cfg2 a).win 2).blk t).view.emb
      (ValueIdx.ix3 (0 : Fin 1) ⟨(i 1).val, (i 1).isLt⟩ ⟨(i 2).val, (i 2).isLt⟩ : S1x50000x64.Idx) := by
    funext b; apply Fin.ext
    rw [blk2_2_emb, index2_2]
    match b with
    | ⟨0, _⟩ => show (i 0).val = t.val / 452 * 1 + 0; omega
    | ⟨1, _⟩ => show (i 1).val = 0 * 50000 + (i 1).val; omega
    | ⟨2, _⟩ => show (i 2).val = 0 * 64 + (i 2).val; omega
  rw [e]; exact View.emb_mem_set _ _

set_option maxHeartbeats 100000 in
/-- The two rows' blocks cover the array. -/
theorem cover2_2 (i : S2x50000x64.Idx) :
    ∃ t : Fin (cfg2 a).N, ((cfg2 a).win 2).flush t = true ∧ i ∈ (((cfg2 a).win 2).blk t).view.set := by
  have h0 : (i 0).val < 2 := (i 0).isLt
  exact ⟨⟨(i 0).val * 452 + 451, rowEnd2_lt a i⟩, (flush2_2 a _).mpr (by show ((i 0).val * 452 + 451) % 452 = 451; omega),
    mem_blk2_2 a _ i (by show (i 0).val = ((i 0).val * 452 + 451) / 452; omega)⟩

/-- THE SLAB'S ARRAY after the region: block p is what the accumulation leaves at the last point of row p. -/
theorem arr2_final (c : Dev nD) : (dat2 V a htbl c).arrAt 2 (cfg2 a).N = final2 V a htbl c :=
  (dat2 V a htbl c).arrAt_eq_of_cover 2 (final2 V a htbl c)
    (fun t hf => flushed2_eq V a htbl c t ((flush2_2 a t).mp hf)) (cover2_2 a)

/-- The input arrays are never written. -/
theorem arr2_in0 (c : Dev nD) (n : ℕ) : (dat2 V a htbl c).arrAt 0 n = V c (Pipeline.arrRef spec2 0) :=
  ((dat2 V a htbl c).arrAt_in 0 rfl n).trans (A_eq2 V a htbl c 0)
theorem arr2_in1 (c : Dev nD) (n : ℕ) : (dat2 V a htbl c).arrAt 1 n = V c (Pipeline.arrRef spec2 1) :=
  ((dat2 V a htbl c).arrAt_in 1 rfl n).trans (A_eq2 V a htbl c 1)

/-- THE ACCUMULATION AS A FOLD over a row: at point 452 * q + j (j < 452) the slab is the step at the row's first point
    from the all-zero slab, stepped through the next j points. -/
theorem outsAt2_acc (c : Dev nD) (q j : ℕ) (hj : j < 452) (h : 452 * q + j < (cfg2 a).N) :
    outsAt2 V a htbl c (452 * q + j) h
      = Pipeline.accAt (N := (cfg2 a).N) (fun n hn => stepAt2 V a htbl c ⟨n, hn⟩ k2_pay1)
          (fun n hn acc => stepAt2 V a htbl c ⟨n, hn⟩ acc) (452 * q) j h :=
  Pipeline.eq_accAt (N := (cfg2 a).N) (fun n hn => outsAt2 V a htbl c n hn) 452 _ _
    (fun n hn h0 => outsAt2_eq V a htbl c ⟨n, hn⟩ _ (.inl h0))
    (fun n hn _ => rfl) q j hj h

end Arr

end Cert.KernelIdeal.Hand

end
-- ==== Proof.KI.SegArr4.lean ====
/- What the output array of segment-sum call 4 holds after the region: each of its two blocks is what the accumulation
   leaves in the slab at the last point of that block's row of the grid; the input arrays are unchanged. -/
import proofs.«402757_j20469814133395_4_alg».proof.Proof.KI.SegDat4
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the slab's array holds after the region -/

section Arr

variable (V : (c : Dev nD) → (b : Ref sig .tc) → Buf (Elt F) ((c : Thread nD τ).loc b))
variable (a : (pcfg4 (F := F)).Adm)
variable (htbl : ∀ (c : Dev nD) (i : grid4.Coords), k4_chk1 (word4 c i tbM4 (tbl4 a c)))

/-- The accumulation does not depend on how its position is written. -/
theorem outsAt4_congr (c : Dev nD) {n n' : ℕ} (h : n = n') (hn : n < (cfg4 a).N) (hn' : n' < (cfg4 a).N) :
    outsAt4 V a htbl c n hn = outsAt4 V a htbl c n' hn' := by subst h; rfl

/-- The last point of row p is a point of the grid. -/
theorem rowEnd4_lt (i : S2x50000x16.Idx) : (i 0).val * 86 + 85 < (cfg4 a).N := by
  have h : (i 0).val < 2 := (i 0).isLt
  show _ < grid4.N
  rw [N_4]; omega

/-- What the array ends holding: block p is what the accumulation leaves at the last point of row p. -/
def final4 (c : Dev nD) : S2x50000x16.Idx → Elt F .f32 := fun i =>
  outsAt4 V a htbl c ((i 0).val * 86 + 85) (rowEnd4_lt a i) (ValueIdx.ix3 (0 : Fin 1) ⟨(i 1).val, (i 1).isLt⟩ ⟨(i 2).val, (i 2).isLt⟩)

theorem final4_apply (c : Dev nD) (i : S2x50000x16.Idx) : final4 V a htbl c i
    = outsAt4 V a htbl c ((i 0).val * 86 + 85) (rowEnd4_lt a i) (ValueIdx.ix3 (0 : Fin 1) ⟨(i 1).val, (i 1).isLt⟩ ⟨(i 2).val, (i 2).isLt⟩) := rfl

/-- The slab window's block index at point t is (t / 86, 0, 0), at any contents of the table. -/
theorem index4_2 : ∀ t : Fin (cfg4 a).N, ((cfg4 a).win 2).index t = ![t.val / 86, 0, 0] :=
  (by decide +kernel : ∀ t : Fin grid4.N, cc4_transform_2 (grid4.coords t) = ![t.val / 86, 0, 0])

/-- An element of the block at point t sits in the array, on each axis, at the block index times the block's size plus
    its own coordinate. -/
theorem blk4_2_emb (t : Fin (cfg4 a).N) (j : S1x50000x16.Idx) (b : Fin 3) :
    ((((cfg4 a).win 2).blk t).view.emb j : S2x50000x16.Idx) b = (((cfg4 a).win 2).index t b * S1x50000x16.size b + (j b).val : ℕ) :=
  ((cfg4 a).win 2).rect_emb_val t j b

set_option maxHeartbeats 100000 in
/-- Writing back a staging buffer holding X writes the block of G it is, when X is G's block elementwise. -/
theorem cut_eq_read4_2 (t : Fin (cfg4 a).N) (X : S1x50000x16.Idx → Elt F .f32) (G : S2x50000x16.Idx → Elt F .f32)
    (h : ∀ j : S1x50000x16.Idx, X j = G ((((cfg4 a).win 2).blk t).view.emb j)) :
    ((cfg4 a).win 2).cut (grid4.coords t) X = (((cfg4 a).win 2).blk t).view.read (Elt F) G :=
  funext fun j => h j

set_option maxHeartbeats 100000 in
/-- The final contents at an index of row t / 86, for t a row's last point, are the accumulation at t at the index's
    two inner coordinates. -/
theorem final4_row (c : Dev nD) (t : Fin (cfg4 a).N) (hf : t.val % 86 = 85) (j : S1x50000x16.Idx) (i : S2x50000x16.Idx)
    (e : ∀ b : Fin 3, (i b).val = (![t.val / 86, 0, 0] : Fin 3 → ℕ) b * S1x50000x16.size b + (j b).val) :
    final4 V a htbl c i = outsAt4 V a htbl c t.val t.isLt j := by
  have j0 : (j 0).val < 1 := (j 0).isLt
  have e0 : (i 0).val = t.val / 86 * 1 + (j 0).val := e 0
  have e1 : (i 1).val = 0 * 50000 + (j 1).val := e 1
  have e2 : (i 2).val = 0 * 16 + (j 2).val := e 2
  rw [final4_apply, outsAt4_congr V a htbl c (show (i 0).val * 86 + 85 = t.val by omega) _ t.isLt]
  refine congrArg _ (funext fun b => Fin.ext ?_)
  match b with
  | ⟨0, _⟩ => show (0 : ℕ) = (j 0).val; omega
  | ⟨1, _⟩ => show (i 1).val = (j 1).val; omega
  | ⟨2, _⟩ => show (i 2).val = (j 2).val; omega

set_option maxHeartbeats 100000 in
/-- At a row's last point t the final contents, at an element of t's block, are the accumulation at t at that element. -/
theorem final4_emb (c : Dev nD) (t : Fin (cfg4 a).N) (hf : t.val % 86 = 85) (j : S1x50000x16.Idx) :
    final4 V a htbl c ((((cfg4 a).win 2).blk t).view.emb j) = outsAt4 V a htbl c t.val t.isLt j :=
  final4_row V a htbl c t hf j _ fun b => (blk4_2_emb a t j b).trans (by rw [index4_2])

set_option maxHeartbeats 100000 in
/-- WHAT A ROW'S LAST POINT WRITES BACK is its block of the final contents. -/
theorem flushed4_eq (c : Dev nD) (t : Fin (cfg4 a).N) (hf : t.val % 86 = 85) :
    (dat4 V a htbl c).flushed 2 t = (((cfg4 a).win 2).blk t).view.read (Elt F) (final4 V a htbl c) := by
  unfold Dat.flushed
  rw [after4_2]
  exact cut_eq_read4_2 a t _ _ fun j => (final4_emb V a htbl c t hf j).symm

set_option maxHeartbeats 100000 in
/-- An index of the array whose row is point t's row is in point t's block. -/
theorem mem_blk4_2 (t : Fin (cfg4 a).N) (i : S2x50000x16.Idx) (h : (i 0).val = t.val / 86) :
    i ∈ (((cfg4 a).win 2).blk t).view.set := by
  have e : i = (((cfg4 a).win 2).blk t).view.emb
      (ValueIdx.ix3 (0 : Fin 1) ⟨(i 1).val, (i 1).isLt⟩ ⟨(i 2).val, (i 2).isLt⟩ : S1x50000x16.Idx) := by
    funext b; apply Fin.ext
    rw [blk4_2_emb, index4_2]
    match b with
    | ⟨0, _⟩ => show (i 0).val = t.val / 86 * 1 + 0; omega
    | ⟨1, _⟩ => show (i 1).val = 0 * 50000 + (i 1).val; omega
    | ⟨2, _⟩ => show (i 2).val = 0 * 16 + (i 2).val; omega
  rw [e]; exact View.emb_mem_set _ _

set_option maxHeartbeats 100000 in
/-- The two rows' blocks cover the array. -/
theorem cover4_2 (i : S2x50000x16.Idx) :
    ∃ t : Fin (cfg4 a).N, ((cfg4 a).win 2).flush t = true ∧ i ∈ (((cfg4 a).win 2).blk t).view.set := by
  have h0 : (i 0).val < 2 := (i 0).isLt
  exact ⟨⟨(i 0).val * 86 + 85, rowEnd4_lt a i⟩, (flush4_2 a _).mpr (by show ((i 0).val * 86 + 85) % 86 = 85; omega),
    mem_blk4_2 a _ i (by show (i 0).val = ((i 0).val * 86 + 85) / 86; omega)⟩

/-- THE SLAB'S ARRAY after the region: block p is what the accumulation leaves at the last point of row p. -/
theorem arr4_final (c : Dev nD) : (dat4 V a htbl c).arrAt 2 (cfg4 a).N = final4 V a htbl c :=
  (dat4 V a htbl c).arrAt_eq_of_cover 2 (final4 V a htbl c)
    (fun t hf => flushed4_eq V a htbl c t ((flush4_2 a t).mp hf)) (cover4_2 a)

/-- The input arrays are never written. -/
theorem arr4_in0 (c : Dev nD) (n : ℕ) : (dat4 V a htbl c).arrAt 0 n = V c (Pipeline.arrRef spec4 0) :=
  ((dat4 V a htbl c).arrAt_in 0 rfl n).trans (A_eq4 V a htbl c 0)
theorem arr4_in1 (c : Dev nD) (n : ℕ) : (dat4 V a htbl c).arrAt 1 n = V c (Pipeline.arrRef spec4 1) :=
  ((dat4 V a htbl c).arrAt_in 1 rfl n).trans (A_eq4 V a htbl c 1)

/-- THE ACCUMULATION AS A FOLD over a row: at point 86 * q + j (j < 86) the slab is the step at the row's first point
    from the all-zero slab, stepped through the next j points. -/
theorem outsAt4_acc (c : Dev nD) (q j : ℕ) (hj : j < 86) (h : 86 * q + j < (cfg4 a).N) :
    outsAt4 V a htbl c (86 * q + j) h
      = Pipeline.accAt (N := (cfg4 a).N) (fun n hn => stepAt4 V a htbl c ⟨n, hn⟩ k4_pay1)
          (fun n hn acc => stepAt4 V a htbl c ⟨n, hn⟩ acc) (86 * q) j h :=
  Pipeline.eq_accAt (N := (cfg4 a).N) (fun n hn => outsAt4 V a htbl c n hn) 86 _ _
    (fun n hn h0 => outsAt4_eq V a htbl c ⟨n, hn⟩ _ (.inl h0))
    (fun n hn _ => rfl) q j hj h

end Arr

end Cert.KernelIdeal.Hand

end
-- ==== Proof.KI.SegArr5.lean ====
/- What the output array of segment-sum call 5 holds after the region: each of its two blocks is what the accumulation
   leaves in the slab at the last point of that block's row of the grid; the input arrays are unchanged. -/
import proofs.«402757_j20469814133395_4_alg».proof.Proof.KI.SegDat5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the slab's array holds after the region -/

section Arr

variable (V : (c : Dev nD) → (b : Ref sig .tc) → Buf (Elt F) ((c : Thread nD τ).loc b))
variable (a : (pcfg5 (F := F)).Adm)
variable (htbl : ∀ (c : Dev nD) (i : grid5.Coords), k5_chk1 (word5 c i tbM5 (tbl5 a c)))

/-- The accumulation does not depend on how its position is written. -/
theorem outsAt5_congr (c : Dev nD) {n n' : ℕ} (h : n = n') (hn : n < (cfg5 a).N) (hn' : n' < (cfg5 a).N) :
    outsAt5 V a htbl c n hn = outsAt5 V a htbl c n' hn' := by subst h; rfl

/-- The last point of row p is a point of the grid. -/
theorem rowEnd5_lt (i : S2x50000x16.Idx) : (i 0).val * 452 + 451 < (cfg5 a).N := by
  have h : (i 0).val < 2 := (i 0).isLt
  show _ < grid5.N
  rw [N_5]; omega

/-- What the array ends holding: block p is what the accumulation leaves at the last point of row p. -/
def final5 (c : Dev nD) : S2x50000x16.Idx → Elt F .f32 := fun i =>
  outsAt5 V a htbl c ((i 0).val * 452 + 451) (rowEnd5_lt a i) (ValueIdx.ix3 (0 : Fin 1) ⟨(i 1).val, (i 1).isLt⟩ ⟨(i 2).val, (i 2).isLt⟩)

theorem final5_apply (c : Dev nD) (i : S2x50000x16.Idx) : final5 V a htbl c i
    = outsAt5 V a htbl c ((i 0).val * 452 + 451) (rowEnd5_lt a i) (ValueIdx.ix3 (0 : Fin 1) ⟨(i 1).val, (i 1).isLt⟩ ⟨(i 2).val, (i 2).isLt⟩) := rfl

/-- The slab window's block index at point t is (t / 452, 0, 0), at any contents of the table. -/
theorem index5_2 : ∀ t : Fin (cfg5 a).N, ((cfg5 a).win 2).index t = ![t.val / 452, 0, 0] :=
  (by decide +kernel : ∀ t : Fin grid5.N, cc5_transform_2 (grid5.coords t) = ![t.val / 452, 0, 0])

/-- An element of the block at point t sits in the array, on each axis, at the block index times the block's size plus
    its own coordinate. -/
theorem blk5_2_emb (t : Fin (cfg5 a).N) (j : S1x50000x16.Idx) (b : Fin 3) :
    ((((cfg5 a).win 2).blk t).view.emb j : S2x50000x16.Idx) b = (((cfg5 a).win 2).index t b * S1x50000x16.size b + (j b).val : ℕ) :=
  ((cfg5 a).win 2).rect_emb_val t j b

set_option maxHeartbeats 100000 in
/-- Writing back a staging buffer holding X writes the block of G it is, when X is G's block elementwise. -/
theorem cut_eq_read5_2 (t : Fin (cfg5 a).N) (X : S1x50000x16.Idx → Elt F .f32) (G : S2x50000x16.Idx → Elt F .f32)
    (h : ∀ j : S1x50000x16.Idx, X j = G ((((cfg5 a).win 2).blk t).view.emb j)) :
    ((cfg5 a).win 2).cut (grid5.coords t) X = (((cfg5 a).win 2).blk t).view.read (Elt F) G :=
  funext fun j => h j

set_option maxHeartbeats 100000 in
/-- The final contents at an index of row t / 452, for t a row's last point, are the accumulation at t at the index's
    two inner coordinates. -/
theorem final5_row (c : Dev nD) (t : Fin (cfg5 a).N) (hf : t.val % 452 = 451) (j : S1x50000x16.Idx) (i : S2x50000x16.Idx)
    (e : ∀ b : Fin 3, (i b).val = (![t.val / 452, 0, 0] : Fin 3 → ℕ) b * S1x50000x16.size b + (j b).val) :
    final5 V a htbl c i = outsAt5 V a htbl c t.val t.isLt j := by
  have j0 : (j 0).val < 1 := (j 0).isLt
  have e0 : (i 0).val = t.val / 452 * 1 + (j 0).val := e 0
  have e1 : (i 1).val = 0 * 50000 + (j 1).val := e 1
  have e2 : (i 2).val = 0 * 16 + (j 2).val := e 2
  rw [final5_apply, outsAt5_congr V a htbl c (show (i 0).val * 452 + 451 = t.val by omega) _ t.isLt]
  refine congrArg _ (funext fun b => Fin.ext ?_)
  match b with
  | ⟨0, _⟩ => show (0 : ℕ) = (j 0).val; omega
  | ⟨1, _⟩ => show (i 1).val = (j 1).val; omega
  | ⟨2, _⟩ => show (i 2).val = (j 2).val; omega

set_option maxHeartbeats 100000 in
/-- At a row's last point t the final contents, at an element of t's block, are the accumulation at t at that element. -/
theorem final5_emb (c : Dev nD) (t : Fin (cfg5 a).N) (hf : t.val % 452 = 451) (j : S1x50000x16.Idx) :
    final5 V a htbl c ((((cfg5 a).win 2).blk t).view.emb j) = outsAt5 V a htbl c t.val t.isLt j :=
  final5_row V a htbl c t hf j _ fun b => (blk5_2_emb a t j b).trans (by rw [index5_2])

set_option maxHeartbeats 100000 in
/-- WHAT A ROW'S LAST POINT WRITES BACK is its block of the final contents. -/
theorem flushed5_eq (c : Dev nD) (t : Fin (cfg5 a).N) (hf : t.val % 452 = 451) :
    (dat5 V a htbl c).flushed 2 t = (((cfg5 a).win 2).blk t).view.read (Elt F) (final5 V a htbl c) := by
  unfold Dat.flushed
  rw [after5_2]
  exact cut_eq_read5_2 a t _ _ fun j => (final5_emb V a htbl c t hf j).symm

set_option maxHeartbeats 100000 in
/-- An index of the array whose row is point t's row is in point t's block. -/
theorem mem_blk5_2 (t : Fin (cfg5 a).N) (i : S2x50000x16.Idx) (h : (i 0).val = t.val / 452) :
    i ∈ (((cfg5 a).win 2).blk t).view.set := by
  have e : i = (((cfg5 a).win 2).blk t).view.emb
      (ValueIdx.ix3 (0 : Fin 1) ⟨(i 1).val, (i 1).isLt⟩ ⟨(i 2).val, (i 2).isLt⟩ : S1x50000x16.Idx) := by
    funext b; apply Fin.ext
    rw [blk5_2_emb, index5_2]
    match b with
    | ⟨0, _⟩ => show (i 0).val = t.val / 452 * 1 + 0; omega
    | ⟨1, _⟩ => show (i 1).val = 0 * 50000 + (i 1).val; omega
    | ⟨2, _⟩ => show (i 2).val = 0 * 16 + (i 2).val; omega
  rw [e]; exact View.emb_mem_set _ _

set_option maxHeartbeats 100000 in
/-- The two rows' blocks cover the array. -/
theorem cover5_2 (i : S2x50000x16.Idx) :
    ∃ t : Fin (cfg5 a).N, ((cfg5 a).win 2).flush t = true ∧ i ∈ (((cfg5 a).win 2).blk t).view.set := by
  have h0 : (i 0).val < 2 := (i 0).isLt
  exact ⟨⟨(i 0).val * 452 + 451, rowEnd5_lt a i⟩, (flush5_2 a _).mpr (by show ((i 0).val * 452 + 451) % 452 = 451; omega),
    mem_blk5_2 a _ i (by show (i 0).val = ((i 0).val * 452 + 451) / 452; omega)⟩

/-- THE SLAB'S ARRAY after the region: block p is what the accumulation leaves at the last point of row p. -/
theorem arr5_final (c : Dev nD) : (dat5 V a htbl c).arrAt 2 (cfg5 a).N = final5 V a htbl c :=
  (dat5 V a htbl c).arrAt_eq_of_cover 2 (final5 V a htbl c)
    (fun t hf => flushed5_eq V a htbl c t ((flush5_2 a t).mp hf)) (cover5_2 a)

/-- The input arrays are never written. -/
theorem arr5_in0 (c : Dev nD) (n : ℕ) : (dat5 V a htbl c).arrAt 0 n = V c (Pipeline.arrRef spec5 0) :=
  ((dat5 V a htbl c).arrAt_in 0 rfl n).trans (A_eq5 V a htbl c 0)
theorem arr5_in1 (c : Dev nD) (n : ℕ) : (dat5 V a htbl c).arrAt 1 n = V c (Pipeline.arrRef spec5 1) :=
  ((dat5 V a htbl c).arrAt_in 1 rfl n).trans (A_eq5 V a htbl c 1)

/-- THE ACCUMULATION AS A FOLD over a row: at point 452 * q + j (j < 452) the slab is the step at the row's first point
    from the all-zero slab, stepped through the next j points. -/
theorem outsAt5_acc (c : Dev nD) (q j : ℕ) (hj : j < 452) (h : 452 * q + j < (cfg5 a).N) :
    outsAt5 V a htbl c (452 * q + j) h
      = Pipeline.accAt (N := (cfg5 a).N) (fun n hn => stepAt5 V a htbl c ⟨n, hn⟩ k5_pay1)
          (fun n hn acc => stepAt5 V a htbl c ⟨n, hn⟩ acc) (452 * q) j h :=
  Pipeline.eq_accAt (N := (cfg5 a).N) (fun n hn => outsAt5 V a htbl c n hn) 452 _ _
    (fun n hn h0 => outsAt5_eq V a htbl c ⟨n, hn⟩ _ (.inl h0))
    (fun n hn _ => rfl) q j hj h

end Arr

end Cert.KernelIdeal.Hand

end
-- ==== Proof.Bridge.KHost.lean ====
import proofs.«402757_j20469814133395_4_alg».proof.Proof.KI.RegionsP
import Idealize.ShloMosaic.Lib.StableHlo.Run
import Idealize.ShloMosaic.Lib.Pipeline.Value
import Idealize.ShloMosaic.Lib.ValueIdx

/-!
# The first host stretch of the kernel program, read back

The source ids `s`, the destination ids `t` (each: a row of the first edge table followed
by `0, 1, …, 49999`, the self loops) and the edge weights (the product of the inverse
square roots of the two end points' in-degrees) as terms of the edge table, and the
entries of `s` and `t`: an entry below 300000 is the table's, an entry `300000 + r` is `r`.
-/

noncomputable section

namespace Cert.Bridge

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-! ## Rows of a two-row table, and a vector followed by the self loops -/

/-- Row 0 of a two-row table, cut out as a one-row block and viewed as a vector. -/
theorem row0_at {n : ℕ} (x : IVec ⟨2, ![2, n]⟩ 32)
    (h1 : (⟨2, ![2, n]⟩ : Shape).Slices ![0, 0] ⟨2, ![1, n]⟩)
    (h2 : (⟨2, ![1, n]⟩ : Shape).ShapeCasts ⟨1, ![n]⟩) (e : Fin n) :
    shapeCast ⟨1, ![n]⟩ (extractStridedSlice ⟨2, ![1, n]⟩ ![0, 0] x h1) h2 (ValueIdx.ix1 e)
      = x (ValueIdx.ix2 0 e) := by
  rw [shapeCast_dropUnit_apply ![n]]
  refine extractStridedSlice_apply _ x h1 _ _ fun a => ?_
  match a with
  | ⟨0, _⟩ => rfl
  | ⟨1, _⟩ => simp [Fin.cons]; rfl

/-- Row 1 likewise. -/
theorem row1_at {n : ℕ} (x : IVec ⟨2, ![2, n]⟩ 32)
    (h1 : (⟨2, ![2, n]⟩ : Shape).Slices ![1, 0] ⟨2, ![1, n]⟩)
    (h2 : (⟨2, ![1, n]⟩ : Shape).ShapeCasts ⟨1, ![n]⟩) (e : Fin n) :
    shapeCast ⟨1, ![n]⟩ (extractStridedSlice ⟨2, ![1, n]⟩ ![1, 0] x h1) h2 (ValueIdx.ix1 e)
      = x (ValueIdx.ix2 1 e) := by
  rw [shapeCast_dropUnit_apply ![n]]
  refine extractStridedSlice_apply _ x h1 _ _ fun a => ?_
  match a with
  | ⟨0, _⟩ => rfl
  | ⟨1, _⟩ => simp [Fin.cons]; rfl

/-- A vector of `n₁` entries followed by one of `n₂`: an entry below `n₁` is the first's. -/
theorem cat_head {α : Type} {n₁ n₂ : ℕ} (x : (⟨1, ![n₁]⟩ : Shape).Idx → α) (y : (⟨1, ![n₂]⟩ : Shape).Idx → α)
    (h : Shape.Concatenates [(⟨1, ![n₁]⟩ : Shape), ⟨1, ![n₂]⟩] ⟨1, ![n₁ + n₂]⟩ 0) (k : Fin n₁) :
    concatenate ⟨1, ![n₁ + n₂]⟩ 0 [⟨⟨1, ![n₁]⟩, x⟩, ⟨⟨1, ![n₂]⟩, y⟩] h (ValueIdx.ix1 ⟨k.val, by omega⟩)
      = x (ValueIdx.ix1 k) :=
  concatenate_pair_apply_left 0 x y h _ rfl (ValueIdx.ix1 k) fun b => by
    match b with
    | ⟨0, _⟩ => rfl

/-- … and the entry `n₁ + r` is the second's entry `r`. -/
theorem cat_tail {α : Type} {n₁ n₂ : ℕ} (x : (⟨1, ![n₁]⟩ : Shape).Idx → α) (y : (⟨1, ![n₂]⟩ : Shape).Idx → α)
    (h : Shape.Concatenates [(⟨1, ![n₁]⟩ : Shape), ⟨1, ![n₂]⟩] ⟨1, ![n₁ + n₂]⟩ 0) (r : Fin n₂) :
    concatenate ⟨1, ![n₁ + n₂]⟩ 0 [⟨⟨1, ![n₁]⟩, x⟩, ⟨⟨1, ![n₂]⟩, y⟩] h (ValueIdx.ix1 ⟨n₁ + r.val, by omega⟩)
      = y (ValueIdx.ix1 r) :=
  concatenate_pair_apply_right 0 x y h _ rfl rfl (ValueIdx.ix1 r)
    (fun b hb => by
      match b with
      | ⟨0, _⟩ => exact absurd rfl hb)
    (by show r.val + n₁ = n₁ + r.val; omega)

/-! ## The source and destination ids -/

variable (m : (ℓ : Loc nD τ sig) → Buf (Elt F) ℓ)

/-- The source ids: row 0 of the edge table, then the self loops. -/
theorem sAll_eq (c : Dev nD) :
    GenP.V1 m c main_v3 = concatenate S350000 0 [⟨S300000, shapeCast S300000 (extractStridedSlice S1x300000 ![0, 0] (GenP.V0 m c main_arg1) slices_S2x300000_S1x300000_0_0) shapeCasts_S1x300000_S300000⟩, ⟨S50000, iotaInDim S50000 32 0⟩] concatenates_S300000_S50000_S350000_d0 := by
  show StableHlo.after hostOps0 (GenP.V0 m c) _ = _
  after_results_simp
  rfl

/-- The destination ids: row 1 of the edge table, then the self loops. -/
theorem tAll_eq (c : Dev nD) :
    GenP.V1 m c main_v6 = concatenate S350000 0 [⟨S300000, shapeCast S300000 (extractStridedSlice S1x300000 ![1, 0] (GenP.V0 m c main_arg1) slices_S2x300000_S1x300000_1_0) shapeCasts_S1x300000_S300000⟩, ⟨S50000, iotaInDim S50000 32 0⟩] concatenates_S300000_S50000_S350000_d0 := by
  show StableHlo.after hostOps0 (GenP.V0 m c) _ = _
  after_results_simp
  rfl

theorem sAll_head (c : Dev nD) (k : Fin 300000) :
    (GenP.V1 m c main_v3 : S350000.Idx → BitVec 32) (ValueIdx.ix1 ⟨k.val, by omega⟩)
      = (GenP.V0 m c main_arg1 : S2x300000.Idx → BitVec 32) (ValueIdx.ix2 0 k) := by
  rw [sAll_eq]
  exact (cat_head (n₁ := 300000) (n₂ := 50000) _ _ concatenates_S300000_S50000_S350000_d0 k).trans
    (row0_at _ _ _ k)

theorem sAll_tail (c : Dev nD) (r : Fin 50000) :
    (GenP.V1 m c main_v3 : S350000.Idx → BitVec 32) (ValueIdx.ix1 ⟨300000 + r.val, by omega⟩)
      = BitVec.ofNat 32 r.val := by
  rw [sAll_eq]
  exact cat_tail (n₁ := 300000) (n₂ := 50000) _ _ concatenates_S300000_S50000_S350000_d0 r

theorem tAll_head (c : Dev nD) (k : Fin 300000) :
    (GenP.V1 m c main_v6 : S350000.Idx → BitVec 32) (ValueIdx.ix1 ⟨k.val, by omega⟩)
      = (GenP.V0 m c main_arg1 : S2x300000.Idx → BitVec 32) (ValueIdx.ix2 1 k) := by
  rw [tAll_eq]
  exact (cat_head (n₁ := 300000) (n₂ := 50000) _ _ concatenates_S300000_S50000_S350000_d0 k).trans
    (row1_at _ _ _ k)

theorem tAll_tail (c : Dev nD) (r : Fin 50000) :
    (GenP.V1 m c main_v6 : S350000.Idx → BitVec 32) (ValueIdx.ix1 ⟨300000 + r.val, by omega⟩)
      = BitVec.ofNat 32 r.val := by
  rw [tAll_eq]
  exact cat_tail (n₁ := 300000) (n₂ := 50000) _ _ concatenates_S300000_S50000_S350000_d0 r

/-- A node id as a word reads back as itself. -/
theorem toInt_ofNat_node (r : Fin 50000) : (BitVec.ofNat 32 r.val).toInt = (r.val : ℤ) := by
  have h := r.isLt
  rw [BitVec.toInt_eq_toNat_cond, BitVec.toNat_ofNat]
  have e : r.val % 2 ^ 32 = r.val := Nat.mod_eq_of_lt (by omega)
  rw [e, if_pos (by omega)]

/-- Every source id is a node id, once the edge table's row 0 is. -/
theorem sAll_range (c : Dev nD)
    (hsrc : ∀ e : Fin 300000, 0 ≤ ((GenP.V0 m c main_arg1 : S2x300000.Idx → BitVec 32) (ValueIdx.ix2 0 e)).toInt
      ∧ ((GenP.V0 m c main_arg1 : S2x300000.Idx → BitVec 32) (ValueIdx.ix2 0 e)).toInt < 50000)
    (k : Fin 350000) :
    0 ≤ ((GenP.V1 m c main_v3 : S350000.Idx → BitVec 32) (ValueIdx.ix1 k)).toInt
      ∧ ((GenP.V1 m c main_v3 : S350000.Idx → BitVec 32) (ValueIdx.ix1 k)).toInt < 50000 := by
  by_cases hk : k.val < 300000
  · have := sAll_head m c ⟨k.val, hk⟩
    rw [show (⟨(⟨k.val, hk⟩ : Fin 300000).val, _⟩ : Fin 350000) = k from rfl] at this
    rw [this]
    exact hsrc ⟨k.val, hk⟩
  · have hr : k.val - 300000 < 50000 := by have := k.isLt; omega
    have := sAll_tail m c ⟨k.val - 300000, hr⟩
    rw [show (⟨300000 + (⟨k.val - 300000, hr⟩ : Fin 50000).val, _⟩ : Fin 350000) = k from
      Fin.ext (by show 300000 + (k.val - 300000) = k.val; omega)] at this
    rw [this, toInt_ofNat_node]
    constructor <;> omega

/-- Every node id occurs among the destination ids: its self loop. -/
theorem tAll_loops (c : Dev nD) (r : ℤ) (h0 : 0 ≤ r) (hn : r < 50000) :
    ∃ e' : Fin 350000, ((GenP.V1 m c main_v6 : S350000.Idx → BitVec 32) (ValueIdx.ix1 e')).toInt = r := by
  have hr : r.toNat < 50000 := by omega
  refine ⟨⟨300000 + r.toNat, by omega⟩, ?_⟩
  rw [tAll_tail m c ⟨r.toNat, hr⟩, toInt_ofNat_node]
  show ((r.toNat : ℕ) : ℤ) = r
  omega

/-! ## The edge weights -/

/-- The in-degree of every node (self loops counted): a scatter-add of ones at the
destination ids. -/
abbrev kDeg (t : IVec S350000 32) : FVec F S50000 .f32 :=
  Host.scatterAdd scatter_S50000_S350000x1_S350000_n_0_0_1
    (broadcastInDim S50000 ![] bcast_S_S50000 (constant S_ .f32 0x00000000#32))
    (broadcastInDim S350000x1 ![0] bcast_S350000_S350000x1_0 t)
    (broadcastInDim S350000 ![] bcast_S_S350000 (constant S_ .f32 0x3F800000#32))

/-- The inverse square root of the in-degree, zero where the in-degree is not positive. -/
abbrev kDinv (t : IVec S350000 32) : FVec F S50000 .f32 :=
  select (cmpf .ogt (kDeg (F := F) t) (broadcastInDim S50000 ![] bcast_S_S50000 (constant S_ .f32 0x00000000#32)))
    (Host.rsqrt (maximumf (kDeg (F := F) t) (broadcastInDim S50000 ![] bcast_S_S50000 (constant S_ .f32 0x2B8CBCCC#32))))
    (broadcastInDim S50000 ![] bcast_S_S50000 (id (constant S_ .f32 0x00000000#32)))

/-- A negative id counted from the end. -/
abbrev kWrap (s : IVec S350000 32) : IVec S350000 32 :=
  select (cmpi .slt s (broadcastInDim S350000 ![] bcast_S_S350000 (constantI S_ 32 0#32)))
    (addi s (broadcastInDim S350000 ![] bcast_S_S350000 (constantI S_ 32 50000#32))) s

/-- The weight of every edge: the product of the two end points' inverse square roots. -/
abbrev kNormOf (s t : IVec S350000 32) : FVec F S350000 .f32 :=
  mulf
    (Host.gather gather_S50000_S350000x1_S350000_n_0_n_n_0_1_1 (kDinv (F := F) t)
      (broadcastInDim S350000x1 ![0] bcast_S350000_S350000x1_0 (kWrap s)))
    (Host.gather gather_S50000_S350000x1_S350000_n_0_n_n_0_1_1 (kDinv (F := F) t)
      (broadcastInDim S350000x1 ![0] bcast_S350000_S350000x1_0 (kWrap t)))

set_option maxHeartbeats 1000000 in
theorem normAll_eq (c : Dev nD) :
    GenP.V3 m c main_v31 = kNormOf (F := F) (GenP.V1 m c main_v3) (GenP.V1 m c main_v6) := by
  after_results_simp
  rfl

end Cert.Bridge

end
-- ==== Proof.Bridge.KHost2.lean ====
import proofs.«402757_j20469814133395_4_alg».proof.Proof.Bridge.KHost

/-!
# The host stretch of the second edge set, read back

As for the first edge set: the source ids, the destination ids (a row of the second edge
table followed by the self loops) and the edge weights as terms of the table, and the
entries of the two id lists.
-/

noncomputable section

namespace Cert.Bridge

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ)

/-- The second edge table is the argument as launched when its host stretch starts. -/
theorem V14_arg2 (c : Dev nD) : GenP.V14 m c main_arg2 = GenP.V0 m c main_arg2 :=
  (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| V1_of m c main_arg2 (by decide)

/-- The source ids: row 0 of the edge table, then the self loops. -/
theorem sAll2_eq (c : Dev nD) :
    GenP.V15 m c main_v68 = concatenate S1847685 0 [⟨S1797685, shapeCast S1797685 (extractStridedSlice S1x1797685 ![0, 0] (GenP.V0 m c main_arg2) slices_S2x1797685_S1x1797685_0_0) shapeCasts_S1x1797685_S1797685⟩, ⟨S50000, iotaInDim S50000 32 0⟩] concatenates_S1797685_S50000_S1847685_d0 := by
  rw [← V14_arg2 m c]
  after_results_simp
  rfl

/-- The destination ids: row 1 of the edge table, then the self loops. -/
theorem tAll2_eq (c : Dev nD) :
    GenP.V15 m c main_v71 = concatenate S1847685 0 [⟨S1797685, shapeCast S1797685 (extractStridedSlice S1x1797685 ![1, 0] (GenP.V0 m c main_arg2) slices_S2x1797685_S1x1797685_1_0) shapeCasts_S1x1797685_S1797685⟩, ⟨S50000, iotaInDim S50000 32 0⟩] concatenates_S1797685_S50000_S1847685_d0 := by
  rw [← V14_arg2 m c]
  after_results_simp
  rfl

theorem sAll2_head (c : Dev nD) (k : Fin 1797685) :
    (GenP.V15 m c main_v68 : S1847685.Idx → BitVec 32) (ValueIdx.ix1 ⟨k.val, by omega⟩)
      = (GenP.V0 m c main_arg2 : S2x1797685.Idx → BitVec 32) (ValueIdx.ix2 0 k) := by
  rw [sAll2_eq]
  exact (cat_head (n₁ := 1797685) (n₂ := 50000) _ _ concatenates_S1797685_S50000_S1847685_d0 k).trans
    (row0_at _ _ _ k)

theorem sAll2_tail (c : Dev nD) (r : Fin 50000) :
    (GenP.V15 m c main_v68 : S1847685.Idx → BitVec 32) (ValueIdx.ix1 ⟨1797685 + r.val, by omega⟩)
      = BitVec.ofNat 32 r.val := by
  rw [sAll2_eq]
  exact cat_tail (n₁ := 1797685) (n₂ := 50000) _ _ concatenates_S1797685_S50000_S1847685_d0 r

theorem tAll2_head (c : Dev nD) (k : Fin 1797685) :
    (GenP.V15 m c main_v71 : S1847685.Idx → BitVec 32) (ValueIdx.ix1 ⟨k.val, by omega⟩)
      = (GenP.V0 m c main_arg2 : S2x1797685.Idx → BitVec 32) (ValueIdx.ix2 1 k) := by
  rw [tAll2_eq]
  exact (cat_head (n₁ := 1797685) (n₂ := 50000) _ _ concatenates_S1797685_S50000_S1847685_d0 k).trans
    (row1_at _ _ _ k)

theorem tAll2_tail (c : Dev nD) (r : Fin 50000) :
    (GenP.V15 m c main_v71 : S1847685.Idx → BitVec 32) (ValueIdx.ix1 ⟨1797685 + r.val, by omega⟩)
      = BitVec.ofNat 32 r.val := by
  rw [tAll2_eq]
  exact cat_tail (n₁ := 1797685) (n₂ := 50000) _ _ concatenates_S1797685_S50000_S1847685_d0 r

/-- Every source id is a node id, once the edge table's row 0 is. -/
theorem sAll2_range (c : Dev nD)
    (hsrc : ∀ e : Fin 1797685, 0 ≤ ((GenP.V0 m c main_arg2 : S2x1797685.Idx → BitVec 32) (ValueIdx.ix2 0 e)).toInt
      ∧ ((GenP.V0 m c main_arg2 : S2x1797685.Idx → BitVec 32) (ValueIdx.ix2 0 e)).toInt < 50000)
    (k : Fin 1847685) :
    0 ≤ ((GenP.V15 m c main_v68 : S1847685.Idx → BitVec 32) (ValueIdx.ix1 k)).toInt
      ∧ ((GenP.V15 m c main_v68 : S1847685.Idx → BitVec 32) (ValueIdx.ix1 k)).toInt < 50000 := by
  by_cases hk : k.val < 1797685
  · have := sAll2_head m c ⟨k.val, hk⟩
    rw [show (⟨(⟨k.val, hk⟩ : Fin 1797685).val, _⟩ : Fin 1847685) = k from rfl] at this
    rw [this]
    exact hsrc ⟨k.val, hk⟩
  · have hr : k.val - 1797685 < 50000 := by have := k.isLt; omega
    have := sAll2_tail m c ⟨k.val - 1797685, hr⟩
    rw [show (⟨1797685 + (⟨k.val - 1797685, hr⟩ : Fin 50000).val, _⟩ : Fin 1847685) = k from
      Fin.ext (by show 1797685 + (k.val - 1797685) = k.val; omega)] at this
    rw [this, toInt_ofNat_node]
    constructor <;> omega

/-- Every node id occurs among the destination ids: its self loop. -/
theorem tAll2_loops (c : Dev nD) (r : ℤ) (h0 : 0 ≤ r) (hn : r < 50000) :
    ∃ e' : Fin 1847685, ((GenP.V15 m c main_v71 : S1847685.Idx → BitVec 32) (ValueIdx.ix1 e')).toInt = r := by
  have hr : r.toNat < 50000 := by omega
  refine ⟨⟨1797685 + r.toNat, by omega⟩, ?_⟩
  rw [tAll2_tail m c ⟨r.toNat, hr⟩, toInt_ofNat_node]
  show ((r.toNat : ℕ) : ℤ) = r
  omega

/-! ## The edge weights -/

abbrev kDeg2 (t : IVec S1847685 32) : FVec F S50000 .f32 :=
  Host.scatterAdd scatter_S50000_S1847685x1_S1847685_n_0_0_1
    (broadcastInDim S50000 ![] bcast_S_S50000 (constant S_ .f32 0x00000000#32))
    (broadcastInDim S1847685x1 ![0] bcast_S1847685_S1847685x1_0 t)
    (broadcastInDim S1847685 ![] bcast_S_S1847685 (constant S_ .f32 0x3F800000#32))

abbrev kDinv2 (t : IVec S1847685 32) : FVec F S50000 .f32 :=
  select (cmpf .ogt (kDeg2 (F := F) t) (broadcastInDim S50000 ![] bcast_S_S50000 (constant S_ .f32 0x00000000#32)))
    (Host.rsqrt (maximumf (kDeg2 (F := F) t) (broadcastInDim S50000 ![] bcast_S_S50000 (constant S_ .f32 0x2B8CBCCC#32))))
    (broadcastInDim S50000 ![] bcast_S_S50000 (id (constant S_ .f32 0x00000000#32)))

abbrev kWrap2 (s : IVec S1847685 32) : IVec S1847685 32 :=
  select (cmpi .slt s (broadcastInDim S1847685 ![] bcast_S_S1847685 (constantI S_ 32 0#32)))
    (addi s (broadcastInDim S1847685 ![] bcast_S_S1847685 (constantI S_ 32 50000#32))) s

abbrev kNormOf2 (s t : IVec S1847685 32) : FVec F S1847685 .f32 :=
  mulf
    (Host.gather gather_S50000_S1847685x1_S1847685_n_0_n_n_0_1_1 (kDinv2 (F := F) t)
      (broadcastInDim S1847685x1 ![0] bcast_S1847685_S1847685x1_0 (kWrap2 s)))
    (Host.gather gather_S50000_S1847685x1_S1847685_n_0_n_n_0_1_1 (kDinv2 (F := F) t)
      (broadcastInDim S1847685x1 ![0] bcast_S1847685_S1847685x1_0 (kWrap2 t)))

set_option maxHeartbeats 1000000 in
theorem normAll2_eq (c : Dev nD) :
    GenP.V17 m c main_v96 = kNormOf2 (F := F) (GenP.V15 m c main_v68) (GenP.V15 m c main_v71) := by
  after_results_simp
  rfl

end Cert.Bridge

end
-- ==== Proof.Bridge.RefStages.lean ====
import proofs.«402757_j20469814133395_4_alg».proof.Proof.Bridge.KHost2
import proofs.«402757_j20469814133395_4_alg».proof.Proof.Ref.ReadDefs

/-!
# The kernel's host stretches are the reference's

The source ids, the destination ids and the edge weights of each edge set, as the kernel
program computes them once on the host, are the reference's stages of the same meaning
(the reference computes them once per layer): the same operations applied to the same
edge table.
-/

noncomputable section

namespace Cert.Bridge

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ)

/-! ## The first edge set: layer 1 and layer 2 of the reference -/

theorem sAll_ref (c : Dev nD) :
    GenP.V1 m c main_v3 = Cert.ReferenceIdeal.Read.val_main_v4 (F := F) (GenP.V0 m c main_arg1) :=
  (sAll_eq m c).trans rfl

theorem sAll_ref3 (c : Dev nD) :
    GenP.V1 m c main_v3 = Cert.ReferenceIdeal.Read.val_main_v104 (F := F) (GenP.V0 m c main_arg1) :=
  (sAll_eq m c).trans rfl

theorem tAll_ref (c : Dev nD) :
    GenP.V1 m c main_v6 = Cert.ReferenceIdeal.Read.val_main_v7 (F := F) (GenP.V0 m c main_arg1) :=
  (tAll_eq m c).trans rfl

theorem tAll_ref3 (c : Dev nD) :
    GenP.V1 m c main_v6 = Cert.ReferenceIdeal.Read.val_main_v107 (F := F) (GenP.V0 m c main_arg1) :=
  (tAll_eq m c).trans rfl

set_option maxHeartbeats 1000000 in
theorem normAll_ref (c : Dev nD) :
    GenP.V3 m c main_v31 = Cert.ReferenceIdeal.Read.val_main_v32 (F := F) (GenP.V0 m c main_arg1) := by
  rw [normAll_eq, sAll_eq, tAll_eq]
  rfl

set_option maxHeartbeats 1000000 in
theorem normAll_ref3 (c : Dev nD) :
    GenP.V3 m c main_v31 = Cert.ReferenceIdeal.Read.val_main_v132 (F := F) (GenP.V0 m c main_arg1) := by
  rw [normAll_eq, sAll_eq, tAll_eq]
  rfl

/-! ## The second edge set -/

theorem sAll2_ref (c : Dev nD) :
    GenP.V15 m c main_v68 = Cert.ReferenceIdeal.Read.val_main_v53 (F := F) (GenP.V0 m c main_arg2) :=
  (sAll2_eq m c).trans rfl

theorem sAll2_ref4 (c : Dev nD) :
    GenP.V15 m c main_v68 = Cert.ReferenceIdeal.Read.val_main_v153 (F := F) (GenP.V0 m c main_arg2) :=
  (sAll2_eq m c).trans rfl

theorem tAll2_ref (c : Dev nD) :
    GenP.V15 m c main_v71 = Cert.ReferenceIdeal.Read.val_main_v56 (F := F) (GenP.V0 m c main_arg2) :=
  (tAll2_eq m c).trans rfl

theorem tAll2_ref4 (c : Dev nD) :
    GenP.V15 m c main_v71 = Cert.ReferenceIdeal.Read.val_main_v156 (F := F) (GenP.V0 m c main_arg2) :=
  (tAll2_eq m c).trans rfl

set_option maxHeartbeats 1000000 in
theorem normAll2_ref (c : Dev nD) :
    GenP.V17 m c main_v96 = Cert.ReferenceIdeal.Read.val_main_v81 (F := F) (GenP.V0 m c main_arg2) := by
  rw [normAll2_eq, sAll2_eq, tAll2_eq]
  rfl

set_option maxHeartbeats 1000000 in
theorem normAll2_ref4 (c : Dev nD) :
    GenP.V17 m c main_v96 = Cert.ReferenceIdeal.Read.val_main_v181 (F := F) (GenP.V0 m c main_arg2) := by
  rw [normAll2_eq, sAll2_eq, tAll2_eq]
  rfl

end Cert.Bridge

end
-- ==== Proof.KI.Argsort.lean ====
import proofs.«402757_j20469814133395_4_alg».proof.KernelIdeal
import Idealize.ShloMosaic.Lib.SortFacts
import Idealize.ShloMosaic.Lib.ValueIdx
import Idealize.ShloMosaic.Lib.Affine

/-!
# The argsort as a sorting permutation

A rank-1 table `t` of `n` signed 32-bit keys is sorted together with the table
`0, 1, …, n-1` of its positions, the pairs compared by "first key signed-less-than".
Both tables are read through ONE self-map `argsortPerm t` of the positions (sorted
position ↦ source position).  It is a bijection, the keys read through it are
non-decreasing as signed integers, and the second sorted table holds its values as words.
Nothing here depends on the keys: `t` is a variable throughout.
-/

namespace Cert.KernelIdeal.Hand

open Idealize.ShloMosaic Cert.KernelIdeal

variable {n : ℕ}

/-- "The key at position `k` is signed-less-than the key at position `k'`". -/
def keyBefore (t : IVec ⟨1, ![n]⟩ 32) (k k' : Fin n) : Bool :=
  IntOp.cmpi .slt (t (Shape.Idx.ofFin k)) (t (Shape.Idx.ofFin k')) == 1#1

/-- The sorting permutation of the keys: the position whose key the stable sort puts at
sorted position `k`. -/
def argsortPerm (t : IVec ⟨1, ![n]⟩ 32) : Fin n → Fin n := sortedFrom (keyBefore t)

/-- The key at position `e`, as a signed integer. -/
def keyInt (t : IVec ⟨1, ![n]⟩ 32) (e : Fin n) : ℤ := (t (Shape.Idx.ofFin e)).toInt

theorem keyInt_def (t : IVec ⟨1, ![n]⟩ 32) (e : Fin n) : keyInt t e = (t (Shape.Idx.ofFin e)).toInt := rfl

theorem ofFin_eq_ix1 (k : Fin n) : Shape.Idx.ofFin k = ValueIdx.ix1 k := by
  rw [ValueIdx.eq_ix1 (Shape.Idx.ofFin k)]; rfl

theorem keyBefore_iff (t : IVec ⟨1, ![n]⟩ 32) (k k' : Fin n) :
    keyBefore t k k' = true ↔ keyInt t k < keyInt t k' := by
  simp only [keyBefore, keyInt, beq_iff_eq, IntOp.cmpi_slt]

theorem keyBefore_false_iff (t : IVec ⟨1, ![n]⟩ 32) (k k' : Fin n) :
    keyBefore t k k' = false ↔ keyInt t k' ≤ keyInt t k := by
  rw [← Bool.not_eq_true, keyBefore_iff, not_lt]

theorem argsortPerm_bijective (t : IVec ⟨1, ![n]⟩ 32) : Function.Bijective (argsortPerm t) :=
  ⟨sortedFrom_injective _, sortedFrom_surjective _⟩

/-- The keys read through the sorting permutation are non-decreasing. -/
theorem argsortPerm_sorted (t : IVec ⟨1, ![n]⟩ 32) (i j : Fin n) (hij : i ≤ j) :
    keyInt t (argsortPerm t i) ≤ keyInt t (argsortPerm t j) := by
  rcases eq_or_lt_of_le hij with rfl | hlt
  · exact le_rfl
  · have h := sortedFrom_noInversion (keyBefore t) (keyBefore t)
      (fun a b hab => by rw [keyBefore_false_iff]; rw [keyBefore_iff] at hab; omega)
      (fun _ _ h => h)
      (fun a b c hab hbc => by rw [keyBefore_false_iff] at hab hbc ⊢; omega) i j hlt
    exact (keyBefore_false_iff t _ _).1 h

/-- A sort of two rank-1 tables along their axis reads both through one self-map of the
positions. -/
theorem sort2_rank1 {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).1 j
        = x (Shape.Idx.ofFin (sortedFrom (fun k k' => cmp (x (Shape.Idx.ofFin k), y (Shape.Idx.ofFin k))
            (x (Shape.Idx.ofFin k'), y (Shape.Idx.ofFin k')) == 1#1) (j 0)))
    ∧ (Host.sort2 ⟨1, ![n]⟩ 0 cmp x y).2 j
        = y (Shape.Idx.ofFin (sortedFrom (fun k k' => cmp (x (Shape.Idx.ofFin k), y (Shape.Idx.ofFin k))
            (x (Shape.Idx.ofFin k'), y (Shape.Idx.ofFin k')) == 1#1) (j 0))) := by
  unfold Host.sort2
  simp

/-- The sorted keys are the keys read through the sorting permutation. -/
theorem argsort_fst (t : IVec ⟨1, ![n]⟩ 32) (y : IVec ⟨1, ![n]⟩ 32) (j : (⟨1, ![n]⟩ : Shape).Idx) :
    (Host.sort2 ⟨1, ![n]⟩ 0 comparator_i32_i32_d0 t y).1 j = t (Shape.Idx.ofFin (argsortPerm t (j 0))) :=
  (sort2_rank1 comparator_i32_i32_d0 t y j).1

/-- The table carried along is read through the same permutation. -/
theorem argsort_snd (t : IVec ⟨1, ![n]⟩ 32) (y : IVec ⟨1, ![n]⟩ 32) (j : (⟨1, ![n]⟩ : Shape).Idx) :
    (Host.sort2 ⟨1, ![n]⟩ 0 comparator_i32_i32_d0 t y).2 j = y (Shape.Idx.ofFin (argsortPerm t (j 0))) :=
  (sort2_rank1 comparator_i32_i32_d0 t y j).2

/-- The argsort proper: the table of positions carried along holds, at sorted position
`j`, the source position as a word. -/
theorem argsort_order (t : IVec ⟨1, ![n]⟩ 32) (j : (⟨1, ![n]⟩ : Shape).Idx) :
    (Host.sort2 ⟨1, ![n]⟩ 0 comparator_i32_i32_d0 t (iotaInDim ⟨1, ![n]⟩ 32 0)).2 j
      = BitVec.ofNat 32 (argsortPerm t (j 0)).val := by
  rw [argsort_snd]
  simp [iotaInDim]

/-- A position below `2^31`, as a word, reads back as itself, signed or unsigned. -/
theorem ofNat_toNat_of_lt {k : ℕ} (h : k < 2 ^ 31) : (BitVec.ofNat 32 k).toNat = k := by
  rw [BitVec.toNat_ofNat]; omega

theorem ofNat_toInt_of_lt {k : ℕ} (h : k < 2 ^ 31) : (BitVec.ofNat 32 k).toInt = (k : ℤ) := by
  rw [BitVec.toInt_eq_toNat_cond, ofNat_toNat_of_lt h]
  rw [if_pos (by omega)]

theorem argsort_order_toInt (hn : n ≤ 2 ^ 31) (t : IVec ⟨1, ![n]⟩ 32) (j : (⟨1, ![n]⟩ : Shape).Idx) :
    ((Host.sort2 ⟨1, ![n]⟩ 0 comparator_i32_i32_d0 t (iotaInDim ⟨1, ![n]⟩ 32 0)).2 j).toInt
      = ((argsortPerm t (j 0)).val : ℤ) := by
  rw [argsort_order, ofNat_toInt_of_lt (lt_of_lt_of_le (argsortPerm t (j 0)).isLt hn)]

theorem argsort_order_toNat (hn : n ≤ 2 ^ 31) (t : IVec ⟨1, ![n]⟩ 32) (j : (⟨1, ![n]⟩ : Shape).Idx) :
    ((Host.sort2 ⟨1, ![n]⟩ 0 comparator_i32_i32_d0 t (iotaInDim ⟨1, ![n]⟩ 32 0)).2 j).toNat
      = (argsortPerm t (j 0)).val := by
  rw [argsort_order, ofNat_toNat_of_lt (lt_of_lt_of_le (argsortPerm t (j 0)).isLt hn)]

/-- All of it at once, in the shape the scatter-add mathematics takes: a bijection `σ` of
the positions such that the argsort's table is `σ` as words and the keys read through `σ`
are non-decreasing. -/
theorem argsort_spec (t : IVec ⟨1, ![n]⟩ 32) :
    ∃ σ : Fin n → Fin n, Function.Bijective σ ∧
      (∀ j : (⟨1, ![n]⟩ : Shape).Idx,
        (Host.sort2 ⟨1, ![n]⟩ 0 comparator_i32_i32_d0 t (iotaInDim ⟨1, ![n]⟩ 32 0)).2 j
          = BitVec.ofNat 32 (σ (j 0)).val) ∧
      (∀ j : (⟨1, ![n]⟩ : Shape).Idx,
        (Host.sort2 ⟨1, ![n]⟩ 0 comparator_i32_i32_d0 t (iotaInDim ⟨1, ![n]⟩ 32 0)).1 j
          = t (Shape.Idx.ofFin (σ (j 0)))) ∧
      (∀ i j : Fin n, i ≤ j → keyInt t (σ i) ≤ keyInt t (σ j)) :=
  ⟨argsortPerm t, argsortPerm_bijective t, argsort_order t, argsort_fst t _, argsortPerm_sorted t⟩

attribute [irreducible] argsortPerm

/-! ## The two edge sets -/

theorem argsort_order_350000 (t : IVec S350000 32) (j : S350000.Idx) :
    (Host.sort2 S350000 0 comparator_i32_i32_d0 t (iotaInDim S350000 32 0)).2 j
      = BitVec.ofNat 32 (argsortPerm t (j 0)).val := argsort_order t j

theorem argsort_order_1847685 (t : IVec S1847685 32) (j : S1847685.Idx) :
    (Host.sort2 S1847685 0 comparator_i32_i32_d0 t (iotaInDim S1847685 32 0)).2 j
      = BitVec.ofNat 32 (argsortPerm t (j 0)).val := argsort_order t j

end Cert.KernelIdeal.Hand
-- ==== Proof.Math.ConvEntry.lean ====
import proofs.«402757_j20469814133395_4_alg».proof.Proof.Math.SegSum

/-!
# One entry of the aggregation: the two slabs and the bias against the reference's sum
-/

namespace Cert.Math.SegSum

open Finset

/-- One entry of the aggregation, both sides.  The kernel's entry is the sum of the two
half-grid slabs' entries plus the bias, each slab entry the windowed sum over its half of
the blocks; the reference's entry is zero plus the sum of the values of the entries whose
destination is the node, plus the bias.  Under the sorting, padding, self-loop and
window-start facts they are equal. -/
theorem conv_entry {M : ℕ} (half b0 b1 : ℕ) (h0 : b0 = 0) (h1 : b1 = half)
    {T start : ℕ → ℤ} {u : ℕ → EReal}
    (σ : Fin M → Fin M) (hσ : Function.Bijective σ) (t : Fin M → ℤ) (g : Fin M → EReal)
    (hT : ∀ e : Fin M, T e = t (σ e)) (hu : ∀ e : Fin M, u e = g (σ e))
    (hsorted : ∀ i j : Fin M, i ≤ j → t (σ i) ≤ t (σ j))
    (hloops : ∀ r : ℤ, 0 ≤ r → r < 50000 → ∃ e' : Fin M, t e' = r)
    (hpad : ∀ e, M ≤ e → e < 2 * half * 2048 → T e = 50000) (hM : M ≤ 2 * half * 2048)
    (hstart : ∀ b, b < 2 * half → start b = min (max (8 * (T (b * 2048) / 8)) 0) 47944)
    {r : ℤ} (hr0 : 0 ≤ r) (hrn : r < 50000)
    {slab0 slab1 bias out ref : EReal}
    (hs0 : slab0 = winSum half (fun b => start (b0 + b)) (fun e => T (b0 * 2048 + e))
      (fun e => u (b0 * 2048 + e)) r)
    (hs1 : slab1 = winSum half (fun b => start (b1 + b)) (fun e => T (b1 * 2048 + e))
      (fun e => u (b1 * 2048 + e)) r)
    (hout : out = slab0 + slab1 + bias)
    (href : ref = (0 + ∑ e' : Fin M, if t e' = r then g e' else 0) + bias) :
    out = ref := by
  rw [hout, href, hs0, hs1, ← winSum_two_halves half b0 b1 h0 h1 start T u r,
    winSum_eq_ref σ hσ t g hT hu hsorted hloops hpad hM hstart hr0 hrn, zero_add]

end Cert.Math.SegSum
-- ==== Proof.Bridge.Agg.lean ====
import proofs.«402757_j20469814133395_4_alg».proof.Proof.KI.Argsort
import proofs.«402757_j20469814133395_4_alg».proof.Proof.Math.RowOps
import proofs.«402757_j20469814133395_4_alg».proof.Proof.Math.ConvEntry

/-!
# One entry of an aggregation, from the arrays the kernel program holds

At the extended reals.  The kernel's entry `(r, f)` is the sum of the two half-grid slabs'
entries plus the bias; each slab's entry is the windowed sum over its half of the blocks
of the sorted, padded edge list; the sorted list is the edge list read through the sorting
permutation of the destination ids; the window starts are the blocks' first ids rounded
and clipped.  The reference's entry is zero plus the sum, over the edges whose destination
is `r`, of the source row of the product times the edge weight, plus the bias.  The
windowed-sum mathematics makes them equal.  Every array is a parameter; the equations
that tie them to one another are hypotheses.
-/

noncomputable section

namespace Cert.Bridge

open Cert.KernelIdeal Cert.KernelIdeal.Hand
open Idealize.ShloMosaic
open Idealize.ShloMosaic.ValueIdx Cert.Math.SegSum Cert.Math.RowOps
open Finset

/-! ## Arrays read at natural positions -/

/-- A list of words read as signed integers at natural positions, `0` beyond its end. -/
def natInt {n : ℕ} (X : (⟨1, ![n]⟩ : Shape).Idx → BitVec 32) (k : ℕ) : ℤ :=
  if h : k < n then (X (ix1 ⟨k, h⟩)).toInt else 0

/-- Column `f` of a matrix read at natural row positions, `0` beyond its end. -/
def natCol {n w : ℕ} (X : (⟨2, ![n, w]⟩ : Shape).Idx → EReal) (f : Fin w) (k : ℕ) : EReal :=
  if h : k < n then X (ix2 ⟨k, h⟩ f) else 0

theorem natInt_of_lt {n : ℕ} (X : (⟨1, ![n]⟩ : Shape).Idx → BitVec 32) {k : ℕ} (h : k < n) :
    natInt X k = (X (ix1 ⟨k, h⟩)).toInt := dif_pos h

theorem natCol_of_lt {n w : ℕ} (X : (⟨2, ![n, w]⟩ : Shape).Idx → EReal) (f : Fin w) {k : ℕ} (h : k < n) :
    natCol X f k = X (ix2 ⟨k, h⟩ f) := dif_pos h

/-- A word that is non-negative as a signed integer: its unsigned value is the signed one. -/
theorem toNat_of_toInt_nonneg (b : BitVec 32) (h : 0 ≤ b.toInt) : b.toNat = b.toInt.toNat := by
  rw [BitVec.toInt_eq_toNat_cond] at h ⊢
  split at h <;> rename_i hc
  · rw [if_pos hc]; simp
  · have := b.isLt; omega

/-- A node id as a word is its own clamped row. -/
theorem clampRow_of_range (b : BitVec 32) (h0 : 0 ≤ b.toInt) (h1 : b.toInt < 50000) (hb : b.toNat < 50000) :
    clampRow 50000 (by omega) b = ⟨b.toNat, hb⟩ :=
  Fin.ext ((clampRow_val_of_lt (N := 50000) (by omega) b h0 h1).trans (toNat_of_toInt_nonneg b h0).symm)

/-! ## One entry of an aggregation -/

/-- ONE ENTRY OF AN AGGREGATION over `M` edges in `2 * half` blocks of 2048 (padded length
`L`), `w` columns.  `sA`, `tA`, `nrm`: the source ids, destination ids and weights of the
edges; `xw`: the product array as the reference has it; `X55` the sorted, padded
destination ids, `X137` the sorted, padded scaled source rows, `X63` the window starts,
`X132` the product array the kernel holds, `X138` the two slabs; `out` the kernel's entry,
`refv` the reference's. -/
theorem agg_entry {M L NB half w : ℕ} (hNB : NB = 2 * half) (hL : L = 2 * half * 2048) (hML : M ≤ L)
    (r : Fin 50000) (f : Fin w)
    (xw : (⟨2, ![50000, w]⟩ : Shape).Idx → EReal) (bias : EReal)
    (sA tA : (⟨1, ![M]⟩ : Shape).Idx → BitVec 32) (nrm : (⟨1, ![M]⟩ : Shape).Idx → EReal)
    (X55 : (⟨1, ![L]⟩ : Shape).Idx → BitVec 32) (X63 : (⟨1, ![NB]⟩ : Shape).Idx → BitVec 32)
    (X132 : (⟨2, ![50000, w]⟩ : Shape).Idx → EReal) (X137 : (⟨2, ![L, w]⟩ : Shape).Idx → EReal)
    (X138 : (⟨3, ![2, 50000, w]⟩ : Shape).Idx → EReal) (out refv : EReal)
    (hxw : ∀ i : Fin 50000, X132 (ix2 i f) = xw (ix2 i f))
    (ht : ∀ e : Fin M, X55 (ix1 ⟨e.val, lt_of_lt_of_le e.isLt hML⟩) = tA (ix1 (argsortPerm tA e)))
    (htpad : ∀ e : Fin L, M ≤ e.val → X55 (ix1 e) = 50000#32)
    (hv : ∀ (e : Fin M) (hrow : (sA (ix1 (argsortPerm tA e))).toNat < 50000),
      X137 (ix2 ⟨e.val, lt_of_lt_of_le e.isLt hML⟩ f)
        = X132 (ix2 ⟨(sA (ix1 (argsortPerm tA e))).toNat, hrow⟩ f) * nrm (ix1 (argsortPerm tA e)))
    (htbl : ∀ (b : Fin NB) (hb : b.val * 2048 < L), (X63 (ix1 b)).toInt
      = min (max (8 * ((X55 (ix1 ⟨b.val * 2048, hb⟩)).toInt / 8)) 0) 47944)
    (hslab : ∀ p : Fin 2, X138 (ix3 p r f)
      = winSum half (fun b => natInt X63 (p.val * half + b)) (fun e => natInt X55 (p.val * half * 2048 + e))
          (fun e => natCol X137 f (p.val * half * 2048 + e)) (r.val : ℤ))
    (hout : out = X138 (ix3 0 r f) + X138 (ix3 1 r f) + bias)
    (hrange : ∀ k : Fin M, 0 ≤ (sA (ix1 k)).toInt ∧ (sA (ix1 k)).toInt < 50000)
    (hloops : ∀ r' : ℤ, 0 ≤ r' → r' < 50000 → ∃ e' : Fin M, (tA (ix1 e')).toInt = r')
    (href : refv = (0 + ∑ e : Fin M, if (tA (ix1 e)).toInt = (r.val : Int) then
          xw (ix2 (clampRow 50000 (by omega) (sA (ix1 e))) f) * nrm (ix1 e) else 0) + bias) :
    out = refv := by
  subst hNB hL
  have hrow : ∀ k : Fin M, (sA (ix1 k)).toNat < 50000 := fun k => by
    have h := hrange k
    rw [toNat_of_toInt_nonneg _ h.1]; omega
  refine conv_entry (M := M) half ((0 : Fin 2).val * half) ((1 : Fin 2).val * half)
    (by show 0 * half = 0; omega) (by show 1 * half = half; omega)
    (T := natInt X55) (start := natInt X63) (u := natCol X137 f)
    (argsortPerm tA) (argsortPerm_bijective tA) (fun e' => (tA (ix1 e')).toInt)
    (fun e' => xw (ix2 (clampRow 50000 (by omega) (sA (ix1 e'))) f) * nrm (ix1 e'))
    ?hT ?hu ?hsorted hloops ?hpad hML ?hstart (Int.natCast_nonneg _) (by have := r.isLt; omega)
    (hslab 0) (hslab 1) hout href
  case hT =>
    intro e
    rw [natInt_of_lt X55 (lt_of_lt_of_le e.isLt hML), ht e]
  case hu =>
    intro e
    rw [natCol_of_lt X137 f (lt_of_lt_of_le e.isLt hML), hv e (hrow _), hxw,
      clampRow_of_range _ (hrange _).1 (hrange _).2 (hrow _)]
  case hsorted =>
    intro i j hij
    have := argsortPerm_sorted tA i j hij
    rw [keyInt_def, keyInt_def, ofFin_eq_ix1, ofFin_eq_ix1] at this
    exact this
  case hpad =>
    intro e hM hlt
    rw [natInt_of_lt X55 hlt, htpad ⟨e, hlt⟩ hM]
    decide
  case hstart =>
    intro b hb
    have hb2 : b * 2048 < 2 * half * 2048 := by omega
    rw [natInt_of_lt X63 hb, natInt_of_lt X55 hb2]
    exact htbl ⟨b, hb⟩ hb2

end Cert.Bridge

end
-- ==== Proof.Ref.Conv1.lean ====
import proofs.«402757_j20469814133395_4_alg».proof.Proof.Ref.ReadDefs
import proofs.«402757_j20469814133395_4_alg».proof.Proof.Math.RowOps

/-!
# The reference's graph aggregation ending in stage val_main_v48, read at an index

The edge lists: the source list at e is the source word of edge e (row 0 of the edge array) for e < 300000 and the
node number e - 300000 (a self loop) for the 50000 entries after them; the target list likewise from row 1.

The aggregation's result at (r, f) is the bias f plus the sum, over the edges e whose target word read signed is
r, of the transformed features at (source row of e, f) times the edge's normalisation.  The source row is the
source word, wrapped (negative words have 50000 added) and clamped into [0, 49999]; for a non-negative word the
wrap does nothing.  The transformed features (val_main_v0) and the normalisation (val_main_v32) stay named.
-/

noncomputable section

open scoped BigOperators

namespace Cert.ReferenceIdeal.HandVal

open Cert.ReferenceIdeal Cert.ReferenceIdeal.Gen Cert.ReferenceIdeal.Read Idealize.ShloMosaic
  Idealize.ShloMosaic.ValueIdx Cert.Math.RowOps

variable {F : FTy → Type} [FloatOps F]

/-! ## The edge lists at an index -/

/-- The row-q entry e of the edge array, as the slice and the flattening read it. -/
theorem edge_idx_v4 (q : Fin 2) (e : Fin 350000) (h : e.val < 300000) (j : S2x300000.Idx)
    (h0 : (j 0).val = q.val) (h1 : (j 1).val = e.val % 300000) : j = ix2 q ⟨e.val, h⟩ := by
  funext a; refine Fin.ext ?_
  match a with
  | ⟨0, _⟩ => exact h0
  | ⟨1, _⟩ => exact h1.trans (Nat.mod_eq_of_lt h)

/-- An edge's source word: row 0 of the edge array. -/
theorem val_main_v4_at_lt (x1 : (⟨S2x300000, .i32⟩ : BufTy).Contents (Elt F)) (e : Fin 350000) (h : e.val < 300000) :
    val_main_v4 (F := F) x1 (ix1 e) = x1 (ix2 (0 : Fin 2) ⟨e.val, h⟩) := by
  unfold val_main_v4
  rw [concatenate_pair_apply_left (s₁ := S300000) (s₂ := S50000) (0 : Fin S350000.rank) _ _ _ (ix1 e) rfl (ix1 (⟨e.val, h⟩ : Fin 300000))
    (fun b => by obtain rfl : b = 0 := Subsingleton.elim _ _; rfl)]
  rw [val_main_v3_apply, val_main_v2_apply]
  exact congrArg x1 (edge_idx_v4 0 e h _ rfl rfl)

/-- A self loop's source word: the node's number. -/
theorem val_main_v4_at_ge (x1 : (⟨S2x300000, .i32⟩ : BufTy).Contents (Elt F)) (e : Fin 350000) (h : 300000 ≤ e.val) :
    val_main_v4 (F := F) x1 (ix1 e) = BitVec.ofNat 32 (e.val - 300000) := by
  have he := e.isLt
  unfold val_main_v4
  rw [concatenate_pair_apply_right (s₁ := S300000) (s₂ := S50000) (0 : Fin S350000.rank) _ _ _ (ix1 e) rfl rfl
    (ix1 (⟨e.val - 300000, by omega⟩ : Fin 50000))
    (fun b hb => absurd (Subsingleton.elim _ _) hb)
    (by show (e.val - 300000) + 300000 = e.val; omega)]
  rfl

/-- An edge's target word: row 1 of the edge array. -/
theorem val_main_v7_at_lt (x1 : (⟨S2x300000, .i32⟩ : BufTy).Contents (Elt F)) (e : Fin 350000) (h : e.val < 300000) :
    val_main_v7 (F := F) x1 (ix1 e) = x1 (ix2 (1 : Fin 2) ⟨e.val, h⟩) := by
  unfold val_main_v7
  rw [concatenate_pair_apply_left (s₁ := S300000) (s₂ := S50000) (0 : Fin S350000.rank) _ _ _ (ix1 e) rfl (ix1 (⟨e.val, h⟩ : Fin 300000))
    (fun b => by obtain rfl : b = 0 := Subsingleton.elim _ _; rfl)]
  rw [val_main_v6_apply, val_main_v5_apply]
  exact congrArg x1 (edge_idx_v4 1 e h _ rfl rfl)

/-- A self loop's target word: the node's number. -/
theorem val_main_v7_at_ge (x1 : (⟨S2x300000, .i32⟩ : BufTy).Contents (Elt F)) (e : Fin 350000) (h : 300000 ≤ e.val) :
    val_main_v7 (F := F) x1 (ix1 e) = BitVec.ofNat 32 (e.val - 300000) := by
  have he := e.isLt
  unfold val_main_v7
  rw [concatenate_pair_apply_right (s₁ := S300000) (s₂ := S50000) (0 : Fin S350000.rank) _ _ _ (ix1 e) rfl rfl
    (ix1 (⟨e.val - 300000, by omega⟩ : Fin 50000))
    (fun b hb => absurd (Subsingleton.elim _ _) hb)
    (by show (e.val - 300000) + 300000 = e.val; omega)]
  rfl

/-! ## The wrapped source word -/

/-- A non-negative source word is not wrapped. -/
theorem val_main_v37_of_nonneg (x1 : (⟨S2x300000, .i32⟩ : BufTy).Contents (Elt F)) (i : S350000.Idx)
    (h : 0 ≤ (val_main_v4 (F := F) x1 i).toInt) :
    val_main_v37 (F := F) x1 i = val_main_v4 (F := F) x1 i := by
  rw [val_main_v37_apply, val_main_v34_apply, val_main_v33_apply, val_main_c_7_apply]
  have hc : IntOp.cmpi .slt (val_main_v4 (F := F) x1 i) 0#32 = 0#1 :=
    eq_zero_of_ne_one fun h1 => by
      have := IntOp.cmpi_slt.1 h1
      rw [show (0#32 : BitVec 32).toInt = 0 from rfl] at this
      omega
  rw [hc, select_zero]

/-! ## The gathered rows -/

/-- Row e of the gathered rows: row (wrapped source word of e, clamped) of the transformed features. -/
theorem val_main_v39_at (x0 : (⟨S50000x512, .f32⟩ : BufTy).Contents (Elt F)) (x1 : (⟨S2x300000, .i32⟩ : BufTy).Contents (Elt F)) (x3 : (⟨S512x64, .f32⟩ : BufTy).Contents (Elt F)) (e : Fin 350000) (c : Fin 64) :
    val_main_v39 (F := F) x0 x1 x3 (ix2 e c) =
      val_main_v0 (F := F) x0 x3 (ix2 (clampRow 50000 (by omega) (val_main_v37 (F := F) x1 (ix1 e))) c) := by
  have hidx : idx_main_v38 (colIdx e) = ix1 e := by
    funext a
    obtain rfl : a = 0 := Subsingleton.elim _ _
    rfl
  have h38 : val_main_v38 (F := F) x1 (colIdx e) = val_main_v37 (F := F) x1 (ix1 e) :=
    (val_main_v38_apply x1 (colIdx e)).trans (congrArg (val_main_v37 (F := F) x1) hidx)
  unfold val_main_v39
  rw [show gather_S50000x64_S350000x1_S350000x64_1_0_n_n_0_1_164
      = rowGather 50000 350000 64 Facts₀.gather_S50000x64_S350000x1_S350000x64_1_0_n_n_0_1_164_wf from rfl,
    rowGather_apply _ (by omega)]
  exact congrArg (fun b => val_main_v0 (F := F) x0 x3 (ix2 (clampRow 50000 (by omega) b) c)) h38

/-! ## The aggregation -/

/-- The scattered sum at (r, f): zero plus the sum, over the edges whose target word is r, of the edge's update. -/
theorem val_main_v45_at (x0 : (⟨S50000x512, .f32⟩ : BufTy).Contents (Elt Ideal)) (x1 : (⟨S2x300000, .i32⟩ : BufTy).Contents (Elt Ideal)) (x3 : (⟨S512x64, .f32⟩ : BufTy).Contents (Elt Ideal)) (r : Fin 50000) (f : Fin 64) :
    val_main_v45 (F := Ideal) x0 x1 x3 (ix2 r f) =
      0 + ∑ e : Fin 350000, if (val_main_v7 (F := Ideal) x1 (ix1 e)).toInt = (r.val : Int) then
        val_main_v42 (F := Ideal) x0 x1 x3 (ix2 e f) else 0 := by
  have hidx : ∀ e : Fin 350000, idx_main_v44 (colIdx e) = ix1 e := by
    intro e
    funext a
    obtain rfl : a = 0 := Subsingleton.elim _ _
    rfl
  have h44 : ∀ e : Fin 350000, val_main_v44 (F := Ideal) x1 (colIdx e) = val_main_v7 (F := Ideal) x1 (ix1 e) :=
    fun e => (val_main_v44_apply x1 (colIdx e)).trans (congrArg (val_main_v7 (F := Ideal) x1) (hidx e))
  have h43 : val_main_v43 (F := Ideal) (ix2 r f) = 0 := by
    rw [val_main_v43_apply, val_main_cst_9_apply]
    simp [Ideal.ofBits, Ideal.ieee]
  -- the stage is the host scatter-add of its three operands …
  have e1 : val_main_v45 (F := Ideal) x0 x1 x3 (ix2 r f)
      = Host.scatterAdd (F := Ideal) (φ := .f32) scatter_S50000x64_S350000x1_S350000x64_1_0_0_1
          (val_main_v43 (F := Ideal)) (val_main_v44 (F := Ideal) x1) (val_main_v42 (F := Ideal) x0 x1 x3) (ix2 r f) := rfl
  -- … which on extended reals is the exact sum, whatever the operands …
  have e2 : ∀ (a : S50000x64.Idx → EReal) (b : IVec S350000x1 32) (c : S350000x64.Idx → EReal) (i : S50000x64.Idx),
      Host.scatterAdd (F := Ideal) (φ := .f32) scatter_S50000x64_S350000x1_S350000x64_1_0_0_1 a b c i
        = Ideal.hostScatterAdd scatter_S50000x64_S350000x1_S350000x64_1_0_0_1 a b c i := fun _ _ _ _ => rfl
  -- … at the dimension numbers of a row scatter
  have e3 : scatter_S50000x64_S350000x1_S350000x64_1_0_0_1
      = rowScatter 50000 350000 64 Facts₀.scatter_S50000x64_S350000x1_S350000x64_1_0_0_1_wf := rfl
  refine (e1.trans ((e2 _ _ _ _).trans (congrArg (fun d => Ideal.hostScatterAdd d _ _ _ _) e3))).trans
    ((rowScatterAdd_apply _ _ _ _ _).trans ?_)
  rw [h43]
  refine congrArg (fun s : EReal => 0 + s) ?_
  refine Finset.sum_congr rfl fun e _ => ?_
  rw [h44 e]

/-- THE AGGREGATION AT (r, f), for non-negative source words: the bias plus the sum, over the edges e whose
    target word read signed is r, of the transformed features at (the source word's row, f) times the edge's
    normalisation. -/
theorem val_main_v48_at (x0 : (⟨S50000x512, .f32⟩ : BufTy).Contents (Elt Ideal)) (x1 : (⟨S2x300000, .i32⟩ : BufTy).Contents (Elt Ideal)) (x3 : (⟨S512x64, .f32⟩ : BufTy).Contents (Elt Ideal)) (x4 : (⟨S64, .f32⟩ : BufTy).Contents (Elt Ideal))
    (hs : ∀ e : Fin 350000, 0 ≤ (val_main_v4 (F := Ideal) x1 (ix1 e)).toInt) (r : Fin 50000) (f : Fin 64) :
    val_main_v48 (F := Ideal) x0 x1 x3 x4 (ix2 r f) =
      (0 + ∑ e : Fin 350000, if (val_main_v7 (F := Ideal) x1 (ix1 e)).toInt = (r.val : Int) then
          val_main_v0 (F := Ideal) x0 x3 (ix2 (clampRow 50000 (by omega) (val_main_v4 (F := Ideal) x1 (ix1 e))) f)
            * val_main_v32 (F := Ideal) x1 (ix1 e)
        else 0)
      + x4 (ix1 f) := by
  have hidxb : idx_main_v46 (idx_main_v47 (ix2 r f)) = ix1 f := by
    funext a
    obtain rfl : a = 0 := Subsingleton.elim _ _
    rfl
  have h47 : val_main_v47 (F := Ideal) x4 (ix2 r f) = x4 (ix1 f) :=
    ((val_main_v47_apply x4 (ix2 r f)).trans (val_main_v46_apply x4 _)).trans (congrArg x4 hidxb)
  have hidxn : ∀ e : Fin 350000, idx_main_v40 (idx_main_v41 (ix2 e f)) = ix1 e := by
    intro e
    funext a
    obtain rfl : a = 0 := Subsingleton.elim _ _
    rfl
  have h41 : ∀ e : Fin 350000, val_main_v41 (F := Ideal) x1 (ix2 e f) = val_main_v32 (F := Ideal) x1 (ix1 e) :=
    fun e => ((val_main_v41_apply x1 (ix2 e f)).trans (val_main_v40_apply x1 _)).trans
      (congrArg (val_main_v32 (F := Ideal) x1) (hidxn e))
  rw [val_main_v48_apply, Ideal.addf_def, val_main_v45_at, h47]
  refine congrArg (fun s : EReal => (0 + s) + x4 (ix1 f)) ?_
  refine Finset.sum_congr rfl fun e _ => ?_
  rw [val_main_v42_apply, Ideal.mulf_def, val_main_v39_at, h41 e, val_main_v37_of_nonneg x1 (ix1 e) (hs e)]

end Cert.ReferenceIdeal.HandVal

end
-- ==== Proof.Bridge.Conv1.lean ====
import proofs.«402757_j20469814133395_4_alg».proof.Proof.Bridge.RefStages
import proofs.«402757_j20469814133395_4_alg».proof.Proof.Bridge.Agg
import proofs.«402757_j20469814133395_4_alg».proof.Proof.Ref.Conv1

/-!
# The first aggregation (layer 1, first edge set): the kernel's entry is the reference's

At the extended reals, entry by entry, from the arrays the kernel program holds between
its operations (parameters, tied to one another by the hypotheses) and the program's own
source ids, destination ids and edge weights, which are the reference's.
-/

noncomputable section

namespace Cert.Bridge

open Cert.KernelIdeal Cert.KernelIdeal.Gen Cert.KernelIdeal.GenP Cert.KernelIdeal.Hand
open Idealize.ShloMosaic Idealize.ShloMosaic.TcCoe Idealize.SL.Sem
open Idealize.ShloMosaic.ValueIdx Cert.Math.SegSum Cert.Math.RowOps
open Finset

variable (m : (ℓ : Loc nD τ sig) → Buf (Elt Ideal) ℓ)

/-- `x1` is the edge table as launched and `x0`, `x3`, `x4` the other arguments the
reference's entry reads; `sA`, `tA`, `nrm` the program's source ids, destination ids and edge
weights; `X55` the sorted, padded destination ids, `X137` the sorted, padded scaled source
rows, `X63` the window starts, `X132` the product array, `X138` the two slabs, `X146` the
result. -/
theorem conv1_entry (c : Dev nD) (r : Fin 50000) (f : Fin 64)
    (x0 : S50000x512.Idx → EReal) (x1 : S2x300000.Idx → BitVec 32) (x3 : S512x64.Idx → EReal) (x4 : S64.Idx → EReal)
    (hxe : x1 = GenP.V0 m c main_arg1)
    (sA tA : (⟨1, ![350000]⟩ : Shape).Idx → BitVec 32) (nrm : (⟨1, ![350000]⟩ : Shape).Idx → EReal)
    (hsA : sA = GenP.V1 m c main_v3) (htA : tA = GenP.V1 m c main_v6) (hnrm : nrm = GenP.V3 m c main_v31)
    (X55 : (⟨1, ![352256]⟩ : Shape).Idx → BitVec 32) (X63 : (⟨1, ![172]⟩ : Shape).Idx → BitVec 32)
    (X132 : (⟨2, ![50000, 64]⟩ : Shape).Idx → EReal) (X137 : (⟨2, ![352256, 64]⟩ : Shape).Idx → EReal)
    (X138 : (⟨3, ![2, 50000, 64]⟩ : Shape).Idx → EReal) (X146 : (⟨2, ![50000, 64]⟩ : Shape).Idx → EReal)
    -- the edge table's source ids are node ids (the precondition)
    (hsrc : ∀ e : Fin 300000, 0 ≤ (x1 (ix2 0 e)).toInt ∧ (x1 (ix2 0 e)).toInt < 50000)
    -- the product array is the reference's
    (hxw : ∀ i : Fin 50000, X132 (ix2 i f) = Cert.ReferenceIdeal.Read.val_main_v0 (F := Ideal) x0 x3 (ix2 i f))
    -- the sorted, padded operands, through the sorting permutation of the destination ids
    (ht : ∀ e : Fin 350000, X55 (ix1 ⟨e.val, by omega⟩) = tA (ix1 (argsortPerm tA e)))
    (htpad : ∀ e : Fin 352256, 350000 ≤ e.val → X55 (ix1 e) = 50000#32)
    (hv : ∀ (e : Fin 350000) (hrow : (sA (ix1 (argsortPerm tA e))).toNat < 50000),
      X137 (ix2 ⟨e.val, by omega⟩ f)
        = X132 (ix2 ⟨(sA (ix1 (argsortPerm tA e))).toNat, hrow⟩ f) * nrm (ix1 (argsortPerm tA e)))
    -- the table of window starts
    (htbl : ∀ b : Fin 172, (X63 (ix1 b)).toInt
      = min (max (8 * ((X55 (ix1 ⟨b.val * 2048, by omega⟩)).toInt / 8)) 0) 47944)
    -- the two slabs are the windowed sums over their halves of the blocks
    (hslab : ∀ p : Fin 2, X138 (ix3 p r f)
      = winSum 86 (fun b => natInt X63 (p.val * 86 + b)) (fun e => natInt X55 (p.val * 86 * 2048 + e))
          (fun e => natCol X137 f (p.val * 86 * 2048 + e)) (r.val : ℤ))
    -- the result is the two slabs plus the bias
    (hout : X146 (ix2 r f) = X138 (ix3 0 r f) + X138 (ix3 1 r f) + x4 (ix1 f)) :
    X146 (ix2 r f) = Cert.ReferenceIdeal.Read.val_main_v48 (F := Ideal) x0 x1 x3 x4 (ix2 r f) := by
  -- the program's stages are the reference's
  have es : Cert.ReferenceIdeal.Read.val_main_v4 (F := Ideal) x1 = sA := by
    rw [hsA, hxe]; exact (sAll_ref m c).symm
  have et : Cert.ReferenceIdeal.Read.val_main_v7 (F := Ideal) x1 = tA := by
    rw [htA, hxe]; exact (tAll_ref m c).symm
  have en : Cert.ReferenceIdeal.Read.val_main_v32 (F := Ideal) x1 = nrm := by
    rw [hnrm, hxe]; exact (normAll_ref m c).symm
  have hrange : ∀ k : Fin 350000, 0 ≤ (sA (ix1 k)).toInt ∧ (sA (ix1 k)).toInt < 50000 := by
    rw [hsA]
    exact sAll_range m c (by rw [← hxe]; exact hsrc)
  have hloops : ∀ r' : ℤ, 0 ≤ r' → r' < 50000 → ∃ e' : Fin 350000, (tA (ix1 e')).toInt = r' := by
    rw [htA]
    exact tAll_loops m c
  -- the reference's entry
  have href := Cert.ReferenceIdeal.HandVal.val_main_v48_at x0 x1 x3 x4
    (fun e => by rw [es]; exact (hrange e).1) r f
  rw [es, et, en] at href
  exact agg_entry (M := 350000) (L := 352256) (NB := 172) (half := 86) (by norm_num) (by norm_num) (by norm_num)
    r f (Cert.ReferenceIdeal.Read.val_main_v0 (F := Ideal) x0 x3) (x4 (ix1 f)) sA tA nrm X55 X63 X132 X137 X138
    (X146 (ix2 r f)) _ hxw ht htpad hv (fun b _ => htbl b) hslab hout hrange hloops href

end Cert.Bridge

end
-- ==== Proof.Ref.Conv2.lean ====
import proofs.«402757_j20469814133395_4_alg».proof.Proof.Ref.ReadDefs
import proofs.«402757_j20469814133395_4_alg».proof.Proof.Math.RowOps

/-!
# The reference's graph aggregation ending in stage val_main_v97, read at an index

The edge lists: the source list at e is the source word of edge e (row 0 of the edge array) for e < 1797685 and the
node number e - 1797685 (a self loop) for the 50000 entries after them; the target list likewise from row 1.

The aggregation's result at (r, f) is the bias f plus the sum, over the edges e whose target word read signed is
r, of the transformed features at (source row of e, f) times the edge's normalisation.  The source row is the
source word, wrapped (negative words have 50000 added) and clamped into [0, 49999]; for a non-negative word the
wrap does nothing.  The transformed features (val_main_v49) and the normalisation (val_main_v81) stay named.
-/

noncomputable section

open scoped BigOperators

namespace Cert.ReferenceIdeal.HandVal

open Cert.ReferenceIdeal Cert.ReferenceIdeal.Gen Cert.ReferenceIdeal.Read Idealize.ShloMosaic
  Idealize.ShloMosaic.ValueIdx Cert.Math.RowOps

variable {F : FTy → Type} [FloatOps F]

/-! ## The edge lists at an index -/

/-- The row-q entry e of the edge array, as the slice and the flattening read it. -/
theorem edge_idx_v53 (q : Fin 2) (e : Fin 1847685) (h : e.val < 1797685) (j : S2x1797685.Idx)
    (h0 : (j 0).val = q.val) (h1 : (j 1).val = e.val % 1797685) : j = ix2 q ⟨e.val, h⟩ := by
  funext a; refine Fin.ext ?_
  match a with
  | ⟨0, _⟩ => exact h0
  | ⟨1, _⟩ => exact h1.trans (Nat.mod_eq_of_lt h)

/-- An edge's source word: row 0 of the edge array. -/
theorem val_main_v53_at_lt (x2 : (⟨S2x1797685, .i32⟩ : BufTy).Contents (Elt F)) (e : Fin 1847685) (h : e.val < 1797685) :
    val_main_v53 (F := F) x2 (ix1 e) = x2 (ix2 (0 : Fin 2) ⟨e.val, h⟩) := by
  unfold val_main_v53
  rw [concatenate_pair_apply_left (s₁ := S1797685) (s₂ := S50000) (0 : Fin S1847685.rank) _ _ _ (ix1 e) rfl (ix1 (⟨e.val, h⟩ : Fin 1797685))
    (fun b => by obtain rfl : b = 0 := Subsingleton.elim _ _; rfl)]
  rw [val_main_v52_apply, val_main_v51_apply]
  exact congrArg x2 (edge_idx_v53 0 e h _ rfl rfl)

/-- A self loop's source word: the node's number. -/
theorem val_main_v53_at_ge (x2 : (⟨S2x1797685, .i32⟩ : BufTy).Contents (Elt F)) (e : Fin 1847685) (h : 1797685 ≤ e.val) :
    val_main_v53 (F := F) x2 (ix1 e) = BitVec.ofNat 32 (e.val - 1797685) := by
  have he := e.isLt
  unfold val_main_v53
  rw [concatenate_pair_apply_right (s₁ := S1797685) (s₂ := S50000) (0 : Fin S1847685.rank) _ _ _ (ix1 e) rfl rfl
    (ix1 (⟨e.val - 1797685, by omega⟩ : Fin 50000))
    (fun b hb => absurd (Subsingleton.elim _ _) hb)
    (by show (e.val - 1797685) + 1797685 = e.val; omega)]
  rfl

/-- An edge's target word: row 1 of the edge array. -/
theorem val_main_v56_at_lt (x2 : (⟨S2x1797685, .i32⟩ : BufTy).Contents (Elt F)) (e : Fin 1847685) (h : e.val < 1797685) :
    val_main_v56 (F := F) x2 (ix1 e) = x2 (ix2 (1 : Fin 2) ⟨e.val, h⟩) := by
  unfold val_main_v56
  rw [concatenate_pair_apply_left (s₁ := S1797685) (s₂ := S50000) (0 : Fin S1847685.rank) _ _ _ (ix1 e) rfl (ix1 (⟨e.val, h⟩ : Fin 1797685))
    (fun b => by obtain rfl : b = 0 := Subsingleton.elim _ _; rfl)]
  rw [val_main_v55_apply, val_main_v54_apply]
  exact congrArg x2 (edge_idx_v53 1 e h _ rfl rfl)

/-- A self loop's target word: the node's number. -/
theorem val_main_v56_at_ge (x2 : (⟨S2x1797685, .i32⟩ : BufTy).Contents (Elt F)) (e : Fin 1847685) (h : 1797685 ≤ e.val) :
    val_main_v56 (F := F) x2 (ix1 e) = BitVec.ofNat 32 (e.val - 1797685) := by
  have he := e.isLt
  unfold val_main_v56
  rw [concatenate_pair_apply_right (s₁ := S1797685) (s₂ := S50000) (0 : Fin S1847685.rank) _ _ _ (ix1 e) rfl rfl
    (ix1 (⟨e.val - 1797685, by omega⟩ : Fin 50000))
    (fun b hb => absurd (Subsingleton.elim _ _) hb)
    (by show (e.val - 1797685) + 1797685 = e.val; omega)]
  rfl

/-! ## The wrapped source word -/

/-- A non-negative source word is not wrapped. -/
theorem val_main_v86_of_nonneg (x2 : (⟨S2x1797685, .i32⟩ : BufTy).Contents (Elt F)) (i : S1847685.Idx)
    (h : 0 ≤ (val_main_v53 (F := F) x2 i).toInt) :
    val_main_v86 (F := F) x2 i = val_main_v53 (F := F) x2 i := by
  rw [val_main_v86_apply, val_main_v83_apply, val_main_v82_apply, val_main_c_19_apply]
  have hc : IntOp.cmpi .slt (val_main_v53 (F := F) x2 i) 0#32 = 0#1 :=
    eq_zero_of_ne_one fun h1 => by
      have := IntOp.cmpi_slt.1 h1
      rw [show (0#32 : BitVec 32).toInt = 0 from rfl] at this
      omega
  rw [hc, select_zero]

/-! ## The gathered rows -/

/-- Row e of the gathered rows: row (wrapped source word of e, clamped) of the transformed features. -/
theorem val_main_v88_at (x0 : (⟨S50000x512, .f32⟩ : BufTy).Contents (Elt F)) (x2 : (⟨S2x1797685, .i32⟩ : BufTy).Contents (Elt F)) (x3 : (⟨S512x64, .f32⟩ : BufTy).Contents (Elt F)) (e : Fin 1847685) (c : Fin 64) :
    val_main_v88 (F := F) x0 x2 x3 (ix2 e c) =
      val_main_v49 (F := F) x0 x3 (ix2 (clampRow 50000 (by omega) (val_main_v86 (F := F) x2 (ix1 e))) c) := by
  have hidx : idx_main_v87 (colIdx e) = ix1 e := by
    funext a
    obtain rfl : a = 0 := Subsingleton.elim _ _
    rfl
  have h38 : val_main_v87 (F := F) x2 (colIdx e) = val_main_v86 (F := F) x2 (ix1 e) :=
    (val_main_v87_apply x2 (colIdx e)).trans (congrArg (val_main_v86 (F := F) x2) hidx)
  unfold val_main_v88
  rw [show gather_S50000x64_S1847685x1_S1847685x64_1_0_n_n_0_1_164
      = rowGather 50000 1847685 64 Facts₀.gather_S50000x64_S1847685x1_S1847685x64_1_0_n_n_0_1_164_wf from rfl,
    rowGather_apply _ (by omega)]
  exact congrArg (fun b => val_main_v49 (F := F) x0 x3 (ix2 (clampRow 50000 (by omega) b) c)) h38

/-! ## The aggregation -/

/-- The scattered sum at (r, f): zero plus the sum, over the edges whose target word is r, of the edge's update. -/
theorem val_main_v94_at (x0 : (⟨S50000x512, .f32⟩ : BufTy).Contents (Elt Ideal)) (x2 : (⟨S2x1797685, .i32⟩ : BufTy).Contents (Elt Ideal)) (x3 : (⟨S512x64, .f32⟩ : BufTy).Contents (Elt Ideal)) (r : Fin 50000) (f : Fin 64) :
    val_main_v94 (F := Ideal) x0 x2 x3 (ix2 r f) =
      0 + ∑ e : Fin 1847685, if (val_main_v56 (F := Ideal) x2 (ix1 e)).toInt = (r.val : Int) then
        val_main_v91 (F := Ideal) x0 x2 x3 (ix2 e f) else 0 := by
  have hidx : ∀ e : Fin 1847685, idx_main_v93 (colIdx e) = ix1 e := by
    intro e
    funext a
    obtain rfl : a = 0 := Subsingleton.elim _ _
    rfl
  have h44 : ∀ e : Fin 1847685, val_main_v93 (F := Ideal) x2 (colIdx e) = val_main_v56 (F := Ideal) x2 (ix1 e) :=
    fun e => (val_main_v93_apply x2 (colIdx e)).trans (congrArg (val_main_v56 (F := Ideal) x2) (hidx e))
  have h43 : val_main_v92 (F := Ideal) (ix2 r f) = 0 := by
    rw [val_main_v92_apply, val_main_cst_21_apply]
    simp [Ideal.ofBits, Ideal.ieee]
  -- the stage is the host scatter-add of its three operands …
  have e1 : val_main_v94 (F := Ideal) x0 x2 x3 (ix2 r f)
      = Host.scatterAdd (F := Ideal) (φ := .f32) scatter_S50000x64_S1847685x1_S1847685x64_1_0_0_1
          (val_main_v92 (F := Ideal)) (val_main_v93 (F := Ideal) x2) (val_main_v91 (F := Ideal) x0 x2 x3) (ix2 r f) := rfl
  -- … which on extended reals is the exact sum, whatever the operands …
  have e2 : ∀ (a : S50000x64.Idx → EReal) (b : IVec S1847685x1 32) (c : S1847685x64.Idx → EReal) (i : S50000x64.Idx),
      Host.scatterAdd (F := Ideal) (φ := .f32) scatter_S50000x64_S1847685x1_S1847685x64_1_0_0_1 a b c i
        = Ideal.hostScatterAdd scatter_S50000x64_S1847685x1_S1847685x64_1_0_0_1 a b c i := fun _ _ _ _ => rfl
  -- … at the dimension numbers of a row scatter
  have e3 : scatter_S50000x64_S1847685x1_S1847685x64_1_0_0_1
      = rowScatter 50000 1847685 64 Facts₀.scatter_S50000x64_S1847685x1_S1847685x64_1_0_0_1_wf := rfl
  refine (e1.trans ((e2 _ _ _ _).trans (congrArg (fun d => Ideal.hostScatterAdd d _ _ _ _) e3))).trans
    ((rowScatterAdd_apply _ _ _ _ _).trans ?_)
  rw [h43]
  refine congrArg (fun s : EReal => 0 + s) ?_
  refine Finset.sum_congr rfl fun e _ => ?_
  rw [h44 e]

/-- THE AGGREGATION AT (r, f), for non-negative source words: the bias plus the sum, over the edges e whose
    target word read signed is r, of the transformed features at (the source word's row, f) times the edge's
    normalisation. -/
theorem val_main_v97_at (x0 : (⟨S50000x512, .f32⟩ : BufTy).Contents (Elt Ideal)) (x2 : (⟨S2x1797685, .i32⟩ : BufTy).Contents (Elt Ideal)) (x3 : (⟨S512x64, .f32⟩ : BufTy).Contents (Elt Ideal)) (x4 : (⟨S64, .f32⟩ : BufTy).Contents (Elt Ideal))
    (hs : ∀ e : Fin 1847685, 0 ≤ (val_main_v53 (F := Ideal) x2 (ix1 e)).toInt) (r : Fin 50000) (f : Fin 64) :
    val_main_v97 (F := Ideal) x0 x2 x3 x4 (ix2 r f) =
      (0 + ∑ e : Fin 1847685, if (val_main_v56 (F := Ideal) x2 (ix1 e)).toInt = (r.val : Int) then
          val_main_v49 (F := Ideal) x0 x3 (ix2 (clampRow 50000 (by omega) (val_main_v53 (F := Ideal) x2 (ix1 e))) f)
            * val_main_v81 (F := Ideal) x2 (ix1 e)
        else 0)
      + x4 (ix1 f) := by
  have hidxb : idx_main_v95 (idx_main_v96 (ix2 r f)) = ix1 f := by
    funext a
    obtain rfl : a = 0 := Subsingleton.elim _ _
    rfl
  have h47 : val_main_v96 (F := Ideal) x4 (ix2 r f) = x4 (ix1 f) :=
    ((val_main_v96_apply x4 (ix2 r f)).trans (val_main_v95_apply x4 _)).trans (congrArg x4 hidxb)
  have hidxn : ∀ e : Fin 1847685, idx_main_v89 (idx_main_v90 (ix2 e f)) = ix1 e := by
    intro e
    funext a
    obtain rfl : a = 0 := Subsingleton.elim _ _
    rfl
  have h41 : ∀ e : Fin 1847685, val_main_v90 (F := Ideal) x2 (ix2 e f) = val_main_v81 (F := Ideal) x2 (ix1 e) :=
    fun e => ((val_main_v90_apply x2 (ix2 e f)).trans (val_main_v89_apply x2 _)).trans
      (congrArg (val_main_v81 (F := Ideal) x2) (hidxn e))
  rw [val_main_v97_apply, Ideal.addf_def, val_main_v94_at, h47]
  refine congrArg (fun s : EReal => (0 + s) + x4 (ix1 f)) ?_
  refine Finset.sum_congr rfl fun e _ => ?_
  rw [val_main_v91_apply, Ideal.mulf_def, val_main_v88_at, h41 e, val_main_v86_of_nonneg x2 (ix1 e) (hs e)]

end Cert.ReferenceIdeal.HandVal

end
-- ==== Proof.Bridge.Conv2.lean ====
import proofs.«402757_j20469814133395_4_alg».proof.Proof.Bridge.RefStages
import proofs.«402757_j20469814133395_4_alg».proof.Proof.Bridge.Agg
import proofs.«402757_j20469814133395_4_alg».proof.Proof.Ref.Conv2

/-!
# The second aggregation (layer 1, second edge set): the kernel's entry is the reference's

At the extended reals, entry by entry, from the arrays the kernel program holds between
its operations (parameters, tied to one another by the hypotheses) and the program's own
source ids, destination ids and edge weights, which are the reference's.
-/

noncomputable section

namespace Cert.Bridge

open Cert.KernelIdeal Cert.KernelIdeal.Gen Cert.KernelIdeal.GenP Cert.KernelIdeal.Hand
open Idealize.ShloMosaic Idealize.ShloMosaic.TcCoe Idealize.SL.Sem
open Idealize.ShloMosaic.ValueIdx Cert.Math.SegSum Cert.Math.RowOps
open Finset

variable (m : (ℓ : Loc nD τ sig) → Buf (Elt Ideal) ℓ)

/-- `x2` is the edge table as launched and `x0`, `x3`, `x4` the other arguments the
reference's entry reads; `sA`, `tA`, `nrm` the program's source ids, destination ids and edge
weights; `X55` the sorted, padded destination ids, `X137` the sorted, padded scaled source
rows, `X63` the window starts, `X132` the product array, `X138` the two slabs, `X146` the
result. -/
theorem conv2_entry (c : Dev nD) (r : Fin 50000) (f : Fin 64)
    (x0 : S50000x512.Idx → EReal) (x2 : S2x1797685.Idx → BitVec 32) (x3 : S512x64.Idx → EReal) (x4 : S64.Idx → EReal)
    (hxe : x2 = GenP.V0 m c main_arg2)
    (sA tA : (⟨1, ![1847685]⟩ : Shape).Idx → BitVec 32) (nrm : (⟨1, ![1847685]⟩ : Shape).Idx → EReal)
    (hsA : sA = GenP.V15 m c main_v68) (htA : tA = GenP.V15 m c main_v71) (hnrm : nrm = GenP.V17 m c main_v96)
    (X55 : (⟨1, ![1851392]⟩ : Shape).Idx → BitVec 32) (X63 : (⟨1, ![904]⟩ : Shape).Idx → BitVec 32)
    (X132 : (⟨2, ![50000, 64]⟩ : Shape).Idx → EReal) (X137 : (⟨2, ![1851392, 64]⟩ : Shape).Idx → EReal)
    (X138 : (⟨3, ![2, 50000, 64]⟩ : Shape).Idx → EReal) (X146 : (⟨2, ![50000, 64]⟩ : Shape).Idx → EReal)
    -- the edge table's source ids are node ids (the precondition)
    (hsrc : ∀ e : Fin 1797685, 0 ≤ (x2 (ix2 0 e)).toInt ∧ (x2 (ix2 0 e)).toInt < 50000)
    -- the product array is the reference's
    (hxw : ∀ i : Fin 50000, X132 (ix2 i f) = Cert.ReferenceIdeal.Read.val_main_v49 (F := Ideal) x0 x3 (ix2 i f))
    -- the sorted, padded operands, through the sorting permutation of the destination ids
    (ht : ∀ e : Fin 1847685, X55 (ix1 ⟨e.val, by omega⟩) = tA (ix1 (argsortPerm tA e)))
    (htpad : ∀ e : Fin 1851392, 1847685 ≤ e.val → X55 (ix1 e) = 50000#32)
    (hv : ∀ (e : Fin 1847685) (hrow : (sA (ix1 (argsortPerm tA e))).toNat < 50000),
      X137 (ix2 ⟨e.val, by omega⟩ f)
        = X132 (ix2 ⟨(sA (ix1 (argsortPerm tA e))).toNat, hrow⟩ f) * nrm (ix1 (argsortPerm tA e)))
    -- the table of window starts
    (htbl : ∀ b : Fin 904, (X63 (ix1 b)).toInt
      = min (max (8 * ((X55 (ix1 ⟨b.val * 2048, by omega⟩)).toInt / 8)) 0) 47944)
    -- the two slabs are the windowed sums over their halves of the blocks
    (hslab : ∀ p : Fin 2, X138 (ix3 p r f)
      = winSum 452 (fun b => natInt X63 (p.val * 452 + b)) (fun e => natInt X55 (p.val * 452 * 2048 + e))
          (fun e => natCol X137 f (p.val * 452 * 2048 + e)) (r.val : ℤ))
    -- the result is the two slabs plus the bias
    (hout : X146 (ix2 r f) = X138 (ix3 0 r f) + X138 (ix3 1 r f) + x4 (ix1 f)) :
    X146 (ix2 r f) = Cert.ReferenceIdeal.Read.val_main_v97 (F := Ideal) x0 x2 x3 x4 (ix2 r f) := by
  -- the program's stages are the reference's
  have es : Cert.ReferenceIdeal.Read.val_main_v53 (F := Ideal) x2 = sA := by
    rw [hsA, hxe]; exact (sAll2_ref m c).symm
  have et : Cert.ReferenceIdeal.Read.val_main_v56 (F := Ideal) x2 = tA := by
    rw [htA, hxe]; exact (tAll2_ref m c).symm
  have en : Cert.ReferenceIdeal.Read.val_main_v81 (F := Ideal) x2 = nrm := by
    rw [hnrm, hxe]; exact (normAll2_ref m c).symm
  have hrange : ∀ k : Fin 1847685, 0 ≤ (sA (ix1 k)).toInt ∧ (sA (ix1 k)).toInt < 50000 := by
    rw [hsA]
    exact sAll2_range m c (by rw [← hxe]; exact hsrc)
  have hloops : ∀ r' : ℤ, 0 ≤ r' → r' < 50000 → ∃ e' : Fin 1847685, (tA (ix1 e')).toInt = r' := by
    rw [htA]
    exact tAll2_loops m c
  -- the reference's entry
  have href := Cert.ReferenceIdeal.HandVal.val_main_v97_at x0 x2 x3 x4
    (fun e => by rw [es]; exact (hrange e).1) r f
  rw [es, et, en] at href
  exact agg_entry (M := 1847685) (L := 1851392) (NB := 904) (half := 452) (by norm_num) (by norm_num) (by norm_num)
    r f (Cert.ReferenceIdeal.Read.val_main_v49 (F := Ideal) x0 x3) (x4 (ix1 f)) sA tA nrm X55 X63 X132 X137 X138
    (X146 (ix2 r f)) _ hxw ht htpad hv (fun b _ => htbl b) hslab hout hrange hloops href

end Cert.Bridge

end
-- ==== Proof.Ref.Conv3.lean ====
import proofs.«402757_j20469814133395_4_alg».proof.Proof.Ref.ReadDefs
import proofs.«402757_j20469814133395_4_alg».proof.Proof.Math.RowOps

/-!
# The reference's graph aggregation ending in stage val_main_v148, read at an index

The edge lists: the source list at e is the source word of edge e (row 0 of the edge array) for e < 300000 and the
node number e - 300000 (a self loop) for the 50000 entries after them; the target list likewise from row 1.

The aggregation's result at (r, f) is the bias f plus the sum, over the edges e whose target word read signed is
r, of the transformed features at (source row of e, f) times the edge's normalisation.  The source row is the
source word, wrapped (negative words have 50000 added) and clamped into [0, 49999]; for a non-negative word the
wrap does nothing.  The transformed features (val_main_v100) and the normalisation (val_main_v132) stay named.
-/

noncomputable section

open scoped BigOperators

namespace Cert.ReferenceIdeal.HandVal

open Cert.ReferenceIdeal Cert.ReferenceIdeal.Gen Cert.ReferenceIdeal.Read Idealize.ShloMosaic
  Idealize.ShloMosaic.ValueIdx Cert.Math.RowOps

variable {F : FTy → Type} [FloatOps F]

/-! ## The edge lists at an index -/

/-- The row-q entry e of the edge array, as the slice and the flattening read it. -/
theorem edge_idx_v104 (q : Fin 2) (e : Fin 350000) (h : e.val < 300000) (j : S2x300000.Idx)
    (h0 : (j 0).val = q.val) (h1 : (j 1).val = e.val % 300000) : j = ix2 q ⟨e.val, h⟩ := by
  funext a; refine Fin.ext ?_
  match a with
  | ⟨0, _⟩ => exact h0
  | ⟨1, _⟩ => exact h1.trans (Nat.mod_eq_of_lt h)

/-- An edge's source word: row 0 of the edge array. -/
theorem val_main_v104_at_lt (x1 : (⟨S2x300000, .i32⟩ : BufTy).Contents (Elt F)) (e : Fin 350000) (h : e.val < 300000) :
    val_main_v104 (F := F) x1 (ix1 e) = x1 (ix2 (0 : Fin 2) ⟨e.val, h⟩) := by
  unfold val_main_v104
  rw [concatenate_pair_apply_left (s₁ := S300000) (s₂ := S50000) (0 : Fin S350000.rank) _ _ _ (ix1 e) rfl (ix1 (⟨e.val, h⟩ : Fin 300000))
    (fun b => by obtain rfl : b = 0 := Subsingleton.elim _ _; rfl)]
  rw [val_main_v103_apply, val_main_v102_apply]
  exact congrArg x1 (edge_idx_v104 0 e h _ rfl rfl)

/-- A self loop's source word: the node's number. -/
theorem val_main_v104_at_ge (x1 : (⟨S2x300000, .i32⟩ : BufTy).Contents (Elt F)) (e : Fin 350000) (h : 300000 ≤ e.val) :
    val_main_v104 (F := F) x1 (ix1 e) = BitVec.ofNat 32 (e.val - 300000) := by
  have he := e.isLt
  unfold val_main_v104
  rw [concatenate_pair_apply_right (s₁ := S300000) (s₂ := S50000) (0 : Fin S350000.rank) _ _ _ (ix1 e) rfl rfl
    (ix1 (⟨e.val - 300000, by omega⟩ : Fin 50000))
    (fun b hb => absurd (Subsingleton.elim _ _) hb)
    (by show (e.val - 300000) + 300000 = e.val; omega)]
  rfl

/-- An edge's target word: row 1 of the edge array. -/
theorem val_main_v107_at_lt (x1 : (⟨S2x300000, .i32⟩ : BufTy).Contents (Elt F)) (e : Fin 350000) (h : e.val < 300000) :
    val_main_v107 (F := F) x1 (ix1 e) = x1 (ix2 (1 : Fin 2) ⟨e.val, h⟩) := by
  unfold val_main_v107
  rw [concatenate_pair_apply_left (s₁ := S300000) (s₂ := S50000) (0 : Fin S350000.rank) _ _ _ (ix1 e) rfl (ix1 (⟨e.val, h⟩ : Fin 300000))
    (fun b => by obtain rfl : b = 0 := Subsingleton.elim _ _; rfl)]
  rw [val_main_v106_apply, val_main_v105_apply]
  exact congrArg x1 (edge_idx_v104 1 e h _ rfl rfl)

/-- A self loop's target word: the node's number. -/
theorem val_main_v107_at_ge (x1 : (⟨S2x300000, .i32⟩ : BufTy).Contents (Elt F)) (e : Fin 350000) (h : 300000 ≤ e.val) :
    val_main_v107 (F := F) x1 (ix1 e) = BitVec.ofNat 32 (e.val - 300000) := by
  have he := e.isLt
  unfold val_main_v107
  rw [concatenate_pair_apply_right (s₁ := S300000) (s₂ := S50000) (0 : Fin S350000.rank) _ _ _ (ix1 e) rfl rfl
    (ix1 (⟨e.val - 300000, by omega⟩ : Fin 50000))
    (fun b hb => absurd (Subsingleton.elim _ _) hb)
    (by show (e.val - 300000) + 300000 = e.val; omega)]
  rfl

/-! ## The wrapped source word -/

/-- A non-negative source word is not wrapped. -/
theorem val_main_v137_of_nonneg (x1 : (⟨S2x300000, .i32⟩ : BufTy).Contents (Elt F)) (i : S350000.Idx)
    (h : 0 ≤ (val_main_v104 (F := F) x1 i).toInt) :
    val_main_v137 (F := F) x1 i = val_main_v104 (F := F) x1 i := by
  rw [val_main_v137_apply, val_main_v134_apply, val_main_v133_apply, val_main_c_31_apply]
  have hc : IntOp.cmpi .slt (val_main_v104 (F := F) x1 i) 0#32 = 0#1 :=
    eq_zero_of_ne_one fun h1 => by
      have := IntOp.cmpi_slt.1 h1
      rw [show (0#32 : BitVec 32).toInt = 0 from rfl] at this
      omega
  rw [hc, select_zero]

/-! ## The gathered rows -/

/-- Row e of the gathered rows: row (wrapped source word of e, clamped) of the transformed features. -/
theorem val_main_v139_at (x0 : (⟨S50000x512, .f32⟩ : BufTy).Contents (Elt F)) (x1 : (⟨S2x300000, .i32⟩ : BufTy).Contents (Elt F)) (x2 : (⟨S2x1797685, .i32⟩ : BufTy).Contents (Elt F)) (x3 : (⟨S512x64, .f32⟩ : BufTy).Contents (Elt F)) (x4 : (⟨S64, .f32⟩ : BufTy).Contents (Elt F)) (x5 : (⟨S128x16, .f32⟩ : BufTy).Contents (Elt F)) (e : Fin 350000) (c : Fin 16) :
    val_main_v139 (F := F) x0 x1 x2 x3 x4 x5 (ix2 e c) =
      val_main_v100 (F := F) x0 x1 x2 x3 x4 x5 (ix2 (clampRow 50000 (by omega) (val_main_v137 (F := F) x1 (ix1 e))) c) := by
  have hidx : idx_main_v138 (colIdx e) = ix1 e := by
    funext a
    obtain rfl : a = 0 := Subsingleton.elim _ _
    rfl
  have h38 : val_main_v138 (F := F) x1 (colIdx e) = val_main_v137 (F := F) x1 (ix1 e) :=
    (val_main_v138_apply x1 (colIdx e)).trans (congrArg (val_main_v137 (F := F) x1) hidx)
  unfold val_main_v139
  rw [show gather_S50000x16_S350000x1_S350000x16_1_0_n_n_0_1_116
      = rowGather 50000 350000 16 Facts₀.gather_S50000x16_S350000x1_S350000x16_1_0_n_n_0_1_116_wf from rfl,
    rowGather_apply _ (by omega)]
  exact congrArg (fun b => val_main_v100 (F := F) x0 x1 x2 x3 x4 x5 (ix2 (clampRow 50000 (by omega) b) c)) h38

/-! ## The aggregation -/

/-- The scattered sum at (r, f): zero plus the sum, over the edges whose target word is r, of the edge's update. -/
theorem val_main_v145_at (x0 : (⟨S50000x512, .f32⟩ : BufTy).Contents (Elt Ideal)) (x1 : (⟨S2x300000, .i32⟩ : BufTy).Contents (Elt Ideal)) (x2 : (⟨S2x1797685, .i32⟩ : BufTy).Contents (Elt Ideal)) (x3 : (⟨S512x64, .f32⟩ : BufTy).Contents (Elt Ideal)) (x4 : (⟨S64, .f32⟩ : BufTy).Contents (Elt Ideal)) (x5 : (⟨S128x16, .f32⟩ : BufTy).Contents (Elt Ideal)) (r : Fin 50000) (f : Fin 16) :
    val_main_v145 (F := Ideal) x0 x1 x2 x3 x4 x5 (ix2 r f) =
      0 + ∑ e : Fin 350000, if (val_main_v107 (F := Ideal) x1 (ix1 e)).toInt = (r.val : Int) then
        val_main_v142 (F := Ideal) x0 x1 x2 x3 x4 x5 (ix2 e f) else 0 := by
  have hidx : ∀ e : Fin 350000, idx_main_v144 (colIdx e) = ix1 e := by
    intro e
    funext a
    obtain rfl : a = 0 := Subsingleton.elim _ _
    rfl
  have h44 : ∀ e : Fin 350000, val_main_v144 (F := Ideal) x1 (colIdx e) = val_main_v107 (F := Ideal) x1 (ix1 e) :=
    fun e => (val_main_v144_apply x1 (colIdx e)).trans (congrArg (val_main_v107 (F := Ideal) x1) (hidx e))
  have h43 : val_main_v143 (F := Ideal) (ix2 r f) = 0 := by
    rw [val_main_v143_apply, val_main_cst_33_apply]
    simp [Ideal.ofBits, Ideal.ieee]
  -- the stage is the host scatter-add of its three operands …
  have e1 : val_main_v145 (F := Ideal) x0 x1 x2 x3 x4 x5 (ix2 r f)
      = Host.scatterAdd (F := Ideal) (φ := .f32) scatter_S50000x16_S350000x1_S350000x16_1_0_0_1
          (val_main_v143 (F := Ideal)) (val_main_v144 (F := Ideal) x1) (val_main_v142 (F := Ideal) x0 x1 x2 x3 x4 x5) (ix2 r f) := rfl
  -- … which on extended reals is the exact sum, whatever the operands …
  have e2 : ∀ (a : S50000x16.Idx → EReal) (b : IVec S350000x1 32) (c : S350000x16.Idx → EReal) (i : S50000x16.Idx),
      Host.scatterAdd (F := Ideal) (φ := .f32) scatter_S50000x16_S350000x1_S350000x16_1_0_0_1 a b c i
        = Ideal.hostScatterAdd scatter_S50000x16_S350000x1_S350000x16_1_0_0_1 a b c i := fun _ _ _ _ => rfl
  -- … at the dimension numbers of a row scatter
  have e3 : scatter_S50000x16_S350000x1_S350000x16_1_0_0_1
      = rowScatter 50000 350000 16 Facts₀.scatter_S50000x16_S350000x1_S350000x16_1_0_0_1_wf := rfl
  refine (e1.trans ((e2 _ _ _ _).trans (congrArg (fun d => Ideal.hostScatterAdd d _ _ _ _) e3))).trans
    ((rowScatterAdd_apply _ _ _ _ _).trans ?_)
  rw [h43]
  refine congrArg (fun s : EReal => 0 + s) ?_
  refine Finset.sum_congr rfl fun e _ => ?_
  rw [h44 e]

/-- THE AGGREGATION AT (r, f), for non-negative source words: the bias plus the sum, over the edges e whose
    target word read signed is r, of the transformed features at (the source word's row, f) times the edge's
    normalisation. -/
theorem val_main_v148_at (x0 : (⟨S50000x512, .f32⟩ : BufTy).Contents (Elt Ideal)) (x1 : (⟨S2x300000, .i32⟩ : BufTy).Contents (Elt Ideal)) (x2 : (⟨S2x1797685, .i32⟩ : BufTy).Contents (Elt Ideal)) (x3 : (⟨S512x64, .f32⟩ : BufTy).Contents (Elt Ideal)) (x4 : (⟨S64, .f32⟩ : BufTy).Contents (Elt Ideal)) (x5 : (⟨S128x16, .f32⟩ : BufTy).Contents (Elt Ideal)) (x6 : (⟨S16, .f32⟩ : BufTy).Contents (Elt Ideal))
    (hs : ∀ e : Fin 350000, 0 ≤ (val_main_v104 (F := Ideal) x1 (ix1 e)).toInt) (r : Fin 50000) (f : Fin 16) :
    val_main_v148 (F := Ideal) x0 x1 x2 x3 x4 x5 x6 (ix2 r f) =
      (0 + ∑ e : Fin 350000, if (val_main_v107 (F := Ideal) x1 (ix1 e)).toInt = (r.val : Int) then
          val_main_v100 (F := Ideal) x0 x1 x2 x3 x4 x5 (ix2 (clampRow 50000 (by omega) (val_main_v104 (F := Ideal) x1 (ix1 e))) f)
            * val_main_v132 (F := Ideal) x1 (ix1 e)
        else 0)
      + x6 (ix1 f) := by
  have hidxb : idx_main_v146 (idx_main_v147 (ix2 r f)) = ix1 f := by
    funext a
    obtain rfl : a = 0 := Subsingleton.elim _ _
    rfl
  have h47 : val_main_v147 (F := Ideal) x6 (ix2 r f) = x6 (ix1 f) :=
    ((val_main_v147_apply x6 (ix2 r f)).trans (val_main_v146_apply x6 _)).trans (congrArg x6 hidxb)
  have hidxn : ∀ e : Fin 350000, idx_main_v140 (idx_main_v141 (ix2 e f)) = ix1 e := by
    intro e
    funext a
    obtain rfl : a = 0 := Subsingleton.elim _ _
    rfl
  have h41 : ∀ e : Fin 350000, val_main_v141 (F := Ideal) x1 (ix2 e f) = val_main_v132 (F := Ideal) x1 (ix1 e) :=
    fun e => ((val_main_v141_apply x1 (ix2 e f)).trans (val_main_v140_apply x1 _)).trans
      (congrArg (val_main_v132 (F := Ideal) x1) (hidxn e))
  rw [val_main_v148_apply, Ideal.addf_def, val_main_v145_at, h47]
  refine congrArg (fun s : EReal => (0 + s) + x6 (ix1 f)) ?_
  refine Finset.sum_congr rfl fun e _ => ?_
  rw [val_main_v142_apply, Ideal.mulf_def, val_main_v139_at, h41 e, val_main_v137_of_nonneg x1 (ix1 e) (hs e)]

end Cert.ReferenceIdeal.HandVal

end
-- ==== Proof.Bridge.Conv3.lean ====
import proofs.«402757_j20469814133395_4_alg».proof.Proof.Bridge.RefStages
import proofs.«402757_j20469814133395_4_alg».proof.Proof.Bridge.Agg
import proofs.«402757_j20469814133395_4_alg».proof.Proof.Ref.Conv3

/-!
# The third aggregation (layer 2, first edge set): the kernel's entry is the reference's

At the extended reals, entry by entry, from the arrays the kernel program holds between
its operations (parameters, tied to one another by the hypotheses) and the program's own
source ids, destination ids and edge weights, which are the reference's.
-/

noncomputable section

namespace Cert.Bridge

open Cert.KernelIdeal Cert.KernelIdeal.Gen Cert.KernelIdeal.GenP Cert.KernelIdeal.Hand
open Idealize.ShloMosaic Idealize.ShloMosaic.TcCoe Idealize.SL.Sem
open Idealize.ShloMosaic.ValueIdx Cert.Math.SegSum Cert.Math.RowOps
open Finset

variable (m : (ℓ : Loc nD τ sig) → Buf (Elt Ideal) ℓ)

/-- `x1` is the edge table as launched and `x0`, `x2` … `x6` the other arguments the
reference's entry reads; `sA`, `tA`, `nrm` the program's source ids, destination ids and edge
weights; `X55` the sorted, padded destination ids, `X137` the sorted, padded scaled source
rows, `X63` the window starts, `X132` the product array, `X138` the two slabs, `X146` the
result. -/
theorem conv3_entry (c : Dev nD) (r : Fin 50000) (f : Fin 16)
    (x0 : S50000x512.Idx → EReal) (x1 : S2x300000.Idx → BitVec 32) (x2 : S2x1797685.Idx → BitVec 32) (x3 : S512x64.Idx → EReal) (x4 : S64.Idx → EReal) (x5 : S128x16.Idx → EReal) (x6 : S16.Idx → EReal)
    (hxe : x1 = GenP.V0 m c main_arg1)
    (sA tA : (⟨1, ![350000]⟩ : Shape).Idx → BitVec 32) (nrm : (⟨1, ![350000]⟩ : Shape).Idx → EReal)
    (hsA : sA = GenP.V1 m c main_v3) (htA : tA = GenP.V1 m c main_v6) (hnrm : nrm = GenP.V3 m c main_v31)
    (X55 : (⟨1, ![352256]⟩ : Shape).Idx → BitVec 32) (X63 : (⟨1, ![172]⟩ : Shape).Idx → BitVec 32)
    (X132 : (⟨2, ![50000, 16]⟩ : Shape).Idx → EReal) (X137 : (⟨2, ![352256, 16]⟩ : Shape).Idx → EReal)
    (X138 : (⟨3, ![2, 50000, 16]⟩ : Shape).Idx → EReal) (X146 : (⟨2, ![50000, 16]⟩ : Shape).Idx → EReal)
    -- the edge table's source ids are node ids (the precondition)
    (hsrc : ∀ e : Fin 300000, 0 ≤ (x1 (ix2 0 e)).toInt ∧ (x1 (ix2 0 e)).toInt < 50000)
    -- the product array is the reference's
    (hxw : ∀ i : Fin 50000, X132 (ix2 i f) = Cert.ReferenceIdeal.Read.val_main_v100 (F := Ideal) x0 x1 x2 x3 x4 x5 (ix2 i f))
    -- the sorted, padded operands, through the sorting permutation of the destination ids
    (ht : ∀ e : Fin 350000, X55 (ix1 ⟨e.val, by omega⟩) = tA (ix1 (argsortPerm tA e)))
    (htpad : ∀ e : Fin 352256, 350000 ≤ e.val → X55 (ix1 e) = 50000#32)
    (hv : ∀ (e : Fin 350000) (hrow : (sA (ix1 (argsortPerm tA e))).toNat < 50000),
      X137 (ix2 ⟨e.val, by omega⟩ f)
        = X132 (ix2 ⟨(sA (ix1 (argsortPerm tA e))).toNat, hrow⟩ f) * nrm (ix1 (argsortPerm tA e)))
    -- the table of window starts
    (htbl : ∀ b : Fin 172, (X63 (ix1 b)).toInt
      = min (max (8 * ((X55 (ix1 ⟨b.val * 2048, by omega⟩)).toInt / 8)) 0) 47944)
    -- the two slabs are the windowed sums over their halves of the blocks
    (hslab : ∀ p : Fin 2, X138 (ix3 p r f)
      = winSum 86 (fun b => natInt X63 (p.val * 86 + b)) (fun e => natInt X55 (p.val * 86 * 2048 + e))
          (fun e => natCol X137 f (p.val * 86 * 2048 + e)) (r.val : ℤ))
    -- the result is the two slabs plus the bias
    (hout : X146 (ix2 r f) = X138 (ix3 0 r f) + X138 (ix3 1 r f) + x6 (ix1 f)) :
    X146 (ix2 r f) = Cert.ReferenceIdeal.Read.val_main_v148 (F := Ideal) x0 x1 x2 x3 x4 x5 x6 (ix2 r f) := by
  -- the program's stages are the reference's
  have es : Cert.ReferenceIdeal.Read.val_main_v104 (F := Ideal) x1 = sA := by
    rw [hsA, hxe]; exact (sAll_ref3 m c).symm
  have et : Cert.ReferenceIdeal.Read.val_main_v107 (F := Ideal) x1 = tA := by
    rw [htA, hxe]; exact (tAll_ref3 m c).symm
  have en : Cert.ReferenceIdeal.Read.val_main_v132 (F := Ideal) x1 = nrm := by
    rw [hnrm, hxe]; exact (normAll_ref3 m c).symm
  have hrange : ∀ k : Fin 350000, 0 ≤ (sA (ix1 k)).toInt ∧ (sA (ix1 k)).toInt < 50000 := by
    rw [hsA]
    exact sAll_range m c (by rw [← hxe]; exact hsrc)
  have hloops : ∀ r' : ℤ, 0 ≤ r' → r' < 50000 → ∃ e' : Fin 350000, (tA (ix1 e')).toInt = r' := by
    rw [htA]
    exact tAll_loops m c
  -- the reference's entry
  have href := Cert.ReferenceIdeal.HandVal.val_main_v148_at x0 x1 x2 x3 x4 x5 x6
    (fun e => by rw [es]; exact (hrange e).1) r f
  rw [es, et, en] at href
  exact agg_entry (M := 350000) (L := 352256) (NB := 172) (half := 86) (by norm_num) (by norm_num) (by norm_num)
    r f (Cert.ReferenceIdeal.Read.val_main_v100 (F := Ideal) x0 x1 x2 x3 x4 x5) (x6 (ix1 f)) sA tA nrm X55 X63 X132 X137 X138
    (X146 (ix2 r f)) _ hxw ht htpad hv (fun b _ => htbl b) hslab hout hrange hloops href

end Cert.Bridge

end
-- ==== Proof.Ref.Conv4.lean ====
import proofs.«402757_j20469814133395_4_alg».proof.Proof.Ref.ReadDefs
import proofs.«402757_j20469814133395_4_alg».proof.Proof.Math.RowOps

/-!
# The reference's graph aggregation ending in stage val_main_v197, read at an index

The edge lists: the source list at e is the source word of edge e (row 0 of the edge array) for e < 1797685 and the
node number e - 1797685 (a self loop) for the 50000 entries after them; the target list likewise from row 1.

The aggregation's result at (r, f) is the bias f plus the sum, over the edges e whose target word read signed is
r, of the transformed features at (source row of e, f) times the edge's normalisation.  The source row is the
source word, wrapped (negative words have 50000 added) and clamped into [0, 49999]; for a non-negative word the
wrap does nothing.  The transformed features (val_main_v149) and the normalisation (val_main_v181) stay named.
-/

noncomputable section

open scoped BigOperators

namespace Cert.ReferenceIdeal.HandVal

open Cert.ReferenceIdeal Cert.ReferenceIdeal.Gen Cert.ReferenceIdeal.Read Idealize.ShloMosaic
  Idealize.ShloMosaic.ValueIdx Cert.Math.RowOps

variable {F : FTy → Type} [FloatOps F]

/-! ## The edge lists at an index -/

/-- The row-q entry e of the edge array, as the slice and the flattening read it. -/
theorem edge_idx_v153 (q : Fin 2) (e : Fin 1847685) (h : e.val < 1797685) (j : S2x1797685.Idx)
    (h0 : (j 0).val = q.val) (h1 : (j 1).val = e.val % 1797685) : j = ix2 q ⟨e.val, h⟩ := by
  funext a; refine Fin.ext ?_
  match a with
  | ⟨0, _⟩ => exact h0
  | ⟨1, _⟩ => exact h1.trans (Nat.mod_eq_of_lt h)

/-- An edge's source word: row 0 of the edge array. -/
theorem val_main_v153_at_lt (x2 : (⟨S2x1797685, .i32⟩ : BufTy).Contents (Elt F)) (e : Fin 1847685) (h : e.val < 1797685) :
    val_main_v153 (F := F) x2 (ix1 e) = x2 (ix2 (0 : Fin 2) ⟨e.val, h⟩) := by
  unfold val_main_v153
  rw [concatenate_pair_apply_left (s₁ := S1797685) (s₂ := S50000) (0 : Fin S1847685.rank) _ _ _ (ix1 e) rfl (ix1 (⟨e.val, h⟩ : Fin 1797685))
    (fun b => by obtain rfl : b = 0 := Subsingleton.elim _ _; rfl)]
  rw [val_main_v152_apply, val_main_v151_apply]
  exact congrArg x2 (edge_idx_v153 0 e h _ rfl rfl)

/-- A self loop's source word: the node's number. -/
theorem val_main_v153_at_ge (x2 : (⟨S2x1797685, .i32⟩ : BufTy).Contents (Elt F)) (e : Fin 1847685) (h : 1797685 ≤ e.val) :
    val_main_v153 (F := F) x2 (ix1 e) = BitVec.ofNat 32 (e.val - 1797685) := by
  have he := e.isLt
  unfold val_main_v153
  rw [concatenate_pair_apply_right (s₁ := S1797685) (s₂ := S50000) (0 : Fin S1847685.rank) _ _ _ (ix1 e) rfl rfl
    (ix1 (⟨e.val - 1797685, by omega⟩ : Fin 50000))
    (fun b hb => absurd (Subsingleton.elim _ _) hb)
    (by show (e.val - 1797685) + 1797685 = e.val; omega)]
  rfl

/-- An edge's target word: row 1 of the edge array. -/
theorem val_main_v156_at_lt (x2 : (⟨S2x1797685, .i32⟩ : BufTy).Contents (Elt F)) (e : Fin 1847685) (h : e.val < 1797685) :
    val_main_v156 (F := F) x2 (ix1 e) = x2 (ix2 (1 : Fin 2) ⟨e.val, h⟩) := by
  unfold val_main_v156
  rw [concatenate_pair_apply_left (s₁ := S1797685) (s₂ := S50000) (0 : Fin S1847685.rank) _ _ _ (ix1 e) rfl (ix1 (⟨e.val, h⟩ : Fin 1797685))
    (fun b => by obtain rfl : b = 0 := Subsingleton.elim _ _; rfl)]
  rw [val_main_v155_apply, val_main_v154_apply]
  exact congrArg x2 (edge_idx_v153 1 e h _ rfl rfl)

/-- A self loop's target word: the node's number. -/
theorem val_main_v156_at_ge (x2 : (⟨S2x1797685, .i32⟩ : BufTy).Contents (Elt F)) (e : Fin 1847685) (h : 1797685 ≤ e.val) :
    val_main_v156 (F := F) x2 (ix1 e) = BitVec.ofNat 32 (e.val - 1797685) := by
  have he := e.isLt
  unfold val_main_v156
  rw [concatenate_pair_apply_right (s₁ := S1797685) (s₂ := S50000) (0 : Fin S1847685.rank) _ _ _ (ix1 e) rfl rfl
    (ix1 (⟨e.val - 1797685, by omega⟩ : Fin 50000))
    (fun b hb => absurd (Subsingleton.elim _ _) hb)
    (by show (e.val - 1797685) + 1797685 = e.val; omega)]
  rfl

/-! ## The wrapped source word -/

/-- A non-negative source word is not wrapped. -/
theorem val_main_v186_of_nonneg (x2 : (⟨S2x1797685, .i32⟩ : BufTy).Contents (Elt F)) (i : S1847685.Idx)
    (h : 0 ≤ (val_main_v153 (F := F) x2 i).toInt) :
    val_main_v186 (F := F) x2 i = val_main_v153 (F := F) x2 i := by
  rw [val_main_v186_apply, val_main_v183_apply, val_main_v182_apply, val_main_c_43_apply]
  have hc : IntOp.cmpi .slt (val_main_v153 (F := F) x2 i) 0#32 = 0#1 :=
    eq_zero_of_ne_one fun h1 => by
      have := IntOp.cmpi_slt.1 h1
      rw [show (0#32 : BitVec 32).toInt = 0 from rfl] at this
      omega
  rw [hc, select_zero]

/-! ## The gathered rows -/

/-- Row e of the gathered rows: row (wrapped source word of e, clamped) of the transformed features. -/
theorem val_main_v188_at (x0 : (⟨S50000x512, .f32⟩ : BufTy).Contents (Elt F)) (x1 : (⟨S2x300000, .i32⟩ : BufTy).Contents (Elt F)) (x2 : (⟨S2x1797685, .i32⟩ : BufTy).Contents (Elt F)) (x3 : (⟨S512x64, .f32⟩ : BufTy).Contents (Elt F)) (x4 : (⟨S64, .f32⟩ : BufTy).Contents (Elt F)) (x5 : (⟨S128x16, .f32⟩ : BufTy).Contents (Elt F)) (e : Fin 1847685) (c : Fin 16) :
    val_main_v188 (F := F) x0 x1 x2 x3 x4 x5 (ix2 e c) =
      val_main_v149 (F := F) x0 x1 x2 x3 x4 x5 (ix2 (clampRow 50000 (by omega) (val_main_v186 (F := F) x2 (ix1 e))) c) := by
  have hidx : idx_main_v187 (colIdx e) = ix1 e := by
    funext a
    obtain rfl : a = 0 := Subsingleton.elim _ _
    rfl
  have h38 : val_main_v187 (F := F) x2 (colIdx e) = val_main_v186 (F := F) x2 (ix1 e) :=
    (val_main_v187_apply x2 (colIdx e)).trans (congrArg (val_main_v186 (F := F) x2) hidx)
  unfold val_main_v188
  rw [show gather_S50000x16_S1847685x1_S1847685x16_1_0_n_n_0_1_116
      = rowGather 50000 1847685 16 Facts₀.gather_S50000x16_S1847685x1_S1847685x16_1_0_n_n_0_1_116_wf from rfl,
    rowGather_apply _ (by omega)]
  exact congrArg (fun b => val_main_v149 (F := F) x0 x1 x2 x3 x4 x5 (ix2 (clampRow 50000 (by omega) b) c)) h38

/-! ## The aggregation -/

/-- The scattered sum at (r, f): zero plus the sum, over the edges whose target word is r, of the edge's update. -/
theorem val_main_v194_at (x0 : (⟨S50000x512, .f32⟩ : BufTy).Contents (Elt Ideal)) (x1 : (⟨S2x300000, .i32⟩ : BufTy).Contents (Elt Ideal)) (x2 : (⟨S2x1797685, .i32⟩ : BufTy).Contents (Elt Ideal)) (x3 : (⟨S512x64, .f32⟩ : BufTy).Contents (Elt Ideal)) (x4 : (⟨S64, .f32⟩ : BufTy).Contents (Elt Ideal)) (x5 : (⟨S128x16, .f32⟩ : BufTy).Contents (Elt Ideal)) (r : Fin 50000) (f : Fin 16) :
    val_main_v194 (F := Ideal) x0 x1 x2 x3 x4 x5 (ix2 r f) =
      0 + ∑ e : Fin 1847685, if (val_main_v156 (F := Ideal) x2 (ix1 e)).toInt = (r.val : Int) then
        val_main_v191 (F := Ideal) x0 x1 x2 x3 x4 x5 (ix2 e f) else 0 := by
  have hidx : ∀ e : Fin 1847685, idx_main_v193 (colIdx e) = ix1 e := by
    intro e
    funext a
    obtain rfl : a = 0 := Subsingleton.elim _ _
    rfl
  have h44 : ∀ e : Fin 1847685, val_main_v193 (F := Ideal) x2 (colIdx e) = val_main_v156 (F := Ideal) x2 (ix1 e) :=
    fun e => (val_main_v193_apply x2 (colIdx e)).trans (congrArg (val_main_v156 (F := Ideal) x2) (hidx e))
  have h43 : val_main_v192 (F := Ideal) (ix2 r f) = 0 := by
    rw [val_main_v192_apply, val_main_cst_45_apply]
    simp [Ideal.ofBits, Ideal.ieee]
  -- the stage is the host scatter-add of its three operands …
  have e1 : val_main_v194 (F := Ideal) x0 x1 x2 x3 x4 x5 (ix2 r f)
      = Host.scatterAdd (F := Ideal) (φ := .f32) scatter_S50000x16_S1847685x1_S1847685x16_1_0_0_1
          (val_main_v192 (F := Ideal)) (val_main_v193 (F := Ideal) x2) (val_main_v191 (F := Ideal) x0 x1 x2 x3 x4 x5) (ix2 r f) := rfl
  -- … which on extended reals is the exact sum, whatever the operands …
  have e2 : ∀ (a : S50000x16.Idx → EReal) (b : IVec S1847685x1 32) (c : S1847685x16.Idx → EReal) (i : S50000x16.Idx),
      Host.scatterAdd (F := Ideal) (φ := .f32) scatter_S50000x16_S1847685x1_S1847685x16_1_0_0_1 a b c i
        = Ideal.hostScatterAdd scatter_S50000x16_S1847685x1_S1847685x16_1_0_0_1 a b c i := fun _ _ _ _ => rfl
  -- … at the dimension numbers of a row scatter
  have e3 : scatter_S50000x16_S1847685x1_S1847685x16_1_0_0_1
      = rowScatter 50000 1847685 16 Facts₀.scatter_S50000x16_S1847685x1_S1847685x16_1_0_0_1_wf := rfl
  refine (e1.trans ((e2 _ _ _ _).trans (congrArg (fun d => Ideal.hostScatterAdd d _ _ _ _) e3))).trans
    ((rowScatterAdd_apply _ _ _ _ _).trans ?_)
  rw [h43]
  refine congrArg (fun s : EReal => 0 + s) ?_
  refine Finset.sum_congr rfl fun e _ => ?_
  rw [h44 e]

/-- THE AGGREGATION AT (r, f), for non-negative source words: the bias plus the sum, over the edges e whose
    target word read signed is r, of the transformed features at (the source word's row, f) times the edge's
    normalisation. -/
theorem val_main_v197_at (x0 : (⟨S50000x512, .f32⟩ : BufTy).Contents (Elt Ideal)) (x1 : (⟨S2x300000, .i32⟩ : BufTy).Contents (Elt Ideal)) (x2 : (⟨S2x1797685, .i32⟩ : BufTy).Contents (Elt Ideal)) (x3 : (⟨S512x64, .f32⟩ : BufTy).Contents (Elt Ideal)) (x4 : (⟨S64, .f32⟩ : BufTy).Contents (Elt Ideal)) (x5 : (⟨S128x16, .f32⟩ : BufTy).Contents (Elt Ideal)) (x6 : (⟨S16, .f32⟩ : BufTy).Contents (Elt Ideal))
    (hs : ∀ e : Fin 1847685, 0 ≤ (val_main_v153 (F := Ideal) x2 (ix1 e)).toInt) (r : Fin 50000) (f : Fin 16) :
    val_main_v197 (F := Ideal) x0 x1 x2 x3 x4 x5 x6 (ix2 r f) =
      (0 + ∑ e : Fin 1847685, if (val_main_v156 (F := Ideal) x2 (ix1 e)).toInt = (r.val : Int) then
          val_main_v149 (F := Ideal) x0 x1 x2 x3 x4 x5 (ix2 (clampRow 50000 (by omega) (val_main_v153 (F := Ideal) x2 (ix1 e))) f)
            * val_main_v181 (F := Ideal) x2 (ix1 e)
        else 0)
      + x6 (ix1 f) := by
  have hidxb : idx_main_v195 (idx_main_v196 (ix2 r f)) = ix1 f := by
    funext a
    obtain rfl : a = 0 := Subsingleton.elim _ _
    rfl
  have h47 : val_main_v196 (F := Ideal) x6 (ix2 r f) = x6 (ix1 f) :=
    ((val_main_v196_apply x6 (ix2 r f)).trans (val_main_v195_apply x6 _)).trans (congrArg x6 hidxb)
  have hidxn : ∀ e : Fin 1847685, idx_main_v189 (idx_main_v190 (ix2 e f)) = ix1 e := by
    intro e
    funext a
    obtain rfl : a = 0 := Subsingleton.elim _ _
    rfl
  have h41 : ∀ e : Fin 1847685, val_main_v190 (F := Ideal) x2 (ix2 e f) = val_main_v181 (F := Ideal) x2 (ix1 e) :=
    fun e => ((val_main_v190_apply x2 (ix2 e f)).trans (val_main_v189_apply x2 _)).trans
      (congrArg (val_main_v181 (F := Ideal) x2) (hidxn e))
  rw [val_main_v197_apply, Ideal.addf_def, val_main_v194_at, h47]
  refine congrArg (fun s : EReal => (0 + s) + x6 (ix1 f)) ?_
  refine Finset.sum_congr rfl fun e _ => ?_
  rw [val_main_v191_apply, Ideal.mulf_def, val_main_v188_at, h41 e, val_main_v186_of_nonneg x2 (ix1 e) (hs e)]

end Cert.ReferenceIdeal.HandVal

end
-- ==== Proof.Bridge.Conv4.lean ====
import proofs.«402757_j20469814133395_4_alg».proof.Proof.Bridge.RefStages
import proofs.«402757_j20469814133395_4_alg».proof.Proof.Bridge.Agg
import proofs.«402757_j20469814133395_4_alg».proof.Proof.Ref.Conv4

/-!
# The fourth aggregation (layer 2, second edge set): the kernel's entry is the reference's

At the extended reals, entry by entry, from the arrays the kernel program holds between
its operations (parameters, tied to one another by the hypotheses) and the program's own
source ids, destination ids and edge weights, which are the reference's.
-/

noncomputable section

namespace Cert.Bridge

open Cert.KernelIdeal Cert.KernelIdeal.Gen Cert.KernelIdeal.GenP Cert.KernelIdeal.Hand
open Idealize.ShloMosaic Idealize.ShloMosaic.TcCoe Idealize.SL.Sem
open Idealize.ShloMosaic.ValueIdx Cert.Math.SegSum Cert.Math.RowOps
open Finset

variable (m : (ℓ : Loc nD τ sig) → Buf (Elt Ideal) ℓ)

/-- `x2` is the edge table as launched and `x0`, `x1`, `x3` … `x6` the other arguments the
reference's entry reads; `sA`, `tA`, `nrm` the program's source ids, destination ids and edge
weights; `X55` the sorted, padded destination ids, `X137` the sorted, padded scaled source
rows, `X63` the window starts, `X132` the product array, `X138` the two slabs, `X146` the
result. -/
theorem conv4_entry (c : Dev nD) (r : Fin 50000) (f : Fin 16)
    (x0 : S50000x512.Idx → EReal) (x1 : S2x300000.Idx → BitVec 32) (x2 : S2x1797685.Idx → BitVec 32) (x3 : S512x64.Idx → EReal) (x4 : S64.Idx → EReal) (x5 : S128x16.Idx → EReal) (x6 : S16.Idx → EReal)
    (hxe : x2 = GenP.V0 m c main_arg2)
    (sA tA : (⟨1, ![1847685]⟩ : Shape).Idx → BitVec 32) (nrm : (⟨1, ![1847685]⟩ : Shape).Idx → EReal)
    (hsA : sA = GenP.V15 m c main_v68) (htA : tA = GenP.V15 m c main_v71) (hnrm : nrm = GenP.V17 m c main_v96)
    (X55 : (⟨1, ![1851392]⟩ : Shape).Idx → BitVec 32) (X63 : (⟨1, ![904]⟩ : Shape).Idx → BitVec 32)
    (X132 : (⟨2, ![50000, 16]⟩ : Shape).Idx → EReal) (X137 : (⟨2, ![1851392, 16]⟩ : Shape).Idx → EReal)
    (X138 : (⟨3, ![2, 50000, 16]⟩ : Shape).Idx → EReal) (X146 : (⟨2, ![50000, 16]⟩ : Shape).Idx → EReal)
    -- the edge table's source ids are node ids (the precondition)
    (hsrc : ∀ e : Fin 1797685, 0 ≤ (x2 (ix2 0 e)).toInt ∧ (x2 (ix2 0 e)).toInt < 50000)
    -- the product array is the reference's
    (hxw : ∀ i : Fin 50000, X132 (ix2 i f) = Cert.ReferenceIdeal.Read.val_main_v149 (F := Ideal) x0 x1 x2 x3 x4 x5 (ix2 i f))
    -- the sorted, padded operands, through the sorting permutation of the destination ids
    (ht : ∀ e : Fin 1847685, X55 (ix1 ⟨e.val, by omega⟩) = tA (ix1 (argsortPerm tA e)))
    (htpad : ∀ e : Fin 1851392, 1847685 ≤ e.val → X55 (ix1 e) = 50000#32)
    (hv : ∀ (e : Fin 1847685) (hrow : (sA (ix1 (argsortPerm tA e))).toNat < 50000),
      X137 (ix2 ⟨e.val, by omega⟩ f)
        = X132 (ix2 ⟨(sA (ix1 (argsortPerm tA e))).toNat, hrow⟩ f) * nrm (ix1 (argsortPerm tA e)))
    -- the table of window starts
    (htbl : ∀ b : Fin 904, (X63 (ix1 b)).toInt
      = min (max (8 * ((X55 (ix1 ⟨b.val * 2048, by omega⟩)).toInt / 8)) 0) 47944)
    -- the two slabs are the windowed sums over their halves of the blocks
    (hslab : ∀ p : Fin 2, X138 (ix3 p r f)
      = winSum 452 (fun b => natInt X63 (p.val * 452 + b)) (fun e => natInt X55 (p.val * 452 * 2048 + e))
          (fun e => natCol X137 f (p.val * 452 * 2048 + e)) (r.val : ℤ))
    -- the result is the two slabs plus the bias
    (hout : X146 (ix2 r f) = X138 (ix3 0 r f) + X138 (ix3 1 r f) + x6 (ix1 f)) :
    X146 (ix2 r f) = Cert.ReferenceIdeal.Read.val_main_v197 (F := Ideal) x0 x1 x2 x3 x4 x5 x6 (ix2 r f) := by
  -- the program's stages are the reference's
  have es : Cert.ReferenceIdeal.Read.val_main_v153 (F := Ideal) x2 = sA := by
    rw [hsA, hxe]; exact (sAll2_ref4 m c).symm
  have et : Cert.ReferenceIdeal.Read.val_main_v156 (F := Ideal) x2 = tA := by
    rw [htA, hxe]; exact (tAll2_ref4 m c).symm
  have en : Cert.ReferenceIdeal.Read.val_main_v181 (F := Ideal) x2 = nrm := by
    rw [hnrm, hxe]; exact (normAll2_ref4 m c).symm
  have hrange : ∀ k : Fin 1847685, 0 ≤ (sA (ix1 k)).toInt ∧ (sA (ix1 k)).toInt < 50000 := by
    rw [hsA]
    exact sAll2_range m c (by rw [← hxe]; exact hsrc)
  have hloops : ∀ r' : ℤ, 0 ≤ r' → r' < 50000 → ∃ e' : Fin 1847685, (tA (ix1 e')).toInt = r' := by
    rw [htA]
    exact tAll2_loops m c
  -- the reference's entry
  have href := Cert.ReferenceIdeal.HandVal.val_main_v197_at x0 x1 x2 x3 x4 x5 x6
    (fun e => by rw [es]; exact (hrange e).1) r f
  rw [es, et, en] at href
  exact agg_entry (M := 1847685) (L := 1851392) (NB := 904) (half := 452) (by norm_num) (by norm_num) (by norm_num)
    r f (Cert.ReferenceIdeal.Read.val_main_v149 (F := Ideal) x0 x1 x2 x3 x4 x5) (x6 (ix1 f)) sA tA nrm X55 X63 X132 X137 X138
    (X146 (ix2 r f)) _ hxw ht htpad hv (fun b _ => htbl b) hslab hout hrange hloops href

end Cert.Bridge

end
-- ==== Proof.KI.MmVal.lean ====
/- The value of the three matrix-product regions of @main (pallas_calls 0, 3 and 6) at the ideal values (extended
   reals). Each region's result array, after the region, holds at row `r` and column `q` the sum over the contraction
   axis of the left factor's row `r` times the right factor's column `q`, plus the bias at column `q` — the arrays
   read as the region finds them. Per region: the body's payload at an index (the product accumulated into zero, the
   bias row broadcast down the rows), what each grid point writes back as a block row of that function, the cover of
   the array by the ten block rows, and the array after the last point. -/
import proofs.«402757_j20469814133395_4_alg».proof.Proof.KI.Mm
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)

/-- The zero offsets of a whole-buffer access, as a constant function. -/
theorem zeros2 : (![0, 0] : Fin 2 → Nat) = fun _ => 0 := funext fun a => by match a with | ⟨0, _⟩ => rfl | ⟨1, _⟩ => rfl

-- the TensorCore's buffer contents when a region is entered, at the ideal values
variable (V : (c : Dev nD) → (b : Ref sig .tc) → Buf (Elt Ideal) ((c : Thread nD τ).loc b))

/-! # Region 0: the product of a [50000, 512] array and a [512, 64] array plus a bias row, by blocks of 5000 rows -/

/-! ## The contraction's operand indices, axis by axis -/

theorem lhs0_0 (i : S5000x64.Idx) (q : dot_S5000x512_S512x64_S5000x64_1_0_0_1_n_n.contr.Idx) :
    (dot_S5000x512_S512x64_S5000x64_1_0_0_1_n_n.lhsIdx i q 0).val = (i 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
theorem lhs0_1 (i : S5000x64.Idx) (q : dot_S5000x512_S512x64_S5000x64_1_0_0_1_n_n.contr.Idx) :
    (dot_S5000x512_S512x64_S5000x64_1_0_0_1_n_n.lhsIdx i q 1).val = (q ⟨0, by decide⟩).val :=
  dot_S5000x512_S512x64_S5000x64_1_0_0_1_n_n.lhsIdx_val_of_single rfl i q
theorem rhs0_0 (i : S5000x64.Idx) (q : dot_S5000x512_S512x64_S5000x64_1_0_0_1_n_n.contr.Idx) :
    (dot_S5000x512_S512x64_S5000x64_1_0_0_1_n_n.rhsIdx i q 0).val = (q ⟨0, by decide⟩).val :=
  dot_S5000x512_S512x64_S5000x64_1_0_0_1_n_n.rhsIdx_val_of_single rfl i q
theorem rhs0_1 (i : S5000x64.Idx) (q : dot_S5000x512_S512x64_S5000x64_1_0_0_1_n_n.contr.Idx) :
    (dot_S5000x512_S512x64_S5000x64_1_0_0_1_n_n.rhsIdx i q 1).val = (i 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-! ## The body's payload at a row and a column -/

/-- Row `p`, column `q` of what the body stores: row `p` of the left block times column `q` of the right factor,
    summed over the 512 contraction positions (the product accumulates into zero), plus the bias at column `q`
    (the bias row is broadcast down the rows). -/
theorem pay0_apply (x0 : Vec Ideal S5000x512 .f32) (x1 : Vec Ideal S512x64 .f32) (x2 : Vec Ideal S1x64 .f32) (p : Fin 5000) (q : Fin 64) :
    k0_pay1 (F := Ideal) x0 x1 x2 (ValueIdx.ix2 p q) = (∑ k : Fin 512, x0 (ValueIdx.ix2 p k) * x1 (ValueIdx.ix2 k q)) + x2 (ValueIdx.ix2 0 q) := by
  unfold k0_pay1
  simp only [shapeCast_self]
  rw [ValueIdx.addf_apply]
  rw [broadcastTo_apply x2 broadcasts_S1x64_S5000x64 (ValueIdx.ix2 p q) (ValueIdx.ix2 0 q) (fun a => by match a with | ⟨0, _⟩ => rfl | ⟨1, _⟩ => rfl)]
  simp only [matmul]
  rw [Ideal.matmul_constant_zero_apply, ← Equiv.sum_comp (ValueIdx.contrEquiv1 dot_S5000x512_S512x64_S5000x64_1_0_0_1_n_n 512 rfl rfl).symm]
  congr 1
  refine Finset.sum_congr rfl fun k _ => ?_
  have hk := ValueIdx.contrEquiv1_symm_val dot_S5000x512_S512x64_S5000x64_1_0_0_1_n_n 512 rfl rfl k
  have el : dot_S5000x512_S512x64_S5000x64_1_0_0_1_n_n.lhsIdx (ValueIdx.ix2 p q) ((ValueIdx.contrEquiv1 dot_S5000x512_S512x64_S5000x64_1_0_0_1_n_n 512 rfl rfl).symm k) = ValueIdx.ix2 p k := funext fun a => Fin.ext (by
    match a with
    | ⟨0, _⟩ => exact lhs0_0 _ _
    | ⟨1, _⟩ => exact (lhs0_1 _ _).trans hk)
  have er : dot_S5000x512_S512x64_S5000x64_1_0_0_1_n_n.rhsIdx (ValueIdx.ix2 p q) ((ValueIdx.contrEquiv1 dot_S5000x512_S512x64_S5000x64_1_0_0_1_n_n 512 rfl rfl).symm k) = ValueIdx.ix2 k q := funext fun a => Fin.ext (by
    match a with
    | ⟨0, _⟩ => exact (rhs0_0 _ _).trans hk
    | ⟨1, _⟩ => exact rhs0_1 _ _)
  rw [el, er]

/-! ## From the blocks to the array -/

/-- What the result array holds after the region, index by index, from the three operand arrays. -/
abbrev G0 (A : S50000x512.Idx → EReal) (W : S512x64.Idx → EReal) (B : S1x64.Idx → EReal) : S50000x64.Idx → EReal :=
  fun i => (∑ k : Fin 512, A (ValueIdx.ix2 (i 0) k) * W (ValueIdx.ix2 k (i 1))) + B (ValueIdx.ix2 0 (i 1))

/-- The block indices of the four windows at a grid point: the left factor and the result move by block rows with the
    point; the right factor and the bias row stay whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block row `t` is row `5000 t + p` of the array. -/
def row0 (t : Fin cfg0.N) (p : Fin 5000) : Fin 50000 :=
  ⟨t.val * 5000 + p.val, by have ht : t.val < 10 := lt_of_lt_of_eq t.isLt N_0; have hp := p.isLt; omega⟩

/-- Where the left factor's block at point `t` sits in its array: its rows are the array's rows `5000 t + p`. -/
theorem emb0_0 (t : Fin cfg0.N) (p : Fin 5000) (k : Fin 512) :
    ((cfg0.win 0).blk t).view.emb (ValueIdx.ix2 p k) = ValueIdx.ix2 (row0 t p) k := by
  obtain ⟨a0, a1, -⟩ := idx0 t
  funext a; apply Fin.ext
  match a with
  | ⟨0, _⟩ => show win0_0.index t (0 : Fin 2) * 5000 + 1 * p.val = t.val * 5000 + p.val; omega
  | ⟨1, _⟩ => show win0_0.index t (1 : Fin 2) * 512 + 1 * k.val = k.val; omega
/-- The right factor's block is its whole array, at every point. -/
theorem emb0_1 (t : Fin cfg0.N) (k : Fin 512) (q : Fin 64) :
    ((cfg0.win 1).blk t).view.emb (ValueIdx.ix2 k q) = ValueIdx.ix2 k q := by
  obtain ⟨-, -, w0, w1, -⟩ := idx0 t
  funext a; apply Fin.ext
  match a with
  | ⟨0, _⟩ => show win0_1.index t (0 : Fin 2) * 512 + 1 * k.val = k.val; omega
  | ⟨1, _⟩ => show win0_1.index t (1 : Fin 2) * 64 + 1 * q.val = q.val; omega
/-- The bias row's block is its whole array, at every point. -/
theorem emb0_2 (t : Fin cfg0.N) (z : Fin 1) (q : Fin 64) :
    ((cfg0.win 2).blk t).view.emb (ValueIdx.ix2 z q) = ValueIdx.ix2 z q := by
  obtain ⟨-, -, -, -, b0, b1, -⟩ := idx0 t
  funext a; apply Fin.ext
  match a with
  | ⟨0, _⟩ => show win0_2.index t (0 : Fin 2) * 1 + 1 * z.val = z.val; omega
  | ⟨1, _⟩ => show win0_2.index t (1 : Fin 2) * 64 + 1 * q.val = q.val; omega
/-- Where the result's block at point `t` sits in its array: its rows are the array's rows `5000 t + p`. -/
theorem emb0_3 (t : Fin cfg0.N) (p : Fin 5000) (q : Fin 64) :
    ((cfg0.win 3).blk t).view.emb (ValueIdx.ix2 p q) = ValueIdx.ix2 (row0 t p) q := by
  obtain ⟨-, -, -, -, -, -, o0, o1⟩ := idx0 t
  funext a; apply Fin.ext
  match a with
  | ⟨0, _⟩ => show win0_3.index t (0 : Fin 2) * 5000 + 1 * p.val = t.val * 5000 + p.val; omega
  | ⟨1, _⟩ => show win0_3.index t (1 : Fin 2) * 64 + 1 * q.val = q.val; omega

/-- The three input blocks at a point, read off the arrays as the region finds them. -/
theorem iblk0_0_apply (c : Dev nD) (t : Fin cfg0.N) (p : Fin 5000) (k : Fin 512) :
    iblk0 V c 0 t (ValueIdx.ix2 p k) = V c (Pipeline.arrRef spec0 0) (ValueIdx.ix2 (row0 t p) k) :=
  congrArg (V c (Pipeline.arrRef spec0 0)) (emb0_0 t p k)
theorem iblk0_1_apply (c : Dev nD) (t : Fin cfg0.N) (k : Fin 512) (q : Fin 64) :
    iblk0 V c 1 t (ValueIdx.ix2 k q) = V c (Pipeline.arrRef spec0 1) (ValueIdx.ix2 k q) :=
  congrArg (V c (Pipeline.arrRef spec0 1)) (emb0_1 t k q)
theorem iblk0_2_apply (c : Dev nD) (t : Fin cfg0.N) (z : Fin 1) (q : Fin 64) :
    iblk0 V c 2 t (ValueIdx.ix2 z q) = V c (Pipeline.arrRef spec0 2) (ValueIdx.ix2 z q) :=
  congrArg (V c (Pipeline.arrRef spec0 2)) (emb0_2 t z q)

/-- What point `t` writes back is block row `t` of `G0` of the arrays as the region finds them: row `p` of the block
    is row `5000 t + p` of the left factor against the whole right factor and bias row. -/
theorem flushed0_eq (c : Dev nD) (t : Fin cfg0.N) :
    (dat0 (F := Ideal) V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeros2]
  simp only [View.ld_unit_zero (S := S5000x512) zeros2, View.ld_unit_zero (S := S512x64) zeros2, View.ld_unit_zero (S := S1x64) zeros2]
  funext j
  obtain ⟨p, q, rfl⟩ : ∃ (p : Fin 5000) (q : Fin 64), j = ValueIdx.ix2 p q := ⟨j 0, j 1, ValueIdx.eq_ix2 j⟩
  show k0_pay1 (F := Ideal) (iblk0 V c 0 t) (iblk0 V c 1 t) (iblk0 V c 2 t) (ValueIdx.ix2 p q)
    = G0 (V c (Pipeline.arrRef spec0 0)) (V c (Pipeline.arrRef spec0 1)) (V c (Pipeline.arrRef spec0 2)) (((cfg0.win 3).blk t).view.emb (ValueIdx.ix2 p q))
  rw [pay0_apply, emb0_3, iblk0_2_apply, Finset.sum_congr rfl fun k _ => by rw [iblk0_0_apply, iblk0_1_apply]]

/-- An index of the result array is in point `t`'s block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v132).slice (win0_3.rect t)).set ↔ _
  rw [View.set_slice_whole, Rect.mem_set_unit]
  exact Iff.rfl

/-- Every index of the result array is in some point's block: row `r` is in block row `r / 5000`. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_3 _, ?_⟩
  rw [mem_blk0]
  obtain ⟨-, -, -, -, -, -, e0, e1⟩ := idx0 ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ (i 0).val ∧ (i 0).val < (i 0).val / 5000 * 5000 + 5000; omega
  | ⟨1, _⟩ => show win0_3.index _ (1 : Fin 2) * 64 ≤ (i 1).val ∧ (i 1).val < win0_3.index _ (1 : Fin 2) * 64 + 64; rw [e1]; omega

/-- THE RESULT ARRAY after region 0: at row `r`, column `q`, row `r` of the left factor times column `q` of the right
    factor, plus the bias at column `q`; the arrays as the region finds them. -/
theorem mm0_final (c : Dev nD) : (dat0 (F := Ideal) V c).arrAt 3 cfg0.N
    = G0 (V c (Pipeline.arrRef spec0 0)) (V c (Pipeline.arrRef spec0 1)) (V c (Pipeline.arrRef spec0 2)) :=
  (dat0 V c).arrAt_eq_of_cover 3 (G0 (V c (Pipeline.arrRef spec0 0)) (V c (Pipeline.arrRef spec0 1)) (V c (Pipeline.arrRef spec0 2)))
    (fun t _ => flushed0_eq V c t) cover0

/-- `G0` at a row and a column. -/
theorem G0_apply (A : S50000x512.Idx → EReal) (W : S512x64.Idx → EReal) (B : S1x64.Idx → EReal) (r : Fin 50000) (q : Fin 64) :
    G0 A W B (ValueIdx.ix2 r q) = (∑ k : Fin 512, A (ValueIdx.ix2 r k) * W (ValueIdx.ix2 k q)) + B (ValueIdx.ix2 0 q) := rfl

/-! # Region 3: the product of a [50000, 128] array and a [128, 16] array plus a bias row, by blocks of 5000 rows -/

/-! ## The contraction's operand indices, axis by axis -/

theorem lhs3_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs3_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
theorem rhs3_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
theorem rhs3_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-! ## The body's payload at a row and a column -/

/-- Row `p`, column `q` of what the body stores: row `p` of the left block times column `q` of the right factor,
    summed over the 128 contraction positions (the product accumulates into zero), plus the bias at column `q`
    (the bias row is broadcast down the rows). -/
theorem pay3_apply (x0 : Vec Ideal S5000x128 .f32) (x1 : Vec Ideal S128x16 .f32) (x2 : Vec Ideal S1x16 .f32) (p : Fin 5000) (q : Fin 16) :
    k3_pay1 (F := Ideal) x0 x1 x2 (ValueIdx.ix2 p q) = (∑ k : Fin 128, x0 (ValueIdx.ix2 p k) * x1 (ValueIdx.ix2 k q)) + x2 (ValueIdx.ix2 0 q) := by
  unfold k3_pay1
  simp only [shapeCast_self]
  rw [ValueIdx.addf_apply]
  rw [broadcastTo_apply x2 broadcasts_S1x16_S5000x16 (ValueIdx.ix2 p q) (ValueIdx.ix2 0 q) (fun a => by match a with | ⟨0, _⟩ => rfl | ⟨1, _⟩ => rfl)]
  simp only [matmul]
  rw [Ideal.matmul_constant_zero_apply, ← Equiv.sum_comp (ValueIdx.contrEquiv1 dot_S5000x128_S128x16_S5000x16_1_0_0_1_n_n 128 rfl rfl).symm]
  congr 1
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx (ValueIdx.ix2 p q) ((ValueIdx.contrEquiv1 dot_S5000x128_S128x16_S5000x16_1_0_0_1_n_n 128 rfl rfl).symm k) = ValueIdx.ix2 p k := funext fun a => Fin.ext (by
    match a with
    | ⟨0, _⟩ => exact lhs3_0 _ _
    | ⟨1, _⟩ => exact (lhs3_1 _ _).trans hk)
  have er : dot_S5000x128_S128x16_S5000x16_1_0_0_1_n_n.rhsIdx (ValueIdx.ix2 p q) ((ValueIdx.contrEquiv1 dot_S5000x128_S128x16_S5000x16_1_0_0_1_n_n 128 rfl rfl).symm k) = ValueIdx.ix2 k q := funext fun a => Fin.ext (by
    match a with
    | ⟨0, _⟩ => exact (rhs3_0 _ _).trans hk
    | ⟨1, _⟩ => exact rhs3_1 _ _)
  rw [el, er]

/-! ## From the blocks to the array -/

/-- What the result array holds after the region, index by index, from the three operand arrays. -/
abbrev G3 (A : S50000x128.Idx → EReal) (W : S128x16.Idx → EReal) (B : S1x16.Idx → EReal) : S50000x16.Idx → EReal :=
  fun i => (∑ k : Fin 128, A (ValueIdx.ix2 (i 0) k) * W (ValueIdx.ix2 k (i 1))) + B (ValueIdx.ix2 0 (i 1))

/-- The block indices of the four windows at a grid point: the left factor and the result move by block rows with the
    point; the right factor and the bias row stay whole. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of block row `t` is row `5000 t + p` of the array. -/
def row3 (t : Fin cfg3.N) (p : Fin 5000) : Fin 50000 :=
  ⟨t.val * 5000 + p.val, by have ht : t.val < 10 := lt_of_lt_of_eq t.isLt N_3; have hp := p.isLt; omega⟩

/-- Where the left factor's block at point `t` sits in its array: its rows are the array's rows `5000 t + p`. -/
theorem emb3_0 (t : Fin cfg3.N) (p : Fin 5000) (k : Fin 128) :
    ((cfg3.win 0).blk t).view.emb (ValueIdx.ix2 p k) = ValueIdx.ix2 (row3 t p) k := by
  obtain ⟨a0, a1, -⟩ := idx3 t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega
/-- The right factor's block is its whole array, at every point. -/
theorem emb3_1 (t : Fin cfg3.N) (k : Fin 128) (q : Fin 16) :
    ((cfg3.win 1).blk t).view.emb (ValueIdx.ix2 k q) = ValueIdx.ix2 k q := by
  obtain ⟨-, -, w0, w1, -⟩ := idx3 t
  funext a; apply Fin.ext
  match a with
  | ⟨0, _⟩ => show win3_1.index t (0 : Fin 2) * 128 + 1 * k.val = k.val; omega
  | ⟨1, _⟩ => show win3_1.index t (1 : Fin 2) * 16 + 1 * q.val = q.val; omega
/-- The bias row's block is its whole array, at every point. -/
theorem emb3_2 (t : Fin cfg3.N) (z : Fin 1) (q : Fin 16) :
    ((cfg3.win 2).blk t).view.emb (ValueIdx.ix2 z q) = ValueIdx.ix2 z q := by
  obtain ⟨-, -, -, -, b0, b1, -⟩ := idx3 t
  funext a; apply Fin.ext
  match a with
  | ⟨0, _⟩ => show win3_2.index t (0 : Fin 2) * 1 + 1 * z.val = z.val; omega
  | ⟨1, _⟩ => show win3_2.index t (1 : Fin 2) * 16 + 1 * q.val = q.val; omega
/-- Where the result's block at point `t` sits in its array: its rows are the array's rows `5000 t + p`. -/
theorem emb3_3 (t : Fin cfg3.N) (p : Fin 5000) (q : Fin 16) :
    ((cfg3.win 3).blk t).view.emb (ValueIdx.ix2 p q) = ValueIdx.ix2 (row3 t p) q := by
  obtain ⟨-, -, -, -, -, -, o0, o1⟩ := idx3 t
  funext a; apply Fin.ext
  match a with
  | ⟨0, _⟩ => show win3_3.index t (0 : Fin 2) * 5000 + 1 * p.val = t.val * 5000 + p.val; omega
  | ⟨1, _⟩ => show win3_3.index t (1 : Fin 2) * 16 + 1 * q.val = q.val; omega

/-- The three input blocks at a point, read off the arrays as the region finds them. -/
theorem iblk3_0_apply (c : Dev nD) (t : Fin cfg3.N) (p : Fin 5000) (k : Fin 128) :
    iblk3 V c 0 t (ValueIdx.ix2 p k) = V c (Pipeline.arrRef spec3 0) (ValueIdx.ix2 (row3 t p) k) :=
  congrArg (V c (Pipeline.arrRef spec3 0)) (emb3_0 t p k)
theorem iblk3_1_apply (c : Dev nD) (t : Fin cfg3.N) (k : Fin 128) (q : Fin 16) :
    iblk3 V c 1 t (ValueIdx.ix2 k q) = V c (Pipeline.arrRef spec3 1) (ValueIdx.ix2 k q) :=
  congrArg (V c (Pipeline.arrRef spec3 1)) (emb3_1 t k q)
theorem iblk3_2_apply (c : Dev nD) (t : Fin cfg3.N) (z : Fin 1) (q : Fin 16) :
    iblk3 V c 2 t (ValueIdx.ix2 z q) = V c (Pipeline.arrRef spec3 2) (ValueIdx.ix2 z q) :=
  congrArg (V c (Pipeline.arrRef spec3 2)) (emb3_2 t z q)

/-- What point `t` writes back is block row `t` of `G3` of the arrays as the region finds them: row `p` of the block
    is row `5000 t + p` of the left factor against the whole right factor and bias row. -/
theorem flushed3_eq (c : Dev nD) (t : Fin cfg3.N) :
    (dat3 (F := Ideal) V c).flushed 3 t = ((cfg3.win 3).blk t).view.read (Elt Ideal)
      (G3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zeros2]
  simp only [View.ld_unit_zero (S := S5000x128) zeros2, View.ld_unit_zero (S := S128x16) zeros2, View.ld_unit_zero (S := S1x16) zeros2]
  funext j
  obtain ⟨p, q, rfl⟩ : ∃ (p : Fin 5000) (q : Fin 16), j = ValueIdx.ix2 p q := ⟨j 0, j 1, ValueIdx.eq_ix2 j⟩
  show k3_pay1 (F := Ideal) (iblk3 V c 0 t) (iblk3 V c 1 t) (iblk3 V c 2 t) (ValueIdx.ix2 p q)
    = G3 (V c (Pipeline.arrRef spec3 0)) (V c (Pipeline.arrRef spec3 1)) (V c (Pipeline.arrRef spec3 2)) (((cfg3.win 3).blk t).view.emb (ValueIdx.ix2 p q))
  rw [pay3_apply, emb3_3, iblk3_2_apply, Finset.sum_congr rfl fun k _ => by rw [iblk3_0_apply, iblk3_1_apply]]

/-- An index of the result array is in point `t`'s block iff each coordinate is in the block's range on its axis. -/
theorem mem_blk3 (t : Fin cfg3.N) (i : S50000x16.Idx) :
    i ∈ ((cfg3.win 3).blk t).view.set ↔ ∀ a : Fin 2, win3_3.index t a * S5000x16.size a ≤ (i a).val ∧ (i a).val < win3_3.index t a * S5000x16.size a + S5000x16.size a := by
  show i ∈ ((View.whole main_v165).slice (win3_3.rect t)).set ↔ _
  rw [View.set_slice_whole, Rect.mem_set_unit]
  exact Iff.rfl

/-- Every index of the result array is in some point's block: row `r` is in block row `r / 5000`. -/
theorem cover3 (i : S50000x16.Idx) : ∃ t : Fin cfg3.N, (cfg3.win 3).flush t = true ∧ i ∈ ((cfg3.win 3).blk t).view.set := by
  have hi0 : (i 0).val < 50000 := (i 0).isLt
  have hi1 : (i 1).val < 16 := (i 1).isLt
  have hN : cfg3.N = 10 := N_3
  refine ⟨⟨(i 0).val / 5000, by rw [hN]; omega⟩, flush3_3 _, ?_⟩
  rw [mem_blk3]
  obtain ⟨-, -, -, -, -, -, e0, e1⟩ := idx3 ⟨(i 0).val / 5000, by rw [hN]; omega⟩
  intro a
  match a with
  | ⟨0, _⟩ => show win3_3.index _ (0 : Fin 2) * 5000 ≤ (i 0).val ∧ (i 0).val < win3_3.index _ (0 : Fin 2) * 5000 + 5000; rw [e0]; show (i 0).val / 5000 * 5000 ≤ (i 0).val ∧ (i 0).val < (i 0).val / 5000 * 5000 + 5000; omega
  | ⟨1, _⟩ => show win3_3.index _ (1 : Fin 2) * 16 ≤ (i 1).val ∧ (i 1).val < win3_3.index _ (1 : Fin 2) * 16 + 16; rw [e1]; omega

/-- THE RESULT ARRAY after region 3: at row `r`, column `q`, row `r` of the left factor times column `q` of the right
    factor, plus the bias at column `q`; the arrays as the region finds them. -/
theorem mm3_final (c : Dev nD) : (dat3 (F := Ideal) V c).arrAt 3 cfg3.N
    = G3 (V c (Pipeline.arrRef spec3 0)) (V c (Pipeline.arrRef spec3 1)) (V c (Pipeline.arrRef spec3 2)) :=
  (dat3 V c).arrAt_eq_of_cover 3 (G3 (V c (Pipeline.arrRef spec3 0)) (V c (Pipeline.arrRef spec3 1)) (V c (Pipeline.arrRef spec3 2)))
    (fun t _ => flushed3_eq V c t) cover3

/-- `G3` at a row and a column. -/
theorem G3_apply (A : S50000x128.Idx → EReal) (W : S128x16.Idx → EReal) (B : S1x16.Idx → EReal) (r : Fin 50000) (q : Fin 16) :
    G3 A W B (ValueIdx.ix2 r q) = (∑ k : Fin 128, A (ValueIdx.ix2 r k) * W (ValueIdx.ix2 k q)) + B (ValueIdx.ix2 0 q) := rfl

/-! # Region 6: the product of a [50000, 32] array and a [32, 16] array plus a bias row, by blocks of 5000 rows -/

/-! ## The contraction's operand indices, axis by axis -/

theorem lhs6_0 (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem lhs6_1 (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
theorem rhs6_0 (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
theorem rhs6_1 (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-! ## The body's payload at a row and a column -/

/-- Row `p`, column `q` of what the body stores: row `p` of the left block times column `q` of the right factor,
    summed over the 32 contraction positions (the product accumulates into zero), plus the bias at column `q`
    (the bias row is broadcast down the rows). -/
theorem pay6_apply (x0 : Vec Ideal S5000x32 .f32) (x1 : Vec Ideal S32x16 .f32) (x2 : Vec Ideal S1x16 .f32) (p : Fin 5000) (q : Fin 16) :
    k6_pay1 (F := Ideal) x0 x1 x2 (ValueIdx.ix2 p q) = (∑ k : Fin 32, x0 (ValueIdx.ix2 p k) * x1 (ValueIdx.ix2 k q)) + x2 (ValueIdx.ix2 0 q) := by
  unfold k6_pay1
  simp only [shapeCast_self]
  rw [ValueIdx.addf_apply]
  rw [broadcastTo_apply x2 broadcasts_S1x16_S5000x16 (ValueIdx.ix2 p q) (ValueIdx.ix2 0 q) (fun a => by match a with | ⟨0, _⟩ => rfl | ⟨1, _⟩ => rfl)]
  simp only [matmul]
  rw [Ideal.matmul_constant_zero_apply, ← Equiv.sum_comp (ValueIdx.contrEquiv1 dot_S5000x32_S32x16_S5000x16_1_0_0_1_n_n 32 rfl rfl).symm]
  congr 1
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx (ValueIdx.ix2 p q) ((ValueIdx.contrEquiv1 dot_S5000x32_S32x16_S5000x16_1_0_0_1_n_n 32 rfl rfl).symm k) = ValueIdx.ix2 p k := funext fun a => Fin.ext (by
    match a with
    | ⟨0, _⟩ => exact lhs6_0 _ _
    | ⟨1, _⟩ => exact (lhs6_1 _ _).trans hk)
  have er : dot_S5000x32_S32x16_S5000x16_1_0_0_1_n_n.rhsIdx (ValueIdx.ix2 p q) ((ValueIdx.contrEquiv1 dot_S5000x32_S32x16_S5000x16_1_0_0_1_n_n 32 rfl rfl).symm k) = ValueIdx.ix2 k q := funext fun a => Fin.ext (by
    match a with
    | ⟨0, _⟩ => exact (rhs6_0 _ _).trans hk
    | ⟨1, _⟩ => exact rhs6_1 _ _)
  rw [el, er]

/-! ## From the blocks to the array -/

/-- What the result array holds after the region, index by index, from the three operand arrays. -/
abbrev G6 (A : S50000x32.Idx → EReal) (W : S32x16.Idx → EReal) (B : S1x16.Idx → EReal) : S50000x16.Idx → EReal :=
  fun i => (∑ k : Fin 32, A (ValueIdx.ix2 (i 0) k) * W (ValueIdx.ix2 k (i 1))) + B (ValueIdx.ix2 0 (i 1))

/-- The block indices of the four windows at a grid point: the left factor and the result move by block rows with the
    point; the right factor and the bias row stay whole. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row `p` of block row `t` is row `5000 t + p` of the array. -/
def row6 (t : Fin cfg6.N) (p : Fin 5000) : Fin 50000 :=
  ⟨t.val * 5000 + p.val, by have ht : t.val < 10 := lt_of_lt_of_eq t.isLt N_6; have hp := p.isLt; omega⟩

/-- Where the left factor's block at point `t` sits in its array: its rows are the array's rows `5000 t + p`. -/
theorem emb6_0 (t : Fin cfg6.N) (p : Fin 5000) (k : Fin 32) :
    ((cfg6.win 0).blk t).view.emb (ValueIdx.ix2 p k) = ValueIdx.ix2 (row6 t p) k := by
  obtain ⟨a0, a1, -⟩ := idx6 t
  funext a; apply Fin.ext
  match a with
  | ⟨0, _⟩ => show win6_0.index t (0 : Fin 2) * 5000 + 1 * p.val = t.val * 5000 + p.val; omega
  | ⟨1, _⟩ => show win6_0.index t (1 : Fin 2) * 32 + 1 * k.val = k.val; omega
/-- The right factor's block is its whole array, at every point. -/
theorem emb6_1 (t : Fin cfg6.N) (k : Fin 32) (q : Fin 16) :
    ((cfg6.win 1).blk t).view.emb (ValueIdx.ix2 k q) = ValueIdx.ix2 k q := by
  obtain ⟨-, -, w0, w1, -⟩ := idx6 t
  funext a; apply Fin.ext
  match a with
  | ⟨0, _⟩ => show win6_1.index t (0 : Fin 2) * 32 + 1 * k.val = k.val; omega
  | ⟨1, _⟩ => show win6_1.index t (1 : Fin 2) * 16 + 1 * q.val = q.val; omega
/-- The bias row's block is its whole array, at every point. -/
theorem emb6_2 (t : Fin cfg6.N) (z : Fin 1) (q : Fin 16) :
    ((cfg6.win 2).blk t).view.emb (ValueIdx.ix2 z q) = ValueIdx.ix2 z q := by
  obtain ⟨-, -, -, -, b0, b1, -⟩ := idx6 t
  funext a; apply Fin.ext
  match a with
  | ⟨0, _⟩ => show win6_2.index t (0 : Fin 2) * 1 + 1 * z.val = z.val; omega
  | ⟨1, _⟩ => show win6_2.index t (1 : Fin 2) * 16 + 1 * q.val = q.val; omega
/-- Where the result's block at point `t` sits in its array: its rows are the array's rows `5000 t + p`. -/
theorem emb6_3 (t : Fin cfg6.N) (p : Fin 5000) (q : Fin 16) :
    ((cfg6.win 3).blk t).view.emb (ValueIdx.ix2 p q) = ValueIdx.ix2 (row6 t p) q := by
  obtain ⟨-, -, -, -, -, -, o0, o1⟩ := idx6 t
  funext a; apply Fin.ext
  match a with
  | ⟨0, _⟩ => show win6_3.index t (0 : Fin 2) * 5000 + 1 * p.val = t.val * 5000 + p.val; omega
  | ⟨1, _⟩ => show win6_3.index t (1 : Fin 2) * 16 + 1 * q.val = q.val; omega

/-- The three input blocks at a point, read off the arrays as the region finds them. -/
theorem iblk6_0_apply (c : Dev nD) (t : Fin cfg6.N) (p : Fin 5000) (k : Fin 32) :
    iblk6 V c 0 t (ValueIdx.ix2 p k) = V c (Pipeline.arrRef spec6 0) (ValueIdx.ix2 (row6 t p) k) :=
  congrArg (V c (Pipeline.arrRef spec6 0)) (emb6_0 t p k)
theorem iblk6_1_apply (c : Dev nD) (t : Fin cfg6.N) (k : Fin 32) (q : Fin 16) :
    iblk6 V c 1 t (ValueIdx.ix2 k q) = V c (Pipeline.arrRef spec6 1) (ValueIdx.ix2 k q) :=
  congrArg (V c (Pipeline.arrRef spec6 1)) (emb6_1 t k q)
theorem iblk6_2_apply (c : Dev nD) (t : Fin cfg6.N) (z : Fin 1) (q : Fin 16) :
    iblk6 V c 2 t (ValueIdx.ix2 z q) = V c (Pipeline.arrRef spec6 2) (ValueIdx.ix2 z q) :=
  congrArg (V c (Pipeline.arrRef spec6 2)) (emb6_2 t z q)

/-- What point `t` writes back is block row `t` of `G6` of the arrays as the region finds them: row `p` of the block
    is row `5000 t + p` of the left factor against the whole right factor and bias row. -/
theorem flushed6_eq (c : Dev nD) (t : Fin cfg6.N) :
    (dat6 (F := Ideal) V c).flushed 3 t = ((cfg6.win 3).blk t).view.read (Elt Ideal)
      (G6 (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero zeros2]
  simp only [View.ld_unit_zero (S := S5000x32) zeros2, View.ld_unit_zero (S := S32x16) zeros2, View.ld_unit_zero (S := S1x16) zeros2]
  funext j
  obtain ⟨p, q, rfl⟩ : ∃ (p : Fin 5000) (q : Fin 16), j = ValueIdx.ix2 p q := ⟨j 0, j 1, ValueIdx.eq_ix2 j⟩
  show k6_pay1 (F := Ideal) (iblk6 V c 0 t) (iblk6 V c 1 t) (iblk6 V c 2 t) (ValueIdx.ix2 p q)
    = G6 (V c (Pipeline.arrRef spec6 0)) (V c (Pipeline.arrRef spec6 1)) (V c (Pipeline.arrRef spec6 2)) (((cfg6.win 3).blk t).view.emb (ValueIdx.ix2 p q))
  rw [pay6_apply, emb6_3, iblk6_2_apply, Finset.sum_congr rfl fun k _ => by rw [iblk6_0_apply, iblk6_1_apply]]

/-- An index of the result array is in point `t`'s block iff each coordinate is in the block's range on its axis. -/
theorem mem_blk6 (t : Fin cfg6.N) (i : S50000x16.Idx) :
    i ∈ ((cfg6.win 3).blk t).view.set ↔ ∀ a : Fin 2, win6_3.index t a * S5000x16.size a ≤ (i a).val ∧ (i a).val < win6_3.index t a * S5000x16.size a + S5000x16.size a := by
  show i ∈ ((View.whole main_v196).slice (win6_3.rect t)).set ↔ _
  rw [View.set_slice_whole, Rect.mem_set_unit]
  exact Iff.rfl

/-- Every index of the result array is in some point's block: row `r` is in block row `r / 5000`. -/
theorem cover6 (i : S50000x16.Idx) : ∃ t : Fin cfg6.N, (cfg6.win 3).flush t = true ∧ i ∈ ((cfg6.win 3).blk t).view.set := by
  have hi0 : (i 0).val < 50000 := (i 0).isLt
  have hi1 : (i 1).val < 16 := (i 1).isLt
  have hN : cfg6.N = 10 := N_6
  refine ⟨⟨(i 0).val / 5000, by rw [hN]; omega⟩, flush6_3 _, ?_⟩
  rw [mem_blk6]
  obtain ⟨-, -, -, -, -, -, e0, e1⟩ := idx6 ⟨(i 0).val / 5000, by rw [hN]; omega⟩
  intro a
  match a with
  | ⟨0, _⟩ => show win6_3.index _ (0 : Fin 2) * 5000 ≤ (i 0).val ∧ (i 0).val < win6_3.index _ (0 : Fin 2) * 5000 + 5000; rw [e0]; show (i 0).val / 5000 * 5000 ≤ (i 0).val ∧ (i 0).val < (i 0).val / 5000 * 5000 + 5000; omega
  | ⟨1, _⟩ => show win6_3.index _ (1 : Fin 2) * 16 ≤ (i 1).val ∧ (i 1).val < win6_3.index _ (1 : Fin 2) * 16 + 16; rw [e1]; omega

/-- THE RESULT ARRAY after region 6: at row `r`, column `q`, row `r` of the left factor times column `q` of the right
    factor, plus the bias at column `q`; the arrays as the region finds them. -/
theorem mm6_final (c : Dev nD) : (dat6 (F := Ideal) V c).arrAt 3 cfg6.N
    = G6 (V c (Pipeline.arrRef spec6 0)) (V c (Pipeline.arrRef spec6 1)) (V c (Pipeline.arrRef spec6 2)) :=
  (dat6 V c).arrAt_eq_of_cover 3 (G6 (V c (Pipeline.arrRef spec6 0)) (V c (Pipeline.arrRef spec6 1)) (V c (Pipeline.arrRef spec6 2)))
    (fun t _ => flushed6_eq V c t) cover6

/-- `G6` at a row and a column. -/
theorem G6_apply (A : S50000x32.Idx → EReal) (W : S32x16.Idx → EReal) (B : S1x16.Idx → EReal) (r : Fin 50000) (q : Fin 16) :
    G6 A W B (ValueIdx.ix2 r q) = (∑ k : Fin 32, A (ValueIdx.ix2 r k) * W (ValueIdx.ix2 k q)) + B (ValueIdx.ix2 0 q) := rfl

end Cert.KernelIdeal.HandVal

end
-- ==== Proof.Bridge.KArgs.lean ====
import proofs.«402757_j20469814133395_4_alg».proof.Proof.KI.RegionsP
import Idealize.ShloMosaic.Lib.StableHlo.Run
import Idealize.ShloMosaic.Lib.ValueIdx
import Idealize.ShloMosaic.PureOps.Ideal.Laws

/-!
# What the first product's operands hold when it starts

The two factors are arguments, which no host operation before the product writes; the
bias row of the first product is a row of zeros.
-/

noncomputable section

namespace Cert.Bridge

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ)

/-- The left factor is the argument as launched. -/
theorem V29_arg0 (c : Dev nD) : GenP.V29 m c main_arg0 = GenP.V0 m c main_arg0 :=
  (V29_of m c main_arg0 (by decide)).trans <| (V28_of m c main_arg0 (by decide)).trans <| (V27_of m c main_arg0 (by decide)).trans <| (V26_of m c main_arg0 (by decide)).trans <| (V25_of m c main_arg0 (by decide)).trans <| (V24_of m c main_arg0 (by decide)).trans <| (V23_of m c main_arg0 (by decide)).trans <| (V22_of m c main_arg0 (by decide)).trans <| (V21_of m c main_arg0 (by decide)).trans <| (V20_of m c main_arg0 (by decide)).trans <| (V19_of m c main_arg0 (by decide)).trans <| (V18_of m c main_arg0 (by decide)).trans <| (V17_of m c main_arg0 (by decide)).trans <| (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| V1_of m c main_arg0 (by decide)

/-- The right factor is the argument as launched. -/
theorem V29_arg3 (c : Dev nD) : GenP.V29 m c main_arg3 = GenP.V0 m c main_arg3 :=
  (V29_of m c main_arg3 (by decide)).trans <| (V28_of m c main_arg3 (by decide)).trans <| (V27_of m c main_arg3 (by decide)).trans <| (V26_of m c main_arg3 (by decide)).trans <| (V25_of m c main_arg3 (by decide)).trans <| (V24_of m c main_arg3 (by decide)).trans <| (V23_of m c main_arg3 (by decide)).trans <| (V22_of m c main_arg3 (by decide)).trans <| (V21_of m c main_arg3 (by decide)).trans <| (V20_of m c main_arg3 (by decide)).trans <| (V19_of m c main_arg3 (by decide)).trans <| (V18_of m c main_arg3 (by decide)).trans <| (V17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| V1_of m c main_arg3 (by decide)

/-- The bias row of the first product: the zero constant, broadcast and viewed as a row. -/
theorem V29_v131 (c : Dev nD) :
    GenP.V29 m c main_v131
      = shapeCast S1x64 (broadcastInDim S64 ![] bcast_S_S64 (constant (F := F) S_ .f32 0x00000000#32)) shapeCasts_S64_S1x64 := by
  after_results_simp
  rfl

/-- … a row of zeros at the extended reals. -/
theorem V29_v131_at (m : (ℓ : Loc nD τ sig) → Buf (Elt Ideal) ℓ) (c : Dev nD) (j : S1x64.Idx) :
    (GenP.V29 m c main_v131 : S1x64.Idx → EReal) j = (0 : EReal) := by
  rw [V29_v131]
  show (Ideal.ofBits .f32 0x00000000#32 : EReal) = 0
  simp [Ideal.ofBits, Ideal.ieee]

end Cert.Bridge

end
-- ==== Proof.Bridge.MmRef.lean ====
/- The three matrix-product regions of the kernel program against the reference's products, at the ideal values. A
   region's result array is, index by index, the sum over the contraction axis of the left factor's row times the right
   factor's column, plus the bias at the column; the host's product of the same two factors is the same sum. The first
   two regions' bias rows are rows of zeros (so the regions are the reference's products); the last region's bias row is
   the reference's bias vector viewed as a row (so the region is the reference's product plus the bias on every row). -/
import proofs.«402757_j20469814133395_4_alg».proof.Proof.KI.MmVal
import proofs.«402757_j20469814133395_4_alg».proof.Proof.Bridge.KArgs
import proofs.«402757_j20469814133395_4_alg».proof.Proof.Ref.ReadDefs

noncomputable section

namespace Cert.Bridge

open Cert.KernelIdeal Cert.KernelIdeal.Gen Cert.KernelIdeal.GenP Cert.KernelIdeal.Hand Cert.KernelIdeal.HandVal
open Idealize.ShloMosaic Idealize.ShloMosaic.TcCoe Idealize.SL.Sem Idealize.ShloMosaic.StableHlo

/-! ## The host's products at an index -/

/-- The host's [50000, 512] by [512, …] product at an index: the sum over the contraction axis. -/
theorem hostDot0_apply (X : S50000x512.Idx → EReal) (W : S512x64.Idx → EReal) (i : S50000x64.Idx) :
    Host.dotGeneral (F := Ideal) (φ₁ := .f32) (φ₂ := .f32) Cert.ReferenceIdeal.dot_S50000x512_S512x64_S50000x64_1_0_0_1_n_n none X W i
      = ∑ k : Fin 512, X (ValueIdx.ix2 (i 0) k) * W (ValueIdx.ix2 k (i 1)) := by
  simp only [Host.dotGeneral]
  rw [Ideal.dotGeneral_apply, ← Equiv.sum_comp (ValueIdx.contrEquiv1 Cert.ReferenceIdeal.dot_S50000x512_S512x64_S50000x64_1_0_0_1_n_n 512 rfl rfl).symm]
  refine Finset.sum_congr rfl fun k _ => ?_
  have hk := ValueIdx.contrEquiv1_symm_val Cert.ReferenceIdeal.dot_S50000x512_S512x64_S50000x64_1_0_0_1_n_n 512 rfl rfl k
  have el : Cert.ReferenceIdeal.dot_S50000x512_S512x64_S50000x64_1_0_0_1_n_n.lhsIdx i ((ValueIdx.contrEquiv1 Cert.ReferenceIdeal.dot_S50000x512_S512x64_S50000x64_1_0_0_1_n_n 512 rfl rfl).symm k) = ValueIdx.ix2 (i 0) k := funext fun a => Fin.ext (by
    match a with
    | ⟨0, _⟩ => exact Cert.ReferenceIdeal.Read.lhs_main_v0_0 _ _
    | ⟨1, _⟩ => exact (Cert.ReferenceIdeal.Read.lhs_main_v0_1 _ _).trans hk)
  have er : Cert.ReferenceIdeal.dot_S50000x512_S512x64_S50000x64_1_0_0_1_n_n.rhsIdx i ((ValueIdx.contrEquiv1 Cert.ReferenceIdeal.dot_S50000x512_S512x64_S50000x64_1_0_0_1_n_n 512 rfl rfl).symm k) = ValueIdx.ix2 k (i 1) := funext fun a => Fin.ext (by
    match a with
    | ⟨0, _⟩ => exact (Cert.ReferenceIdeal.Read.rhs_main_v0_0 _ _).trans hk
    | ⟨1, _⟩ => exact Cert.ReferenceIdeal.Read.rhs_main_v0_1 _ _)
  exact congrArg₂ (fun a b => X a * W b) el er

/-- The host's [50000, 128] by [128, …] product at an index: the sum over the contraction axis. -/
theorem hostDot3_apply (X : S50000x128.Idx → EReal) (W : S128x16.Idx → EReal) (i : S50000x16.Idx) :
    Host.dotGeneral (F := Ideal) (φ₁ := .f32) (φ₂ := .f32) Cert.ReferenceIdeal.dot_S50000x128_S128x16_S50000x16_1_0_0_1_n_n none X W i
      = ∑ k : Fin 128, X (ValueIdx.ix2 (i 0) k) * W (ValueIdx.ix2 k (i 1)) := by
  simp only [Host.dotGeneral]
  rw [Ideal.dotGeneral_apply, ← Equiv.sum_comp (ValueIdx.contrEquiv1 Cert.ReferenceIdeal.dot_S50000x128_S128x16_S50000x16_1_0_0_1_n_n 128 rfl rfl).symm]
  refine Finset.sum_congr rfl fun k _ => ?_
  have hk := ValueIdx.contrEquiv1_symm_val Cert.ReferenceIdeal.dot_S50000x128_S128x16_S50000x16_1_0_0_1_n_n 128 rfl rfl k
  have el : Cert.ReferenceIdeal.dot_S50000x128_S128x16_S50000x16_1_0_0_1_n_n.lhsIdx i ((ValueIdx.contrEquiv1 Cert.ReferenceIdeal.dot_S50000x128_S128x16_S50000x16_1_0_0_1_n_n 128 rfl rfl).symm k) = ValueIdx.ix2 (i 0) k := funext fun a => Fin.ext (by
    match a with
    | ⟨0, _⟩ => exact Cert.ReferenceIdeal.Read.lhs_main_v100_0 _ _
    | ⟨1, _⟩ => exact (Cert.ReferenceIdeal.Read.lhs_main_v100_1 _ _).trans hk)
  have er : Cert.ReferenceIdeal.dot_S50000x128_S128x16_S50000x16_1_0_0_1_n_n.rhsIdx i ((ValueIdx.contrEquiv1 Cert.ReferenceIdeal.dot_S50000x128_S128x16_S50000x16_1_0_0_1_n_n 128 rfl rfl).symm k) = ValueIdx.ix2 k (i 1) := funext fun a => Fin.ext (by
    match a with
    | ⟨0, _⟩ => exact (Cert.ReferenceIdeal.Read.rhs_main_v100_0 _ _).trans hk
    | ⟨1, _⟩ => exact Cert.ReferenceIdeal.Read.rhs_main_v100_1 _ _)
  exact congrArg₂ (fun a b => X a * W b) el er

/-- The host's [50000, 32] by [32, …] product at an index: the sum over the contraction axis. -/
theorem hostDot6_apply (X : S50000x32.Idx → EReal) (W : S32x16.Idx → EReal) (i : S50000x16.Idx) :
    Host.dotGeneral (F := Ideal) (φ₁ := .f32) (φ₂ := .f32) Cert.ReferenceIdeal.dot_S50000x32_S32x16_S50000x16_1_0_0_1_n_n none X W i
      = ∑ k : Fin 32, X (ValueIdx.ix2 (i 0) k) * W (ValueIdx.ix2 k (i 1)) := by
  simp only [Host.dotGeneral]
  rw [Ideal.dotGeneral_apply, ← Equiv.sum_comp (ValueIdx.contrEquiv1 Cert.ReferenceIdeal.dot_S50000x32_S32x16_S50000x16_1_0_0_1_n_n 32 rfl rfl).symm]
  refine Finset.sum_congr rfl fun k _ => ?_
  have hk := ValueIdx.contrEquiv1_symm_val Cert.ReferenceIdeal.dot_S50000x32_S32x16_S50000x16_1_0_0_1_n_n 32 rfl rfl k
  have el : Cert.ReferenceIdeal.dot_S50000x32_S32x16_S50000x16_1_0_0_1_n_n.lhsIdx i ((ValueIdx.contrEquiv1 Cert.ReferenceIdeal.dot_S50000x32_S32x16_S50000x16_1_0_0_1_n_n 32 rfl rfl).symm k) = ValueIdx.ix2 (i 0) k := funext fun a => Fin.ext (by
    match a with
    | ⟨0, _⟩ => exact Cert.ReferenceIdeal.Read.lhs_main_v199_0 _ _
    | ⟨1, _⟩ => exact (Cert.ReferenceIdeal.Read.lhs_main_v199_1 _ _).trans hk)
  have er : Cert.ReferenceIdeal.dot_S50000x32_S32x16_S50000x16_1_0_0_1_n_n.rhsIdx i ((ValueIdx.contrEquiv1 Cert.ReferenceIdeal.dot_S50000x32_S32x16_S50000x16_1_0_0_1_n_n 32 rfl rfl).symm k) = ValueIdx.ix2 k (i 1) := funext fun a => Fin.ext (by
    match a with
    | ⟨0, _⟩ => exact (Cert.ReferenceIdeal.Read.rhs_main_v199_0 _ _).trans hk
    | ⟨1, _⟩ => exact Cert.ReferenceIdeal.Read.rhs_main_v199_1 _ _)
  exact congrArg₂ (fun a b => X a * W b) el er

/-! ## The regions' closed forms are the host's products -/

/-- With a zero bias row the first region's result is the reference's first product of the same factors. -/
theorem G0_ref (X : S50000x512.Idx → EReal) (W : S512x64.Idx → EReal) (Z : S1x64.Idx → EReal) (hZ : ∀ j, Z j = 0) :
    G0 X W Z = Cert.ReferenceIdeal.Read.val_main_v0 (F := Ideal) X W := by
  funext i
  show (∑ k : Fin 512, X (ValueIdx.ix2 (i 0) k) * W (ValueIdx.ix2 k (i 1))) + Z (ValueIdx.ix2 0 (i 1)) = _
  rw [hZ, add_zero]
  exact (hostDot0_apply X W i).symm

/-- With a zero bias row the middle region's result is the host's product of the same factors. -/
theorem G3_ref (X : S50000x128.Idx → EReal) (W : S128x16.Idx → EReal) (Z : S1x16.Idx → EReal) (hZ : ∀ j, Z j = 0) :
    G3 X W Z = Host.dotGeneral (F := Ideal) (φ₁ := .f32) (φ₂ := .f32) Cert.ReferenceIdeal.dot_S50000x128_S128x16_S50000x16_1_0_0_1_n_n none X W := by
  funext i
  show (∑ k : Fin 128, X (ValueIdx.ix2 (i 0) k) * W (ValueIdx.ix2 k (i 1))) + Z (ValueIdx.ix2 0 (i 1)) = _
  rw [hZ, add_zero]
  exact (hostDot3_apply X W i).symm

/-- The reference's second-layer product is the host's product of its positive-part stage and the weight argument. -/
theorem val_main_v100_eq (x0 : (⟨Cert.ReferenceIdeal.S50000x512, .f32⟩ : BufTy).Contents (Elt Ideal)) (x1 : (⟨Cert.ReferenceIdeal.S2x300000, .i32⟩ : BufTy).Contents (Elt Ideal)) (x2 : (⟨Cert.ReferenceIdeal.S2x1797685, .i32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S128x16, .f32⟩ : BufTy).Contents (Elt Ideal)) :
    Cert.ReferenceIdeal.Read.val_main_v100 (F := Ideal) x0 x1 x2 x3 x4 x5
      = Host.dotGeneral (F := Ideal) (φ₁ := .f32) (φ₂ := .f32) Cert.ReferenceIdeal.dot_S50000x128_S128x16_S50000x16_1_0_0_1_n_n none (Cert.ReferenceIdeal.Read.val_main_v99 (F := Ideal) x0 x1 x2 x3 x4) x5 := rfl

/-- A vector viewed as a one-row array, read at a column. -/
theorem row_of_vec (b : S16.Idx → EReal) (q : Fin 16) :
    shapeCast S1x16 b shapeCasts_S16_S1x16 (ValueIdx.ix2 0 q) = b (ValueIdx.ix1 q) := by
  rw [shapeCast_addUnit_apply ![16]]
  exact congrArg b (funext fun a => by match a with | ⟨0, _⟩ => rfl)

/-- With the bias vector viewed as a row, the last region's result is the host's product of the same factors plus the
    bias on every row: the reference's last two stages before the log-softmax. -/
theorem G6_ref (X : S50000x32.Idx → EReal) (W : S32x16.Idx → EReal) (b : S16.Idx → EReal) :
    G6 X W (shapeCast S1x16 b shapeCasts_S16_S1x16)
      = addf (Host.dotGeneral (F := Ideal) (φ₁ := .f32) (φ₂ := .f32) Cert.ReferenceIdeal.dot_S50000x32_S32x16_S50000x16_1_0_0_1_n_n none X W) (Cert.ReferenceIdeal.Read.val_main_v201 (F := Ideal) b) := by
  funext i
  obtain ⟨r, q, rfl⟩ : ∃ (r : Fin 50000) (q : Fin 16), i = ValueIdx.ix2 r q := ⟨i 0, i 1, ValueIdx.eq_ix2 i⟩
  show (∑ k : Fin 32, X (ValueIdx.ix2 r k) * W (ValueIdx.ix2 k q)) + shapeCast S1x16 b shapeCasts_S16_S1x16 (ValueIdx.ix2 0 q)
    = Host.dotGeneral (F := Ideal) (φ₁ := .f32) (φ₂ := .f32) Cert.ReferenceIdeal.dot_S50000x32_S32x16_S50000x16_1_0_0_1_n_n none X W (ValueIdx.ix2 r q) + Cert.ReferenceIdeal.Read.val_main_v201 (F := Ideal) b (ValueIdx.ix2 r q)
  rw [row_of_vec, hostDot6_apply, Cert.ReferenceIdeal.Read.val_main_v201_apply, Cert.ReferenceIdeal.Read.val_main_v200_apply]
  refine congrArg₂ (· + ·) rfl (congrArg b (funext fun a => ?_))
  match a with
  | ⟨0, _⟩ => rfl

/-- The reference's last stage before the log-softmax is the host's product of its side-by-side stage and the weight
    argument, plus the bias argument on every row. -/
theorem val_main_v202_eq (x0 : (⟨Cert.ReferenceIdeal.S50000x512, .f32⟩ : BufTy).Contents (Elt Ideal)) (x1 : (⟨Cert.ReferenceIdeal.S2x300000, .i32⟩ : BufTy).Contents (Elt Ideal)) (x2 : (⟨Cert.ReferenceIdeal.S2x1797685, .i32⟩ : BufTy).Contents (Elt Ideal)) (x3 : (⟨Cert.ReferenceIdeal.S512x64, .f32⟩ : BufTy).Contents (Elt Ideal)) (x4 : (⟨Cert.ReferenceIdeal.S64, .f32⟩ : BufTy).Contents (Elt Ideal)) (x5 : (⟨Cert.ReferenceIdeal.S128x16, .f32⟩ : BufTy).Contents (Elt Ideal)) (x6 : (⟨Cert.ReferenceIdeal.S16, .f32⟩ : BufTy).Contents (Elt Ideal)) (x7 : (⟨Cert.ReferenceIdeal.S32x16, .f32⟩ : BufTy).Contents (Elt Ideal)) (x8 : (⟨Cert.ReferenceIdeal.S16, .f32⟩ : BufTy).Contents (Elt Ideal)) :
    Cert.ReferenceIdeal.Read.val_main_v202 (F := Ideal) x0 x1 x2 x3 x4 x5 x6 x7 x8
      = addf (Host.dotGeneral (F := Ideal) (φ₁ := .f32) (φ₂ := .f32) Cert.ReferenceIdeal.dot_S50000x32_S32x16_S50000x16_1_0_0_1_n_n none (Cert.ReferenceIdeal.Read.val_main_v198 (F := Ideal) x0 x1 x2 x3 x4 x5 x6) x7) (Cert.ReferenceIdeal.Read.val_main_v201 (F := Ideal) x8) := rfl

/-! ## The bias rows, read off the host stretches that make them -/

section Bias
variable {F : FTy → Type} [FloatOps F]
variable (m : (ℓ : Loc nD τ sig) → Buf (Elt F) ℓ) (outs : GenP.Outs (F := F))

/-- The middle region's bias row: the zero constant, broadcast and viewed as a row. -/
theorem V40_v164 (c : Dev nD) :
    GenP.V40 m outs c main_v164
      = shapeCast S1x16 (broadcastInDim S16 ![] bcast_S_S16 (constant (F := F) S_ .f32 0x00000000#32)) shapeCasts_S16_S1x16 := by
  show StableHlo.after hostOps3_2 (GenP.V39 m outs c) _ = _
  after_results_simp
  rfl

/-- The last region's bias row: the bias argument viewed as a row. -/
theorem V49_v195 (c : Dev nD) :
    GenP.V49 m outs c main_v195 = shapeCast S1x16 (GenP.V48 m outs c main_arg8) shapeCasts_S16_S1x16 := by
  show StableHlo.after hostOps6 (GenP.V48 m outs c) _ = _
  after_results_simp
  rfl

end Bias

/-- … a row of zeros at the extended reals. -/
theorem V40_v164_at (m : (ℓ : Loc nD τ sig) → Buf (Elt Ideal) ℓ) (outs : GenP.Outs (F := Ideal)) (c : Dev nD) (j : S1x16.Idx) :
    (GenP.V40 m outs c main_v164 : S1x16.Idx → EReal) j = (0 : EReal) := by
  rw [V40_v164]
  show (Ideal.ofBits .f32 0x00000000#32 : EReal) = 0
  simp [Ideal.ofBits, Ideal.ieee]

/-! ## The regions' result arrays -/

section Arrays
-- the TensorCore's buffer contents when a region is entered, at the ideal values
variable (V : (c : Dev nD) → (b : Ref sig .tc) → Buf (Elt Ideal) ((c : Thread nD τ).loc b))

/-- After the first region, entered with a zero bias row, its result array is the reference's first product of the
    region's two factors as it finds them. -/
theorem mm0_val_of (c : Dev nD) (hZ : ∀ j : S1x64.Idx, (V c main_v131 : S1x64.Idx → EReal) j = (0 : EReal)) :
    (dat0 (F := Ideal) V c).arrAt 3 cfg0.N = Cert.ReferenceIdeal.Read.val_main_v0 (F := Ideal) (V c main_arg0) (V c main_arg3) := by
  rw [mm0_final]
  exact G0_ref (V c main_arg0) (V c main_arg3) (V c main_v131) hZ

/-- After the middle region, entered with a zero bias row, its result array is the host's product of the region's two
    factors as it finds them. -/
theorem mm3_val_of (c : Dev nD) (hZ : ∀ j : S1x16.Idx, (V c main_v164 : S1x16.Idx → EReal) j = (0 : EReal)) :
    (dat3 (F := Ideal) V c).arrAt 3 cfg3.N
      = Host.dotGeneral (F := Ideal) (φ₁ := .f32) (φ₂ := .f32) Cert.ReferenceIdeal.dot_S50000x128_S128x16_S50000x16_1_0_0_1_n_n none (V c main_v162) (V c main_arg5) := by
  rw [mm3_final]
  exact G3_ref (V c main_v162) (V c main_arg5) (V c main_v164) hZ

/-- After the last region, entered with the bias vector `b` viewed as its bias row, its result array is the host's
    product of the region's two factors as it finds them, plus `b` on every row. -/
theorem mm6_val_of (c : Dev nD) (b : S16.Idx → EReal) (hB : V c main_v195 = shapeCast S1x16 b shapeCasts_S16_S1x16) :
    (dat6 (F := Ideal) V c).arrAt 3 cfg6.N
      = addf (Host.dotGeneral (F := Ideal) (φ₁ := .f32) (φ₂ := .f32) Cert.ReferenceIdeal.dot_S50000x32_S32x16_S50000x16_1_0_0_1_n_n none (V c main_v194) (V c main_arg7))
          (Cert.ReferenceIdeal.Read.val_main_v201 (F := Ideal) b) := by
  rw [mm6_final]
  have hB' : V c (Pipeline.arrRef spec6 2) = shapeCast S1x16 b shapeCasts_S16_S1x16 := hB
  rw [hB']
  exact G6_ref (V c main_v194) (V c main_arg7) b

end Arrays

section AtTheValuations
variable (m : (ℓ : Loc nD τ sig) → Buf (Elt Ideal) ℓ) (outs : GenP.Outs (F := Ideal))

/-- The first region, entered at the contents the host stretches before it leave: the reference's first product of the
    two arguments as launched. -/
theorem mm0_val (c : Dev nD) : (dat0 (F := Ideal) (fun c b => GenP.V29 m c b) c).arrAt 3 cfg0.N
    = Cert.ReferenceIdeal.Read.val_main_v0 (F := Ideal) (GenP.V0 m c main_arg0) (GenP.V0 m c main_arg3) := by
  rw [mm0_val_of (fun c b => GenP.V29 m c b) c (V29_v131_at m c)]
  show Cert.ReferenceIdeal.Read.val_main_v0 (F := Ideal) (GenP.V29 m c main_arg0) (GenP.V29 m c main_arg3) = _
  rw [V29_arg0, V29_arg3]

/-- The middle region, entered at the contents the host stretches before it leave. -/
theorem mm3_val (c : Dev nD) : (dat3 (F := Ideal) (fun c b => GenP.V40 m outs c b) c).arrAt 3 cfg3.N
    = Host.dotGeneral (F := Ideal) (φ₁ := .f32) (φ₂ := .f32) Cert.ReferenceIdeal.dot_S50000x128_S128x16_S50000x16_1_0_0_1_n_n none (GenP.V40 m outs c main_v162) (GenP.V40 m outs c main_arg5) :=
  mm3_val_of (fun c b => GenP.V40 m outs c b) c (V40_v164_at m outs c)

/-- The last region, entered at the contents the host stretches before it leave. -/
theorem mm6_val (c : Dev nD) : (dat6 (F := Ideal) (fun c b => GenP.V49 m outs c b) c).arrAt 3 cfg6.N
    = addf (Host.dotGeneral (F := Ideal) (φ₁ := .f32) (φ₂ := .f32) Cert.ReferenceIdeal.dot_S50000x32_S32x16_S50000x16_1_0_0_1_n_n none (GenP.V49 m outs c main_v194) (GenP.V49 m outs c main_arg7))
        (Cert.ReferenceIdeal.Read.val_main_v201 (F := Ideal) (GenP.V48 m outs c main_arg8)) :=
  mm6_val_of (fun c b => GenP.V49 m outs c b) c (GenP.V48 m outs c main_arg8) (V49_v195 m outs c)

end AtTheValuations

end Cert.Bridge

end
-- ==== Proof.Bridge.Keeps.lean ====
/- Which arrays keep their contents between the items of the program: an array no item in between writes has, at the
   later point, the contents it had at the earlier one; and an array a kernel call leaves is, until something writes
   it, what the call left. -/
import proofs.«402757_j20469814133395_4_alg».proof.Proof.KI.RegionsP

set_option maxRecDepth 16384

noncomputable section

namespace Cert.Bridge

open Cert.KernelIdeal Cert.KernelIdeal.Gen
open Idealize.ShloMosaic Idealize.ShloMosaic.TcCoe

variable {F : FTy → Type} [FloatOps F]
variable (m : (ℓ : Loc nD τ sig) → Buf (Elt F) ℓ) (outs : GenP.Outs (F := F)) (c : Dev nD)

/-! ## Arrays no item in between writes -/

theorem keep_arg0_29_0 : GenP.V29 m c main_arg0 = GenP.V0 m c main_arg0 :=
  (GenP.V29_of m c main_arg0 (by decide)).trans <|
    (GenP.V28_of m c main_arg0 (by decide)).trans <|
    (GenP.V27_of m c main_arg0 (by decide)).trans <|
    (GenP.V26_of m c main_arg0 (by decide)).trans <|
    (GenP.V25_of m c main_arg0 (by decide)).trans <|
    (GenP.V24_of m c main_arg0 (by decide)).trans <|
    (GenP.V23_of m c main_arg0 (by decide)).trans <|
    (GenP.V22_of m c main_arg0 (by decide)).trans <|
    (GenP.V21_of m c main_arg0 (by decide)).trans <|
    (GenP.V20_of m c main_arg0 (by decide)).trans <|
    (GenP.V19_of m c main_arg0 (by decide)).trans <|
    (GenP.V18_of m c main_arg0 (by decide)).trans <|
    (GenP.V17_of m c main_arg0 (by decide)).trans <|
    (GenP.V16_of m c main_arg0 (by decide)).trans <|
    (GenP.V15_of m c main_arg0 (by decide)).trans <|
    (GenP.V14_of m c main_arg0 (by decide)).trans <|
    (GenP.V13_of m c main_arg0 (by decide)).trans <|
    (GenP.V12_of m c main_arg0 (by decide)).trans <|
    (GenP.V11_of m c main_arg0 (by decide)).trans <|
    (GenP.V10_of m c main_arg0 (by decide)).trans <|
    (GenP.V9_of m c main_arg0 (by decide)).trans <|
    (GenP.V8_of m c main_arg0 (by decide)).trans <|
    (GenP.V7_of m c main_arg0 (by decide)).trans <|
    (GenP.V6_of m c main_arg0 (by decide)).trans <|
    (GenP.V5_of m c main_arg0 (by decide)).trans <|
    (GenP.V4_of m c main_arg0 (by decide)).trans <|
    (GenP.V3_of m c main_arg0 (by decide)).trans <|
    (GenP.V2_of m c main_arg0 (by decide)).trans <|
    (GenP.V1_of m c main_arg0 (by decide))

theorem keep_arg3_29_0 : GenP.V29 m c main_arg3 = GenP.V0 m c main_arg3 :=
  (GenP.V29_of m c main_arg3 (by decide)).trans <|
    (GenP.V28_of m c main_arg3 (by decide)).trans <|
    (GenP.V27_of m c main_arg3 (by decide)).trans <|
    (GenP.V26_of m c main_arg3 (by decide)).trans <|
    (GenP.V25_of m c main_arg3 (by decide)).trans <|
    (GenP.V24_of m c main_arg3 (by decide)).trans <|
    (GenP.V23_of m c main_arg3 (by decide)).trans <|
    (GenP.V22_of m c main_arg3 (by decide)).trans <|
    (GenP.V21_of m c main_arg3 (by decide)).trans <|
    (GenP.V20_of m c main_arg3 (by decide)).trans <|
    (GenP.V19_of m c main_arg3 (by decide)).trans <|
    (GenP.V18_of m c main_arg3 (by decide)).trans <|
    (GenP.V17_of m c main_arg3 (by decide)).trans <|
    (GenP.V16_of m c main_arg3 (by decide)).trans <|
    (GenP.V15_of m c main_arg3 (by decide)).trans <|
    (GenP.V14_of m c main_arg3 (by decide)).trans <|
    (GenP.V13_of m c main_arg3 (by decide)).trans <|
    (GenP.V12_of m c main_arg3 (by decide)).trans <|
    (GenP.V11_of m c main_arg3 (by decide)).trans <|
    (GenP.V10_of m c main_arg3 (by decide)).trans <|
    (GenP.V9_of m c main_arg3 (by decide)).trans <|
    (GenP.V8_of m c main_arg3 (by decide)).trans <|
    (GenP.V7_of m c main_arg3 (by decide)).trans <|
    (GenP.V6_of m c main_arg3 (by decide)).trans <|
    (GenP.V5_of m c main_arg3 (by decide)).trans <|
    (GenP.V4_of m c main_arg3 (by decide)).trans <|
    (GenP.V3_of m c main_arg3 (by decide)).trans <|
    (GenP.V2_of m c main_arg3 (by decide)).trans <|
    (GenP.V1_of m c main_arg3 (by decide))

theorem keep_arg4_33_0 : GenP.V33 m outs c main_arg4 = GenP.V0 m c main_arg4 :=
  (GenP.V33_of m outs c main_arg4 (by decide)).trans <|
    (GenP.V32_of m outs c main_arg4 (by decide)).trans <|
    (GenP.V31_of m outs c main_arg4 (by decide)).trans <|
    (GenP.V30_of m outs c main_arg4 (by decide)).trans <|
    (GenP.V29_of m c main_arg4 (by decide)).trans <|
    (GenP.V28_of m c main_arg4 (by decide)).trans <|
    (GenP.V27_of m c main_arg4 (by decide)).trans <|
    (GenP.V26_of m c main_arg4 (by decide)).trans <|
    (GenP.V25_of m c main_arg4 (by decide)).trans <|
    (GenP.V24_of m c main_arg4 (by decide)).trans <|
    (GenP.V23_of m c main_arg4 (by decide)).trans <|
    (GenP.V22_of m c main_arg4 (by decide)).trans <|
    (GenP.V21_of m c main_arg4 (by decide)).trans <|
    (GenP.V20_of m c main_arg4 (by decide)).trans <|
    (GenP.V19_of m c main_arg4 (by decide)).trans <|
    (GenP.V18_of m c main_arg4 (by decide)).trans <|
    (GenP.V17_of m c main_arg4 (by decide)).trans <|
    (GenP.V16_of m c main_arg4 (by decide)).trans <|
    (GenP.V15_of m c main_arg4 (by decide)).trans <|
    (GenP.V14_of m c main_arg4 (by decide)).trans <|
    (GenP.V13_of m c main_arg4 (by decide)).trans <|
    (GenP.V12_of m c main_arg4 (by decide)).trans <|
    (GenP.V11_of m c main_arg4 (by decide)).trans <|
    (GenP.V10_of m c main_arg4 (by decide)).trans <|
    (GenP.V9_of m c main_arg4 (by decide)).trans <|
    (GenP.V8_of m c main_arg4 (by decide)).trans <|
    (GenP.V7_of m c main_arg4 (by decide)).trans <|
    (GenP.V6_of m c main_arg4 (by decide)).trans <|
    (GenP.V5_of m c main_arg4 (by decide)).trans <|
    (GenP.V4_of m c main_arg4 (by decide)).trans <|
    (GenP.V3_of m c main_arg4 (by decide)).trans <|
    (GenP.V2_of m c main_arg4 (by decide)).trans <|
    (GenP.V1_of m c main_arg4 (by decide))

theorem keep_arg4_37_0 : GenP.V37 m outs c main_arg4 = GenP.V0 m c main_arg4 :=
  (GenP.V37_of m outs c main_arg4 (by decide)).trans <|
    (GenP.V36_of m outs c main_arg4 (by decide)).trans <|
    (GenP.V35_of m outs c main_arg4 (by decide)).trans <|
    (GenP.V34_of m outs c main_arg4 (by decide)).trans <|
    (GenP.V33_of m outs c main_arg4 (by decide)).trans <|
    (GenP.V32_of m outs c main_arg4 (by decide)).trans <|
    (GenP.V31_of m outs c main_arg4 (by decide)).trans <|
    (GenP.V30_of m outs c main_arg4 (by decide)).trans <|
    (GenP.V29_of m c main_arg4 (by decide)).trans <|
    (GenP.V28_of m c main_arg4 (by decide)).trans <|
    (GenP.V27_of m c main_arg4 (by decide)).trans <|
    (GenP.V26_of m c main_arg4 (by decide)).trans <|
    (GenP.V25_of m c main_arg4 (by decide)).trans <|
    (GenP.V24_of m c main_arg4 (by decide)).trans <|
    (GenP.V23_of m c main_arg4 (by decide)).trans <|
    (GenP.V22_of m c main_arg4 (by decide)).trans <|
    (GenP.V21_of m c main_arg4 (by decide)).trans <|
    (GenP.V20_of m c main_arg4 (by decide)).trans <|
    (GenP.V19_of m c main_arg4 (by decide)).trans <|
    (GenP.V18_of m c main_arg4 (by decide)).trans <|
    (GenP.V17_of m c main_arg4 (by decide)).trans <|
    (GenP.V16_of m c main_arg4 (by decide)).trans <|
    (GenP.V15_of m c main_arg4 (by decide)).trans <|
    (GenP.V14_of m c main_arg4 (by decide)).trans <|
    (GenP.V13_of m c main_arg4 (by decide)).trans <|
    (GenP.V12_of m c main_arg4 (by decide)).trans <|
    (GenP.V11_of m c main_arg4 (by decide)).trans <|
    (GenP.V10_of m c main_arg4 (by decide)).trans <|
    (GenP.V9_of m c main_arg4 (by decide)).trans <|
    (GenP.V8_of m c main_arg4 (by decide)).trans <|
    (GenP.V7_of m c main_arg4 (by decide)).trans <|
    (GenP.V6_of m c main_arg4 (by decide)).trans <|
    (GenP.V5_of m c main_arg4 (by decide)).trans <|
    (GenP.V4_of m c main_arg4 (by decide)).trans <|
    (GenP.V3_of m c main_arg4 (by decide)).trans <|
    (GenP.V2_of m c main_arg4 (by decide)).trans <|
    (GenP.V1_of m c main_arg4 (by decide))

theorem keep_arg5_40_0 : GenP.V40 m outs c main_arg5 = GenP.V0 m c main_arg5 :=
  (GenP.V40_of m outs c main_arg5 (by decide)).trans <|
    (GenP.V39_of m outs c main_arg5 (by decide)).trans <|
    (GenP.V38_of m outs c main_arg5 (by decide)).trans <|
    (GenP.V37_of m outs c main_arg5 (by decide)).trans <|
    (GenP.V36_of m outs c main_arg5 (by decide)).trans <|
    (GenP.V35_of m outs c main_arg5 (by decide)).trans <|
    (GenP.V34_of m outs c main_arg5 (by decide)).trans <|
    (GenP.V33_of m outs c main_arg5 (by decide)).trans <|
    (GenP.V32_of m outs c main_arg5 (by decide)).trans <|
    (GenP.V31_of m outs c main_arg5 (by decide)).trans <|
    (GenP.V30_of m outs c main_arg5 (by decide)).trans <|
    (GenP.V29_of m c main_arg5 (by decide)).trans <|
    (GenP.V28_of m c main_arg5 (by decide)).trans <|
    (GenP.V27_of m c main_arg5 (by decide)).trans <|
    (GenP.V26_of m c main_arg5 (by decide)).trans <|
    (GenP.V25_of m c main_arg5 (by decide)).trans <|
    (GenP.V24_of m c main_arg5 (by decide)).trans <|
    (GenP.V23_of m c main_arg5 (by decide)).trans <|
    (GenP.V22_of m c main_arg5 (by decide)).trans <|
    (GenP.V21_of m c main_arg5 (by decide)).trans <|
    (GenP.V20_of m c main_arg5 (by decide)).trans <|
    (GenP.V19_of m c main_arg5 (by decide)).trans <|
    (GenP.V18_of m c main_arg5 (by decide)).trans <|
    (GenP.V17_of m c main_arg5 (by decide)).trans <|
    (GenP.V16_of m c main_arg5 (by decide)).trans <|
    (GenP.V15_of m c main_arg5 (by decide)).trans <|
    (GenP.V14_of m c main_arg5 (by decide)).trans <|
    (GenP.V13_of m c main_arg5 (by decide)).trans <|
    (GenP.V12_of m c main_arg5 (by decide)).trans <|
    (GenP.V11_of m c main_arg5 (by decide)).trans <|
    (GenP.V10_of m c main_arg5 (by decide)).trans <|
    (GenP.V9_of m c main_arg5 (by decide)).trans <|
    (GenP.V8_of m c main_arg5 (by decide)).trans <|
    (GenP.V7_of m c main_arg5 (by decide)).trans <|
    (GenP.V6_of m c main_arg5 (by decide)).trans <|
    (GenP.V5_of m c main_arg5 (by decide)).trans <|
    (GenP.V4_of m c main_arg5 (by decide)).trans <|
    (GenP.V3_of m c main_arg5 (by decide)).trans <|
    (GenP.V2_of m c main_arg5 (by decide)).trans <|
    (GenP.V1_of m c main_arg5 (by decide))

theorem keep_arg6_44_0 : GenP.V44 m outs c main_arg6 = GenP.V0 m c main_arg6 :=
  (GenP.V44_of m outs c main_arg6 (by decide)).trans <|
    (GenP.V43_of m outs c main_arg6 (by decide)).trans <|
    (GenP.V42_of m outs c main_arg6 (by decide)).trans <|
    (GenP.V41_of m outs c main_arg6 (by decide)).trans <|
    (GenP.V40_of m outs c main_arg6 (by decide)).trans <|
    (GenP.V39_of m outs c main_arg6 (by decide)).trans <|
    (GenP.V38_of m outs c main_arg6 (by decide)).trans <|
    (GenP.V37_of m outs c main_arg6 (by decide)).trans <|
    (GenP.V36_of m outs c main_arg6 (by decide)).trans <|
    (GenP.V35_of m outs c main_arg6 (by decide)).trans <|
    (GenP.V34_of m outs c main_arg6 (by decide)).trans <|
    (GenP.V33_of m outs c main_arg6 (by decide)).trans <|
    (GenP.V32_of m outs c main_arg6 (by decide)).trans <|
    (GenP.V31_of m outs c main_arg6 (by decide)).trans <|
    (GenP.V30_of m outs c main_arg6 (by decide)).trans <|
    (GenP.V29_of m c main_arg6 (by decide)).trans <|
    (GenP.V28_of m c main_arg6 (by decide)).trans <|
    (GenP.V27_of m c main_arg6 (by decide)).trans <|
    (GenP.V26_of m c main_arg6 (by decide)).trans <|
    (GenP.V25_of m c main_arg6 (by decide)).trans <|
    (GenP.V24_of m c main_arg6 (by decide)).trans <|
    (GenP.V23_of m c main_arg6 (by decide)).trans <|
    (GenP.V22_of m c main_arg6 (by decide)).trans <|
    (GenP.V21_of m c main_arg6 (by decide)).trans <|
    (GenP.V20_of m c main_arg6 (by decide)).trans <|
    (GenP.V19_of m c main_arg6 (by decide)).trans <|
    (GenP.V18_of m c main_arg6 (by decide)).trans <|
    (GenP.V17_of m c main_arg6 (by decide)).trans <|
    (GenP.V16_of m c main_arg6 (by decide)).trans <|
    (GenP.V15_of m c main_arg6 (by decide)).trans <|
    (GenP.V14_of m c main_arg6 (by decide)).trans <|
    (GenP.V13_of m c main_arg6 (by decide)).trans <|
    (GenP.V12_of m c main_arg6 (by decide)).trans <|
    (GenP.V11_of m c main_arg6 (by decide)).trans <|
    (GenP.V10_of m c main_arg6 (by decide)).trans <|
    (GenP.V9_of m c main_arg6 (by decide)).trans <|
    (GenP.V8_of m c main_arg6 (by decide)).trans <|
    (GenP.V7_of m c main_arg6 (by decide)).trans <|
    (GenP.V6_of m c main_arg6 (by decide)).trans <|
    (GenP.V5_of m c main_arg6 (by decide)).trans <|
    (GenP.V4_of m c main_arg6 (by decide)).trans <|
    (GenP.V3_of m c main_arg6 (by decide)).trans <|
    (GenP.V2_of m c main_arg6 (by decide)).trans <|
    (GenP.V1_of m c main_arg6 (by decide))

theorem keep_arg6_48_0 : GenP.V48 m outs c main_arg6 = GenP.V0 m c main_arg6 :=
  (GenP.V48_of m outs c main_arg6 (by decide)).trans <|
    (GenP.V47_of m outs c main_arg6 (by decide)).trans <|
    (GenP.V46_of m outs c main_arg6 (by decide)).trans <|
    (GenP.V45_of m outs c main_arg6 (by decide)).trans <|
    (GenP.V44_of m outs c main_arg6 (by decide)).trans <|
    (GenP.V43_of m outs c main_arg6 (by decide)).trans <|
    (GenP.V42_of m outs c main_arg6 (by decide)).trans <|
    (GenP.V41_of m outs c main_arg6 (by decide)).trans <|
    (GenP.V40_of m outs c main_arg6 (by decide)).trans <|
    (GenP.V39_of m outs c main_arg6 (by decide)).trans <|
    (GenP.V38_of m outs c main_arg6 (by decide)).trans <|
    (GenP.V37_of m outs c main_arg6 (by decide)).trans <|
    (GenP.V36_of m outs c main_arg6 (by decide)).trans <|
    (GenP.V35_of m outs c main_arg6 (by decide)).trans <|
    (GenP.V34_of m outs c main_arg6 (by decide)).trans <|
    (GenP.V33_of m outs c main_arg6 (by decide)).trans <|
    (GenP.V32_of m outs c main_arg6 (by decide)).trans <|
    (GenP.V31_of m outs c main_arg6 (by decide)).trans <|
    (GenP.V30_of m outs c main_arg6 (by decide)).trans <|
    (GenP.V29_of m c main_arg6 (by decide)).trans <|
    (GenP.V28_of m c main_arg6 (by decide)).trans <|
    (GenP.V27_of m c main_arg6 (by decide)).trans <|
    (GenP.V26_of m c main_arg6 (by decide)).trans <|
    (GenP.V25_of m c main_arg6 (by decide)).trans <|
    (GenP.V24_of m c main_arg6 (by decide)).trans <|
    (GenP.V23_of m c main_arg6 (by decide)).trans <|
    (GenP.V22_of m c main_arg6 (by decide)).trans <|
    (GenP.V21_of m c main_arg6 (by decide)).trans <|
    (GenP.V20_of m c main_arg6 (by decide)).trans <|
    (GenP.V19_of m c main_arg6 (by decide)).trans <|
    (GenP.V18_of m c main_arg6 (by decide)).trans <|
    (GenP.V17_of m c main_arg6 (by decide)).trans <|
    (GenP.V16_of m c main_arg6 (by decide)).trans <|
    (GenP.V15_of m c main_arg6 (by decide)).trans <|
    (GenP.V14_of m c main_arg6 (by decide)).trans <|
    (GenP.V13_of m c main_arg6 (by decide)).trans <|
    (GenP.V12_of m c main_arg6 (by decide)).trans <|
    (GenP.V11_of m c main_arg6 (by decide)).trans <|
    (GenP.V10_of m c main_arg6 (by decide)).trans <|
    (GenP.V9_of m c main_arg6 (by decide)).trans <|
    (GenP.V8_of m c main_arg6 (by decide)).trans <|
    (GenP.V7_of m c main_arg6 (by decide)).trans <|
    (GenP.V6_of m c main_arg6 (by decide)).trans <|
    (GenP.V5_of m c main_arg6 (by decide)).trans <|
    (GenP.V4_of m c main_arg6 (by decide)).trans <|
    (GenP.V3_of m c main_arg6 (by decide)).trans <|
    (GenP.V2_of m c main_arg6 (by decide)).trans <|
    (GenP.V1_of m c main_arg6 (by decide))

theorem keep_arg7_49_0 : GenP.V49 m outs c main_arg7 = GenP.V0 m c main_arg7 :=
  (GenP.V49_of m outs c main_arg7 (by decide)).trans <|
    (GenP.V48_of m outs c main_arg7 (by decide)).trans <|
    (GenP.V47_of m outs c main_arg7 (by decide)).trans <|
    (GenP.V46_of m outs c main_arg7 (by decide)).trans <|
    (GenP.V45_of m outs c main_arg7 (by decide)).trans <|
    (GenP.V44_of m outs c main_arg7 (by decide)).trans <|
    (GenP.V43_of m outs c main_arg7 (by decide)).trans <|
    (GenP.V42_of m outs c main_arg7 (by decide)).trans <|
    (GenP.V41_of m outs c main_arg7 (by decide)).trans <|
    (GenP.V40_of m outs c main_arg7 (by decide)).trans <|
    (GenP.V39_of m outs c main_arg7 (by decide)).trans <|
    (GenP.V38_of m outs c main_arg7 (by decide)).trans <|
    (GenP.V37_of m outs c main_arg7 (by decide)).trans <|
    (GenP.V36_of m outs c main_arg7 (by decide)).trans <|
    (GenP.V35_of m outs c main_arg7 (by decide)).trans <|
    (GenP.V34_of m outs c main_arg7 (by decide)).trans <|
    (GenP.V33_of m outs c main_arg7 (by decide)).trans <|
    (GenP.V32_of m outs c main_arg7 (by decide)).trans <|
    (GenP.V31_of m outs c main_arg7 (by decide)).trans <|
    (GenP.V30_of m outs c main_arg7 (by decide)).trans <|
    (GenP.V29_of m c main_arg7 (by decide)).trans <|
    (GenP.V28_of m c main_arg7 (by decide)).trans <|
    (GenP.V27_of m c main_arg7 (by decide)).trans <|
    (GenP.V26_of m c main_arg7 (by decide)).trans <|
    (GenP.V25_of m c main_arg7 (by decide)).trans <|
    (GenP.V24_of m c main_arg7 (by decide)).trans <|
    (GenP.V23_of m c main_arg7 (by decide)).trans <|
    (GenP.V22_of m c main_arg7 (by decide)).trans <|
    (GenP.V21_of m c main_arg7 (by decide)).trans <|
    (GenP.V20_of m c main_arg7 (by decide)).trans <|
    (GenP.V19_of m c main_arg7 (by decide)).trans <|
    (GenP.V18_of m c main_arg7 (by decide)).trans <|
    (GenP.V17_of m c main_arg7 (by decide)).trans <|
    (GenP.V16_of m c main_arg7 (by decide)).trans <|
    (GenP.V15_of m c main_arg7 (by decide)).trans <|
    (GenP.V14_of m c main_arg7 (by decide)).trans <|
    (GenP.V13_of m c main_arg7 (by decide)).trans <|
    (GenP.V12_of m c main_arg7 (by decide)).trans <|
    (GenP.V11_of m c main_arg7 (by decide)).trans <|
    (GenP.V10_of m c main_arg7 (by decide)).trans <|
    (GenP.V9_of m c main_arg7 (by decide)).trans <|
    (GenP.V8_of m c main_arg7 (by decide)).trans <|
    (GenP.V7_of m c main_arg7 (by decide)).trans <|
    (GenP.V6_of m c main_arg7 (by decide)).trans <|
    (GenP.V5_of m c main_arg7 (by decide)).trans <|
    (GenP.V4_of m c main_arg7 (by decide)).trans <|
    (GenP.V3_of m c main_arg7 (by decide)).trans <|
    (GenP.V2_of m c main_arg7 (by decide)).trans <|
    (GenP.V1_of m c main_arg7 (by decide))

theorem keep_arg8_48_0 : GenP.V48 m outs c main_arg8 = GenP.V0 m c main_arg8 :=
  (GenP.V48_of m outs c main_arg8 (by decide)).trans <|
    (GenP.V47_of m outs c main_arg8 (by decide)).trans <|
    (GenP.V46_of m outs c main_arg8 (by decide)).trans <|
    (GenP.V45_of m outs c main_arg8 (by decide)).trans <|
    (GenP.V44_of m outs c main_arg8 (by decide)).trans <|
    (GenP.V43_of m outs c main_arg8 (by decide)).trans <|
    (GenP.V42_of m outs c main_arg8 (by decide)).trans <|
    (GenP.V41_of m outs c main_arg8 (by decide)).trans <|
    (GenP.V40_of m outs c main_arg8 (by decide)).trans <|
    (GenP.V39_of m outs c main_arg8 (by decide)).trans <|
    (GenP.V38_of m outs c main_arg8 (by decide)).trans <|
    (GenP.V37_of m outs c main_arg8 (by decide)).trans <|
    (GenP.V36_of m outs c main_arg8 (by decide)).trans <|
    (GenP.V35_of m outs c main_arg8 (by decide)).trans <|
    (GenP.V34_of m outs c main_arg8 (by decide)).trans <|
    (GenP.V33_of m outs c main_arg8 (by decide)).trans <|
    (GenP.V32_of m outs c main_arg8 (by decide)).trans <|
    (GenP.V31_of m outs c main_arg8 (by decide)).trans <|
    (GenP.V30_of m outs c main_arg8 (by decide)).trans <|
    (GenP.V29_of m c main_arg8 (by decide)).trans <|
    (GenP.V28_of m c main_arg8 (by decide)).trans <|
    (GenP.V27_of m c main_arg8 (by decide)).trans <|
    (GenP.V26_of m c main_arg8 (by decide)).trans <|
    (GenP.V25_of m c main_arg8 (by decide)).trans <|
    (GenP.V24_of m c main_arg8 (by decide)).trans <|
    (GenP.V23_of m c main_arg8 (by decide)).trans <|
    (GenP.V22_of m c main_arg8 (by decide)).trans <|
    (GenP.V21_of m c main_arg8 (by decide)).trans <|
    (GenP.V20_of m c main_arg8 (by decide)).trans <|
    (GenP.V19_of m c main_arg8 (by decide)).trans <|
    (GenP.V18_of m c main_arg8 (by decide)).trans <|
    (GenP.V17_of m c main_arg8 (by decide)).trans <|
    (GenP.V16_of m c main_arg8 (by decide)).trans <|
    (GenP.V15_of m c main_arg8 (by decide)).trans <|
    (GenP.V14_of m c main_arg8 (by decide)).trans <|
    (GenP.V13_of m c main_arg8 (by decide)).trans <|
    (GenP.V12_of m c main_arg8 (by decide)).trans <|
    (GenP.V11_of m c main_arg8 (by decide)).trans <|
    (GenP.V10_of m c main_arg8 (by decide)).trans <|
    (GenP.V9_of m c main_arg8 (by decide)).trans <|
    (GenP.V8_of m c main_arg8 (by decide)).trans <|
    (GenP.V7_of m c main_arg8 (by decide)).trans <|
    (GenP.V6_of m c main_arg8 (by decide)).trans <|
    (GenP.V5_of m c main_arg8 (by decide)).trans <|
    (GenP.V4_of m c main_arg8 (by decide)).trans <|
    (GenP.V3_of m c main_arg8 (by decide)).trans <|
    (GenP.V2_of m c main_arg8 (by decide)).trans <|
    (GenP.V1_of m c main_arg8 (by decide))

theorem keep_arg2_14_0 : GenP.V14 m c main_arg2 = GenP.V0 m c main_arg2 :=
  (GenP.V14_of m c main_arg2 (by decide)).trans <|
    (GenP.V13_of m c main_arg2 (by decide)).trans <|
    (GenP.V12_of m c main_arg2 (by decide)).trans <|
    (GenP.V11_of m c main_arg2 (by decide)).trans <|
    (GenP.V10_of m c main_arg2 (by decide)).trans <|
    (GenP.V9_of m c main_arg2 (by decide)).trans <|
    (GenP.V8_of m c main_arg2 (by decide)).trans <|
    (GenP.V7_of m c main_arg2 (by decide)).trans <|
    (GenP.V6_of m c main_arg2 (by decide)).trans <|
    (GenP.V5_of m c main_arg2 (by decide)).trans <|
    (GenP.V4_of m c main_arg2 (by decide)).trans <|
    (GenP.V3_of m c main_arg2 (by decide)).trans <|
    (GenP.V2_of m c main_arg2 (by decide)).trans <|
    (GenP.V1_of m c main_arg2 (by decide))

theorem keep_v3_4_1 : GenP.V4 m c main_v3 = GenP.V1 m c main_v3 :=
  (GenP.V4_of m c main_v3 (by decide)).trans <|
    (GenP.V3_of m c main_v3 (by decide)).trans <|
    (GenP.V2_of m c main_v3 (by decide))

theorem keep_v6_3_1 : GenP.V3 m c main_v6 = GenP.V1 m c main_v6 :=
  (GenP.V3_of m c main_v6 (by decide)).trans <|
    (GenP.V2_of m c main_v6 (by decide))

theorem keep_v6_4_1 : GenP.V4 m c main_v6 = GenP.V1 m c main_v6 :=
  (GenP.V4_of m c main_v6 (by decide)).trans <|
    (GenP.V3_of m c main_v6 (by decide)).trans <|
    (GenP.V2_of m c main_v6 (by decide))

theorem keep_v31_4_3 : GenP.V4 m c main_v31 = GenP.V3 m c main_v31 :=
  (GenP.V4_of m c main_v31 (by decide))

theorem keep_v54_29_6 : GenP.V29 m c main_v54 = GenP.V6 m c main_v54 :=
  (GenP.V29_of m c main_v54 (by decide)).trans <|
    (GenP.V28_of m c main_v54 (by decide)).trans <|
    (GenP.V27_of m c main_v54 (by decide)).trans <|
    (GenP.V26_of m c main_v54 (by decide)).trans <|
    (GenP.V25_of m c main_v54 (by decide)).trans <|
    (GenP.V24_of m c main_v54 (by decide)).trans <|
    (GenP.V23_of m c main_v54 (by decide)).trans <|
    (GenP.V22_of m c main_v54 (by decide)).trans <|
    (GenP.V21_of m c main_v54 (by decide)).trans <|
    (GenP.V20_of m c main_v54 (by decide)).trans <|
    (GenP.V19_of m c main_v54 (by decide)).trans <|
    (GenP.V18_of m c main_v54 (by decide)).trans <|
    (GenP.V17_of m c main_v54 (by decide)).trans <|
    (GenP.V16_of m c main_v54 (by decide)).trans <|
    (GenP.V15_of m c main_v54 (by decide)).trans <|
    (GenP.V14_of m c main_v54 (by decide)).trans <|
    (GenP.V13_of m c main_v54 (by decide)).trans <|
    (GenP.V12_of m c main_v54 (by decide)).trans <|
    (GenP.V11_of m c main_v54 (by decide)).trans <|
    (GenP.V10_of m c main_v54 (by decide)).trans <|
    (GenP.V9_of m c main_v54 (by decide)).trans <|
    (GenP.V8_of m c main_v54 (by decide)).trans <|
    (GenP.V7_of m c main_v54 (by decide))

theorem keep_v55_29_8 : GenP.V29 m c main_v55 = GenP.V8 m c main_v55 :=
  (GenP.V29_of m c main_v55 (by decide)).trans <|
    (GenP.V28_of m c main_v55 (by decide)).trans <|
    (GenP.V27_of m c main_v55 (by decide)).trans <|
    (GenP.V26_of m c main_v55 (by decide)).trans <|
    (GenP.V25_of m c main_v55 (by decide)).trans <|
    (GenP.V24_of m c main_v55 (by decide)).trans <|
    (GenP.V23_of m c main_v55 (by decide)).trans <|
    (GenP.V22_of m c main_v55 (by decide)).trans <|
    (GenP.V21_of m c main_v55 (by decide)).trans <|
    (GenP.V20_of m c main_v55 (by decide)).trans <|
    (GenP.V19_of m c main_v55 (by decide)).trans <|
    (GenP.V18_of m c main_v55 (by decide)).trans <|
    (GenP.V17_of m c main_v55 (by decide)).trans <|
    (GenP.V16_of m c main_v55 (by decide)).trans <|
    (GenP.V15_of m c main_v55 (by decide)).trans <|
    (GenP.V14_of m c main_v55 (by decide)).trans <|
    (GenP.V13_of m c main_v55 (by decide)).trans <|
    (GenP.V12_of m c main_v55 (by decide)).trans <|
    (GenP.V11_of m c main_v55 (by decide)).trans <|
    (GenP.V10_of m c main_v55 (by decide)).trans <|
    (GenP.V9_of m c main_v55 (by decide))

theorem keep_v56_29_10 : GenP.V29 m c main_v56 = GenP.V10 m c main_v56 :=
  (GenP.V29_of m c main_v56 (by decide)).trans <|
    (GenP.V28_of m c main_v56 (by decide)).trans <|
    (GenP.V27_of m c main_v56 (by decide)).trans <|
    (GenP.V26_of m c main_v56 (by decide)).trans <|
    (GenP.V25_of m c main_v56 (by decide)).trans <|
    (GenP.V24_of m c main_v56 (by decide)).trans <|
    (GenP.V23_of m c main_v56 (by decide)).trans <|
    (GenP.V22_of m c main_v56 (by decide)).trans <|
    (GenP.V21_of m c main_v56 (by decide)).trans <|
    (GenP.V20_of m c main_v56 (by decide)).trans <|
    (GenP.V19_of m c main_v56 (by decide)).trans <|
    (GenP.V18_of m c main_v56 (by decide)).trans <|
    (GenP.V17_of m c main_v56 (by decide)).trans <|
    (GenP.V16_of m c main_v56 (by decide)).trans <|
    (GenP.V15_of m c main_v56 (by decide)).trans <|
    (GenP.V14_of m c main_v56 (by decide)).trans <|
    (GenP.V13_of m c main_v56 (by decide)).trans <|
    (GenP.V12_of m c main_v56 (by decide)).trans <|
    (GenP.V11_of m c main_v56 (by decide))

theorem keep_v55_14_8 : GenP.V14 m c main_v55 = GenP.V8 m c main_v55 :=
  (GenP.V14_of m c main_v55 (by decide)).trans <|
    (GenP.V13_of m c main_v55 (by decide)).trans <|
    (GenP.V12_of m c main_v55 (by decide)).trans <|
    (GenP.V11_of m c main_v55 (by decide)).trans <|
    (GenP.V10_of m c main_v55 (by decide)).trans <|
    (GenP.V9_of m c main_v55 (by decide))

theorem keep_v54_41_29 : GenP.V41 m outs c main_v54 = GenP.V29 m c main_v54 :=
  (GenP.V41_of m outs c main_v54 (by decide)).trans <|
    (GenP.V40_of m outs c main_v54 (by decide)).trans <|
    (GenP.V39_of m outs c main_v54 (by decide)).trans <|
    (GenP.V38_of m outs c main_v54 (by decide)).trans <|
    (GenP.V37_of m outs c main_v54 (by decide)).trans <|
    (GenP.V36_of m outs c main_v54 (by decide)).trans <|
    (GenP.V35_of m outs c main_v54 (by decide)).trans <|
    (GenP.V34_of m outs c main_v54 (by decide)).trans <|
    (GenP.V33_of m outs c main_v54 (by decide)).trans <|
    (GenP.V32_of m outs c main_v54 (by decide)).trans <|
    (GenP.V31_of m outs c main_v54 (by decide)).trans <|
    (GenP.V30_of m outs c main_v54 (by decide))

theorem keep_v56_42_29 : GenP.V42 m outs c main_v56 = GenP.V29 m c main_v56 :=
  (GenP.V42_of m outs c main_v56 (by decide)).trans <|
    (GenP.V41_of m outs c main_v56 (by decide)).trans <|
    (GenP.V40_of m outs c main_v56 (by decide)).trans <|
    (GenP.V39_of m outs c main_v56 (by decide)).trans <|
    (GenP.V38_of m outs c main_v56 (by decide)).trans <|
    (GenP.V37_of m outs c main_v56 (by decide)).trans <|
    (GenP.V36_of m outs c main_v56 (by decide)).trans <|
    (GenP.V35_of m outs c main_v56 (by decide)).trans <|
    (GenP.V34_of m outs c main_v56 (by decide)).trans <|
    (GenP.V33_of m outs c main_v56 (by decide)).trans <|
    (GenP.V32_of m outs c main_v56 (by decide)).trans <|
    (GenP.V31_of m outs c main_v56 (by decide)).trans <|
    (GenP.V30_of m outs c main_v56 (by decide))

theorem keep_v54_32_29 : GenP.V32 m outs c main_v54 = GenP.V29 m c main_v54 :=
  (GenP.V32_of m outs c main_v54 (by decide)).trans <|
    (GenP.V31_of m outs c main_v54 (by decide)).trans <|
    (GenP.V30_of m outs c main_v54 (by decide))

theorem keep_v55_32_29 : GenP.V32 m outs c main_v55 = GenP.V29 m c main_v55 :=
  (GenP.V32_of m outs c main_v55 (by decide)).trans <|
    (GenP.V31_of m outs c main_v55 (by decide)).trans <|
    (GenP.V30_of m outs c main_v55 (by decide))

theorem keep_v56_32_29 : GenP.V32 m outs c main_v56 = GenP.V29 m c main_v56 :=
  (GenP.V32_of m outs c main_v56 (by decide)).trans <|
    (GenP.V31_of m outs c main_v56 (by decide)).trans <|
    (GenP.V30_of m outs c main_v56 (by decide))

theorem keep_v54_43_29 : GenP.V43 m outs c main_v54 = GenP.V29 m c main_v54 :=
  (GenP.V43_of m outs c main_v54 (by decide)).trans <|
    (GenP.V42_of m outs c main_v54 (by decide)).trans <|
    (GenP.V41_of m outs c main_v54 (by decide)).trans <|
    (GenP.V40_of m outs c main_v54 (by decide)).trans <|
    (GenP.V39_of m outs c main_v54 (by decide)).trans <|
    (GenP.V38_of m outs c main_v54 (by decide)).trans <|
    (GenP.V37_of m outs c main_v54 (by decide)).trans <|
    (GenP.V36_of m outs c main_v54 (by decide)).trans <|
    (GenP.V35_of m outs c main_v54 (by decide)).trans <|
    (GenP.V34_of m outs c main_v54 (by decide)).trans <|
    (GenP.V33_of m outs c main_v54 (by decide)).trans <|
    (GenP.V32_of m outs c main_v54 (by decide)).trans <|
    (GenP.V31_of m outs c main_v54 (by decide)).trans <|
    (GenP.V30_of m outs c main_v54 (by decide))

theorem keep_v55_43_29 : GenP.V43 m outs c main_v55 = GenP.V29 m c main_v55 :=
  (GenP.V43_of m outs c main_v55 (by decide)).trans <|
    (GenP.V42_of m outs c main_v55 (by decide)).trans <|
    (GenP.V41_of m outs c main_v55 (by decide)).trans <|
    (GenP.V40_of m outs c main_v55 (by decide)).trans <|
    (GenP.V39_of m outs c main_v55 (by decide)).trans <|
    (GenP.V38_of m outs c main_v55 (by decide)).trans <|
    (GenP.V37_of m outs c main_v55 (by decide)).trans <|
    (GenP.V36_of m outs c main_v55 (by decide)).trans <|
    (GenP.V35_of m outs c main_v55 (by decide)).trans <|
    (GenP.V34_of m outs c main_v55 (by decide)).trans <|
    (GenP.V33_of m outs c main_v55 (by decide)).trans <|
    (GenP.V32_of m outs c main_v55 (by decide)).trans <|
    (GenP.V31_of m outs c main_v55 (by decide)).trans <|
    (GenP.V30_of m outs c main_v55 (by decide))

theorem keep_v56_43_29 : GenP.V43 m outs c main_v56 = GenP.V29 m c main_v56 :=
  (GenP.V43_of m outs c main_v56 (by decide)).trans <|
    (GenP.V42_of m outs c main_v56 (by decide)).trans <|
    (GenP.V41_of m outs c main_v56 (by decide)).trans <|
    (GenP.V40_of m outs c main_v56 (by decide)).trans <|
    (GenP.V39_of m outs c main_v56 (by decide)).trans <|
    (GenP.V38_of m outs c main_v56 (by decide)).trans <|
    (GenP.V37_of m outs c main_v56 (by decide)).trans <|
    (GenP.V36_of m outs c main_v56 (by decide)).trans <|
    (GenP.V35_of m outs c main_v56 (by decide)).trans <|
    (GenP.V34_of m outs c main_v56 (by decide)).trans <|
    (GenP.V33_of m outs c main_v56 (by decide)).trans <|
    (GenP.V32_of m outs c main_v56 (by decide)).trans <|
    (GenP.V31_of m outs c main_v56 (by decide)).trans <|
    (GenP.V30_of m outs c main_v56 (by decide))

theorem keep_v63_32_14 : GenP.V32 m outs c main_v63 = GenP.V14 m c main_v63 :=
  (GenP.V32_of m outs c main_v63 (by decide)).trans <|
    (GenP.V31_of m outs c main_v63 (by decide)).trans <|
    (GenP.V30_of m outs c main_v63 (by decide)).trans <|
    (GenP.V29_of m c main_v63 (by decide)).trans <|
    (GenP.V28_of m c main_v63 (by decide)).trans <|
    (GenP.V27_of m c main_v63 (by decide)).trans <|
    (GenP.V26_of m c main_v63 (by decide)).trans <|
    (GenP.V25_of m c main_v63 (by decide)).trans <|
    (GenP.V24_of m c main_v63 (by decide)).trans <|
    (GenP.V23_of m c main_v63 (by decide)).trans <|
    (GenP.V22_of m c main_v63 (by decide)).trans <|
    (GenP.V21_of m c main_v63 (by decide)).trans <|
    (GenP.V20_of m c main_v63 (by decide)).trans <|
    (GenP.V19_of m c main_v63 (by decide)).trans <|
    (GenP.V18_of m c main_v63 (by decide)).trans <|
    (GenP.V17_of m c main_v63 (by decide)).trans <|
    (GenP.V16_of m c main_v63 (by decide)).trans <|
    (GenP.V15_of m c main_v63 (by decide))

theorem keep_v63_43_32 : GenP.V43 m outs c main_v63 = GenP.V32 m outs c main_v63 :=
  (GenP.V43_of m outs c main_v63 (by decide)).trans <|
    (GenP.V42_of m outs c main_v63 (by decide)).trans <|
    (GenP.V41_of m outs c main_v63 (by decide)).trans <|
    (GenP.V40_of m outs c main_v63 (by decide)).trans <|
    (GenP.V39_of m outs c main_v63 (by decide)).trans <|
    (GenP.V38_of m outs c main_v63 (by decide)).trans <|
    (GenP.V37_of m outs c main_v63 (by decide)).trans <|
    (GenP.V36_of m outs c main_v63 (by decide)).trans <|
    (GenP.V35_of m outs c main_v63 (by decide)).trans <|
    (GenP.V34_of m outs c main_v63 (by decide)).trans <|
    (GenP.V33_of m outs c main_v63 (by decide))

theorem keep_v64_32_15 : GenP.V32 m outs c main_v64 = GenP.V15 m c main_v64 :=
  (GenP.V32_of m outs c main_v64 (by decide)).trans <|
    (GenP.V31_of m outs c main_v64 (by decide)).trans <|
    (GenP.V30_of m outs c main_v64 (by decide)).trans <|
    (GenP.V29_of m c main_v64 (by decide)).trans <|
    (GenP.V28_of m c main_v64 (by decide)).trans <|
    (GenP.V27_of m c main_v64 (by decide)).trans <|
    (GenP.V26_of m c main_v64 (by decide)).trans <|
    (GenP.V25_of m c main_v64 (by decide)).trans <|
    (GenP.V24_of m c main_v64 (by decide)).trans <|
    (GenP.V23_of m c main_v64 (by decide)).trans <|
    (GenP.V22_of m c main_v64 (by decide)).trans <|
    (GenP.V21_of m c main_v64 (by decide)).trans <|
    (GenP.V20_of m c main_v64 (by decide)).trans <|
    (GenP.V19_of m c main_v64 (by decide)).trans <|
    (GenP.V18_of m c main_v64 (by decide)).trans <|
    (GenP.V17_of m c main_v64 (by decide)).trans <|
    (GenP.V16_of m c main_v64 (by decide))

theorem keep_v64_43_32 : GenP.V43 m outs c main_v64 = GenP.V32 m outs c main_v64 :=
  (GenP.V43_of m outs c main_v64 (by decide)).trans <|
    (GenP.V42_of m outs c main_v64 (by decide)).trans <|
    (GenP.V41_of m outs c main_v64 (by decide)).trans <|
    (GenP.V40_of m outs c main_v64 (by decide)).trans <|
    (GenP.V39_of m outs c main_v64 (by decide)).trans <|
    (GenP.V38_of m outs c main_v64 (by decide)).trans <|
    (GenP.V37_of m outs c main_v64 (by decide)).trans <|
    (GenP.V36_of m outs c main_v64 (by decide)).trans <|
    (GenP.V35_of m outs c main_v64 (by decide)).trans <|
    (GenP.V34_of m outs c main_v64 (by decide)).trans <|
    (GenP.V33_of m outs c main_v64 (by decide))

theorem keep_v119_34_20 : GenP.V34 m outs c main_v119 = GenP.V20 m c main_v119 :=
  (GenP.V34_of m outs c main_v119 (by decide)).trans <|
    (GenP.V33_of m outs c main_v119 (by decide)).trans <|
    (GenP.V32_of m outs c main_v119 (by decide)).trans <|
    (GenP.V31_of m outs c main_v119 (by decide)).trans <|
    (GenP.V30_of m outs c main_v119 (by decide)).trans <|
    (GenP.V29_of m c main_v119 (by decide)).trans <|
    (GenP.V28_of m c main_v119 (by decide)).trans <|
    (GenP.V27_of m c main_v119 (by decide)).trans <|
    (GenP.V26_of m c main_v119 (by decide)).trans <|
    (GenP.V25_of m c main_v119 (by decide)).trans <|
    (GenP.V24_of m c main_v119 (by decide)).trans <|
    (GenP.V23_of m c main_v119 (by decide)).trans <|
    (GenP.V22_of m c main_v119 (by decide)).trans <|
    (GenP.V21_of m c main_v119 (by decide))

theorem keep_v121_35_24 : GenP.V35 m outs c main_v121 = GenP.V24 m c main_v121 :=
  (GenP.V35_of m outs c main_v121 (by decide)).trans <|
    (GenP.V34_of m outs c main_v121 (by decide)).trans <|
    (GenP.V33_of m outs c main_v121 (by decide)).trans <|
    (GenP.V32_of m outs c main_v121 (by decide)).trans <|
    (GenP.V31_of m outs c main_v121 (by decide)).trans <|
    (GenP.V30_of m outs c main_v121 (by decide)).trans <|
    (GenP.V29_of m c main_v121 (by decide)).trans <|
    (GenP.V28_of m c main_v121 (by decide)).trans <|
    (GenP.V27_of m c main_v121 (by decide)).trans <|
    (GenP.V26_of m c main_v121 (by decide)).trans <|
    (GenP.V25_of m c main_v121 (by decide))

theorem keep_v120_28_22 : GenP.V28 m c main_v120 = GenP.V22 m c main_v120 :=
  (GenP.V28_of m c main_v120 (by decide)).trans <|
    (GenP.V27_of m c main_v120 (by decide)).trans <|
    (GenP.V26_of m c main_v120 (by decide)).trans <|
    (GenP.V25_of m c main_v120 (by decide)).trans <|
    (GenP.V24_of m c main_v120 (by decide)).trans <|
    (GenP.V23_of m c main_v120 (by decide))

theorem keep_v119_45_34 : GenP.V45 m outs c main_v119 = GenP.V34 m outs c main_v119 :=
  (GenP.V45_of m outs c main_v119 (by decide)).trans <|
    (GenP.V44_of m outs c main_v119 (by decide)).trans <|
    (GenP.V43_of m outs c main_v119 (by decide)).trans <|
    (GenP.V42_of m outs c main_v119 (by decide)).trans <|
    (GenP.V41_of m outs c main_v119 (by decide)).trans <|
    (GenP.V40_of m outs c main_v119 (by decide)).trans <|
    (GenP.V39_of m outs c main_v119 (by decide)).trans <|
    (GenP.V38_of m outs c main_v119 (by decide)).trans <|
    (GenP.V37_of m outs c main_v119 (by decide)).trans <|
    (GenP.V36_of m outs c main_v119 (by decide)).trans <|
    (GenP.V35_of m outs c main_v119 (by decide))

theorem keep_v121_46_35 : GenP.V46 m outs c main_v121 = GenP.V35 m outs c main_v121 :=
  (GenP.V46_of m outs c main_v121 (by decide)).trans <|
    (GenP.V45_of m outs c main_v121 (by decide)).trans <|
    (GenP.V44_of m outs c main_v121 (by decide)).trans <|
    (GenP.V43_of m outs c main_v121 (by decide)).trans <|
    (GenP.V42_of m outs c main_v121 (by decide)).trans <|
    (GenP.V41_of m outs c main_v121 (by decide)).trans <|
    (GenP.V40_of m outs c main_v121 (by decide)).trans <|
    (GenP.V39_of m outs c main_v121 (by decide)).trans <|
    (GenP.V38_of m outs c main_v121 (by decide)).trans <|
    (GenP.V37_of m outs c main_v121 (by decide)).trans <|
    (GenP.V36_of m outs c main_v121 (by decide))

theorem keep_v128_36_28 : GenP.V36 m outs c main_v128 = GenP.V28 m c main_v128 :=
  (GenP.V36_of m outs c main_v128 (by decide)).trans <|
    (GenP.V35_of m outs c main_v128 (by decide)).trans <|
    (GenP.V34_of m outs c main_v128 (by decide)).trans <|
    (GenP.V33_of m outs c main_v128 (by decide)).trans <|
    (GenP.V32_of m outs c main_v128 (by decide)).trans <|
    (GenP.V31_of m outs c main_v128 (by decide)).trans <|
    (GenP.V30_of m outs c main_v128 (by decide)).trans <|
    (GenP.V29_of m c main_v128 (by decide))

theorem keep_v128_47_36 : GenP.V47 m outs c main_v128 = GenP.V36 m outs c main_v128 :=
  (GenP.V47_of m outs c main_v128 (by decide)).trans <|
    (GenP.V46_of m outs c main_v128 (by decide)).trans <|
    (GenP.V45_of m outs c main_v128 (by decide)).trans <|
    (GenP.V44_of m outs c main_v128 (by decide)).trans <|
    (GenP.V43_of m outs c main_v128 (by decide)).trans <|
    (GenP.V42_of m outs c main_v128 (by decide)).trans <|
    (GenP.V41_of m outs c main_v128 (by decide)).trans <|
    (GenP.V40_of m outs c main_v128 (by decide)).trans <|
    (GenP.V39_of m outs c main_v128 (by decide)).trans <|
    (GenP.V38_of m outs c main_v128 (by decide)).trans <|
    (GenP.V37_of m outs c main_v128 (by decide))

theorem keep_v129_36_29 : GenP.V36 m outs c main_v129 = GenP.V29 m c main_v129 :=
  (GenP.V36_of m outs c main_v129 (by decide)).trans <|
    (GenP.V35_of m outs c main_v129 (by decide)).trans <|
    (GenP.V34_of m outs c main_v129 (by decide)).trans <|
    (GenP.V33_of m outs c main_v129 (by decide)).trans <|
    (GenP.V32_of m outs c main_v129 (by decide)).trans <|
    (GenP.V31_of m outs c main_v129 (by decide)).trans <|
    (GenP.V30_of m outs c main_v129 (by decide))

theorem keep_v129_47_36 : GenP.V47 m outs c main_v129 = GenP.V36 m outs c main_v129 :=
  (GenP.V47_of m outs c main_v129 (by decide)).trans <|
    (GenP.V46_of m outs c main_v129 (by decide)).trans <|
    (GenP.V45_of m outs c main_v129 (by decide)).trans <|
    (GenP.V44_of m outs c main_v129 (by decide)).trans <|
    (GenP.V43_of m outs c main_v129 (by decide)).trans <|
    (GenP.V42_of m outs c main_v129 (by decide)).trans <|
    (GenP.V41_of m outs c main_v129 (by decide)).trans <|
    (GenP.V40_of m outs c main_v129 (by decide)).trans <|
    (GenP.V39_of m outs c main_v129 (by decide)).trans <|
    (GenP.V38_of m outs c main_v129 (by decide)).trans <|
    (GenP.V37_of m outs c main_v129 (by decide))

theorem keep_v146_36_34 : GenP.V36 m outs c main_v146 = GenP.V34 m outs c main_v146 :=
  (GenP.V36_of m outs c main_v146 (by decide)).trans <|
    (GenP.V35_of m outs c main_v146 (by decide))

theorem keep_v146_37_34 : GenP.V37 m outs c main_v146 = GenP.V34 m outs c main_v146 :=
  (GenP.V37_of m outs c main_v146 (by decide)).trans <|
    (GenP.V36_of m outs c main_v146 (by decide)).trans <|
    (GenP.V35_of m outs c main_v146 (by decide))

theorem keep_v162_40_39 : GenP.V40 m outs c main_v162 = GenP.V39 m outs c main_v162 :=
  (GenP.V40_of m outs c main_v162 (by decide))

theorem keep_v179_48_45 : GenP.V48 m outs c main_v179 = GenP.V45 m outs c main_v179 :=
  (GenP.V48_of m outs c main_v179 (by decide)).trans <|
    (GenP.V47_of m outs c main_v179 (by decide)).trans <|
    (GenP.V46_of m outs c main_v179 (by decide))

theorem keep_v120_36_29 : GenP.V36 m outs c main_v120 = GenP.V29 m c main_v120 :=
  (GenP.V36_of m outs c main_v120 (by decide)).trans <|
    (GenP.V35_of m outs c main_v120 (by decide)).trans <|
    (GenP.V34_of m outs c main_v120 (by decide)).trans <|
    (GenP.V33_of m outs c main_v120 (by decide)).trans <|
    (GenP.V32_of m outs c main_v120 (by decide)).trans <|
    (GenP.V31_of m outs c main_v120 (by decide)).trans <|
    (GenP.V30_of m outs c main_v120 (by decide))

theorem keep_v120_47_29 : GenP.V47 m outs c main_v120 = GenP.V29 m c main_v120 :=
  (GenP.V47_of m outs c main_v120 (by decide)).trans <|
    (GenP.V46_of m outs c main_v120 (by decide)).trans <|
    (GenP.V45_of m outs c main_v120 (by decide)).trans <|
    (GenP.V44_of m outs c main_v120 (by decide)).trans <|
    (GenP.V43_of m outs c main_v120 (by decide)).trans <|
    (GenP.V42_of m outs c main_v120 (by decide)).trans <|
    (GenP.V41_of m outs c main_v120 (by decide)).trans <|
    (GenP.V40_of m outs c main_v120 (by decide)).trans <|
    (GenP.V39_of m outs c main_v120 (by decide)).trans <|
    (GenP.V38_of m outs c main_v120 (by decide)).trans <|
    (GenP.V37_of m outs c main_v120 (by decide)).trans <|
    (GenP.V36_of m outs c main_v120 (by decide)).trans <|
    (GenP.V35_of m outs c main_v120 (by decide)).trans <|
    (GenP.V34_of m outs c main_v120 (by decide)).trans <|
    (GenP.V33_of m outs c main_v120 (by decide)).trans <|
    (GenP.V32_of m outs c main_v120 (by decide)).trans <|
    (GenP.V31_of m outs c main_v120 (by decide)).trans <|
    (GenP.V30_of m outs c main_v120 (by decide))

theorem keep_v160_40_38 : GenP.V40 m outs c main_v160 = GenP.V38 m outs c main_v160 :=
  (GenP.V40_of m outs c main_v160 (by decide)).trans <|
    (GenP.V39_of m outs c main_v160 (by decide))

/-! ## What a kernel call leaves, until something writes it -/

theorem out_v132_30 : GenP.V30 m outs c main_v132 = outs 30 main_v132 c :=
  Function.update_self ..

theorem out_v132_34 : GenP.V34 m outs c main_v132 = outs 30 main_v132 c :=
  ((GenP.V34_of m outs c main_v132 (by decide)).trans <|
    (GenP.V33_of m outs c main_v132 (by decide)).trans <|
    (GenP.V32_of m outs c main_v132 (by decide)).trans <|
    (GenP.V31_of m outs c main_v132 (by decide))).trans (Function.update_self ..)

theorem out_v138_33 : GenP.V33 m outs c main_v138 = outs 33 main_v138 c :=
  Function.update_self ..

theorem out_v152_37 : GenP.V37 m outs c main_v152 = outs 37 main_v152 c :=
  Function.update_self ..

theorem out_v165_41 : GenP.V41 m outs c main_v165 = outs 41 main_v165 c :=
  Function.update_self ..

theorem out_v165_45 : GenP.V45 m outs c main_v165 = outs 41 main_v165 c :=
  ((GenP.V45_of m outs c main_v165 (by decide)).trans <|
    (GenP.V44_of m outs c main_v165 (by decide)).trans <|
    (GenP.V43_of m outs c main_v165 (by decide)).trans <|
    (GenP.V42_of m outs c main_v165 (by decide))).trans (Function.update_self ..)

theorem out_v171_44 : GenP.V44 m outs c main_v171 = outs 44 main_v171 c :=
  Function.update_self ..

theorem out_v185_48 : GenP.V48 m outs c main_v185 = outs 48 main_v185 c :=
  Function.update_self ..

theorem out_v196_50 : GenP.V50 m outs c main_v196 = outs 50 main_v196 c :=
  Function.update_self ..

end Cert.Bridge
-- ==== Proof.Bridge.Glue.lean ====
/- The host operations between the kernel program's regions that the reference applies too, each carried as ONE
   function of the values going in: the positive part of two [50000, 64] arrays side by side (the second product's left
   factor), two [50000, 16] arrays side by side (the last product's left factor), and the row-wise log-softmax (the
   result). Each is read once off the kernel program's host stretch and once off the reference's stages, with the same
   function on both sides: equal inputs then give equal outputs without opening the chain. -/
import proofs.«402757_j20469814133395_4_alg».proof.Proof.KI.RegionsP
import proofs.«402757_j20469814133395_4_alg».proof.Proof.Ref.ReadDefs
import Idealize.ShloMosaic.Lib.StableHlo.Run

noncomputable section

namespace Cert.Bridge

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-! ## The three shared host chains, each as one function -/

/-- Two [50000, 64] arrays side by side, then the positive part (the maximum with the zero array). -/
def reluCat (a b : (⟨S50000x64, .f32⟩ : BufTy).Contents (Elt F)) : (⟨S50000x128, .f32⟩ : BufTy).Contents (Elt F) :=
  maximumf (concatenate S50000x128 1 [⟨S50000x64, a⟩, ⟨S50000x64, b⟩] concatenates_S50000x64_S50000x64_S50000x128_d1)
    (broadcastInDim S50000x128 ![] bcast_S_S50000x128 (constant S_ .f32 0x00000000#32))

/-- Two [50000, 16] arrays side by side. -/
def cat16 (a b : (⟨S50000x16, .f32⟩ : BufTy).Contents (Elt F)) : (⟨S50000x32, .f32⟩ : BufTy).Contents (Elt F) :=
  concatenate S50000x32 1 [⟨S50000x16, a⟩, ⟨S50000x16, b⟩] concatenates_S50000x16_S50000x16_S50000x32_d1

/-- A [50000, 16] array less its row maxima (each joined with -∞), broadcast along the rows. -/
def lessRowMax (x : (⟨S50000x16, .f32⟩ : BufTy).Contents (Elt F)) : (⟨S50000x16, .f32⟩ : BufTy).Contents (Elt F) :=
  subf x (broadcastInDim S50000x16 ![0, 1] bcast_S50000x1_S50000x16_0_1 (broadcastInDim S50000x1 ![0] bcast_S50000_S50000x1_0
    (maximumf (broadcastInDim S50000 ![] bcast_S_S50000 (constant S_ .f32 0xFF800000#32))
      (Host.reduce FloatOps.maximumf x (constant S_ .f32 0xFF800000#32) reducesTo_S50000x16_S50000_d1 h_S_))))

/-- A [50000, 16] array less the logarithm of its rows' sums of exponentials, broadcast along the rows. -/
def lessLogSumExp (y : (⟨S50000x16, .f32⟩ : BufTy).Contents (Elt F)) : (⟨S50000x16, .f32⟩ : BufTy).Contents (Elt F) :=
  subf y (broadcastInDim S50000x16 ![0, 1] bcast_S50000x1_S50000x16_0_1 (Host.log (broadcastInDim S50000x1 ![0] bcast_S50000_S50000x1_0
    (Host.reduceAdd (Host.exp y) (constant S_ .f32 0x00000000#32) reducesTo_S50000x16_S50000_d1 h_S_))))

/-- The row-wise log-softmax of a [50000, 16] array: with `y` the array less its row maxima, `y - log (∑ exp y)`
    along each row. -/
def logSoftmax16 (x : (⟨S50000x16, .f32⟩ : BufTy).Contents (Elt F)) : (⟨S50000x16, .f32⟩ : BufTy).Contents (Elt F) :=
  lessLogSumExp (lessRowMax x)

/-! ## The kernel program's side: each chain read off the host stretch that computes it -/

/-- Contents carried to a buffer's own type and back are the contents. -/
theorem ofBuf_toBuf {T : BufTy} (x : StableHlo.TRef sig T) (v : T.Contents (Elt F)) : x.ofBuf (x.toBuf v) = v := by
  obtain ⟨r, h, h2, h3⟩ := x
  subst h
  rfl

section KernelSide
variable (m : (ℓ : Loc nD τ sig) → Buf (Elt F) ℓ) (outs : GenP.Outs (F := F))

set_option maxHeartbeats 1000000 in
/-- The positive part, over whatever the stretch before it leaves in the side-by-side array. -/
theorem relu_kernel (c : Dev nD) :
    GenP.V39 m outs c main_v162
      = maximumf (GenP.V38 m outs c main_v161) (broadcastInDim S50000x128 ![] bcast_S_S50000x128 (constant S_ .f32 0x00000000#32)) := by
  show StableHlo.after hostOps3_1 (GenP.V38 m outs c) main_v162 = _
  generalize GenP.V38 m outs c = W
  after_results_simp
  have h161 : (StableHlo.TRef.of main_v161 : StableHlo.TRef sig ⟨S50000x128, .f32⟩).ofBuf (W main_v161) = W main_v161 := rfl
  simp only [ofBuf_toBuf, h161]
  rfl

set_option maxHeartbeats 1000000 in
/-- The side-by-side array of the two first-layer results. -/
theorem cat64_kernel (c : Dev nD) :
    GenP.V38 m outs c main_v161
      = concatenate S50000x128 1 [⟨S50000x64, GenP.V37 m outs c main_v146⟩, ⟨S50000x64, GenP.V38 m outs c main_v160⟩] concatenates_S50000x64_S50000x64_S50000x128_d1 := by
  show StableHlo.after hostOps3 (GenP.V37 m outs c) main_v161
    = concatenate S50000x128 1 [⟨S50000x64, GenP.V37 m outs c main_v146⟩, ⟨S50000x64, StableHlo.after hostOps3 (GenP.V37 m outs c) main_v160⟩] concatenates_S50000x64_S50000x64_S50000x128_d1
  after_results_simp
  rfl

/-- The second product's left factor: the positive part of the two first-layer results side by side. -/
theorem reluCat_kernel (c : Dev nD) :
    GenP.V39 m outs c main_v162 = reluCat (GenP.V37 m outs c main_v146) (GenP.V38 m outs c main_v160) := by
  rw [relu_kernel, cat64_kernel]
  rfl

set_option maxHeartbeats 1000000 in
/-- The last product's left factor: the two second-layer results side by side. -/
theorem cat16_kernel (c : Dev nD) :
    GenP.V49 m outs c main_v194 = cat16 (GenP.V48 m outs c main_v179) (GenP.V49 m outs c main_v193) := by
  show StableHlo.after hostOps6 (GenP.V48 m outs c) main_v194
    = cat16 (GenP.V48 m outs c main_v179) (StableHlo.after hostOps6 (GenP.V48 m outs c) main_v193)
  after_results_simp
  rfl

set_option maxHeartbeats 1000000 in
/-- The program's result: the row-wise log-softmax of the last product's result. -/
theorem logSoftmax_kernel (c : Dev nD) :
    GenP.V51 m outs c main_v197 = logSoftmax16 (GenP.V50 m outs c main_v196) := by
  show StableHlo.after hostOps7 (GenP.V50 m outs c) main_v197 = _
  after_results_simp
  have h196 : (StableHlo.TRef.of main_v196 : StableHlo.TRef sig ⟨S50000x16, .f32⟩).ofBuf (GenP.V50 m outs c main_v196) = GenP.V50 m outs c main_v196 := rfl
  simp only [ofBuf_toBuf, h196]
  rfl

end KernelSide

/-! ## The reference's side: the same functions of its stages -/

section ReferenceSide
open Cert.ReferenceIdeal.Read
variable (x0 : (⟨Cert.ReferenceIdeal.S50000x512, .f32⟩ : BufTy).Contents (Elt F)) (x1 : (⟨Cert.ReferenceIdeal.S2x300000, .i32⟩ : BufTy).Contents (Elt F)) (x2 : (⟨Cert.ReferenceIdeal.S2x1797685, .i32⟩ : BufTy).Contents (Elt F)) (x3 : (⟨Cert.ReferenceIdeal.S512x64, .f32⟩ : BufTy).Contents (Elt F)) (x4 : (⟨Cert.ReferenceIdeal.S64, .f32⟩ : BufTy).Contents (Elt F)) (x5 : (⟨Cert.ReferenceIdeal.S128x16, .f32⟩ : BufTy).Contents (Elt F)) (x6 : (⟨Cert.ReferenceIdeal.S16, .f32⟩ : BufTy).Contents (Elt F)) (x7 : (⟨Cert.ReferenceIdeal.S32x16, .f32⟩ : BufTy).Contents (Elt F)) (x8 : (⟨Cert.ReferenceIdeal.S16, .f32⟩ : BufTy).Contents (Elt F))

/-- The reference's second-layer input is the positive part of its two first-layer results side by side. -/
theorem reluCat_ref : val_main_v99 (F := F) x0 x1 x2 x3 x4 = reluCat (val_main_v48 (F := F) x0 x1 x3 x4) (val_main_v97 (F := F) x0 x2 x3 x4) := by
  unfold val_main_v99 val_main_v98 val_main_call2_v0 val_main_call2_cst reluCat
  generalize val_main_v48 (F := F) x0 x1 x3 x4 = a
  generalize val_main_v97 (F := F) x0 x2 x3 x4 = b
  rfl

/-- The reference's last product's left factor is its two second-layer results side by side. -/
theorem cat16_ref : val_main_v198 (F := F) x0 x1 x2 x3 x4 x5 x6
    = cat16 (val_main_v148 (F := F) x0 x1 x2 x3 x4 x5 x6) (val_main_v197 (F := F) x0 x1 x2 x3 x4 x5 x6) := by
  unfold val_main_v198 cat16
  generalize val_main_v148 (F := F) x0 x1 x2 x3 x4 x5 x6 = a
  generalize val_main_v197 (F := F) x0 x1 x2 x3 x4 x5 x6 = b
  rfl

/-- The reference's result is the row-wise log-softmax of its last stage before it. -/
theorem logSoftmax_ref : val_main_v203 (F := F) x0 x1 x2 x3 x4 x5 x6 x7 x8 = logSoftmax16 (val_main_v202 (F := F) x0 x1 x2 x3 x4 x5 x6 x7 x8) := by
  unfold val_main_v203 val_main_call5_v10 val_main_call5_v9 val_main_call5_v8 val_main_call5_v7 val_main_call5_v6 val_main_call5_v5
    val_main_call5_v4 val_main_call5_v3 val_main_call5_v2 val_main_call5_v1 val_main_call5_v0 val_main_call5_cst val_main_call5_cst_0
    val_main_call5_cst_1 logSoftmax16 lessLogSumExp lessRowMax
  generalize val_main_v202 (F := F) x0 x1 x2 x3 x4 x5 x6 x7 x8 = x
  rfl

end ReferenceSide

/-! ## Equal inputs give equal outputs -/

section Carried
open Cert.ReferenceIdeal.Read
variable (m : (ℓ : Loc nD τ sig) → Buf (Elt F) ℓ) (outs : GenP.Outs (F := F))
variable (x0 : (⟨Cert.ReferenceIdeal.S50000x512, .f32⟩ : BufTy).Contents (Elt F)) (x1 : (⟨Cert.ReferenceIdeal.S2x300000, .i32⟩ : BufTy).Contents (Elt F)) (x2 : (⟨Cert.ReferenceIdeal.S2x1797685, .i32⟩ : BufTy).Contents (Elt F)) (x3 : (⟨Cert.ReferenceIdeal.S512x64, .f32⟩ : BufTy).Contents (Elt F)) (x4 : (⟨Cert.ReferenceIdeal.S64, .f32⟩ : BufTy).Contents (Elt F)) (x5 : (⟨Cert.ReferenceIdeal.S128x16, .f32⟩ : BufTy).Contents (Elt F)) (x6 : (⟨Cert.ReferenceIdeal.S16, .f32⟩ : BufTy).Contents (Elt F)) (x7 : (⟨Cert.ReferenceIdeal.S32x16, .f32⟩ : BufTy).Contents (Elt F)) (x8 : (⟨Cert.ReferenceIdeal.S16, .f32⟩ : BufTy).Contents (Elt F))

/-- If the two first-layer results are the reference's, the second product's left factor is the reference's. -/
theorem reluCat_carry (c : Dev nD) (hA : GenP.V37 m outs c main_v146 = val_main_v48 (F := F) x0 x1 x3 x4)
    (hB : GenP.V38 m outs c main_v160 = val_main_v97 (F := F) x0 x2 x3 x4) :
    GenP.V39 m outs c main_v162 = val_main_v99 (F := F) x0 x1 x2 x3 x4 := by
  rw [reluCat_kernel, reluCat_ref, hA, hB]

/-- If the two second-layer results are the reference's, the last product's left factor is the reference's. -/
theorem cat16_carry (c : Dev nD) (hA : GenP.V48 m outs c main_v179 = val_main_v148 (F := F) x0 x1 x2 x3 x4 x5 x6)
    (hB : GenP.V49 m outs c main_v193 = val_main_v197 (F := F) x0 x1 x2 x3 x4 x5 x6) :
    GenP.V49 m outs c main_v194 = val_main_v198 (F := F) x0 x1 x2 x3 x4 x5 x6 := by
  rw [cat16_kernel, cat16_ref, hA, hB]

/-- If the last product's result is the reference's last stage before the log-softmax, the program's result is the
    reference's. -/
theorem logSoftmax_carry (c : Dev nD) (h : GenP.V50 m outs c main_v196 = val_main_v202 (F := F) x0 x1 x2 x3 x4 x5 x6 x7 x8) :
    GenP.V51 m outs c main_v197 = val_main_v203 (F := F) x0 x1 x2 x3 x4 x5 x6 x7 x8 := by
  rw [logSoftmax_kernel, logSoftmax_ref, h]

end Carried

end Cert.Bridge

end
-- ==== Proof.Pre.Decode.lean ====
import proofs.«402757_j20469814133395_4_alg».proof.Pre_finite_inputs
import Idealize.ShloMosaic.Lib.StableHlo.Predicate
import Idealize.ShloMosaic.Lib.ReduceAll
import Idealize.ShloMosaic.Lib.ValueIdx
import Idealize.ShloMosaic.Lib.Pipeline.Value

/-!
# The precondition, decoded

The precondition is one bit: the conjunction of seven "every entry is finite" reductions
over the float arguments and of two integer range reductions, "every entry of row 0 of
the edge table is `≥ 0` and `< 50000`" for each of the two edge tables.  Here the two
range conjuncts are read back as facts about the entries.  The conjunction is taken
apart from its last factor backwards, one part of the printed function at a time.
-/

namespace Cert.Pre_finite_inputs.Hand

open Idealize.ShloMosaic Cert.Pre_finite_inputs

instance : Subsingleton S_.Idx := ⟨fun a b => funext fun d => d.elim0⟩

variable {F : FTy → Type} [FloatOps F] [Facts]

/-- Row 0 of a two-row table, cut out as a one-row block and viewed as a vector, reads
the table at `(0, e)`. -/
theorem row0_apply {m : ℕ} (x : IVec ⟨2, ![2, m]⟩ 32)
    (h1 : (⟨2, ![2, m]⟩ : Shape).Slices ![0, 0] ⟨2, ![1, m]⟩)
    (h2 : (⟨2, ![1, m]⟩ : Shape).ShapeCasts ⟨1, ![m]⟩) (e : Fin m) :
    shapeCast ⟨1, ![m]⟩ (extractStridedSlice ⟨2, ![1, m]⟩ ![0, 0] x h1) h2 (ValueIdx.ix1 e)
      = x (ValueIdx.ix2 0 e) := by
  rw [shapeCast_dropUnit_apply ![m]]
  refine extractStridedSlice_apply _ x h1 _ _ fun a => ?_
  match a with
  | ⟨0, _⟩ => rfl
  | ⟨1, _⟩ => simp [Fin.cons]; rfl

/-- A signed range test of a word against the constants `0` and `50000`, read back. -/
theorem range_of_bits {w : BitVec 32} (hge : IntOp.cmpi .sge w 0#32 = 1#1)
    (hlt : IntOp.cmpi .slt w 50000#32 = 1#1) : 0 ≤ w.toInt ∧ w.toInt < 50000 := by
  rw [IntOp.cmpi_sge] at hge
  rw [IntOp.cmpi_slt] at hlt
  have h0 : (0#32 : BitVec 32).toInt = 0 := by decide
  have h5 : (50000#32 : BitVec 32).toInt = 50000 := by decide
  rw [h0] at hge
  rw [h5] at hlt
  exact ⟨hge, hlt⟩

/-- The last part: the bit is the conjunction of the bit so far and of "every entry of
the two masks is 1". -/
theorem part3_one {v44 : IVec S_ 1} {v48 v52 : IVec S1797685 1}
    (h : fn_part3 (F := F) v44 v48 v52 ValueIdx.ix0 = 1#1) :
    v44 ValueIdx.ix0 = 1#1 ∧ ∀ i, v48 i = 1#1 ∧ v52 i = 1#1 := by
  dsimp only [fn_part3] at h
  obtain ⟨h1, h2⟩ := IntOp.andi_eq_one.1 h
  refine ⟨h1, fun i => ?_⟩
  have h3 := Host.reduce_andi_all _ _ _ _ _ h2 i
  exact IntOp.andi_eq_one.1 h3

/-- The middle part: both range conjuncts, and the bit it was handed. -/
theorem part2_one {a1 : IVec S2x300000 32} {a2 : IVec S2x1797685 32} {v33 : IVec S_ 1}
    (h : fn_part2 (F := F) a1 a2 v33 ValueIdx.ix0 = 1#1) :
    (∀ e : Fin 300000, 0 ≤ (a1 (ValueIdx.ix2 0 e)).toInt ∧ (a1 (ValueIdx.ix2 0 e)).toInt < 50000) ∧
    (∀ e : Fin 1797685, 0 ≤ (a2 (ValueIdx.ix2 0 e)).toInt ∧ (a2 (ValueIdx.ix2 0 e)).toInt < 50000) ∧
    v33 ValueIdx.ix0 = 1#1 := by
  dsimp only [fn_part2] at h
  obtain ⟨h44, h2⟩ := part3_one h
  obtain ⟨h33, h43⟩ := IntOp.andi_eq_one.1 h44
  refine ⟨fun e => ?_, fun e => ?_, h33⟩
  · have h3 := Host.reduce_andi_all _ _ _ _ _ h43 (ValueIdx.ix1 e)
    obtain ⟨hge, hlt⟩ := IntOp.andi_eq_one.1 h3
    rw [← row0_apply a1 Facts.slices_S2x300000_S1x300000_0_0 Facts.shapeCasts_S1x300000_S300000 e]
    exact range_of_bits hge hlt
  · obtain ⟨hge, hlt⟩ := h2 (ValueIdx.ix1 e)
    rw [← row0_apply a2 Facts.slices_S2x1797685_S1x1797685_0_0 Facts.shapeCasts_S1x1797685_S1797685 e]
    exact range_of_bits hge hlt

/-- The source ids of the first edge table are node ids. -/
theorem src1_range {a0 : FVec F S50000x512 .f32} {a1 : IVec S2x300000 32} {a2 : IVec S2x1797685 32}
    {a3 : FVec F S512x64 .f32} {a4 : FVec F S64 .f32} {a5 : FVec F S128x16 .f32} {a6 : FVec F S16 .f32}
    {a7 : FVec F S32x16 .f32} {a8 : FVec F S16 .f32}
    (h : fn (F := F) a0 a1 a2 a3 a4 a5 a6 a7 a8 = fun _ => 1#1) (e : Fin 300000) :
    0 ≤ (a1 (ValueIdx.ix2 0 e)).toInt ∧ (a1 (ValueIdx.ix2 0 e)).toInt < 50000 := by
  have h0 := congrFun h ValueIdx.ix0
  dsimp only [fn] at h0
  dsimp only [fn_part1] at h0
  exact (part2_one h0).1 e

/-- The source ids of the second edge table are node ids. -/
theorem src2_range {a0 : FVec F S50000x512 .f32} {a1 : IVec S2x300000 32} {a2 : IVec S2x1797685 32}
    {a3 : FVec F S512x64 .f32} {a4 : FVec F S64 .f32} {a5 : FVec F S128x16 .f32} {a6 : FVec F S16 .f32}
    {a7 : FVec F S32x16 .f32} {a8 : FVec F S16 .f32}
    (h : fn (F := F) a0 a1 a2 a3 a4 a5 a6 a7 a8 = fun _ => 1#1) (e : Fin 1797685) :
    0 ≤ (a2 (ValueIdx.ix2 0 e)).toInt ∧ (a2 (ValueIdx.ix2 0 e)).toInt < 50000 := by
  have h0 := congrFun h ValueIdx.ix0
  dsimp only [fn] at h0
  dsimp only [fn_part1] at h0
  exact (part2_one h0).2.1 e

end Cert.Pre_finite_inputs.Hand
-- ==== Proof.Bridge.Final.lean ====
import proofs.«402757_j20469814133395_4_alg».proof.Defs
import proofs.«402757_j20469814133395_4_alg».proof.Proof.Gen.Pre_finite_inputs
import proofs.«402757_j20469814133395_4_alg».proof.Proof.KI.Regs
import proofs.«402757_j20469814133395_4_alg».proof.Proof.KI.HostVal1
import proofs.«402757_j20469814133395_4_alg».proof.Proof.KI.HostVal2
import proofs.«402757_j20469814133395_4_alg».proof.Proof.KI.HostVal3
import proofs.«402757_j20469814133395_4_alg».proof.Proof.KI.HostVal4
import proofs.«402757_j20469814133395_4_alg».proof.Proof.KI.TblVal
import proofs.«402757_j20469814133395_4_alg».proof.Proof.KI.SegVal1Row
import proofs.«402757_j20469814133395_4_alg».proof.Proof.KI.SegVal2Row
import proofs.«402757_j20469814133395_4_alg».proof.Proof.KI.SegVal4Row
import proofs.«402757_j20469814133395_4_alg».proof.Proof.KI.SegVal5Row
import proofs.«402757_j20469814133395_4_alg».proof.Proof.KI.SegArr1
import proofs.«402757_j20469814133395_4_alg».proof.Proof.KI.SegArr2
import proofs.«402757_j20469814133395_4_alg».proof.Proof.KI.SegArr4
import proofs.«402757_j20469814133395_4_alg».proof.Proof.KI.SegArr5
import proofs.«402757_j20469814133395_4_alg».proof.Proof.Bridge.Conv1
import proofs.«402757_j20469814133395_4_alg».proof.Proof.Bridge.Conv2
import proofs.«402757_j20469814133395_4_alg».proof.Proof.Bridge.Conv3
import proofs.«402757_j20469814133395_4_alg».proof.Proof.Bridge.Conv4
import proofs.«402757_j20469814133395_4_alg».proof.Proof.Bridge.MmRef
import proofs.«402757_j20469814133395_4_alg».proof.Proof.Bridge.Keeps
import proofs.«402757_j20469814133395_4_alg».proof.Proof.Bridge.Glue
import proofs.«402757_j20469814133395_4_alg».proof.Proof.Ref.ReadP
import proofs.«402757_j20469814133395_4_alg».proof.Proof.Pre.Decode

/-!
# The value claim: the kernel program's result array is the reference's

At the extended reals, on every core, the array the kernel program leaves in its result
buffer is the reference's composed term of the nine arguments. The proof is a chain of array
equalities, one per stage of the two-layer network: the first product, the two aggregations
of the first layer, their rectified concatenation, the second product, the two aggregations
of the second layer, their concatenation, the third product with its bias, and the
row-wise log-softmax.
-/

noncomputable section

namespace Cert.Bridge

open Cert.KernelIdeal Cert.KernelIdeal.Gen Cert.KernelIdeal.GenP Cert.KernelIdeal.Hand Cert.KernelIdeal.HandVal
open Idealize.ShloMosaic Idealize.ShloMosaic.TcCoe Idealize.SL.Sem
open Idealize.ShloMosaic.ValueIdx Cert.Math.SegSum Cert.Math.RowOps
open Cert.ReferenceIdeal.Read (val_main_v0 val_main_v48 val_main_v97 val_main_v99 val_main_v100 val_main_v148
  val_main_v197 val_main_v198 val_main_v202 val_main_v203)

variable (m : (ℓ : Loc nD τ sig) → Buf (Elt Ideal) ℓ)

/-! ## The nine arguments as launched, each at its array type -/

abbrev A0 (c : Dev nD) : S50000x512.Idx → EReal := GenP.V0 m c main_arg0
abbrev A1 (c : Dev nD) : S2x300000.Idx → BitVec 32 := GenP.V0 m c main_arg1
abbrev A2 (c : Dev nD) : S2x1797685.Idx → BitVec 32 := GenP.V0 m c main_arg2
abbrev A3 (c : Dev nD) : S512x64.Idx → EReal := GenP.V0 m c main_arg3
abbrev A4 (c : Dev nD) : S64.Idx → EReal := GenP.V0 m c main_arg4
abbrev A5 (c : Dev nD) : S128x16.Idx → EReal := GenP.V0 m c main_arg5
abbrev A6 (c : Dev nD) : S16.Idx → EReal := GenP.V0 m c main_arg6
abbrev A7 (c : Dev nD) : S32x16.Idx → EReal := GenP.V0 m c main_arg7
abbrev A8 (c : Dev nD) : S16.Idx → EReal := GenP.V0 m c main_arg8

/-! ## Small facts -/

/-- A 32-bit word whose signed value is a node id has that id as its unsigned value. -/
theorem toNat_lt_of_range (w : BitVec 32) (h0 : 0 ≤ w.toInt) (h1 : w.toInt < 50000) : w.toNat < 50000 := by
  rw [toNat_of_toInt_nonneg _ h0]; omega

/-! ## Stage 0: the first product -/

/-- What the first product leaves is the reference's product of the features and the first
weight array. -/
theorem link0 (c : Dev nD) :
    (outs m 30 main_v132 c : S50000x64.Idx → EReal) = val_main_v0 (F := Ideal) (A0 m c) (A3 m c) := by
  refine (outs_0 m c).trans ?_
  unfold o0 B0
  exact mm0_val m c

/-! ## Stage 1: the first aggregation of the first layer -/

/-- The sorting order of the first edge set names, at each position, the edge the sorting
permutation of the destination ids puts there. -/
theorem ord1 (c : Dev nD) (e : Fin 350000) :
    order m c (ix1 e) = BitVec.ofNat 32 (argsortPerm (tAll m c) e).val := by
  rw [order_eq m c]
  exact argsort_order_350000 (tAll m c) (ix1 e)

/-- The prefetched table of region 1, made from a valuation, is that valuation's table array. -/
theorem tbl1_at (V : Valuation τ sig (Elt Ideal)) (a : (pcfg1 (F := Ideal)).Adm) (h : a.1 = fun k => V (pre1.ref k))
    (c : Dev nD) (x : S172.Idx) :
    (tbl1 a c : S172.Idx → BitVec 32) x = (V main_v63 : S172.Idx → BitVec 32) x := by
  show (a.1 0 : S172.Idx → BitVec 32) x = _
  rw [h]
  rfl

/-- One slab entry of region 1, from any entry contents: the windowed sum over the slab's half of
the blocks, written over the table of window starts, the destination ids and the scaled source
rows the region is entered with. -/
theorem slab1_gen (V : (c : Dev nD) → (b : Ref sig .tc) → Buf (Elt Ideal) ((c : Thread nD τ).loc b))
    (a : (pcfg1 (F := Ideal)).Adm) (htbl : Htbl1 a) (c : Dev nD) (p : Fin 2) (r : Fin 50000) (f : Fin 64)
    (X63 : S172.Idx → BitVec 32) (X55 : S352256.Idx → BitVec 32) (X137 : S352256x64.Idx → EReal)
    (h63 : ∀ x : S172.Idx, (tbl1 a c : S172.Idx → BitVec 32) x = X63 x)
    (h64 : ∀ e : Fin 352256, (V c main_v64 : S1x352256.Idx → BitVec 32) (ix2 (0 : Fin 1) e) = X55 (ix1 e))
    (h137 : ∀ e : Fin 352256, (V c main_v137 : S352256x64.Idx → EReal) (ix2 e f) = X137 (ix2 e f)) :
    ((dat1 V a htbl c).arrAt 2 (cfg1 a).N : S2x50000x64.Idx → EReal) (ix3 p r f)
      = winSum 86 (fun b => natInt X63 (p.val * 86 + b)) (fun e => natInt X55 (p.val * 86 * 2048 + e))
          (fun e => natCol X137 f (p.val * 86 * 2048 + e)) (r.val : ℤ) := by
  have hN : (cfg1 a).N = 172 := by
    show grid1.N = 172
    exact N_1
  -- the region's output array is the rows' last accumulations
  refine (congrFun (arr1_final V a htbl c) (ix3 p r f)).trans ?_
  refine (final1_apply V a htbl c (ix3 p r f)).trans ?_
  -- the window start read at a point is the table's word there
  have hstart : ∀ t : Fin (cfg1 a).N,
      (word1 c (grid1.coords t) tbM1 (tbl1 a c)).toInt = natInt X63 t.val := fun t => by
    have ht : t.val < 172 := lt_of_lt_of_eq t.isLt hN
    rw [natInt_of_lt _ ht]
    refine congrArg BitVec.toInt ?_
    refine (word1_eq c (grid1.coords t) (tbl1 a c) (ix1 ⟨t.val, ht⟩) ?_).trans (h63 _)
    show t.val = 86 * ((grid1.coords t) 0).val + ((grid1.coords t) 1).val
    have h0 := coords1_0 t
    have h1' := coords1_1 t
    omega
  -- the destination ids of a block are rows of the destination-id operand
  have hT : ∀ (t : Fin (cfg1 a).N) (k : Fin 2048),
      ((iblk1 V a c 1 t : Vec Ideal S1x2048 .i32) (ix2 0 k)).toInt = natInt X55 (t.val * 2048 + k.val) := fun t k => by
    have ht : t.val < 172 := lt_of_lt_of_eq t.isLt hN
    have hlt : t.val * 2048 + k.val < 352256 := by have := k.isLt; omega
    rw [natInt_of_lt _ hlt]
    refine congrArg BitVec.toInt ?_
    refine (iblk1_1_at V a c t k (ix2 (0 : Fin 1) ⟨t.val * 2048 + k.val, hlt⟩) rfl).trans ?_
    exact h64 ⟨t.val * 2048 + k.val, hlt⟩
  -- the values of a block are rows of the value operand
  have hu : ∀ (t : Fin (cfg1 a).N) (k : Fin 2048),
      (iblk1 V a c 0 t : Vec Ideal S2048x64 .bf16) (ix2 k f) = natCol X137 f (t.val * 2048 + k.val) := fun t k => by
    have ht : t.val < 172 := lt_of_lt_of_eq t.isLt hN
    have hlt : t.val * 2048 + k.val < 352256 := by have := k.isLt; omega
    rw [natCol_of_lt _ f hlt]
    refine (iblk1_0_at V a c t k f (ix2 ⟨t.val * 2048 + k.val, hlt⟩ f) rfl rfl).trans ?_
    exact h137 ⟨t.val * 2048 + k.val, hlt⟩
  exact outs_row V a htbl c p r f (natInt X63) (natInt X55) (natCol X137 f) hstart hT hu (rowEnd1_lt a (ix3 p r f))

/-- One slab entry of region 1 as the program runs it: over the table of window starts, the
sorted padded destination ids and the sorted padded scaled source rows the host operations leave. -/
theorem slab1_at (c : Dev nD) (p : Fin 2) (r : Fin 50000) (f : Fin 64) :
    (outs m 33 main_v138 c : S2x50000x64.Idx → EReal) (ix3 p r f)
      = winSum 86 (fun b => natInt (GenP.V32 m (outs m) c main_v63 : S172.Idx → BitVec 32) (p.val * 86 + b))
          (fun e => natInt (GenP.V29 m c main_v55 : S352256.Idx → BitVec 32) (p.val * 86 * 2048 + e))
          (fun e => natCol (GenP.V32 m (outs m) c main_v137 : S352256x64.Idx → EReal) f (p.val * 86 * 2048 + e))
          (r.val : ℤ) := by
  obtain rfl := dev_eq c
  refine (congrFun (outs_1 m c0) (ix3 p r f)).trans ?_
  unfold o1
  exact slab1_gen (fun c b => B1 m c b) (a1 m) (a1_ok m) c0 p r f
    (GenP.V32 m (outs m) c0 main_v63) (GenP.V29 m c0 main_v55) (GenP.V32 m (outs m) c0 main_v137)
    (fun x => (tbl1_at (B1 m c0) (a1 m) rfl c0 x).trans (congrFun (congrFun (V32_eq m c0) main_v63) x).symm)
    (fun e => (congrFun (congrFun (V32_eq m c0) main_v64) (ix2 (0 : Fin 1) e)).symm.trans (v64_at m (outs m) c0 e))
    (fun e => (congrFun (congrFun (V32_eq m c0) main_v137) (ix2 e f)).symm)

/-- The aggregation's result is the reference's, entry by entry. -/
theorem link1_at (hpre : Cert.Pre_KernelIdeal m) (c : Dev nD) (r : Fin 50000) (f : Fin 64) :
    (GenP.V36 m (outs m) c main_v146 : S50000x64.Idx → EReal) (ix2 r f)
      = val_main_v48 (F := Ideal) (A0 m c) (A1 m c) (A3 m c) (A4 m c) (ix2 r f) := by
  have hsrc : ∀ e : Fin 300000, 0 ≤ (A1 m c (ix2 0 e)).toInt ∧ (A1 m c (ix2 0 e)).toInt < 50000 :=
    fun e => Cert.Pre_finite_inputs.Hand.src1_range (F := Ideal) (hpre c) e
  have hs : ∀ k : Fin 350000, (sAll m c (ix1 k)).toNat < 50000 := fun k => by
    have h := sAll_range m c hsrc k
    exact toNat_lt_of_range _ h.1 h.2
  have htbl : ∀ b : Fin 172, ((GenP.V32 m (outs m) c main_v63 : S172.Idx → BitVec 32) (ix1 b)).toInt
      = min (max (8 * (((GenP.V29 m c main_v55 : S352256.Idx → BitVec 32) (ix1 ⟨b.val * 2048, by omega⟩)).toInt / 8)) 0) 47944 := fun b => by
    have h := tbl63_toInt m (outs m) c (ix1 b) (ix1 ⟨b.val * 2048, by omega⟩) rfl
    rw [keep_v55_32_29 m (outs m) c] at h
    exact h
  exact conv1_entry m c r f (A0 m c) (A1 m c) (A3 m c) (A4 m c) rfl (sAll m c) (tAll m c) (normAll m c) rfl rfl rfl
    (GenP.V29 m c main_v55) (GenP.V32 m (outs m) c main_v63) (outs m 30 main_v132 c)
    (GenP.V32 m (outs m) c main_v137) (outs m 33 main_v138 c) (GenP.V36 m (outs m) c main_v146)
    hsrc
    (fun i => congrFun (link0 m c) (ix2 i f))
    (fun e => v55_at m c (argsortPerm (tAll m c)) (ord1 m c) ⟨e.val, by omega⟩ e.isLt)
    (fun e he => v55_at_pad m c e he)
    (fun e hrow => v137_at (c := c) (mI := m) (outsI := outs m) (σ := argsortPerm (tAll m c)) (hord := ord1 m c)
      (hs := hs) ⟨e.val, by omega⟩ e.isLt f)
    htbl
    (fun p => slab1_at m c p r f)
    (v146_at (c := c) (mI := m) (outsI := outs m) r f)

theorem link1 (hpre : Cert.Pre_KernelIdeal m) (c : Dev nD) :
    (GenP.V36 m (outs m) c main_v146 : S50000x64.Idx → EReal)
      = val_main_v48 (F := Ideal) (A0 m c) (A1 m c) (A3 m c) (A4 m c) := by
  funext j
  rw [eq_ix2 j]
  exact link1_at m hpre c (j 0) (j 1)

/-! ## Stage 2: the second aggregation of the first layer -/

/-- The sorting order of the second edge set, as for the first. -/
theorem ord2 (c : Dev nD) (e : Fin 1847685) :
    order2 m c (ix1 e) = BitVec.ofNat 32 (argsortPerm (tAll2 m c) e).val := by
  rw [order2_eq m c]
  exact argsort_order_1847685 (tAll2 m c) (ix1 e)

/-- The prefetched table of region 2, made from a valuation, is that valuation's table array. -/
theorem tbl2_at (V : Valuation τ sig (Elt Ideal)) (a : (pcfg2 (F := Ideal)).Adm) (h : a.1 = fun k => V (pre2.ref k))
    (c : Dev nD) (x : S904.Idx) :
    (tbl2 a c : S904.Idx → BitVec 32) x = (V main_v128 : S904.Idx → BitVec 32) x := by
  show (a.1 0 : S904.Idx → BitVec 32) x = _
  rw [h]
  rfl

/-- One slab entry of region 2, from any entry contents: the windowed sum over the slab's half of
the blocks, written over the table of window starts, the destination ids and the scaled source
rows the region is entered with. -/
theorem slab2_gen (V : (c : Dev nD) → (b : Ref sig .tc) → Buf (Elt Ideal) ((c : Thread nD τ).loc b))
    (a : (pcfg2 (F := Ideal)).Adm) (htbl : Htbl2 a) (c : Dev nD) (p : Fin 2) (r : Fin 50000) (f : Fin 64)
    (X63 : S904.Idx → BitVec 32) (X55 : S1851392.Idx → BitVec 32) (X137 : S1851392x64.Idx → EReal)
    (h63 : ∀ x : S904.Idx, (tbl2 a c : S904.Idx → BitVec 32) x = X63 x)
    (h64 : ∀ e : Fin 1851392, (V c main_v129 : S1x1851392.Idx → BitVec 32) (ix2 (0 : Fin 1) e) = X55 (ix1 e))
    (h137 : ∀ e : Fin 1851392, (V c main_v151 : S1851392x64.Idx → EReal) (ix2 e f) = X137 (ix2 e f)) :
    ((dat2 V a htbl c).arrAt 2 (cfg2 a).N : S2x50000x64.Idx → EReal) (ix3 p r f)
      = winSum 452 (fun b => natInt X63 (p.val * 452 + b)) (fun e => natInt X55 (p.val * 452 * 2048 + e))
          (fun e => natCol X137 f (p.val * 452 * 2048 + e)) (r.val : ℤ) := by
  have hN : (cfg2 a).N = 904 := by
    show grid2.N = 904
    exact N_2
  -- the region's output array is the rows' last accumulations
  refine (congrFun (arr2_final V a htbl c) (ix3 p r f)).trans ?_
  refine (final2_apply V a htbl c (ix3 p r f)).trans ?_
  -- the window start read at a point is the table's word there
  have hstart : ∀ t : Fin (cfg2 a).N,
      (word2 c (grid2.coords t) tbM2 (tbl2 a c)).toInt = natInt X63 t.val := fun t => by
    have ht : t.val < 904 := lt_of_lt_of_eq t.isLt hN
    rw [natInt_of_lt _ ht]
    refine congrArg BitVec.toInt ?_
    refine (word2_eq c (grid2.coords t) (tbl2 a c) (ix1 ⟨t.val, ht⟩) ?_).trans (h63 _)
    show t.val = 452 * ((grid2.coords t) 0).val + ((grid2.coords t) 1).val
    have h0 := coords2_0 t
    have h1' := coords2_1 t
    omega
  -- the destination ids of a block are rows of the destination-id operand
  have hT : ∀ (t : Fin (cfg2 a).N) (k : Fin 2048),
      ((iblk2 V a c 1 t : Vec Ideal S1x2048 .i32) (ix2 0 k)).toInt = natInt X55 (t.val * 2048 + k.val) := fun t k => by
    have ht : t.val < 904 := lt_of_lt_of_eq t.isLt hN
    have hlt : t.val * 2048 + k.val < 1851392 := by have := k.isLt; omega
    rw [natInt_of_lt _ hlt]
    refine congrArg BitVec.toInt ?_
    refine (iblk2_1_at V a c t k (ix2 (0 : Fin 1) ⟨t.val * 2048 + k.val, hlt⟩) rfl).trans ?_
    exact h64 ⟨t.val * 2048 + k.val, hlt⟩
  -- the values of a block are rows of the value operand
  have hu : ∀ (t : Fin (cfg2 a).N) (k : Fin 2048),
      (iblk2 V a c 0 t : Vec Ideal S2048x64 .bf16) (ix2 k f) = natCol X137 f (t.val * 2048 + k.val) := fun t k => by
    have ht : t.val < 904 := lt_of_lt_of_eq t.isLt hN
    have hlt : t.val * 2048 + k.val < 1851392 := by have := k.isLt; omega
    rw [natCol_of_lt _ f hlt]
    refine (iblk2_0_at V a c t k f (ix2 ⟨t.val * 2048 + k.val, hlt⟩ f) rfl rfl).trans ?_
    exact h137 ⟨t.val * 2048 + k.val, hlt⟩
  exact outs2_row V a htbl c p r f (natInt X63) (natInt X55) (natCol X137 f) hstart hT hu (rowEnd2_lt a (ix3 p r f))

/-- One slab entry of region 2 as the program runs it: over the table of window starts, the
sorted padded destination ids and the sorted padded scaled source rows the host operations leave. -/
theorem slab2_at (c : Dev nD) (p : Fin 2) (r : Fin 50000) (f : Fin 64) :
    (outs m 37 main_v152 c : S2x50000x64.Idx → EReal) (ix3 p r f)
      = winSum 452 (fun b => natInt (GenP.V36 m (outs m) c main_v128 : S904.Idx → BitVec 32) (p.val * 452 + b))
          (fun e => natInt (GenP.V29 m c main_v120 : S1851392.Idx → BitVec 32) (p.val * 452 * 2048 + e))
          (fun e => natCol (GenP.V36 m (outs m) c main_v151 : S1851392x64.Idx → EReal) f (p.val * 452 * 2048 + e))
          (r.val : ℤ) := by
  obtain rfl := dev_eq c
  refine (congrFun (outs_2 m c0) (ix3 p r f)).trans ?_
  unfold o2
  exact slab2_gen (fun c b => B2 m c b) (a2 m) (a2_ok m) c0 p r f
    (GenP.V36 m (outs m) c0 main_v128) (GenP.V29 m c0 main_v120) (GenP.V36 m (outs m) c0 main_v151)
    (fun x => (tbl2_at (B2 m c0) (a2 m) rfl c0 x).trans (congrFun (congrFun (V36_eq m c0) main_v128) x).symm)
    (fun e => (congrFun (congrFun (V36_eq m c0) main_v129) (ix2 (0 : Fin 1) e)).symm.trans (v129_at m (outs m) c0 e))
    (fun e => (congrFun (congrFun (V36_eq m c0) main_v151) (ix2 e f)).symm)

/-- The aggregation's result is the reference's, entry by entry. -/
theorem link2_at (hpre : Cert.Pre_KernelIdeal m) (c : Dev nD) (r : Fin 50000) (f : Fin 64) :
    (GenP.V38 m (outs m) c main_v160 : S50000x64.Idx → EReal) (ix2 r f)
      = val_main_v97 (F := Ideal) (A0 m c) (A2 m c) (A3 m c) (A4 m c) (ix2 r f) := by
  have hsrc : ∀ e : Fin 1797685, 0 ≤ (A2 m c (ix2 0 e)).toInt ∧ (A2 m c (ix2 0 e)).toInt < 50000 :=
    fun e => Cert.Pre_finite_inputs.Hand.src2_range (F := Ideal) (hpre c) e
  have hs : ∀ k : Fin 1847685, (sAll2 m c (ix1 k)).toNat < 50000 := fun k => by
    have h := sAll2_range m c hsrc k
    exact toNat_lt_of_range _ h.1 h.2
  have htbl : ∀ b : Fin 904, ((GenP.V36 m (outs m) c main_v128 : S904.Idx → BitVec 32) (ix1 b)).toInt
      = min (max (8 * (((GenP.V29 m c main_v120 : S1851392.Idx → BitVec 32) (ix1 ⟨b.val * 2048, by omega⟩)).toInt / 8)) 0) 47944 := fun b => by
    have h := tbl128_toInt m (outs m) c (ix1 b) (ix1 ⟨b.val * 2048, by omega⟩) rfl
    rw [keep_v120_36_29 m (outs m) c] at h
    exact h
  exact conv2_entry m c r f (A0 m c) (A2 m c) (A3 m c) (A4 m c) rfl (sAll2 m c) (tAll2 m c) (normAll2 m c) rfl rfl rfl
    (GenP.V29 m c main_v120) (GenP.V36 m (outs m) c main_v128) (outs m 30 main_v132 c)
    (GenP.V36 m (outs m) c main_v151) (outs m 37 main_v152 c) (GenP.V38 m (outs m) c main_v160)
    hsrc
    (fun i => congrFun (link0 m c) (ix2 i f))
    (fun e => v120_at m c (argsortPerm (tAll2 m c)) (ord2 m c) ⟨e.val, by omega⟩ e.isLt)
    (fun e he => v120_at_pad m c e he)
    (fun e hrow => v151_at (c := c) (mI := m) (outsI := outs m) (σ := argsortPerm (tAll2 m c)) (hord := ord2 m c)
      (hs := hs) ⟨e.val, by omega⟩ e.isLt f)
    htbl
    (fun p => slab2_at m c p r f)
    (v160_at (c := c) (mI := m) (outsI := outs m) r f)

theorem link2 (hpre : Cert.Pre_KernelIdeal m) (c : Dev nD) :
    (GenP.V38 m (outs m) c main_v160 : S50000x64.Idx → EReal)
      = val_main_v97 (F := Ideal) (A0 m c) (A2 m c) (A3 m c) (A4 m c) := by
  funext j
  rw [eq_ix2 j]
  exact link2_at m hpre c (j 0) (j 1)

/-! ## Stage 3: the rectified concatenation -/

theorem link3 (hpre : Cert.Pre_KernelIdeal m) (c : Dev nD) :
    (GenP.V40 m (outs m) c main_v162 : S50000x128.Idx → EReal)
      = val_main_v99 (F := Ideal) (A0 m c) (A1 m c) (A2 m c) (A3 m c) (A4 m c) := by
  refine (keep_v162_40_39 m (outs m) c).trans ?_
  exact reluCat_carry m (outs m) (A0 m c) (A1 m c) (A2 m c) (A3 m c) (A4 m c) c
    ((keep_v146_37_34 m (outs m) c).trans ((keep_v146_36_34 m (outs m) c).symm.trans (link1 m hpre c)))
    (link2 m hpre c)

/-! ## Stage 4: the second product -/

/-- The entry contents of the second product's region, as one family over the cores. -/
theorem B3_fun :
    (fun (c : Dev nD) (b : Ref sig .tc) => B3 m c b) = fun (c : Dev nD) (b : Ref sig .tc) => GenP.V40 m (outs m) c b :=
  funext fun c => funext fun b => (congrFun (V40_eq m c) b).symm

theorem link4 (hpre : Cert.Pre_KernelIdeal m) (c : Dev nD) :
    (outs m 41 main_v165 c : S50000x16.Idx → EReal)
      = val_main_v100 (F := Ideal) (A0 m c) (A1 m c) (A2 m c) (A3 m c) (A4 m c) (A5 m c) := by
  refine (outs_3 m c).trans ?_
  refine (congrArg (fun V => (dat3 (F := Ideal) V c).arrAt 3 cfg3.N) (B3_fun m)).trans ?_
  refine (mm3_val m (outs m) c).trans ?_
  rw [link3 m hpre c, keep_arg5_40_0 m (outs m) c]
  rfl

/-! ## Stage 5: the first aggregation of the second layer -/

/-- The prefetched table of region 4, made from a valuation, is that valuation's table array. -/
theorem tbl4_at (V : Valuation τ sig (Elt Ideal)) (a : (pcfg4 (F := Ideal)).Adm) (h : a.1 = fun k => V (pre4.ref k))
    (c : Dev nD) (x : S172.Idx) :
    (tbl4 a c : S172.Idx → BitVec 32) x = (V main_v63 : S172.Idx → BitVec 32) x := by
  show (a.1 0 : S172.Idx → BitVec 32) x = _
  rw [h]
  rfl

/-- One slab entry of region 4, from any entry contents: the windowed sum over the slab's half of
the blocks, written over the table of window starts, the destination ids and the scaled source
rows the region is entered with. -/
theorem slab4_gen (V : (c : Dev nD) → (b : Ref sig .tc) → Buf (Elt Ideal) ((c : Thread nD τ).loc b))
    (a : (pcfg4 (F := Ideal)).Adm) (htbl : Htbl4 a) (c : Dev nD) (p : Fin 2) (r : Fin 50000) (f : Fin 16)
    (X63 : S172.Idx → BitVec 32) (X55 : S352256.Idx → BitVec 32) (X137 : S352256x16.Idx → EReal)
    (h63 : ∀ x : S172.Idx, (tbl4 a c : S172.Idx → BitVec 32) x = X63 x)
    (h64 : ∀ e : Fin 352256, (V c main_v64 : S1x352256.Idx → BitVec 32) (ix2 (0 : Fin 1) e) = X55 (ix1 e))
    (h137 : ∀ e : Fin 352256, (V c main_v170 : S352256x16.Idx → EReal) (ix2 e f) = X137 (ix2 e f)) :
    ((dat4 V a htbl c).arrAt 2 (cfg4 a).N : S2x50000x16.Idx → EReal) (ix3 p r f)
      = winSum 86 (fun b => natInt X63 (p.val * 86 + b)) (fun e => natInt X55 (p.val * 86 * 2048 + e))
          (fun e => natCol X137 f (p.val * 86 * 2048 + e)) (r.val : ℤ) := by
  have hN : (cfg4 a).N = 172 := by
    show grid4.N = 172
    exact N_4
  -- the region's output array is the rows' last accumulations
  refine (congrFun (arr4_final V a htbl c) (ix3 p r f)).trans ?_
  refine (final4_apply V a htbl c (ix3 p r f)).trans ?_
  -- the window start read at a point is the table's word there
  have hstart : ∀ t : Fin (cfg4 a).N,
      (word4 c (grid4.coords t) tbM4 (tbl4 a c)).toInt = natInt X63 t.val := fun t => by
    have ht : t.val < 172 := lt_of_lt_of_eq t.isLt hN
    rw [natInt_of_lt _ ht]
    refine congrArg BitVec.toInt ?_
    refine (word4_eq c (grid4.coords t) (tbl4 a c) (ix1 ⟨t.val, ht⟩) ?_).trans (h63 _)
    show t.val = 86 * ((grid4.coords t) 0).val + ((grid4.coords t) 1).val
    have h0 := coords4_0 t
    have h1' := coords4_1 t
    omega
  -- the destination ids of a block are rows of the destination-id operand
  have hT : ∀ (t : Fin (cfg4 a).N) (k : Fin 2048),
      ((iblk4 V a c 1 t : Vec Ideal S1x2048 .i32) (ix2 0 k)).toInt = natInt X55 (t.val * 2048 + k.val) := fun t k => by
    have ht : t.val < 172 := lt_of_lt_of_eq t.isLt hN
    have hlt : t.val * 2048 + k.val < 352256 := by have := k.isLt; omega
    rw [natInt_of_lt _ hlt]
    refine congrArg BitVec.toInt ?_
    refine (iblk4_1_at V a c t k (ix2 (0 : Fin 1) ⟨t.val * 2048 + k.val, hlt⟩) rfl).trans ?_
    exact h64 ⟨t.val * 2048 + k.val, hlt⟩
  -- the values of a block are rows of the value operand
  have hu : ∀ (t : Fin (cfg4 a).N) (k : Fin 2048),
      (iblk4 V a c 0 t : Vec Ideal S2048x16 .bf16) (ix2 k f) = natCol X137 f (t.val * 2048 + k.val) := fun t k => by
    have ht : t.val < 172 := lt_of_lt_of_eq t.isLt hN
    have hlt : t.val * 2048 + k.val < 352256 := by have := k.isLt; omega
    rw [natCol_of_lt _ f hlt]
    refine (iblk4_0_at V a c t k f (ix2 ⟨t.val * 2048 + k.val, hlt⟩ f) rfl rfl).trans ?_
    exact h137 ⟨t.val * 2048 + k.val, hlt⟩
  exact outs4_row V a htbl c p r f (natInt X63) (natInt X55) (natCol X137 f) hstart hT hu (rowEnd4_lt a (ix3 p r f))

/-- One slab entry of region 4 as the program runs it: over the table of window starts, the
sorted padded destination ids and the sorted padded scaled source rows the host operations leave. -/
theorem slab4_at (c : Dev nD) (p : Fin 2) (r : Fin 50000) (f : Fin 16) :
    (outs m 44 main_v171 c : S2x50000x16.Idx → EReal) (ix3 p r f)
      = winSum 86 (fun b => natInt (GenP.V43 m (outs m) c main_v63 : S172.Idx → BitVec 32) (p.val * 86 + b))
          (fun e => natInt (GenP.V29 m c main_v55 : S352256.Idx → BitVec 32) (p.val * 86 * 2048 + e))
          (fun e => natCol (GenP.V43 m (outs m) c main_v170 : S352256x16.Idx → EReal) f (p.val * 86 * 2048 + e))
          (r.val : ℤ) := by
  obtain rfl := dev_eq c
  refine (congrFun (outs_4 m c0) (ix3 p r f)).trans ?_
  unfold o4
  exact slab4_gen (fun c b => B4 m c b) (a4 m) (a4_ok m) c0 p r f
    (GenP.V43 m (outs m) c0 main_v63) (GenP.V29 m c0 main_v55) (GenP.V43 m (outs m) c0 main_v170)
    (fun x => (tbl4_at (B4 m c0) (a4 m) rfl c0 x).trans (congrFun (congrFun (V43_eq m c0) main_v63) x).symm)
    (fun e => (congrFun (congrFun (V43_eq m c0) main_v64) (ix2 (0 : Fin 1) e)).symm.trans (v64_at43 m (outs m) c0 e))
    (fun e => (congrFun (congrFun (V43_eq m c0) main_v170) (ix2 e f)).symm)

/-- The aggregation's result is the reference's, entry by entry. -/
theorem link5_at (hpre : Cert.Pre_KernelIdeal m) (c : Dev nD) (r : Fin 50000) (f : Fin 16) :
    (GenP.V45 m (outs m) c main_v179 : S50000x16.Idx → EReal) (ix2 r f)
      = val_main_v148 (F := Ideal) (A0 m c) (A1 m c) (A2 m c) (A3 m c) (A4 m c) (A5 m c) (A6 m c) (ix2 r f) := by
  have hsrc : ∀ e : Fin 300000, 0 ≤ (A1 m c (ix2 0 e)).toInt ∧ (A1 m c (ix2 0 e)).toInt < 50000 :=
    fun e => Cert.Pre_finite_inputs.Hand.src1_range (F := Ideal) (hpre c) e
  have hs : ∀ k : Fin 350000, (sAll m c (ix1 k)).toNat < 50000 := fun k => by
    have h := sAll_range m c hsrc k
    exact toNat_lt_of_range _ h.1 h.2
  have htbl : ∀ b : Fin 172, ((GenP.V43 m (outs m) c main_v63 : S172.Idx → BitVec 32) (ix1 b)).toInt
      = min (max (8 * (((GenP.V29 m c main_v55 : S352256.Idx → BitVec 32) (ix1 ⟨b.val * 2048, by omega⟩)).toInt / 8)) 0) 47944 := fun b => by
    have h := tbl63_toInt4 m (outs m) c (ix1 b) (ix1 ⟨b.val * 2048, by omega⟩) rfl
    rw [keep_v55_43_29 m (outs m) c] at h
    exact h
  exact conv3_entry m c r f (A0 m c) (A1 m c) (A2 m c) (A3 m c) (A4 m c) (A5 m c) (A6 m c) rfl (sAll m c) (tAll m c) (normAll m c) rfl rfl rfl
    (GenP.V29 m c main_v55) (GenP.V43 m (outs m) c main_v63) (outs m 41 main_v165 c)
    (GenP.V43 m (outs m) c main_v170) (outs m 44 main_v171 c) (GenP.V45 m (outs m) c main_v179)
    hsrc
    (fun i => congrFun (link4 m hpre c) (ix2 i f))
    (fun e => v55_at m c (argsortPerm (tAll m c)) (ord1 m c) ⟨e.val, by omega⟩ e.isLt)
    (fun e he => v55_at_pad m c e he)
    (fun e hrow => v170_at (c := c) (mI := m) (outsI := outs m) (σ := argsortPerm (tAll m c)) (hord := ord1 m c)
      (hs := hs) ⟨e.val, by omega⟩ e.isLt f)
    htbl
    (fun p => slab4_at m c p r f)
    (v179_at (c := c) (mI := m) (outsI := outs m) r f)

theorem link5 (hpre : Cert.Pre_KernelIdeal m) (c : Dev nD) :
    (GenP.V45 m (outs m) c main_v179 : S50000x16.Idx → EReal)
      = val_main_v148 (F := Ideal) (A0 m c) (A1 m c) (A2 m c) (A3 m c) (A4 m c) (A5 m c) (A6 m c) := by
  funext j
  rw [eq_ix2 j]
  exact link5_at m hpre c (j 0) (j 1)

/-! ## Stage 6: the second aggregation of the second layer -/

/-- The prefetched table of region 5, made from a valuation, is that valuation's table array. -/
theorem tbl5_at (V : Valuation τ sig (Elt Ideal)) (a : (pcfg5 (F := Ideal)).Adm) (h : a.1 = fun k => V (pre5.ref k))
    (c : Dev nD) (x : S904.Idx) :
    (tbl5 a c : S904.Idx → BitVec 32) x = (V main_v128 : S904.Idx → BitVec 32) x := by
  show (a.1 0 : S904.Idx → BitVec 32) x = _
  rw [h]
  rfl

/-- One slab entry of region 5, from any entry contents: the windowed sum over the slab's half of
the blocks, written over the table of window starts, the destination ids and the scaled source
rows the region is entered with. -/
theorem slab5_gen (V : (c : Dev nD) → (b : Ref sig .tc) → Buf (Elt Ideal) ((c : Thread nD τ).loc b))
    (a : (pcfg5 (F := Ideal)).Adm) (htbl : Htbl5 a) (c : Dev nD) (p : Fin 2) (r : Fin 50000) (f : Fin 16)
    (X63 : S904.Idx → BitVec 32) (X55 : S1851392.Idx → BitVec 32) (X137 : S1851392x16.Idx → EReal)
    (h63 : ∀ x : S904.Idx, (tbl5 a c : S904.Idx → BitVec 32) x = X63 x)
    (h64 : ∀ e : Fin 1851392, (V c main_v129 : S1x1851392.Idx → BitVec 32) (ix2 (0 : Fin 1) e) = X55 (ix1 e))
    (h137 : ∀ e : Fin 1851392, (V c main_v184 : S1851392x16.Idx → EReal) (ix2 e f) = X137 (ix2 e f)) :
    ((dat5 V a htbl c).arrAt 2 (cfg5 a).N : S2x50000x16.Idx → EReal) (ix3 p r f)
      = winSum 452 (fun b => natInt X63 (p.val * 452 + b)) (fun e => natInt X55 (p.val * 452 * 2048 + e))
          (fun e => natCol X137 f (p.val * 452 * 2048 + e)) (r.val : ℤ) := by
  have hN : (cfg5 a).N = 904 := by
    show grid5.N = 904
    exact N_5
  -- the region's output array is the rows' last accumulations
  refine (congrFun (arr5_final V a htbl c) (ix3 p r f)).trans ?_
  refine (final5_apply V a htbl c (ix3 p r f)).trans ?_
  -- the window start read at a point is the table's word there
  have hstart : ∀ t : Fin (cfg5 a).N,
      (word5 c (grid5.coords t) tbM5 (tbl5 a c)).toInt = natInt X63 t.val := fun t => by
    have ht : t.val < 904 := lt_of_lt_of_eq t.isLt hN
    rw [natInt_of_lt _ ht]
    refine congrArg BitVec.toInt ?_
    refine (word5_eq c (grid5.coords t) (tbl5 a c) (ix1 ⟨t.val, ht⟩) ?_).trans (h63 _)
    show t.val = 452 * ((grid5.coords t) 0).val + ((grid5.coords t) 1).val
    have h0 := coords5_0 t
    have h1' := coords5_1 t
    omega
  -- the destination ids of a block are rows of the destination-id operand
  have hT : ∀ (t : Fin (cfg5 a).N) (k : Fin 2048),
      ((iblk5 V a c 1 t : Vec Ideal S1x2048 .i32) (ix2 0 k)).toInt = natInt X55 (t.val * 2048 + k.val) := fun t k => by
    have ht : t.val < 904 := lt_of_lt_of_eq t.isLt hN
    have hlt : t.val * 2048 + k.val < 1851392 := by have := k.isLt; omega
    rw [natInt_of_lt _ hlt]
    refine congrArg BitVec.toInt ?_
    refine (iblk5_1_at V a c t k (ix2 (0 : Fin 1) ⟨t.val * 2048 + k.val, hlt⟩) rfl).trans ?_
    exact h64 ⟨t.val * 2048 + k.val, hlt⟩
  -- the values of a block are rows of the value operand
  have hu : ∀ (t : Fin (cfg5 a).N) (k : Fin 2048),
      (iblk5 V a c 0 t : Vec Ideal S2048x16 .bf16) (ix2 k f) = natCol X137 f (t.val * 2048 + k.val) := fun t k => by
    have ht : t.val < 904 := lt_of_lt_of_eq t.isLt hN
    have hlt : t.val * 2048 + k.val < 1851392 := by have := k.isLt; omega
    rw [natCol_of_lt _ f hlt]
    refine (iblk5_0_at V a c t k f (ix2 ⟨t.val * 2048 + k.val, hlt⟩ f) rfl rfl).trans ?_
    exact h137 ⟨t.val * 2048 + k.val, hlt⟩
  exact outs5_row V a htbl c p r f (natInt X63) (natInt X55) (natCol X137 f) hstart hT hu (rowEnd5_lt a (ix3 p r f))

/-- One slab entry of region 5 as the program runs it: over the table of window starts, the
sorted padded destination ids and the sorted padded scaled source rows the host operations leave. -/
theorem slab5_at (c : Dev nD) (p : Fin 2) (r : Fin 50000) (f : Fin 16) :
    (outs m 48 main_v185 c : S2x50000x16.Idx → EReal) (ix3 p r f)
      = winSum 452 (fun b => natInt (GenP.V47 m (outs m) c main_v128 : S904.Idx → BitVec 32) (p.val * 452 + b))
          (fun e => natInt (GenP.V29 m c main_v120 : S1851392.Idx → BitVec 32) (p.val * 452 * 2048 + e))
          (fun e => natCol (GenP.V47 m (outs m) c main_v184 : S1851392x16.Idx → EReal) f (p.val * 452 * 2048 + e))
          (r.val : ℤ) := by
  obtain rfl := dev_eq c
  refine (congrFun (outs_5 m c0) (ix3 p r f)).trans ?_
  unfold o5
  exact slab5_gen (fun c b => B5 m c b) (a5 m) (a5_ok m) c0 p r f
    (GenP.V47 m (outs m) c0 main_v128) (GenP.V29 m c0 main_v120) (GenP.V47 m (outs m) c0 main_v184)
    (fun x => (tbl5_at (B5 m c0) (a5 m) rfl c0 x).trans (congrFun (congrFun (V47_eq m c0) main_v128) x).symm)
    (fun e => (congrFun (congrFun (V47_eq m c0) main_v129) (ix2 (0 : Fin 1) e)).symm.trans (v129_at47 m (outs m) c0 e))
    (fun e => (congrFun (congrFun (V47_eq m c0) main_v184) (ix2 e f)).symm)

/-- The aggregation's result is the reference's, entry by entry. -/
theorem link6_at (hpre : Cert.Pre_KernelIdeal m) (c : Dev nD) (r : Fin 50000) (f : Fin 16) :
    (GenP.V49 m (outs m) c main_v193 : S50000x16.Idx → EReal) (ix2 r f)
      = val_main_v197 (F := Ideal) (A0 m c) (A1 m c) (A2 m c) (A3 m c) (A4 m c) (A5 m c) (A6 m c) (ix2 r f) := by
  have hsrc : ∀ e : Fin 1797685, 0 ≤ (A2 m c (ix2 0 e)).toInt ∧ (A2 m c (ix2 0 e)).toInt < 50000 :=
    fun e => Cert.Pre_finite_inputs.Hand.src2_range (F := Ideal) (hpre c) e
  have hs : ∀ k : Fin 1847685, (sAll2 m c (ix1 k)).toNat < 50000 := fun k => by
    have h := sAll2_range m c hsrc k
    exact toNat_lt_of_range _ h.1 h.2
  have htbl : ∀ b : Fin 904, ((GenP.V47 m (outs m) c main_v128 : S904.Idx → BitVec 32) (ix1 b)).toInt
      = min (max (8 * (((GenP.V29 m c main_v120 : S1851392.Idx → BitVec 32) (ix1 ⟨b.val * 2048, by omega⟩)).toInt / 8)) 0) 47944 := fun b => by
    have h := tbl128_toInt5 m (outs m) c (ix1 b) (ix1 ⟨b.val * 2048, by omega⟩) rfl
    rw [keep_v120_47_29 m (outs m) c] at h
    exact h
  exact conv4_entry m c r f (A0 m c) (A1 m c) (A2 m c) (A3 m c) (A4 m c) (A5 m c) (A6 m c) rfl (sAll2 m c) (tAll2 m c) (normAll2 m c) rfl rfl rfl
    (GenP.V29 m c main_v120) (GenP.V47 m (outs m) c main_v128) (outs m 41 main_v165 c)
    (GenP.V47 m (outs m) c main_v184) (outs m 48 main_v185 c) (GenP.V49 m (outs m) c main_v193)
    hsrc
    (fun i => congrFun (link4 m hpre c) (ix2 i f))
    (fun e => v120_at m c (argsortPerm (tAll2 m c)) (ord2 m c) ⟨e.val, by omega⟩ e.isLt)
    (fun e he => v120_at_pad m c e he)
    (fun e hrow => v184_at (c := c) (mI := m) (outsI := outs m) (σ := argsortPerm (tAll2 m c)) (hord := ord2 m c)
      (hs := hs) ⟨e.val, by omega⟩ e.isLt f)
    htbl
    (fun p => slab5_at m c p r f)
    (v193_at (c := c) (mI := m) (outsI := outs m) r f)

theorem link6 (hpre : Cert.Pre_KernelIdeal m) (c : Dev nD) :
    (GenP.V49 m (outs m) c main_v193 : S50000x16.Idx → EReal)
      = val_main_v197 (F := Ideal) (A0 m c) (A1 m c) (A2 m c) (A3 m c) (A4 m c) (A5 m c) (A6 m c) := by
  funext j
  rw [eq_ix2 j]
  exact link6_at m hpre c (j 0) (j 1)

/-! ## Stage 7: the concatenation of the second layer -/

theorem link7 (hpre : Cert.Pre_KernelIdeal m) (c : Dev nD) :
    (GenP.V49 m (outs m) c main_v194 : S50000x32.Idx → EReal)
      = val_main_v198 (F := Ideal) (A0 m c) (A1 m c) (A2 m c) (A3 m c) (A4 m c) (A5 m c) (A6 m c) := by
  exact cat16_carry m (outs m) (A0 m c) (A1 m c) (A2 m c) (A3 m c) (A4 m c) (A5 m c) (A6 m c) c
    ((keep_v179_48_45 m (outs m) c).trans (link5 m hpre c))
    (link6 m hpre c)

/-! ## Stage 8: the third product with its bias -/

/-- The entry contents of the third product's region, as one family over the cores. -/
theorem B6_fun :
    (fun (c : Dev nD) (b : Ref sig .tc) => B6 m c b) = fun (c : Dev nD) (b : Ref sig .tc) => GenP.V49 m (outs m) c b :=
  funext fun c => funext fun b => (congrFun (V49_eq m c) b).symm

theorem link8 (hpre : Cert.Pre_KernelIdeal m) (c : Dev nD) :
    (outs m 50 main_v196 c : S50000x16.Idx → EReal)
      = val_main_v202 (F := Ideal) (A0 m c) (A1 m c) (A2 m c) (A3 m c) (A4 m c) (A5 m c) (A6 m c) (A7 m c) (A8 m c) := by
  refine (outs_6 m c).trans ?_
  refine (congrArg (fun V => (dat6 (F := Ideal) V c).arrAt 3 cfg6.N) (B6_fun m)).trans ?_
  refine (mm6_val m (outs m) c).trans ?_
  rw [link7 m hpre c, keep_arg7_49_0 m (outs m) c, keep_arg8_48_0 m (outs m) c]
  rfl

/-! ## Stage 9: the row-wise log-softmax -/

theorem link9 (hpre : Cert.Pre_KernelIdeal m) (c : Dev nD) :
    (GenP.V51 m (outs m) c main_v197 : S50000x16.Idx → EReal)
      = val_main_v203 (F := Ideal) (A0 m c) (A1 m c) (A2 m c) (A3 m c) (A4 m c) (A5 m c) (A6 m c) (A7 m c) (A8 m c) := by
  exact logSoftmax_carry m (outs m) (A0 m c) (A1 m c) (A2 m c) (A3 m c) (A4 m c) (A5 m c) (A6 m c) (A7 m c) (A8 m c) c
    ((out_v196_50 m (outs m) c).trans (link8 m hpre c))

/-! ## The claim -/

/-- From memories agreeing on the arguments, the kernel program and the reference both run and
end with equal result arrays and unchanged arguments. -/
theorem algebraic : Cert.algebraic_KernelIdeal_ReferenceIdeal := by
  intro mk ρ mr ρ' hpre hagree
  refine ⟨_, Cert.KernelIdeal.Hand.run_val (F := Ideal) mk ρ, ?_⟩
  refine (θ_run Cert.ReferenceIdeal.defs _ _).mono (fun _ h c => ⟨(h c).1.trans ?_, (h c).2⟩)
    (Cert.ReferenceIdeal.ValueH.run (F := Ideal) mr ρ')
  rw [Cert.ReferenceIdeal.Read.val_main_v203_eq mr c,
    (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact (link9 mk hpre c).symm

end Cert.Bridge

end
-- ==== Proof.lean ====
/- The proof of `Cert.Claim`: the three frames, the (empty) idealization ledger, and the value claim at the
   extended reals. Each claim is proved in its own module; this file names them and assembles the conjunction. -/
import proofs.«402757_j20469814133395_4_alg».proof.Defs
import proofs.«402757_j20469814133395_4_alg».proof.Proof.Gen.Kernel
import proofs.«402757_j20469814133395_4_alg».proof.Proof.Gen.KernelIdeal
import proofs.«402757_j20469814133395_4_alg».proof.Proof.Gen.ReferenceIdeal
import proofs.«402757_j20469814133395_4_alg».proof.Proof.Gen.Pre_finite_inputs
import proofs.«402757_j20469814133395_4_alg».proof.Proof.K.Regs
import proofs.«402757_j20469814133395_4_alg».proof.Proof.KI.Regs
import proofs.«402757_j20469814133395_4_alg».proof.Proof.Ref.ReadP
import proofs.«402757_j20469814133395_4_alg».proof.Proof.Bridge.Final

noncomputable section

namespace Cert.Proof

open Idealize.ShloMosaic Idealize.SL.Sem

/-- The kernel program as printed runs and leaves its arguments. -/
theorem frame_k : Cert.frame_Kernel := fun m ρ _ => Cert.Kernel.Hand.frame m ρ

/-- The kernel program read at the extended reals runs and leaves its arguments. -/
theorem frame_ki : Cert.frame_KernelIdeal := fun m ρ _ => Cert.KernelIdeal.Hand.frame m ρ

/-- The reference runs and leaves its arguments. -/
theorem frame_ri : Cert.frame_ReferenceIdeal := fun m ρ _ =>
  (θ_run Cert.ReferenceIdeal.defs _ _).mono (fun _ h c => (h c).2) (Cert.ReferenceIdeal.ValueH.run (F := Ideal) m ρ)

/-- The ledger is empty: no operation was rewritten. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Bridge.algebraic⟩

end Cert.Proof

end
